-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v448) = v0 c
          ∧ r.2.mem ((c.tc : Thread Cert.ReferenceIdeal.nD Cert.ReferenceIdeal.τ).loc Cert.ReferenceIdeal.main_v451) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S2x10000x64 : Shape := ⟨3, ![2, 10000, 64]⟩
abbrev S4x2x128x64 : Shape := ⟨4, ![4, 2, 128, 64]⟩
abbrev S4x2x64x64 : Shape := ⟨4, ![4, 2, 64, 64]⟩
abbrev S4x64 : Shape := ⟨2, ![4, 64]⟩
abbrev S3x64 : Shape := ⟨2, ![3, 64]⟩
abbrev S64x10 : Shape := ⟨2, ![64, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x64 : S_.BroadcastsInDim S2x10000x64 (![] : Fin 0 → Fin S2x10000x64.rank)
  reducesTo_S2x10000x64_S_d0_1_2 : S2x10000x64.ReducesTo [0, 1, 2] S_
  bcast_S_S4x2x128x64 : S_.BroadcastsInDim S4x2x128x64 (![] : Fin 0 → Fin S4x2x128x64.rank)
  reducesTo_S4x2x128x64_S_d0_1_2_3 : S4x2x128x64.ReducesTo [0, 1, 2, 3] S_
  bcast_S_S4x2x64x64 : S_.BroadcastsInDim S4x2x64x64 (![] : Fin 0 → Fin S4x2x64x64.rank)
  reducesTo_S4x2x64x64_S_d0_1_2_3 : S4x2x64x64.ReducesTo [0, 1, 2, 3] S_
  bcast_S_S4x64 : S_.BroadcastsInDim S4x64 (![] : Fin 0 → Fin S4x64.rank)
  reducesTo_S4x64_S_d0_1 : S4x64.ReducesTo [0, 1] S_
  bcast_S_S3x64 : S_.BroadcastsInDim S3x64 (![] : Fin 0 → Fin S3x64.rank)
  reducesTo_S3x64_S_d0_1 : S3x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v50 : IVec S2x320000 1) : IVec S_ 1 :=
  let main_c_19 : IVec S_ 32 := constantI S_ 32 9999#32
  let main_v51 : IVec S2x320000 32 := broadcastInDim S2x320000 ![] bcast_S_S2x320000 main_c_19
  let main_v52 : IVec S2x320000 1 := cmpi .sle main_arg1 main_v51
  let main_v53 : IVec S2x320000 1 := andi main_v50 main_v52
  let main_c_20 : IVec S_ 1 := constantI S_ 1 1#1
  let main_v54 : IVec S_ 1 := (fun x v => Host.reduce IntOp.andi x v reducesTo_S2x320000_S_d0_1 h_S_) main_v53 main_c_20
  let main_v55 : IVec S_ 1 := andi main_v48 main_v54
  main_v55

def fn_part2 {F : FTy → Type} [FloatOps F] (main_arg1 : IVec S2x320000 32) (main_arg8 : FVec F S4x64 .f32) (main_arg9 : FVec F S64x10 .f32) (main_arg10 : FVec F S10 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S64x10 .f32 := Host.absf main_arg9
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_c_18 : IVec S_ 32 := constantI S_ 32 0#32
  let main_v49 : IVec S2x320000 32 := broadcastInDim S2x320000 ![] bcast_S_S2x320000 main_c_18
  let main_v50 : IVec S2x320000 1 := cmpi .sge main_arg1 main_v49
  fn_part3 (F := F) main_arg1 main_v48 main_v50

def fn_part1 {F : FTy → Type} [FloatOps F] (main_arg1 : IVec S2x320000 32) (main_arg5 : FVec F S4x64 .f32) (main_arg6 : FVec F S4x64 .f32) (main_arg7 : FVec F S3x64 .f32) (main_arg8 : FVec F S4x64 .f32) (main_arg9 : FVec F S64x10 .f32) (main_arg10 : FVec F S10 .f32) (main_v13 : IVec S_ 1) (main_v16 : IVec S4x2x64x64 1) : IVec S_ 1 :=
  let main_c_5 : IVec S_ 1 := constantI S_ 1 1#1
  let main_v17 : IVec S_ 1 := (fun x v => Host.reduce IntOp.andi x v reducesTo_S4x2x64x64_S_d0_1_2_3 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S10000x128 .f32) (main_arg1 : IVec S2x320000 32) (main_arg2 : FVec F S2x10000x64 .f32) (main_arg3 : FVec F S4x2x128x64 .f32) (main_arg4 : FVec F S4x2x64x64 .f32) (main_arg5 : FVec F S4x64 .f32) (main_arg6 : FVec F S4x64 .f32) (main_arg7 : FVec F S3x64 .f32) (main_arg8 : FVec F S4x64 .f32) (main_arg9 : FVec F S64x10 .f32) (main_arg10 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x64 .f32 := Host.absf main_arg2
  let main_cst_0 : FVec F S_ .f32 := constant S_ .f32 0x7F800000#32
  let main_v5 : FVec F S2x10000x64 .f32 := broadcastInDim S2x10000x64 ![] bcast_S_S2x10000x64 main_cst_0
  let main_v6 : IVec S2x10000x64 1 := cmpf .olt main_v4 main_v5
  let main_c_1 : IVec S_ 1 := constantI S_ 1 1#1
  let main_v7 : IVec S_ 1 := (fun x v => Host.reduce IntOp.andi x v reducesTo_S2x10000x64_S_d0_1_2 h_S_) main_v6 main_c_1
  let main_v8 : IVec S_ 1 := andi main_v3 main_v7
  let main_v9 : FVec F S4x2x128x64 .f32 := Host.absf main_arg3
  let main_cst_2 : FVec F S_ .f32 := constant S_ .f32 0x7F800000#32
  let main_v10 : FVec F S4x2x128x64 .f32 := broadcastInDim S4x2x128x64 ![] bcast_S_S4x2x128x64 main_cst_2
  let main_v11 : IVec S4x2x128x64 1 := cmpf .olt main_v9 main_v10
  let main_c_3 : IVec S_ 1 := constantI S_ 1 1#1
  let main_v12 : IVec S_ 1 := (fun x v => Host.reduce IntOp.andi x v reducesTo_S4x2x128x64_S_d0_1_2_3 h_S_) main_v11 main_c_3
  let main_v13 : IVec S_ 1 := andi main_v8 main_v12
  let main_v14 : FVec F S4x2x64x64 .f32 := Host.absf main_arg4
  let main_cst_4 : FVec F S_ .f32 := constant S_ .f32 0x7F800000#32
  let main_v15 : FVec F S4x2x64x64 .f32 := broadcastInDim S4x2x64x64 ![] bcast_S_S4x2x64x64 main_cst_4
  let main_v16 : IVec S4x2x64x64 1 := cmpf .olt main_v14 main_v15
  fn_part1 (F := F) main_arg1 main_arg5 main_arg6 main_arg7 main_arg8 main_arg9 main_arg10 main_v13 main_v16
-- ==== Kernel.lean ====
abbrev S10000x128 : Shape := ⟨2, ![10000, 128]⟩
abbrev S2x320000 : Shape := ⟨2, ![2, 320000]⟩
abbrev S2x10000x64 : Shape := ⟨3, ![2, 10000, 64]⟩
abbrev S4x2x128x64 : Shape := ⟨4, ![4, 2, 128, 64]⟩
abbrev S4x2x64x64 : Shape := ⟨4, ![4, 2, 64, 64]⟩
abbrev S4x64 : Shape := ⟨2, ![4, 64]⟩
abbrev S3x64 : Shape := ⟨2, ![3, 64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S1x10000x64 : Shape := ⟨3, ![1, 10000, 64]⟩
abbrev S10000x64 : Shape := ⟨2, ![10000, 64]⟩
abbrev S32x1x10240 : Shape := ⟨3, ![32, 1, 10240]⟩
abbrev S10000 : Shape := ⟨1, ![10000]⟩
abbrev S10240 : Shape := ⟨1, ![10240]⟩
abbrev S16 : Shape := ⟨1, ![16]⟩
abbrev S_ : Shape := ⟨0, ![]⟩
abbrev S1x1x10240 : Shape := ⟨3, ![1, 1, 10240]⟩
abbrev S32x10240 : Shape := ⟨2, ![32, 10240]⟩
abbrev S10000x1 : Shape := ⟨2, ![10000, 1]⟩
abbrev S1000x128 : Shape := ⟨2, ![1000, 128]⟩
abbrev S1000x64 : Shape := ⟨2, ![1000, 64]⟩
abbrev S1000x1 : Shape := ⟨2, ![1000, 1]⟩
abbrev S10000x192 : Shape := ⟨2, ![10000, 192]⟩
abbrev S192x10000 : Shape := ⟨2, ![192, 10000]⟩
abbrev S192x1x10000 : Shape := ⟨3, ![192, 1, 10000]⟩
abbrev S2500x128 : Shape := ⟨2, ![2500, 128]⟩
abbrev S6400 : Shape := ⟨1, ![6400]⟩
abbrev S1x1x10000 : Shape := ⟨3, ![1, 1, 10000]⟩
abbrev S4x1x128x64 : Shape := ⟨4, ![4, 1, 128, 64]⟩
abbrev S4x128x64 : Shape := ⟨3, ![4, 128, 64]⟩
abbrev S128x4x64 : Shape := ⟨3, ![128, 4, 64]⟩
abbrev S128x256 : Shape := ⟨2, ![128, 256]⟩
abbrev S4x1x64x64 : Shape := ⟨4, ![4, 1, 64, 64]⟩
abbrev S4x64x64 : Shape := ⟨3, ![4, 64, 64]⟩
abbrev S64x4x64 : Shape := ⟨3, ![64, 4, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S1000x10 : Shape := ⟨2, ![1000, 10]⟩
abbrev S1000x256 : Shape := ⟨2, ![1000, 256]⟩
abbrev S1x64 : Shape := ⟨2, ![1, 64]⟩

abbrev nBuf : Table → Nat
  | .hbm => 65
  | .local .tc .vmem => 39
  | .local .scVector .vmem => 15
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S2x10000x64, .f32⟩
  | .hbm, ⟨3, _⟩ => ⟨S4x2x128x64, .f32⟩
  | .hbm, ⟨4, _⟩ => ⟨S4x2x64x64, .f32⟩
  | .hbm, ⟨5, _⟩ => ⟨S4x64, .f32⟩
  | .hbm, ⟨6, _⟩ => ⟨S4x64, .f32⟩
  | .hbm, ⟨7, _⟩ => ⟨S3x64, .f32⟩
  | .hbm, ⟨8, _⟩ => ⟨S4x64, .f32⟩
  | .hbm, ⟨9, _⟩ => ⟨S64x10, .f32⟩
  | .hbm, ⟨10, _⟩ => ⟨S10, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S1x10000x64, .f32⟩
  | .hbm, ⟨16, _⟩ => ⟨S10000x64, .f32⟩
  | .hbm, ⟨17, _⟩ => ⟨S1x10000x64, .f32⟩
  | .hbm, ⟨18, _⟩ => ⟨S10000x64, .f32⟩
  | .hbm, ⟨19, _⟩ => ⟨S32x1x10240, .f32⟩
  | .hbm, ⟨20, _⟩ => ⟨S32x10240, .f32⟩
  | .hbm, ⟨21, _⟩ => ⟨S_, .f32⟩
  | .hbm, ⟨22, _⟩ => ⟨S10240, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x64, .f32⟩
  | .hbm, ⟨27, _⟩ => ⟨S10000x192, .f32⟩
  | .hbm, ⟨28, _⟩ => ⟨S192x10000, .f32⟩
  | .hbm, ⟨29, _⟩ => ⟨S192x1x10000, .f32⟩
  | .hbm, ⟨30, _⟩ => ⟨S2500x128, .i32⟩
  | .hbm, ⟨31, _⟩ => ⟨S2500x128, .i32⟩
  | .hbm, ⟨32, _⟩ => ⟨S2500x128, .i32⟩
  | .hbm, ⟨33, _⟩ => ⟨S320000, .i32⟩
  | .hbm, ⟨34, _⟩ => ⟨S192x1x10000, .f32⟩
  | .hbm, ⟨35, _⟩ => ⟨S192x10000, .f32⟩
  | .hbm, ⟨36, _⟩ => ⟨S10000x192, .f32⟩
  | .hbm, ⟨37, _⟩ => ⟨S10000x128, .f32⟩
  | .hbm, ⟨38, _⟩ => ⟨S10000x64, .f32⟩
  | .hbm, ⟨39, _⟩ => ⟨S4x1x128x64, .f32⟩
  | .hbm, ⟨40, _⟩ => ⟨S4x128x64, .f32⟩
  | .hbm, ⟨41, _⟩ => ⟨S128x4x64, .f32⟩
  | .hbm, ⟨42, _⟩ => ⟨S128x256, .f32⟩
  | .hbm, ⟨43, _⟩ => ⟨S4x1x128x64, .f32⟩
  | .hbm, ⟨44, _⟩ => ⟨S4x128x64, .f32⟩
  | .hbm, ⟨45, _⟩ => ⟨S128x4x64, .f32⟩
  | .hbm, ⟨46, _⟩ => ⟨S128x256, .f32⟩
  | .hbm, ⟨47, _⟩ => ⟨S4x1x64x64, .f32⟩
  | .hbm, ⟨48, _⟩ => ⟨S4x64x64, .f32⟩
  | .hbm, ⟨49, _⟩ => ⟨S64x4x64, .f32⟩
  | .hbm, ⟨50, _⟩ => ⟨S64x256, .f32⟩
  | .hbm, ⟨51, _⟩ => ⟨S4x1x64x64, .f32⟩
  | .hbm, ⟨52, _⟩ => ⟨S4x64x64, .f32⟩
  | .hbm, ⟨53, _⟩ => ⟨S64x4x64, .f32⟩
  | .hbm, ⟨54, _⟩ => ⟨S64x256, .f32⟩
  | .hbm, ⟨55, _⟩ => ⟨S4x64, .f32⟩
  | .hbm, ⟨56, _⟩ => ⟨S4x64, .f32⟩
  | .hbm, ⟨57, _⟩ => ⟨S1x256, .f32⟩
  | .hbm, ⟨58, _⟩ => ⟨S1x10, .f32⟩
  | .hbm, ⟨59, _⟩ => ⟨S10000x10, .f32⟩
  | .hbm, ⟨60, _⟩ => ⟨S10000x64, .f32⟩
  | .hbm, ⟨61, _⟩ => ⟨S10000x64, .f32⟩
  | .hbm, ⟨62, _⟩ => ⟨S1x10000x64, .f32⟩
  | .hbm, ⟨63, _⟩ => ⟨S1x10000x64, .f32⟩
  | .hbm, ⟨64, _⟩ => ⟨S2x10000x64, .f32⟩
  | .local .tc .vmem, ⟨0, _⟩ => ⟨S1000x128, .f32⟩
  | .local .tc .vmem, ⟨1, _⟩ => ⟨S1000x128, .f32⟩
  | .local .tc .vmem, ⟨2, _⟩ => ⟨S1000x64, .f32⟩
  | .local .tc .vmem, ⟨3, _⟩ => ⟨S1000x64, .f32⟩
  | .local .tc .vmem, ⟨4, _⟩ => ⟨S1000x1, .f32⟩
  | .local .tc .vmem, ⟨5, _⟩ => ⟨S1000x1, .f32⟩
  | .local .tc .vmem, ⟨6, _⟩ => ⟨S1000x128, .f32⟩
  | .local .tc .vmem, ⟨7, _⟩ => ⟨S1000x128, .f32⟩
  | .local .tc .vmem, ⟨8, _⟩ => ⟨S1000x64, .f32⟩
  | .local .tc .vmem, ⟨9, _⟩ => ⟨S1000x64, .f32⟩
  | .local .tc .vmem, ⟨10, _⟩ => ⟨S2500x128, .i32⟩
  | .local .tc .vmem, ⟨11, _⟩ => ⟨S2500x128, .i32⟩
  | .local .tc .vmem, ⟨12, _⟩ => ⟨S2500x128, .i32⟩
  | .local .tc .vmem, ⟨13, _⟩ => ⟨S1000x128, .f32⟩
  | .local .tc .vmem, ⟨14, _⟩ => ⟨S1000x128, .f32⟩
  | .local .tc .vmem, ⟨15, _⟩ => ⟨S1000x64, .f32⟩
  | .local .tc .vmem, ⟨16, _⟩ => ⟨S1000x64, .f32⟩
  | .local .tc .vmem, ⟨17, _⟩ => ⟨S1000x64, .f32⟩
  | .local .tc .vmem, ⟨18, _⟩ => ⟨S1000x64, .f32⟩
  | .local .tc .vmem, ⟨19, _⟩ => ⟨S1000x128, .f32⟩
  | .local .tc .vmem, ⟨20, _⟩ => ⟨S1000x128, .f32⟩
  | .local .tc .vmem, ⟨21, _⟩ => ⟨S1000x64, .f32⟩
  | .local .tc .vmem, ⟨22, _⟩ => ⟨S1000x64, .f32⟩
  | .local .tc .vmem, ⟨23, _⟩ => ⟨S1000x1, .f32⟩
  | .local .tc .vmem, ⟨24, _⟩ => ⟨S1000x1, .f32⟩
  | .local .tc .vmem, ⟨25, _⟩ => ⟨S128x256, .f32⟩
  | .local .tc .vmem, ⟨26, _⟩ => ⟨S128x256, .f32⟩
  | .local .tc .vmem, ⟨27, _⟩ => ⟨S64x256, .f32⟩
  | .local .tc .vmem, ⟨28, _⟩ => ⟨S64x256, .f32⟩
  | .local .tc .vmem, ⟨29, _⟩ => ⟨S1x256, .f32⟩
  | .local .tc .vmem, ⟨30, _⟩ => ⟨S3x64, .f32⟩
  | .local .tc .vmem, ⟨31, _⟩ => ⟨S64x10, .f32⟩
  | .local .tc .vmem, ⟨32, _⟩ => ⟨S1x10, .f32⟩
  | .local .tc .vmem, ⟨33, _⟩ => ⟨S1000x10, .f32⟩
  | .local .tc .vmem, ⟨34, _⟩ => ⟨S1000x10, .f32⟩
  | .local .tc .vmem, ⟨35, _⟩ => ⟨S1000x64, .f32⟩
  | .local .tc .vmem, ⟨36, _⟩ => ⟨S1000x64, .f32⟩
  | .local .tc .vmem, ⟨37, _⟩ => ⟨S1000x64, .f32⟩
  | .local .tc .vmem, ⟨38, _⟩ => ⟨S1000x64, .f32⟩
  | .local .scVector .vmem, ⟨0, _⟩ => ⟨S10000, .i32⟩
  | .local .scVector .vmem, ⟨1, _⟩ => ⟨S10240, .f32⟩
  | .local .scVector .vmem, ⟨2, _⟩ => ⟨S6400, .i32⟩
  | .local .scVector .vmem, ⟨3, _⟩ => ⟨S10000, .f32⟩
  | .local .scVector .vmem, ⟨4, _⟩ => ⟨S10000, .f32⟩
  | .local .scVector .vmem, ⟨5, _⟩ => ⟨S10000, .f32⟩
  | .local .scVector .vmem, ⟨6, _⟩ => ⟨S10000, .f32⟩
  | .local .scVector .vmem, ⟨7, _⟩ => ⟨S10000, .f32⟩
  | .local .scVector .vmem, ⟨8, _⟩ => ⟨S10000, .f32⟩
  | .local .scVector .vmem, ⟨9, _⟩ => ⟨S10000, .f32⟩
  | .local .scVector .vmem, ⟨10, _⟩ => ⟨S10000, .f32⟩
  | .local .scVector .vmem, ⟨11, _⟩ => ⟨S10000, .f32⟩
  | .local .scVector .vmem, ⟨12, _⟩ => ⟨S10000, .f32⟩
  | .local .scVector .vmem, ⟨13, _⟩ => ⟨S10000, .f32⟩
  | .local .scVector .vmem, ⟨14, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v1_scv : Ref sig .scVector := ⟨.hbm, 12, rfl⟩
abbrev main_v8_scv : Ref sig .scVector := ⟨.hbm, 19, rfl⟩
abbrev main_v20_scv : Ref sig .scVector := ⟨.hbm, 33, rfl⟩
abbrev main_v16_scv : Ref sig .scVector := ⟨.hbm, 29, rfl⟩
abbrev main_v21_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg1_1 : Ref sig .tc := ⟨.vmem, 16, rfl⟩
abbrev cc4_stg2_0 : Ref sig .tc := ⟨.vmem, 17, rfl⟩
abbrev cc4_stg2_1 : Ref sig .tc := ⟨.vmem, 18, rfl⟩
abbrev cc4_stg3_0 : Ref sig .tc := ⟨.vmem, 19, rfl⟩
abbrev cc4_stg3_1 : Ref sig .tc := ⟨.vmem, 20, rfl⟩
abbrev cc4_stg4_0 : Ref sig .tc := ⟨.vmem, 21, rfl⟩
abbrev cc4_stg4_1 : Ref sig .tc := ⟨.vmem, 22, rfl⟩
abbrev cc4_stg5_0 : Ref sig .tc := ⟨.vmem, 23, rfl⟩
abbrev cc4_stg5_1 : Ref sig .tc := ⟨.vmem, 24, rfl⟩
abbrev cc4_stg6_0 : Ref sig .tc := ⟨.vmem, 25, rfl⟩
abbrev cc4_stg7_0 : Ref sig .tc := ⟨.vmem, 26, rfl⟩
abbrev cc4_stg8_0 : Ref sig .tc := ⟨.vmem, 27, rfl⟩
abbrev cc4_stg9_0 : Ref sig .tc := ⟨.vmem, 28, rfl⟩
abbrev cc4_stg10_0 : Ref sig .tc := ⟨.vmem, 29, rfl⟩
abbrev cc4_stg11_0 : Ref sig .tc := ⟨.vmem, 30, rfl⟩
abbrev cc4_stg12_0 : Ref sig .tc := ⟨.vmem, 31, rfl⟩
abbrev cc4_stg13_0 : Ref sig .tc := ⟨.vmem, 32, rfl⟩
abbrev cc4_stg14_0 : Ref sig .tc := ⟨.vmem, 33, rfl⟩
abbrev cc4_stg14_1 : Ref sig .tc := ⟨.vmem, 34, rfl⟩
abbrev cc4_stg15_0 : Ref sig .tc := ⟨.vmem, 35, rfl⟩
abbrev cc4_stg15_1 : Ref sig .tc := ⟨.vmem, 36, rfl⟩
abbrev cc4_stg16_0 : Ref sig .tc := ⟨.vmem, 37, rfl⟩
abbrev cc4_stg16_1 : Ref sig .tc := ⟨.vmem, 38, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc3_scratch4 : Ref sig .scVector := ⟨.vmem, 6, rfl⟩
abbrev cc3_scratch5 : Ref sig .scVector := ⟨.vmem, 7, rfl⟩
abbrev cc3_scratch6 : Ref sig .scVector := ⟨.vmem, 8, rfl⟩
abbrev cc3_scratch7 : Ref sig .scVector := ⟨.vmem, 9, rfl⟩
abbrev cc3_scratch8 : Ref sig .scVector := ⟨.vmem, 10, rfl⟩
abbrev cc3_scratch9 : Ref sig .scVector := ⟨.vmem, 11, rfl⟩
abbrev cc3_scratch10 : Ref sig .scVector := ⟨.vmem, 12, rfl⟩
abbrev cc3_scratch11 : Ref sig .scVector := ⟨.vmem, 13, rfl⟩
abbrev cc3_scratch12 : Ref sig .scVector := ⟨.vmem, 14, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem1_0 : DmaSem sig := 13
abbrev cc2_sem2_0 : DmaSem sig := 14
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39
abbrev cc4_sem6_0 : DmaSem sig := 40
abbrev cc4_sem7_0 : DmaSem sig := 41
abbrev cc4_sem8_0 : DmaSem sig := 42
abbrev cc4_sem9_0 : DmaSem sig := 43
abbrev cc4_sem10_0 : DmaSem sig := 44
abbrev cc4_sem11_0 : DmaSem sig := 45
abbrev cc4_sem12_0 : DmaSem sig := 46
abbrev cc4_sem13_0 : DmaSem sig := 47
abbrev cc4_sem14_0 : DmaSem sig := 48
abbrev cc4_sem14_1 : DmaSem sig := 49
abbrev cc4_sem15_0 : DmaSem sig := 50
abbrev cc4_sem15_1 : DmaSem sig := 51
abbrev cc4_sem16_0 : DmaSem sig := 52
abbrev cc4_sem16_1 : DmaSem sig := 53
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c640_i32 : BitVec 32 := 640#32
  let v3 : BitVec 32 := Scalar.addi c0_i32_0 c640_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32_8 : BitVec 32 := 16#32
  let v9 : BitVec 32 := Scalar.muli arg6 c16_i32_8
  let v10 : Index := Scalar.indexCast v9
  ![v10.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v5 : BitVec 32 := Scalar.muli v1 c10000_i32
  ![v5.toNat]
@[reducible] def k0_t2_loop : Scf.Loop 32 :=
  let c0_i32_4 : BitVec 32 := 0#32
  let c625_i32 : BitVec 32 := 625#32
  let v7 : BitVec 32 := Scalar.addi c0_i32_4 c625_i32
  let c1_i32_5 : BitVec 32 := 1#32
  ⟨c0_i32_4, v7, c1_i32_5⟩
def k0_off3 (k0_t2 : Fin k0_t2_loop.trips) : Fin 1 → Nat :=
  let c0_i32_4 : BitVec 32 := 0#32
  let c1_i32_5 : BitVec 32 := 1#32
  let arg6 : BitVec 32 := Scf.iv c0_i32_4 c1_i32_5 k0_t2
  let c16_i32_8 : BitVec 32 := 16#32
  let v9 : BitVec 32 := Scalar.muli arg6 c16_i32_8
  let v10 : Index := Scalar.indexCast v9
  ![v10.toNat]

def k0_chk1 (v11 : IVec S16 32) : Prop :=
  (∀ a x, ((![v11] : Fin 1 → IVec S16 32) a x).toNat < S10240.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S10240.size a := fun v11 k0_hw1 => k0_hw1
def k0_off4 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_7 : BitVec 32 := 0#32
  let c0_i32_8_r1 : BitVec 32 := 0#32
  ![v1.toNat, 0, 0]
abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S2500x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2500x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2500x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![2, 16], ![false, false]⟩

@[reducible] def k3_t1_loop : Scf.Loop 32 :=
  let c0_i32_0 : BitVec 32 := 0#32
  let c625_i32 : BitVec 32 := 625#32
  let v3 : BitVec 32 := Scalar.addi c0_i32_0 c625_i32
  let c1_i32 : BitVec 32 := 1#32
  ⟨c0_i32_0, v3, c1_i32⟩
def k3_off1 (k3_t1 : Fin k3_t1_loop.trips) : Fin 1 → Nat :=
  let c0_i32_0 : BitVec 32 := 0#32
  let c1_i32 : BitVec 32 := 1#32
  let arg18 : BitVec 32 := Scf.iv c0_i32_0 c1_i32 k3_t1
  let c16_i32_37 : BitVec 32 := 16#32
  let v31 : BitVec 32 := Scalar.muli arg18 c16_i32_37
  let v32 : Index := Scalar.indexCast v31
  ![v32.toNat]
def k3_off2 (i : grid3.Coords) (c0_i32_2 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6_i32 : BitVec 32 := 6#32
  let v5 : BitVec 32 := Scalar.muli v1 c6_i32
  let v6 : BitVec 32 := Scalar.addi v5 c0_i32_2
  let c0_i32_3 : BitVec 32 := 0#32
  let c0_i32_37_r0 : BitVec 32 := 0#32
  ![v6.toNat, 0, 0]
@[reducible] def k3_t2_loop : Scf.Loop 32 :=
  let c0_i32_16 : BitVec 32 := 0#32
  let c50_i32 : BitVec 32 := 50#32
  let v17 : BitVec 32 := Scalar.addi c0_i32_16 c50_i32
  let c1_i32_17 : BitVec 32 := 1#32
  ⟨c0_i32_16, v17, c1_i32_17⟩
def k3_off3 (k3_t2 : Fin k3_t2_loop.trips) : Fin 1 → Nat :=
  let c0_i32_16 : BitVec 32 := 0#32
  let c1_i32_17 : BitVec 32 := 1#32
  let arg18 : BitVec 32 := Scf.iv c0_i32_16 c1_i32_17 k3_t2
  let c6400_i32 : BitVec 32 := 6400#32
  let v31 : BitVec 32 := Scalar.muli arg18 c6400_i32
  ![v31.toNat]
@[reducible] def k3_t3_loop : Scf.Loop 32 :=
  let c0_i32_38 : BitVec 32 := 0#32
  let c100_i32 : BitVec 32 := 100#32
  let v32 : BitVec 32 := Scalar.addi c0_i32_38 c100_i32
  let c1_i32_39 : BitVec 32 := 1#32
  ⟨c0_i32_38, v32, c1_i32_39⟩
def k3_off4 (k3_t3 : Fin k3_t3_loop.trips) : Fin 1 → Nat :=
  let c0_i32_38 : BitVec 32 := 0#32
  let c1_i32_39 : BitVec 32 := 1#32
  let arg20 : BitVec 32 := Scf.iv c0_i32_38 c1_i32_39 k3_t3
  let c64_i32 : BitVec 32 := 64#32
  let v34 : BitVec 32 := Scalar.muli arg20 c64_i32
  let c0_i32_42 : BitVec 32 := 0#32
  let v35 : BitVec 32 := Scalar.addi v34 c0_i32_42
  let v36 : Index := Scalar.indexCast v35
  ![v36.toNat]

def k3_chk1 (v41 : IVec S16 32) : Prop :=
  (∀ a x, ((![v41] : Fin 1 → IVec S16 32) a x).toNat < S10000.size a) ∧
  (∀ a x, ((![v41] : Fin 1 → IVec S16 32) a x).toNat < S10000.size a) ∧
  (∀ a x, ((![v41] : Fin 1 → IVec S16 32) a x).toNat < S10000.size a) ∧
  (∀ a x, ((![v41] : Fin 1 → IVec S16 32) a x).toNat < S10000.size a) ∧
  (∀ a x, ((![v41] : Fin 1 → IVec S16 32) a x).toNat < S10000.size a) ∧
  (∀ a x, ((![v41] : Fin 1 → IVec S16 32) a x).toNat < S10000.size a)
instance k3_chk1.dec : ∀ (v41 : IVec S16 32), Decidable (k3_chk1 v41) := fun v41 => decidable_of_iff' _ (Iff.of_eq (k3_chk1.eq_1 v41))
theorem k3_idx1_inb : ∀ (v41 : IVec S16 32) (k3_hw1 : k3_chk1 v41), ∀ a x, ((![v41] : Fin 1 → IVec S16 32) a x).toNat < S10000.size a := fun v41 k3_hw1 => k3_hw1.1
theorem k3_idx2_inb : ∀ (v41 : IVec S16 32) (k3_hw1 : k3_chk1 v41), ∀ a x, ((![v41] : Fin 1 → IVec S16 32) a x).toNat < S10000.size a := fun v41 k3_hw1 => k3_hw1.2.1
theorem k3_idx3_inb : ∀ (v41 : IVec S16 32) (k3_hw1 : k3_chk1 v41), ∀ a x, ((![v41] : Fin 1 → IVec S16 32) a x).toNat < S10000.size a := fun v41 k3_hw1 => k3_hw1.2.2.1
theorem k3_idx4_inb : ∀ (v41 : IVec S16 32) (k3_hw1 : k3_chk1 v41), ∀ a x, ((![v41] : Fin 1 → IVec S16 32) a x).toNat < S10000.size a := fun v41 k3_hw1 => k3_hw1.2.2.2.1
theorem k3_idx5_inb : ∀ (v41 : IVec S16 32) (k3_hw1 : k3_chk1 v41), ∀ a x, ((![v41] : Fin 1 → IVec S16 32) a x).toNat < S10000.size a := fun v41 k3_hw1 => k3_hw1.2.2.2.2.1
theorem k3_idx6_inb : ∀ (v41 : IVec S16 32) (k3_hw1 : k3_chk1 v41), ∀ a x, ((![v41] : Fin 1 → IVec S16 32) a x).toNat < S10000.size a := fun v41 k3_hw1 => k3_hw1.2.2.2.2.2

def k3_chk2 (v39 : IVec S16 32) : Prop :=
  (∀ a x, ((![v39] : Fin 1 → IVec S16 32) a x).toNat < S10000.size a) ∧
  (∀ a x, ((![v39] : Fin 1 → IVec S16 32) a x).toNat < S10000.size a) ∧
  (∀ a x, ((![v39] : Fin 1 → IVec S16 32) a x).toNat < S10000.size a) ∧
  (∀ a x, ((![v39] : Fin 1 → IVec S16 32) a x).toNat < S10000.size a) ∧
  (∀ a x, ((![v39] : Fin 1 → IVec S16 32) a x).toNat < S10000.size a) ∧
  (∀ a x, ((![v39] : Fin 1 → IVec S16 32) a x).toNat < S10000.size a)
instance k3_chk2.dec : ∀ (v39 : IVec S16 32), Decidable (k3_chk2 v39) := fun v39 => decidable_of_iff' _ (Iff.of_eq (k3_chk2.eq_1 v39))
theorem k3_idx7_inb : ∀ (v39 : IVec S16 32) (k3_hw2 : k3_chk2 v39), ∀ a x, ((![v39] : Fin 1 → IVec S16 32) a x).toNat < S10000.size a := fun v39 k3_hw2 => k3_hw2.1
theorem k3_idx8_inb : ∀ (v39 : IVec S16 32) (k3_hw2 : k3_chk2 v39), ∀ a x, ((![v39] : Fin 1 → IVec S16 32) a x).toNat < S10000.size a := fun v39 k3_hw2 => k3_hw2.2.1
theorem k3_idx9_inb : ∀ (v39 : IVec S16 32) (k3_hw2 : k3_chk2 v39), ∀ a x, ((![v39] : Fin 1 → IVec S16 32) a x).toNat < S10000.size a := fun v39 k3_hw2 => k3_hw2.2.2.1
theorem k3_idx10_inb : ∀ (v39 : IVec S16 32) (k3_hw2 : k3_chk2 v39), ∀ a x, ((![v39] : Fin 1 → IVec S16 32) a x).toNat < S10000.size a := fun v39 k3_hw2 => k3_hw2.2.2.2.1
theorem k3_idx11_inb : ∀ (v39 : IVec S16 32) (k3_hw2 : k3_chk2 v39), ∀ a x, ((![v39] : Fin 1 → IVec S16 32) a x).toNat < S10000.size a := fun v39 k3_hw2 => k3_hw2.2.2.2.2.1
theorem k3_idx12_inb : ∀ (v39 : IVec S16 32) (k3_hw2 : k3_chk2 v39), ∀ a x, ((![v39] : Fin 1 → IVec S16 32) a x).toNat < S10000.size a := fun v39 k3_hw2 => k3_hw2.2.2.2.2.2
def k3_off5 (k3_t3 : Fin k3_t3_loop.trips) : Fin 1 → Nat :=
  let c0_i32_38 : BitVec 32 := 0#32
  let c1_i32_39 : BitVec 32 := 1#32
  let arg20 : BitVec 32 := Scf.iv c0_i32_38 c1_i32_39 k3_t3
  let c64_i32_43 : BitVec 32 := 64#32
  let v48 : BitVec 32 := Scalar.muli arg20 c64_i32_43
  let c16_i32_44 : BitVec 32 := 16#32
  let v49 : BitVec 32 := Scalar.addi v48 c16_i32_44
  let v50 : Index := Scalar.indexCast v49
  ![v50.toNat]

def k3_chk3 (v55 : IVec S16 32) : Prop :=
  (∀ a x, ((![v55] : Fin 1 → IVec S16 32) a x).toNat < S10000.size a) ∧
  (∀ a x, ((![v55] : Fin 1 → IVec S16 32) a x).toNat < S10000.size a) ∧
  (∀ a x, ((![v55] : Fin 1 → IVec S16 32) a x).toNat < S10000.size a) ∧
  (∀ a x, ((![v55] : Fin 1 → IVec S16 32) a x).toNat < S10000.size a) ∧
  (∀ a x, ((![v55] : Fin 1 → IVec S16 32) a x).toNat < S10000.size a) ∧
  (∀ a x, ((![v55] : Fin 1 → IVec S16 32) a x).toNat < S10000.size a)
instance k3_chk3.dec : ∀ (v55 : IVec S16 32), Decidable (k3_chk3 v55) := fun v55 => decidable_of_iff' _ (Iff.of_eq (k3_chk3.eq_1 v55))
theorem k3_idx13_inb : ∀ (v55 : IVec S16 32) (k3_hw3 : k3_chk3 v55), ∀ a x, ((![v55] : Fin 1 → IVec S16 32) a x).toNat < S10000.size a := fun v55 k3_hw3 => k3_hw3.1
theorem k3_idx14_inb : ∀ (v55 : IVec S16 32) (k3_hw3 : k3_chk3 v55), ∀ a x, ((![v55] : Fin 1 → IVec S16 32) a x).toNat < S10000.size a := fun v55 k3_hw3 => k3_hw3.2.1
theorem k3_idx15_inb : ∀ (v55 : IVec S16 32) (k3_hw3 : k3_chk3 v55), ∀ a x, ((![v55] : Fin 1 → IVec S16 32) a x).toNat < S10000.size a := fun v55 k3_hw3 => k3_hw3.2.2.1
theorem k3_idx16_inb : ∀ (v55 : IVec S16 32) (k3_hw3 : k3_chk3 v55), ∀ a x, ((![v55] : Fin 1 → IVec S16 32) a x).toNat < S10000.size a := fun v55 k3_hw3 => k3_hw3.2.2.2.1
theorem k3_idx17_inb : ∀ (v55 : IVec S16 32) (k3_hw3 : k3_chk3 v55), ∀ a x, ((![v55] : Fin 1 → IVec S16 32) a x).toNat < S10000.size a := fun v55 k3_hw3 => k3_hw3.2.2.2.2.1
theorem k3_idx18_inb : ∀ (v55 : IVec S16 32) (k3_hw3 : k3_chk3 v55), ∀ a x, ((![v55] : Fin 1 → IVec S16 32) a x).toNat < S10000.size a := fun v55 k3_hw3 => k3_hw3.2.2.2.2.2

def k3_chk4 (v53 : IVec S16 32) : Prop :=
  (∀ a x, ((![v53] : Fin 1 → IVec S16 32) a x).toNat < S10000.size a) ∧
  (∀ a x, ((![v53] : Fin 1 → IVec S16 32) a x).toNat < S10000.size a) ∧
  (∀ a x, ((![v53] : Fin 1 → IVec S16 32) a x).toNat < S10000.size a) ∧
  (∀ a x, ((![v53] : Fin 1 → IVec S16 32) a x).toNat < S10000.size a) ∧
  (∀ a x, ((![v53] : Fin 1 → IVec S16 32) a x).toNat < S10000.size a) ∧
  (∀ a x, ((![v53] : Fin 1 → IVec S16 32) a x).toNat < S10000.size a)
instance k3_chk4.dec : ∀ (v53 : IVec S16 32), Decidable (k3_chk4 v53) := fun v53 => decidable_of_iff' _ (Iff.of_eq (k3_chk4.eq_1 v53))
theorem k3_idx19_inb : ∀ (v53 : IVec S16 32) (k3_hw4 : k3_chk4 v53), ∀ a x, ((![v53] : Fin 1 → IVec S16 32) a x).toNat < S10000.size a := fun v53 k3_hw4 => k3_hw4.1
theorem k3_idx20_inb : ∀ (v53 : IVec S16 32) (k3_hw4 : k3_chk4 v53), ∀ a x, ((![v53] : Fin 1 → IVec S16 32) a x).toNat < S10000.size a := fun v53 k3_hw4 => k3_hw4.2.1
theorem k3_idx21_inb : ∀ (v53 : IVec S16 32) (k3_hw4 : k3_chk4 v53), ∀ a x, ((![v53] : Fin 1 → IVec S16 32) a x).toNat < S10000.size a := fun v53 k3_hw4 => k3_hw4.2.2.1
theorem k3_idx22_inb : ∀ (v53 : IVec S16 32) (k3_hw4 : k3_chk4 v53), ∀ a x, ((![v53] : Fin 1 → IVec S16 32) a x).toNat < S10000.size a := fun v53 k3_hw4 => k3_hw4.2.2.2.1
theorem k3_idx23_inb : ∀ (v53 : IVec S16 32) (k3_hw4 : k3_chk4 v53), ∀ a x, ((![v53] : Fin 1 → IVec S16 32) a x).toNat < S10000.size a := fun v53 k3_hw4 => k3_hw4.2.2.2.2.1
theorem k3_idx24_inb : ∀ (v53 : IVec S16 32) (k3_hw4 : k3_chk4 v53), ∀ a x, ((![v53] : Fin 1 → IVec S16 32) a x).toNat < S10000.size a := fun v53 k3_hw4 => k3_hw4.2.2.2.2.2
def k3_off6 (k3_t3 : Fin k3_t3_loop.trips) : Fin 1 → Nat :=
  let c0_i32_38 : BitVec 32 := 0#32
  let c1_i32_39 : BitVec 32 := 1#32
  let arg20 : BitVec 32 := Scf.iv c0_i32_38 c1_i32_39 k3_t3
  let c64_i32_47 : BitVec 32 := 64#32
  let v62 : BitVec 32 := Scalar.muli arg20 c64_i32_47
  let c32_i32 : BitVec 32 := 32#32
  let v63 : BitVec 32 := Scalar.addi v62 c32_i32
  let v64 : Index := Scalar.indexCast v63
  ![v64.toNat]

def k3_chk5 (v69 : IVec S16 32) : Prop :=
  (∀ a x, ((![v69] : Fin 1 → IVec S16 32) a x).toNat < S10000.size a) ∧
  (∀ a x, ((![v69] : Fin 1 → IVec S16 32) a x).toNat < S10000.size a) ∧
  (∀ a x, ((![v69] : Fin 1 → IVec S16 32) a x).toNat < S10000.size a) ∧
  (∀ a x, ((![v69] : Fin 1 → IVec S16 32) a x).toNat < S10000.size a) ∧
  (∀ a x, ((![v69] : Fin 1 → IVec S16 32) a x).toNat < S10000.size a) ∧
  (∀ a x, ((![v69] : Fin 1 → IVec S16 32) a x).toNat < S10000.size a)
instance k3_chk5.dec : ∀ (v69 : IVec S16 32), Decidable (k3_chk5 v69) := fun v69 => decidable_of_iff' _ (Iff.of_eq (k3_chk5.eq_1 v69))
theorem k3_idx25_inb : ∀ (v69 : IVec S16 32) (k3_hw5 : k3_chk5 v69), ∀ a x, ((![v69] : Fin 1 → IVec S16 32) a x).toNat < S10000.size a := fun v69 k3_hw5 => k3_hw5.1
theorem k3_idx26_inb : ∀ (v69 : IVec S16 32) (k3_hw5 : k3_chk5 v69), ∀ a x, ((![v69] : Fin 1 → IVec S16 32) a x).toNat < S10000.size a := fun v69 k3_hw5 => k3_hw5.2.1
theorem k3_idx27_inb : ∀ (v69 : IVec S16 32) (k3_hw5 : k3_chk5 v69), ∀ a x, ((![v69] : Fin 1 → IVec S16 32) a x).toNat < S10000.size a := fun v69 k3_hw5 => k3_hw5.2.2.1
theorem k3_idx28_inb : ∀ (v69 : IVec S16 32) (k3_hw5 : k3_chk5 v69), ∀ a x, ((![v69] : Fin 1 → IVec S16 32) a x).toNat < S10000.size a := fun v69 k3_hw5 => k3_hw5.2.2.2.1
theorem k3_idx29_inb : ∀ (v69 : IVec S16 32) (k3_hw5 : k3_chk5 v69), ∀ a x, ((![v69] : Fin 1 → IVec S16 32) a x).toNat < S10000.size a := fun v69 k3_hw5 => k3_hw5.2.2.2.2.1
theorem k3_idx30_inb : ∀ (v69 : IVec S16 32) (k3_hw5 : k3_chk5 v69), ∀ a x, ((![v69] : Fin 1 → IVec S16 32) a x).toNat < S10000.size a := fun v69 k3_hw5 => k3_hw5.2.2.2.2.2

def k3_chk6 (v67 : IVec S16 32) : Prop :=
  (∀ a x, ((![v67] : Fin 1 → IVec S16 32) a x).toNat < S10000.size a) ∧
  (∀ a x, ((![v67] : Fin 1 → IVec S16 32) a x).toNat < S10000.size a) ∧
  (∀ a x, ((![v67] : Fin 1 → IVec S16 32) a x).toNat < S10000.size a) ∧
  (∀ a x, ((![v67] : Fin 1 → IVec S16 32) a x).toNat < S10000.size a) ∧
  (∀ a x, ((![v67] : Fin 1 → IVec S16 32) a x).toNat < S10000.size a) ∧
  (∀ a x, ((![v67] : Fin 1 → IVec S16 32) a x).toNat < S10000.size a)
instance k3_chk6.dec : ∀ (v67 : IVec S16 32), Decidable (k3_chk6 v67) := fun v67 => decidable_of_iff' _ (Iff.of_eq (k3_chk6.eq_1 v67))
theorem k3_idx31_inb : ∀ (v67 : IVec S16 32) (k3_hw6 : k3_chk6 v67), ∀ a x, ((![v67] : Fin 1 → IVec S16 32) a x).toNat < S10000.size a := fun v67 k3_hw6 => k3_hw6.1
theorem k3_idx32_inb : ∀ (v67 : IVec S16 32) (k3_hw6 : k3_chk6 v67), ∀ a x, ((![v67] : Fin 1 → IVec S16 32) a x).toNat < S10000.size a := fun v67 k3_hw6 => k3_hw6.2.1
theorem k3_idx33_inb : ∀ (v67 : IVec S16 32) (k3_hw6 : k3_chk6 v67), ∀ a x, ((![v67] : Fin 1 → IVec S16 32) a x).toNat < S10000.size a := fun v67 k3_hw6 => k3_hw6.2.2.1
theorem k3_idx34_inb : ∀ (v67 : IVec S16 32) (k3_hw6 : k3_chk6 v67), ∀ a x, ((![v67] : Fin 1 → IVec S16 32) a x).toNat < S10000.size a := fun v67 k3_hw6 => k3_hw6.2.2.2.1
theorem k3_idx35_inb : ∀ (v67 : IVec S16 32) (k3_hw6 : k3_chk6 v67), ∀ a x, ((![v67] : Fin 1 → IVec S16 32) a x).toNat < S10000.size a := fun v67 k3_hw6 => k3_hw6.2.2.2.2.1
theorem k3_idx36_inb : ∀ (v67 : IVec S16 32) (k3_hw6 : k3_chk6 v67), ∀ a x, ((![v67] : Fin 1 → IVec S16 32) a x).toNat < S10000.size a := fun v67 k3_hw6 => k3_hw6.2.2.2.2.2
def k3_off7 (k3_t3 : Fin k3_t3_loop.trips) : Fin 1 → Nat :=
  let c0_i32_38 : BitVec 32 := 0#32
  let c1_i32_39 : BitVec 32 := 1#32
  let arg20 : BitVec 32 := Scf.iv c0_i32_38 c1_i32_39 k3_t3
  let c64_i32_50 : BitVec 32 := 64#32
  let v76 : BitVec 32 := Scalar.muli arg20 c64_i32_50
  let c48_i32 : BitVec 32 := 48#32
  let v77 : BitVec 32 := Scalar.addi v76 c48_i32
  let v78 : Index := Scalar.indexCast v77
  ![v78.toNat]

def k3_chk7 (v83 : IVec S16 32) : Prop :=
  (∀ a x, ((![v83] : Fin 1 → IVec S16 32) a x).toNat < S10000.size a) ∧
  (∀ a x, ((![v83] : Fin 1 → IVec S16 32) a x).toNat < S10000.size a) ∧
  (∀ a x, ((![v83] : Fin 1 → IVec S16 32) a x).toNat < S10000.size a) ∧
  (∀ a x, ((![v83] : Fin 1 → IVec S16 32) a x).toNat < S10000.size a) ∧
  (∀ a x, ((![v83] : Fin 1 → IVec S16 32) a x).toNat < S10000.size a) ∧
  (∀ a x, ((![v83] : Fin 1 → IVec S16 32) a x).toNat < S10000.size a)
instance k3_chk7.dec : ∀ (v83 : IVec S16 32), Decidable (k3_chk7 v83) := fun v83 => decidable_of_iff' _ (Iff.of_eq (k3_chk7.eq_1 v83))
theorem k3_idx37_inb : ∀ (v83 : IVec S16 32) (k3_hw7 : k3_chk7 v83), ∀ a x, ((![v83] : Fin 1 → IVec S16 32) a x).toNat < S10000.size a := fun v83 k3_hw7 => k3_hw7.1
theorem k3_idx38_inb : ∀ (v83 : IVec S16 32) (k3_hw7 : k3_chk7 v83), ∀ a x, ((![v83] : Fin 1 → IVec S16 32) a x).toNat < S10000.size a := fun v83 k3_hw7 => k3_hw7.2.1
theorem k3_idx39_inb : ∀ (v83 : IVec S16 32) (k3_hw7 : k3_chk7 v83), ∀ a x, ((![v83] : Fin 1 → IVec S16 32) a x).toNat < S10000.size a := fun v83 k3_hw7 => k3_hw7.2.2.1
theorem k3_idx40_inb : ∀ (v83 : IVec S16 32) (k3_hw7 : k3_chk7 v83), ∀ a x, ((![v83] : Fin 1 → IVec S16 32) a x).toNat < S10000.size a := fun v83 k3_hw7 => k3_hw7.2.2.2.1
theorem k3_idx41_inb : ∀ (v83 : IVec S16 32) (k3_hw7 : k3_chk7 v83), ∀ a x, ((![v83] : Fin 1 → IVec S16 32) a x).toNat < S10000.size a := fun v83 k3_hw7 => k3_hw7.2.2.2.2.1
theorem k3_idx42_inb : ∀ (v83 : IVec S16 32) (k3_hw7 : k3_chk7 v83), ∀ a x, ((![v83] : Fin 1 → IVec S16 32) a x).toNat < S10000.size a := fun v83 k3_hw7 => k3_hw7.2.2.2.2.2

def k3_chk8 (v81 : IVec S16 32) : Prop :=
  (∀ a x, ((![v81] : Fin 1 → IVec S16 32) a x).toNat < S10000.size a) ∧
  (∀ a x, ((![v81] : Fin 1 → IVec S16 32) a x).toNat < S10000.size a) ∧
  (∀ a x, ((![v81] : Fin 1 → IVec S16 32) a x).toNat < S10000.size a) ∧
  (∀ a x, ((![v81] : Fin 1 → IVec S16 32) a x).toNat < S10000.size a) ∧
  (∀ a x, ((![v81] : Fin 1 → IVec S16 32) a x).toNat < S10000.size a) ∧
  (∀ a x, ((![v81] : Fin 1 → IVec S16 32) a x).toNat < S10000.size a)
instance k3_chk8.dec : ∀ (v81 : IVec S16 32), Decidable (k3_chk8 v81) := fun v81 => decidable_of_iff' _ (Iff.of_eq (k3_chk8.eq_1 v81))
theorem k3_idx43_inb : ∀ (v81 : IVec S16 32) (k3_hw8 : k3_chk8 v81), ∀ a x, ((![v81] : Fin 1 → IVec S16 32) a x).toNat < S10000.size a := fun v81 k3_hw8 => k3_hw8.1
theorem k3_idx44_inb : ∀ (v81 : IVec S16 32) (k3_hw8 : k3_chk8 v81), ∀ a x, ((![v81] : Fin 1 → IVec S16 32) a x).toNat < S10000.size a := fun v81 k3_hw8 => k3_hw8.2.1
theorem k3_idx45_inb : ∀ (v81 : IVec S16 32) (k3_hw8 : k3_chk8 v81), ∀ a x, ((![v81] : Fin 1 → IVec S16 32) a x).toNat < S10000.size a := fun v81 k3_hw8 => k3_hw8.2.2.1
theorem k3_idx46_inb : ∀ (v81 : IVec S16 32) (k3_hw8 : k3_chk8 v81), ∀ a x, ((![v81] : Fin 1 → IVec S16 32) a x).toNat < S10000.size a := fun v81 k3_hw8 => k3_hw8.2.2.2.1
theorem k3_idx47_inb : ∀ (v81 : IVec S16 32) (k3_hw8 : k3_chk8 v81), ∀ a x, ((![v81] : Fin 1 → IVec S16 32) a x).toNat < S10000.size a := fun v81 k3_hw8 => k3_hw8.2.2.2.2.1
theorem k3_idx48_inb : ∀ (v81 : IVec S16 32) (k3_hw8 : k3_chk8 v81), ∀ a x, ((![v81] : Fin 1 → IVec S16 32) a x).toNat < S10000.size a := fun v81 k3_hw8 => k3_hw8.2.2.2.2.2
abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S128x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S3x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S64x10 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x10 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S1000x10 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 2 → Memref sig .tc .vmem S1000x64 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S1000x64 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S2x10000x64_S1x10000x64_0_0_0 : S2x10000x64.Slices ![0, 0, 0] S1x10000x64
  shapeCasts_S1x10000x64_S10000x64 : S1x10000x64.ShapeCasts S10000x64
  slices_S2x10000x64_S1x10000x64_1_0_0 : S2x10000x64.Slices ![1, 0, 0] S1x10000x64
  h_S16 : 0 < S16.numel
  h_S10240 : 0 < S10240.numel
  squeezes_S1x1x10240_S10240 : S1x1x10240.Squeezes S10240
  shapeCasts_S32x1x10240_S32x10240 : S32x1x10240.ShapeCasts S32x10240
  reducesTo_S32x10240_S10240_d0 : S32x10240.ReducesTo [0] S10240
  h_S_ : 0 < S_.numel
  slices_S10240_S10000_0 : S10240.Slices ![0] S10000
  bcast_S10000_S10000x1_0 : S10000.BroadcastsInDim S10000x1 (![0] : Fin 1 → Fin S10000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  broadcasts_S1000x1_S1000x128 : S1000x1.Broadcasts S1000x128
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1000x1_S1000x64 : S1000x1.Broadcasts S1000x64
  concatenates_S10000x128_S10000x64_S10000x192_d1 : Shape.Concatenates [S10000x128, S10000x64] S10000x192 1
  transposes_S10000x192_S192x10000_1_0 : S10000x192.Transposes [1, 0] S192x10000
  shapeCasts_S192x10000_S192x1x10000 : S192x10000.ShapeCasts S192x1x10000
  shapeCasts_S320000_S2500x128 : S320000.ShapeCasts S2500x128
  inb_S2500x128_S2500x128_0_0 : ∀ a, (![0, 0] : Fin 2 → Nat) a + S2500x128.size a ≤ S2500x128.size a
  h_S2500x128 : 0 < S2500x128.numel
  shapeCasts_S2500x128_S2500x128 : S2500x128.ShapeCasts S2500x128
  shapeCasts_S2500x128_S320000 : S2500x128.ShapeCasts S320000
  squeezes_S1x1x10000_S10000 : S1x1x10000.Squeezes S10000
  h_S10000 : 0 < S10000.numel
  shapeCasts_S192x1x10000_S192x10000 : S192x1x10000.ShapeCasts S192x10000
  transposes_S192x10000_S10000x192_1_0 : S192x10000.Transposes [1, 0] S10000x192
  slices_S10000x192_S10000x128_0_0 : S10000x192.Slices ![0, 0] S10000x128
  slices_S10000x192_S10000x64_0_128 : S10000x192.Slices ![0, 128] S10000x64
  slices_S4x2x128x64_S4x1x128x64_0_0_0_0 : S4x2x128x64.Slices ![0, 0, 0, 0] S4x1x128x64
  shapeCasts_S4x1x128x64_S4x128x64 : S4x1x128x64.ShapeCasts S4x128x64
  transposes_S4x128x64_S128x4x64_1_0_2 : S4x128x64.Transposes [1, 0, 2] S128x4x64
  shapeCasts_S128x4x64_S128x256 : S128x4x64.ShapeCasts S128x256
  slices_S4x2x128x64_S4x1x128x64_0_1_0_0 : S4x2x128x64.Slices ![0, 1, 0, 0] S4x1x128x64
  slices_S4x2x64x64_S4x1x64x64_0_0_0_0 : S4x2x64x64.Slices ![0, 0, 0, 0] S4x1x64x64
  shapeCasts_S4x1x64x64_S4x64x64 : S4x1x64x64.ShapeCasts S4x64x64
  transposes_S4x64x64_S64x4x64_1_0_2 : S4x64x64.Transposes [1, 0, 2] S64x4x64
  shapeCasts_S64x4x64_S64x256 : S64x4x64.ShapeCasts S64x256
  slices_S4x2x64x64_S4x1x64x64_0_1_0_0 : S4x2x64x64.Slices ![0, 1, 0, 0] S4x1x64x64
  shapeCasts_S4x64_S1x256 : S4x64.ShapeCasts S1x256
  shapeCasts_S10_S1x10 : S10.ShapeCasts S1x10
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  slices_S1000x256_o0_0_S1000x64 : S1000x256.Slices ![0, 0] S1000x64
  inb_S3x64_S1x64_0_0 : ∀ a, (![0, 0] : Fin 2 → Nat) a + S1x64.size a ≤ S3x64.size a
  h_S1x64 : 0 < S1x64.numel
  broadcasts_S1x64_S1000x64 : S1x64.Broadcasts S1000x64
  slices_S1000x256_o0_64_S1000x64 : S1000x256.Slices ![0, 64] S1000x64
  inb_S3x64_S1x64_1_0 : ∀ a, (![1, 0] : Fin 2 → Nat) a + S1x64.size a ≤ S3x64.size a
  slices_S1000x256_o0_128_S1000x64 : S1000x256.Slices ![0, 128] S1000x64
  slices_S1000x256_o0_192_S1000x64 : S1000x256.Slices ![0, 192] S1000x64
  inb_S3x64_S1x64_2_0 : ∀ a, (![2, 0] : Fin 2 → Nat) a + S1x64.size a ≤ S3x64.size a
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  bcast_S10000x64_S1x10000x64_1_2 : S10000x64.BroadcastsInDim S1x10000x64 (![1, 2] : Fin 2 → Fin S1x10000x64.rank)
  concatenates_S1x10000x64_S1x10000x64_S2x10000x64_d0 : Shape.Concatenates [S1x10000x64, S1x10000x64] S2x10000x64 0
  dot_S1000x128_S128x256_S1000x256_1_0_0_1_n_n_wf : DotDims.WF S1000x128 S128x256 S1000x256 [1] [0] [0] [1] [] []
  dot_S1000x64_S64x256_S1000x256_1_0_0_1_n_n_wf : DotDims.WF S1000x64 S64x256 S1000x256 [1] [0] [0] [1] [] []
  dot_S1000x64_S64x10_S1000x10_1_0_0_1_n_n_wf : DotDims.WF S1000x64 S64x10 S1000x10 [1] [0] [0] [1] [] []
  hcc0_scoped0 : 0 + S_.numel ≤ 54
  hcc0_scoped1 : 1 + S_.numel ≤ 54
  hcc3_scoped0 : 15 + S_.numel ≤ 54
  hcc3_scoped1 : 16 + S_.numel ≤ 54
  hcc3_scoped2 : 17 + S_.numel ≤ 54
  hcc3_scoped3 : 18 + S_.numel ≤ 54
  hcc3_scoped4 : 19 + S_.numel ≤ 54
  hcc3_scoped5 : 20 + S_.numel ≤ 54
  hcc3_scoped6 : 21 + S_.numel ≤ 54
  hcc3_scoped7 : 22 + S_.numel ≤ 54
  hcc3_scoped8 : 23 + S_.numel ≤ 54
  hcc3_scoped9 : 24 + S_.numel ≤ 54
  hcc3_scoped10 : 25 + S_.numel ≤ 54
  hcc3_scoped11 : 26 + S_.numel ≤ 54
  hcc3_scoped12 : 27 + S_.numel ≤ 54
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S10240.size a
  k0_off2_inb : ∀ i : grid0.Coords, ∀ a, (k0_off2 i) a + S10000.size a ≤ S320000.size a
  k0_t2_ok : k0_t2_loop.OK
  k0_off3_inb : ∀ k0_t2 : Fin k0_t2_loop.trips, ∀ a, (k0_off3 k0_t2) a + S16.size a ≤ S10000.size a
  k0_off4_inb : ∀ i : grid0.Coords, ∀ a, (k0_off4 i) a + S1x1x10240.size a ≤ S32x1x10240.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S10000x64.size a
  hwx1_1 : ∀ i : grid1.Coords, EltTy.bits .f32 = 32 ∨ (Rect.block (s := S10000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x64.size a ≤ S10000x64.size a
  hwx1_4 : ∀ i : grid1.Coords, EltTy.bits .f32 = 32 ∨ (Rect.block (s := S10000x64) S1000x64.size (cc1_transform_4 i) (hinb1_4 i)).WholeWords (EltTy.packing .f32)
  hstage2_0 : ∀ j, (stage2_0 j).IsWhole
  hstage2_1 : ∀ j, (stage2_1 j).IsWhole
  hstage2_2 : ∀ j, (stage2_2 j).IsWhole
  hcore3 : grid3.bound 0 ≤ τ.nSC
  hsub3 : grid3.bound 1 ≤ τ.nSub
  k3_t1_ok : k3_t1_loop.OK
  k3_off1_inb : ∀ k3_t1 : Fin k3_t1_loop.trips, ∀ a, (k3_off1 k3_t1) a + S16.size a ≤ S10000.size a
  k3_off2_inb : ∀ i : grid3.Coords, ∀ (r : Fin 6), ∀ a, (k3_off2 i (BitVec.ofNat 32 r.val)) a + S1x1x10000.size a ≤ S192x1x10000.size a
  k3_t2_ok : k3_t2_loop.OK
  k3_off3_inb : ∀ k3_t2 : Fin k3_t2_loop.trips, ∀ a, (k3_off3 k3_t2) a + S6400.size a ≤ S320000.size a
  k3_t3_ok : k3_t3_loop.OK
  k3_off4_inb : ∀ k3_t3 : Fin k3_t3_loop.trips, ∀ a, (k3_off4 k3_t3) a + S16.size a ≤ S6400.size a
  k3_off5_inb : ∀ k3_t3 : Fin k3_t3_loop.trips, ∀ a, (k3_off5 k3_t3) a + S16.size a ≤ S6400.size a
  k3_off6_inb : ∀ k3_t3 : Fin k3_t3_loop.trips, ∀ a, (k3_off6 k3_t3) a + S16.size a ≤ S6400.size a
  k3_off7_inb : ∀ k3_t3 : Fin k3_t3_loop.trips, ∀ a, (k3_off7 k3_t3) a + S16.size a ≤ S6400.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x64.size a ≤ S10000x64.size a
  hwx4_1 : ∀ i : grid4.Coords, EltTy.bits .f32 = 32 ∨ (Rect.block (s := S10000x64) S1000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S10000x64.size a
  hwx4_2 : ∀ i : grid4.Coords, EltTy.bits .f32 = 32 ∨ (Rect.block (s := S10000x64) S1000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S10000x128.size a
  hwx4_3 : ∀ i : grid4.Coords, EltTy.bits .f32 = 32 ∨ (Rect.block (s := S10000x128) S1000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x64.size a ≤ S10000x64.size a
  hwx4_4 : ∀ i : grid4.Coords, EltTy.bits .f32 = 32 ∨ (Rect.block (s := S10000x64) S1000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x1.size a ≤ S10000x1.size a
  hwx4_5 : ∀ i : grid4.Coords, EltTy.bits .f32 = 32 ∨ (Rect.block (s := S10000x1) S1000x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x256.size a ≤ S128x256.size a
  hwx4_6 : ∀ i : grid4.Coords, EltTy.bits .f32 = 32 ∨ (Rect.block (s := S128x256) S128x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x256.size a ≤ S128x256.size a
  hwx4_7 : ∀ i : grid4.Coords, EltTy.bits .f32 = 32 ∨ (Rect.block (s := S128x256) S128x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x256.size a ≤ S64x256.size a
  hwx4_8 : ∀ i : grid4.Coords, EltTy.bits .f32 = 32 ∨ (Rect.block (s := S64x256) S64x256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x256.size a ≤ S64x256.size a
  hwx4_9 : ∀ i : grid4.Coords, EltTy.bits .f32 = 32 ∨ (Rect.block (s := S64x256) S64x256.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x256.size a ≤ S1x256.size a
  hwx4_10 : ∀ i : grid4.Coords, EltTy.bits .f32 = 32 ∨ (Rect.block (s := S1x256) S1x256.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S3x64.size a ≤ S3x64.size a
  hwx4_11 : ∀ i : grid4.Coords, EltTy.bits .f32 = 32 ∨ (Rect.block (s := S3x64) S3x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S64x10.size a ≤ S64x10.size a
  hwx4_12 : ∀ i : grid4.Coords, EltTy.bits .f32 = 32 ∨ (Rect.block (s := S64x10) S64x10.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x10.size a ≤ S1x10.size a
  hwx4_13 : ∀ i : grid4.Coords, EltTy.bits .f32 = 32 ∨ (Rect.block (s := S1x10) S1x10.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S1000x10.size a ≤ S10000x10.size a
  hwx4_14 : ∀ i : grid4.Coords, EltTy.bits .f32 = 32 ∨ (Rect.block (s := S10000x10) S1000x10.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S1000x64.size a ≤ S10000x64.size a
  hwx4_15 : ∀ i : grid4.Coords, EltTy.bits .f32 = 32 ∨ (Rect.block (s := S10000x64) S1000x64.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S1000x64.size a ≤ S10000x64.size a
  hwx4_16 : ∀ i : grid4.Coords, EltTy.bits .f32 = 32 ∨ (Rect.block (s := S10000x64) S1000x64.size (cc4_transform_16 i) (hinb4_16 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc3_scoped0 : DmaSems sig S_ := SemArray.consecutive 15 S_ hcc3_scoped0
abbrev cc3_scoped1 : DmaSems sig S_ := SemArray.consecutive 16 S_ hcc3_scoped1
abbrev cc3_scoped2 : DmaSems sig S_ := SemArray.consecutive 17 S_ hcc3_scoped2
abbrev cc3_scoped3 : DmaSems sig S_ := SemArray.consecutive 18 S_ hcc3_scoped3
abbrev cc3_scoped4 : DmaSems sig S_ := SemArray.consecutive 19 S_ hcc3_scoped4
abbrev cc3_scoped5 : DmaSems sig S_ := SemArray.consecutive 20 S_ hcc3_scoped5
abbrev cc3_scoped6 : DmaSems sig S_ := SemArray.consecutive 21 S_ hcc3_scoped6
abbrev cc3_scoped7 : DmaSems sig S_ := SemArray.consecutive 22 S_ hcc3_scoped7
abbrev cc3_scoped8 : DmaSems sig S_ := SemArray.consecutive 23 S_ hcc3_scoped8
abbrev cc3_scoped9 : DmaSems sig S_ := SemArray.consecutive 24 S_ hcc3_scoped9
abbrev cc3_scoped10 : DmaSems sig S_ := SemArray.consecutive 25 S_ hcc3_scoped10
abbrev cc3_scoped11 : DmaSems sig S_ := SemArray.consecutive 26 S_ hcc3_scoped11
abbrev cc3_scoped12 : DmaSems sig S_ := SemArray.consecutive 27 S_ hcc3_scoped12
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S1000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S1000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v17) false false (stage2_0 0) (sem2_0 0) (Memref.isWhole_whole _) (hstage2_0 0)

abbrev win2_1 : Pipeline.Window sig grid2 :=
  Pipeline.Window.whole (Memref.whole main_v18) false false (stage2_1 0) (sem2_1 0) (Memref.isWhole_whole _) (hstage2_1 0)

abbrev win2_2 : Pipeline.Window sig grid2 :=
  Pipeline.Window.whole (Memref.whole main_v19) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win4_0 : Pipeline.Window sig grid4 :=
  Pipeline.Window.ofSpec (Memref.whole main_arg0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v24) S1000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v25) S1000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v12) S1000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v29) S128x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v33) S128x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v37) S64x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v41) S64x256.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v44) S1x256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg7) S3x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg9) S64x10.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v45) S1x10.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v46_0) S1000x10.size cc4_transform_14 reads4_14 true false 2 stage4_14 sem4_14
    hrank4 hreads4_14 hinb4_14 nbuf4_14 (Memref.isWhole_whole _) hwx4_14 hstage4_14

abbrev win4_15 : Pipeline.Window sig grid4 :=
  Pipeline.Window.ofSpec (Memref.whole main_v46_1) S1000x64.size cc4_transform_15 reads4_15 true false 2 stage4_15 sem4_15
    hrank4 hreads4_15 hinb4_15 nbuf4_15 (Memref.isWhole_whole _) hwx4_15 hstage4_15

abbrev win4_16 : Pipeline.Window sig grid4 :=
  Pipeline.Window.ofSpec (Memref.whole main_v46_2) S1000x64.size cc4_transform_16 reads4_16 true false 2 stage4_16 sem4_16
    hrank4 hreads4_16 hinb4_16 nbuf4_16 (Memref.isWhole_whole _) hwx4_16 hstage4_16

abbrev win4 : Fin 17 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | ⟨_ + 17, h⟩ => absurd h (Nat.not_lt.2 (Nat.le_add_left _ _))
abbrev spec4 : Fin 17 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S2x10000x64 : Shape := ⟨3, ![2, 10000, 64]⟩
abbrev S4x2x128x64 : Shape := ⟨4, ![4, 2, 128, 64]⟩
abbrev S4x2x64x64 : Shape := ⟨4, ![4, 2, 64, 64]⟩
abbrev S4x64 : Shape := ⟨2, ![4, 64]⟩
abbrev S3x64 : Shape := ⟨2, ![3, 64]⟩
abbrev S64x10 : Shape := ⟨2, ![64, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S1x10000x64 : Shape := ⟨3, ![1, 10000, 64]⟩
abbrev S10000x64 : Shape := ⟨2, ![10000, 64]⟩
abbrev S1x2x128x64 : Shape := ⟨4, ![1, 2, 128, 64]⟩
abbrev S2x128x64 : Shape := ⟨3, ![2, 128, 64]⟩
abbrev S1x64 : Shape := ⟨2, ![1, 64]⟩
abbrev S64 : Shape := ⟨1, ![64]⟩
abbrev S1x128x64 : Shape := ⟨3, ![1, 128, 64]⟩
abbrev S128x64 : Shape := ⟨2, ![128, 64]⟩
abbrev S320000x128 : Shape := ⟨2, ![320000, 128]⟩
abbrev S10000x1 : Shape := ⟨2, ![10000, 1]⟩
abbrev S1x2x64x64 : Shape := ⟨4, ![1, 2, 64, 64]⟩
abbrev S2x64x64 : Shape := ⟨3, ![2, 64, 64]⟩
abbrev S1x64x64 : Shape := ⟨3, ![1, 64, 64]⟩
abbrev S64x64 : Shape := ⟨2, ![64, 64]⟩
abbrev S320000x64 : Shape := ⟨2, ![320000, 64]⟩
abbrev S10000x10 : Shape := ⟨2, ![10000, 10]⟩
abbrev S1x10 : Shape := ⟨2, ![1, 10]⟩

abbrev nBuf : Space → Nat
  | .hbm => 543
  | .vmem => 0
  | .smem => 0
  | _ => 0

abbrev hbmTy0_0 (i : Nat) : BufTy := match i % 128 with
  | 0 => ⟨S10000x128, .f32⟩
  | 1 => ⟨S2x320000, .i32⟩
  | 2 => ⟨S2x10000x64, .f32⟩
  | 3 => ⟨S4x2x128x64, .f32⟩
  | 4 => ⟨S4x2x64x64, .f32⟩
  | 5 => ⟨S4x64, .f32⟩
  | 6 => ⟨S4x64, .f32⟩
  | 7 => ⟨S3x64, .f32⟩
  | 8 => ⟨S4x64, .f32⟩
  | 9 => ⟨S64x10, .f32⟩
  | 10 => ⟨S10, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S_, .f32⟩
  | 18 => ⟨S10000, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S10000, .f32⟩
  | 28 => ⟨S_, .f32⟩
  | 29 => ⟨S10000, .f32⟩
  | 30 => ⟨S10000, .i1⟩
  | 31 => ⟨S_, .f32⟩
  | 32 => ⟨S10000, .f32⟩
  | 33 => ⟨S10000, .i1⟩
  | 34 => ⟨S_, .f32⟩
  | 35 => ⟨S_, .f32⟩
  | 36 => ⟨S10000, .f32⟩
  | 37 => ⟨S10000, .f32⟩
  | 38 => ⟨S10000, .f32⟩
  | 39 => ⟨S_, .f32⟩
  | 40 => ⟨S10000, .f32⟩
  | 41 => ⟨S10000, .f32⟩
  | 42 => ⟨S_, .f32⟩
  | 43 => ⟨S_, .f32⟩
  | 44 => ⟨S10000, .f32⟩
  | 45 => ⟨S10000, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000, .f32⟩
  | 55 => ⟨S320000, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000, .f32⟩
  | 65 => ⟨S320000, .f32⟩
  | 66 => ⟨S_, .f32⟩
  | 67 => ⟨S10000, .f32⟩
  | 68 => ⟨S10000, .i1⟩
  | 69 => ⟨S_, .f32⟩
  | 70 => ⟨S_, .f32⟩
  | 71 => ⟨S10000, .f32⟩
  | 72 => ⟨S10000, .f32⟩
  | 73 => ⟨S10000, .f32⟩
  | 74 => ⟨S320000, .f32⟩
  | 75 => ⟨S_, .f32⟩
  | 76 => ⟨S_, .f32⟩
  | 77 => ⟨S10000, .f32⟩
  | 78 => ⟨S_, .f32⟩
  | 79 => ⟨S_, .f32⟩
  | 80 => ⟨S_, .f32⟩
  | 81 => ⟨S1x10000x64, .f32⟩
  | 82 => ⟨S10000x64, .f32⟩
  | 83 => ⟨S1x10000x64, .f32⟩
  | 84 => ⟨S10000x64, .f32⟩
  | 85 => ⟨S1x2x128x64, .f32⟩
  | 86 => ⟨S2x128x64, .f32⟩
  | 87 => ⟨S1x64, .f32⟩
  | 88 => ⟨S64, .f32⟩
  | 89 => ⟨S1x128x64, .f32⟩
  | 90 => ⟨S128x64, .f32⟩
  | 91 => ⟨S10000x64, .f32⟩
  | 92 => ⟨S_, .f32⟩
  | 93 => ⟨S_, .f32⟩
  | 94 => ⟨S_, .f32⟩
  | 95 => ⟨S10000x128, .f32⟩
  | 96 => ⟨S320000x1, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x128, .f32⟩
  | 106 => ⟨S320000x128, .f32⟩
  | 107 => ⟨S320000x128, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S10000x128, .f32⟩
  | 117 => ⟨S10000x1, .f32⟩
  | 118 => ⟨S10000x1, .f32⟩
  | 119 => ⟨S10000x128, .f32⟩
  | 120 => ⟨S10000x128, .f32⟩
  | 121 => ⟨S10000x128, .f32⟩
  | 122 => ⟨S10000x128, .f32⟩
  | 123 => ⟨S10000x128, .f32⟩
  | 124 => ⟨S10000x128, .f32⟩
  | 125 => ⟨S1x128x64, .f32⟩
  | 126 => ⟨S128x64, .f32⟩
  | 127 => ⟨S10000x64, .f32⟩
  | _ => ⟨S10000x128, .f32⟩

abbrev hbmTy0_1 (i : Nat) : BufTy := match i % 128 with
  | 0 => ⟨S10000x64, .f32⟩
  | 1 => ⟨S1x64, .f32⟩
  | 2 => ⟨S10000x64, .f32⟩
  | 3 => ⟨S10000x64, .f32⟩
  | 4 => ⟨S1x2x64x64, .f32⟩
  | 5 => ⟨S2x64x64, .f32⟩
  | 6 => ⟨S1x64, .f32⟩
  | 7 => ⟨S64, .f32⟩
  | 8 => ⟨S1x64x64, .f32⟩
  | 9 => ⟨S64x64, .f32⟩
  | 10 => ⟨S10000x64, .f32⟩
  | 11 => ⟨S_, .f32⟩
  | 12 => ⟨S_, .f32⟩
  | 13 => ⟨S_, .f32⟩
  | 14 => ⟨S10000x64, .f32⟩
  | 15 => ⟨S320000x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x64, .f32⟩
  | 25 => ⟨S320000x64, .f32⟩
  | 26 => ⟨S320000x64, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S10000x64, .f32⟩
  | 36 => ⟨S10000x1, .f32⟩
  | 37 => ⟨S10000x1, .f32⟩
  | 38 => ⟨S10000x64, .f32⟩
  | 39 => ⟨S10000x64, .f32⟩
  | 40 => ⟨S10000x64, .f32⟩
  | 41 => ⟨S10000x64, .f32⟩
  | 42 => ⟨S10000x64, .f32⟩
  | 43 => ⟨S10000x64, .f32⟩
  | 44 => ⟨S1x64x64, .f32⟩
  | 45 => ⟨S64x64, .f32⟩
  | 46 => ⟨S10000x64, .f32⟩
  | 47 => ⟨S10000x64, .f32⟩
  | 48 => ⟨S1x64, .f32⟩
  | 49 => ⟨S10000x64, .f32⟩
  | 50 => ⟨S10000x64, .f32⟩
  | 51 => ⟨S10000x64, .f32⟩
  | 52 => ⟨S1x64, .f32⟩
  | 53 => ⟨S64, .f32⟩
  | 54 => ⟨S1x64, .f32⟩
  | 55 => ⟨S10000x64, .f32⟩
  | 56 => ⟨S10000x64, .f32⟩
  | 57 => ⟨S10000x64, .f32⟩
  | 58 => ⟨S1x64, .f32⟩
  | 59 => ⟨S64, .f32⟩
  | 60 => ⟨S1x64, .f32⟩
  | 61 => ⟨S10000x64, .f32⟩
  | 62 => ⟨S10000x64, .f32⟩
  | 63 => ⟨S10000x64, .f32⟩
  | 64 => ⟨S10000x64, .f32⟩
  | 65 => ⟨S_, .f32⟩
  | 66 => ⟨S10000x64, .f32⟩
  | 67 => ⟨S10000x64, .f32⟩
  | 68 => ⟨S_, .f32⟩
  | 69 => ⟨S10000x64, .f32⟩
  | 70 => ⟨S10000x64, .f32⟩
  | 71 => ⟨S1x2x128x64, .f32⟩
  | 72 => ⟨S2x128x64, .f32⟩
  | 73 => ⟨S1x64, .f32⟩
  | 74 => ⟨S64, .f32⟩
  | 75 => ⟨S1x128x64, .f32⟩
  | 76 => ⟨S128x64, .f32⟩
  | 77 => ⟨S10000x64, .f32⟩
  | 78 => ⟨S_, .f32⟩
  | 79 => ⟨S_, .f32⟩
  | 80 => ⟨S_, .f32⟩
  | 81 => ⟨S10000x128, .f32⟩
  | 82 => ⟨S320000x1, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x128, .f32⟩
  | 92 => ⟨S320000x128, .f32⟩
  | 93 => ⟨S320000x128, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S10000x128, .f32⟩
  | 103 => ⟨S10000x1, .f32⟩
  | 104 => ⟨S10000x1, .f32⟩
  | 105 => ⟨S10000x128, .f32⟩
  | 106 => ⟨S10000x128, .f32⟩
  | 107 => ⟨S10000x128, .f32⟩
  | 108 => ⟨S10000x128, .f32⟩
  | 109 => ⟨S10000x128, .f32⟩
  | 110 => ⟨S10000x128, .f32⟩
  | 111 => ⟨S1x128x64, .f32⟩
  | 112 => ⟨S128x64, .f32⟩
  | 113 => ⟨S10000x64, .f32⟩
  | 114 => ⟨S10000x64, .f32⟩
  | 115 => ⟨S1x64, .f32⟩
  | 116 => ⟨S10000x64, .f32⟩
  | 117 => ⟨S10000x64, .f32⟩
  | 118 => ⟨S1x2x64x64, .f32⟩
  | 119 => ⟨S2x64x64, .f32⟩
  | 120 => ⟨S1x64, .f32⟩
  | 121 => ⟨S64, .f32⟩
  | 122 => ⟨S1x64x64, .f32⟩
  | 123 => ⟨S64x64, .f32⟩
  | 124 => ⟨S10000x64, .f32⟩
  | 125 => ⟨S_, .f32⟩
  | 126 => ⟨S_, .f32⟩
  | 127 => ⟨S_, .f32⟩
  | _ => ⟨S10000x128, .f32⟩

abbrev hbmTy0_2 (i : Nat) : BufTy := match i % 128 with
  | 0 => ⟨S10000x64, .f32⟩
  | 1 => ⟨S320000x1, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x64, .f32⟩
  | 11 => ⟨S320000x64, .f32⟩
  | 12 => ⟨S320000x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S10000x64, .f32⟩
  | 22 => ⟨S10000x1, .f32⟩
  | 23 => ⟨S10000x1, .f32⟩
  | 24 => ⟨S10000x64, .f32⟩
  | 25 => ⟨S10000x64, .f32⟩
  | 26 => ⟨S10000x64, .f32⟩
  | 27 => ⟨S10000x64, .f32⟩
  | 28 => ⟨S10000x64, .f32⟩
  | 29 => ⟨S10000x64, .f32⟩
  | 30 => ⟨S1x64x64, .f32⟩
  | 31 => ⟨S64x64, .f32⟩
  | 32 => ⟨S10000x64, .f32⟩
  | 33 => ⟨S10000x64, .f32⟩
  | 34 => ⟨S1x64, .f32⟩
  | 35 => ⟨S10000x64, .f32⟩
  | 36 => ⟨S10000x64, .f32⟩
  | 37 => ⟨S10000x64, .f32⟩
  | 38 => ⟨S1x64, .f32⟩
  | 39 => ⟨S64, .f32⟩
  | 40 => ⟨S1x64, .f32⟩
  | 41 => ⟨S10000x64, .f32⟩
  | 42 => ⟨S10000x64, .f32⟩
  | 43 => ⟨S10000x64, .f32⟩
  | 44 => ⟨S1x64, .f32⟩
  | 45 => ⟨S64, .f32⟩
  | 46 => ⟨S1x64, .f32⟩
  | 47 => ⟨S10000x64, .f32⟩
  | 48 => ⟨S10000x64, .f32⟩
  | 49 => ⟨S10000x64, .f32⟩
  | 50 => ⟨S10000x64, .f32⟩
  | 51 => ⟨S_, .f32⟩
  | 52 => ⟨S10000x64, .f32⟩
  | 53 => ⟨S10000x64, .f32⟩
  | 54 => ⟨S_, .f32⟩
  | 55 => ⟨S10000x64, .f32⟩
  | 56 => ⟨S10000x64, .f32⟩
  | 57 => ⟨S1x2x128x64, .f32⟩
  | 58 => ⟨S2x128x64, .f32⟩
  | 59 => ⟨S1x64, .f32⟩
  | 60 => ⟨S64, .f32⟩
  | 61 => ⟨S1x128x64, .f32⟩
  | 62 => ⟨S128x64, .f32⟩
  | 63 => ⟨S10000x64, .f32⟩
  | 64 => ⟨S_, .f32⟩
  | 65 => ⟨S_, .f32⟩
  | 66 => ⟨S_, .f32⟩
  | 67 => ⟨S10000x128, .f32⟩
  | 68 => ⟨S320000x1, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x128, .f32⟩
  | 78 => ⟨S320000x128, .f32⟩
  | 79 => ⟨S320000x128, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S10000x128, .f32⟩
  | 89 => ⟨S10000x1, .f32⟩
  | 90 => ⟨S10000x1, .f32⟩
  | 91 => ⟨S10000x128, .f32⟩
  | 92 => ⟨S10000x128, .f32⟩
  | 93 => ⟨S10000x128, .f32⟩
  | 94 => ⟨S10000x128, .f32⟩
  | 95 => ⟨S10000x128, .f32⟩
  | 96 => ⟨S10000x128, .f32⟩
  | 97 => ⟨S1x128x64, .f32⟩
  | 98 => ⟨S128x64, .f32⟩
  | 99 => ⟨S10000x64, .f32⟩
  | 100 => ⟨S10000x64, .f32⟩
  | 101 => ⟨S1x64, .f32⟩
  | 102 => ⟨S10000x64, .f32⟩
  | 103 => ⟨S10000x64, .f32⟩
  | 104 => ⟨S1x2x64x64, .f32⟩
  | 105 => ⟨S2x64x64, .f32⟩
  | 106 => ⟨S1x64, .f32⟩
  | 107 => ⟨S64, .f32⟩
  | 108 => ⟨S1x64x64, .f32⟩
  | 109 => ⟨S64x64, .f32⟩
  | 110 => ⟨S10000x64, .f32⟩
  | 111 => ⟨S_, .f32⟩
  | 112 => ⟨S_, .f32⟩
  | 113 => ⟨S_, .f32⟩
  | 114 => ⟨S10000x64, .f32⟩
  | 115 => ⟨S320000x1, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x64, .f32⟩
  | 125 => ⟨S320000x64, .f32⟩
  | 126 => ⟨S320000x64, .f32⟩
  | 127 => ⟨S_, .i32⟩
  | _ => ⟨S10000x128, .f32⟩

abbrev hbmTy0_3 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S10000x64, .f32⟩
  | 8 => ⟨S10000x1, .f32⟩
  | 9 => ⟨S10000x1, .f32⟩
  | 10 => ⟨S10000x64, .f32⟩
  | 11 => ⟨S10000x64, .f32⟩
  | 12 => ⟨S10000x64, .f32⟩
  | 13 => ⟨S10000x64, .f32⟩
  | 14 => ⟨S10000x64, .f32⟩
  | 15 => ⟨S10000x64, .f32⟩
  | 16 => ⟨S1x64x64, .f32⟩
  | 17 => ⟨S64x64, .f32⟩
  | 18 => ⟨S10000x64, .f32⟩
  | 19 => ⟨S10000x64, .f32⟩
  | 20 => ⟨S1x64, .f32⟩
  | 21 => ⟨S10000x64, .f32⟩
  | 22 => ⟨S10000x64, .f32⟩
  | 23 => ⟨S10000x64, .f32⟩
  | 24 => ⟨S1x64, .f32⟩
  | 25 => ⟨S64, .f32⟩
  | 26 => ⟨S1x64, .f32⟩
  | 27 => ⟨S10000x64, .f32⟩
  | 28 => ⟨S10000x64, .f32⟩
  | 29 => ⟨S10000x64, .f32⟩
  | 30 => ⟨S10000x64, .f32⟩
  | 31 => ⟨S10000x64, .f32⟩
  | 32 => ⟨S10000x64, .f32⟩
  | 33 => ⟨S1x2x128x64, .f32⟩
  | 34 => ⟨S2x128x64, .f32⟩
  | 35 => ⟨S1x64, .f32⟩
  | 36 => ⟨S64, .f32⟩
  | 37 => ⟨S1x128x64, .f32⟩
  | 38 => ⟨S128x64, .f32⟩
  | 39 => ⟨S10000x64, .f32⟩
  | 40 => ⟨S_, .f32⟩
  | 41 => ⟨S_, .f32⟩
  | 42 => ⟨S_, .f32⟩
  | 43 => ⟨S10000x128, .f32⟩
  | 44 => ⟨S320000x1, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000x128, .f32⟩
  | 54 => ⟨S320000x128, .f32⟩
  | 55 => ⟨S320000x128, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S10000x128, .f32⟩
  | 65 => ⟨S10000x1, .f32⟩
  | 66 => ⟨S10000x1, .f32⟩
  | 67 => ⟨S10000x128, .f32⟩
  | 68 => ⟨S10000x128, .f32⟩
  | 69 => ⟨S10000x128, .f32⟩
  | 70 => ⟨S10000x128, .f32⟩
  | 71 => ⟨S10000x128, .f32⟩
  | 72 => ⟨S10000x128, .f32⟩
  | 73 => ⟨S1x128x64, .f32⟩
  | 74 => ⟨S128x64, .f32⟩
  | 75 => ⟨S10000x64, .f32⟩
  | 76 => ⟨S10000x64, .f32⟩
  | 77 => ⟨S1x64, .f32⟩
  | 78 => ⟨S10000x64, .f32⟩
  | 79 => ⟨S10000x64, .f32⟩
  | 80 => ⟨S1x2x64x64, .f32⟩
  | 81 => ⟨S2x64x64, .f32⟩
  | 82 => ⟨S1x64, .f32⟩
  | 83 => ⟨S64, .f32⟩
  | 84 => ⟨S1x64x64, .f32⟩
  | 85 => ⟨S64x64, .f32⟩
  | 86 => ⟨S10000x64, .f32⟩
  | 87 => ⟨S_, .f32⟩
  | 88 => ⟨S_, .f32⟩
  | 89 => ⟨S_, .f32⟩
  | 90 => ⟨S10000x64, .f32⟩
  | 91 => ⟨S320000x1, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x64, .f32⟩
  | 101 => ⟨S320000x64, .f32⟩
  | 102 => ⟨S320000x64, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S10000x64, .f32⟩
  | 112 => ⟨S10000x1, .f32⟩
  | 113 => ⟨S10000x1, .f32⟩
  | 114 => ⟨S10000x64, .f32⟩
  | 115 => ⟨S10000x64, .f32⟩
  | 116 => ⟨S10000x64, .f32⟩
  | 117 => ⟨S10000x64, .f32⟩
  | 118 => ⟨S10000x64, .f32⟩
  | 119 => ⟨S10000x64, .f32⟩
  | 120 => ⟨S1x64x64, .f32⟩
  | 121 => ⟨S64x64, .f32⟩
  | 122 => ⟨S10000x64, .f32⟩
  | 123 => ⟨S10000x64, .f32⟩
  | 124 => ⟨S1x64, .f32⟩
  | 125 => ⟨S10000x64, .f32⟩
  | 126 => ⟨S10000x64, .f32⟩
  | 127 => ⟨S10000x64, .f32⟩
  | _ => ⟨S10000x128, .f32⟩

abbrev hbmTy0_4 (i : Nat) : BufTy := match i % 128 with
  | 0 => ⟨S1x64, .f32⟩
  | 1 => ⟨S64, .f32⟩
  | 2 => ⟨S1x64, .f32⟩
  | 3 => ⟨S10000x64, .f32⟩
  | 4 => ⟨S10000x64, .f32⟩
  | 5 => ⟨S10000x64, .f32⟩
  | 6 => ⟨S1x64, .f32⟩
  | 7 => ⟨S64, .f32⟩
  | 8 => ⟨S1x64, .f32⟩
  | 9 => ⟨S10000x64, .f32⟩
  | 10 => ⟨S10000x64, .f32⟩
  | 11 => ⟨S10000x64, .f32⟩
  | 12 => ⟨S10000x64, .f32⟩
  | 13 => ⟨S_, .f32⟩
  | 14 => ⟨S10000x64, .f32⟩
  | 15 => ⟨S10000x64, .f32⟩
  | 16 => ⟨S_, .f32⟩
  | 17 => ⟨S10000x64, .f32⟩
  | 18 => ⟨S10000x64, .f32⟩
  | 19 => ⟨S10000x64, .f32⟩
  | 20 => ⟨S10000x64, .f32⟩
  | 21 => ⟨S_, .f32⟩
  | 22 => ⟨S10000x64, .f32⟩
  | 23 => ⟨S10000x64, .f32⟩
  | 24 => ⟨S10000x10, .f32⟩
  | 25 => ⟨S1x10, .f32⟩
  | 26 => ⟨S10000x10, .f32⟩
  | 27 => ⟨S10000x10, .f32⟩
  | 28 => ⟨S1x10000x64, .f32⟩
  | 29 => ⟨S1x10000x64, .f32⟩
  | 30 => ⟨S2x10000x64, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_cst_12 : Ref sig .tc := ⟨.hbm, 69, rfl⟩
abbrev main_cst_13 : Ref sig .tc := ⟨.hbm, 70, rfl⟩
abbrev main_call2_v0 : Ref sig .tc := ⟨.hbm, 71, rfl⟩
abbrev main_call2_v1 : Ref sig .tc := ⟨.hbm, 72, rfl⟩
abbrev main_v40 : Ref sig .tc := ⟨.hbm, 73, rfl⟩
abbrev main_v41 : Ref sig .tc := ⟨.hbm, 74, rfl⟩
abbrev main_cst_14 : Ref sig .tc := ⟨.hbm, 75, rfl⟩
abbrev main_v42 : Ref sig .tc := ⟨.hbm, 76, rfl⟩
abbrev main_v43 : Ref sig .tc := ⟨.hbm, 77, rfl⟩
abbrev main_cst_15 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_c_18 : Ref sig .tc := ⟨.hbm, 97, rfl⟩
abbrev main_v60 : Ref sig .tc := ⟨.hbm, 98, rfl⟩
abbrev main_v61 : Ref sig .tc := ⟨.hbm, 99, rfl⟩
abbrev main_c_19 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_20 : Ref sig .tc := ⟨.hbm, 108, rfl⟩
abbrev main_v69 : Ref sig .tc := ⟨.hbm, 109, rfl⟩
abbrev main_v70 : Ref sig .tc := ⟨.hbm, 110, rfl⟩
abbrev main_c_21 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_c_24 : Ref sig .tc := ⟨.hbm, 144, rfl⟩
abbrev main_v101 : Ref sig .tc := ⟨.hbm, 145, rfl⟩
abbrev main_v102 : Ref sig .tc := ⟨.hbm, 146, rfl⟩
abbrev main_c_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_26 : Ref sig .tc := ⟨.hbm, 155, rfl⟩
abbrev main_v110 : Ref sig .tc := ⟨.hbm, 156, rfl⟩
abbrev main_v111 : Ref sig .tc := ⟨.hbm, 157, rfl⟩
abbrev main_c_27 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_28 : Ref sig .tc := ⟨.hbm, 193, rfl⟩
abbrev main_v146 : Ref sig .tc := ⟨.hbm, 194, rfl⟩
abbrev main_v147 : Ref sig .tc := ⟨.hbm, 195, rfl⟩
abbrev main_cst_29 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_30 : Ref sig .tc := ⟨.hbm, 206, rfl⟩
abbrev main_v157 : Ref sig .tc := ⟨.hbm, 207, rfl⟩
abbrev main_cst_31 : Ref sig .tc := ⟨.hbm, 208, rfl⟩
abbrev main_v158 : Ref sig .tc := ⟨.hbm, 209, rfl⟩
abbrev main_v159 : Ref sig .tc := ⟨.hbm, 210, rfl⟩
abbrev main_c_32 : Ref sig .tc := ⟨.hbm, 211, rfl⟩
abbrev main_v160 : Ref sig .tc := ⟨.hbm, 212, rfl⟩
abbrev main_v161 : Ref sig .tc := ⟨.hbm, 213, rfl⟩
abbrev main_c_33 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_c_34 : Ref sig .tc := ⟨.hbm, 222, rfl⟩
abbrev main_v169 : Ref sig .tc := ⟨.hbm, 223, rfl⟩
abbrev main_v170 : Ref sig .tc := ⟨.hbm, 224, rfl⟩
abbrev main_c_35 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_36 : Ref sig .tc := ⟨.hbm, 253, rfl⟩
abbrev main_v198 : Ref sig .tc := ⟨.hbm, 254, rfl⟩
abbrev main_cst_37 : Ref sig .tc := ⟨.hbm, 255, rfl⟩
abbrev main_v199 : Ref sig .tc := ⟨.hbm, 256, rfl⟩
abbrev main_v200 : Ref sig .tc := ⟨.hbm, 257, rfl⟩
abbrev main_c_38 : Ref sig .tc := ⟨.hbm, 258, rfl⟩
abbrev main_v201 : Ref sig .tc := ⟨.hbm, 259, rfl⟩
abbrev main_v202 : Ref sig .tc := ⟨.hbm, 260, rfl⟩
abbrev main_c_39 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_c_40 : Ref sig .tc := ⟨.hbm, 269, rfl⟩
abbrev main_v210 : Ref sig .tc := ⟨.hbm, 270, rfl⟩
abbrev main_v211 : Ref sig .tc := ⟨.hbm, 271, rfl⟩
abbrev main_c_41 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_cst_42 : Ref sig .tc := ⟨.hbm, 307, rfl⟩
abbrev main_v246 : Ref sig .tc := ⟨.hbm, 308, rfl⟩
abbrev main_v247 : Ref sig .tc := ⟨.hbm, 309, rfl⟩
abbrev main_cst_43 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_cst_44 : Ref sig .tc := ⟨.hbm, 320, rfl⟩
abbrev main_v257 : Ref sig .tc := ⟨.hbm, 321, rfl⟩
abbrev main_cst_45 : Ref sig .tc := ⟨.hbm, 322, rfl⟩
abbrev main_v258 : Ref sig .tc := ⟨.hbm, 323, rfl⟩
abbrev main_v259 : Ref sig .tc := ⟨.hbm, 324, rfl⟩
abbrev main_c_46 : Ref sig .tc := ⟨.hbm, 325, rfl⟩
abbrev main_v260 : Ref sig .tc := ⟨.hbm, 326, rfl⟩
abbrev main_v261 : Ref sig .tc := ⟨.hbm, 327, rfl⟩
abbrev main_c_47 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_c_48 : Ref sig .tc := ⟨.hbm, 336, rfl⟩
abbrev main_v269 : Ref sig .tc := ⟨.hbm, 337, rfl⟩
abbrev main_v270 : Ref sig .tc := ⟨.hbm, 338, rfl⟩
abbrev main_c_49 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_cst_50 : Ref sig .tc := ⟨.hbm, 367, rfl⟩
abbrev main_v298 : Ref sig .tc := ⟨.hbm, 368, rfl⟩
abbrev main_cst_51 : Ref sig .tc := ⟨.hbm, 369, rfl⟩
abbrev main_v299 : Ref sig .tc := ⟨.hbm, 370, rfl⟩
abbrev main_v300 : Ref sig .tc := ⟨.hbm, 371, rfl⟩
abbrev main_c_52 : Ref sig .tc := ⟨.hbm, 372, rfl⟩
abbrev main_v301 : Ref sig .tc := ⟨.hbm, 373, rfl⟩
abbrev main_v302 : Ref sig .tc := ⟨.hbm, 374, rfl⟩
abbrev main_c_53 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_c_54 : Ref sig .tc := ⟨.hbm, 383, rfl⟩
abbrev main_v310 : Ref sig .tc := ⟨.hbm, 384, rfl⟩
abbrev main_v311 : Ref sig .tc := ⟨.hbm, 385, rfl⟩
abbrev main_c_55 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_cst_56 : Ref sig .tc := ⟨.hbm, 424, rfl⟩
abbrev main_v349 : Ref sig .tc := ⟨.hbm, 425, rfl⟩
abbrev main_cst_57 : Ref sig .tc := ⟨.hbm, 426, rfl⟩
abbrev main_v350 : Ref sig .tc := ⟨.hbm, 427, rfl⟩
abbrev main_v351 : Ref sig .tc := ⟨.hbm, 428, rfl⟩
abbrev main_c_58 : Ref sig .tc := ⟨.hbm, 429, rfl⟩
abbrev main_v352 : Ref sig .tc := ⟨.hbm, 430, rfl⟩
abbrev main_v353 : Ref sig .tc := ⟨.hbm, 431, rfl⟩
abbrev main_c_59 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_c_60 : Ref sig .tc := ⟨.hbm, 440, rfl⟩
abbrev main_v361 : Ref sig .tc := ⟨.hbm, 441, rfl⟩
abbrev main_v362 : Ref sig .tc := ⟨.hbm, 442, rfl⟩
abbrev main_c_61 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_cst_62 : Ref sig .tc := ⟨.hbm, 471, rfl⟩
abbrev main_v390 : Ref sig .tc := ⟨.hbm, 472, rfl⟩
abbrev main_cst_63 : Ref sig .tc := ⟨.hbm, 473, rfl⟩
abbrev main_v391 : Ref sig .tc := ⟨.hbm, 474, rfl⟩
abbrev main_v392 : Ref sig .tc := ⟨.hbm, 475, rfl⟩
abbrev main_c_64 : Ref sig .tc := ⟨.hbm, 476, rfl⟩
abbrev main_v393 : Ref sig .tc := ⟨.hbm, 477, rfl⟩
abbrev main_v394 : Ref sig .tc := ⟨.hbm, 478, rfl⟩
abbrev main_c_65 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_c_66 : Ref sig .tc := ⟨.hbm, 487, rfl⟩
abbrev main_v402 : Ref sig .tc := ⟨.hbm, 488, rfl⟩
abbrev main_v403 : Ref sig .tc := ⟨.hbm, 489, rfl⟩
abbrev main_c_67 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_v408 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_v415 : Ref sig .tc := ⟨.hbm, 502, rfl⟩
abbrev main_v416 : Ref sig .tc := ⟨.hbm, 503, rfl⟩
abbrev main_v417 : Ref sig .tc := ⟨.hbm, 504, rfl⟩
abbrev main_v418 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_v422 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩
abbrev main_v426 : Ref sig .tc := ⟨.hbm, 513, rfl⟩
abbrev main_v427 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_cst_68 : Ref sig .tc := ⟨.hbm, 525, rfl⟩
abbrev main_v438 : Ref sig .tc := ⟨.hbm, 526, rfl⟩
abbrev main_v439 : Ref sig .tc := ⟨.hbm, 527, rfl⟩
abbrev main_cst_69 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_v443 : Ref sig .tc := ⟨.hbm, 532, rfl⟩
abbrev main_call3_cst : Ref sig .tc := ⟨.hbm, 533, rfl⟩
abbrev main_call3_v0 : Ref sig .tc := ⟨.hbm, 534, rfl⟩
abbrev main_v444 : Ref sig .tc := ⟨.hbm, 535, rfl⟩
abbrev main_v445 : Ref sig .tc := ⟨.hbm, 536, rfl⟩
abbrev main_v446 : Ref sig .tc := ⟨.hbm, 537, rfl⟩
abbrev main_v447 : Ref sig .tc := ⟨.hbm, 538, rfl⟩
abbrev main_v448 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  reducesTo_S320000_S_d0 : S320000.ReducesTo [0] S_
  h_S_ : 0 < S_.numel
  reducesTo_S10000_S_d0 : S10000.ReducesTo [0] S_
  slices_S2x10000x64_S1x10000x64_0_0_0 : S2x10000x64.Slices ![0, 0, 0] S1x10000x64
  shapeCasts_S1x10000x64_S10000x64 : S1x10000x64.ShapeCasts S10000x64
  slices_S2x10000x64_S1x10000x64_1_0_0 : S2x10000x64.Slices ![1, 0, 0] S1x10000x64
  slices_S4x2x128x64_S1x2x128x64_0_0_0_0 : S4x2x128x64.Slices ![0, 0, 0, 0] S1x2x128x64
  shapeCasts_S1x2x128x64_S2x128x64 : S1x2x128x64.ShapeCasts S2x128x64
  slices_S4x64_S1x64_0_0 : S4x64.Slices ![0, 0] S1x64
  shapeCasts_S1x64_S64 : S1x64.ShapeCasts S64
  slices_S2x128x64_S1x128x64_0_0_0 : S2x128x64.Slices ![0, 0, 0] S1x128x64
  shapeCasts_S1x128x64_S128x64 : S1x128x64.ShapeCasts S128x64
  bcast_S_S10000x128 : S_.BroadcastsInDim S10000x128 (![] : Fin 0 → Fin S10000x128.rank)
  bcast_S320000x1_S320000x128_0_1 : S320000x1.BroadcastsInDim S320000x128 (![0, 1] : Fin 2 → Fin S320000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S2x128x64_S1x128x64_1_0_0 : S2x128x64.Slices ![1, 0, 0] S1x128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  slices_S4x2x64x64_S1x2x64x64_0_0_0_0 : S4x2x64x64.Slices ![0, 0, 0, 0] S1x2x64x64
  shapeCasts_S1x2x64x64_S2x64x64 : S1x2x64x64.ShapeCasts S2x64x64
  slices_S2x64x64_S1x64x64_0_0_0 : S2x64x64.Slices ![0, 0, 0] S1x64x64
  shapeCasts_S1x64x64_S64x64 : S1x64x64.ShapeCasts S64x64
  bcast_S_S10000x64 : S_.BroadcastsInDim S10000x64 (![] : Fin 0 → Fin S10000x64.rank)
  bcast_S320000x1_S320000x64_0_1 : S320000x1.BroadcastsInDim S320000x64 (![0, 1] : Fin 2 → Fin S320000x64.rank)
  bcast_S10000x1_S10000x64_0_1 : S10000x1.BroadcastsInDim S10000x64 (![0, 1] : Fin 2 → Fin S10000x64.rank)
  slices_S2x64x64_S1x64x64_1_0_0 : S2x64x64.Slices ![1, 0, 0] S1x64x64
  slices_S3x64_S1x64_0_0 : S3x64.Slices ![0, 0] S1x64
  slices_S4x2x128x64_S1x2x128x64_1_0_0_0 : S4x2x128x64.Slices ![1, 0, 0, 0] S1x2x128x64
  slices_S4x64_S1x64_1_0 : S4x64.Slices ![1, 0] S1x64
  slices_S4x2x64x64_S1x2x64x64_1_0_0_0 : S4x2x64x64.Slices ![1, 0, 0, 0] S1x2x64x64
  slices_S3x64_S1x64_1_0 : S3x64.Slices ![1, 0] S1x64
  slices_S4x2x128x64_S1x2x128x64_2_0_0_0 : S4x2x128x64.Slices ![2, 0, 0, 0] S1x2x128x64
  slices_S4x64_S1x64_2_0 : S4x64.Slices ![2, 0] S1x64
  slices_S4x2x64x64_S1x2x64x64_2_0_0_0 : S4x2x64x64.Slices ![2, 0, 0, 0] S1x2x64x64
  slices_S4x2x128x64_S1x2x128x64_3_0_0_0 : S4x2x128x64.Slices ![3, 0, 0, 0] S1x2x128x64
  slices_S4x64_S1x64_3_0 : S4x64.Slices ![3, 0] S1x64
  slices_S4x2x64x64_S1x2x64x64_3_0_0_0 : S4x2x64x64.Slices ![3, 0, 0, 0] S1x2x64x64
  slices_S3x64_S1x64_2_0 : S3x64.Slices ![2, 0] S1x64
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  bcast_S10000x64_S1x10000x64_1_2 : S10000x64.BroadcastsInDim S1x10000x64 (![1, 2] : Fin 2 → Fin S1x10000x64.rank)
  concatenates_S1x10000x64_S1x10000x64_S2x10000x64_d0 : Shape.Concatenates [S1x10000x64, S1x10000x64] S2x10000x64 0
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S10000x128_S128x64_S10000x64_1_0_0_1_n_n_wf : DotDims.WF S10000x128 S128x64 S10000x64 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x64_S64x64_S10000x64_1_0_0_1_n_n_wf : DotDims.WF S10000x64 S64x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x10_S10000x10_1_0_0_1_n_n_wf : DotDims.WF S10000x64 S64x10 S10000x10 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

class Facts : Prop extends Facts₀ where

variable [Facts]
-- ==== Proof.Spec.lean ====
/-
  What the graph-convolution LSTM step computes, as functions of the argument arrays over the extended reals,
  element by element: the in-degree of a node counted over the edge list, the symmetric normalisation
  `deg^(-1/2)`, the rescaled Laplacian applied to the node features and to the hidden state (its largest
  eigenvalue bound is 1 whenever the graph has an edge, so the rescaling is `2 L - I`), the four gates'
  pre-activations as sums over the two Chebyshev orders, the peephole LSTM update, the rectified hidden state and
  the linear read-out. Both programs are shown to end at these functions.
-/
import Idealize.ShloMosaic.PureOps.Ideal
import Idealize.ShloMosaic.Lib.ValueIdx

noncomputable section

namespace Cert.Proof.Spec

open Idealize.ShloMosaic

/-- The argument arrays, read element by element: node features `x`, the edges' two endpoint lists, the hidden
    and cell states, the Chebyshev weights of the input and hidden convolutions (gate, order, in, out), the three
    bias tables, the peephole weights and the read-out layer. -/
structure Args where
  x : Fin 10000 → Fin 128 → EReal
  src : Fin 320000 → Fin 10000
  dst : Fin 320000 → Fin 10000
  h : Fin 10000 → Fin 64 → EReal
  c : Fin 10000 → Fin 64 → EReal
  wx : Fin 4 → Fin 2 → Fin 128 → Fin 64 → EReal
  wh : Fin 4 → Fin 2 → Fin 64 → Fin 64 → EReal
  bx : Fin 4 → Fin 64 → EReal
  bh : Fin 4 → Fin 64 → EReal
  bg : Fin 4 → Fin 64 → EReal
  wp : Fin 3 → Fin 64 → EReal
  wo : Fin 64 → Fin 10 → EReal
  bo : Fin 10 → EReal

variable (A : Args)

/-- The number of edges whose first endpoint is `n`. -/
def deg (n : Fin 10000) : EReal := ∑ e : Fin 320000, if A.src e = n then (1 : EReal) else 0

/-- `deg^(-1/2)` where the degree is positive, zero elsewhere. -/
def dinv (n : Fin 10000) : EReal := if 0 < deg A n then Ideal.rsqrt (deg A n) else 0

/-- The Laplacian's diagonal after rescaling: `2 · [deg > 0] - 1`. -/
def sgn (n : Fin 10000) : EReal := if 0 < deg A n then 1 else -1

/-- The neighbour sum of the normalised features: over the edges into `n`, `dinv` of the other endpoint times its
    feature. -/
def agg {k : ℕ} (v : Fin 10000 → Fin k → EReal) (n : Fin 10000) (f : Fin k) : EReal :=
  ∑ e : Fin 320000, if A.src e = n then dinv A (A.dst e) * v (A.dst e) f else 0

/-- The rescaled Laplacian `2 L - I` applied to `v`. -/
def lhat {k : ℕ} (v : Fin 10000 → Fin k → EReal) (n : Fin 10000) (f : Fin k) : EReal :=
  sgn A n * v n f - (2 * dinv A n) * agg A v n f

/-- Gate `g`'s pre-activation before the peephole term: both convolutions at both Chebyshev orders, and the three
    biases. -/
def pre (g : Fin 4) (n : Fin 10000) (j : Fin 64) : EReal :=
  ((((∑ i : Fin 128, A.x n i * A.wx g 0 i j) + (∑ i : Fin 128, lhat A A.x n i * A.wx g 1 i j))
      + (∑ i : Fin 64, A.h n i * A.wh g 0 i j)) + (∑ i : Fin 64, lhat A A.h n i * A.wh g 1 i j))
    + ((A.bx g j + A.bh g j) + A.bg g j)

def inGate (n : Fin 10000) (j : Fin 64) : EReal := Ideal.logistic (pre A 0 n j + A.wp 0 j * A.c n j)
def forgetGate (n : Fin 10000) (j : Fin 64) : EReal := Ideal.logistic (pre A 1 n j + A.wp 1 j * A.c n j)
def candidate (n : Fin 10000) (j : Fin 64) : EReal := Ideal.tanh (pre A 2 n j)
/-- The new cell state. -/
def cellNew (n : Fin 10000) (j : Fin 64) : EReal := forgetGate A n j * A.c n j + inGate A n j * candidate A n j
def outGate (n : Fin 10000) (j : Fin 64) : EReal := Ideal.logistic (pre A 3 n j + A.wp 2 j * cellNew A n j)
/-- The new hidden state, rectified. -/
def hidden (n : Fin 10000) (j : Fin 64) : EReal := max (outGate A n j * Ideal.tanh (cellNew A n j)) 0

/-- The first result: the read-out of the rectified hidden state. -/
def out (n : Fin 10000) (k : Fin 10) : EReal := (∑ j : Fin 64, hidden A n j * A.wo j k) + A.bo k

/-- The second result: the rectified hidden state stacked on the new cell state. -/
def state (s : Fin 2) (n : Fin 10000) (j : Fin 64) : EReal := if s = 0 then hidden A n j else cellNew A n j

/-- The node a 32-bit endpoint word names. The programs' endpoints are words in `[0, 10000)`, where this is the
    word's own value. -/
def node (w : BitVec 32) : Fin 10000 := ⟨w.toNat % 10000, Nat.mod_lt _ (by decide)⟩

open ValueIdx in
/-- The arguments read off the eleven argument arrays, each at its literal shape: features, the two endpoint rows of
    the edge list, the stacked hidden and cell states, the two weight tensors, the bias tables, the peephole weights,
    the read-out matrix and its bias. -/
def Args.ofArrays
    (a0 : (⟨2, ![10000, 128]⟩ : Shape).Idx → EReal)
    (a1 : (⟨2, ![2, 320000]⟩ : Shape).Idx → BitVec 32)
    (a2 : (⟨3, ![2, 10000, 64]⟩ : Shape).Idx → EReal)
    (a3 : (⟨4, ![4, 2, 128, 64]⟩ : Shape).Idx → EReal)
    (a4 : (⟨4, ![4, 2, 64, 64]⟩ : Shape).Idx → EReal)
    (a5 a6 : (⟨2, ![4, 64]⟩ : Shape).Idx → EReal)
    (a7 : (⟨2, ![3, 64]⟩ : Shape).Idx → EReal)
    (a8 : (⟨2, ![4, 64]⟩ : Shape).Idx → EReal)
    (a9 : (⟨2, ![64, 10]⟩ : Shape).Idx → EReal)
    (a10 : (⟨1, ![10]⟩ : Shape).Idx → EReal) : Args where
  x n i := a0 (ix2 n i)
  src e := node (a1 (ix2 0 e))
  dst e := node (a1 (ix2 1 e))
  h n j := a2 (ix3 0 n j)
  c n j := a2 (ix3 1 n j)
  wx g k i j := a3 (ix4 g k i j)
  wh g k i j := a4 (ix4 g k i j)
  bx g j := a5 (ix2 g j)
  bh g j := a6 (ix2 g j)
  bg g j := a8 (ix2 g j)
  wp p j := a7 (ix2 p j)
  wo j k := a9 (ix2 j k)
  bo k := a10 (ix1 k)

/-- The first result as an array over `[10000, 10]`. -/
def outArr : (⟨2, ![10000, 10]⟩ : Shape).Idx → EReal := fun i => out A (i 0) (i 1)

/-- The second result as an array over `[2, 10000, 64]`. -/
def stateArr : (⟨3, ![2, 10000, 64]⟩ : Shape).Idx → EReal := fun i => state A (i 0) (i 1) (i 2)

end Cert.Proof.Spec

end
-- ==== Proof.RefGateFrame.lean ====
/-
  The reference program runs to completion from every admitted memory and leaves its argument arrays as it found
  them: its run names each result and each argument; dropping the two results leaves the frame.
-/
import proofs.«207992_g50208167690906_cont_8to1c4_731_36_alg».proof.Defs
import proofs.«207992_g50208167690906_cont_8to1c4_731_36_alg».proof.Proof.RefRunP
import proofs.«207992_g50208167690906_cont_8to1c4_731_36_alg».proof.Proof.Gen.Pre_input_domain

noncomputable section

namespace Cert.Proof.RefSide

open Idealize.ShloMosaic Idealize.SL.Sem

/-- Every weakly fair execution of the reference ends, nothing faulting, with the eleven arguments unchanged. -/
theorem frame_ri : Cert.frame_ReferenceIdeal :=
  fun m ρ _ => (θ_run Cert.ReferenceIdeal.defs _ _).mono (fun _ h c => (h c).2.2)
    (Cert.ReferenceIdeal.Value.run (F := Ideal) m ρ)

end Cert.Proof.RefSide

end
-- ==== Proof.LapAlgDom.lean ====
/-
  The admitted inputs of the graph-convolution LSTM step, stated of the eleven argument arrays element by element:
  every float entry is a real number (neither infinity), and every edge endpoint is a 32-bit word whose value lies
  in [0, 10000), read signed or unsigned.
-/
import Idealize.ShloMosaic.PureOps.Ideal
import Idealize.ShloMosaic.Lib.ValueIdx

namespace Cert.Proof.RefSide

open Idealize.ShloMosaic

/-- The admitted domain of the eleven argument arrays: finite floats, endpoints in range. -/
structure DomA
    (x0 : (⟨2, ![10000, 128]⟩ : Shape).Idx → EReal)
    (x1 : (⟨2, ![2, 320000]⟩ : Shape).Idx → BitVec 32)
    (x2 : (⟨3, ![2, 10000, 64]⟩ : Shape).Idx → EReal)
    (x3 : (⟨4, ![4, 2, 128, 64]⟩ : Shape).Idx → EReal)
    (x4 : (⟨4, ![4, 2, 64, 64]⟩ : Shape).Idx → EReal)
    (x5 x6 : (⟨2, ![4, 64]⟩ : Shape).Idx → EReal)
    (x7 : (⟨2, ![3, 64]⟩ : Shape).Idx → EReal)
    (x8 : (⟨2, ![4, 64]⟩ : Shape).Idx → EReal)
    (x9 : (⟨2, ![64, 10]⟩ : Shape).Idx → EReal)
    (x10 : (⟨1, ![10]⟩ : Shape).Idx → EReal) : Prop where
  real0 : ∀ i, ∃ r : ℝ, x0 i = (r : EReal)
  lt1 : ∀ i, (x1 i).toNat < 10000
  nonneg1 : ∀ i, 0 ≤ (x1 i).toInt
  real2 : ∀ i, ∃ r : ℝ, x2 i = (r : EReal)
  real3 : ∀ i, ∃ r : ℝ, x3 i = (r : EReal)
  real4 : ∀ i, ∃ r : ℝ, x4 i = (r : EReal)
  real5 : ∀ i, ∃ r : ℝ, x5 i = (r : EReal)
  real6 : ∀ i, ∃ r : ℝ, x6 i = (r : EReal)
  real7 : ∀ i, ∃ r : ℝ, x7 i = (r : EReal)
  real8 : ∀ i, ∃ r : ℝ, x8 i = (r : EReal)
  real9 : ∀ i, ∃ r : ℝ, x9 i = (r : EReal)
  real10 : ∀ i, ∃ r : ℝ, x10 i = (r : EReal)

end Cert.Proof.RefSide
-- ==== Proof.RefLapRange.lean ====
/-
  The integer part of the admitted domain, at any float instance: where the input-domain predicate is all ones, every
  edge endpoint word lies in [0, 10000). Only the predicate's last conjunct, the range test of the endpoint array,
  is opened; the float conjuncts before it are carried unread.
-/
import proofs.«207992_g50208167690906_cont_8to1c4_731_36_alg».proof.Proof.Gen.Pre_input_domain
import Idealize.ShloMosaic.Lib.ReduceAll

namespace Cert.Proof.RefSide

open Idealize.ShloMosaic Cert.Pre_input_domain

instance subsingleton_scalar_idx : Subsingleton S_.Idx := ⟨fun a b => funext fun d => d.elim0⟩

variable [Cert.Pre_input_domain.Facts] {F : FTy → Type} [FloatOps F]

/-- The predicate's last part at its one index: the carried conjunction, and at every endpoint the carried
    lower-bound bit and the upper bound. -/
theorem part3_of_one (a1 : IVec S2x320000 32) (v48 : IVec S_ 1) (v50 : IVec S2x320000 1) (j : S_.Idx)
    (h : fn_part3 (F := F) a1 v48 v50 j = 1#1) :
    v48 j = 1#1 ∧ ∀ i, v50 i = 1#1 ∧ (a1 i).toInt ≤ 9999 := by
  unfold fn_part3 at h
  dsimp only at h
  obtain ⟨h48, hall⟩ := IntOp.andi_eq_one.mp h
  refine ⟨h48, fun i => ?_⟩
  have hi := Host.reduce_andi_all _ _ _ _ j hall i
  obtain ⟨h50, h52⟩ := IntOp.andi_eq_one.mp hi
  refine ⟨h50, ?_⟩
  have := IntOp.cmpi_sle.mp h52
  simpa [broadcastInDim, constantI] using this

/-- The endpoint words of an admitted input are in [0, 10000). -/
theorem range_of_pre (x0 : FVec F S10000x128 .f32) (x1 : IVec S2x320000 32) (x2 : FVec F S2x10000x64 .f32)
    (x3 : FVec F S4x2x128x64 .f32) (x4 : FVec F S4x2x64x64 .f32) (x5 x6 : FVec F S4x64 .f32) (x7 : FVec F S3x64 .f32)
    (x8 : FVec F S4x64 .f32) (x9 : FVec F S64x10 .f32) (x10 : FVec F S10 .f32)
    (h : Cert.Pre_input_domain.fn (F := F) x0 x1 x2 x3 x4 x5 x6 x7 x8 x9 x10 = (fun _ => 1#1)) :
    ∀ i, (x1 i).toNat < 10000 := by
  intro i
  have h0 := congrFun h (fun d => d.elim0)
  unfold fn at h0
  dsimp only at h0
  unfold fn_part1 at h0
  dsimp only at h0
  unfold fn_part2 at h0
  dsimp only at h0
  obtain ⟨_, hall⟩ := part3_of_one (F := F) _ _ _ _ h0
  obtain ⟨hge, hle⟩ := hall i
  have hge' := IntOp.cmpi_sge.mp hge
  have h0i : (0#32 : BitVec 32).toInt = 0 := by decide
  simp only [broadcastInDim, constantI, h0i] at hge'
  have := BitVec.toInt_eq_toNat_cond (x1 i)
  have hlt := (x1 i).isLt
  split at this <;> omega

end Cert.Proof.RefSide
-- ==== Proof.RefLapFinite.lean ====
/-
  The float part of the admitted domain at the ideal instance: where the input-domain predicate is all ones, every
  entry of each float argument array passed the test "absolute value below plus infinity", so it is a real number.
-/
import proofs.«207992_g50208167690906_cont_8to1c4_731_36_alg».proof.Proof.RefLapRange
import Idealize.ShloMosaic.PureOps.Ideal

noncomputable section

namespace Cert.Proof.RefSide

open Idealize.ShloMosaic Cert.Pre_input_domain

variable [Cert.Pre_input_domain.Facts]

/-- An extended real whose absolute value is below the f32 pattern of plus infinity is a real number. -/
theorem real_of_abs_lt (x : EReal)
    (h : FloatOps.cmpf (F := Ideal) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = (⊤ : EReal) := by simp [Ideal.ofBits, Ideal.ieee]
  induction x using EReal.rec with
  | bot =>
    exfalso
    have h' : Ideal.cmp .olt (max (⊥ : EReal) (-⊥)) (Ideal.ofBits .f32 0x7F800000#32) = 1#1 := h
    rw [hinf] at h'
    simp [Ideal.cmp] at h'
  | coe r => exact ⟨r, rfl⟩
  | top =>
    exfalso
    have h' : Ideal.cmp .olt (max (⊤ : EReal) (-⊤)) (Ideal.ofBits .f32 0x7F800000#32) = 1#1 := h
    rw [hinf] at h'
    simp [Ideal.cmp] at h'

/-- One finiteness test of the predicate, passed: every entry of the tested array is a real number. -/
theorem real_of_all {s : Shape} {axes : List (Fin s.rank)} (x : FVec Ideal s .f32) (hb : S_.BroadcastsInDim s ![])
    (hr : s.ReducesTo axes S_) (hu : 0 < S_.numel) (init : IVec S_ 1) (j : S_.Idx)
    (h : Host.reduce IntOp.andi (cmpf .olt (Host.absf x) (broadcastInDim s ![] hb (constant (F := Ideal) S_ .f32 0x7F800000#32)))
      init hr hu j = 1#1) : ∀ i, ∃ r : ℝ, x i = (r : EReal) := fun i =>
  real_of_abs_lt (x i) (Host.reduce_andi_all _ _ _ _ j h i)

/-- The float part of the admitted domain: where the input-domain predicate is all ones at the ideal instance, every
    entry of each of the ten float argument arrays is a real number. -/
theorem finite_of_pre (x0 : FVec Ideal S10000x128 .f32) (x1 : IVec S2x320000 32) (x2 : FVec Ideal S2x10000x64 .f32)
    (x3 : FVec Ideal S4x2x128x64 .f32) (x4 : FVec Ideal S4x2x64x64 .f32) (x5 x6 : FVec Ideal S4x64 .f32)
    (x7 : FVec Ideal S3x64 .f32) (x8 : FVec Ideal S4x64 .f32) (x9 : FVec Ideal S64x10 .f32) (x10 : FVec Ideal S10 .f32)
    (h : Cert.Pre_input_domain.fn (F := Ideal) x0 x1 x2 x3 x4 x5 x6 x7 x8 x9 x10 = (fun _ => 1#1)) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal)) ∧ (∀ i, ∃ r : ℝ, x9 i = (r : EReal))
    ∧ (∀ i, ∃ r : ℝ, x10 i = (r : EReal)) := by
  have h0 := congrFun h (fun d => d.elim0)
  unfold fn at h0
  dsimp only at h0
  unfold fn_part1 at h0
  dsimp only at h0
  unfold fn_part2 at h0
  dsimp only at h0
  obtain ⟨h48, _⟩ := part3_of_one (F := Ideal) _ _ _ _ h0
  obtain ⟨h43, h47⟩ := IntOp.andi_eq_one.mp h48
  obtain ⟨h38, h42⟩ := IntOp.andi_eq_one.mp h43
  obtain ⟨h33, h37⟩ := IntOp.andi_eq_one.mp h38
  obtain ⟨h28, h32⟩ := IntOp.andi_eq_one.mp h33
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨real_of_all x0 _ _ _ _ _ h3, real_of_all x2 _ _ _ _ _ h7, real_of_all x3 _ _ _ _ _ h12,
    real_of_all x4 _ _ _ _ _ h17, real_of_all x5 _ _ _ _ _ h22, real_of_all x6 _ _ _ _ _ h27,
    real_of_all x7 _ _ _ _ _ h32, real_of_all x8 _ _ _ _ _ h37, real_of_all x9 _ _ _ _ _ h42,
    real_of_all x10 _ _ _ _ _ h47⟩

end Cert.Proof.RefSide

end
-- ==== Proof.RefLapDom.lean ====
/-
  The reference program's argument arrays as the specification reads them, and the admitted domain stated of a memory:
  the precondition's predicate, decoded, says every float argument entry is a real number and every edge endpoint a
  word in [0, 10000).
-/
import proofs.«207992_g50208167690906_cont_8to1c4_731_36_alg».proof.Defs
import proofs.«207992_g50208167690906_cont_8to1c4_731_36_alg».proof.Proof.Gen.Pre_input_domain
import proofs.«207992_g50208167690906_cont_8to1c4_731_36_alg».proof.Proof.Spec
import proofs.«207992_g50208167690906_cont_8to1c4_731_36_alg».proof.Proof.LapAlgDom
import proofs.«207992_g50208167690906_cont_8to1c4_731_36_alg».proof.Proof.RefLapFinite

noncomputable section

namespace Cert.Proof.RefSide

open Idealize.ShloMosaic Idealize.SL.Sem Cert.ReferenceIdeal

/-- The specification's arguments read off the reference's argument buffers on device `c`. -/
abbrev argsR (m' : (ℓ : Loc nD τ sig) → Buf (Elt Ideal) ℓ) (c : Dev nD) : Spec.Args :=
  Spec.Args.ofArrays
    (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))

/-- The admitted domain, stated of the reference's argument buffers on device `c`. -/
abbrev Dom (m' : (ℓ : Loc nD τ sig) → Buf (Elt Ideal) ℓ) (c : Dev nD) : Prop :=
  DomA
    (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))

/-- The precondition gives the admitted domain on every device. -/
theorem dom_of_pre (m' : (ℓ : Loc nD τ sig) → Buf (Elt Ideal) ℓ) (hpre : Cert.Pre_ReferenceIdeal m') (c : Dev nD) :
    Dom m' c := by
  have h := hpre c
  have hr := range_of_pre _ _ _ _ _ _ _ _ _ _ _ h
  obtain ⟨h0, h2, h3, h4, h5, h6, h7, h8, h9, h10⟩ := finite_of_pre _ _ _ _ _ _ _ _ _ _ _ h
  refine ⟨h0, hr, fun i => ?_, h2, h3, h4, h5, h6, h7, h8, h9, h10⟩
  have hlt := hr i
  have hc := BitVec.toInt_eq_toNat_cond (m' ((c.tc : Thread nD τ).loc main_arg1) i)
  split at hc <;> omega

end Cert.Proof.RefSide

end
-- ==== Proof.LapAlg.lean ====
/-
  The normalised graph Laplacian over a finite edge list, two arrangements of one function. With `deg n` the number
  of edges whose first endpoint is `n`, `dinv = deg^(-1/2)` on the nodes that have an edge and zero elsewhere: the
  operator `2 L / lam - I` with `L v = [deg > 0] v - scatter (dinv[src] * 1 * dinv[dst] * v[dst])` and `lam` the
  maximum of the negated edge weights and the diagonal, against `sgn v - 2 dinv * sum over the edges into n of
  dinv[dst] v[dst]`. Every edge weight is nonnegative and some node has an edge, so `lam = 1`; on real data the two
  are equal by distributing `dinv[src] = dinv n` out of the sum.
-/
import Idealize.ShloMosaic.PureOps.Ideal
import Mathlib.Data.Finset.Fold
import Mathlib.Algebra.BigOperators.Ring.Finset

noncomputable section

open scoped BigOperators

namespace Cert.Proof.LapAlg

open Idealize.ShloMosaic

/-- The coercion of a finite real sum is the sum of the coercions. -/
@[norm_cast]
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {E N : Type} [Fintype E] [Fintype N] [DecidableEq N] (src dst : E → N)

/-! ### The specification's arrangement -/

/-- The number of edges whose first endpoint is `n`. -/
def deg (n : N) : EReal := ∑ e : E, if src e = n then (1 : EReal) else 0
def dinv (n : N) : EReal := if 0 < deg src n then Ideal.rsqrt (deg src n) else 0
def sgn (n : N) : EReal := if 0 < deg src n then 1 else -1
def agg (v : N → EReal) (n : N) : EReal := ∑ e : E, if src e = n then dinv src (dst e) * v (dst e) else 0
def lhat (v : N → EReal) (n : N) : EReal := sgn src n * v n - (2 * dinv src n) * agg src dst v n

/-! ### The reference's arrangement -/

def dinvRef (n : N) : EReal :=
  if 0 < deg src n then Ideal.div 1 (Ideal.sqrt (if 0 < deg src n then deg src n else 1)) else 0
def diag (n : N) : EReal := if 0 < deg src n then 1 else 0
def normw (e : E) : EReal := dinvRef src (src e) * 1 * dinvRef src (dst e)
/-- The reference's operator at a given scale `t` (it computes `t = 2 / lam`). -/
def lhatRef (t : EReal) (v : N → EReal) (n : N) : EReal :=
  t * (diag src n * v n - (0 + ∑ e : E, if src e = n then normw src dst e * v (dst e) else 0)) - v n

/-! ### Real witnesses -/

/-- The degree as a real number. -/
def degR (n : N) : ℝ := ∑ e : E, if src e = n then (1 : ℝ) else 0
def dinvR (n : N) : ℝ := if 0 < degR src n then (Real.sqrt (degR src n))⁻¹ else 0

theorem deg_coe (n : N) : deg src n = (degR src n : EReal) := by
  unfold deg degR
  rw [coe_sum]
  refine Finset.sum_congr rfl fun e _ => ?_
  split <;> simp

theorem degR_nonneg (n : N) : 0 ≤ degR src n :=
  Finset.sum_nonneg fun e _ => by split <;> norm_num

theorem degR_src_pos (e : E) : 0 < degR src (src e) := by
  unfold degR
  have h : (if src e = src e then (1 : ℝ) else 0) ≤ ∑ e' : E, if src e' = src e then (1 : ℝ) else 0 :=
    Finset.single_le_sum (f := fun e' => if src e' = src e then (1 : ℝ) else 0)
      (fun e' _ => by split <;> norm_num) (Finset.mem_univ e)
  rw [if_pos rfl] at h
  linarith

theorem deg_pos_iff (n : N) : 0 < deg src n ↔ 0 < degR src n := by
  rw [deg_coe]; exact_mod_cast Iff.rfl

theorem dinvR_nonneg (n : N) : 0 ≤ dinvR src n := by
  unfold dinvR
  split
  · exact inv_nonneg.mpr (Real.sqrt_nonneg _)
  · exact le_refl _

theorem dinv_coe (n : N) : dinv src n = (dinvR src n : EReal) := by
  unfold dinv dinvR
  by_cases h : 0 < degR src n
  · rw [if_pos ((deg_pos_iff src n).mpr h), if_pos h, deg_coe, Ideal.rsqrt_coe,
      if_neg (not_lt.mpr h.le), if_neg (ne_of_gt h)]
  · rw [if_neg (fun h' => h ((deg_pos_iff src n).mp h')), if_neg h, EReal.coe_zero]

theorem dinvRef_eq (n : N) : dinvRef src n = dinv src n := by
  rw [dinv_coe]
  unfold dinvRef dinvR
  by_cases h : 0 < degR src n
  · have hs : Real.sqrt (degR src n) ≠ 0 := ne_of_gt (Real.sqrt_pos.mpr h)
    rw [if_pos ((deg_pos_iff src n).mpr h), if_pos ((deg_pos_iff src n).mpr h), if_pos h, deg_coe, Ideal.sqrt_coe,
      if_neg (not_lt.mpr h.le), Ideal.div_coe hs, one_mul, one_div]
  · rw [if_neg (fun h' => h ((deg_pos_iff src n).mp h')), if_neg h, EReal.coe_zero]

theorem normw_coe (e : E) : normw src dst e = ((dinvR src (src e) * 1 * dinvR src (dst e) : ℝ) : EReal) := by
  unfold normw
  rw [dinvRef_eq, dinvRef_eq, dinv_coe, dinv_coe]
  norm_cast

theorem diag_le_one (n : N) : diag src n ≤ 1 := by
  unfold diag; split
  · exact le_refl _
  · exact zero_le_one

/-- The largest-eigenvalue bound is one as soon as the graph has an edge: the maximum, from minus infinity, of a
    family of negated edge weights and of a family that runs over the whole diagonal. -/
theorem lam_eq_one [Nonempty E] {ιE ιN : Type} [Fintype ιE] [Fintype ιN] (gE : ιE → EReal) (gN : ιN → EReal)
    (hE : ∀ i, ∃ e, gE i = -(normw src dst e)) (hN : ∀ i, ∃ n, gN i = diag src n) (hN' : ∀ n, ∃ i, gN i = diag src n) :
    max ((Finset.univ : Finset ιE).fold max ⊥ gE) ((Finset.univ : Finset ιN).fold max ⊥ gN) = 1 := by
  have hA : ((Finset.univ : Finset ιE).fold max ⊥ gE) ≤ 0 := by
    rw [Finset.fold_max_le]
    refine ⟨bot_le, fun i _ => ?_⟩
    obtain ⟨e, he⟩ := hE i
    rw [he, normw_coe]
    have : 0 ≤ dinvR src (src e) * 1 * dinvR src (dst e) :=
      mul_nonneg (mul_nonneg (dinvR_nonneg src _) zero_le_one) (dinvR_nonneg src _)
    have h' : ((0 : ℝ) : EReal) ≤ ((dinvR src (src e) * 1 * dinvR src (dst e) : ℝ) : EReal) := EReal.coe_le_coe_iff.mpr this
    rw [EReal.coe_zero] at h'
    exact EReal.neg_le_of_neg_le (by simpa using h')
  have hB : ((Finset.univ : Finset ιN).fold max ⊥ gN) = 1 := by
    refine le_antisymm ?_ ?_
    · rw [Finset.fold_max_le]
      refine ⟨bot_le, fun i _ => ?_⟩
      obtain ⟨n, hn⟩ := hN i
      rw [hn]; exact diag_le_one src n
    · rw [Finset.le_fold_max]
      obtain ⟨e⟩ := (inferInstance : Nonempty E)
      obtain ⟨i, hi⟩ := hN' (src e)
      refine Or.inr ⟨i, Finset.mem_univ _, ?_⟩
      rw [hi]
      unfold diag
      rw [if_pos ((deg_pos_iff src _).mpr (degR_src_pos src e))]
  rw [hB]
  exact max_eq_right (le_trans hA zero_le_one)

theorem div_two_one : Ideal.div 2 1 = 2 := by
  have h : (1 : EReal) = ((1 : ℝ) : EReal) := EReal.coe_one.symm
  rw [h, Ideal.div_coe one_ne_zero]
  simp

theorem two_lap_pos (a d S : ℝ) :
    (2 : EReal) * ((1 : EReal) * (a : EReal) - ((0 : EReal) + ((d * S : ℝ) : EReal))) - (a : EReal)
      = (1 : EReal) * (a : EReal) - (2 : EReal) * (d : EReal) * (S : EReal) := by
  have h2 : (2 : EReal) = ((2 : ℝ) : EReal) := by norm_cast
  rw [h2, one_mul, zero_add]
  norm_cast
  ring

theorem two_lap_neg (a d S : ℝ) :
    (2 : EReal) * ((0 : EReal) * (a : EReal) - ((0 : EReal) + ((d * S : ℝ) : EReal))) - (a : EReal)
      = (-1 : EReal) * (a : EReal) - (2 : EReal) * (d : EReal) * (S : EReal) := by
  have h2 : (2 : EReal) = ((2 : ℝ) : EReal) := by norm_cast
  rw [h2, neg_mul, one_mul, zero_mul, zero_add]
  norm_cast
  ring

/-- THE TWO ARRANGEMENTS AGREE on real data, at the scale two. -/
theorem lhatRef_eq (v : N → EReal) (hv : ∀ n, ∃ r : ℝ, v n = (r : EReal)) (n : N) :
    lhatRef src dst 2 v n = lhat src dst v n := by
  choose vr hvr using hv
  unfold lhatRef lhat agg sgn diag
  simp only [normw_coe, dinv_coe, hvr]
  have hsum : (∑ e : E, if src e = n then ((dinvR src (src e) * 1 * dinvR src (dst e) : ℝ) : EReal) * (vr (dst e) : EReal) else 0)
      = ((dinvR src n * ∑ e : E, if src e = n then dinvR src (dst e) * vr (dst e) else 0 : ℝ) : EReal) := by
    rw [Finset.mul_sum, coe_sum]
    refine Finset.sum_congr rfl fun e _ => ?_
    split
    · rename_i h
      rw [h]; norm_cast; ring_nf
    · simp
  have hagg : (∑ e : E, if src e = n then (dinvR src (dst e) : EReal) * (vr (dst e) : EReal) else 0)
      = ((∑ e : E, if src e = n then dinvR src (dst e) * vr (dst e) else 0 : ℝ) : EReal) := by
    rw [coe_sum]
    refine Finset.sum_congr rfl fun e _ => ?_
    split
    · norm_cast
    · simp
  rw [hsum, hagg]
  by_cases h : 0 < degR src n
  · rw [if_pos ((deg_pos_iff src n).mpr h), if_pos ((deg_pos_iff src n).mpr h)]
    exact two_lap_pos _ _ _
  · have h' : ¬ 0 < deg src n := fun h' => h ((deg_pos_iff src n).mp h')
    rw [if_neg h', if_neg h']
    exact two_lap_neg _ _ _

end Cert.Proof.LapAlg

end
-- ==== Proof.LapAlgSpec.lean ====
/-
  The specification's Laplacian is the abstract one over the edge list's two endpoint maps: its degree,
  normalisation, sign, neighbour sum and rescaled operator unfold to the abstract definitions at the arguments'
  `src`, `dst` and one feature column.
-/
import proofs.«207992_g50208167690906_cont_8to1c4_731_36_alg».proof.Proof.Spec
import proofs.«207992_g50208167690906_cont_8to1c4_731_36_alg».proof.Proof.LapAlg

noncomputable section

namespace Cert.Proof.RefSide

open Idealize.ShloMosaic Cert.Proof

variable (A : Spec.Args)

theorem spec_deg (n : Fin 10000) : Spec.deg A n = LapAlg.deg A.src n := rfl

theorem spec_dinv (n : Fin 10000) : Spec.dinv A n = LapAlg.dinv A.src n := by
  unfold Spec.dinv LapAlg.dinv
  rw [spec_deg]

theorem spec_sgn (n : Fin 10000) : Spec.sgn A n = LapAlg.sgn A.src n := by
  unfold Spec.sgn LapAlg.sgn
  rw [spec_deg]

theorem spec_agg {k : ℕ} (v : Fin 10000 → Fin k → EReal) (n : Fin 10000) (f : Fin k) :
    Spec.agg A v n f = LapAlg.agg A.src A.dst (fun m => v m f) n := by
  unfold Spec.agg LapAlg.agg
  refine Finset.sum_congr rfl fun e _ => ?_
  rw [spec_dinv]

/-- The specification's rescaled Laplacian, column by column, is the abstract one. -/
theorem spec_lhat {k : ℕ} (v : Fin 10000 → Fin k → EReal) (n : Fin 10000) (f : Fin k) :
    Spec.lhat A v n f = LapAlg.lhat A.src A.dst (fun m => v m f) n := by
  unfold Spec.lhat LapAlg.lhat
  rw [spec_sgn, spec_dinv, spec_agg]

end Cert.Proof.RefSide

end
-- ==== Proof.LapAlgScatter.lean ====
/-
  The host's accumulating scatter and its gather, read at an index, for the two layouts a row-indexed sum over an
  edge list uses: rows of a table `[N, k]` named by a column `[E, 1]` of words (an update row `e` lands on row
  `idx e`, whatever its sign or size: a word outside `[0, N)` lands nowhere), and a flat table `[N]` likewise.
-/
import Idealize.ShloMosaic.PureOps.Ideal
import Idealize.ShloMosaic.Lib.ValueIdx
import Idealize.ShloMosaic.Lib.ValueIdxRank1

noncomputable section

open scoped BigOperators

namespace Cert.Proof.LapAlg

open Idealize.ShloMosaic Idealize.ShloMosaic.ValueIdx

/-- The dimension numbers of a row scatter: updates `[E, k]` onto rows of `[N, k]` named by `[E, 1]`. -/
abbrev rowsScatter (N k E : Nat) (wf : ScatterDims.WF ⟨2, ![N, k]⟩ ⟨2, ![E, 1]⟩ ⟨2, ![E, k]⟩ [1] [0] [0] 1) :
    ScatterDims ⟨2, ![N, k]⟩ ⟨2, ![E, 1]⟩ ⟨2, ![E, k]⟩ where
  updateWindowDims := [1]
  insertedWindowDims := [0]
  scatterDimsToOperandDims := [0]
  indexVectorDim := 1
  wf := wf

variable {N k E w : Nat}

theorem rowsScatter_siIdx (wf) (j : (⟨2, ![E, k]⟩ : Shape).Idx) (c) :
    (rowsScatter N k E wf).siIdx j c = ix2 (j 0) (0 : Fin 1) := by
  funext b
  refine Fin.ext ?_
  match b with
  | ⟨0, _⟩ => rfl
  | ⟨1, _⟩ =>
    have : c.val = 0 := by
      have := c.isLt
      simp only [List.length_singleton] at this
      omega
    show c.val = 0
    exact this

theorem rowsScatter_start0 (wf) (j : (⟨2, ![E, k]⟩ : Shape).Idx) (idx : IVec ⟨2, ![E, 1]⟩ w) :
    (rowsScatter N k E wf).start j idx 0 = (idx (ix2 (j 0) (0 : Fin 1))).toInt := by
  unfold ScatterDims.start
  rw [dif_pos (show (0 : Fin 2) ∈ (rowsScatter N k E wf).scatterDimsToOperandDims from List.mem_singleton.mpr rfl),
    rowsScatter_siIdx]
  rfl

theorem rowsScatter_start1 (wf) (j : (⟨2, ![E, k]⟩ : Shape).Idx) (idx : IVec ⟨2, ![E, 1]⟩ w) :
    (rowsScatter N k E wf).start j idx 1 = 0 := by
  unfold ScatterDims.start
  have h1 : ¬ (1 : Fin 2) ∈ (rowsScatter N k E wf).scatterDimsToOperandDims := (by decide : ¬ (1 : Fin 2) ∈ ([0] : List (Fin 2)))
  rw [dif_neg h1]

theorem rowsScatter_window0 (wf) (j : (⟨2, ![E, k]⟩ : Shape).Idx) :
    (rowsScatter N k E wf).window j 0 = 0 := by
  unfold ScatterDims.window
  have h0 : ¬ (0 : Fin 2) ∈ (rowsScatter N k E wf).sKept := (by decide : ¬ (0 : Fin 2) ∈ ([1] : List (Fin 2)))
  rw [dif_neg h0]

theorem rowsScatter_window1 (wf) (j : (⟨2, ![E, k]⟩ : Shape).Idx) :
    (rowsScatter N k E wf).window j 1 = (j 1).val := by
  unfold ScatterDims.window
  have h1 : (1 : Fin 2) ∈ (rowsScatter N k E wf).sKept := (List.mem_singleton.mpr rfl : (1 : Fin 2) ∈ ([1] : List (Fin 2)))
  rw [dif_pos h1]
  rfl

/-- Where an update element lands: on row `idx e` (read signed), its own column. -/
theorem rowsScatter_resultIdx_iff (wf) (j : (⟨2, ![E, k]⟩ : Shape).Idx) (idx : IVec ⟨2, ![E, 1]⟩ w)
    (i : (⟨2, ![N, k]⟩ : Shape).Idx) :
    (rowsScatter N k E wf).resultIdx? j idx = some i
      ↔ (idx (ix2 (j 0) (0 : Fin 1))).toInt = ((i 0).val : Int) ∧ (j 1).val = (i 1).val := by
  have hs0 := rowsScatter_start0 (N := N) wf j idx
  have hs1 := rowsScatter_start1 (N := N) wf j idx
  have hw0 := rowsScatter_window0 (N := N) wf j
  have hw1 := rowsScatter_window1 (N := N) wf j
  have hi0 : (i 0).val < N := (i 0).isLt
  have hi1 : (i 1).val < k := (i 1).isLt
  have hj1 : (j 1).val < k := (j 1).isLt
  unfold ScatterDims.resultIdx?
  split
  · rename_i h
    rw [Option.some.injEq]
    constructor
    · intro e
      have e0 : ((rowsScatter N k E wf).start j idx 0 + (rowsScatter N k E wf).window j 0).toNat = (i 0).val :=
        congrArg (fun g : (⟨2, ![N, k]⟩ : Shape).Idx => (g 0).val) e
      have e1 : ((rowsScatter N k E wf).start j idx 1 + (rowsScatter N k E wf).window j 1).toNat = (i 1).val :=
        congrArg (fun g : (⟨2, ![N, k]⟩ : Shape).Idx => (g 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowsScatter N k E wf).start j idx 0 + (rowsScatter N k E wf).window j 0).toNat = (i 0).val
        rw [hs0, hw0]; omega
      | ⟨1, _⟩ =>
        show ((rowsScatter N k E wf).start j idx 1 + (rowsScatter N k E wf).window j 1).toNat = (i 1).val
        rw [hs1, hw1]; omega
  · rename_i h
    constructor
    · intro e; cases e
    · rintro ⟨e0, e1⟩
      exfalso
      apply h
      intro a
      match a with
      | ⟨0, _⟩ =>
        show 0 ≤ (rowsScatter N k E wf).start j idx 0 + (rowsScatter N k E wf).window j 0
          ∧ (rowsScatter N k E wf).start j idx 0 + (rowsScatter N k E wf).window j 0 < (N : Int)
        rw [hs0, hw0]; omega
      | ⟨1, _⟩ =>
        show 0 ≤ (rowsScatter N k E wf).start j idx 1 + (rowsScatter N k E wf).window j 1
          ∧ (rowsScatter N k E wf).start j idx 1 + (rowsScatter N k E wf).window j 1 < (k : Int)
        rw [hs1, hw1]; omega

/-- THE ROW SCATTER-ADD READ AT `(n, f)`: the operand there plus the updates of the rows `e` whose word is `n`. -/
theorem rowsScatterAdd_apply (wf) (x : (⟨2, ![N, k]⟩ : Shape).Idx → EReal) (idx : IVec ⟨2, ![E, 1]⟩ w)
    (upd : (⟨2, ![E, k]⟩ : Shape).Idx → EReal) (n : Fin N) (f : Fin k) :
    Ideal.hostScatterAdd (rowsScatter N k E wf) x idx upd (ix2 n f)
      = x (ix2 n f) + ∑ e : Fin E, if (idx (ix2 e (0 : Fin 1))).toInt = (n.val : Int) then upd (ix2 e f) else 0 := by
  unfold Ideal.hostScatterAdd
  congr 1
  rw [Finset.sum_filter, sum_idx2]
  refine Finset.sum_congr rfl fun e _ => ?_
  have key : ∀ b : Fin k, ((rowsScatter N k E wf).resultIdx? (ix2 e b) idx = some (ix2 n f))
      ↔ ((idx (ix2 e (0 : Fin 1))).toInt = (n.val : Int) ∧ b = f) := fun b => by
    rw [rowsScatter_resultIdx_iff]
    show _ ∧ b.val = f.val ↔ _
    rw [Fin.val_inj]
    exact Iff.rfl
  simp only [key]
  by_cases he : (idx (ix2 e (0 : Fin 1))).toInt = (n.val : Int)
  · simp only [he, true_and, if_true]
    rw [Finset.sum_ite_eq' Finset.univ f (fun b => upd (ix2 e b))]
    simp
  · simp only [he, false_and, if_false]
    exact Finset.sum_const_zero

/-! ### The flat table -/

/-- The dimension numbers of a flat scatter: updates `[E]` onto entries of `[N]` named by `[E, 1]`. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem flatScatter_siIdx (wf) (j : (⟨1, ![E]⟩ : Shape).Idx) (c) :
    (flatScatter N E wf).siIdx j c = ix2 (j 0) (0 : Fin 1) := by
  funext b
  refine Fin.ext ?_
  match b with
  | ⟨0, _⟩ => rfl
  | ⟨1, _⟩ =>
    have : c.val = 0 := by
      have := c.isLt
      simp only [List.length_singleton] at this
      omega
    show c.val = 0
    exact this

theorem flatScatter_start0 (wf) (j : (⟨1, ![E]⟩ : Shape).Idx) (idx : IVec ⟨2, ![E, 1]⟩ w) :
    (flatScatter N E wf).start j idx 0 = (idx (ix2 (j 0) (0 : Fin 1))).toInt := by
  unfold ScatterDims.start
  rw [dif_pos (show (0 : Fin 1) ∈ (flatScatter N E wf).scatterDimsToOperandDims from List.mem_singleton.mpr rfl),
    flatScatter_siIdx]
  rfl

theorem flatScatter_window0 (wf) (j : (⟨1, ![E]⟩ : Shape).Idx) :
    (flatScatter N E wf).window j 0 = 0 := by
  unfold ScatterDims.window
  have h0 : ¬ (0 : Fin 1) ∈ (flatScatter N E wf).sKept := (by decide : ¬ (0 : Fin 1) ∈ ([] : List (Fin 1)))
  rw [dif_neg h0]

/-- Where an update element lands: on entry `idx e` (read signed). -/
theorem flatScatter_resultIdx_iff (wf) (j : (⟨1, ![E]⟩ : Shape).Idx) (idx : IVec ⟨2, ![E, 1]⟩ w)
    (i : (⟨1, ![N]⟩ : Shape).Idx) :
    (flatScatter N E wf).resultIdx? j idx = some i ↔ (idx (ix2 (j 0) (0 : Fin 1))).toInt = ((i 0).val : Int) := by
  have hs0 := flatScatter_start0 (N := N) wf j idx
  have hw0 := flatScatter_window0 (N := N) wf j
  have hi0 : (i 0).val < N := (i 0).isLt
  unfold ScatterDims.resultIdx?
  split
  · rename_i h
    rw [Option.some.injEq]
    constructor
    · intro e
      have e0 : ((flatScatter N E wf).start j idx 0 + (flatScatter N E wf).window j 0).toNat = (i 0).val :=
        congrArg (fun g : (⟨1, ![N]⟩ : Shape).Idx => (g 0).val) e
      have h0 := (h 0).1
      rw [hs0, hw0] at e0 h0
      omega
    · intro e0
      funext a
      refine Fin.ext ?_
      match a with
      | ⟨0, _⟩ =>
        show ((flatScatter N E wf).start j idx 0 + (flatScatter N E wf).window j 0).toNat = (i 0).val
        rw [hs0, hw0]; omega
  · rename_i h
    constructor
    · intro e; cases e
    · intro e0
      exfalso
      apply h
      intro a
      match a with
      | ⟨0, _⟩ =>
        show 0 ≤ (flatScatter N E wf).start j idx 0 + (flatScatter N E wf).window j 0
          ∧ (flatScatter N E wf).start j idx 0 + (flatScatter N E wf).window j 0 < (N : Int)
        rw [hs0, hw0]; omega

/-- THE FLAT SCATTER-ADD READ AT `n`: the operand there plus the updates of the positions `e` whose word is `n`. -/
theorem flatScatterAdd_apply (wf) (x : (⟨1, ![N]⟩ : Shape).Idx → EReal) (idx : IVec ⟨2, ![E, 1]⟩ w)
    (upd : (⟨1, ![E]⟩ : Shape).Idx → EReal) (n : Fin N) :
    Ideal.hostScatterAdd (flatScatter N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, ← Equiv.sum_comp (idxEquiv1 (n := E)).symm]
  refine Finset.sum_congr rfl fun e _ => ?_
  show (if (flatScatter N E wf).resultIdx? (ix1 e) idx = some (ix1 n) then upd (ix1 e) else 0) = _
  rw [if_congr (flatScatter_resultIdx_iff wf (ix1 e) idx (ix1 n)) rfl rfl]
  rfl

/-! ### The gathers -/

variable {α : Type}

/-- The dimension numbers of a row gather: rows of `[N, k]` named by `[E, 1]`, into `[E, k]`. -/
abbrev rowsGather (N k E : Nat)
    (wf : GatherDims.WF ⟨2, ![N, k]⟩ ⟨2, ![E, 1]⟩ ⟨2, ![E, k]⟩ [1] [0] [] [0] [] 1 ![1, k]) :
    GatherDims ⟨2, ![N, k]⟩ ⟨2, ![E, 1]⟩ ⟨2, ![E, k]⟩ where
  offsetDims := [1]
  collapsedSliceDims := [0]
  operandBatchingDims := []
  startIndicesBatchingDims := []
  startIndexMap := [0]
  indexVectorDim := 1
  sliceSizes := ![1, k]
  wf := wf

theorem rowsGather_siIdx (wf) (j : (⟨2, ![E, k]⟩ : Shape).Idx) (c) :
    (rowsGather N k E wf).siIdx j c = ix2 (j 0) (0 : Fin 1) := by
  funext b
  refine Fin.ext ?_
  match b with
  | ⟨0, _⟩ => rfl
  | ⟨1, _⟩ =>
    have : c.val = 0 := by
      have := c.isLt
      simp only [List.length_singleton] at this
      omega
    show c.val = 0
    exact this

/-- THE ROW GATHER READ AT `(e, f)`: the table at row `idx e`, read signed and clamped into `[0, N − 1]`. -/
theorem rowsGather_apply (hN : 0 < N) (wf) (x : (⟨2, ![N, k]⟩ : Shape).Idx → α) (idx : IVec ⟨2, ![E, 1]⟩ w)
    (e : Fin E) (f : Fin k) :
    Host.gather (rowsGather N k E wf) x idx (ix2 e f)
      = x (ix2 ⟨min (idx (ix2 e (0 : Fin 1))).toInt.toNat (N - 1), by omega⟩ f) := by
  unfold Host.gather
  congr 1
  funext a
  refine Fin.ext ?_
  have hb : ∀ a : Fin 2, a ∉ (rowsGather N k E wf).operandBatchingDims := fun a => List.not_mem_nil
  match a with
  | ⟨0, _⟩ =>
    show (rowsGather N k E wf).start (ix2 e f) idx 0 + (rowsGather N k E wf).batchCoord (ix2 e f) 0
      + (rowsGather N k E wf).offCoord (ix2 e f) 0 = min (idx (ix2 e (0 : Fin 1))).toInt.toNat (N - 1)
    have hk : (0 : Fin 2) ∉ (rowsGather N k E wf).sKept := (by decide : ¬ (0 : Fin 2) ∈ ([1] : List (Fin 2)))
    rw [GatherDims.batchCoord_eq_zero _ _ _ (hb 0), GatherDims.offCoord_eq_zero _ _ _ hk]
    simp only [Nat.add_zero]
    unfold GatherDims.start
    rw [dif_pos (show (0 : Fin 2) ∈ (rowsGather N k E wf).startIndexMap from List.mem_singleton.mpr rfl),
      rowsGather_siIdx]
    rfl
  | ⟨1, _⟩ =>
    show (rowsGather N k E wf).start (ix2 e f) idx 1 + (rowsGather N k E wf).batchCoord (ix2 e f) 1
      + (rowsGather N k E wf).offCoord (ix2 e f) 1 = f.val
    have hs : (rowsGather N k E wf).start (ix2 e f) idx 1 = 0 := by
      unfold GatherDims.start
      have h1 : ¬ (1 : Fin 2) ∈ (rowsGather N k E wf).startIndexMap := (by decide : ¬ (1 : Fin 2) ∈ ([0] : List (Fin 2)))
      rw [dif_neg h1]
    have ho : (rowsGather N k E wf).offCoord (ix2 e f) 1 = f.val := by
      unfold GatherDims.offCoord
      have h1 : (1 : Fin 2) ∈ (rowsGather N k E wf).sKept := (List.mem_singleton.mpr rfl : (1 : Fin 2) ∈ ([1] : List (Fin 2)))
      rw [dif_pos h1]
      rfl
    rw [hs, GatherDims.batchCoord_eq_zero _ _ _ (hb 1), ho]
    omega

/-- The dimension numbers of a flat gather: entries of `[N]` named by `[E, 1]`, into `[E]`. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem flatGather_siIdx (wf) (j : (⟨1, ![E]⟩ : Shape).Idx) (c) :
    (flatGather N E wf).siIdx j c = ix2 (j 0) (0 : Fin 1) := by
  funext b
  refine Fin.ext ?_
  match b with
  | ⟨0, _⟩ => rfl
  | ⟨1, _⟩ =>
    have : c.val = 0 := by
      have := c.isLt
      simp only [List.length_singleton] at this
      omega
    show c.val = 0
    exact this

/-- THE FLAT GATHER READ AT `e`: the table at entry `idx e`, read signed and clamped into `[0, N − 1]`. -/
theorem flatGather_apply (hN : 0 < N) (wf) (x : (⟨1, ![N]⟩ : Shape).Idx → α) (idx : IVec ⟨2, ![E, 1]⟩ w) (e : Fin E) :
    Host.gather (flatGather N E wf) x idx (ix1 e)
      = x (ix1 ⟨min (idx (ix2 e (0 : Fin 1))).toInt.toNat (N - 1), by omega⟩) := by
  unfold Host.gather
  congr 1
  funext a
  refine Fin.ext ?_
  match a with
  | ⟨0, _⟩ =>
    show (flatGather N E wf).start (ix1 e) idx 0 + (flatGather N E wf).batchCoord (ix1 e) 0
      + (flatGather N E wf).offCoord (ix1 e) 0 = min (idx (ix2 e (0 : Fin 1))).toInt.toNat (N - 1)
    have hk : (0 : Fin 1) ∉ (flatGather N E wf).sKept := (by decide : ¬ (0 : Fin 1) ∈ ([] : List (Fin 1)))
    rw [GatherDims.batchCoord_eq_zero _ _ _ List.not_mem_nil, GatherDims.offCoord_eq_zero _ _ _ hk]
    simp only [Nat.add_zero]
    unfold GatherDims.start
    rw [dif_pos (show (0 : Fin 1) ∈ (flatGather N E wf).startIndexMap from List.mem_singleton.mpr rfl),
      flatGather_siIdx]
    rfl

end Cert.Proof.LapAlg

end
-- ==== Proof.RefLapStage.lean ====
/-
  The reference's Laplacian stages read at an index, on the admitted domain (endpoint words in [0, 10000)): the
  index wrap is the identity, the degree is the count of the edges out of a node, the normalisation, the edge
  weight and the diagonal are the abstract ones over the two endpoint maps `e ↦ node (edge_index[0, e])`,
  `e ↦ node (edge_index[1, e])`. With them, the small facts every site uses: the float constants, a select on a
  comparison as an `if`, a column of words at its row, and the scatter and gather reads stated over the program's
  own dimension records.
-/
import proofs.«207992_g50208167690906_cont_8to1c4_731_36_alg».proof.Proof.RefReadP
import proofs.«207992_g50208167690906_cont_8to1c4_731_36_alg».proof.Proof.Spec
import proofs.«207992_g50208167690906_cont_8to1c4_731_36_alg».proof.Proof.LapAlg
import proofs.«207992_g50208167690906_cont_8to1c4_731_36_alg».proof.Proof.LapAlgScatter

noncomputable section

namespace Cert.Proof.RefSide

open Idealize.ShloMosaic Idealize.ShloMosaic.ValueIdx Cert.ReferenceIdeal Cert.ReferenceIdeal.Gen Cert.ReferenceIdeal.Read
  Cert.Proof.LapAlg

/-! ### Constants and small word facts -/

theorem ofBits_one : Ideal.ofBits .f32 0x3F800000#32 = 1 := by
  simp [Ideal.ofBits, Ideal.ieee, -EReal.coe_mul]; norm_num
theorem ofBits_two : Ideal.ofBits .f32 0x40000000#32 = 2 := by
  simp [Ideal.ofBits, Ideal.ieee, -EReal.coe_mul]; norm_num; norm_cast
theorem ofBits_ninf : Ideal.ofBits .f32 0xFF800000#32 = ⊥ := by
  simp [Ideal.ofBits, Ideal.ieee]

/-- A select on "greater than" is the `if` on the order. -/
theorem select_ogt {α : Type} (x y : EReal) (a b : α) :
    Scalar.select (FloatOps.cmpf (F := Ideal) (φ := .f32) .ogt x y) a b = if y < x then a else b := by
  show Scalar.select (Ideal.cmp .ogt x y) a b = _
  unfold Scalar.select Ideal.cmp
  by_cases h : y < x <;> simp [h]

/-- The index wrap `select (w < 0) (w + t) w` is the identity on a nonnegative word. -/
theorem wrap_eq (w z t : BitVec 32) (hz : z = 0#32) (h : 0 ≤ w.toInt) :
    Scalar.select (IntOp.cmpi .slt w z) (IntOp.addi w t) w = w := by
  have hne : ¬ IntOp.cmpi .slt w z = 1#1 := by
    rw [IntOp.cmpi_slt, hz]
    have : (0#32 : BitVec 32).toInt = 0 := by decide
    omega
  exact if_neg hne

/-- A word below 10000 read signed, clamped into the table, is the node it names. -/
theorem clamp_node (w : BitVec 32) (h : w.toNat < 10000) :
    (⟨min w.toInt.toNat (10000 - 1), by omega⟩ : Fin 10000) = Spec.node w := by
  have hc := BitVec.toInt_eq_toNat_cond w
  apply Fin.ext
  show min w.toInt.toNat (10000 - 1) = w.toNat % 10000
  split at hc <;> omega

/-- A word below 10000 read signed is a given node's number exactly when it names that node. -/
theorem toInt_eq_iff_node (w : BitVec 32) (h : w.toNat < 10000) (n : Fin 10000) :
    w.toInt = (n.val : Int) ↔ Spec.node w = n := by
  have hc := BitVec.toInt_eq_toNat_cond w
  rw [Fin.ext_iff]
  show _ ↔ w.toNat % 10000 = n.val
  split at hc <;> omega

/-! ### The scatter and gather reads over the program's own dimension records -/

theorem flatScatterAdd_read {N E w : Nat} (d : ScatterDims ⟨1, ![N]⟩ ⟨2, ![E, 1]⟩ ⟨1, ![E]⟩) (wf)
    (hd : d = flatScatter N E wf) (x : FVec Ideal ⟨1, ![N]⟩ .f32) (idx : IVec ⟨2, ![E, 1]⟩ w)
    (upd : FVec Ideal ⟨1, ![E]⟩ .f32) (n : Fin N) :
    Host.scatterAdd (F := Ideal) d x idx upd (ix1 n)
      = x (ix1 n) + ∑ e : Fin E, if (idx (ix2 e (0 : Fin 1))).toInt = (n.val : Int) then upd (ix1 e) else 0 := by
  subst hd
  exact flatScatterAdd_apply wf x idx upd n

theorem rowsScatterAdd_read {N k E w : Nat} (d : ScatterDims ⟨2, ![N, k]⟩ ⟨2, ![E, 1]⟩ ⟨2, ![E, k]⟩) (wf)
    (hd : d = rowsScatter N k E wf) (x : FVec Ideal ⟨2, ![N, k]⟩ .f32) (idx : IVec ⟨2, ![E, 1]⟩ w)
    (upd : FVec Ideal ⟨2, ![E, k]⟩ .f32) (n : Fin N) (f : Fin k) :
    Host.scatterAdd (F := Ideal) d x idx upd (ix2 n f)
      = x (ix2 n f) + ∑ e : Fin E, if (idx (ix2 e (0 : Fin 1))).toInt = (n.val : Int) then upd (ix2 e f) else 0 := by
  subst hd
  exact rowsScatterAdd_apply wf x idx upd n f

/-- The flat gather at an entry whose word is below the table's size: the table at the node the word names. -/
theorem flatGather_read {E : Nat} (d : GatherDims ⟨1, ![10000]⟩ ⟨2, ![E, 1]⟩ ⟨1, ![E]⟩) (wf)
    (hd : d = flatGather 10000 E wf) (x : (⟨1, ![10000]⟩ : Shape).Idx → EReal) (idx : IVec ⟨2, ![E, 1]⟩ 32) (e : Fin E)
    (hlt : (idx (ix2 e (0 : Fin 1))).toNat < 10000) :
    Host.gather d x idx (ix1 e) = x (ix1 (Spec.node (idx (ix2 e (0 : Fin 1))))) := by
  subst hd
  rw [flatGather_apply (by decide) wf x idx e]
  congr 2
  have hc := BitVec.toInt_eq_toNat_cond (idx (ix2 e (0 : Fin 1)))
  apply Fin.ext
  show min (idx (ix2 e (0 : Fin 1))).toInt.toNat (10000 - 1) = (idx (ix2 e (0 : Fin 1))).toNat % 10000
  split at hc <;> omega

/-- The row gather at a row whose word is below the table's height: the table's row of the node the word names. -/
theorem rowsGather_read {k E : Nat} (d : GatherDims ⟨2, ![10000, k]⟩ ⟨2, ![E, 1]⟩ ⟨2, ![E, k]⟩) (wf)
    (hd : d = rowsGather 10000 k E wf) (x : (⟨2, ![10000, k]⟩ : Shape).Idx → EReal) (idx : IVec ⟨2, ![E, 1]⟩ 32)
    (e : Fin E) (f : Fin k) (hlt : (idx (ix2 e (0 : Fin 1))).toNat < 10000) :
    Host.gather d x idx (ix2 e f) = x (ix2 (Spec.node (idx (ix2 e (0 : Fin 1)))) f) := by
  subst hd
  rw [rowsGather_apply (by decide) wf x idx e f]
  congr 2
  have hc := BitVec.toInt_eq_toNat_cond (idx (ix2 e (0 : Fin 1)))
  apply Fin.ext
  show min (idx (ix2 e (0 : Fin 1))).toInt.toNat (10000 - 1) = (idx (ix2 e (0 : Fin 1))).toNat % 10000
  split at hc <;> omega

/-! ### The endpoint rows -/

variable (x1 : (⟨S2x320000, .i32⟩ : BufTy).Contents (Elt Ideal))

theorem v1_read (e : Fin 320000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

theorem v3_read (e : Fin 320000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The wrap of a whole vector of nonnegative words is the vector. -/
theorem wrap_vec (vR z t : S320000.Idx → BitVec 32) (hz : ∀ i, z i = 0#32) (h : ∀ i, 0 ≤ (vR i).toInt) :
    select (cmpi .slt vR z) (addi vR t) vR = vR :=
  funext fun i => wrap_eq (vR i) (z i) (t i) (hz i) (h i)

/-- A column of words laid out as `[E, 1]` reads the word at its row. -/
theorem col1_read (y : S320000.Idx → BitVec 32) (e : Fin 320000) :
    broadcastInDim S320000x1 ![0] bcast_S320000_S320000x1_0 y (ix2 e (0 : Fin 1)) = y (ix1 e) := by
  refine (broadcastInDim_apply _ bcast_S320000_S320000x1_0 y (ix2 e (0 : Fin 1)) (ix1 e) (fun a => ?_))
  match a with
  | ⟨0, _⟩ => show e.val = if (320000 : Nat) = 1 then 0 else e.val; rw [if_neg (by decide)]

section Admitted

variable (hlt : ∀ i, (x1 i).toNat < 10000) (hnn : ∀ i, 0 ≤ (x1 i).toInt)
include hlt hnn

theorem v10_eq : val_main_v10 (F := Ideal) x1 = val_main_v1 (F := Ideal) x1 :=
  wrap_vec _ _ _ (fun _ => rfl) (fun i => by
    obtain ⟨e, rfl⟩ : ∃ e : Fin 320000, i = ix1 e := ⟨i 0, eq_ix1 i⟩
    rw [v1_read]; exact hnn _)

/-- THE DEGREE: the reference's count of the edges out of `n`. -/
theorem v12_read (n : Fin 10000) :
    val_main_v12 (F := Ideal) x1 (ix1 n) = LapAlg.deg (fun e => Spec.node (x1 (ix2 (0 : Fin 2) e))) n := by
  unfold val_main_v12 LapAlg.deg
  rw [flatScatterAdd_read scatter_S10000_S320000x1_S320000_n_0_0_1 _ rfl]
  have h5 : val_main_v5 (F := Ideal) (ix1 n) = 0 := by
    rw [val_main_v5_apply, val_main_cst_0_apply]; exact Ideal.ofBits_zero_f32
  have h11 : ∀ e : Fin 320000, val_main_v11 (F := Ideal) x1 (ix2 e (0 : Fin 1)) = x1 (ix2 (0 : Fin 2) e) := fun e => by
    unfold val_main_v11; rw [col1_read, v10_eq x1 hlt hnn, v1_read]
  have h4 : ∀ e : Fin 320000, val_main_v4 (F := Ideal) (ix1 e) = 1 := fun e => by
    rw [val_main_v4_apply, val_main_cst_apply]; exact ofBits_one
  rw [h5, zero_add]
  refine Finset.sum_congr rfl fun e _ => ?_
  rw [h11, h4, if_congr (toInt_eq_iff_node _ (hlt _) n) rfl rfl]

/-- THE NORMALISATION `deg^(-1/2)` as the reference computes it. -/
theorem v21_read (n : Fin 10000) :
    val_main_v21 (F := Ideal) x1 (ix1 n) = LapAlg.dinvRef (fun e => Spec.node (x1 (ix2 (0 : Fin 2) e))) n := by
  have h13 : val_main_v13 (F := Ideal) (ix1 n) = 0 := by
    rw [val_main_v13_apply, val_main_cst_2_apply]; exact Ideal.ofBits_zero_f32
  have h15 : val_main_v15 (F := Ideal) (ix1 n) = 0 := by
    rw [val_main_v15_apply, val_main_cst_3_apply]; exact Ideal.ofBits_zero_f32
  have h19 : val_main_v19 (F := Ideal) (ix1 n) = 1 := by
    rw [val_main_v19_apply, val_main_cst_5_apply]; exact ofBits_one
  have hc0 : val_main_call0_v1 (F := Ideal) (ix1 n) = 1 := by
    rw [val_main_call0_v1_apply, val_main_call0_v0_apply, val_main_cst_4_apply]; exact ofBits_one
  have hc1 : val_main_call1_v1 (F := Ideal) (ix1 n) = 0 := by
    rw [val_main_call1_v1_apply, val_main_call1_v0_apply, val_main_cst_6_apply]; exact Ideal.ofBits_zero_f32
  rw [val_main_v21_apply, val_main_v14_apply, val_main_v20_apply, val_main_v18_apply, val_main_v17_apply,
    val_main_v16_apply, v12_read x1 hlt hnn, h13, h15, h19, hc0, hc1, select_ogt, select_ogt]
  unfold LapAlg.dinvRef
  by_cases h : 0 < LapAlg.deg (fun e => Spec.node (x1 (ix2 (0 : Fin 2) e))) n
  · rw [if_pos h, if_pos h, if_pos h, Ideal.hostDivf_def, Ideal.hostUnary_sqrt_def]
  · rw [if_neg h, if_neg h]

/-- THE DIAGONAL `[deg > 0]` as the reference computes it. -/
theorem v40_read (n : Fin 10000) :
    val_main_v40 (F := Ideal) x1 (ix1 n) = LapAlg.diag (fun e => Spec.node (x1 (ix2 (0 : Fin 2) e))) n := by
  have h38 : val_main_v38 (F := Ideal) (ix1 n) = 0 := by
    rw [val_main_v38_apply, val_main_cst_11_apply]; exact Ideal.ofBits_zero_f32
  have hc0 : val_main_call2_v0 (F := Ideal) (ix1 n) = 1 := by
    rw [val_main_call2_v0_apply, val_main_cst_12_apply]; exact ofBits_one
  have hc1 : val_main_call2_v1 (F := Ideal) (ix1 n) = 0 := by
    rw [val_main_call2_v1_apply, val_main_cst_13_apply]; exact Ideal.ofBits_zero_f32
  rw [val_main_v40_apply, val_main_v39_apply, v12_read x1 hlt hnn, h38, hc0, hc1, select_ogt]
  unfold LapAlg.diag
  by_cases h : 0 < LapAlg.deg (fun e => Spec.node (x1 (ix2 (0 : Fin 2) e))) n
  · rw [if_pos h]
  · rw [if_neg h]

theorem v26_eq : val_main_v26 (F := Ideal) x1 = val_main_v1 (F := Ideal) x1 :=
  wrap_vec _ _ _ (fun _ => rfl) (fun i => by
    obtain ⟨e, rfl⟩ : ∃ e : Fin 320000, i = ix1 e := ⟨i 0, eq_ix1 i⟩
    rw [v1_read]; exact hnn _)

theorem v34_eq : val_main_v34 (F := Ideal) x1 = val_main_v3 (F := Ideal) x1 :=
  wrap_vec _ _ _ (fun _ => rfl) (fun i => by
    obtain ⟨e, rfl⟩ : ∃ e : Fin 320000, i = ix1 e := ⟨i 0, eq_ix1 i⟩
    rw [v3_read]; exact hnn _)

theorem v28_read (e : Fin 320000) :
    val_main_v28 (F := Ideal) x1 (ix1 e)
      = LapAlg.dinvRef (fun e => Spec.node (x1 (ix2 (0 : Fin 2) e))) (Spec.node (x1 (ix2 (0 : Fin 2) e))) := by
  have h27 : val_main_v27 (F := Ideal) x1 (ix2 e (0 : Fin 1)) = x1 (ix2 (0 : Fin 2) e) := by
    unfold val_main_v27; rw [col1_read, v26_eq x1 hlt hnn, v1_read]
  unfold val_main_v28
  rw [flatGather_read gather_S10000_S320000x1_S320000_n_0_n_n_0_1_1 _ rfl _ _ e (by rw [h27]; exact hlt _), h27,
    v21_read x1 hlt hnn]

theorem v36_read (e : Fin 320000) :
    val_main_v36 (F := Ideal) x1 (ix1 e)
      = LapAlg.dinvRef (fun e => Spec.node (x1 (ix2 (0 : Fin 2) e))) (Spec.node (x1 (ix2 (1 : Fin 2) e))) := by
  have h35 : val_main_v35 (F := Ideal) x1 (ix2 e (0 : Fin 1)) = x1 (ix2 (1 : Fin 2) e) := by
    unfold val_main_v35; rw [col1_read, v34_eq x1 hlt hnn, v3_read]
  unfold val_main_v36
  rw [flatGather_read gather_S10000_S320000x1_S320000_n_0_n_n_0_1_1 _ rfl _ _ e (by rw [h35]; exact hlt _), h35,
    v21_read x1 hlt hnn]

/-- THE EDGE WEIGHT `dinv[src] * 1 * dinv[dst]` as the reference computes it. -/
theorem v37_read (e : Fin 320000) :
    val_main_v37 (F := Ideal) x1 (ix1 e)
      = LapAlg.normw (fun e => Spec.node (x1 (ix2 (0 : Fin 2) e))) (fun e => Spec.node (x1 (ix2 (1 : Fin 2) e))) e := by
  have h4 : val_main_v4 (F := Ideal) (ix1 e) = 1 := by
    rw [val_main_v4_apply, val_main_cst_apply]; exact ofBits_one
  rw [val_main_v37_apply, val_main_v29_apply, v28_read x1 hlt hnn, v36_read x1 hlt hnn, h4, Ideal.mulf_def, Ideal.mulf_def]
  rfl

end Admitted

end Cert.Proof.RefSide

end
-- ==== Proof.RefLapX.lean ====
/-
  Gate 0's rescaled Laplacian of the node features, as the reference computes it: the scatter of the weighted
  neighbour rows read at an entry, the masked diagonal, the scale `2 / lambda_max = 2`, and the whole as the abstract
  reference arrangement, which the algebra turns into the specification's.
-/
import proofs.«207992_g50208167690906_cont_8to1c4_731_36_alg».proof.Proof.RefLapStage

noncomputable section

namespace Cert.Proof.RefSide

open Idealize.ShloMosaic Idealize.ShloMosaic.ValueIdx Cert.ReferenceIdeal Cert.ReferenceIdeal.Gen Cert.ReferenceIdeal.Read
  Cert.Proof.LapAlg

section SiteX

variable (x0 : (⟨S10000x128, .f32⟩ : BufTy).Contents (Elt Ideal)) (x1 : (⟨S2x320000, .i32⟩ : BufTy).Contents (Elt Ideal))
  (hlt : ∀ i, (x1 i).toNat < 10000) (hnn : ∀ i, 0 ≤ (x1 i).toInt)
include hlt hnn

theorem v64_eq : val_main_v64 (F := Ideal) x1 = val_main_v3 (F := Ideal) x1 :=
  wrap_vec _ _ _ (fun _ => rfl) (fun i => by
    obtain ⟨e, rfl⟩ : ∃ e : Fin 320000, i = ix1 e := ⟨i 0, eq_ix1 i⟩
    rw [v3_read]; exact hnn _)

theorem v73_eq : val_main_v73 (F := Ideal) x1 = val_main_v1 (F := Ideal) x1 :=
  wrap_vec _ _ _ (fun _ => rfl) (fun i => by
    obtain ⟨e, rfl⟩ : ∃ e : Fin 320000, i = ix1 e := ⟨i 0, eq_ix1 i⟩
    rw [v1_read]; exact hnn _)

/-- The scatter of the weighted neighbour features, read at `(n, f)`. -/
theorem v75_read (n : Fin 10000) (f : Fin 128) :
    val_main_v75 (F := Ideal) x0 x1 (ix2 n f)
      = 0 + ∑ e : Fin 320000, if Spec.node (x1 (ix2 (0 : Fin 2) e)) = n then
          LapAlg.normw (fun e => Spec.node (x1 (ix2 (0 : Fin 2) e))) (fun e => Spec.node (x1 (ix2 (1 : Fin 2) e))) e
            * x0 (ix2 (Spec.node (x1 (ix2 (1 : Fin 2) e))) f) else 0 := by
  have h74 : ∀ e : Fin 320000, val_main_v74 (F := Ideal) x1 (ix2 e (0 : Fin 1)) = x1 (ix2 (0 : Fin 2) e) := fun e => by
    unfold val_main_v74; rw [col1_read, v73_eq x1 hlt hnn, v1_read]
  have h65 : ∀ e : Fin 320000, val_main_v65 (F := Ideal) x1 (ix2 e (0 : Fin 1)) = x1 (ix2 (1 : Fin 2) e) := fun e => by
    unfold val_main_v65; rw [col1_read, v64_eq x1 hlt hnn, v3_read]
  have h58 : val_main_v58 (F := Ideal) (ix2 n f) = 0 := by
    rw [val_main_v58_apply, val_main_cst_17_apply]; exact Ideal.ofBits_zero_f32
  have h68 : ∀ e : Fin 320000, val_main_v68 (F := Ideal) x0 x1 (ix2 e f)
      = LapAlg.normw (fun e => Spec.node (x1 (ix2 (0 : Fin 2) e))) (fun e => Spec.node (x1 (ix2 (1 : Fin 2) e))) e
          * x0 (ix2 (Spec.node (x1 (ix2 (1 : Fin 2) e))) f) := fun e => by
    have hi : idx_main_v59 (idx_main_v67 (ix2 e f)) = ix1 e := by
      funext a; match a with | ⟨0, _⟩ => rfl
    have h67 : val_main_v67 (F := Ideal) x1 (ix2 e f)
        = LapAlg.normw (fun e => Spec.node (x1 (ix2 (0 : Fin 2) e))) (fun e => Spec.node (x1 (ix2 (1 : Fin 2) e))) e := by
      rw [val_main_v67_apply, val_main_v59_apply, hi, v37_read x1 hlt hnn]
    have h66 : val_main_v66 (F := Ideal) x0 x1 (ix2 e f) = x0 (ix2 (Spec.node (x1 (ix2 (1 : Fin 2) e))) f) := by
      unfold val_main_v66
      rw [rowsGather_read gather_S10000x128_S320000x1_S320000x128_1_0_n_n_0_1_1128 _ rfl _ _ e f
        (by rw [h65]; exact hlt _), h65]
    rw [val_main_v68_apply, h67, h66, Ideal.mulf_def]
  have hsum : (∑ e : Fin 320000, if (val_main_v74 (F := Ideal) x1 (ix2 e (0 : Fin 1))).toInt = (n.val : Int)
        then val_main_v68 (F := Ideal) x0 x1 (ix2 e f) else 0)
      = ∑ e : Fin 320000, if Spec.node (x1 (ix2 (0 : Fin 2) e)) = n then
          LapAlg.normw (fun e => Spec.node (x1 (ix2 (0 : Fin 2) e))) (fun e => Spec.node (x1 (ix2 (1 : Fin 2) e))) e
            * x0 (ix2 (Spec.node (x1 (ix2 (1 : Fin 2) e))) f) else 0 :=
    Finset.sum_congr rfl fun e _ => by
      rw [h74, h68, if_congr (toInt_eq_iff_node _ (hlt _) n) rfl rfl]
  unfold val_main_v75
  rw [rowsScatterAdd_read scatter_S10000x128_S320000x1_S320000x128_1_0_0_1 _ rfl, h58, hsum]

/-- GATE 0's RESCALED LAPLACIAN OF THE NODE FEATURES is the specification's arrangement. -/
theorem lhat_v83_at (hreal : ∀ i, ∃ r : ℝ, x0 i = (r : EReal)) (h45 : ∀ j, val_main_v45 (F := Ideal) x1 j = 1)
    (n : Fin 10000) (f : Fin 128) :
    val_main_v83 (F := Ideal) x0 x1 (ix2 n f)
      = LapAlg.lhat (fun e => Spec.node (x1 (ix2 (0 : Fin 2) e))) (fun e => Spec.node (x1 (ix2 (1 : Fin 2) e)))
          (fun m => x0 (ix2 m f)) n := by
  have h81 : val_main_v81 (F := Ideal) x1 (ix2 n f) = 2 := by
    rw [val_main_v81_apply, val_main_v57_apply, h45, val_main_cst_16_apply, Ideal.ofBits_def, ofBits_two,
      Ideal.hostDivf_def]
    exact LapAlg.div_two_one
  have h78 : val_main_v78 (F := Ideal) x1 (ix2 n f) = LapAlg.diag (fun e => Spec.node (x1 (ix2 (0 : Fin 2) e))) n := by
    have hi : idx_main_v76 (idx_main_v78 (ix2 n f)) = ix1 n := by
      funext a; match a with | ⟨0, _⟩ => rfl
    rw [val_main_v78_apply, val_main_v77_apply, val_main_v76_apply, hi, v40_read x1 hlt hnn]
  rw [val_main_v83_apply, val_main_v82_apply, val_main_v80_apply, val_main_v79_apply, h81, h78,
    v75_read x0 x1 hlt hnn, Ideal.subf_def, Ideal.subf_def, Ideal.mulf_def, Ideal.mulf_def]
  exact LapAlg.lhatRef_eq _ _ (fun m => x0 (ix2 m f)) (fun m => hreal _) n

end SiteX

end Cert.Proof.RefSide

end
-- ==== Proof.RefLapLam.lean ====
/-
  Two readings of the reference program. The largest-eigenvalue bound it divides by is one: it is the larger of the
  greatest negated edge weight, which is at most zero, and the greatest diagonal entry, which is at most one and is
  one at the first endpoint of any edge. And each of the four gates applies the same rescaled Laplacian to the same
  arrays, so the four gates' Laplacians of the node features are one array, and likewise of the hidden state.
-/
import proofs.«207992_g50208167690906_cont_8to1c4_731_36_alg».proof.Proof.RefReadP
import proofs.«207992_g50208167690906_cont_8to1c4_731_36_alg».proof.Proof.LapAlg
import Idealize.ShloMosaic.Lib.ValueIdx

noncomputable section

namespace Cert.Proof.RefSide

open Idealize.ShloMosaic Idealize.ShloMosaic.ValueIdx Cert.ReferenceIdeal Cert.ReferenceIdeal.Gen Cert.ReferenceIdeal.Read
open Cert.Proof.LapAlg

/-- The f32 pattern of minus infinity is the least extended real. -/
theorem negInf_f32 : Ideal.ofBits .f32 0xFF800000#32 = (⊥ : EReal) := by
  simp [Ideal.ofBits, Ideal.ieee]

/-- A maximum taken over every entry of an array, from minus infinity, is the fold of `max` over all its indices. -/
theorem reduceMax_all {s : Shape} {axes : List (Fin s.rank)} (x : s.Idx → EReal) (init : S_.Idx → EReal)
    (h : s.ReducesTo axes S_) (hu : 0 < S_.numel) (hinit : init (Shape.Idx.first hu) = ⊥) (j : S_.Idx) :
    Host.reduce (max : EReal → EReal → EReal) x init h hu j = (Finset.univ : Finset s.Idx).fold max ⊥ x := by
  rw [Host.reduce_eq_fold, hinit, Finset.filter_true_of_mem fun i _ => funext fun a => a.elim0]

/-- The largest-eigenvalue bound the reference computes is one: it is the larger of the greatest negated edge weight
    and the greatest diagonal entry, and the graph has an edge. -/
theorem lam_read (x1 : (⟨S2x320000, .i32⟩ : BufTy).Contents (Elt Ideal)) (src dst : Fin 320000 → Fin 10000)
    (h37 : ∀ e : Fin 320000, val_main_v37 (F := Ideal) x1 (ix1 e) = LapAlg.normw src dst e)
    (h40 : ∀ n : Fin 10000, val_main_v40 (F := Ideal) x1 (ix1 n) = LapAlg.diag src n) (j : S_.Idx) :
    val_main_v45 (F := Ideal) x1 j = 1 := by
  haveI : Nonempty (Fin 320000) := ⟨⟨0, by decide⟩⟩
  rw [val_main_v45_apply]
  unfold val_main_v42 val_main_v44
  show max (Host.reduce (max : EReal → EReal → EReal) (val_main_v41 (F := Ideal) x1) (val_main_cst_14 (F := Ideal))
        reducesTo_S320000_S_d0 h_S_ j)
      (Host.reduce (max : EReal → EReal → EReal) (val_main_v43 (F := Ideal) x1) (val_main_cst_15 (F := Ideal))
        reducesTo_S10000_S_d0 h_S_ j) = 1
  rw [reduceMax_all _ _ _ _ negInf_f32, reduceMax_all _ _ _ _ negInf_f32]
  refine LapAlg.lam_eq_one src dst (val_main_v41 (F := Ideal) x1) (val_main_v43 (F := Ideal) x1) (fun i => ?_) (fun i => ?_) (fun n => ?_)
  · obtain ⟨e, rfl⟩ : ∃ e : Fin 320000, i = ix1 e := ⟨i 0, eq_ix1 i⟩
    refine ⟨e, ?_⟩
    rw [val_main_v41_apply, h37]
    rfl
  · obtain ⟨n, rfl⟩ : ∃ n : Fin 10000, i = ix1 n := ⟨i 0, eq_ix1 i⟩
    exact ⟨n, (val_main_v43_apply x1 (ix1 n)).trans (h40 n)⟩
  · exact ⟨ix1 n, (val_main_v43_apply x1 (ix1 n)).trans (h40 n)⟩

/-! Each gate applies the same rescaled Laplacian to the same arrays: the four gates' Laplacians of the node features
are one array, and so are their Laplacians of the hidden state. -/

theorem v183_eq (x0 : (⟨S10000x128, .f32⟩ : BufTy).Contents (Elt Ideal)) (x1 : (⟨S2x320000, .i32⟩ : BufTy).Contents (Elt Ideal)) :
    val_main_v183 (F := Ideal) x0 x1 = val_main_v83 (F := Ideal) x0 x1 := rfl

theorem v283_eq (x0 : (⟨S10000x128, .f32⟩ : BufTy).Contents (Elt Ideal)) (x1 : (⟨S2x320000, .i32⟩ : BufTy).Contents (Elt Ideal)) :
    val_main_v283 (F := Ideal) x0 x1 = val_main_v83 (F := Ideal) x0 x1 := rfl

theorem v375_eq (x0 : (⟨S10000x128, .f32⟩ : BufTy).Contents (Elt Ideal)) (x1 : (⟨S2x320000, .i32⟩ : BufTy).Contents (Elt Ideal)) :
    val_main_v375 (F := Ideal) x0 x1 = val_main_v83 (F := Ideal) x0 x1 := rfl

theorem v224_eq (x1 : (⟨S2x320000, .i32⟩ : BufTy).Contents (Elt Ideal)) (x2 : (⟨S2x10000x64, .f32⟩ : BufTy).Contents (Elt Ideal)) :
    val_main_v224 (F := Ideal) x1 x2 = val_main_v124 (F := Ideal) x1 x2 := rfl

theorem v324_eq (x1 : (⟨S2x320000, .i32⟩ : BufTy).Contents (Elt Ideal)) (x2 : (⟨S2x10000x64, .f32⟩ : BufTy).Contents (Elt Ideal)) :
    val_main_v324 (F := Ideal) x1 x2 = val_main_v124 (F := Ideal) x1 x2 := rfl

theorem v416_eq (x1 : (⟨S2x320000, .i32⟩ : BufTy).Contents (Elt Ideal)) (x2 : (⟨S2x10000x64, .f32⟩ : BufTy).Contents (Elt Ideal)) :
    val_main_v416 (F := Ideal) x1 x2 = val_main_v124 (F := Ideal) x1 x2 := rfl

end Cert.Proof.RefSide

end
-- ==== Proof.RefLapH.lean ====
/-
  The reference's rescaled Laplacian of the hidden state at gate 0, entry by entry. The reference gathers the hidden
  state's rows at each edge's second endpoint, weights them by the edge weight, adds them up at the first endpoint,
  subtracts the sum from the masked diagonal times the hidden state, scales by two over the largest-eigenvalue bound,
  which is one, and subtracts the hidden state. With the edge weight and the diagonal read as the normalised weight and
  the degree mask, that is the operator the algebra turns into the specification's arrangement on real inputs.
-/
import proofs.«207992_g50208167690906_cont_8to1c4_731_36_alg».proof.Proof.RefReadP
import proofs.«207992_g50208167690906_cont_8to1c4_731_36_alg».proof.Proof.RefLapStage
import proofs.«207992_g50208167690906_cont_8to1c4_731_36_alg».proof.Proof.RefLapLam

noncomputable section

namespace Cert.Proof.RefSide

open Idealize.ShloMosaic Idealize.ShloMosaic.ValueIdx Cert.ReferenceIdeal Cert.ReferenceIdeal.Gen Cert.ReferenceIdeal.Read
  Cert.Proof.LapAlg
open scoped BigOperators

section Site

variable (x1 : (⟨S2x320000, .i32⟩ : BufTy).Contents (Elt Ideal)) (x2 : (⟨S2x10000x64, .f32⟩ : BufTy).Contents (Elt Ideal))

/-- The hidden state the reference slices out of the stacked states: slab 0. -/
theorem v47_read (m : Fin 10000) (f : Fin 64) : val_main_v47 (F := Ideal) x2 (ix2 m f) = x2 (ix3 (0 : Fin 2) m f) := by
  rw [val_main_v47_apply, val_main_v46_apply]
  refine congrArg x2 (funext fun a => Fin.ext ?_)
  have hm := m.isLt
  have hf := f.isLt
  match a with
  | ⟨0, _⟩ => rfl
  | ⟨1, _⟩ => show (m.val * 64 + f.val) / 64 % 10000 = m.val; omega
  | ⟨2, _⟩ => show (m.val * 64 + f.val) % 64 = f.val; omega

/-- The edge weight spread over a row's 64 columns. -/
theorem v108_read (e : Fin 320000) (f : Fin 64) :
    val_main_v108 (F := Ideal) x1 (ix2 e f) = val_main_v37 (F := Ideal) x1 (ix1 e) := by
  rw [val_main_v108_apply, val_main_v100_apply]
  refine congrArg (val_main_v37 (F := Ideal) x1) (funext fun a => ?_)
  match a with
  | ⟨0, _⟩ => rfl

/-- The diagonal spread over a row's 64 columns. -/
theorem v119_read (n : Fin 10000) (f : Fin 64) :
    val_main_v119 (F := Ideal) x1 (ix2 n f) = val_main_v40 (F := Ideal) x1 (ix1 n) := by
  rw [val_main_v119_apply, val_main_v118_apply, val_main_v117_apply]
  refine congrArg (val_main_v40 (F := Ideal) x1) (funext fun a => ?_)
  match a with
  | ⟨0, _⟩ => rfl

variable (hlt : ∀ i, (x1 i).toNat < 10000) (hnn : ∀ i, 0 ≤ (x1 i).toInt)

include hnn in
theorem v105_eq : val_main_v105 (F := Ideal) x1 = val_main_v3 (F := Ideal) x1 :=
  wrap_vec _ _ _ (fun _ => rfl) (fun i => by
    obtain ⟨e, rfl⟩ : ∃ e : Fin 320000, i = ix1 e := ⟨i 0, eq_ix1 i⟩
    rw [v3_read]; exact hnn _)

include hnn in
theorem v114_eq : val_main_v114 (F := Ideal) x1 = val_main_v1 (F := Ideal) x1 :=
  wrap_vec _ _ _ (fun _ => rfl) (fun i => by
    obtain ⟨e, rfl⟩ : ∃ e : Fin 320000, i = ix1 e := ⟨i 0, eq_ix1 i⟩
    rw [v1_read]; exact hnn _)

include hnn in
/-- The gather's index column holds the second endpoints. -/
theorem v106_read (e : Fin 320000) : val_main_v106 (F := Ideal) x1 (ix2 e (0 : Fin 1)) = x1 (ix2 (1 : Fin 2) e) := by
  unfold val_main_v106
  rw [col1_read, v105_eq x1 hnn, v3_read]

include hnn in
/-- The scatter's index column holds the first endpoints. -/
theorem v115_read (e : Fin 320000) : val_main_v115 (F := Ideal) x1 (ix2 e (0 : Fin 1)) = x1 (ix2 (0 : Fin 2) e) := by
  unfold val_main_v115
  rw [col1_read, v114_eq x1 hnn, v1_read]

include hlt hnn in
/-- The gathered rows: the hidden state at each edge's second endpoint. -/
theorem v107_read (e : Fin 320000) (f : Fin 64) :
    val_main_v107 (F := Ideal) x1 x2 (ix2 e f) = x2 (ix3 (0 : Fin 2) (Spec.node (x1 (ix2 (1 : Fin 2) e))) f) := by
  unfold val_main_v107
  rw [rowsGather_read gather_S10000x64_S320000x1_S320000x64_1_0_n_n_0_1_164 _ rfl _ _ e f
    (by rw [v106_read x1 hnn]; exact hlt _), v106_read x1 hnn, v47_read]

include hlt hnn in
/-- The scattered sum: over the edges out of `n`, the edge weight times the hidden state at the second endpoint. -/
theorem v116_read (src dst : Fin 320000 → Fin 10000)
    (hsrc : ∀ e, src e = Spec.node (x1 (ix2 (0 : Fin 2) e))) (hdst : ∀ e, dst e = Spec.node (x1 (ix2 (1 : Fin 2) e)))
    (h37 : ∀ e : Fin 320000, val_main_v37 (F := Ideal) x1 (ix1 e) = LapAlg.normw src dst e)
    (n : Fin 10000) (f : Fin 64) :
    val_main_v116 (F := Ideal) x1 x2 (ix2 n f)
      = 0 + ∑ e : Fin 320000, if src e = n then LapAlg.normw src dst e * x2 (ix3 (0 : Fin 2) (dst e) f) else 0 := by
  unfold val_main_v116
  rw [rowsScatterAdd_read scatter_S10000x64_S320000x1_S320000x64_1_0_0_1 _ rfl]
  have h99 : val_main_v99 (F := Ideal) (ix2 n f) = 0 := by
    rw [val_main_v99_apply, val_main_cst_23_apply]; exact Ideal.ofBits_zero_f32
  rw [h99]
  refine congrArg (fun t => (0 : EReal) + t) (Finset.sum_congr rfl fun e _ => ?_)
  rw [v115_read x1 hnn, if_congr (toInt_eq_iff_node _ (hlt _) n) rfl rfl, val_main_v109_apply, v108_read, h37,
    v107_read x1 x2 hlt hnn, hsrc, hdst]
  rfl

end Site

/-- The rescaled Laplacian of the hidden state, as the reference computes it at gate 0, entry by entry. -/
theorem lhat_v124_at (x1 : (⟨S2x320000, .i32⟩ : BufTy).Contents (Elt Ideal)) (x2 : (⟨S2x10000x64, .f32⟩ : BufTy).Contents (Elt Ideal))
    (hlt : ∀ i, (x1 i).toNat < 10000) (hnn : ∀ i, 0 ≤ (x1 i).toInt) (hreal : ∀ i, ∃ r : ℝ, x2 i = (r : EReal))
    (h37 : ∀ e : Fin 320000, val_main_v37 (F := Ideal) x1 (ix1 e)
      = LapAlg.normw (fun e => Spec.node (x1 (ix2 (0 : Fin 2) e))) (fun e => Spec.node (x1 (ix2 (1 : Fin 2) e))) e)
    (h40 : ∀ n : Fin 10000, val_main_v40 (F := Ideal) x1 (ix1 n) = LapAlg.diag (fun e => Spec.node (x1 (ix2 (0 : Fin 2) e))) n)
    (n : Fin 10000) (f : Fin 64) :
    val_main_v124 (F := Ideal) x1 x2 (ix2 n f)
      = LapAlg.lhat (fun e => Spec.node (x1 (ix2 (0 : Fin 2) e))) (fun e => Spec.node (x1 (ix2 (1 : Fin 2) e)))
          (fun m => x2 (ix3 (0 : Fin 2) m f)) n := by
  rw [← LapAlg.lhatRef_eq _ _ (fun m => x2 (ix3 (0 : Fin 2) m f)) (fun m => hreal _) n]
  have h122 : val_main_v122 (F := Ideal) x1 (ix2 n f) = 2 := by
    rw [val_main_v122_apply, val_main_v98_apply, lam_read x1 _ _ h37 h40]
    show Ideal.div (Ideal.ofBits .f32 0x40000000#32) 1 = 2
    rw [ofBits_two, LapAlg.div_two_one]
  rw [val_main_v124_apply, val_main_v123_apply, h122, val_main_v121_apply, val_main_v120_apply, v119_read, h40,
    v116_read x1 x2 hlt hnn _ _ (fun _ => rfl) (fun _ => rfl) h37, v47_read]
  rfl

end Cert.Proof.RefSide

end
-- ==== Proof.RefLap.lean ====
/-
  The reference's rescaled Laplacian. At each of its eight uses (node features and hidden state, four gates) the
  reference scatters the edge-weighted neighbour features, subtracts from the masked diagonal, divides by the
  largest-eigenvalue bound and subtracts the identity; on the admitted domain that bound is one and the result is
  the specification's `lhat`, entry by entry. Gates 1 to 3 recompute gate 0's two buffers operation for operation.
-/
import proofs.«207992_g50208167690906_cont_8to1c4_731_36_alg».proof.Proof.RefReadP
import proofs.«207992_g50208167690906_cont_8to1c4_731_36_alg».proof.Proof.RefLapDom
import proofs.«207992_g50208167690906_cont_8to1c4_731_36_alg».proof.Proof.LapAlgSpec
import proofs.«207992_g50208167690906_cont_8to1c4_731_36_alg».proof.Proof.RefLapStage
import proofs.«207992_g50208167690906_cont_8to1c4_731_36_alg».proof.Proof.RefLapX
import proofs.«207992_g50208167690906_cont_8to1c4_731_36_alg».proof.Proof.RefLapLam
import proofs.«207992_g50208167690906_cont_8to1c4_731_36_alg».proof.Proof.RefLapH

noncomputable section

namespace Cert.Proof.RefSide

open Idealize.ShloMosaic Idealize.ShloMosaic.ValueIdx Cert.ReferenceIdeal

/-- Gate 0's rescaled Laplacian of the node features, as the reference computes it, is the specification's, entry by entry. -/
theorem lhat_v83 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x128.Idx) :
    Read.val_main_v83 (F := Ideal) x0 x1 i = Spec.lhat A A.x (i 0) (i 1) := by
  subst hA
  obtain ⟨n, f, rfl⟩ : ∃ (n : Fin 10000) (f : Fin 128), i = ix2 n f := ⟨i 0, i 1, eq_ix2 i⟩
  rw [lhat_v83_at x0 x1 hd.lt1 hd.nonneg1 hd.real0
    (lam_read x1 _ _ (v37_read x1 hd.lt1 hd.nonneg1) (v40_read x1 hd.lt1 hd.nonneg1)) n f, spec_lhat]
  rfl

/-- Gate 0's rescaled Laplacian of the hidden state, as the reference computes it, is the specification's, entry by entry. -/
theorem lhat_v124 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x64.Idx) :
    Read.val_main_v124 (F := Ideal) x1 x2 i = Spec.lhat A A.h (i 0) (i 1) := by
  subst hA
  obtain ⟨n, f, rfl⟩ : ∃ (n : Fin 10000) (f : Fin 64), i = ix2 n f := ⟨i 0, i 1, eq_ix2 i⟩
  rw [lhat_v124_at x1 x2 hd.lt1 hd.nonneg1 hd.real2 (v37_read x1 hd.lt1 hd.nonneg1) (v40_read x1 hd.lt1 hd.nonneg1) n f,
    spec_lhat]
  rfl

/-- Gate 1's rescaled Laplacian of the node features, as the reference computes it, is the specification's, entry by entry. -/
theorem lhat_v183 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x128.Idx) :
    Read.val_main_v183 (F := Ideal) x0 x1 i = Spec.lhat A A.x (i 0) (i 1) := by
  rw [v183_eq]
  exact lhat_v83 x0 x1 x2 x3 x4 x5 x6 x7 x8 x9 x10 hd A hA i

/-- Gate 2's rescaled Laplacian of the node features, as the reference computes it, is the specification's, entry by entry. -/
theorem lhat_v283 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x128.Idx) :
    Read.val_main_v283 (F := Ideal) x0 x1 i = Spec.lhat A A.x (i 0) (i 1) := by
  rw [v283_eq]
  exact lhat_v83 x0 x1 x2 x3 x4 x5 x6 x7 x8 x9 x10 hd A hA i

/-- Gate 3's rescaled Laplacian of the node features, as the reference computes it, is the specification's, entry by entry. -/
theorem lhat_v375 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x128.Idx) :
    Read.val_main_v375 (F := Ideal) x0 x1 i = Spec.lhat A A.x (i 0) (i 1) := by
  rw [v375_eq]
  exact lhat_v83 x0 x1 x2 x3 x4 x5 x6 x7 x8 x9 x10 hd A hA i

/-- Gate 1's rescaled Laplacian of the hidden state, as the reference computes it, is the specification's, entry by entry. -/
theorem lhat_v224 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x64.Idx) :
    Read.val_main_v224 (F := Ideal) x1 x2 i = Spec.lhat A A.h (i 0) (i 1) := by
  rw [v224_eq]
  exact lhat_v124 x0 x1 x2 x3 x4 x5 x6 x7 x8 x9 x10 hd A hA i

/-- Gate 2's rescaled Laplacian of the hidden state, as the reference computes it, is the specification's, entry by entry. -/
theorem lhat_v324 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x64.Idx) :
    Read.val_main_v324 (F := Ideal) x1 x2 i = Spec.lhat A A.h (i 0) (i 1) := by
  rw [v324_eq]
  exact lhat_v124 x0 x1 x2 x3 x4 x5 x6 x7 x8 x9 x10 hd A hA i

/-- Gate 3's rescaled Laplacian of the hidden state, as the reference computes it, is the specification's, entry by entry. -/
theorem lhat_v416 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (x7 : (⟨S3x64, .f32⟩ : BufTy).Contents (Elt Ideal)) (x8 : (⟨S4x64, .f32⟩ : BufTy).Contents (Elt Ideal))
    (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) (i : S10000x64.Idx) :
    Read.val_main_v416 (F := Ideal) x1 x2 i = Spec.lhat A A.h (i 0) (i 1) := by
  rw [v416_eq]
  exact lhat_v124 x0 x1 x2 x3 x4 x5 x6 x7 x8 x9 x10 hd A hA i

end Cert.Proof.RefSide

end
-- ==== Proof.RefGateAlg.lean ====
/-
  Scalar facts the gates' read-back uses: the bit patterns of one and zero as extended reals, the regrouping of a
  gate's pre-activation (the reference adds each convolution's bias to its own two terms and then the peephole
  term and the gate bias; the specification adds the four convolution terms first and the three biases together),
  and the logistic function as the reference spells it.
-/
import Idealize.ShloMosaic.PureOps.Ideal
import Idealize.ShloMosaic.PureOps.Ideal.Laws
import Idealize.ShloMosaic.PureOps.IdealRules
import Mathlib.Tactic.Abel

noncomputable section

namespace Cert.Proof.RefSide

open Idealize.ShloMosaic

/-- The single-precision pattern of one is the extended real one. -/
theorem one_f32 : Ideal.ofBits .f32 0x3F800000#32 = 1 := IdealRules.sign_bit.ideal_onePat .f32

/-- The single-precision pattern of zero is the extended real zero. -/
theorem zero_f32 : Ideal.ofBits .f32 0x00000000#32 = 0 := Ideal.ofBits_zero_f32

/-- A gate's pre-activation without a peephole term: both arrangements add the same seven numbers. -/
theorem regroup (a b c d bx bh bg : EReal) :
    (((a + b) + bx) + ((c + d) + bh)) + bg = ((((a + b) + c) + d)) + ((bx + bh) + bg) := by
  abel

/-- A gate's pre-activation with the peephole term `p`: the reference adds it before the gate bias, the
    specification after everything else. -/
theorem regroup_peep (a b c d bx bh bg p : EReal) :
    ((((a + b) + bx) + ((c + d) + bh)) + p) + bg = (((((a + b) + c) + d)) + ((bx + bh) + bg)) + p := by
  abel

/-- One over one plus the exponential of the negated argument is the logistic function. -/
theorem logistic_spelt (z : EReal) : Ideal.div 1 (1 + Ideal.exp (-z)) = Ideal.logistic z := rfl

end Cert.Proof.RefSide

end
-- ==== Proof.RefGateLeaf.lean ====
/-
  Reads shared by the four gates of the reference: the hidden and cell states as the two slices of the stacked
  state, the three peephole weight rows and the four gate bias rows broadcast over the nodes, each at an index;
  and the specification's arguments built from the eleven argument arrays.
-/
import proofs.«207992_g50208167690906_cont_8to1c4_731_36_alg».proof.Proof.RefReadP
import proofs.«207992_g50208167690906_cont_8to1c4_731_36_alg».proof.Proof.Spec

noncomputable section

namespace Cert.Proof.RefSide

open Cert.ReferenceIdeal Cert.ReferenceIdeal.Gen Cert.ReferenceIdeal.Read Idealize.ShloMosaic Idealize.ShloMosaic.ValueIdx

/-- The hidden state is the first slice of the stacked state. -/
theorem h_at (x2 : (⟨S2x10000x64, .f32⟩ : BufTy).Contents (Elt Ideal)) (n : Fin 10000) (j : Fin 64) :
    val_main_v47 (F := Ideal) x2 (ix2 n j) = x2 (ix3 (0 : Fin 2) n j) := by
  rw [val_main_v47_apply, val_main_v46_apply]
  refine congrArg x2 (funext fun a => Fin.ext ?_)
  have hn := n.isLt
  have hj := j.isLt
  match a with
  | ⟨0, _⟩ => rfl
  | ⟨1, _⟩ => simp only [idx_main_v46, idx_main_v47, ix2, ix3]; omega
  | ⟨2, _⟩ => simp only [idx_main_v46, idx_main_v47, ix2, ix3]; omega

/-- The cell state is the second slice of the stacked state. -/
theorem c_at (x2 : (⟨S2x10000x64, .f32⟩ : BufTy).Contents (Elt Ideal)) (n : Fin 10000) (j : Fin 64) :
    val_main_v49 (F := Ideal) x2 (ix2 n j) = x2 (ix3 (1 : Fin 2) n j) := by
  rw [val_main_v49_apply, val_main_v48_apply]
  refine congrArg x2 (funext fun a => Fin.ext ?_)
  have hn := n.isLt
  have hj := j.isLt
  match a with
  | ⟨0, _⟩ => rfl
  | ⟨1, _⟩ => simp only [idx_main_v48, idx_main_v49, ix2, ix3]; omega
  | ⟨2, _⟩ => simp only [idx_main_v48, idx_main_v49, ix2, ix3]; omega

/-- The input gate's peephole weights, broadcast over the nodes. -/
theorem wp_at_0 (x7 : (⟨S3x64, .f32⟩ : BufTy).Contents (Elt Ideal)) (n : Fin 10000) (j : Fin 64) :
    val_main_v136 (F := Ideal) x7 (ix2 n j) = x7 (ix2 (0 : Fin 3) j) := by
  rw [val_main_v136_apply, val_main_v135_apply, val_main_v134_apply, val_main_v133_apply]
  refine congrArg x7 (funext fun a => Fin.ext ?_)
  have hj := j.isLt
  match a with
  | ⟨0, _⟩ => rfl
  | ⟨1, _⟩ => simp only [idx_main_v136, idx_main_v135, idx_main_v134, idx_main_v133, ix2]; omega

/-- The forget gate's peephole weights, broadcast over the nodes. -/
theorem wp_at_1 (x7 : (⟨S3x64, .f32⟩ : BufTy).Contents (Elt Ideal)) (n : Fin 10000) (j : Fin 64) :
    val_main_v236 (F := Ideal) x7 (ix2 n j) = x7 (ix2 (1 : Fin 3) j) := by
  rw [val_main_v236_apply, val_main_v235_apply, val_main_v234_apply, val_main_v233_apply]
  refine congrArg x7 (funext fun a => Fin.ext ?_)
  have hj := j.isLt
  match a with
  | ⟨0, _⟩ => rfl
  | ⟨1, _⟩ => simp only [idx_main_v236, idx_main_v235, idx_main_v234, idx_main_v233, ix2]; omega

/-- The output gate's peephole weights, broadcast over the nodes. -/
theorem wp_at_2 (x7 : (⟨S3x64, .f32⟩ : BufTy).Contents (Elt Ideal)) (n : Fin 10000) (j : Fin 64) :
    val_main_v428 (F := Ideal) x7 (ix2 n j) = x7 (ix2 (2 : Fin 3) j) := by
  rw [val_main_v428_apply, val_main_v427_apply, val_main_v426_apply, val_main_v425_apply]
  refine congrArg x7 (funext fun a => Fin.ext ?_)
  have hj := j.isLt
  match a with
  | ⟨0, _⟩ => rfl
  | ⟨1, _⟩ => simp only [idx_main_v428, idx_main_v427, idx_main_v426, idx_main_v425, ix2]; omega

/-- The input gate's bias, broadcast over the nodes. -/
theorem bg_at_0 (x8 : (⟨S4x64, .f32⟩ : BufTy).Contents (Elt Ideal)) (n : Fin 10000) (j : Fin 64) :
    val_main_v142 (F := Ideal) x8 (ix2 n j) = x8 (ix2 (0 : Fin 4) j) := by
  rw [val_main_v142_apply, val_main_v141_apply, val_main_v140_apply, val_main_v139_apply]
  refine congrArg x8 (funext fun a => Fin.ext ?_)
  have hj := j.isLt
  match a with
  | ⟨0, _⟩ => rfl
  | ⟨1, _⟩ => simp only [idx_main_v142, idx_main_v141, idx_main_v140, idx_main_v139, ix2]; omega

/-- The forget gate's bias, broadcast over the nodes. -/
theorem bg_at_1 (x8 : (⟨S4x64, .f32⟩ : BufTy).Contents (Elt Ideal)) (n : Fin 10000) (j : Fin 64) :
    val_main_v242 (F := Ideal) x8 (ix2 n j) = x8 (ix2 (1 : Fin 4) j) := by
  rw [val_main_v242_apply, val_main_v241_apply, val_main_v240_apply, val_main_v239_apply]
  refine congrArg x8 (funext fun a => Fin.ext ?_)
  have hj := j.isLt
  match a with
  | ⟨0, _⟩ => rfl
  | ⟨1, _⟩ => simp only [idx_main_v242, idx_main_v241, idx_main_v240, idx_main_v239, ix2]; omega

/-- The candidate's bias, broadcast over the nodes. -/
theorem bg_at_2 (x8 : (⟨S4x64, .f32⟩ : BufTy).Contents (Elt Ideal)) (n : Fin 10000) (j : Fin 64) :
    val_main_v336 (F := Ideal) x8 (ix2 n j) = x8 (ix2 (2 : Fin 4) j) := by
  rw [val_main_v336_apply, val_main_v335_apply, val_main_v334_apply, val_main_v333_apply]
  refine congrArg x8 (funext fun a => Fin.ext ?_)
  have hj := j.isLt
  match a with
  | ⟨0, _⟩ => rfl
  | ⟨1, _⟩ => simp only [idx_main_v336, idx_main_v335, idx_main_v334, idx_main_v333, ix2]; omega

/-- The output gate's bias, broadcast over the nodes. -/
theorem bg_at_3 (x8 : (⟨S4x64, .f32⟩ : BufTy).Contents (Elt Ideal)) (n : Fin 10000) (j : Fin 64) :
    val_main_v434 (F := Ideal) x8 (ix2 n j) = x8 (ix2 (3 : Fin 4) j) := by
  rw [val_main_v434_apply, val_main_v433_apply, val_main_v432_apply, val_main_v431_apply]
  refine congrArg x8 (funext fun a => Fin.ext ?_)
  have hj := j.isLt
  match a with
  | ⟨0, _⟩ => rfl
  | ⟨1, _⟩ => simp only [idx_main_v434, idx_main_v433, idx_main_v432, idx_main_v431, ix2]; omega

end Cert.Proof.RefSide

end
-- ==== Proof.RefGateConv0.lean ====
/-
  Gate 0 of the reference, up to the sum of its two convolutions: the slices of the two weight tensors and of the
  two convolution bias tables read at an index, and the sum of the input convolution (features and their rescaled
  Laplacian against the two Chebyshev weight matrices, plus its bias) and the hidden convolution (the same over
  the hidden state) read at a node and an output channel.
-/
import proofs.«207992_g50208167690906_cont_8to1c4_731_36_alg».proof.Proof.RefReadP
import proofs.«207992_g50208167690906_cont_8to1c4_731_36_alg».proof.Proof.RefGateLeaf

noncomputable section

namespace Cert.Proof.RefSide

open Cert.ReferenceIdeal Cert.ReferenceIdeal.Gen Cert.ReferenceIdeal.Read Idealize.ShloMosaic Idealize.ShloMosaic.ValueIdx

/-- Order-zero input weights of gate 0 at (input channel, output channel). -/
theorem wx0_at_g0 (x3 : (⟨S4x2x128x64, .f32⟩ : BufTy).Contents (Elt Ideal)) (k : Fin 128) (j : Fin 64) :
    val_main_v55 (F := Ideal) x3 (ix2 k j) = x3 (ix4 (0 : Fin 4) (0 : Fin 2) k j) := by
  rw [val_main_v55_apply, val_main_v54_apply, val_main_v51_apply, val_main_v50_apply]
  refine congrArg x3 (funext fun a => Fin.ext ?_)
  have hk := k.isLt
  have hj := j.isLt
  match a with
  | ⟨0, _⟩ => first | rfl | (simp only [idx_main_v50, idx_main_v51, idx_main_v54, idx_main_v55, ix2, ix4]; show (_ : ℕ) = 0; omega)
  | ⟨1, _⟩ => simp only [idx_main_v50, idx_main_v51, idx_main_v54, idx_main_v55, ix2, ix4]; show (_ : ℕ) = 0; omega
  | ⟨2, _⟩ => simp only [idx_main_v50, idx_main_v51, idx_main_v54, idx_main_v55, ix2, ix4]; omega
  | ⟨3, _⟩ => simp only [idx_main_v50, idx_main_v51, idx_main_v54, idx_main_v55, ix2, ix4]; omega

/-- Order-one input weights of gate 0 at (input channel, output channel). -/
theorem wx1_at_g0 (x3 : (⟨S4x2x128x64, .f32⟩ : BufTy).Contents (Elt Ideal)) (k : Fin 128) (j : Fin 64) :
    val_main_v85 (F := Ideal) x3 (ix2 k j) = x3 (ix4 (0 : Fin 4) (1 : Fin 2) k j) := by
  rw [val_main_v85_apply, val_main_v84_apply, val_main_v51_apply, val_main_v50_apply]
  refine congrArg x3 (funext fun a => Fin.ext ?_)
  have hk := k.isLt
  have hj := j.isLt
  match a with
  | ⟨0, _⟩ => first | rfl | (simp only [idx_main_v50, idx_main_v51, idx_main_v84, idx_main_v85, ix2, ix4]; show (_ : ℕ) = 0; omega)
  | ⟨1, _⟩ => simp only [idx_main_v50, idx_main_v51, idx_main_v84, idx_main_v85, ix2, ix4]; show (_ : ℕ) = 1; omega
  | ⟨2, _⟩ => simp only [idx_main_v50, idx_main_v51, idx_main_v84, idx_main_v85, ix2, ix4]; omega
  | ⟨3, _⟩ => simp only [idx_main_v50, idx_main_v51, idx_main_v84, idx_main_v85, ix2, ix4]; omega

/-- The input convolution's bias of gate 0, broadcast over the nodes. -/
theorem bx_at_g0 (x5 : (⟨S4x64, .f32⟩ : BufTy).Contents (Elt Ideal)) (n : Fin 10000) (j : Fin 64) :
    val_main_v89 (F := Ideal) x5 (ix2 n j) = x5 (ix2 (0 : Fin 4) j) := by
  rw [val_main_v89_apply, val_main_v88_apply, val_main_v53_apply, val_main_v52_apply]
  refine congrArg x5 (funext fun a => Fin.ext ?_)
  have hj := j.isLt
  match a with
  | ⟨0, _⟩ => first | rfl | (simp only [idx_main_v89, idx_main_v88, idx_main_v53, idx_main_v52, ix2]; show (_ : ℕ) = 0; omega)
  | ⟨1, _⟩ => simp only [idx_main_v89, idx_main_v88, idx_main_v53, idx_main_v52, ix2]; omega

/-- Order-zero hidden weights of gate 0 at (input channel, output channel). -/
theorem wh0_at_g0 (x4 : (⟨S4x2x64x64, .f32⟩ : BufTy).Contents (Elt Ideal)) (k j : Fin 64) :
    val_main_v96 (F := Ideal) x4 (ix2 k j) = x4 (ix4 (0 : Fin 4) (0 : Fin 2) k j) := by
  rw [val_main_v96_apply, val_main_v95_apply, val_main_v92_apply, val_main_v91_apply]
  refine congrArg x4 (funext fun a => Fin.ext ?_)
  have hk := k.isLt
  have hj := j.isLt
  match a with
  | ⟨0, _⟩ => first | rfl | (simp only [idx_main_v91, idx_main_v92, idx_main_v95, idx_main_v96, ix2, ix4]; show (_ : ℕ) = 0; omega)
  | ⟨1, _⟩ => simp only [idx_main_v91, idx_main_v92, idx_main_v95, idx_main_v96, ix2, ix4]; show (_ : ℕ) = 0; omega
  | ⟨2, _⟩ => simp only [idx_main_v91, idx_main_v92, idx_main_v95, idx_main_v96, ix2, ix4]; omega
  | ⟨3, _⟩ => simp only [idx_main_v91, idx_main_v92, idx_main_v95, idx_main_v96, ix2, ix4]; omega

/-- Order-one hidden weights of gate 0 at (input channel, output channel). -/
theorem wh1_at_g0 (x4 : (⟨S4x2x64x64, .f32⟩ : BufTy).Contents (Elt Ideal)) (k j : Fin 64) :
    val_main_v126 (F := Ideal) x4 (ix2 k j) = x4 (ix4 (0 : Fin 4) (1 : Fin 2) k j) := by
  rw [val_main_v126_apply, val_main_v125_apply, val_main_v92_apply, val_main_v91_apply]
  refine congrArg x4 (funext fun a => Fin.ext ?_)
  have hk := k.isLt
  have hj := j.isLt
  match a with
  | ⟨0, _⟩ => first | rfl | (simp only [idx_main_v91, idx_main_v92, idx_main_v125, idx_main_v126, ix2, ix4]; show (_ : ℕ) = 0; omega)
  | ⟨1, _⟩ => simp only [idx_main_v91, idx_main_v92, idx_main_v125, idx_main_v126, ix2, ix4]; show (_ : ℕ) = 1; omega
  | ⟨2, _⟩ => simp only [idx_main_v91, idx_main_v92, idx_main_v125, idx_main_v126, ix2, ix4]; omega
  | ⟨3, _⟩ => simp only [idx_main_v91, idx_main_v92, idx_main_v125, idx_main_v126, ix2, ix4]; omega

/-- The hidden convolution's bias of gate 0, broadcast over the nodes. -/
theorem bh_at_g0 (x6 : (⟨S4x64, .f32⟩ : BufTy).Contents (Elt Ideal)) (n : Fin 10000) (j : Fin 64) :
    val_main_v130 (F := Ideal) x6 (ix2 n j) = x6 (ix2 (0 : Fin 4) j) := by
  rw [val_main_v130_apply, val_main_v129_apply, val_main_v94_apply, val_main_v93_apply]
  refine congrArg x6 (funext fun a => Fin.ext ?_)
  have hj := j.isLt
  match a with
  | ⟨0, _⟩ => first | rfl | (simp only [idx_main_v130, idx_main_v129, idx_main_v94, idx_main_v93, ix2]; show (_ : ℕ) = 0; omega)
  | ⟨1, _⟩ => simp only [idx_main_v130, idx_main_v129, idx_main_v94, idx_main_v93, ix2]; omega

/-- The sum of the two convolutions of gate 0 at node `n` and output channel `j`, over whatever the two rescaled
    Laplacian buffers hold (`LX` for the features, `LH` for the hidden state). -/
theorem conv_g0 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (LX : Fin 10000 → Fin 128 → EReal) (LH : Fin 10000 → Fin 64 → EReal)
    (hLX : ∀ n i, val_main_v83 (F := Ideal) x0 x1 (ix2 n i) = LX n i)
    (hLH : ∀ n i, val_main_v124 (F := Ideal) x1 x2 (ix2 n i) = LH n i) (n : Fin 10000) (j : Fin 64) :
    val_main_v132 (F := Ideal) x0 x1 x2 x3 x4 x5 x6 (ix2 n j)
      = (((∑ i : Fin 128, x0 (ix2 n i) * x3 (ix4 (0 : Fin 4) (0 : Fin 2) i j))
            + (∑ i : Fin 128, LX n i * x3 (ix4 (0 : Fin 4) (1 : Fin 2) i j))) + x5 (ix2 (0 : Fin 4) j))
        + (((∑ i : Fin 64, x2 (ix3 (0 : Fin 2) n i) * x4 (ix4 (0 : Fin 4) (0 : Fin 2) i j))
            + (∑ i : Fin 64, LH n i * x4 (ix4 (0 : Fin 4) (1 : Fin 2) i j))) + x6 (ix2 (0 : Fin 4) j)) := by
  have e1 : ∀ k : Fin 128, lidx_main_v56 (ix2 n j) k = ix2 n k := fun k =>
    funext fun a => Fin.ext (by match a with | ⟨0, _⟩ => rfl | ⟨1, _⟩ => rfl)
  have e2 : ∀ k : Fin 128, ridx_main_v56 (ix2 n j) k = ix2 k j := fun k =>
    funext fun a => Fin.ext (by match a with | ⟨0, _⟩ => rfl | ⟨1, _⟩ => rfl)
  have e3 : ∀ k : Fin 128, lidx_main_v86 (ix2 n j) k = ix2 n k := fun k =>
    funext fun a => Fin.ext (by match a with | ⟨0, _⟩ => rfl | ⟨1, _⟩ => rfl)
  have e4 : ∀ k : Fin 128, ridx_main_v86 (ix2 n j) k = ix2 k j := fun k =>
    funext fun a => Fin.ext (by match a with | ⟨0, _⟩ => rfl | ⟨1, _⟩ => rfl)
  have e5 : ∀ k : Fin 64, lidx_main_v97 (ix2 n j) k = ix2 n k := fun k =>
    funext fun a => Fin.ext (by match a with | ⟨0, _⟩ => rfl | ⟨1, _⟩ => rfl)
  have e6 : ∀ k : Fin 64, ridx_main_v97 (ix2 n j) k = ix2 k j := fun k =>
    funext fun a => Fin.ext (by match a with | ⟨0, _⟩ => rfl | ⟨1, _⟩ => rfl)
  have e7 : ∀ k : Fin 64, lidx_main_v127 (ix2 n j) k = ix2 n k := fun k =>
    funext fun a => Fin.ext (by match a with | ⟨0, _⟩ => rfl | ⟨1, _⟩ => rfl)
  have e8 : ∀ k : Fin 64, ridx_main_v127 (ix2 n j) k = ix2 k j := fun k =>
    funext fun a => Fin.ext (by match a with | ⟨0, _⟩ => rfl | ⟨1, _⟩ => rfl)
  rw [val_main_v132_apply, val_main_v90_apply, val_main_v87_apply, val_main_v131_apply, val_main_v128_apply,
    val_main_v56_apply, val_main_v86_apply, val_main_v97_apply, val_main_v127_apply, bx_at_g0, bh_at_g0]
  simp only [e1, e2, e3, e4, e5, e6, e7, e8, wx0_at_g0, wx1_at_g0, wh0_at_g0, wh1_at_g0, hLX, hLH, h_at]
  rfl

end Cert.Proof.RefSide

end
-- ==== Proof.RefGateConv1.lean ====
/-
  Gate 1 of the reference, up to the sum of its two convolutions: the slices of the two weight tensors and of the
  two convolution bias tables read at an index, and the sum of the input convolution (features and their rescaled
  Laplacian against the two Chebyshev weight matrices, plus its bias) and the hidden convolution (the same over
  the hidden state) read at a node and an output channel.
-/
import proofs.«207992_g50208167690906_cont_8to1c4_731_36_alg».proof.Proof.RefReadP
import proofs.«207992_g50208167690906_cont_8to1c4_731_36_alg».proof.Proof.RefGateLeaf

noncomputable section

namespace Cert.Proof.RefSide

open Cert.ReferenceIdeal Cert.ReferenceIdeal.Gen Cert.ReferenceIdeal.Read Idealize.ShloMosaic Idealize.ShloMosaic.ValueIdx

/-- Order-zero input weights of gate 1 at (input channel, output channel). -/
theorem wx0_at_g1 (x3 : (⟨S4x2x128x64, .f32⟩ : BufTy).Contents (Elt Ideal)) (k : Fin 128) (j : Fin 64) :
    val_main_v155 (F := Ideal) x3 (ix2 k j) = x3 (ix4 (1 : Fin 4) (0 : Fin 2) k j) := by
  rw [val_main_v155_apply, val_main_v154_apply, val_main_v151_apply, val_main_v150_apply]
  refine congrArg x3 (funext fun a => Fin.ext ?_)
  have hk := k.isLt
  have hj := j.isLt
  match a with
  | ⟨0, _⟩ => first | rfl | (simp only [idx_main_v150, idx_main_v151, idx_main_v154, idx_main_v155, ix2, ix4]; show (_ : ℕ) = 1; omega)
  | ⟨1, _⟩ => simp only [idx_main_v150, idx_main_v151, idx_main_v154, idx_main_v155, ix2, ix4]; show (_ : ℕ) = 0; omega
  | ⟨2, _⟩ => simp only [idx_main_v150, idx_main_v151, idx_main_v154, idx_main_v155, ix2, ix4]; omega
  | ⟨3, _⟩ => simp only [idx_main_v150, idx_main_v151, idx_main_v154, idx_main_v155, ix2, ix4]; omega

/-- Order-one input weights of gate 1 at (input channel, output channel). -/
theorem wx1_at_g1 (x3 : (⟨S4x2x128x64, .f32⟩ : BufTy).Contents (Elt Ideal)) (k : Fin 128) (j : Fin 64) :
    val_main_v185 (F := Ideal) x3 (ix2 k j) = x3 (ix4 (1 : Fin 4) (1 : Fin 2) k j) := by
  rw [val_main_v185_apply, val_main_v184_apply, val_main_v151_apply, val_main_v150_apply]
  refine congrArg x3 (funext fun a => Fin.ext ?_)
  have hk := k.isLt
  have hj := j.isLt
  match a with
  | ⟨0, _⟩ => first | rfl | (simp only [idx_main_v150, idx_main_v151, idx_main_v184, idx_main_v185, ix2, ix4]; show (_ : ℕ) = 1; omega)
  | ⟨1, _⟩ => simp only [idx_main_v150, idx_main_v151, idx_main_v184, idx_main_v185, ix2, ix4]; show (_ : ℕ) = 1; omega
  | ⟨2, _⟩ => simp only [idx_main_v150, idx_main_v151, idx_main_v184, idx_main_v185, ix2, ix4]; omega
  | ⟨3, _⟩ => simp only [idx_main_v150, idx_main_v151, idx_main_v184, idx_main_v185, ix2, ix4]; omega

/-- The input convolution's bias of gate 1, broadcast over the nodes. -/
theorem bx_at_g1 (x5 : (⟨S4x64, .f32⟩ : BufTy).Contents (Elt Ideal)) (n : Fin 10000) (j : Fin 64) :
    val_main_v189 (F := Ideal) x5 (ix2 n j) = x5 (ix2 (1 : Fin 4) j) := by
  rw [val_main_v189_apply, val_main_v188_apply, val_main_v153_apply, val_main_v152_apply]
  refine congrArg x5 (funext fun a => Fin.ext ?_)
  have hj := j.isLt
  match a with
  | ⟨0, _⟩ => first | rfl | (simp only [idx_main_v189, idx_main_v188, idx_main_v153, idx_main_v152, ix2]; show (_ : ℕ) = 1; omega)
  | ⟨1, _⟩ => simp only [idx_main_v189, idx_main_v188, idx_main_v153, idx_main_v152, ix2]; omega

/-- Order-zero hidden weights of gate 1 at (input channel, output channel). -/
theorem wh0_at_g1 (x4 : (⟨S4x2x64x64, .f32⟩ : BufTy).Contents (Elt Ideal)) (k j : Fin 64) :
    val_main_v196 (F := Ideal) x4 (ix2 k j) = x4 (ix4 (1 : Fin 4) (0 : Fin 2) k j) := by
  rw [val_main_v196_apply, val_main_v195_apply, val_main_v192_apply, val_main_v191_apply]
  refine congrArg x4 (funext fun a => Fin.ext ?_)
  have hk := k.isLt
  have hj := j.isLt
  match a with
  | ⟨0, _⟩ => first | rfl | (simp only [idx_main_v191, idx_main_v192, idx_main_v195, idx_main_v196, ix2, ix4]; show (_ : ℕ) = 1; omega)
  | ⟨1, _⟩ => simp only [idx_main_v191, idx_main_v192, idx_main_v195, idx_main_v196, ix2, ix4]; show (_ : ℕ) = 0; omega
  | ⟨2, _⟩ => simp only [idx_main_v191, idx_main_v192, idx_main_v195, idx_main_v196, ix2, ix4]; omega
  | ⟨3, _⟩ => simp only [idx_main_v191, idx_main_v192, idx_main_v195, idx_main_v196, ix2, ix4]; omega

/-- Order-one hidden weights of gate 1 at (input channel, output channel). -/
theorem wh1_at_g1 (x4 : (⟨S4x2x64x64, .f32⟩ : BufTy).Contents (Elt Ideal)) (k j : Fin 64) :
    val_main_v226 (F := Ideal) x4 (ix2 k j) = x4 (ix4 (1 : Fin 4) (1 : Fin 2) k j) := by
  rw [val_main_v226_apply, val_main_v225_apply, val_main_v192_apply, val_main_v191_apply]
  refine congrArg x4 (funext fun a => Fin.ext ?_)
  have hk := k.isLt
  have hj := j.isLt
  match a with
  | ⟨0, _⟩ => first | rfl | (simp only [idx_main_v191, idx_main_v192, idx_main_v225, idx_main_v226, ix2, ix4]; show (_ : ℕ) = 1; omega)
  | ⟨1, _⟩ => simp only [idx_main_v191, idx_main_v192, idx_main_v225, idx_main_v226, ix2, ix4]; show (_ : ℕ) = 1; omega
  | ⟨2, _⟩ => simp only [idx_main_v191, idx_main_v192, idx_main_v225, idx_main_v226, ix2, ix4]; omega
  | ⟨3, _⟩ => simp only [idx_main_v191, idx_main_v192, idx_main_v225, idx_main_v226, ix2, ix4]; omega

/-- The hidden convolution's bias of gate 1, broadcast over the nodes. -/
theorem bh_at_g1 (x6 : (⟨S4x64, .f32⟩ : BufTy).Contents (Elt Ideal)) (n : Fin 10000) (j : Fin 64) :
    val_main_v230 (F := Ideal) x6 (ix2 n j) = x6 (ix2 (1 : Fin 4) j) := by
  rw [val_main_v230_apply, val_main_v229_apply, val_main_v194_apply, val_main_v193_apply]
  refine congrArg x6 (funext fun a => Fin.ext ?_)
  have hj := j.isLt
  match a with
  | ⟨0, _⟩ => first | rfl | (simp only [idx_main_v230, idx_main_v229, idx_main_v194, idx_main_v193, ix2]; show (_ : ℕ) = 1; omega)
  | ⟨1, _⟩ => simp only [idx_main_v230, idx_main_v229, idx_main_v194, idx_main_v193, ix2]; omega

/-- The sum of the two convolutions of gate 1 at node `n` and output channel `j`, over whatever the two rescaled
    Laplacian buffers hold (`LX` for the features, `LH` for the hidden state). -/
theorem conv_g1 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (LX : Fin 10000 → Fin 128 → EReal) (LH : Fin 10000 → Fin 64 → EReal)
    (hLX : ∀ n i, val_main_v183 (F := Ideal) x0 x1 (ix2 n i) = LX n i)
    (hLH : ∀ n i, val_main_v224 (F := Ideal) x1 x2 (ix2 n i) = LH n i) (n : Fin 10000) (j : Fin 64) :
    val_main_v232 (F := Ideal) x0 x1 x2 x3 x4 x5 x6 (ix2 n j)
      = (((∑ i : Fin 128, x0 (ix2 n i) * x3 (ix4 (1 : Fin 4) (0 : Fin 2) i j))
            + (∑ i : Fin 128, LX n i * x3 (ix4 (1 : Fin 4) (1 : Fin 2) i j))) + x5 (ix2 (1 : Fin 4) j))
        + (((∑ i : Fin 64, x2 (ix3 (0 : Fin 2) n i) * x4 (ix4 (1 : Fin 4) (0 : Fin 2) i j))
            + (∑ i : Fin 64, LH n i * x4 (ix4 (1 : Fin 4) (1 : Fin 2) i j))) + x6 (ix2 (1 : Fin 4) j)) := by
  have e1 : ∀ k : Fin 128, lidx_main_v156 (ix2 n j) k = ix2 n k := fun k =>
    funext fun a => Fin.ext (by match a with | ⟨0, _⟩ => rfl | ⟨1, _⟩ => rfl)
  have e2 : ∀ k : Fin 128, ridx_main_v156 (ix2 n j) k = ix2 k j := fun k =>
    funext fun a => Fin.ext (by match a with | ⟨0, _⟩ => rfl | ⟨1, _⟩ => rfl)
  have e3 : ∀ k : Fin 128, lidx_main_v186 (ix2 n j) k = ix2 n k := fun k =>
    funext fun a => Fin.ext (by match a with | ⟨0, _⟩ => rfl | ⟨1, _⟩ => rfl)
  have e4 : ∀ k : Fin 128, ridx_main_v186 (ix2 n j) k = ix2 k j := fun k =>
    funext fun a => Fin.ext (by match a with | ⟨0, _⟩ => rfl | ⟨1, _⟩ => rfl)
  have e5 : ∀ k : Fin 64, lidx_main_v197 (ix2 n j) k = ix2 n k := fun k =>
    funext fun a => Fin.ext (by match a with | ⟨0, _⟩ => rfl | ⟨1, _⟩ => rfl)
  have e6 : ∀ k : Fin 64, ridx_main_v197 (ix2 n j) k = ix2 k j := fun k =>
    funext fun a => Fin.ext (by match a with | ⟨0, _⟩ => rfl | ⟨1, _⟩ => rfl)
  have e7 : ∀ k : Fin 64, lidx_main_v227 (ix2 n j) k = ix2 n k := fun k =>
    funext fun a => Fin.ext (by match a with | ⟨0, _⟩ => rfl | ⟨1, _⟩ => rfl)
  have e8 : ∀ k : Fin 64, ridx_main_v227 (ix2 n j) k = ix2 k j := fun k =>
    funext fun a => Fin.ext (by match a with | ⟨0, _⟩ => rfl | ⟨1, _⟩ => rfl)
  rw [val_main_v232_apply, val_main_v190_apply, val_main_v187_apply, val_main_v231_apply, val_main_v228_apply,
    val_main_v156_apply, val_main_v186_apply, val_main_v197_apply, val_main_v227_apply, bx_at_g1, bh_at_g1]
  simp only [e1, e2, e3, e4, e5, e6, e7, e8, wx0_at_g1, wx1_at_g1, wh0_at_g1, wh1_at_g1, hLX, hLH, h_at]
  rfl

end Cert.Proof.RefSide

end
-- ==== Proof.RefGateConv2.lean ====
/-
  Gate 2 of the reference, up to the sum of its two convolutions: the slices of the two weight tensors and of the
  two convolution bias tables read at an index, and the sum of the input convolution (features and their rescaled
  Laplacian against the two Chebyshev weight matrices, plus its bias) and the hidden convolution (the same over
  the hidden state) read at a node and an output channel.
-/
import proofs.«207992_g50208167690906_cont_8to1c4_731_36_alg».proof.Proof.RefReadP
import proofs.«207992_g50208167690906_cont_8to1c4_731_36_alg».proof.Proof.RefGateLeaf

noncomputable section

namespace Cert.Proof.RefSide

open Cert.ReferenceIdeal Cert.ReferenceIdeal.Gen Cert.ReferenceIdeal.Read Idealize.ShloMosaic Idealize.ShloMosaic.ValueIdx

/-- Order-zero input weights of gate 2 at (input channel, output channel). -/
theorem wx0_at_g2 (x3 : (⟨S4x2x128x64, .f32⟩ : BufTy).Contents (Elt Ideal)) (k : Fin 128) (j : Fin 64) :
    val_main_v255 (F := Ideal) x3 (ix2 k j) = x3 (ix4 (2 : Fin 4) (0 : Fin 2) k j) := by
  rw [val_main_v255_apply, val_main_v254_apply, val_main_v251_apply, val_main_v250_apply]
  refine congrArg x3 (funext fun a => Fin.ext ?_)
  have hk := k.isLt
  have hj := j.isLt
  match a with
  | ⟨0, _⟩ => first | rfl | (simp only [idx_main_v250, idx_main_v251, idx_main_v254, idx_main_v255, ix2, ix4]; show (_ : ℕ) = 2; omega)
  | ⟨1, _⟩ => simp only [idx_main_v250, idx_main_v251, idx_main_v254, idx_main_v255, ix2, ix4]; show (_ : ℕ) = 0; omega
  | ⟨2, _⟩ => simp only [idx_main_v250, idx_main_v251, idx_main_v254, idx_main_v255, ix2, ix4]; omega
  | ⟨3, _⟩ => simp only [idx_main_v250, idx_main_v251, idx_main_v254, idx_main_v255, ix2, ix4]; omega

/-- Order-one input weights of gate 2 at (input channel, output channel). -/
theorem wx1_at_g2 (x3 : (⟨S4x2x128x64, .f32⟩ : BufTy).Contents (Elt Ideal)) (k : Fin 128) (j : Fin 64) :
    val_main_v285 (F := Ideal) x3 (ix2 k j) = x3 (ix4 (2 : Fin 4) (1 : Fin 2) k j) := by
  rw [val_main_v285_apply, val_main_v284_apply, val_main_v251_apply, val_main_v250_apply]
  refine congrArg x3 (funext fun a => Fin.ext ?_)
  have hk := k.isLt
  have hj := j.isLt
  match a with
  | ⟨0, _⟩ => first | rfl | (simp only [idx_main_v250, idx_main_v251, idx_main_v284, idx_main_v285, ix2, ix4]; show (_ : ℕ) = 2; omega)
  | ⟨1, _⟩ => simp only [idx_main_v250, idx_main_v251, idx_main_v284, idx_main_v285, ix2, ix4]; show (_ : ℕ) = 1; omega
  | ⟨2, _⟩ => simp only [idx_main_v250, idx_main_v251, idx_main_v284, idx_main_v285, ix2, ix4]; omega
  | ⟨3, _⟩ => simp only [idx_main_v250, idx_main_v251, idx_main_v284, idx_main_v285, ix2, ix4]; omega

/-- The input convolution's bias of gate 2, broadcast over the nodes. -/
theorem bx_at_g2 (x5 : (⟨S4x64, .f32⟩ : BufTy).Contents (Elt Ideal)) (n : Fin 10000) (j : Fin 64) :
    val_main_v289 (F := Ideal) x5 (ix2 n j) = x5 (ix2 (2 : Fin 4) j) := by
  rw [val_main_v289_apply, val_main_v288_apply, val_main_v253_apply, val_main_v252_apply]
  refine congrArg x5 (funext fun a => Fin.ext ?_)
  have hj := j.isLt
  match a with
  | ⟨0, _⟩ => first | rfl | (simp only [idx_main_v289, idx_main_v288, idx_main_v253, idx_main_v252, ix2]; show (_ : ℕ) = 2; omega)
  | ⟨1, _⟩ => simp only [idx_main_v289, idx_main_v288, idx_main_v253, idx_main_v252, ix2]; omega

/-- Order-zero hidden weights of gate 2 at (input channel, output channel). -/
theorem wh0_at_g2 (x4 : (⟨S4x2x64x64, .f32⟩ : BufTy).Contents (Elt Ideal)) (k j : Fin 64) :
    val_main_v296 (F := Ideal) x4 (ix2 k j) = x4 (ix4 (2 : Fin 4) (0 : Fin 2) k j) := by
  rw [val_main_v296_apply, val_main_v295_apply, val_main_v292_apply, val_main_v291_apply]
  refine congrArg x4 (funext fun a => Fin.ext ?_)
  have hk := k.isLt
  have hj := j.isLt
  match a with
  | ⟨0, _⟩ => first | rfl | (simp only [idx_main_v291, idx_main_v292, idx_main_v295, idx_main_v296, ix2, ix4]; show (_ : ℕ) = 2; omega)
  | ⟨1, _⟩ => simp only [idx_main_v291, idx_main_v292, idx_main_v295, idx_main_v296, ix2, ix4]; show (_ : ℕ) = 0; omega
  | ⟨2, _⟩ => simp only [idx_main_v291, idx_main_v292, idx_main_v295, idx_main_v296, ix2, ix4]; omega
  | ⟨3, _⟩ => simp only [idx_main_v291, idx_main_v292, idx_main_v295, idx_main_v296, ix2, ix4]; omega

/-- Order-one hidden weights of gate 2 at (input channel, output channel). -/
theorem wh1_at_g2 (x4 : (⟨S4x2x64x64, .f32⟩ : BufTy).Contents (Elt Ideal)) (k j : Fin 64) :
    val_main_v326 (F := Ideal) x4 (ix2 k j) = x4 (ix4 (2 : Fin 4) (1 : Fin 2) k j) := by
  rw [val_main_v326_apply, val_main_v325_apply, val_main_v292_apply, val_main_v291_apply]
  refine congrArg x4 (funext fun a => Fin.ext ?_)
  have hk := k.isLt
  have hj := j.isLt
  match a with
  | ⟨0, _⟩ => first | rfl | (simp only [idx_main_v291, idx_main_v292, idx_main_v325, idx_main_v326, ix2, ix4]; show (_ : ℕ) = 2; omega)
  | ⟨1, _⟩ => simp only [idx_main_v291, idx_main_v292, idx_main_v325, idx_main_v326, ix2, ix4]; show (_ : ℕ) = 1; omega
  | ⟨2, _⟩ => simp only [idx_main_v291, idx_main_v292, idx_main_v325, idx_main_v326, ix2, ix4]; omega
  | ⟨3, _⟩ => simp only [idx_main_v291, idx_main_v292, idx_main_v325, idx_main_v326, ix2, ix4]; omega

/-- The hidden convolution's bias of gate 2, broadcast over the nodes. -/
theorem bh_at_g2 (x6 : (⟨S4x64, .f32⟩ : BufTy).Contents (Elt Ideal)) (n : Fin 10000) (j : Fin 64) :
    val_main_v330 (F := Ideal) x6 (ix2 n j) = x6 (ix2 (2 : Fin 4) j) := by
  rw [val_main_v330_apply, val_main_v329_apply, val_main_v294_apply, val_main_v293_apply]
  refine congrArg x6 (funext fun a => Fin.ext ?_)
  have hj := j.isLt
  match a with
  | ⟨0, _⟩ => first | rfl | (simp only [idx_main_v330, idx_main_v329, idx_main_v294, idx_main_v293, ix2]; show (_ : ℕ) = 2; omega)
  | ⟨1, _⟩ => simp only [idx_main_v330, idx_main_v329, idx_main_v294, idx_main_v293, ix2]; omega

/-- The sum of the two convolutions of gate 2 at node `n` and output channel `j`, over whatever the two rescaled
    Laplacian buffers hold (`LX` for the features, `LH` for the hidden state). -/
theorem conv_g2 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (LX : Fin 10000 → Fin 128 → EReal) (LH : Fin 10000 → Fin 64 → EReal)
    (hLX : ∀ n i, val_main_v283 (F := Ideal) x0 x1 (ix2 n i) = LX n i)
    (hLH : ∀ n i, val_main_v324 (F := Ideal) x1 x2 (ix2 n i) = LH n i) (n : Fin 10000) (j : Fin 64) :
    val_main_v332 (F := Ideal) x0 x1 x2 x3 x4 x5 x6 (ix2 n j)
      = (((∑ i : Fin 128, x0 (ix2 n i) * x3 (ix4 (2 : Fin 4) (0 : Fin 2) i j))
            + (∑ i : Fin 128, LX n i * x3 (ix4 (2 : Fin 4) (1 : Fin 2) i j))) + x5 (ix2 (2 : Fin 4) j))
        + (((∑ i : Fin 64, x2 (ix3 (0 : Fin 2) n i) * x4 (ix4 (2 : Fin 4) (0 : Fin 2) i j))
            + (∑ i : Fin 64, LH n i * x4 (ix4 (2 : Fin 4) (1 : Fin 2) i j))) + x6 (ix2 (2 : Fin 4) j)) := by
  have e1 : ∀ k : Fin 128, lidx_main_v256 (ix2 n j) k = ix2 n k := fun k =>
    funext fun a => Fin.ext (by match a with | ⟨0, _⟩ => rfl | ⟨1, _⟩ => rfl)
  have e2 : ∀ k : Fin 128, ridx_main_v256 (ix2 n j) k = ix2 k j := fun k =>
    funext fun a => Fin.ext (by match a with | ⟨0, _⟩ => rfl | ⟨1, _⟩ => rfl)
  have e3 : ∀ k : Fin 128, lidx_main_v286 (ix2 n j) k = ix2 n k := fun k =>
    funext fun a => Fin.ext (by match a with | ⟨0, _⟩ => rfl | ⟨1, _⟩ => rfl)
  have e4 : ∀ k : Fin 128, ridx_main_v286 (ix2 n j) k = ix2 k j := fun k =>
    funext fun a => Fin.ext (by match a with | ⟨0, _⟩ => rfl | ⟨1, _⟩ => rfl)
  have e5 : ∀ k : Fin 64, lidx_main_v297 (ix2 n j) k = ix2 n k := fun k =>
    funext fun a => Fin.ext (by match a with | ⟨0, _⟩ => rfl | ⟨1, _⟩ => rfl)
  have e6 : ∀ k : Fin 64, ridx_main_v297 (ix2 n j) k = ix2 k j := fun k =>
    funext fun a => Fin.ext (by match a with | ⟨0, _⟩ => rfl | ⟨1, _⟩ => rfl)
  have e7 : ∀ k : Fin 64, lidx_main_v327 (ix2 n j) k = ix2 n k := fun k =>
    funext fun a => Fin.ext (by match a with | ⟨0, _⟩ => rfl | ⟨1, _⟩ => rfl)
  have e8 : ∀ k : Fin 64, ridx_main_v327 (ix2 n j) k = ix2 k j := fun k =>
    funext fun a => Fin.ext (by match a with | ⟨0, _⟩ => rfl | ⟨1, _⟩ => rfl)
  rw [val_main_v332_apply, val_main_v290_apply, val_main_v287_apply, val_main_v331_apply, val_main_v328_apply,
    val_main_v256_apply, val_main_v286_apply, val_main_v297_apply, val_main_v327_apply, bx_at_g2, bh_at_g2]
  simp only [e1, e2, e3, e4, e5, e6, e7, e8, wx0_at_g2, wx1_at_g2, wh0_at_g2, wh1_at_g2, hLX, hLH, h_at]
  rfl

end Cert.Proof.RefSide

end
-- ==== Proof.RefGateConv3.lean ====
/-
  Gate 3 of the reference, up to the sum of its two convolutions: the slices of the two weight tensors and of the
  two convolution bias tables read at an index, and the sum of the input convolution (features and their rescaled
  Laplacian against the two Chebyshev weight matrices, plus its bias) and the hidden convolution (the same over
  the hidden state) read at a node and an output channel.
-/
import proofs.«207992_g50208167690906_cont_8to1c4_731_36_alg».proof.Proof.RefReadP
import proofs.«207992_g50208167690906_cont_8to1c4_731_36_alg».proof.Proof.RefGateLeaf

noncomputable section

namespace Cert.Proof.RefSide

open Cert.ReferenceIdeal Cert.ReferenceIdeal.Gen Cert.ReferenceIdeal.Read Idealize.ShloMosaic Idealize.ShloMosaic.ValueIdx

/-- Order-zero input weights of gate 3 at (input channel, output channel). -/
theorem wx0_at_g3 (x3 : (⟨S4x2x128x64, .f32⟩ : BufTy).Contents (Elt Ideal)) (k : Fin 128) (j : Fin 64) :
    val_main_v347 (F := Ideal) x3 (ix2 k j) = x3 (ix4 (3 : Fin 4) (0 : Fin 2) k j) := by
  rw [val_main_v347_apply, val_main_v346_apply, val_main_v343_apply, val_main_v342_apply]
  refine congrArg x3 (funext fun a => Fin.ext ?_)
  have hk := k.isLt
  have hj := j.isLt
  match a with
  | ⟨0, _⟩ => first | rfl | (simp only [idx_main_v342, idx_main_v343, idx_main_v346, idx_main_v347, ix2, ix4]; show (_ : ℕ) = 3; omega)
  | ⟨1, _⟩ => simp only [idx_main_v342, idx_main_v343, idx_main_v346, idx_main_v347, ix2, ix4]; show (_ : ℕ) = 0; omega
  | ⟨2, _⟩ => simp only [idx_main_v342, idx_main_v343, idx_main_v346, idx_main_v347, ix2, ix4]; omega
  | ⟨3, _⟩ => simp only [idx_main_v342, idx_main_v343, idx_main_v346, idx_main_v347, ix2, ix4]; omega

/-- Order-one input weights of gate 3 at (input channel, output channel). -/
theorem wx1_at_g3 (x3 : (⟨S4x2x128x64, .f32⟩ : BufTy).Contents (Elt Ideal)) (k : Fin 128) (j : Fin 64) :
    val_main_v377 (F := Ideal) x3 (ix2 k j) = x3 (ix4 (3 : Fin 4) (1 : Fin 2) k j) := by
  rw [val_main_v377_apply, val_main_v376_apply, val_main_v343_apply, val_main_v342_apply]
  refine congrArg x3 (funext fun a => Fin.ext ?_)
  have hk := k.isLt
  have hj := j.isLt
  match a with
  | ⟨0, _⟩ => first | rfl | (simp only [idx_main_v342, idx_main_v343, idx_main_v376, idx_main_v377, ix2, ix4]; show (_ : ℕ) = 3; omega)
  | ⟨1, _⟩ => simp only [idx_main_v342, idx_main_v343, idx_main_v376, idx_main_v377, ix2, ix4]; show (_ : ℕ) = 1; omega
  | ⟨2, _⟩ => simp only [idx_main_v342, idx_main_v343, idx_main_v376, idx_main_v377, ix2, ix4]; omega
  | ⟨3, _⟩ => simp only [idx_main_v342, idx_main_v343, idx_main_v376, idx_main_v377, ix2, ix4]; omega

/-- The input convolution's bias of gate 3, broadcast over the nodes. -/
theorem bx_at_g3 (x5 : (⟨S4x64, .f32⟩ : BufTy).Contents (Elt Ideal)) (n : Fin 10000) (j : Fin 64) :
    val_main_v381 (F := Ideal) x5 (ix2 n j) = x5 (ix2 (3 : Fin 4) j) := by
  rw [val_main_v381_apply, val_main_v380_apply, val_main_v345_apply, val_main_v344_apply]
  refine congrArg x5 (funext fun a => Fin.ext ?_)
  have hj := j.isLt
  match a with
  | ⟨0, _⟩ => first | rfl | (simp only [idx_main_v381, idx_main_v380, idx_main_v345, idx_main_v344, ix2]; show (_ : ℕ) = 3; omega)
  | ⟨1, _⟩ => simp only [idx_main_v381, idx_main_v380, idx_main_v345, idx_main_v344, ix2]; omega

/-- Order-zero hidden weights of gate 3 at (input channel, output channel). -/
theorem wh0_at_g3 (x4 : (⟨S4x2x64x64, .f32⟩ : BufTy).Contents (Elt Ideal)) (k j : Fin 64) :
    val_main_v388 (F := Ideal) x4 (ix2 k j) = x4 (ix4 (3 : Fin 4) (0 : Fin 2) k j) := by
  rw [val_main_v388_apply, val_main_v387_apply, val_main_v384_apply, val_main_v383_apply]
  refine congrArg x4 (funext fun a => Fin.ext ?_)
  have hk := k.isLt
  have hj := j.isLt
  match a with
  | ⟨0, _⟩ => first | rfl | (simp only [idx_main_v383, idx_main_v384, idx_main_v387, idx_main_v388, ix2, ix4]; show (_ : ℕ) = 3; omega)
  | ⟨1, _⟩ => simp only [idx_main_v383, idx_main_v384, idx_main_v387, idx_main_v388, ix2, ix4]; show (_ : ℕ) = 0; omega
  | ⟨2, _⟩ => simp only [idx_main_v383, idx_main_v384, idx_main_v387, idx_main_v388, ix2, ix4]; omega
  | ⟨3, _⟩ => simp only [idx_main_v383, idx_main_v384, idx_main_v387, idx_main_v388, ix2, ix4]; omega

/-- Order-one hidden weights of gate 3 at (input channel, output channel). -/
theorem wh1_at_g3 (x4 : (⟨S4x2x64x64, .f32⟩ : BufTy).Contents (Elt Ideal)) (k j : Fin 64) :
    val_main_v418 (F := Ideal) x4 (ix2 k j) = x4 (ix4 (3 : Fin 4) (1 : Fin 2) k j) := by
  rw [val_main_v418_apply, val_main_v417_apply, val_main_v384_apply, val_main_v383_apply]
  refine congrArg x4 (funext fun a => Fin.ext ?_)
  have hk := k.isLt
  have hj := j.isLt
  match a with
  | ⟨0, _⟩ => first | rfl | (simp only [idx_main_v383, idx_main_v384, idx_main_v417, idx_main_v418, ix2, ix4]; show (_ : ℕ) = 3; omega)
  | ⟨1, _⟩ => simp only [idx_main_v383, idx_main_v384, idx_main_v417, idx_main_v418, ix2, ix4]; show (_ : ℕ) = 1; omega
  | ⟨2, _⟩ => simp only [idx_main_v383, idx_main_v384, idx_main_v417, idx_main_v418, ix2, ix4]; omega
  | ⟨3, _⟩ => simp only [idx_main_v383, idx_main_v384, idx_main_v417, idx_main_v418, ix2, ix4]; omega

/-- The hidden convolution's bias of gate 3, broadcast over the nodes. -/
theorem bh_at_g3 (x6 : (⟨S4x64, .f32⟩ : BufTy).Contents (Elt Ideal)) (n : Fin 10000) (j : Fin 64) :
    val_main_v422 (F := Ideal) x6 (ix2 n j) = x6 (ix2 (3 : Fin 4) j) := by
  rw [val_main_v422_apply, val_main_v421_apply, val_main_v386_apply, val_main_v385_apply]
  refine congrArg x6 (funext fun a => Fin.ext ?_)
  have hj := j.isLt
  match a with
  | ⟨0, _⟩ => first | rfl | (simp only [idx_main_v422, idx_main_v421, idx_main_v386, idx_main_v385, ix2]; show (_ : ℕ) = 3; omega)
  | ⟨1, _⟩ => simp only [idx_main_v422, idx_main_v421, idx_main_v386, idx_main_v385, ix2]; omega

/-- The sum of the two convolutions of gate 3 at node `n` and output channel `j`, over whatever the two rescaled
    Laplacian buffers hold (`LX` for the features, `LH` for the hidden state). -/
theorem conv_g3 (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (x3 : (⟨S4x2x128x64, .f32⟩ : BufTy).Contents (Elt Ideal))
    (x4 : (⟨S4x2x64x64, .f32⟩ : BufTy).Contents (Elt Ideal)) (x5 x6 : (⟨S4x64, .f32⟩ : BufTy).Contents (Elt Ideal))
    (LX : Fin 10000 → Fin 128 → EReal) (LH : Fin 10000 → Fin 64 → EReal)
    (hLX : ∀ n i, val_main_v375 (F := Ideal) x0 x1 (ix2 n i) = LX n i)
    (hLH : ∀ n i, val_main_v416 (F := Ideal) x1 x2 (ix2 n i) = LH n i) (n : Fin 10000) (j : Fin 64) :
    val_main_v424 (F := Ideal) x0 x1 x2 x3 x4 x5 x6 (ix2 n j)
      = (((∑ i : Fin 128, x0 (ix2 n i) * x3 (ix4 (3 : Fin 4) (0 : Fin 2) i j))
            + (∑ i : Fin 128, LX n i * x3 (ix4 (3 : Fin 4) (1 : Fin 2) i j))) + x5 (ix2 (3 : Fin 4) j))
        + (((∑ i : Fin 64, x2 (ix3 (0 : Fin 2) n i) * x4 (ix4 (3 : Fin 4) (0 : Fin 2) i j))
            + (∑ i : Fin 64, LH n i * x4 (ix4 (3 : Fin 4) (1 : Fin 2) i j))) + x6 (ix2 (3 : Fin 4) j)) := by
  have e1 : ∀ k : Fin 128, lidx_main_v348 (ix2 n j) k = ix2 n k := fun k =>
    funext fun a => Fin.ext (by match a with | ⟨0, _⟩ => rfl | ⟨1, _⟩ => rfl)
  have e2 : ∀ k : Fin 128, ridx_main_v348 (ix2 n j) k = ix2 k j := fun k =>
    funext fun a => Fin.ext (by match a with | ⟨0, _⟩ => rfl | ⟨1, _⟩ => rfl)
  have e3 : ∀ k : Fin 128, lidx_main_v378 (ix2 n j) k = ix2 n k := fun k =>
    funext fun a => Fin.ext (by match a with | ⟨0, _⟩ => rfl | ⟨1, _⟩ => rfl)
  have e4 : ∀ k : Fin 128, ridx_main_v378 (ix2 n j) k = ix2 k j := fun k =>
    funext fun a => Fin.ext (by match a with | ⟨0, _⟩ => rfl | ⟨1, _⟩ => rfl)
  have e5 : ∀ k : Fin 64, lidx_main_v389 (ix2 n j) k = ix2 n k := fun k =>
    funext fun a => Fin.ext (by match a with | ⟨0, _⟩ => rfl | ⟨1, _⟩ => rfl)
  have e6 : ∀ k : Fin 64, ridx_main_v389 (ix2 n j) k = ix2 k j := fun k =>
    funext fun a => Fin.ext (by match a with | ⟨0, _⟩ => rfl | ⟨1, _⟩ => rfl)
  have e7 : ∀ k : Fin 64, lidx_main_v419 (ix2 n j) k = ix2 n k := fun k =>
    funext fun a => Fin.ext (by match a with | ⟨0, _⟩ => rfl | ⟨1, _⟩ => rfl)
  have e8 : ∀ k : Fin 64, ridx_main_v419 (ix2 n j) k = ix2 k j := fun k =>
    funext fun a => Fin.ext (by match a with | ⟨0, _⟩ => rfl | ⟨1, _⟩ => rfl)
  rw [val_main_v424_apply, val_main_v382_apply, val_main_v379_apply, val_main_v423_apply, val_main_v420_apply,
    val_main_v348_apply, val_main_v378_apply, val_main_v389_apply, val_main_v419_apply, bx_at_g3, bh_at_g3]
  simp only [e1, e2, e3, e4, e5, e6, e7, e8, wx0_at_g3, wx1_at_g3, wh0_at_g3, wh1_at_g3, hLX, hLH, h_at]
  rfl

end Cert.Proof.RefSide

end
-- ==== Proof.RefGateCell.lean ====
/-
  From the gates' convolution sums to the two results of the reference: each gate's pre-activation regrouped
  into the specification's arrangement, the logistic and hyperbolic-tangent gates, the new cell state, the
  rectified hidden state, the linear read-out, and the stacking of the hidden state on the cell state.
-/
import proofs.«207992_g50208167690906_cont_8to1c4_731_36_alg».proof.Proof.RefReadP
import proofs.«207992_g50208167690906_cont_8to1c4_731_36_alg».proof.Proof.Spec
import proofs.«207992_g50208167690906_cont_8to1c4_731_36_alg».proof.Proof.RefGateAlg
import proofs.«207992_g50208167690906_cont_8to1c4_731_36_alg».proof.Proof.RefGateLeaf
import proofs.«207992_g50208167690906_cont_8to1c4_731_36_alg».proof.Proof.RefGateConv0
import proofs.«207992_g50208167690906_cont_8to1c4_731_36_alg».proof.Proof.RefGateConv1
import proofs.«207992_g50208167690906_cont_8to1c4_731_36_alg».proof.Proof.RefGateConv2
import proofs.«207992_g50208167690906_cont_8to1c4_731_36_alg».proof.Proof.RefGateConv3

noncomputable section

namespace Cert.Proof.RefSide

open Cert.ReferenceIdeal Cert.ReferenceIdeal.Gen Cert.ReferenceIdeal.Read Idealize.ShloMosaic Idealize.ShloMosaic.ValueIdx

/-- What the eight rescaled-Laplacian buffers of the reference hold, in the specification's words: for each gate,
    the rescaled Laplacian of the features and of the hidden state at a node and a channel. -/
structure LapSites (x0 : (⟨S10000x128, .f32⟩ : BufTy).Contents (Elt Ideal)) (x1 : (⟨S2x320000, .i32⟩ : BufTy).Contents (Elt Ideal))
    (x2 : (⟨S2x10000x64, .f32⟩ : BufTy).Contents (Elt Ideal)) (A : Spec.Args) : Prop where
  lx0 : ∀ n i, val_main_v83 (F := Ideal) x0 x1 (ix2 n i) = Spec.lhat A A.x n i
  lx1 : ∀ n i, val_main_v183 (F := Ideal) x0 x1 (ix2 n i) = Spec.lhat A A.x n i
  lx2 : ∀ n i, val_main_v283 (F := Ideal) x0 x1 (ix2 n i) = Spec.lhat A A.x n i
  lx3 : ∀ n i, val_main_v375 (F := Ideal) x0 x1 (ix2 n i) = Spec.lhat A A.x n i
  lh0 : ∀ n i, val_main_v124 (F := Ideal) x1 x2 (ix2 n i) = Spec.lhat A A.h n i
  lh1 : ∀ n i, val_main_v224 (F := Ideal) x1 x2 (ix2 n i) = Spec.lhat A A.h n i
  lh2 : ∀ n i, val_main_v324 (F := Ideal) x1 x2 (ix2 n i) = Spec.lhat A A.h n i
  lh3 : ∀ n i, val_main_v416 (F := Ideal) x1 x2 (ix2 n i) = Spec.lhat A A.h n i

section
variable (x0 : (⟨S10000x128, .f32⟩ : BufTy).Contents (Elt Ideal)) (x1 : (⟨S2x320000, .i32⟩ : BufTy).Contents (Elt Ideal))
  (x2 : (⟨S2x10000x64, .f32⟩ : BufTy).Contents (Elt Ideal)) (x3 : (⟨S4x2x128x64, .f32⟩ : BufTy).Contents (Elt Ideal))
  (x4 : (⟨S4x2x64x64, .f32⟩ : BufTy).Contents (Elt Ideal)) (x5 x6 : (⟨S4x64, .f32⟩ : BufTy).Contents (Elt Ideal))
  (x7 : (⟨S3x64, .f32⟩ : BufTy).Contents (Elt Ideal)) (x8 : (⟨S4x64, .f32⟩ : BufTy).Contents (Elt Ideal))
  (x9 : (⟨S64x10, .f32⟩ : BufTy).Contents (Elt Ideal)) (x10 : (⟨S10, .f32⟩ : BufTy).Contents (Elt Ideal))
variable (A : Spec.Args) (hA : A = Spec.Args.ofArrays x0 x1 x2 x3 x4 x5 x6 x7 x8 x9 x10) (S : LapSites x0 x1 x2 A)
include hA S

/-- The input gate's argument: the specification's pre-activation plus the peephole term. -/
theorem pre0_at (n : Fin 10000) (j : Fin 64) :
    val_main_v143 (F := Ideal) x0 x1 x2 x3 x4 x5 x6 x7 x8 (ix2 n j) = Spec.pre A 0 n j + A.wp 0 j * A.c n j := by
  subst hA
  rw [val_main_v143_apply, val_main_v138_apply, val_main_v137_apply,
    conv_g0 x0 x1 x2 x3 x4 x5 x6 _ _ S.lx0 S.lh0, wp_at_0, c_at, bg_at_0]
  exact regroup_peep _ _ _ _ _ _ _ _

/-- The input gate. -/
theorem inGate_at (n : Fin 10000) (j : Fin 64) :
    val_main_v149 (F := Ideal) x0 x1 x2 x3 x4 x5 x6 x7 x8 (ix2 n j) = Spec.inGate A n j := by
  rw [val_main_v149_apply, val_main_v148_apply, val_main_cst_29_apply, val_main_v147_apply, val_main_v146_apply,
    val_main_cst_28_apply, val_main_v145_apply, val_main_v144_apply, pre0_at x0 x1 x2 x3 x4 x5 x6 x7 x8 x9 x10 A hA S]
  simp only [Ideal.hostDivf_def, Ideal.ofBits_def, Ideal.addf_def, Ideal.hostUnary_exp_def, Ideal.hostNegf_def,
    Ideal.negf_def, one_f32]
  rfl

/-- The forget gate's argument. -/
theorem pre1_at (n : Fin 10000) (j : Fin 64) :
    val_main_v243 (F := Ideal) x0 x1 x2 x3 x4 x5 x6 x7 x8 (ix2 n j) = Spec.pre A 1 n j + A.wp 1 j * A.c n j := by
  subst hA
  rw [val_main_v243_apply, val_main_v238_apply, val_main_v237_apply,
    conv_g1 x0 x1 x2 x3 x4 x5 x6 _ _ S.lx1 S.lh1, wp_at_1, c_at, bg_at_1]
  exact regroup_peep _ _ _ _ _ _ _ _

/-- The forget gate. -/
theorem forgetGate_at (n : Fin 10000) (j : Fin 64) :
    val_main_v249 (F := Ideal) x0 x1 x2 x3 x4 x5 x6 x7 x8 (ix2 n j) = Spec.forgetGate A n j := by
  rw [val_main_v249_apply, val_main_v248_apply, val_main_cst_43_apply, val_main_v247_apply, val_main_v246_apply,
    val_main_cst_42_apply, val_main_v245_apply, val_main_v244_apply, pre1_at x0 x1 x2 x3 x4 x5 x6 x7 x8 x9 x10 A hA S]
  simp only [Ideal.hostDivf_def, Ideal.ofBits_def, Ideal.addf_def, Ideal.hostUnary_exp_def, Ideal.hostNegf_def,
    Ideal.negf_def, one_f32]
  rfl

/-- The candidate's argument (no peephole term). -/
theorem pre2_at (n : Fin 10000) (j : Fin 64) :
    val_main_v337 (F := Ideal) x0 x1 x2 x3 x4 x5 x6 x8 (ix2 n j) = Spec.pre A 2 n j := by
  subst hA
  rw [val_main_v337_apply, conv_g2 x0 x1 x2 x3 x4 x5 x6 _ _ S.lx2 S.lh2, bg_at_2]
  exact regroup _ _ _ _ _ _ _

/-- The candidate. -/
theorem candidate_at (n : Fin 10000) (j : Fin 64) :
    val_main_v338 (F := Ideal) x0 x1 x2 x3 x4 x5 x6 x8 (ix2 n j) = Spec.candidate A n j := by
  rw [val_main_v338_apply, pre2_at x0 x1 x2 x3 x4 x5 x6 x7 x8 x9 x10 A hA S]
  rfl

/-- The new cell state. -/
theorem cellNew_at (n : Fin 10000) (j : Fin 64) :
    val_main_v341 (F := Ideal) x0 x1 x2 x3 x4 x5 x6 x7 x8 (ix2 n j) = Spec.cellNew A n j := by
  rw [val_main_v341_apply, val_main_v339_apply, val_main_v340_apply, forgetGate_at x0 x1 x2 x3 x4 x5 x6 x7 x8 x9 x10 A hA S,
    inGate_at x0 x1 x2 x3 x4 x5 x6 x7 x8 x9 x10 A hA S, candidate_at x0 x1 x2 x3 x4 x5 x6 x7 x8 x9 x10 A hA S, c_at]
  subst hA
  rfl

/-- The output gate's argument: its peephole term reads the new cell state. -/
theorem pre3_at (n : Fin 10000) (j : Fin 64) :
    val_main_v435 (F := Ideal) x0 x1 x2 x3 x4 x5 x6 x7 x8 (ix2 n j) = Spec.pre A 3 n j + A.wp 2 j * Spec.cellNew A n j := by
  rw [val_main_v435_apply, val_main_v430_apply, val_main_v429_apply, cellNew_at x0 x1 x2 x3 x4 x5 x6 x7 x8 x9 x10 A hA S]
  subst hA
  rw [conv_g3 x0 x1 x2 x3 x4 x5 x6 _ _ S.lx3 S.lh3, wp_at_2, bg_at_3]
  exact regroup_peep _ _ _ _ _ _ _ _

/-- The output gate. -/
theorem outGate_at (n : Fin 10000) (j : Fin 64) :
    val_main_v441 (F := Ideal) x0 x1 x2 x3 x4 x5 x6 x7 x8 (ix2 n j) = Spec.outGate A n j := by
  rw [val_main_v441_apply, val_main_v440_apply, val_main_cst_69_apply, val_main_v439_apply, val_main_v438_apply,
    val_main_cst_68_apply, val_main_v437_apply, val_main_v436_apply, pre3_at x0 x1 x2 x3 x4 x5 x6 x7 x8 x9 x10 A hA S]
  simp only [Ideal.hostDivf_def, Ideal.ofBits_def, Ideal.addf_def, Ideal.hostUnary_exp_def, Ideal.hostNegf_def,
    Ideal.negf_def, one_f32]
  rfl

/-- The rectified hidden state. -/
theorem hidden_at (n : Fin 10000) (j : Fin 64) :
    val_main_v444 (F := Ideal) x0 x1 x2 x3 x4 x5 x6 x7 x8 (ix2 n j) = Spec.hidden A n j := by
  rw [val_main_v444_apply, val_main_v443_apply, val_main_v442_apply, val_main_call3_v0_apply, val_main_call3_cst_apply,
    outGate_at x0 x1 x2 x3 x4 x5 x6 x7 x8 x9 x10 A hA S, cellNew_at x0 x1 x2 x3 x4 x5 x6 x7 x8 x9 x10 A hA S]
  simp only [Ideal.ofBits_def, zero_f32]
  rfl

/-- The first result: the read-out of the rectified hidden state, at every index. -/
theorem out_at (i : S10000x10.Idx) :
    val_main_v448 (F := Ideal) x0 x1 x2 x3 x4 x5 x6 x7 x8 x9 x10 i = Spec.outArr A i := by
  obtain ⟨n, k, rfl⟩ : ∃ (n : Fin 10000) (k : Fin 10), i = ix2 n k := ⟨i 0, i 1, eq_ix2 i⟩
  have el : ∀ q : Fin 64, lidx_main_v445 (ix2 n k) q = ix2 n q := fun q =>
    funext fun a => Fin.ext (by match a with | ⟨0, _⟩ => rfl | ⟨1, _⟩ => rfl)
  have er : ∀ q : Fin 64, ridx_main_v445 (ix2 n k) q = ix2 q k := fun q =>
    funext fun a => Fin.ext (by match a with | ⟨0, _⟩ => rfl | ⟨1, _⟩ => rfl)
  have eb : idx_main_v446 (idx_main_v447 (ix2 n k)) = ix1 k :=
    funext fun a => Fin.ext (by match a with | ⟨0, _⟩ => rfl)
  rw [val_main_v448_apply, val_main_v445_apply, val_main_v447_apply, val_main_v446_apply, eb]
  simp only [el, er, hidden_at x0 x1 x2 x3 x4 x5 x6 x7 x8 x9 x10 A hA S]
  subst hA
  rfl

/-- The second result: the rectified hidden state stacked on the new cell state, at every index. -/
theorem state_at (i : S2x10000x64.Idx) :
    val_main_v451 (F := Ideal) x0 x1 x2 x3 x4 x5 x6 x7 x8 i = Spec.stateArr A i := by
  obtain ⟨s, n, j, rfl⟩ : ∃ (s : Fin 2) (n : Fin 10000) (j : Fin 64), i = ix3 s n j := ⟨i 0, i 1, i 2, eq_ix3 i⟩
  unfold val_main_v451
  by_cases hs : s = 0
  · subst hs
    have e : idx_main_v449 (ix3 (0 : Fin 1) n j) = ix2 n j :=
      funext fun a => Fin.ext (by match a with | ⟨0, _⟩ => rfl | ⟨1, _⟩ => rfl)
    rw [concatenate_pair_apply_left (0 : Fin S2x10000x64.rank) _ _ concatenates_S1x10000x64_S1x10000x64_S2x10000x64_d0
      (ix3 (0 : Fin 2) n j) rfl (ix3 (0 : Fin 1) n j)
      (fun b => by match b with | ⟨0, _⟩ => rfl | ⟨1, _⟩ => rfl | ⟨2, _⟩ => rfl),
      val_main_v449_apply, e, hidden_at x0 x1 x2 x3 x4 x5 x6 x7 x8 x9 x10 A hA S]
    rfl
  · have hs1 : s = 1 := Fin.ext (by have := s.isLt; have : s.val ≠ 0 := fun h => hs (Fin.ext h); show s.val = 1; omega)
    subst hs1
    have e : idx_main_v450 (ix3 (0 : Fin 1) n j) = ix2 n j :=
      funext fun a => Fin.ext (by match a with | ⟨0, _⟩ => rfl | ⟨1, _⟩ => rfl)
    rw [concatenate_pair_apply_right (0 : Fin S2x10000x64.rank) _ _ concatenates_S1x10000x64_S1x10000x64_S2x10000x64_d0
      (ix3 (1 : Fin 2) n j) rfl rfl (ix3 (0 : Fin 1) n j)
      (fun b hb => by match b with | ⟨0, _⟩ => exact absurd rfl hb | ⟨1, _⟩ => rfl | ⟨2, _⟩ => rfl) rfl,
      val_main_v450_apply, e, cellNew_at x0 x1 x2 x3 x4 x5 x6 x7 x8 x9 x10 A hA S]
    rfl

end

end Cert.Proof.RefSide

end
-- ==== Proof.RefGateOut.lean ====
/-
  The reference's two results are the specification's: the eight rescaled-Laplacian buffers are the
  specification's on the admitted domain, so the gates, the cell update, the read-out and the stacking read back
  as the specification's functions of the argument arrays.
-/
import proofs.«207992_g50208167690906_cont_8to1c4_731_36_alg».proof.Defs
import proofs.«207992_g50208167690906_cont_8to1c4_731_36_alg».proof.Proof.RefReadP
import proofs.«207992_g50208167690906_cont_8to1c4_731_36_alg».proof.Proof.RefLap
import proofs.«207992_g50208167690906_cont_8to1c4_731_36_alg».proof.Proof.RefGateCell

noncomputable section

namespace Cert.Proof.RefSide

open Cert.ReferenceIdeal Cert.ReferenceIdeal.Gen Cert.ReferenceIdeal.Read Idealize.ShloMosaic Idealize.ShloMosaic.ValueIdx
  Idealize.SL.Sem

/-- On the admitted domain the eight rescaled-Laplacian buffers hold the specification's rescaled Laplacians. -/
theorem lapSites_of_dom (x0 : (⟨S10000x128, .f32⟩ : BufTy).Contents (Elt Ideal)) (x1 : (⟨S2x320000, .i32⟩ : BufTy).Contents (Elt Ideal))
  (x2 : (⟨S2x10000x64, .f32⟩ : BufTy).Contents (Elt Ideal)) (x3 : (⟨S4x2x128x64, .f32⟩ : BufTy).Contents (Elt Ideal))
  (x4 : (⟨S4x2x64x64, .f32⟩ : BufTy).Contents (Elt Ideal)) (x5 x6 : (⟨S4x64, .f32⟩ : BufTy).Contents (Elt Ideal))
  (x7 : (⟨S3x64, .f32⟩ : BufTy).Contents (Elt Ideal)) (x8 : (⟨S4x64, .f32⟩ : BufTy).Contents (Elt Ideal))
  (x9 : (⟨S64x10, .f32⟩ : BufTy).Contents (Elt Ideal)) (x10 : (⟨S10, .f32⟩ : BufTy).Contents (Elt Ideal))
    (hd : DomA x0 x1 x2 x3 x4 x5 x6 x7 x8 x9 x10) (A : Spec.Args) (hA : A = Spec.Args.ofArrays x0 x1 x2 x3 x4 x5 x6 x7 x8 x9 x10) : LapSites x0 x1 x2 A where
  lx0 := fun n i => lhat_v83 x0 x1 x2 x3 x4 x5 x6 x7 x8 x9 x10 hd A hA (ix2 n i)
  lx1 := fun n i => lhat_v183 x0 x1 x2 x3 x4 x5 x6 x7 x8 x9 x10 hd A hA (ix2 n i)
  lx2 := fun n i => lhat_v283 x0 x1 x2 x3 x4 x5 x6 x7 x8 x9 x10 hd A hA (ix2 n i)
  lx3 := fun n i => lhat_v375 x0 x1 x2 x3 x4 x5 x6 x7 x8 x9 x10 hd A hA (ix2 n i)
  lh0 := fun n i => lhat_v124 x0 x1 x2 x3 x4 x5 x6 x7 x8 x9 x10 hd A hA (ix2 n i)
  lh1 := fun n i => lhat_v224 x0 x1 x2 x3 x4 x5 x6 x7 x8 x9 x10 hd A hA (ix2 n i)
  lh2 := fun n i => lhat_v324 x0 x1 x2 x3 x4 x5 x6 x7 x8 x9 x10 hd A hA (ix2 n i)
  lh3 := fun n i => lhat_v416 x0 x1 x2 x3 x4 x5 x6 x7 x8 x9 x10 hd A hA (ix2 n i)

/-- The reference's first result is the specification's read-out. -/
theorem ref_out0 (m' : (ℓ : Loc nD τ sig) → Buf (Elt Ideal) ℓ) (hpre : Cert.Pre_ReferenceIdeal m') (c : Dev nD) :
    Cert.ReferenceIdeal.Value.res_out0 (F := Ideal) m' c = Spec.outArr (argsR m' c) := by
  refine (val_main_v448_eq (F := Ideal) m' c).trans (funext fun i => ?_)
  exact out_at _ _ _ _ _ _ _ _ _ _ _ (argsR m' c) rfl
    (lapSites_of_dom _ _ _ _ _ _ _ _ _ _ _ (dom_of_pre m' hpre c) (argsR m' c) rfl) i

/-- The reference's second result is the specification's stacked state. -/
theorem ref_out1 (m' : (ℓ : Loc nD τ sig) → Buf (Elt Ideal) ℓ) (hpre : Cert.Pre_ReferenceIdeal m') (c : Dev nD) :
    Cert.ReferenceIdeal.Value.res_out1 (F := Ideal) m' c = Spec.stateArr (argsR m' c) := by
  refine (val_main_v451_eq (F := Ideal) m' c).trans (funext fun i => ?_)
  exact state_at _ _ _ _ _ _ _ _ _ _ _ (argsR m' c) rfl
    (lapSites_of_dom _ _ _ _ _ _ _ _ _ _ _ (dom_of_pre m' hpre c) (argsR m' c) rfl) i

end Cert.Proof.RefSide

end
-- ==== Proof.KI.Base.lean ====
/-
  The program as the SparseCore launch theorem sees it: its label table (the kernels' labels under the three
  TensorCore pipelines' and the two SparseCore calls' dispatch), the SparseCore configuration, the body table, the
  variants, the configuration's side facts, and the carrier of the ghost state (the handshakes' rounds beside the
  local transfers' counters). Generic in the float instance.
-/
import proofs.«207992_g50208167690906_cont_8to1c4_731_36_alg».proof.KernelIdeal
import proofs.«207992_g50208167690906_cont_8to1c4_731_36_alg».proof.Proof.Gen.KernelIdeal
import proofs.«207992_g50208167690906_cont_8to1c4_731_36_alg».proof.Proof.Gen.KernelIdeal.Skeleton
import proofs.«207992_g50208167690906_cont_8to1c4_731_36_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' under the three pipelines' and the SparseCore calls' dispatch. -/
abbrev ΛP : Labels := Pipeline.Sig Λ₀ (Fin 3) fun p => (pcfgs (F := F) p).Adm
/-- The two SparseCore calls: the histogram, then the edge aggregation. -/
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by
  match q with | 0 => rfl | 1 => rfl
theorem nSub_eq (q : Fin 2) : (K (F := F)).nSub q = 16 := by
  match q with | 0 => rfl | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ
/-- The pipelines' staging cells' rounds library: one copy for the three TensorCore calls. -/
abbrev UK : Type := URounds (GSem nD τ sig) Unit
/-- The ghost state's carrier: the handshakes' rounds, the staging cells' rounds, the local transfers' counters. -/
abbrev UU : Type := UH × (UK × Counters)

/-- The handshakes' component, embedded. -/
abbrev EH : Emb UH (MT nD τ sig (HIx 2) (Elt F) ℕ UU ℕ) := embL
/-- The staging cells' component, embedded. -/
def EP : Emb UK (MT nD τ sig (HIx 2) (Elt F) ℕ UU ℕ) := (Emb.inl : Emb UK (UK × Counters)).trans embR

instance EP_landsIn : (EP : Emb UK (MT nD τ sig (HIx 2) (Elt F) ℕ UU ℕ)).LandsIn (upEmb : UEmb _ (MT nD τ sig (HIx 2) (Elt F) ℕ UU ℕ)) := by
  unfold EP embR; infer_instance

end Cert.Proof.KI

end
-- ==== Proof.KI.MainOps.lean ====
import proofs.«207992_g50208167690906_cont_8to1c4_731_36_alg».proof.KernelIdeal
import proofs.«207992_g50208167690906_cont_8to1c4_731_36_alg».proof.Proof.Gen.KernelIdeal
import Idealize.ShloMosaic.Lib.StableHlo.Run

noncomputable section

namespace Cert.Proof.KI.MainOps

open Cert.KernelIdeal Cert.KernelIdeal.Gen Idealize.ShloMosaic Idealize.ShloMosaic.TcCoe Idealize.SL.Sem Idealize.ShloMosaic.StableHlo

variable {F : FTy → Type} [FloatOps F]

/-- Host stretch 0 of @main: 8 operations. -/
abbrev ops0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg2 main_v4 ((extractStridedSlice S1x10000x64 ![0, 0, 0] · slices_S2x10000x64_S1x10000x64_0_0_0) : (⟨S2x10000x64, .f32⟩ : BufTy).Contents (Elt F) → (⟨S1x10000x64, .f32⟩ : BufTy).Contents (Elt F)),
    StableHlo.reshape main_v4 main_v5 rfl shapeCasts_S1x10000x64_S10000x64,
    StableHlo.unary main_arg2 main_v6 ((extractStridedSlice S1x10000x64 ![1, 0, 0] · slices_S2x10000x64_S1x10000x64_1_0_0) : (⟨S2x10000x64, .f32⟩ : BufTy).Contents (Elt F) → (⟨S1x10000x64, .f32⟩ : BufTy).Contents (Elt F)),
    StableHlo.reshape main_v6 main_v7 rfl shapeCasts_S1x10000x64_S10000x64 ]

/-- Host stretch 1 of @main: 5 operations. -/
abbrev ops1 : List (HloOp τ sig (Elt F)) :=
  [ StableHlo.reshape main_v8 main_v9 rfl shapeCasts_S32x1x10240_S32x10240,
    StableHlo.nullary main_cst (constant S_ .f32 0x00000000#32),
    StableHlo.binary main_v9 main_cst main_v10 ((fun x v => Host.reduceAdd x v reducesTo_S32x10240_S10240_d0 h_S_) : (⟨S32x10240, .f32⟩ : BufTy).Contents (Elt F) → (⟨S_, .f32⟩ : BufTy).Contents (Elt F) → (⟨S10240, .f32⟩ : BufTy).Contents (Elt F)),
    StableHlo.unary main_v10 main_v11 ((extractStridedSlice S10000 ![0] · slices_S10240_S10000_0) : (⟨S10240, .f32⟩ : BufTy).Contents (Elt F) → (⟨S10000, .f32⟩ : BufTy).Contents (Elt F)),
    StableHlo.unary main_v11 main_v12 (broadcastInDim S10000x1 ![0] bcast_S10000_S10000x1_0 : (⟨S10000, .f32⟩ : BufTy).Contents (Elt F) → (⟨S10000x1, .f32⟩ : BufTy).Contents (Elt F)) ]

/-- Host stretch 2 of @main: 5 operations. -/
abbrev ops2 : List (HloOp τ sig (Elt F)) :=
  [ StableHlo.binary main_v13_0 main_v13_1 main_v14 ((fun a b => concatenate S10000x192 1 [⟨S10000x128, a⟩, ⟨S10000x64, b⟩] concatenates_S10000x128_S10000x64_S10000x192_d1) : (⟨S10000x128, .f32⟩ : BufTy).Contents (Elt F) → (⟨S10000x64, .f32⟩ : BufTy).Contents (Elt F) → (⟨S10000x192, .f32⟩ : BufTy).Contents (Elt F)),
    StableHlo.unary main_v14 main_v15 ((transpose S192x10000 [1, 0] · transposes_S10000x192_S192x10000_1_0) : (⟨S10000x192, .f32⟩ : BufTy).Contents (Elt F) → (⟨S192x10000, .f32⟩ : BufTy).Contents (Elt F)),
    StableHlo.reshape main_v15 main_v16 rfl shapeCasts_S192x10000_S192x1x10000,
    StableHlo.reshape main_v1 main_v17 rfl shapeCasts_S320000_S2500x128,
    StableHlo.reshape main_v3 main_v18 rfl shapeCasts_S320000_S2500x128 ]

/-- Host stretch 3 of @main: 1 operations. -/
abbrev ops3 : List (HloOp τ sig (Elt F)) :=
  [ StableHlo.reshape main_v19 main_v20 rfl shapeCasts_S2500x128_S320000 ]

/-- Host stretch 4 of @main: 24 operations. -/
abbrev ops4 : List (HloOp τ sig (Elt F)) :=
  [ StableHlo.reshape main_v21 main_v22 rfl shapeCasts_S192x1x10000_S192x10000,
    StableHlo.unary main_v22 main_v23 ((transpose S10000x192 [1, 0] · transposes_S192x10000_S10000x192_1_0) : (⟨S192x10000, .f32⟩ : BufTy).Contents (Elt F) → (⟨S10000x192, .f32⟩ : BufTy).Contents (Elt F)),
    StableHlo.unary main_v23 main_v24 ((extractStridedSlice S10000x128 ![0, 0] · slices_S10000x192_S10000x128_0_0) : (⟨S10000x192, .f32⟩ : BufTy).Contents (Elt F) → (⟨S10000x128, .f32⟩ : BufTy).Contents (Elt F)),
    StableHlo.unary main_v23 main_v25 ((extractStridedSlice S10000x64 ![0, 128] · slices_S10000x192_S10000x64_0_128) : (⟨S10000x192, .f32⟩ : BufTy).Contents (Elt F) → (⟨S10000x64, .f32⟩ : BufTy).Contents (Elt F)),
    StableHlo.unary main_arg3 main_v26 ((extractStridedSlice S4x1x128x64 ![0, 0, 0, 0] · slices_S4x2x128x64_S4x1x128x64_0_0_0_0) : (⟨S4x2x128x64, .f32⟩ : BufTy).Contents (Elt F) → (⟨S4x1x128x64, .f32⟩ : BufTy).Contents (Elt F)),
    StableHlo.reshape main_v26 main_v27 rfl shapeCasts_S4x1x128x64_S4x128x64,
    StableHlo.unary main_v27 main_v28 ((transpose S128x4x64 [1, 0, 2] · transposes_S4x128x64_S128x4x64_1_0_2) : (⟨S4x128x64, .f32⟩ : BufTy).Contents (Elt F) → (⟨S128x4x64, .f32⟩ : BufTy).Contents (Elt F)),
    StableHlo.reshape main_v28 main_v29 rfl shapeCasts_S128x4x64_S128x256,
    StableHlo.unary main_arg3 main_v30 ((extractStridedSlice S4x1x128x64 ![0, 1, 0, 0] · slices_S4x2x128x64_S4x1x128x64_0_1_0_0) : (⟨S4x2x128x64, .f32⟩ : BufTy).Contents (Elt F) → (⟨S4x1x128x64, .f32⟩ : BufTy).Contents (Elt F)),
    StableHlo.reshape main_v30 main_v31 rfl shapeCasts_S4x1x128x64_S4x128x64,
    StableHlo.unary main_v31 main_v32 ((transpose S128x4x64 [1, 0, 2] · transposes_S4x128x64_S128x4x64_1_0_2) : (⟨S4x128x64, .f32⟩ : BufTy).Contents (Elt F) → (⟨S128x4x64, .f32⟩ : BufTy).Contents (Elt F)),
    StableHlo.reshape main_v32 main_v33 rfl shapeCasts_S128x4x64_S128x256,
    StableHlo.unary main_arg4 main_v34 ((extractStridedSlice S4x1x64x64 ![0, 0, 0, 0] · slices_S4x2x64x64_S4x1x64x64_0_0_0_0) : (⟨S4x2x64x64, .f32⟩ : BufTy).Contents (Elt F) → (⟨S4x1x64x64, .f32⟩ : BufTy).Contents (Elt F)),
    StableHlo.reshape main_v34 main_v35 rfl shapeCasts_S4x1x64x64_S4x64x64,
    StableHlo.unary main_v35 main_v36 ((transpose S64x4x64 [1, 0, 2] · transposes_S4x64x64_S64x4x64_1_0_2) : (⟨S4x64x64, .f32⟩ : BufTy).Contents (Elt F) → (⟨S64x4x64, .f32⟩ : BufTy).Contents (Elt F)),
    StableHlo.reshape main_v36 main_v37 rfl shapeCasts_S64x4x64_S64x256,
    StableHlo.unary main_arg4 main_v38 ((extractStridedSlice S4x1x64x64 ![0, 1, 0, 0] · slices_S4x2x64x64_S4x1x64x64_0_1_0_0) : (⟨S4x2x64x64, .f32⟩ : BufTy).Contents (Elt F) → (⟨S4x1x64x64, .f32⟩ : BufTy).Contents (Elt F)),
    StableHlo.reshape main_v38 main_v39 rfl shapeCasts_S4x1x64x64_S4x64x64,
    StableHlo.unary main_v39 main_v40 ((transpose S64x4x64 [1, 0, 2] · transposes_S4x64x64_S64x4x64_1_0_2) : (⟨S4x64x64, .f32⟩ : BufTy).Contents (Elt F) → (⟨S64x4x64, .f32⟩ : BufTy).Contents (Elt F)),
    StableHlo.reshape main_v40 main_v41 rfl shapeCasts_S64x4x64_S64x256,
    StableHlo.binary main_arg5 main_arg6 main_v42 (addf : (⟨S4x64, .f32⟩ : BufTy).Contents (Elt F) → (⟨S4x64, .f32⟩ : BufTy).Contents (Elt F) → (⟨S4x64, .f32⟩ : BufTy).Contents (Elt F)),
    StableHlo.binary main_v42 main_arg8 main_v43 (addf : (⟨S4x64, .f32⟩ : BufTy).Contents (Elt F) → (⟨S4x64, .f32⟩ : BufTy).Contents (Elt F) → (⟨S4x64, .f32⟩ : BufTy).Contents (Elt F)),
    StableHlo.reshape main_v43 main_v44 rfl shapeCasts_S4x64_S1x256,
    StableHlo.reshape main_arg10 main_v45 rfl shapeCasts_S10_S1x10 ]

/-- Host stretch 5 of @main: 3 operations. -/
abbrev ops5 : List (HloOp τ sig (Elt F)) :=
  [ StableHlo.unary main_v46_1 main_v47 (broadcastInDim S1x10000x64 ![1, 2] bcast_S10000x64_S1x10000x64_1_2 : (⟨S10000x64, .f32⟩ : BufTy).Contents (Elt F) → (⟨S1x10000x64, .f32⟩ : BufTy).Contents (Elt F)),
    StableHlo.unary main_v46_2 main_v48 (broadcastInDim S1x10000x64 ![1, 2] bcast_S10000x64_S1x10000x64_1_2 : (⟨S10000x64, .f32⟩ : BufTy).Contents (Elt F) → (⟨S1x10000x64, .f32⟩ : BufTy).Contents (Elt F)),
    StableHlo.binary main_v47 main_v48 main_v49 ((fun a b => concatenate S2x10000x64 0 [⟨S1x10000x64, a⟩, ⟨S1x10000x64, b⟩] concatenates_S1x10000x64_S1x10000x64_S2x10000x64_d0) : (⟨S1x10000x64, .f32⟩ : BufTy).Contents (Elt F) → (⟨S1x10000x64, .f32⟩ : BufTy).Contents (Elt F) → (⟨S2x10000x64, .f32⟩ : BufTy).Contents (Elt F)) ]

-- the calls between the stretches, in order: sc.run d 0 ; Prog.lift (.customCall (SparseCore.inner (Pipeline.entry 0)) ()) ; Prog.lift (.customCall (SparseCore.inner (Pipeline.entry 1)) ()) ; sc.run d 1 ; Prog.lift (.customCall (SparseCore.inner (Pipeline.entry 2)) ())

end Cert.Proof.KI.MainOps

end
-- ==== Proof.KI.HistoVal.lean ====
/-
  The value of the per-tile histogram kernel, as pure functions of the row words: tile `w` reads words
  `10000 w … 10000 w + 9999` of the row array, sixteen at a trip, and at each trip adds one, lane by lane in
  ascending order, onto its 10240-word accumulator at each word read; the accumulator starts at zero.
  `histTile` is the accumulator after the 625 trips; `histArr` the 32 tiles' accumulators as one array.
-/
import Idealize.ShloMosaic.PureOps
import Idealize.ShloMosaic.Lib.ValueIdx

noncomputable section

namespace Cert.Proof.KI.Histo

open Idealize.ShloMosaic Idealize.ShloMosaic.ValueIdx

variable {F : FTy → Type} [FloatOps F]

/-- The row words: 320000. -/
abbrev SR : Shape := ⟨1, ![320000]⟩
/-- A trip's sixteen lanes. -/
abbrev SL : Shape := ⟨1, ![16]⟩
/-- A tile's accumulator: 10240 words. -/
abbrev SH : Shape := ⟨1, ![10240]⟩
/-- The result: one accumulator per tile. -/
abbrev SO : Shape := ⟨3, ![32, 1, 10240]⟩

/-- Every row word names an element of an accumulator. -/
def RowOK (rowv : IVec SR 32) : Prop := ∀ e, (rowv e).toNat < 10240

/-- What tile `w` reads at trip `n`: words `10000 w + 16 n … + 15` of the row words. -/
def chunk (rowv : IVec SR 32) (w n : ℕ) : IVec SL 32 :=
  fun x => rowv (ix1 ⟨(10000 * w + 16 * n + (x 0).val) % 320000, Nat.mod_lt _ (by decide)⟩)

/-- Every word of a chunk names an element of the accumulator. -/
theorem chunk_inb {rowv : IVec SR 32} (hok : RowOK rowv) (w n : ℕ) :
    ∀ a x, ((![chunk rowv w n] : Fin 1 → IVec SL 32) a x).toNat < SH.size a := by
  intro a x
  obtain rfl : a = 0 := Subsingleton.elim _ _
  exact hok _

/-- Sixteen ones: what a trip adds. -/
def ones : Vec F SL .f32 := broadcast SL (Scalar.ofBits .f32 0x3F800000#32 : F .f32)
/-- The accumulator before the first trip. -/
def zeros : Vec F SH .f32 := broadcast SH (Scalar.ofBits .f32 0x00000000#32 : F .f32)

/-- One trip on the accumulator `acc`: one added at each of the chunk's sixteen words, lanes in ascending order. -/
def step (rowv : IVec SR 32) (hok : RowOK rowv) (w : ℕ) (acc : Vec F SH .f32) (n : ℕ) : Vec F SH .f32 :=
  storeIdx acc ![chunk rowv w n] (ones (F := F)) (fun _ => 1#1) true (chunk_inb hok w n)

/-- Tile `w`'s accumulator after its first `n` trips. -/
def histN (rowv : IVec SR 32) (hok : RowOK rowv) (w : ℕ) : ℕ → Vec F SH .f32
  | 0 => zeros
  | n + 1 => step rowv hok w (histN rowv hok w n) n

theorem histN_succ (rowv : IVec SR 32) (hok : RowOK rowv) (w n : ℕ) :
    histN (F := F) rowv hok w (n + 1) = step rowv hok w (histN rowv hok w n) n := rfl

/-- Tile `w`'s accumulator after all its 625 trips: what it copies out. -/
def histTile (rowv : IVec SR 32) (hok : RowOK rowv) (w : ℕ) : Vec F SH .f32 := histN rowv hok w 625

/-- The same as a left fold over the trips in order. -/
theorem histN_eq_foldl (rowv : IVec SR 32) (hok : RowOK rowv) (w n : ℕ) :
    histN (F := F) rowv hok w n = (List.range n).foldl (step rowv hok w) zeros := by
  induction n with
  | zero => rfl
  | succ n ih => rw [histN_succ, ih, List.range_succ, List.foldl_append]; rfl

/-- The whole result: row `t` of it is tile `t`'s accumulator. -/
def histArr (rowv : IVec SR 32) (hok : RowOK rowv) : Vec F SO .f32 :=
  fun idx => histTile rowv hok (idx 0).val (ix1 (⟨(idx 2).val, (idx 2).isLt⟩ : Fin 10240))

theorem histArr_apply (rowv : IVec SR 32) (hok : RowOK rowv) (t : Fin 32) (u : Fin 1) (j : Fin 10240) :
    histArr (F := F) rowv hok (ix3 t u j) = histTile rowv hok t.val (ix1 j) := rfl

end Cert.Proof.KI.Histo
-- ==== Proof.KI.EdgeVal.lean ====
/-
  What the edge kernel leaves in one accumulator row, as a pure function of the packed edge words and of the
  feature row it gathers from. A packed word carries a target node in its bits above 14 and a source node in its
  low 14 bits. The words are taken sixteen at a time, in order; for each group of sixteen the feature row is read
  at the sixteen source nodes and the sixteen values are added onto the accumulator at the sixteen target nodes,
  lowest lane first. The row the kernel ends with is this step folded over all 20000 groups from the zero row.
-/
import Idealize.ShloMosaic.PureOps
import Idealize.ShloMosaic.Lib.ValueIdx

noncomputable section

namespace Cert.Proof.KI.Edge

open Idealize.ShloMosaic Idealize.ShloMosaic.ValueIdx

variable {F : FTy → Type} [FloatOps F]

/-- The packed edge words, one group of sixteen lanes, one row over the nodes. -/
abbrev SP : Shape := ⟨1, ![320000]⟩
abbrev SL : Shape := ⟨1, ![16]⟩
abbrev SN : Shape := ⟨1, ![10000]⟩

/-- The target nodes of sixteen packed words: each word shifted right by 14. -/
def row16 (w : IVec SL 32) : IVec SL 32 := shrui w (broadcast SL 14#32)
/-- The source nodes of sixteen packed words: each word's low 14 bits. -/
def col16 (w : IVec SL 32) : IVec SL 32 := andi w (broadcast SL 16383#32)

/-- Every packed word names two nodes. -/
def PackedOK (pk : IVec SP 32) : Prop := ∀ e, (pk e >>> 14).toNat < 10000 ∧ (pk e &&& 16383#32).toNat < 10000

/-- Group `n` of the packed words: words `16 n` to `16 n + 15` (zero past the end, which no group below 20000 reaches). -/
def chunk (pk : IVec SP 32) (n : ℕ) : IVec SL 32 :=
  fun x => if h : 16 * n + (x 0).val < 320000 then pk (ix1 ⟨16 * n + (x 0).val, h⟩) else 0

theorem row16_apply (w : IVec SL 32) (x : SL.Idx) : row16 w x = w x >>> 14 := by
  show IntOp.shrui .vector (w x) (14#32) = w x >>> 14
  unfold IntOp.shrui
  rw [if_pos (by decide)]
  rfl

theorem col16_apply (w : IVec SL 32) (x : SL.Idx) : col16 w x = w x &&& 16383#32 := rfl

/-- The targets of every group are nodes. -/
theorem row_inb {pk : IVec SP 32} (hpk : PackedOK pk) (n : ℕ) :
    ∀ (a : Fin SN.rank) (x : SL.Idx), ((![row16 (chunk pk n)] : Fin SN.rank → IVec SL 32) a x).toNat < SN.size a := by
  intro a x
  obtain rfl : a = 0 := Subsingleton.elim _ _
  show (row16 (chunk pk n) x).toNat < 10000
  rw [row16_apply]
  unfold chunk
  split
  · exact (hpk _).1
  · decide

/-- The sources of every group are nodes. -/
theorem col_inb {pk : IVec SP 32} (hpk : PackedOK pk) (n : ℕ) :
    ∀ (a : Fin SN.rank) (x : SL.Idx), ((![col16 (chunk pk n)] : Fin SN.rank → IVec SL 32) a x).toNat < SN.size a := by
  intro a x
  obtain rfl : a = 0 := Subsingleton.elim _ _
  show (col16 (chunk pk n) x).toNat < 10000
  rw [col16_apply]
  unfold chunk
  split
  · exact (hpk _).2
  · decide

/-- One group's step: the feature row read at the sources, added onto the accumulator at the targets. -/
def step (vrow acc : Vec F SN .f32) (w : IVec SL 32)
    (hr : ∀ (a : Fin SN.rank) (x : SL.Idx), ((![row16 w] : Fin SN.rank → IVec SL 32) a x).toNat < SN.size a)
    (hc : ∀ (a : Fin SN.rank) (x : SL.Idx), ((![col16 w] : Fin SN.rank → IVec SL 32) a x).toNat < SN.size a) : Vec F SN .f32 :=
  storeIdx acc ![row16 w] (loadIdx vrow ![col16 w] hc) (fun _ => 1#1) true hr

/-- The zero row the accumulators start from. -/
def zeroRow : Vec F SN .f32 := broadcast SN (Scalar.ofBits .f32 0x00000000#32)

/-- The accumulator after the first `n` groups. -/
def aggN (pk : IVec SP 32) (hpk : PackedOK pk) (vrow : Vec F SN .f32) : ℕ → Vec F SN .f32
  | 0 => zeroRow
  | n + 1 => step vrow (aggN pk hpk vrow n) (chunk pk n) (row_inb hpk n) (col_inb hpk n)

/-- The row the kernel ends with: all 20000 groups. -/
def aggRow (pk : IVec SP 32) (hpk : PackedOK pk) (vrow : Vec F SN .f32) : Vec F SN .f32 := aggN pk hpk vrow 20000

end Cert.Proof.KI.Edge

end
-- ==== Proof.KI.RegionVal.lean ====
import proofs.«207992_g50208167690906_cont_8to1c4_731_36_alg».proof.Proof.Gen.KernelIdeal.Skeleton

/-!
The three TensorCore regions' output arrays as pure whole-array functions of their input arrays.

A region with a grid of ten points moves row blocks: point `t` reads rows `[1000 t, 1000 t + 1000)` of every
blocked input (all columns), the small operands whole, and writes the same rows of every output. An output
array is therefore stated blockwise: the element at row `r` is element `r % 1000` of the body's payload over
row block `r / 1000` of the inputs. The gridless region moves its one block, the whole array.
-/

noncomputable section

namespace Cert.Proof.KI.Region

open Cert.KernelIdeal Cert.KernelIdeal.Gen
open Idealize.ShloMosaic

variable {F : FTy → Type} [FloatOps F]

/-- Rows `[t R, t R + R)`, every column, of a `[N, C]` array, as a rectangle. -/
abbrev rowRect {N C : Nat} (R t : Nat) (h : t * R + R ≤ N) : Rect (⟨2, ![N, C]⟩ : Shape) :=
  Rect.unit ![t * R, 0] ![R, C] (Rect.inb₂ (show t * R + R ≤ N from h) (show 0 + C ≤ C from (Nat.zero_add C).le))

/-- Row block `t` (of `R` rows) of a `[N, C]` array. -/
def rowBlk {α : Type} {N C : Nat} (R t : Nat) (h : t * R + R ≤ N) (x : (⟨2, ![N, C]⟩ : Shape).Idx → α) :
    (⟨2, ![R, C]⟩ : Shape).Idx → α :=
  fun j => x ((rowRect R t h).emb j)

/-- A row index's position within its block of `R` rows. -/
def inBlk {N C : Nat} (R : Nat) (hR : 0 < R) (i : (⟨2, ![N, C]⟩ : Shape).Idx) : (⟨2, ![R, C]⟩ : Shape).Idx
  | ⟨0, _⟩ => ⟨(i 0).val % R, Nat.mod_lt _ hR⟩
  | ⟨1, _⟩ => i 1

/-- A `[N, C]` array given block by block: the element at row `r` is element `r % R` of block `r / R`. -/
def blockwise {β : Type} {N C : Nat} (R : Nat) (hR : 0 < R) (hN : ∀ r, r < N → r / R * R + R ≤ N)
    (f : (t : Nat) → t * R + R ≤ N → (⟨2, ![R, C]⟩ : Shape).Idx → β) : (⟨2, ![N, C]⟩ : Shape).Idx → β :=
  fun i => f ((i 0).val / R) (hN _ (i 0).isLt) (inBlk R hR i)

theorem blocks10 : ∀ r, r < 10000 → r / 1000 * 1000 + 1000 ≤ 10000 := fun r hr => by omega

/-! ## Region 0 (`_scale`) -/

/-- Result 0 of `_scale`: `x` scaled by the inverse square root of the positive degrees, block by block. -/
def scale0 (x : FVec F S10000x128 .f32) (deg : FVec F S10000x1 .f32) : FVec F S10000x128 .f32 :=
  blockwise 1000 (by decide) blocks10 fun t h => k1_pay2 (rowBlk 1000 t h deg) (rowBlk 1000 t h x)

/-- Result 1 of `_scale`: `hs` scaled likewise. -/
def scale1 (hs : FVec F S10000x64 .f32) (deg : FVec F S10000x1 .f32) : FVec F S10000x64 .f32 :=
  blockwise 1000 (by decide) blocks10 fun t h => k1_pay3 (rowBlk 1000 t h deg) (rowBlk 1000 t h hs)

/-! ## Region 1 (`_pack`) -/

/-- The result of `_pack`: `row * 16384 + col`, on the whole array (the one block). -/
def pack (r2 c2 : IVec S2500x128 32) : IVec S2500x128 32 := k2_pay1 (F := F) r2 c2

/-! ## Region 2 (`_dense`) -/

section Dense

variable (x : FVec F S10000x128 .f32) (hs cs : FVec F S10000x64 .f32) (agg0 : FVec F S10000x128 .f32)
  (agg1 : FVec F S10000x64 .f32) (deg : FVec F S10000x1 .f32) (wx0 wx1 : FVec F S128x256 .f32)
  (wh0 wh1 : FVec F S64x256 .f32) (btot : FVec F S1x256 .f32) (wp : FVec F S3x64 .f32)
  (wout : FVec F S64x10 .f32) (bout : FVec F S1x10 .f32)

/-- Row `k` of the peephole weights, as the body loads it. -/
def wpRow0 : FVec F S1x64 .f32 := fun j => wp ((Rect.unit (s := S3x64) ![0, 0] S1x64.size inb_S3x64_S1x64_0_0).emb j)
def wpRow1 : FVec F S1x64 .f32 := fun j => wp ((Rect.unit (s := S3x64) ![1, 0] S1x64.size inb_S3x64_S1x64_1_0).emb j)
def wpRow2 : FVec F S1x64 .f32 := fun j => wp ((Rect.unit (s := S3x64) ![2, 0] S1x64.size inb_S3x64_S1x64_2_0).emb j)

/-- The new cell state of row block `t`. -/
def denseC (t : Nat) (h : t * 1000 + 1000 ≤ 10000) : FVec F S1000x64 .f32 :=
  k4_pay13 (rowBlk 1000 t h x) (k4_pay7 (rowBlk 1000 t h hs)) (k4_pay8 (rowBlk 1000 t h cs))
    (k4_pay9 (rowBlk 1000 t h deg) (rowBlk 1000 t h x) (rowBlk 1000 t h agg0))
    (k4_pay10 (rowBlk 1000 t h deg) (rowBlk 1000 t h hs) (rowBlk 1000 t h agg1))
    (k4_pay11 wx0) (constant S1000x256 .f32 0x00000000#32) wx1 wh0 wh1 btot (wpRow0 wp) (wpRow1 wp)

/-- The pre-activation hidden state of row block `t` (what both the new hidden state and the read-out take). -/
def denseH (t : Nat) (h : t * 1000 + 1000 ≤ 10000) : FVec F S1000x64 .f32 :=
  k4_pay14 (rowBlk 1000 t h x) (k4_pay7 (rowBlk 1000 t h hs)) (k4_pay8 (rowBlk 1000 t h cs))
    (k4_pay9 (rowBlk 1000 t h deg) (rowBlk 1000 t h x) (rowBlk 1000 t h agg0))
    (k4_pay10 (rowBlk 1000 t h deg) (rowBlk 1000 t h hs) (rowBlk 1000 t h agg1))
    (k4_pay11 wx0) (constant S1000x256 .f32 0x00000000#32) wx1 wh0 wh1 btot (wpRow0 wp) (wpRow1 wp) (wpRow2 wp)

/-- Result 0 of `_dense`: the read-out, `[10000, 10]`. -/
def dense0 : FVec F S10000x10 .f32 :=
  blockwise 1000 (by decide) blocks10 fun t h =>
    k4_pay2 (denseH x hs cs agg0 agg1 deg wx0 wx1 wh0 wh1 btot wp t h) (Scalar.ofBits .f32 0x00000000#32) wout bout

/-- Result 1 of `_dense`: the new hidden state, `[10000, 64]`. -/
def dense1 : FVec F S10000x64 .f32 :=
  blockwise 1000 (by decide) blocks10 fun t h =>
    k4_pay1 (denseH x hs cs agg0 agg1 deg wx0 wx1 wh0 wh1 btot wp t h) (Scalar.ofBits .f32 0x00000000#32)

/-- Result 2 of `_dense`: the new cell state, `[10000, 64]`. -/
def dense2 : FVec F S10000x64 .f32 :=
  blockwise 1000 (by decide) blocks10 fun t h => denseC x hs cs agg0 agg1 deg wx0 wx1 wh0 wh1 btot wp t h

end Dense

/-! ## Reading a block back -/

/-- Block `t` of a blockwise array is the block it was given. -/
theorem rowBlk_blockwise {β : Type} {N C : Nat} (R : Nat) (hR : 0 < R) (hN : ∀ r, r < N → r / R * R + R ≤ N)
    (f : (t : Nat) → t * R + R ≤ N → (⟨2, ![R, C]⟩ : Shape).Idx → β) (t : Nat) (h : t * R + R ≤ N) :
    rowBlk R t h (blockwise R hR hN f) = f t h := by
  funext j
  unfold rowBlk blockwise
  have h0 : (((rowRect (N := N) (C := C) R t h).emb j) 0).val = t * R + (j 0).val := by
    rw [Rect.emb_apply]; show t * R + 1 * (j 0).val = _; omega
  have hj : (j 0).val < R := (j 0).isLt
  have hdiv : (t * R + (j 0).val) / R = t := by
    rw [Nat.mul_comm, Nat.mul_add_div hR, Nat.div_eq_of_lt hj, Nat.add_zero]
  have hmod : (t * R + (j 0).val) % R = (j 0).val := by
    rw [Nat.mul_comm, Nat.mul_add_mod, Nat.mod_eq_of_lt hj]
  have hin : inBlk R hR ((rowRect (N := N) (C := C) R t h).emb j) = j := by
    funext a
    match a with
    | ⟨0, _⟩ => exact Fin.ext (by show (((rowRect (N := N) (C := C) R t h).emb j) 0).val % R = (j 0).val; rw [h0, hmod])
    | ⟨1, _⟩ => exact Fin.ext (by show (((rowRect (N := N) (C := C) R t h).emb j) 1).val = (j 1).val; rw [Rect.emb_apply]; show 0 + 1 * (j 1).val = _; omega)
  rw [hin]
  have ht : (((rowRect (N := N) (C := C) R t h).emb j) 0).val / R = t := by rw [h0, hdiv]
  have key : ∀ (t' : Nat) (hp : t' * R + R ≤ N), t' = t → f t' hp j = f t h j := by
    intro t' hp e; subst e; rfl
  exact key _ _ ht

end Cert.Proof.KI.Region

end
-- ==== Proof.KI.Chain.lean ====
/-
  The contents of the TensorCore's arrays along @main, as a chain of valuations: the launch contents; after each
  straight line of host operations, the line's fold over the valuation before it; after each call, the valuation
  before it rewritten at the call's result arrays with the call's value as a pure function of its operand arrays
  there. Pure definitions: no program logic.
-/
import proofs.«207992_g50208167690906_cont_8to1c4_731_36_alg».proof.Proof.KI.MainOps
import proofs.«207992_g50208167690906_cont_8to1c4_731_36_alg».proof.Proof.KI.HistoVal
import proofs.«207992_g50208167690906_cont_8to1c4_731_36_alg».proof.Proof.KI.EdgeVal
import proofs.«207992_g50208167690906_cont_8to1c4_731_36_alg».proof.Proof.KI.RegionVal

noncomputable section

namespace Cert.Proof.KI

open Cert.KernelIdeal Cert.KernelIdeal.Gen

open Idealize.ShloMosaic Idealize.SL.Sem
open Idealize.ShloMosaic.StableHlo (after)
open Idealize.ShloMosaic.ValueIdx
open Cert.Proof.KI.MainOps

variable {F : FTy → Type} [FloatOps F]

/-- A TensorCore reference as a buffer of the device. -/
abbrev dr (r : Ref sig .tc) : DevRef τ sig := Proc.devRef .tc r

/-! ## The edge call's whole result -/

/-- Row `r` of a `[192, 1, 10000]` array. -/
def rowOf (a : Vec F S192x1x10000 .f32) (r : Fin 192) : Vec F Edge.SN .f32 := fun j => a (ix3 r 0 (j 0))

/-- The edge call's result array: its row `r` is the aggregation, over all the packed words, of row `r` of the
    feature array. -/
def aggArr (pk : IVec Edge.SP 32) (hpk : Edge.PackedOK pk) (vpt : Vec F S192x1x10000 .f32) : Vec F S192x1x10000 .f32 :=
  fun idx => Edge.aggRow pk hpk (rowOf vpt (idx 0)) (ix1 (idx 2))

theorem aggArr_apply (pk : IVec Edge.SP 32) (hpk : Edge.PackedOK pk) (vpt : Vec F S192x1x10000 .f32) (r : Fin 192) (u : Fin 1) (j : Fin 10000) :
    aggArr pk hpk vpt (ix3 r u j) = Edge.aggRow pk hpk (rowOf vpt r) (ix1 j) := rfl

/-! ## The chain -/

variable (m : (ℓ : Loc nD τ sig) → Buf (Elt F) ℓ) (d : Dev nD)

/-- The launch contents of device `d`'s arrays. -/
def W0 : Valuation τ sig (Elt F) := fun b => m (d, b)

/-- After the first line: the two rows of the edge array and the two states, sliced out. -/
def W1 : Valuation τ sig (Elt F) := after ops0 (W0 m d)

/-- The row words the histogram call reads. -/
abbrev rowWords : IVec Histo.SR 32 := W1 m d (dr main_v1)

/-- After the histogram call: its result array at the 32 tiles' histograms of the row words. -/
def W2 (hr : Histo.RowOK (rowWords m d)) : Valuation τ sig (Elt F) :=
  Function.update (W1 m d) (dr main_v8) (Histo.histArr (F := F) (rowWords m d) hr)

def W3 (hr : Histo.RowOK (rowWords m d)) : Valuation τ sig (Elt F) := after ops1 (W2 m d hr)

/-- After the scaling region: its two results. -/
def W4 (hr : Histo.RowOK (rowWords m d)) : Valuation τ sig (Elt F) :=
  Function.update
    (Function.update (W3 m d hr) (dr main_v13_0) (Region.scale0 (W3 m d hr (dr main_arg0)) (W3 m d hr (dr main_v12))))
    (dr main_v13_1) (Region.scale1 (W3 m d hr (dr main_v5)) (W3 m d hr (dr main_v12)))

def W5 (hr : Histo.RowOK (rowWords m d)) : Valuation τ sig (Elt F) := after ops2 (W4 m d hr)

/-- After the packing region: its result. -/
def W6 (hr : Histo.RowOK (rowWords m d)) : Valuation τ sig (Elt F) :=
  Function.update (W5 m d hr) (dr main_v19) (Region.pack (F := F) (W5 m d hr (dr main_v17)) (W5 m d hr (dr main_v18)))

def W7 (hr : Histo.RowOK (rowWords m d)) : Valuation τ sig (Elt F) := after ops3 (W6 m d hr)

/-- The packed words and the feature rows the edge call reads. -/
abbrev packedWords (hr : Histo.RowOK (rowWords m d)) : IVec Edge.SP 32 := W7 m d hr (dr main_v20)
abbrev featRows (hr : Histo.RowOK (rowWords m d)) : Vec F S192x1x10000 .f32 := W7 m d hr (dr main_v16)

/-- After the edge call: its result array at the aggregated rows. -/
def W8 (hr : Histo.RowOK (rowWords m d)) (hpk : Edge.PackedOK (packedWords m d hr)) : Valuation τ sig (Elt F) :=
  Function.update (W7 m d hr) (dr main_v21) (aggArr (packedWords m d hr) hpk (featRows m d hr))

def W9 (hr : Histo.RowOK (rowWords m d)) (hpk : Edge.PackedOK (packedWords m d hr)) : Valuation τ sig (Elt F) :=
  after ops4 (W8 m d hr hpk)

/-- The dense region's three results, from its fourteen operands in a valuation. -/
def denseOut0 (W : Valuation τ sig (Elt F)) : FVec F S10000x10 .f32 :=
  Region.dense0 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7)) (W (dr main_arg9)) (W (dr main_v45))
def denseOut1 (W : Valuation τ sig (Elt F)) : FVec F S10000x64 .f32 :=
  Region.dense1 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7))
def denseOut2 (W : Valuation τ sig (Elt F)) : FVec F S10000x64 .f32 :=
  Region.dense2 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7))

/-- After the dense region: its three results. -/
def W10 (hr : Histo.RowOK (rowWords m d)) (hpk : Edge.PackedOK (packedWords m d hr)) : Valuation τ sig (Elt F) :=
  Function.update
    (Function.update
      (Function.update (W9 m d hr hpk) (dr main_v46_0) (denseOut0 (W9 m d hr hpk)))
      (dr main_v46_1) (denseOut1 (W9 m d hr hpk)))
    (dr main_v46_2) (denseOut2 (W9 m d hr hpk))

/-- At @main's return. -/
def W11 (hr : Histo.RowOK (rowWords m d)) (hpk : Edge.PackedOK (packedWords m d hr)) : Valuation τ sig (Elt F) :=
  after ops5 (W10 m d hr hpk)

/-- The index ranges the two SparseCore calls need, on every device: every row word names an element of a histogram,
    every packed word two nodes. -/
structure PreOK : Prop where
  row : ∀ d, Histo.RowOK (rowWords m d)
  packed : ∀ d, Edge.PackedOK (packedWords m d (row d))

end Cert.Proof.KI

end
-- ==== Proof.KI.Held.lean ====
/-
  The TensorCore's unscoped arrays as one held set: what the launch deals @main is that set at the launch contents;
  every host operation of @main touches only arrays of the set; a call's own arrays are taken out of the set and put
  back at the contents the call leaves.
-/
import proofs.«207992_g50208167690906_cont_8to1c4_731_36_alg».proof.Proof.KI.Base
import proofs.«207992_g50208167690906_cont_8to1c4_731_36_alg».proof.Proof.KI.MainOps
import proofs.«207992_g50208167690906_cont_8to1c4_731_36_alg».proof.Proof.KI.Chain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq tcRefs unary_bufs_sub reshape_bufs_sub binary_bufs_sub nullary_bufs_sub)
open Cert.Proof.KI.MainOps

variable {F : FTy → Type} [FloatOps F]

local notation "𝕄" => MT nD τ sig (HIx 2) (Elt F) ℕ UU ℕ

/-- Every unscoped array of the TensorCore, as buffers of the device. -/
def SU : Finset (DevRef τ sig) :=
  (Finset.univ.filter fun b : Ref sig .tc => ¬ b.isScoped).map ⟨Proc.devRef (sig := sig) (.tc : Proc τ), Proc.devRef_injective _⟩

omit [FloatOps F] in
theorem mem_SU {r : Ref sig .tc} (h : r.isScoped = false) : dr r ∈ SU :=
  Finset.mem_map.mpr ⟨r, Finset.mem_filter.mpr ⟨Finset.mem_univ _, by rw [h]; exact Bool.false_ne_true⟩, rfl⟩

/-- What the launch deals @main: the set at the launch contents. -/
theorem unscoped_held (m : (ℓ : Loc nD τ sig) → Buf (Elt F) ℓ) (d : Dev nD) :
    (unscopedBufs d (fun b => m ((SparseCore.T d).loc b)) : sProp 𝕄) = held (T d) SU (W0 m d) := by
  unfold unscopedBufs held SU
  rw [bigSep_map]
  rfl

/-- A host operation on TensorCore references touches only arrays of the set: it touches no scoped one. -/
theorem bufs_sub_SU (op : HloOp τ sig (Elt F)) (h : op.bufs ⊆ tcRefs τ sig) : op.bufs ⊆ SU := fun b hb => by
  obtain ⟨r, -, rfl⟩ := Finset.mem_map.mp (h hb)
  exact mem_SU (op.no_scoped _ hb)

theorem ops0_sub : ∀ op ∈ (ops0 : List (HloOp τ sig (Elt F))), op.bufs ⊆ SU :=
  List.forall_iff_forall_mem.mp (show (ops0 : List (HloOp τ sig (Elt F))).Forall (fun op => op.bufs ⊆ SU) from
    ⟨bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..)⟩)
theorem ops0_fresh : ∀ op ∈ (ops0 : List (HloOp τ sig (Elt F))), op.fresh = ∅ :=
  List.forall_iff_forall_mem.mp (show (ops0 : List (HloOp τ sig (Elt F))).Forall (fun op => op.fresh = ∅) from
    ⟨rfl, rfl, rfl, rfl, rfl, rfl, rfl, rfl⟩)

theorem ops1_sub : ∀ op ∈ (ops1 : List (HloOp τ sig (Elt F))), op.bufs ⊆ SU :=
  List.forall_iff_forall_mem.mp (show (ops1 : List (HloOp τ sig (Elt F))).Forall (fun op => op.bufs ⊆ SU) from
    ⟨bufs_sub_SU _ (reshape_bufs_sub ..), bufs_sub_SU _ (nullary_bufs_sub ..), bufs_sub_SU _ (binary_bufs_sub ..), bufs_sub_SU _ (unary_bufs_sub ..), bufs_sub_SU _ (unary_bufs_sub ..)⟩)
theorem ops1_fresh : ∀ op ∈ (ops1 : List (HloOp τ sig (Elt F))), op.fresh = ∅ :=
  List.forall_iff_forall_mem.mp (show (ops1 : List (HloOp τ sig (Elt F))).Forall (fun op => op.fresh = ∅) from
    ⟨rfl, rfl, rfl, rfl, rfl⟩)

theorem ops2_sub : ∀ op ∈ (ops2 : List (HloOp τ sig (Elt F))), op.bufs ⊆ SU :=
  List.forall_iff_forall_mem.mp (show (ops2 : List (HloOp τ sig (Elt F))).Forall (fun op => op.bufs ⊆ SU) from
    ⟨bufs_sub_SU _ (binary_bufs_sub ..), bufs_sub_SU _ (unary_bufs_sub ..), bufs_sub_SU _ (reshape_bufs_sub ..), bufs_sub_SU _ (reshape_bufs_sub ..), bufs_sub_SU _ (reshape_bufs_sub ..)⟩)
theorem ops2_fresh : ∀ op ∈ (ops2 : List (HloOp τ sig (Elt F))), op.fresh = ∅ :=
  List.forall_iff_forall_mem.mp (show (ops2 : List (HloOp τ sig (Elt F))).Forall (fun op => op.fresh = ∅) from
    ⟨rfl, rfl, rfl, rfl, rfl⟩)

theorem ops3_sub : ∀ op ∈ (ops3 : List (HloOp τ sig (Elt F))), op.bufs ⊆ SU :=
  List.forall_iff_forall_mem.mp (show (ops3 : List (HloOp τ sig (Elt F))).Forall (fun op => op.bufs ⊆ SU) from
    bufs_sub_SU _ (reshape_bufs_sub ..))
theorem ops3_fresh : ∀ op ∈ (ops3 : List (HloOp τ sig (Elt F))), op.fresh = ∅ :=
  List.forall_iff_forall_mem.mp (show (ops3 : List (HloOp τ sig (Elt F))).Forall (fun op => op.fresh = ∅) from
    rfl)

theorem ops4_sub : ∀ op ∈ (ops4 : List (HloOp τ sig (Elt F))), op.bufs ⊆ SU :=
  List.forall_iff_forall_mem.mp (show (ops4 : List (HloOp τ sig (Elt F))).Forall (fun op => op.bufs ⊆ SU) from
    ⟨bufs_sub_SU _ (reshape_bufs_sub ..), bufs_sub_SU _ (unary_bufs_sub ..), bufs_sub_SU _ (unary_bufs_sub ..), bufs_sub_SU _ (unary_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (binary_bufs_sub ..), bufs_sub_SU _ (binary_bufs_sub ..), bufs_sub_SU _ (reshape_bufs_sub ..), bufs_sub_SU _ (reshape_bufs_sub ..)⟩)
theorem ops4_fresh : ∀ op ∈ (ops4 : List (HloOp τ sig (Elt F))), op.fresh = ∅ :=
  List.forall_iff_forall_mem.mp (show (ops4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl⟩)

theorem ops5_sub : ∀ op ∈ (ops5 : List (HloOp τ sig (Elt F))), op.bufs ⊆ SU :=
  List.forall_iff_forall_mem.mp (show (ops5 : List (HloOp τ sig (Elt F))).Forall (fun op => op.bufs ⊆ SU) from
    ⟨bufs_sub_SU _ (unary_bufs_sub ..), bufs_sub_SU _ (unary_bufs_sub ..), bufs_sub_SU _ (binary_bufs_sub ..)⟩)
theorem ops5_fresh : ∀ op ∈ (ops5 : List (HloOp τ sig (Elt F))), op.fresh = ∅ :=
  List.forall_iff_forall_mem.mp (show (ops5 : List (HloOp τ sig (Elt F))).Forall (fun op => op.fresh = ∅) from
    ⟨rfl, rfl, rfl⟩)

/-- A subset of a held set taken out, with the way back at any contents that agree outside the subset. -/
theorem held_swap {S T' : Finset (DevRef τ sig)} (hT : T' ⊆ S) {V V' : Valuation τ sig (Elt F)} (hV : ∀ b ∈ S \ T', V b = V' b)
    (c : Thread nD τ) :
    (held c S V : sProp 𝕄) ⊢ iprop(held c T' V ∗ (held c T' V' -∗ held c S V')) := by
  rw [held_sub_split c hT V, held_sub_split c hT V', held_congr c hV]
  iintro ⟨HT, HR⟩
  isplitl [HT]; · iexact HT
  iintro HT'
  isplitl [HT']; · iexact HT'
  iexact HR

end Cert.Proof.KI

end
-- ==== Proof.KI.Pay.lean ====
/-
  What the two SparseCore calls are handed and hand back, tile by tile, and how the whole arrays the TensorCore
  holds split into the tiles' pieces and join again.

  Call 0 (the histograms): tile w = 16 c + i of the 32 reads words 10000 w to 10000 w + 9999 of the row array and
  writes row w of the [32, 1, 10240] result. The 32 word ranges are disjoint and cover the row array, the 32 rows
  cover the result: each tile is handed its own pieces outright. Call 1 (the edge aggregation): every tile reads the
  whole packed array and the whole feature array, so each is handed one of 32 read shares of either; tile w writes
  rows 6 w to 6 w + 5 of the [192, 1, 10000] result and is handed those six rows outright.
-/
import proofs.«207992_g50208167690906_cont_8to1c4_731_36_alg».proof.Proof.KI.Base
import proofs.«207992_g50208167690906_cont_8to1c4_731_36_alg».proof.Proof.KI.HistoVal
import proofs.«207992_g50208167690906_cont_8to1c4_731_36_alg».proof.Proof.KI.EdgeVal
import Idealize.ShloMosaic.Lib.Transfers
import Idealize.ShloMosaic.Rules.PointsTo
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.ValueIdx

variable {F : FTy → Type}

local notation "𝕄" => MT nD τ sig (HIx 2) (Elt F) ℕ UU ℕ

/-! ## The five arrays, as the TensorCore's locations -/

/-- The row words (call 0 reads them), the histograms (call 0 writes them), the packed edge words and the feature
    rows (call 1 reads them), the aggregated rows (call 1 writes them). -/
abbrev v1Loc (d : Dev nD) : Loc nD τ sig := (SparseCore.T d).loc main_v1
abbrev v8Loc (d : Dev nD) : Loc nD τ sig := (SparseCore.T d).loc main_v8
abbrev v20Loc (d : Dev nD) : Loc nD τ sig := (SparseCore.T d).loc main_v20
abbrev v16Loc (d : Dev nD) : Loc nD τ sig := (SparseCore.T d).loc main_v16
abbrev v21Loc (d : Dev nD) : Loc nD τ sig := (SparseCore.T d).loc main_v21

/-! ## The tiles -/

/-- Tile i of SparseCore c, as a point of either kernel's grid. -/
def tile0 (c : Fin 2) (i : Fin 16) : grid0.Coords :=
  fun | 0 => c | 1 => i | ⟨_ + 2, h⟩ => absurd h (Nat.not_lt.2 (Nat.le_add_left _ _))
def tile3 (c : Fin 2) (i : Fin 16) : grid3.Coords :=
  fun | 0 => c | 1 => i | ⟨_ + 2, h⟩ => absurd h (Nat.not_lt.2 (Nat.le_add_left _ _))

/-- The tile's number among the 32. -/
def tid (c : Fin 2) (i : Fin 16) : Fin 32 := ⟨16 * c.val + i.val, by omega⟩

/-- The grid's SparseCore and tile numbers of a call, as numbers below 2 and 16. -/
abbrev cc (q : Fin 2) (c : Fin ((K (F := F)).nCore q)) : Fin 2 := Fin.cast (nCore_eq q) c
abbrev ii (q : Fin 2) (i : Fin ((K (F := F)).nSub q)) : Fin 16 := Fin.cast (nSub_eq q) i

/-! ## The tiles' pieces, as the kernels slice them -/

local notation "rowW" => (Memref.whole Cert.KernelIdeal.main_v1_scv : Memref Cert.KernelIdeal.sig Kind.scVector Space.hbm Cert.KernelIdeal.S320000 EltTy.i32)
local notation "histW" => (Memref.whole Cert.KernelIdeal.main_v8_scv : Memref Cert.KernelIdeal.sig Kind.scVector Space.hbm Cert.KernelIdeal.S32x1x10240 EltTy.f32)
local notation "aggW" => (Memref.whole Cert.KernelIdeal.main_v21_scv : Memref Cert.KernelIdeal.sig Kind.scVector Space.hbm Cert.KernelIdeal.S192x1x10000 EltTy.f32)
local notation "vptW" => (Memref.whole Cert.KernelIdeal.main_v16_scv : Memref Cert.KernelIdeal.sig Kind.scVector Space.hbm Cert.KernelIdeal.S192x1x10000 EltTy.f32)

/-- Call 0: the tile's 10000 row words; its row of the histograms. -/
abbrev rowSl (L : grid0.Coords) : Memref sig .scVector .hbm S10000 .i32 :=
  (rowW).slice (Rect.unit (s := S320000) (k0_off2 L) S10000.size (k0_off2_inb L)) (fun _ => rfl)
abbrev outSl (L : grid0.Coords) : Memref sig .scVector .hbm S10240 .f32 :=
  ((histW).slice (Rect.unit (s := S32x1x10240) (k0_off4 L) S1x1x10240.size (k0_off4_inb L)) (fun _ => rfl)).squeeze S10240 squeezes_S1x1x10240_S10240

/-- Call 1: row r of the tile's six, of the feature rows and of the aggregated rows. -/
abbrev rowRect (L : grid3.Coords) (r : Fin 6) : Rect S192x1x10000 :=
  Rect.unit (s := S192x1x10000) (k3_off2 L (BitVec.ofNat 32 r.val)) S1x1x10000.size (k3_off2_inb L r)
abbrev vptRow (L : grid3.Coords) (r : Fin 6) : Memref sig .scVector .hbm S10000 .f32 :=
  ((vptW).slice (rowRect L r) (fun _ => rfl)).squeeze S10000 squeezes_S1x1x10000_S10000
abbrev aggRowSl (L : grid3.Coords) (r : Fin 6) : Memref sig .scVector .hbm S10000 .f32 :=
  ((aggW).slice (rowRect L r) (fun _ => rfl)).squeeze S10000 squeezes_S1x1x10000_S10000

/-! ## The arrays the calls are handed, and the two whole results -/

/-- What the TensorCore holds in the five arrays when it starts each call: the row words and the histograms' array
    before call 0; the packed words, the feature rows and the aggregated rows' array before call 1; every row word
    names an element of a histogram, every packed word two nodes. -/
structure Handed (F : FTy → Type) where
  row : (d : Dev nD) → Buf (Elt F) (v1Loc d)
  h8 : (d : Dev nD) → Buf (Elt F) (v8Loc d)
  pk : (d : Dev nD) → Buf (Elt F) (v20Loc d)
  vpt : (d : Dev nD) → Buf (Elt F) (v16Loc d)
  h21 : (d : Dev nD) → Buf (Elt F) (v21Loc d)
  hrow : ∀ d, Histo.RowOK (row d)
  hpk : ∀ d, Edge.PackedOK (pk d)

variable [FloatOps F]

/-- Row r of a [192, 1, 10000] array. -/
def rowAt (a : Vec F S192x1x10000 .f32) (r : Fin 192) : Vec F Edge.SN .f32 := fun j => a (ix3 r 0 (j 0))

/-- The aggregated rows, whole: row r is the fold of all the packed words over row r of the feature rows. -/
def aggRows (pk : IVec Edge.SP 32) (hpk : Edge.PackedOK pk) (vpt : Vec F S192x1x10000 .f32) : Vec F S192x1x10000 .f32 :=
  fun idx => Edge.aggRow pk hpk (rowAt vpt (idx 0)) (ix1 (idx 2))

variable (A : Handed F)

/-- The histograms' array after call 0; the aggregated rows' array after call 1. -/
def histBuf (d : Dev nD) : Buf (Elt F) (v8Loc d) := Histo.histArr (F := F) (A.row d) (A.hrow d)
def aggBuf (d : Dev nD) : Buf (Elt F) (v21Loc d) := aggRows (A.pk d) (A.hpk d) (A.vpt d)

/-! ## What a tile is handed and hands back -/

/-- Call 0: the tile's row words and its row of the histograms, both outright. -/
def go0 (d : Dev nD) (c : Fin 2) (i : Fin 16) : sProp 𝕄 :=
  iprop((v1Loc d ↦[(rowSl (tile0 c i)).view.set]{fullShare} A.row d) ∗ (v8Loc d ↦[(outSl (tile0 c i)).view.set]{fullShare} A.h8 d))
def td0 (d : Dev nD) (c : Fin 2) (i : Fin 16) : sProp 𝕄 :=
  iprop((v1Loc d ↦[(rowSl (tile0 c i)).view.set]{fullShare} A.row d) ∗ (v8Loc d ↦[(outSl (tile0 c i)).view.set]{fullShare} histBuf A d))

/-- Call 1: a read share of the packed words, a read share of the feature rows, and the tile's six aggregated rows
    outright. -/
def go1 (d : Dev nD) (c : Fin 2) (i : Fin 16) : sProp 𝕄 :=
  iprop((v20Loc d ↦{shareTok fullShare 32 (tid c i)} A.pk d) ∗ (v16Loc d ↦{shareTok fullShare 32 (tid c i)} A.vpt d)
    ∗ bigSep Finset.univ fun r : Fin 6 => v21Loc d ↦[(aggRowSl (tile3 c i) r).view.set]{fullShare} A.h21 d)
def td1 (d : Dev nD) (c : Fin 2) (i : Fin 16) : sProp 𝕄 :=
  iprop((v20Loc d ↦{shareTok fullShare 32 (tid c i)} A.pk d) ∗ (v16Loc d ↦{shareTok fullShare 32 (tid c i)} A.vpt d)
    ∗ bigSep Finset.univ fun r : Fin 6 => v21Loc d ↦[(aggRowSl (tile3 c i) r).view.set]{fullShare} aggBuf A d)

/-- What the handshakes of the two calls carry: a SparseCore's operands are its sixteen tiles', its results theirs. -/
def P : (K (F := F)).Pay (nD := nD) (Val := Elt F) (Name := ℕ) (U := UU) where
  st := fun q d c => bigSep Finset.univ fun i : Fin ((K (F := F)).nSub q) =>
    match q with | 0 => go0 A d (cc 0 c) (ii 0 i) | 1 => go1 A d (cc 1 c) (ii 1 i)
  dn := fun q d c => bigSep Finset.univ fun i : Fin ((K (F := F)).nSub q) =>
    match q with | 0 => td0 A d (cc 0 c) (ii 0 i) | 1 => td1 A d (cc 1 c) (ii 1 i)
  go := fun q d c i => match q with | 0 => go0 A d (cc 0 c) (ii 0 i) | 1 => go1 A d (cc 1 c) (ii 1 i)
  td := fun q d c i => match q with | 0 => td0 A d (cc 0 c) (ii 0 i) | 1 => td1 A d (cc 1 c) (ii 1 i)
  x := fun _ _ => iprop(emp)

instance go0_storable (d : Dev nD) (c : Fin 2) (i : Fin 16) : BI.Storable (upEmb : UEmb _ 𝕄) (go0 A d c i) := by unfold go0; infer_instance
instance td0_storable (d : Dev nD) (c : Fin 2) (i : Fin 16) : BI.Storable (upEmb : UEmb _ 𝕄) (td0 A d c i) := by unfold td0; infer_instance
instance go1_storable (d : Dev nD) (c : Fin 2) (i : Fin 16) : BI.Storable (upEmb : UEmb _ 𝕄) (go1 A d c i) := by unfold go1; infer_instance
instance td1_storable (d : Dev nD) (c : Fin 2) (i : Fin 16) : BI.Storable (upEmb : UEmb _ 𝕄) (td1 A d c i) := by unfold td1; infer_instance

instance P_storable : (P (F := F) A).IsStorable where
  st q d c := match q with
    | 0 => by unfold P; dsimp only; infer_instance
    | 1 => by unfold P; dsimp only; infer_instance
  dn q d c := match q with
    | 0 => by unfold P; dsimp only; infer_instance
    | 1 => by unfold P; dsimp only; infer_instance
  go q d c i := match q with
    | 0 => by unfold P; dsimp only; infer_instance
    | 1 => by unfold P; dsimp only; infer_instance
  td q d c i := match q with
    | 0 => by unfold P; dsimp only; infer_instance
    | 1 => by unfold P; dsimp only; infer_instance

/-! ## The record's fields, as equations -/

theorem P_st (q : Fin 2) (d : Dev nD) (c : Fin ((K (F := F)).nCore q)) :
    (P A).st q d c = bigSep Finset.univ fun i : Fin ((K (F := F)).nSub q) => (P A).go q d c i := by
  match q with | 0 => rfl | 1 => rfl
theorem P_dn (q : Fin 2) (d : Dev nD) (c : Fin ((K (F := F)).nCore q)) :
    (P A).dn q d c = bigSep Finset.univ fun i : Fin ((K (F := F)).nSub q) => (P A).td q d c i := by
  match q with | 0 => rfl | 1 => rfl
theorem P_go0 (d : Dev nD) (c : Fin ((K (F := F)).nCore 0)) (i : Fin ((K (F := F)).nSub 0)) : (P A).go 0 d c i = go0 A d (cc 0 c) (ii 0 i) := rfl
theorem P_td0 (d : Dev nD) (c : Fin ((K (F := F)).nCore 0)) (i : Fin ((K (F := F)).nSub 0)) : (P A).td 0 d c i = td0 A d (cc 0 c) (ii 0 i) := rfl
theorem P_go1 (d : Dev nD) (c : Fin ((K (F := F)).nCore 1)) (i : Fin ((K (F := F)).nSub 1)) : (P A).go 1 d c i = go1 A d (cc 1 c) (ii 1 i) := rfl
theorem P_td1 (d : Dev nD) (c : Fin ((K (F := F)).nCore 1)) (i : Fin ((K (F := F)).nSub 1)) : (P A).td 1 d c i = td1 A d (cc 1 c) (ii 1 i) := rfl
theorem P_x (q : Fin 2) (thr : Thread nD τ) : (P A).x q thr = iprop(emp) := rfl
theorem P_ox : (P A).ox = fun _ _ => 0 := rfl

/-! ## A SparseCore's operands are its tiles', its results theirs -/

theorem vecSplit (q : Fin 2) : (K (F := F)).VecSplit' (P A) q := by
  intro d c
  rw [P_st, P_dn]
  iintro H; imodintro
  isplitl [H]; · iexact H
  iintro H; iexact H

/-! ## Re-indexing: the grid's numbers as numbers below 2 and 16; the 32 tiles as pairs -/

theorem bigSep_fin_cast {M : Type} [URA M] {n m : ℕ} (h : n = m) (Φ : Fin m → sProp M) :
    (bigSep Finset.univ fun i : Fin n => Φ (Fin.cast h i)) = bigSep Finset.univ Φ := by
  subst h; exact bigSep_congr fun _ _ => rfl

/-- The tile's number, as an embedding of the pairs into the 32. -/
def tidEmb : Fin 2 × Fin 16 ↪ Fin 32 :=
  ⟨fun p => tid p.1 p.2, fun p p' h => by
    have h' : 16 * p.1.val + p.2.val = 16 * p'.1.val + p'.2.val := congrArg Fin.val h
    have h2 := p.2.isLt; have h2' := p'.2.isLt
    exact Prod.ext (Fin.ext (by omega)) (Fin.ext (by omega))⟩

theorem map_tidEmb : (Finset.univ : Finset (Fin 2 × Fin 16)).map tidEmb = Finset.univ := by
  ext t
  simp only [Finset.mem_map, Finset.mem_univ, true_and, iff_true]
  have ht := t.isLt
  exact ⟨(⟨t.val / 16, by omega⟩, ⟨t.val % 16, by omega⟩), Fin.ext (by show 16 * (t.val / 16) + t.val % 16 = t.val; omega)⟩

/-- A family over the 32 tiles, SparseCore by SparseCore. -/
theorem bigSep_tiles {M : Type} [URA M] (Φ : Fin 32 → sProp M) :
    bigSep Finset.univ Φ = bigSep Finset.univ fun c : Fin 2 => bigSep Finset.univ fun i : Fin 16 => Φ (tid c i) := by
  rw [← map_tidEmb, bigSep_map, ← Finset.univ_product_univ, SparseCore.bigSep_product]; rfl

/-- An array cut into one piece per tile: whole, it is the pieces. -/
theorem pointsTo_tiles {ℓ : Loc nD τ sig} (Ks : Fin 2 × Fin 16 → Finset (Idx ℓ))
    (hd : ∀ p ∈ (Finset.univ : Finset (Fin 2 × Fin 16)), ∀ p' ∈ (Finset.univ : Finset (Fin 2 × Fin 16)), p ≠ p' → Disjoint (Ks p) (Ks p'))
    (hc : (Finset.univ : Finset (Fin 2 × Fin 16)).biUnion Ks = Finset.univ) (q : PosShare TreeShare) (f : Buf (Elt F) ℓ) :
    (ℓ ↦{q} f : sProp 𝕄) = bigSep Finset.univ fun c : Fin 2 => bigSep Finset.univ fun i : Fin 16 => ℓ ↦[Ks (c, i)]{q} f := by
  rw [← SparseCore.bigSep_product Finset.univ Finset.univ (fun p : Fin 2 × Fin 16 => (ℓ ↦[Ks p]{q} f : sProp 𝕄)), Finset.univ_product_univ,
    ← pointsTo_biUnion Finset.univ Ks hd, hc]

/-! ## The pieces' index sets: disjoint, and covering their arrays -/

@[simp] theorem tile0_zero (c : Fin 2) (i : Fin 16) : ((tile0 c i) 0).val = c.val := rfl
@[simp] theorem tile0_one (c : Fin 2) (i : Fin 16) : ((tile0 c i) 1).val = i.val := rfl
@[simp] theorem tile3_zero (c : Fin 2) (i : Fin 16) : ((tile3 c i) 0).val = c.val := rfl
@[simp] theorem tile3_one (c : Fin 2) (i : Fin 16) : ((tile3 c i) 1).val = i.val := rfl

theorem pair_ne {p p' : Fin 2 × Fin 16} (h : p ≠ p') : p.1.val ≠ p'.1.val ∨ p.2.val ≠ p'.2.val := by
  by_contra hn
  rw [not_or, not_not, not_not] at hn
  exact h (Prod.ext (Fin.ext hn.1) (Fin.ext hn.2))

/-- Call 0's row words: tile (c, i) has words 160000 c + 10000 i and the 9999 after. -/
theorem rowSet_eq (L : grid0.Coords) :
    (rowSl L).view.set = (Rect.unit (s := S320000) (k0_off2 L) S10000.size (k0_off2_inb L)).set := View.set_slice_whole _ _

abbrev rowSet (p : Fin 2 × Fin 16) : Finset S320000.Idx := (rowSl (tile0 p.1 p.2)).view.set

theorem rowSets_disjoint : ∀ p ∈ (Finset.univ : Finset (Fin 2 × Fin 16)), ∀ p' ∈ (Finset.univ : Finset (Fin 2 × Fin 16)), p ≠ p' →
    Disjoint (rowSet p) (rowSet p') := by
  intro p _ p' _ hne
  unfold rowSet
  rw [rowSet_eq, rowSet_eq]
  refine Rect.unit_disjoint 0 ?_
  rw [k0_off2_eq, k0_off2_eq]
  have h := pair_ne hne
  have h1 := p.1.isLt; have h2 := p.2.isLt; have h1' := p'.1.isLt; have h2' := p'.2.isLt
  simp only [tile0_zero, tile0_one, Matrix.cons_val_zero]
  show _ + 10000 ≤ _ ∨ _ + 10000 ≤ _
  omega

theorem rowSets_cover : (Finset.univ : Finset (Fin 2 × Fin 16)).biUnion rowSet = Finset.univ := by
  ext x
  simp only [Finset.mem_biUnion, Finset.mem_univ, true_and, iff_true]
  have hx : (x 0).val < 320000 := (x 0).isLt
  refine ⟨(⟨(x 0).val / 160000, by omega⟩, ⟨(x 0).val % 160000 / 10000, by omega⟩), ?_⟩
  unfold rowSet
  rw [rowSet_eq, Rect.mem_set_unit, k0_off2_eq]
  intro a
  obtain rfl : a = 0 := Subsingleton.elim _ _
  simp only [tile0_zero, tile0_one, Matrix.cons_val_zero]
  show _ ≤ (x 0).val ∧ (x 0).val < _ + 10000
  omega

/-- Call 0's histograms: tile (c, i) has row 16 c + i. -/
theorem outSet_eq (L : grid0.Coords) :
    (outSl L).view.set = (Rect.unit (s := S32x1x10240) (k0_off4 L) S1x1x10240.size (k0_off4_inb L)).set :=
  (View.set_reshape _ _).trans (View.set_slice_whole _ _)

abbrev outSet (p : Fin 2 × Fin 16) : Finset S32x1x10240.Idx := (outSl (tile0 p.1 p.2)).view.set

theorem outSets_disjoint : ∀ p ∈ (Finset.univ : Finset (Fin 2 × Fin 16)), ∀ p' ∈ (Finset.univ : Finset (Fin 2 × Fin 16)), p ≠ p' →
    Disjoint (outSet p) (outSet p') := by
  intro p _ p' _ hne
  unfold outSet
  rw [outSet_eq, outSet_eq]
  refine Rect.unit_disjoint 0 ?_
  rw [k0_off4_eq, k0_off4_eq]
  have h := pair_ne hne
  have h1 := p.1.isLt; have h2 := p.2.isLt; have h1' := p'.1.isLt; have h2' := p'.2.isLt
  simp only [tile0_zero, tile0_one, Matrix.cons_val_zero]
  show _ + 1 ≤ _ ∨ _ + 1 ≤ _
  omega

theorem outSets_cover : (Finset.univ : Finset (Fin 2 × Fin 16)).biUnion outSet = Finset.univ := by
  ext x
  simp only [Finset.mem_biUnion, Finset.mem_univ, true_and, iff_true]
  have hx : (x 0).val < 32 := (x 0).isLt
  have hx1 : (x 1).val < 1 := (x 1).isLt
  have hx2 : (x 2).val < 10240 := (x 2).isLt
  refine ⟨(⟨(x 0).val / 16, by omega⟩, ⟨(x 0).val % 16, by omega⟩), ?_⟩
  unfold outSet
  rw [outSet_eq, Rect.mem_set_unit, k0_off4_eq]
  intro a
  simp only [tile0_zero, tile0_one]
  match a with
  | ⟨0, _⟩ => show 16 * ((x 0).val / 16) + (x 0).val % 16 ≤ (x 0).val ∧ (x 0).val < 16 * ((x 0).val / 16) + (x 0).val % 16 + 1; omega
  | ⟨1, _⟩ => show 0 ≤ (x 1).val ∧ (x 1).val < 0 + 1; omega
  | ⟨2, _⟩ => show 0 ≤ (x 2).val ∧ (x 2).val < 0 + 10240; omega

/-- Call 1's aggregated rows: tile (c, i) has rows 96 c + 6 i + r, r below 6. -/
theorem aggSet_eq (L : grid3.Coords) (r : Fin 6) : (aggRowSl L r).view.set = (rowRect L r).set :=
  (View.set_reshape _ _).trans (View.set_slice_whole _ _)

abbrev aggSet (p : Fin 2 × Fin 16) (r : Fin 6) : Finset S192x1x10000.Idx := (aggRowSl (tile3 p.1 p.2) r).view.set

theorem aggSets_disjoint_row (p : Fin 2 × Fin 16) : ∀ r ∈ (Finset.univ : Finset (Fin 6)), ∀ r' ∈ (Finset.univ : Finset (Fin 6)), r ≠ r' →
    Disjoint (aggSet p r) (aggSet p r') := by
  intro r _ r' _ hne
  unfold aggSet
  rw [aggSet_eq, aggSet_eq]
  refine Rect.unit_disjoint 0 ?_
  rw [k3_off2_eq, k3_off2_eq]
  have h : r.val ≠ r'.val := fun e => hne (Fin.ext e)
  simp only [tile3_zero, tile3_one, Matrix.cons_val_zero]
  show _ + 1 ≤ _ ∨ _ + 1 ≤ _
  omega

/-- A tile's six rows, as one set. -/
abbrev aggSet6 (p : Fin 2 × Fin 16) : Finset S192x1x10000.Idx := (Finset.univ : Finset (Fin 6)).biUnion (aggSet p)

theorem mem_aggSet (p : Fin 2 × Fin 16) (r : Fin 6) (x : S192x1x10000.Idx) :
    x ∈ aggSet p r ↔ (x 0).val = 96 * p.1.val + 6 * p.2.val + r.val := by
  unfold aggSet
  rw [aggSet_eq, Rect.mem_set_unit, k3_off2_eq]
  have hx1 : (x 1).val < 1 := (x 1).isLt
  have hx2 : (x 2).val < 10000 := (x 2).isLt
  simp only [tile3_zero, tile3_one]
  constructor
  · intro h
    have h0 := h 0
    have h0' : 96 * p.1.val + 6 * p.2.val + r.val ≤ (x 0).val ∧ (x 0).val < 96 * p.1.val + 6 * p.2.val + r.val + 1 := h0
    omega
  · intro h a
    match a with
    | ⟨0, _⟩ => show 96 * p.1.val + 6 * p.2.val + r.val ≤ (x 0).val ∧ (x 0).val < 96 * p.1.val + 6 * p.2.val + r.val + 1; omega
    | ⟨1, _⟩ => show 0 ≤ (x 1).val ∧ (x 1).val < 0 + 1; omega
    | ⟨2, _⟩ => show 0 ≤ (x 2).val ∧ (x 2).val < 0 + 10000; omega

theorem aggSets6_disjoint : ∀ p ∈ (Finset.univ : Finset (Fin 2 × Fin 16)), ∀ p' ∈ (Finset.univ : Finset (Fin 2 × Fin 16)), p ≠ p' →
    Disjoint (aggSet6 p) (aggSet6 p') := by
  intro p _ p' _ hne
  rw [Finset.disjoint_left]
  intro x hx hx'
  obtain ⟨r, -, hr⟩ := Finset.mem_biUnion.mp hx
  obtain ⟨r', -, hr'⟩ := Finset.mem_biUnion.mp hx'
  rw [mem_aggSet] at hr hr'
  have h := pair_ne hne
  have h1 := p.1.isLt; have h2 := p.2.isLt; have h1' := p'.1.isLt; have h2' := p'.2.isLt
  have h3 := r.isLt; have h3' := r'.isLt
  omega

theorem aggSets6_cover : (Finset.univ : Finset (Fin 2 × Fin 16)).biUnion aggSet6 = Finset.univ := by
  ext x
  simp only [Finset.mem_biUnion, Finset.mem_univ, true_and, iff_true]
  have hx : (x 0).val < 192 := (x 0).isLt
  refine ⟨(⟨(x 0).val / 96, by omega⟩, ⟨(x 0).val % 96 / 6, by omega⟩), ⟨(x 0).val % 6, by omega⟩, ?_⟩
  rw [mem_aggSet]
  show (x 0).val = 96 * ((x 0).val / 96) + 6 * ((x 0).val % 96 / 6) + (x 0).val % 6
  omega

/-! ## The TensorCore's whole arrays and the 32 tiles' pieces -/

/-- A family over a call's grid, over numbers below 2 and 16. -/
theorem bigSep_grid (q : Fin 2) (Φ : Fin 2 → Fin 16 → sProp 𝕄) :
    (bigSep Finset.univ fun c : Fin ((K (F := F)).nCore q) => bigSep Finset.univ fun i : Fin ((K (F := F)).nSub q) => Φ (cc q c) (ii q i))
      = bigSep Finset.univ fun c : Fin 2 => bigSep Finset.univ fun i : Fin 16 => Φ c i := by
  rw [← bigSep_fin_cast (nCore_eq (F := F) q) (fun c => bigSep Finset.univ fun i : Fin 16 => Φ c i)]
  refine bigSep_congr fun c _ => ?_
  exact bigSep_fin_cast (nSub_eq (F := F) q) (fun i => Φ (cc q c) i)

theorem st0_eq (d : Dev nD) :
    (bigSep Finset.univ fun c : Fin ((K (F := F)).nCore 0) => (P A).st 0 d c : sProp 𝕄)
      = bigSep Finset.univ fun c : Fin 2 => bigSep Finset.univ fun i : Fin 16 => go0 A d c i := by
  rw [← bigSep_grid 0 (fun c i => go0 A d c i)]
  exact bigSep_congr fun c _ => P_st A 0 d c
theorem dn0_eq (d : Dev nD) :
    (bigSep Finset.univ fun c : Fin ((K (F := F)).nCore 0) => (P A).dn 0 d c : sProp 𝕄)
      = bigSep Finset.univ fun c : Fin 2 => bigSep Finset.univ fun i : Fin 16 => td0 A d c i := by
  rw [← bigSep_grid 0 (fun c i => td0 A d c i)]
  exact bigSep_congr fun c _ => P_dn A 0 d c
theorem st1_eq (d : Dev nD) :
    (bigSep Finset.univ fun c : Fin ((K (F := F)).nCore 1) => (P A).st 1 d c : sProp 𝕄)
      = bigSep Finset.univ fun c : Fin 2 => bigSep Finset.univ fun i : Fin 16 => go1 A d c i := by
  rw [← bigSep_grid 1 (fun c i => go1 A d c i)]
  exact bigSep_congr fun c _ => P_st A 1 d c
theorem dn1_eq (d : Dev nD) :
    (bigSep Finset.univ fun c : Fin ((K (F := F)).nCore 1) => (P A).dn 1 d c : sProp 𝕄)
      = bigSep Finset.univ fun c : Fin 2 => bigSep Finset.univ fun i : Fin 16 => td1 A d c i := by
  rw [← bigSep_grid 1 (fun c i => td1 A d c i)]
  exact bigSep_congr fun c _ => P_dn A 1 d c

/-- Call 0's two arrays, whole, are the 32 tiles' pieces of them. -/
theorem tiles0 (d : Dev nD) (f : Buf (Elt F) (v8Loc d)) :
    (bigSep Finset.univ fun c : Fin 2 => bigSep Finset.univ fun i : Fin 16 =>
        iprop((v1Loc d ↦[(rowSl (tile0 c i)).view.set]{fullShare} A.row d) ∗ (v8Loc d ↦[(outSl (tile0 c i)).view.set]{fullShare} f)) : sProp 𝕄)
      = iprop((v1Loc d ↦{fullShare} A.row d) ∗ (v8Loc d ↦{fullShare} f)) := by
  rw [pointsTo_tiles (ℓ := v1Loc d) rowSet rowSets_disjoint rowSets_cover fullShare (A.row d),
    pointsTo_tiles (ℓ := v8Loc d) outSet outSets_disjoint outSets_cover fullShare f, ← bigSep_sep']
  refine bigSep_congr fun c _ => ?_
  rw [← bigSep_sep']

/-- Before call 0: the row words and the histograms' array, whole, are the 32 tiles' pieces. -/
theorem st_of_whole0 (d : Dev nD) :
    iprop((v1Loc d ↦{fullShare} A.row d) ∗ (v8Loc d ↦{fullShare} A.h8 d))
      ⊢ (bigSep Finset.univ fun c : Fin ((K (F := F)).nCore 0) => (P A).st 0 d c : sProp 𝕄) := by
  rw [st0_eq, ← tiles0 A d (A.h8 d)]
  exact BI.Entails.refl _

/-- After call 0: the 32 tiles' pieces are the row words, whole and unchanged, and the histograms' array, whole. -/
theorem whole_of_dn0 (d : Dev nD) :
    (bigSep Finset.univ fun c : Fin ((K (F := F)).nCore 0) => (P A).dn 0 d c : sProp 𝕄)
      ⊢ iprop((v1Loc d ↦{fullShare} A.row d) ∗ (v8Loc d ↦{fullShare} histBuf A d)) := by
  rw [dn0_eq, ← tiles0 A d (histBuf A d)]
  exact BI.Entails.refl _

/-- An array every tile reads whole: 32 read shares of it, and what is left. -/
theorem toks_tiles {ℓ : Loc nD τ sig} (f : Buf (Elt F) ℓ) :
    (ℓ ↦{fullShare} f : sProp 𝕄) ⊣⊢ iprop((ℓ ↦{shareDrop fullShare 32} f)
      ∗ bigSep Finset.univ fun c : Fin 2 => bigSep Finset.univ fun i : Fin 16 => ℓ ↦{shareTok fullShare 32 (tid c i)} f) := by
  rw [← bigSep_tiles (fun t => (ℓ ↦{shareTok fullShare 32 t} f : sProp 𝕄))]
  exact Transfers.pointsTo_toks fullShare 32

/-- The aggregated rows' array, whole, is the 32 tiles' six rows each. -/
theorem agg_tiles (d : Dev nD) (f : Buf (Elt F) (v21Loc d)) :
    (v21Loc d ↦{fullShare} f : sProp 𝕄)
      = bigSep Finset.univ fun c : Fin 2 => bigSep Finset.univ fun i : Fin 16 => bigSep Finset.univ fun r : Fin 6 =>
          v21Loc d ↦[(aggRowSl (tile3 c i) r).view.set]{fullShare} f := by
  rw [pointsTo_tiles (ℓ := v21Loc d) aggSet6 aggSets6_disjoint aggSets6_cover fullShare f]
  refine bigSep_congr fun c _ => bigSep_congr fun i _ => ?_
  exact pointsTo_biUnion (ℓ := v21Loc d) (q := fullShare) (f := f) Finset.univ (aggSet (c, i)) (aggSets_disjoint_row (c, i))

/-- Call 1's three arrays: the read shares of two, the third whole, are the 32 tiles' pieces. -/
theorem tiles1 (d : Dev nD) (f : Buf (Elt F) (v21Loc d)) :
    (bigSep Finset.univ fun c : Fin 2 => bigSep Finset.univ fun i : Fin 16 =>
        iprop((v20Loc d ↦{shareTok fullShare 32 (tid c i)} A.pk d) ∗ (v16Loc d ↦{shareTok fullShare 32 (tid c i)} A.vpt d)
          ∗ bigSep Finset.univ fun r : Fin 6 => v21Loc d ↦[(aggRowSl (tile3 c i) r).view.set]{fullShare} f) : sProp 𝕄)
      = iprop((bigSep Finset.univ fun c : Fin 2 => bigSep Finset.univ fun i : Fin 16 => v20Loc d ↦{shareTok fullShare 32 (tid c i)} A.pk d)
          ∗ (bigSep Finset.univ fun c : Fin 2 => bigSep Finset.univ fun i : Fin 16 => v16Loc d ↦{shareTok fullShare 32 (tid c i)} A.vpt d)
          ∗ (v21Loc d ↦{fullShare} f)) := by
  rw [agg_tiles d f, ← bigSep_sep', ← bigSep_sep']
  refine bigSep_congr fun c _ => ?_
  rw [← bigSep_sep', ← bigSep_sep']

/-- Before call 1: the packed words and the feature rows go out as 32 read shares each (the TensorCore keeps what is
    left of either while the call runs); the aggregated rows' array, whole, is the 32 tiles' six rows each. -/
theorem st_of_whole1 (d : Dev nD) :
    iprop((v20Loc d ↦{fullShare} A.pk d) ∗ (v16Loc d ↦{fullShare} A.vpt d) ∗ (v21Loc d ↦{fullShare} A.h21 d))
      ⊢ (iprop((v20Loc d ↦{shareDrop fullShare 32} A.pk d) ∗ (v16Loc d ↦{shareDrop fullShare 32} A.vpt d)
          ∗ bigSep Finset.univ fun c : Fin ((K (F := F)).nCore 1) => (P A).st 1 d c) : sProp 𝕄) := by
  rw [st1_eq, show (bigSep Finset.univ fun c : Fin 2 => bigSep Finset.univ fun i : Fin 16 => go1 A d c i : sProp 𝕄) = _ from tiles1 A d (A.h21 d)]
  iintro ⟨H20, H16, H21⟩
  ihave H20' := (toks_tiles (A.pk d)).1 $$ H20
  ihave H16' := (toks_tiles (A.vpt d)).1 $$ H16
  icases H20' with ⟨H20d, H20t⟩
  icases H16' with ⟨H16d, H16t⟩
  isplitl [H20d]; · iexact H20d
  isplitl [H16d]; · iexact H16d
  isplitl [H20t]; · iexact H20t
  isplitl [H16t]; · iexact H16t
  iexact H21

/-- After call 1: the read shares join what the TensorCore kept; the 192 rows are the aggregated rows' array, whole. -/
theorem whole_of_dn1 (d : Dev nD) :
    (iprop((v20Loc d ↦{shareDrop fullShare 32} A.pk d) ∗ (v16Loc d ↦{shareDrop fullShare 32} A.vpt d)
          ∗ bigSep Finset.univ fun c : Fin ((K (F := F)).nCore 1) => (P A).dn 1 d c) : sProp 𝕄)
      ⊢ iprop((v20Loc d ↦{fullShare} A.pk d) ∗ (v16Loc d ↦{fullShare} A.vpt d) ∗ (v21Loc d ↦{fullShare} aggBuf A d)) := by
  rw [dn1_eq, show (bigSep Finset.univ fun c : Fin 2 => bigSep Finset.univ fun i : Fin 16 => td1 A d c i : sProp 𝕄) = _ from tiles1 A d (aggBuf A d)]
  iintro ⟨H20d, H16d, H20t, H16t, H21⟩
  isplitl [H20d H20t]
  · iapply (toks_tiles (A.pk d)).2
    isplitl [H20d]; · iexact H20d
    iexact H20t
  isplitl [H16d H16t]
  · iapply (toks_tiles (A.vpt d)).2
    isplitl [H16d]; · iexact H16d
    iexact H16t
  iexact H21

end Cert.Proof.KI

end
-- ==== Proof.KI.Calls.lean ====
/-
  The two SparseCore calls of @main, over the TensorCore's held set: each takes its own arrays out of the set, deals
  them to the call's SparseCores tile by tile, gets the tiles' results back, and puts the arrays back at the next
  valuation of the chain.
-/
import proofs.«207992_g50208167690906_cont_8to1c4_731_36_alg».proof.Proof.KI.Held
import proofs.«207992_g50208167690906_cont_8to1c4_731_36_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq)
open Idealize.ShloMosaic.Transfers (shareTok shareDrop)

variable {F : FTy → Type} [FloatOps F]

local notation "𝕄" => MT nD τ sig (HIx 2) (Elt F) ℕ UU ℕ

variable (m : (ℓ : Loc nD τ sig) → Buf (Elt F) ℓ) (hok : PreOK m)

/-- What the TensorCore holds in the calls' arrays when it starts each call. -/
def handed : Handed F where
  row d := W1 m d (dr main_v1)
  h8 d := W1 m d (dr main_v8)
  pk d := W7 m d (hok.row d) (dr main_v20)
  vpt d := W7 m d (hok.row d) (dr main_v16)
  h21 d := W7 m d (hok.row d) (dr main_v21)
  hrow := hok.row
  hpk := hok.packed

/-- What the handshakes carry. -/
abbrev PP : (K (F := F)).Pay (nD := nD) (Val := Elt F) (Name := ℕ) (U := UU) := P (handed m hok)

/-! ## Call 0: the row words and the histograms' array -/

def T0 : Finset (DevRef τ sig) := {dr main_v1, dr main_v8}

omit [FloatOps F] in
theorem T0_sub : T0 ⊆ SU := by
  intro b hb
  simp only [T0, Finset.mem_insert, Finset.mem_singleton] at hb
  rcases hb with rfl | rfl <;> exact mem_SU rfl

omit [FloatOps F] in
theorem held_T0 (d : Dev nD) (W : Valuation τ sig (Elt F)) :
    (held (T d) T0 W : sProp 𝕄) = iprop((v1Loc d ↦{fullShare} W (dr main_v1)) ∗ (v8Loc d ↦{fullShare} W (dr main_v8))) := by
  unfold held T0
  rw [SparseCore.bigSep_insert' (by decide), bigSep_singleton]

theorem W2_off (d : Dev nD) (hr : Histo.RowOK (rowWords m d)) : ∀ b ∈ SU \ T0, W1 m d b = W2 m d hr b := fun b hb => by
  have hb' := (Finset.mem_sdiff.mp hb).2
  unfold W2
  rw [Function.update_of_ne]
  rintro rfl
  exact hb' (by simp [T0])

theorem W2_v1 (d : Dev nD) (hr : Histo.RowOK (rowWords m d)) : W2 m d hr (dr main_v1) = W1 m d (dr main_v1) :=
  Function.update_of_ne (show dr main_v1 ≠ dr main_v8 by decide) _ _
theorem W2_v8 (d : Dev nD) : W2 m d (hok.row d) (dr main_v8) = histBuf (handed m hok) d :=
  Function.update_self _ _ _

/-- The histogram call, from the held set at the valuation before it to the set at the valuation after it. -/
theorem run0 (κ : GSem nD τ sig → ℕ) (d : Dev nD) {Φ : PUnit → sProp 𝕄} :
    iprop((K (F := F)).ctx EH (PP m hok) κ ∗ (K (F := F)).tcSt EH d 0 ∗ held (T d) SU (W1 m d)
        ∗ (((K (F := F)).tcSt EH d 1 ∗ held (T d) SU (W2 m d (hok.row d))) -∗ Φ ⟨⟩))
      ⊢ wp frame (wpE ((K (F := F)).defs (D (F := F))) 𝒱 (SparseCore.T d) none) Set.univ ((K (F := F)).run d 0) Φ := by
  iintro ⟨#Hctx, Hst, Hheld, HΦ⟩
  ihave H := (held_swap (F := F) T0_sub (W2_off m d (hok.row d)) (T d)) $$ Hheld
  icases H with ⟨HT, Hback⟩
  ihave HT' := (Entails.of_eq (held_T0 (F := F) d (W1 m d))) $$ HT
  iapply ((K (F := F)).wp_run (D (F := F)) 𝒱 (EH := EH) (P := PP m hok) κ d 0) $$ [Hst HT' Hback HΦ]
  isplitr; · iexact Hctx
  isplitl [Hst]; · iexact Hst
  isplitl [HT']
  · iapply (st_of_whole0 (handed m hok) d); iexact HT'
  iintro ⟨Hst, Hdn⟩
  ihave Hw := (whole_of_dn0 (handed m hok) d) $$ Hdn
  iapply HΦ
  isplitl [Hst]; · iexact Hst
  iapply Hback
  rw [held_T0, W2_v1, W2_v8 m hok]
  iexact Hw

/-! ## Call 1: the packed words, the feature rows and the aggregated rows' array -/

def T1 : Finset (DevRef τ sig) := {dr main_v20, dr main_v16, dr main_v21}

omit [FloatOps F] in
theorem T1_sub : T1 ⊆ SU := by
  intro b hb
  simp only [T1, Finset.mem_insert, Finset.mem_singleton] at hb
  rcases hb with rfl | rfl | rfl <;> exact mem_SU rfl

omit [FloatOps F] in
theorem held_T1 (d : Dev nD) (W : Valuation τ sig (Elt F)) :
    (held (T d) T1 W : sProp 𝕄)
      = iprop((v20Loc d ↦{fullShare} W (dr main_v20)) ∗ (v16Loc d ↦{fullShare} W (dr main_v16)) ∗ (v21Loc d ↦{fullShare} W (dr main_v21))) := by
  unfold held T1
  rw [SparseCore.bigSep_insert' (by decide), SparseCore.bigSep_insert' (by decide), bigSep_singleton]

theorem W8_off (d : Dev nD) (hr : Histo.RowOK (rowWords m d)) (hpk : Edge.PackedOK (packedWords m d hr)) :
    ∀ b ∈ SU \ T1, W7 m d hr b = W8 m d hr hpk b := fun b hb => by
  have hb' := (Finset.mem_sdiff.mp hb).2
  unfold W8
  rw [Function.update_of_ne]
  rintro rfl
  exact hb' (by simp [T1])

theorem W8_v20 (d : Dev nD) (hr : Histo.RowOK (rowWords m d)) (hpk : Edge.PackedOK (packedWords m d hr)) :
    W8 m d hr hpk (dr main_v20) = W7 m d hr (dr main_v20) :=
  Function.update_of_ne (show dr main_v20 ≠ dr main_v21 by decide) _ _
theorem W8_v16 (d : Dev nD) (hr : Histo.RowOK (rowWords m d)) (hpk : Edge.PackedOK (packedWords m d hr)) :
    W8 m d hr hpk (dr main_v16) = W7 m d hr (dr main_v16) :=
  Function.update_of_ne (show dr main_v16 ≠ dr main_v21 by decide) _ _
theorem W8_v21 (d : Dev nD) : W8 m d (hok.row d) (hok.packed d) (dr main_v21) = aggBuf (handed m hok) d :=
  Function.update_self _ _ _

/-- The call's three arrays at the valuation before it, as what the call is handed. -/
theorem held_T1h (d : Dev nD) :
    (held (T d) T1 (W7 m d (hok.row d)) : sProp 𝕄)
      = iprop((v20Loc d ↦{fullShare} (handed m hok).pk d) ∗ (v16Loc d ↦{fullShare} (handed m hok).vpt d) ∗ (v21Loc d ↦{fullShare} (handed m hok).h21 d)) :=
  held_T1 d _

/-- The edge call, likewise; what is left of the two arrays every tile reads stays with the TensorCore meanwhile. -/
theorem run1 (κ : GSem nD τ sig → ℕ) (d : Dev nD) {Φ : PUnit → sProp 𝕄} :
    iprop((K (F := F)).ctx EH (PP m hok) κ ∗ (K (F := F)).tcSt EH d 1 ∗ held (T d) SU (W7 m d (hok.row d))
        ∗ (((K (F := F)).tcSt EH d 2 ∗ held (T d) SU (W8 m d (hok.row d) (hok.packed d))) -∗ Φ ⟨⟩))
      ⊢ wp frame (wpE ((K (F := F)).defs (D (F := F))) 𝒱 (SparseCore.T d) none) Set.univ ((K (F := F)).run d 1) Φ := by
  iintro ⟨#Hctx, Hst, Hheld, HΦ⟩
  ihave H := (held_swap (F := F) T1_sub (W8_off m d (hok.row d) (hok.packed d)) (T d)) $$ Hheld
  icases H with ⟨HT, Hback⟩
  ihave HT' := (Entails.of_eq (held_T1h m hok d)) $$ HT
  ihave Hs := (st_of_whole1 (handed m hok) d) $$ HT'
  icases Hs with ⟨Hr20, Hr16, Hst1⟩
  iapply ((K (F := F)).wp_run (D (F := F)) 𝒱 (EH := EH) (P := PP m hok) κ d 1) $$ [Hst Hst1 Hr20 Hr16 Hback HΦ]
  isplitr; · iexact Hctx
  isplitl [Hst]; · iexact Hst
  isplitl [Hst1]; · iexact Hst1
  iintro ⟨Hst, Hdn⟩
  ihave Hw := (whole_of_dn1 (handed m hok) d) $$ [Hr20 Hr16 Hdn]
  · isplitl [Hr20]; · iexact Hr20
    isplitl [Hr16]; · iexact Hr16
    iexact Hdn
  iapply HΦ
  isplitl [Hst]; · iexact Hst
  iapply Hback
  rw [held_T1, W8_v20, W8_v16, W8_v21 m hok]
  iexact Hw

end Cert.Proof.KI

end
-- ==== Proof.KI.MainEq.lean ====
/-
  The TensorCore's program of the launch as six straight lines of host operations with the five calls between them:
  the printed `main` unfolds to this composition by computation.
-/
import proofs.«207992_g50208167690906_cont_8to1c4_731_36_alg».proof.Proof.KI.Base
import proofs.«207992_g50208167690906_cont_8to1c4_731_36_alg».proof.Proof.KI.MainOps

noncomputable section

namespace Cert.Proof.KI

open Cert.KernelIdeal Cert.KernelIdeal.Gen

open Idealize.ShloMosaic Idealize.SL.Sem
open Idealize.ShloMosaic.StableHlo (seq)
open Cert.Proof.KI.MainOps

variable {F : FTy → Type} [FloatOps F]

/-- The three TensorCore calls' lines in @main. -/
abbrev regionCall (p : Fin 3) : Prog (TpuEff nD τ sig (Elt F) (SparseCore.Sig (ΛP (F := F)) 2) .tc) PUnit :=
  Prog.lift (.customCall (SparseCore.inner (Pipeline.entry p)) ())

/-- @main, stretch by stretch: host operations, the histogram call, host operations, the scaling region, host
    operations, the packing region, one host operation, the edge call, host operations, the dense region, host
    operations. -/
def mainSplit (d : Dev nD) : Prog (TpuEff nD τ sig (Elt F) (SparseCore.Sig (ΛP (F := F)) 2) .tc) PUnit :=
  seq ops0 >>= fun _ => (K (F := F)).run d 0 >>= fun _ => seq ops1 >>= fun _ =>
  regionCall 0 >>= fun _ => seq ops2 >>= fun _ =>
  regionCall 1 >>= fun _ => seq ops3 >>= fun _ =>
  (K (F := F)).run d 1 >>= fun _ => seq ops4 >>= fun _ =>
  regionCall 2 >>= fun _ => seq ops5

set_option maxRecDepth 8192 in
set_option maxHeartbeats 4000000 in
theorem main_eq (d : Dev nD) : main (F := F) d = mainSplit d := rfl

end Cert.Proof.KI

end
-- ==== Proof.KI.Elem.lean ====
/-
  The launch element of the ghost state: the handshakes' rounds at their launch, the three pipelines' staging cells'
  rounds at theirs, the local transfers' counters at nothing. From it the launch deals the handshakes' component to
  the launch theorem and, to each device's TensorCore, the ghost state of the three pipelines' staging cells; the
  kernels' own proofs are dealt nothing.
-/
import proofs.«207992_g50208167690906_cont_8to1c4_731_36_alg».proof.Proof.KI.Base
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- No pipeline has a prefetched table: each is admissible at none. -/
abbrev adm (p : Fin 3) : (pcfgs (F := F) p).Adm := (cfgs p).toPCfg_adm

/-- What @main's proof starts from on device `d`, beyond what the launch deals every TensorCore: the ghost state
    of the three pipelines' staging cells. -/
abbrev G (d : Dev nD) : sProp 𝕄 := Pipeline.ghostOn (pcfgs (F := F)) adm EP Finset.univ d

/-- The launch element. -/
def u₀ : UU :=
  (initOf (K (F := F)).hsCells (K (F := F)).hsToks,
    (initOf (Pipeline.cells cfgs Gen.cellOf_inj) (Pipeline.launchToks cfgs Gen.cellOf_inj), 1))

theorem bigSep_emp' {I : Type} (s : Finset I) : (bigSep s fun _ => iprop(emp)) = (iprop(emp) : sProp 𝕄) := bigSep_emp_const s

/-- The staging cells' ghost state and duty tokens, regrouped per device. -/
theorem ghost_join :
    iprop((bigSep Finset.univ fun c : Dev nD => bigSep Finset.univ fun p : Fin 3 => Pipeline.cellsGhost (Pipeline.pin (pcfgs (F := F)) adm) EP p c)
        ∗ (bigSep Finset.univ fun c : Dev nD => bigSep Finset.univ fun p : Fin 3 => (Pipeline.toksInit (Pipeline.pin (pcfgs (F := F)) adm) EP p c : sProp 𝕄)))
      ⊢ bigSep Finset.univ fun c : Dev nD => (G c : sProp 𝕄) := by
  rw [← bigSep_sep']
  exact bigSep_mono fun c _ => show iprop((bigSep Finset.univ fun p : Fin 3 => Pipeline.cellsGhost (Pipeline.pin (pcfgs (F := F)) adm) EP p c)
        ∗ bigSep Finset.univ fun p : Fin 3 => (Pipeline.toksInit (Pipeline.pin (pcfgs (F := F)) adm) EP p c : sProp 𝕄)) ⊢ G c
    from Entails.of_eq (by
      show _ = Pipeline.PerCore.ghostOn (pcfgs (F := F)) (fun _ => adm) EP Finset.univ c
      unfold Pipeline.PerCore.ghostOn; rw [bigSep_sep'])

/-- The staging cells' component of the launch element, through its embedding. -/
theorem own_EP :
    (BI.own ((embR : Emb (UK × Counters) 𝕄) (initOf (Pipeline.cells cfgs Gen.cellOf_inj) (Pipeline.launchToks cfgs Gen.cellOf_inj), (1 : Counters))) : sProp 𝕄)
      ⊢ BI.own ((EP : Emb UK 𝕄) (initOf (Pipeline.cells (Pipeline.pin (pcfgs (F := F)) adm) Gen.cellOf_inj)
          (Pipeline.launchToks (Pipeline.pin (pcfgs (F := F)) adm) Gen.cellOf_inj))) := by
  have h2 : iprop(BI.own (((Emb.inl : Emb UK (UK × Counters)).trans (embR : Emb (UK × Counters) 𝕄))
          (initOf (Pipeline.cells cfgs Gen.cellOf_inj) (Pipeline.launchToks cfgs Gen.cellOf_inj)))
        ∗ BI.own (((Emb.inr : Emb Counters (UK × Counters)).trans (embR : Emb (UK × Counters) 𝕄)) (1 : Counters)))
      ⊢ (BI.own ((EP : Emb UK 𝕄) (initOf (Pipeline.cells (Pipeline.pin (pcfgs (F := F)) adm) Gen.cellOf_inj)
          (Pipeline.launchToks (Pipeline.pin (pcfgs (F := F)) adm) Gen.cellOf_inj))) : sProp 𝕄) := by
    unfold EP
    iintro ⟨H, -⟩
    iexact H
  exact (own_pair_emb (embR : Emb (UK × Counters) 𝕄) _ (1 : Counters)).trans h2

/-- The launch element splits into the handshakes' rounds, each device's pipelines' ghost state, and nothing for the
    kernels' own proofs. -/
theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => P.x q thr) := by
  unfold u₀
  iintro Hu
  ihave H := (ownU_pair _ _) $$ Hu
  icases H with ⟨HH, HR⟩
  ihave HP := (own_EP (F := F)) $$ HR
  imod (Pipeline.fund_ghost (Pipeline.pin (pcfgs (F := F)) adm) EP Gen.cellOf_inj) $$ HP with ⟨Hg, Ht⟩
  imodintro
  isplitl [HH]; · iexact HH
  isplitl [Hg Ht]
  · iapply ghost_join
    isplitl [Hg]; · iexact Hg
    iexact Ht
  rw [hx]
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI

end
-- ==== Proof.KI.Main.lean ====
/-
  @main on a device's TensorCore: six straight lines of host operations over the held set of all its unscoped
  arrays, the two SparseCore calls and the three TensorCore regions between them, each taking its own arrays out
  of the set and putting them back at the next valuation of the chain. What is left at the return: the handshake
  state after both calls and the whole set at the last valuation.
-/
import proofs.«207992_g50208167690906_cont_8to1c4_731_36_alg».proof.Proof.KI.Calls
import proofs.«207992_g50208167690906_cont_8to1c4_731_36_alg».proof.Proof.KI.MainEq
import proofs.«207992_g50208167690906_cont_8to1c4_731_36_alg».proof.Proof.KI.Elem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq wp_seq)
open Cert.Proof.KI.MainOps

variable {F : FTy → Type} [FloatOps F]

local notation "𝕄" => MT nD τ sig (HIx 2) (Elt F) ℕ UU ℕ

/-! ## The regions' results, as rewritings of a valuation -/

/-- The scaling region's two results, written into a valuation. -/
def scaleOut (W : Valuation τ sig (Elt F)) : Valuation τ sig (Elt F) :=
  Function.update
    (Function.update W (dr main_v13_0) (Region.scale0 (W (dr main_arg0)) (W (dr main_v12))))
    (dr main_v13_1) (Region.scale1 (W (dr main_v5)) (W (dr main_v12)))

/-- The packing region's result. -/
def packOut (W : Valuation τ sig (Elt F)) : Valuation τ sig (Elt F) :=
  Function.update W (dr main_v19) (Region.pack (F := F) (W (dr main_v17)) (W (dr main_v18)))

/-- The dense region's three results. -/
def denseOut (W : Valuation τ sig (Elt F)) : Valuation τ sig (Elt F) :=
  Function.update
    (Function.update
      (Function.update W (dr main_v46_0) (denseOut0 W))
      (dr main_v46_1) (denseOut1 W))
    (dr main_v46_2) (denseOut2 W)

/-- The regions' arrays: every window's, operands and results. -/
def R0 : Finset (DevRef τ sig) := {dr main_arg0, dr main_v5, dr main_v12, dr main_v13_0, dr main_v13_1}
def R1 : Finset (DevRef τ sig) := {dr main_v17, dr main_v18, dr main_v19}
def R2 : Finset (DevRef τ sig) :=
  {dr main_arg0, dr main_v5, dr main_v7, dr main_v24, dr main_v25, dr main_v12, dr main_v29, dr main_v33, dr main_v37,
    dr main_v41, dr main_v44, dr main_arg7, dr main_arg9, dr main_v45, dr main_v46_0, dr main_v46_1, dr main_v46_2}

omit [FloatOps F] in
theorem R0_sub : R0 ⊆ SU := by
  intro b hb
  simp only [R0, Finset.mem_insert, Finset.mem_singleton] at hb
  rcases hb with rfl | rfl | rfl | rfl | rfl <;> exact mem_SU rfl
omit [FloatOps F] in
theorem R1_sub : R1 ⊆ SU := by
  intro b hb
  simp only [R1, Finset.mem_insert, Finset.mem_singleton] at hb
  rcases hb with rfl | rfl | rfl <;> exact mem_SU rfl
omit [FloatOps F] in
theorem R2_sub : R2 ⊆ SU := by
  intro b hb
  simp only [R2, Finset.mem_insert, Finset.mem_singleton] at hb
  rcases hb with rfl | rfl | rfl | rfl | rfl | rfl | rfl | rfl | rfl | rfl | rfl | rfl | rfl | rfl | rfl | rfl | rfl <;> exact mem_SU rfl

theorem scaleOut_off (W : Valuation τ sig (Elt F)) : ∀ b ∈ SU \ R0, W b = scaleOut W b := fun b hb => by
  have hb' := (Finset.mem_sdiff.mp hb).2
  unfold scaleOut
  rw [Function.update_of_ne (by rintro rfl; exact hb' (by simp [R0])), Function.update_of_ne (by rintro rfl; exact hb' (by simp [R0]))]
theorem packOut_off (W : Valuation τ sig (Elt F)) : ∀ b ∈ SU \ R1, W b = packOut W b := fun b hb => by
  have hb' := (Finset.mem_sdiff.mp hb).2
  unfold packOut
  rw [Function.update_of_ne (by rintro rfl; exact hb' (by simp [R1]))]
theorem denseOut_off (W : Valuation τ sig (Elt F)) : ∀ b ∈ SU \ R2, W b = denseOut W b := fun b hb => by
  have hb' := (Finset.mem_sdiff.mp hb).2
  unfold denseOut
  rw [Function.update_of_ne (by rintro rfl; exact hb' (by simp [R2])), Function.update_of_ne (by rintro rfl; exact hb' (by simp [R2])),
    Function.update_of_ne (by rintro rfl; exact hb' (by simp [R2]))]

/-! ## What a region is asked -/

/-- What the TensorCore owes before call `n`, its recorded waits bounded: the first factor of its handshake state. -/
abbrev owesTc (d : Dev nD) (n : ℕ) : sProp 𝕄 :=
  iprop(∃ W, ⌜(K (F := F)).WBelow (T d) W (8 * n)⌝ ∗ owes (T d) ((K (F := F)).Otc d n) W)

/-- Pipeline `p`'s staging cells' ghost state on device `d`, as the launch deals it. -/
abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

variable (P : (K (F := F)).Pay (nD := nD) (Val := Elt F) (Name := ℕ) (U := UU))

/-- A region's account over its own arrays held whole: from any valuation of them to the valuation with its results
    written, consuming its pipeline's ghost state; the boundary and what the TensorCore owes go in and come back. -/
def RegionSpec (p : Fin 3) (R : Finset (DevRef τ sig)) (out : Valuation τ sig (Elt F) → Valuation τ sig (Elt F)) : Prop :=
  ∀ (κ : GSem nD τ sig → ℕ) (d : Dev nD) (n : ℕ) (W : Valuation τ sig (Elt F)) (Φ : PUnit → sProp 𝕄),
    iprop((K (F := F)).ctx EH P κ ∗ boundary (T d) ∗ owesTc d n ∗ ghostAt p d ∗ held (T d) R W
        ∗ ((boundary (T d) ∗ owesTc d n ∗ held (T d) R (out W)) -∗ Φ ⟨⟩))
      ⊢ wp frame (wpE ((K (F := F)).defs (D (F := F))) 𝒱 (SparseCore.T d) none) Set.univ (regionCall p) Φ

/-! ## The steps, each ahead of a continuation -/

section Steps

variable {β : Type} (k : PUnit → Prog (TpuEff nD τ sig (Elt F) (SparseCore.Sig (ΛP (F := F)) 2) .tc) β) (Ψ : β → sProp (MT nD τ sig (HIx 2) (Elt F) ℕ UU ℕ))

set_option backward.isDefEq.respectTransparency.types false in
/-- A straight line of host operations over the held set. -/
theorem seq_step (d : Dev nD) (ops : List (HloOp τ sig (Elt F))) (hS : ∀ op ∈ ops, op.bufs ⊆ SU) (hf : ∀ op ∈ ops, op.fresh = ∅)
    (W : Valuation τ sig (Elt F)) :
    iprop(boundary (T d) ∗ held (T d) SU W
        ∗ ((boundary (T d) ∗ held (T d) SU (after ops W)) -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ (seq ops >>= k) Ψ := by
  iintro ⟨Hb, Hh, Hk⟩
  iapply (wp_seq (defs := (K (F := F)).defs (D (F := F))) 𝒱 none Set.univ d SU k ops hS hf W) $$ [Hb Hh]
  · isplitl [Hb]; · iexact Hb
    iexact Hh
  iexact Hk

variable (m : (ℓ : Loc nD τ sig) → Buf (Elt F) ℓ) (hok : PreOK m)

/-- The histogram call ahead of a continuation. -/
theorem run0_step (κ : GSem nD τ sig → ℕ) (d : Dev nD) :
    iprop((K (F := F)).ctx EH (PP m hok) κ ∗ (K (F := F)).tcSt EH d 0 ∗ held (T d) SU (W1 m d)
        ∗ (((K (F := F)).tcSt EH d 1 ∗ held (T d) SU (W2 m d (hok.row d)))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 0 >>= k) Ψ := by
  rw [wp_bind]
  exact run0 m hok κ d (Φ := fun x => wp frame (wpE ((K (F := F)).defs (D (F := F))) 𝒱 (SparseCore.T d) none) Set.univ (k x) Ψ)

/-- The edge call ahead of a continuation. -/
theorem run1_step (κ : GSem nD τ sig → ℕ) (d : Dev nD) :
    iprop((K (F := F)).ctx EH (PP m hok) κ ∗ (K (F := F)).tcSt EH d 1 ∗ held (T d) SU (W7 m d (hok.row d))
        ∗ (((K (F := F)).tcSt EH d 2 ∗ held (T d) SU (W8 m d (hok.row d) (hok.packed d)))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 1 >>= k) Ψ := by
  rw [wp_bind]
  exact run1 m hok κ d (Φ := fun x => wp frame (wpE ((K (F := F)).defs (D (F := F))) 𝒱 (SparseCore.T d) none) Set.univ (k x) Ψ)

/-- The handshake state's first factor is what the TensorCore owes. -/
theorem tcSt_owes (d : Dev nD) (n : ℕ) : ∃ R : sProp 𝕄, (K (F := F)).tcSt EH d n = iprop(owesTc d n ∗ R) := ⟨_, rfl⟩

/-- A region ahead of a continuation, over the held set: its arrays out, the region, its arrays back. -/
theorem region_step {p : Fin 3} {R : Finset (DevRef τ sig)} {out : Valuation τ sig (Elt F) → Valuation τ sig (Elt F)}
    (h : RegionSpec P p R out) (hR : R ⊆ SU) (hoff : ∀ W, ∀ b ∈ SU \ R, W b = out W b)
    (κ : GSem nD τ sig → ℕ) (d : Dev nD) (n : ℕ) (W : Valuation τ sig (Elt F)) :
    iprop((K (F := F)).ctx EH P κ ∗ boundary (T d) ∗ (K (F := F)).tcSt EH d n ∗ ghostAt p d ∗ held (T d) SU W
        ∗ ((boundary (T d) ∗ (K (F := F)).tcSt EH d n ∗ held (T d) SU (out W))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ (regionCall p >>= k) Ψ := by
  obtain ⟨Rest, hRest⟩ := tcSt_owes (F := F) d n
  rw [wp_bind, hRest]
  iintro ⟨#Hctx, Hb, ⟨Ho, Hrest⟩, Hg, Hheld, Hk⟩
  ihave H := (held_swap (F := F) hR (hoff W) (T d)) $$ Hheld
  icases H with ⟨HT, Hback⟩
  iapply (h κ d n W _) $$ [Hb Ho Hg HT Hrest Hback Hk]
  isplitr; · iexact Hctx
  isplitl [Hb]; · iexact Hb
  isplitl [Ho]; · iexact Ho
  isplitl [Hg]; · iexact Hg
  isplitl [HT]; · iexact HT
  iintro ⟨Hb, Ho, HT⟩
  iapply Hk
  isplitl [Hb]; · iexact Hb
  isplitl [Ho Hrest]
  · isplitl [Ho]; · iexact Ho
    iexact Hrest
  iapply Hback
  iexact HT

end Steps

/-! ## @main -/

variable (m : (ℓ : Loc nD τ sig) → Buf (Elt F) ℓ) (ρ : Dev nD → PrngReg) (hok : PreOK m)

/-- What @main leaves: the whole set at the last valuation. -/
abbrev FIN (d : Dev nD) : sProp 𝕄 := held (T d) SU (W11 m d (hok.row d) (hok.packed d))

omit [FloatOps F] in
/-- The three pipelines' ghost state, one by one. -/
theorem G_split (d : Dev nD) : (G (F := F) d : sProp 𝕄) = iprop(ghostAt 0 d ∗ ghostAt 1 d ∗ ghostAt 2 d) := by
  show Pipeline.PerCore.ghostOn (pcfgs (F := F)) (fun _ => adm) EP Finset.univ d = _
  unfold Pipeline.PerCore.ghostOn
  rw [Gen.bigSep_W2]

/-- @main on device `d`'s TensorCore. -/
theorem hmain (h0 : RegionSpec (PP m hok) 0 R0 scaleOut) (h1 : RegionSpec (PP m hok) 1 R1 packOut) (h2 : RegionSpec (PP m hok) 2 R2 denseOut)
    (κ : GSem nD τ sig → ℕ) (d : Dev nD) :
    iprop((K (F := F)).ctx EH (PP m hok) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m hok d) := by
  unfold SparseCore.Cfg.tcRes
  rw [unscoped_held, main_eq, G_split]
  unfold mainSplit
  iintro ⟨#Hctx, Hst, ⟨Hb, Hheld, -, -⟩, Hg0, Hg1, Hg2⟩
  -- the first line
  iapply (seq_step _ _ d ops0 ops0_sub ops0_fresh (W0 m d)) $$ [Hb Hheld Hst Hg0 Hg1 Hg2]
  isplitl [Hb]; · iexact Hb
  isplitl [Hheld]; · iexact Hheld
  iintro ⟨Hb, Hheld⟩
  -- the histogram call
  iapply (run0_step _ _ m hok κ d) $$ [Hb Hheld Hst Hg0 Hg1 Hg2]
  isplitr; · iexact Hctx
  isplitl [Hst]; · iexact Hst
  isplitl [Hheld]; · iexact Hheld
  iintro ⟨Hst, Hheld⟩
  -- the second line
  iapply (seq_step _ _ d ops1 ops1_sub ops1_fresh (W2 m d (hok.row d))) $$ [Hb Hheld Hst Hg0 Hg1 Hg2]
  isplitl [Hb]; · iexact Hb
  isplitl [Hheld]; · iexact Hheld
  iintro ⟨Hb, Hheld⟩
  -- the scaling region
  iapply (region_step (PP m hok) _ _ h0 R0_sub scaleOut_off κ d 1 (W3 m d (hok.row d))) $$ [Hb Hheld Hst Hg0 Hg1 Hg2]
  isplitr; · iexact Hctx
  isplitl [Hb]; · iexact Hb
  isplitl [Hst]; · iexact Hst
  isplitl [Hg0]; · iexact Hg0
  isplitl [Hheld]; · iexact Hheld
  iintro ⟨Hb, Hst, Hheld⟩
  -- the third line
  iapply (seq_step _ _ d ops2 ops2_sub ops2_fresh (W4 m d (hok.row d))) $$ [Hb Hheld Hst Hg1 Hg2]
  isplitl [Hb]; · iexact Hb
  isplitl [Hheld]; · iexact Hheld
  iintro ⟨Hb, Hheld⟩
  -- the packing region
  iapply (region_step (PP m hok) _ _ h1 R1_sub packOut_off κ d 1 (W5 m d (hok.row d))) $$ [Hb Hheld Hst Hg1 Hg2]
  isplitr; · iexact Hctx
  isplitl [Hb]; · iexact Hb
  isplitl [Hst]; · iexact Hst
  isplitl [Hg1]; · iexact Hg1
  isplitl [Hheld]; · iexact Hheld
  iintro ⟨Hb, Hst, Hheld⟩
  -- the fourth line
  iapply (seq_step _ _ d ops3 ops3_sub ops3_fresh (W6 m d (hok.row d))) $$ [Hb Hheld Hst Hg2]
  isplitl [Hb]; · iexact Hb
  isplitl [Hheld]; · iexact Hheld
  iintro ⟨Hb, Hheld⟩
  -- the edge call
  iapply (run1_step _ _ m hok κ d) $$ [Hb Hheld Hst Hg2]
  isplitr; · iexact Hctx
  isplitl [Hst]; · iexact Hst
  isplitl [Hheld]; · iexact Hheld
  iintro ⟨Hst, Hheld⟩
  -- the fifth line
  iapply (seq_step _ _ d ops4 ops4_sub ops4_fresh (W8 m d (hok.row d) (hok.packed d))) $$ [Hb Hheld Hst Hg2]
  isplitl [Hb]; · iexact Hb
  isplitl [Hheld]; · iexact Hheld
  iintro ⟨Hb, Hheld⟩
  -- the dense region
  iapply (region_step (PP m hok) _ _ h2 R2_sub denseOut_off κ d 2 (W9 m d (hok.row d) (hok.packed d))) $$ [Hb Hheld Hst Hg2]
  isplitr; · iexact Hctx
  isplitl [Hb]; · iexact Hb
  isplitl [Hst]; · iexact Hst
  isplitl [Hg2]; · iexact Hg2
  isplitl [Hheld]; · iexact Hheld
  iintro ⟨Hb, Hst, Hheld⟩
  -- the last line, and the return
  rw [show (seq (ops5 (F := F)) : Prog (TpuEff nD τ sig (Elt F) (SparseCore.Sig (ΛP (F := F)) 2) .tc) PUnit) = seq ops5 >>= fun _ => pure ⟨⟩ from (bind_pure _).symm]
  iapply (seq_step _ _ d ops5 ops5_sub ops5_fresh (W10 m d (hok.row d) (hok.packed d))) $$ [Hb Hheld Hst]
  isplitl [Hb]; · iexact Hb
  isplitl [Hheld]; · iexact Hheld
  iintro ⟨-, Hheld⟩
  rw [wp_pure]; imodintro
  isplitl [Hst]; · iexact Hst
  iexact Hheld

end Cert.Proof.KI

end
-- ==== Proof.KI.Run.lean ====
/-
  The program's run: every weakly fair execution of the mesh's threads from a memory whose counters are zero
  terminates, and at its end every unscoped array of every TensorCore holds what the chain's last valuation gives
  it; an array @main never writes holds its launch contents. The launch theorem applied to the two kernels' tile
  obligations, how a SparseCore's operands split among its tiles, @main's proof, the launch element, and the reading
  of the final memory.
-/
import proofs.«207992_g50208167690906_cont_8to1c4_731_36_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq after_of_writes_sub)
open Cert.Proof.KI.MainOps

variable {F : FTy → Type} [FloatOps F]

local notation "𝕄" => MT nD τ sig (HIx 2) (Elt F) ℕ UU ℕ

variable (m : (ℓ : Loc nD τ sig) → Buf (Elt F) ℓ) (ρ : Dev nD → PrngReg) (hok : PreOK m)

/-! ## Reading the final memory -/

omit [FloatOps F] in
/-- Under the state interpretation a held array pins the memory's contents of it. -/
theorem held_agree (d : Dev nD) {S : Finset (DevRef τ sig)} (W : Valuation τ sig (Elt F)) {b : DevRef τ sig} (hb : b ∈ S)
    (s' : Phys nD τ sig (Elt F)) :
    iprop(held (T d) S W ∗ SI s') ⊢ (⌜s'.mem.mem (d, b) = W b⌝ : sProp 𝕄) := by
  have h1 : (held (T d) S W : sProp 𝕄) ⊢ ((d, b) ↦{fullShare} W b : sProp 𝕄) := bigSep_elim hb
  iintro ⟨Hh, HSI⟩
  ihave Hx := h1 $$ Hh
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

/-- What the final memory is asked on device `d`: every unscoped array at the last valuation. -/
def fq (d : Dev nD) (s' : Phys nD τ sig (Elt F)) : Prop :=
  ∀ b : {b : DevRef τ sig // b ∈ SU}, s'.mem.mem (d, b.1) = W11 m d (hok.row d) (hok.packed d) b.1

theorem hfin (d : Dev nD) (s' : Phys nD τ sig (Elt F)) : iprop(FIN m hok d ∗ SI s') ⊢ (⌜fq m hok d s'⌝ : sProp 𝕄) :=
  (forall_intro fun b : {b : DevRef τ sig // b ∈ SU} => held_agree d _ b.2 s').trans pure_forall.2

/-- The run's post: on every device every unscoped array of the TensorCore ends at the last valuation. -/
def QC : PUnit × MemSt nD τ sig (Elt F) → Prop :=
  fun r => ∀ (c : Dev nD) (b : DevRef τ sig), b ∈ SU → r.2.mem (c, b) = W11 m c (hok.row c) (hok.packed c) b

/-! ## The run -/

theorem run_main [∀ e, Nonempty (Elt F e)]
    (htile0 : (K (F := F)).TileObl (D (F := F)) 𝒱 (PP m hok) v₀ 0) (htile1 : (K (F := F)).TileObl (D (F := F)) 𝒱 (PP m hok) v₀ 1)
    (h0 : RegionSpec (PP m hok) 0 R0 scaleOut) (h1 : RegionSpec (PP m hok) 1 R1 packOut) (h2 : RegionSpec (PP m hok) 2 R2 denseOut) :
    θ_run (Cert.KernelIdeal.defs (F := F)) (Cert.KernelIdeal.threads (F := F)) ⟨m, fun _ => 0, ρ⟩ (QC m hok) :=
  SparseCore.Cfg.θ_run_sc (K := K (F := F)) (D := D (F := F)) (𝒱 := 𝒱) (EH := EH) (P := PP m hok) facts v₀
    (fun q hq => match q with | 0 => nomatch hq | 1 => nomatch hq)
    (fun q _ => match q with | 0 => htile0 | 1 => htile1)
    (fun q _ => SparseCore.Cfg.VecSplit.of_plain (vecSplit (handed m hok) q))
    m ρ main (fun d => G d) (FIN m hok) (u₀ (F := F)) (sep_elim_left.trans (hu₀ (PP m hok) rfl)) (hmain m ρ hok h0 h1 h2)
    (fq m hok) (hfin m hok) (QC m hok) (fun _ h c b hb => h c ⟨b, hb⟩)

/-! ## The arrays @main never writes keep their launch contents -/

/-- Every reference some operation or call of @main writes. -/
def written : List (Ref sig .tc) :=
  [main_v0, main_v1, main_v2, main_v3, main_v4, main_v5, main_v6, main_v7, main_v9, main_cst, main_v10, main_v11, main_v12, main_v14, main_v15, main_v16, main_v17, main_v18, main_v20, main_v22, main_v23, main_v24, main_v25, main_v26, main_v27, main_v28, main_v29, main_v30, main_v31, main_v32, main_v33, main_v34, main_v35, main_v36, main_v37, main_v38, main_v39, main_v40, main_v41, main_v42, main_v43, main_v44, main_v45, main_v47, main_v48, main_v49, main_v8, main_v13_0, main_v13_1, main_v19, main_v21, main_v46_0, main_v46_1, main_v46_2]

omit [FloatOps F] in
theorem wr {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map.mpr ⟨y, h, rfl⟩))

theorem ops0_writes : (ops0 : List (HloOp τ sig (Elt F))).Forall fun op => op.writes ⊆ (written.map (Proc.devRef (τ := τ) .tc)).toFinset :=
  ⟨wr (by decide), wr (by decide), wr (by decide), wr (by decide), wr (by decide), wr (by decide), wr (by decide), wr (by decide)⟩
theorem ops1_writes : (ops1 : List (HloOp τ sig (Elt F))).Forall fun op => op.writes ⊆ (written.map (Proc.devRef (τ := τ) .tc)).toFinset :=
  ⟨wr (by decide), wr (by decide), wr (by decide), wr (by decide), wr (by decide)⟩
theorem ops2_writes : (ops2 : List (HloOp τ sig (Elt F))).Forall fun op => op.writes ⊆ (written.map (Proc.devRef (τ := τ) .tc)).toFinset :=
  ⟨wr (by decide), wr (by decide), wr (by decide), wr (by decide), wr (by decide)⟩
theorem ops3_writes : (ops3 : List (HloOp τ sig (Elt F))).Forall fun op => op.writes ⊆ (written.map (Proc.devRef (τ := τ) .tc)).toFinset :=
  wr (by decide)
theorem ops4_writes : (ops4 : List (HloOp τ sig (Elt F))).Forall fun op => op.writes ⊆ (written.map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩
theorem ops5_writes : (ops5 : List (HloOp τ sig (Elt F))).Forall fun op => op.writes ⊆ (written.map (Proc.devRef (τ := τ) .tc)).toFinset :=
  ⟨wr (by decide), wr (by decide), wr (by decide)⟩

omit [FloatOps F] in
/-- Rewriting a written reference's array leaves an unwritten one's alone. -/
theorem update_unwritten {r y : Ref sig .tc} (hr : r ∉ written) (hy : y ∈ written) (W : Valuation τ sig (Elt F)) (v : (dr y).ty.Contents (Elt F)) :
    Function.update W (dr y) v (dr r) = W (dr r) :=
  Function.update_of_ne (fun e => hr (by
    have h : r = y := Proc.devRef_injective (.tc : Proc τ) e
    exact h ▸ hy)) _ _

/-- An array @main never writes holds its launch contents at the last valuation. -/
theorem W11_unwritten {r : Ref sig .tc} (hr : r ∉ written) (d : Dev nD) (h1 : Histo.RowOK (rowWords m d)) (h2 : Edge.PackedOK (packedWords m d h1)) :
    W11 m d h1 h2 (dr r) = m (d, dr r) := by
  unfold W11 W10 W9 W8 W7 W6 W5 W4 W3 W2 W1 W0
  rw [after_of_writes_sub _ _ ops5_writes hr,
    update_unwritten hr (by decide), update_unwritten hr (by decide), update_unwritten hr (by decide),
    after_of_writes_sub _ _ ops4_writes hr, update_unwritten hr (by decide),
    after_of_writes_sub _ _ ops3_writes hr, update_unwritten hr (by decide),
    after_of_writes_sub _ _ ops2_writes hr, update_unwritten hr (by decide), update_unwritten hr (by decide),
    after_of_writes_sub _ _ ops1_writes hr, update_unwritten hr (by decide),
    after_of_writes_sub _ _ ops0_writes hr]

/-! ## The post, at the two results and the eleven arguments -/

/-- @main's arguments. -/
def argRefs : List (Ref sig .tc) :=
  [main_arg0, main_arg1, main_arg2, main_arg3, main_arg4, main_arg5, main_arg6, main_arg7, main_arg8, main_arg9, main_arg10]

omit [FloatOps F] in
theorem arg_unwritten : ∀ r ∈ argRefs, r ∉ written := by decide
omit [FloatOps F] in
theorem arg_unscoped : ∀ r ∈ argRefs, r.isScoped = false := by decide

/-- The run's post read at the two results and at the arguments: the results at the last valuation, every argument
    at its launch contents. -/
theorem QC_results {r : PUnit × MemSt nD τ sig (Elt F)} (h : QC m hok r) (c : Dev nD) :
    r.2.mem (c, dr main_v46_0) = W11 m c (hok.row c) (hok.packed c) (dr main_v46_0)
      ∧ r.2.mem (c, dr main_v49) = W11 m c (hok.row c) (hok.packed c) (dr main_v49)
      ∧ ∀ a ∈ argRefs, r.2.mem (c, dr a) = m (c, dr a) :=
  ⟨h c _ (mem_SU rfl), h c _ (mem_SU rfl),
    fun a ha => (h c _ (mem_SU (arg_unscoped a ha))).trans (W11_unwritten m (arg_unwritten a ha) c _ _)⟩

end Cert.Proof.KI

end
-- ==== Proof.KI.Histo.lean ====
/-
  The per-tile histogram kernel at a symbolic tile, as one triple over explicit resources.

  A tile zeroes its 10240-word accumulator (640 stores of sixteen zeros), copies its 10000 row words into
  its scratch, and in 625 trips reads sixteen of them and adds one, lane by lane in ascending order, onto
  the accumulator at each word read; then it copies the accumulator out to its row of the result. The
  triple states the value exactly: the tile's row of the result ends holding `histTile` of the row words at
  the tile's number — the 625-step recursion of the indexed add from the zero vector. The zeroing loop goes
  by an invariant saying the first `16 k` words are zero; the accumulating loop by one holding the
  accumulator after `k` trips; a trip's sixteen words, read off the scratch, are words
  `10000 w + 16 k …` of the row array by the closed forms of the kernel's offsets.
-/
import proofs.«207992_g50208167690906_cont_8to1c4_731_36_alg».proof.Proof.KI.Base
import proofs.«207992_g50208167690906_cont_8to1c4_731_36_alg».proof.Proof.KI.HistoVal
import Idealize.ShloMosaic.Lib.ValueIdx

noncomputable section

namespace Cert.Proof.KI.Histo

open Cert.KernelIdeal Cert.KernelIdeal.Gen

open Idealize.ShloMosaic Idealize.ShloMosaic.ValueIdx
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the loops' trips compute -/

/-- The indexed add at equal contents and index vectors is the same, whatever the evidence. -/
theorem storeIdx_congr' {f f' : Vec F SH .f32} {i i' : Fin 1 → IVec SL 32} (ef : f = f') (e : i = i') (v : Vec F SL .f32) (m : IVec SL 1) (a : Bool)
    (h : ∀ a x, (i a x).toNat < SH.size a) (h' : ∀ a x, (i' a x).toNat < SH.size a) :
    storeIdx f i v m a h = storeIdx f' i' v m a h' := by subst ef; subst e; rfl

theorem ones_eq : (ones : Vec F SL .f32) = k0_pay2 (F := F) := rfl

/-- A trip of the zeroing loop: sixteen more words of the accumulator are zero. -/
theorem zfill_step (f : (cc0_scratch1 : Ref sig .scVector).ty.Contents (Elt F)) (k : Fin k0_t1_loop.trips)
    (hz : ∀ j : S10240.Idx, (j 0).val < 16 * k.val → f j = (Scalar.ofBits .f32 0x00000000#32 : F .f32)) :
    ∀ j : S10240.Idx, (j 0).val < 16 * (k.val + 1) →
      (Memref.whole cc0_scratch1 : Memref sig .scVector .vmem S10240 .f32).view.writes (Elt F) f
          [⟨Rect.unit (s := S10240) (k0_off1 k) S16.size (k0_off1_inb k), k0_pay1 (F := F)⟩] j
        = (Scalar.ofBits .f32 0x00000000#32 : F .f32) := by
  intro j hj
  have hoff : (k0_off1 k) 0 = 16 * k.val := by rw [k0_off1_eq]; rfl
  by_cases h : 16 * k.val ≤ (j 0).val
  · -- under this trip's store: the payload, zero
    have hx : (j 0).val - 16 * k.val < 16 := by omega
    have hj' : j = (Rect.unit (s := S10240) (k0_off1 k) S16.size (k0_off1_inb k)).emb (ix1 ⟨(j 0).val - 16 * k.val, hx⟩) := by
      funext a
      obtain rfl : a = 0 := Subsingleton.elim _ _
      apply Fin.ext
      rw [Rect.emb_apply]
      show (j 0).val = (k0_off1 k) 0 + 1 * ((j 0).val - 16 * k.val)
      rw [hoff]; omega
    rw [hj']
    exact View.read_writes_cons_emb (View.whole cc0_scratch1) f (Rect.unit (s := S10240) (k0_off1 k) S16.size (k0_off1_inb k)) (k0_pay1 (F := F)) []
      (ix1 ⟨(j 0).val - 16 * k.val, hx⟩)
  · -- before it: as the trips before left it
    have hlt : (j 0).val < 16 * k.val := by omega
    rw [← hz j hlt]
    show View.read (Elt F) (View.whole cc0_scratch1) ((View.whole cc0_scratch1).writes (Elt F) f
        [⟨Rect.unit (s := S10240) (k0_off1 k) S16.size (k0_off1_inb k), k0_pay1 (F := F)⟩]) j = View.read (Elt F) (View.whole cc0_scratch1) f j
    refine View.read_writes_apply_of_forall_not_mem (View.whole cc0_scratch1) f j _ fun p hp => ?_
    rw [List.mem_singleton] at hp; subst hp
    intro hm
    have hm' : ∀ a, (k0_off1 k) a ≤ (j a).val ∧ (j a).val < (k0_off1 k) a + S16.size a :=
      (Rect.mem_set_unit (s := S10240) (off := k0_off1 k) (size := S16.size) (inb := k0_off1_inb k) (i := j)).mp hm
    have hm0 := (hm' 0).1
    rw [hoff] at hm0; omega

/-- After the 640 trips the whole accumulator is zero. -/
theorem zfill_done (f : (cc0_scratch1 : Ref sig .scVector).ty.Contents (Elt F))
    (hz : ∀ j : S10240.Idx, (j 0).val < 16 * k0_t1_loop.trips → f j = (Scalar.ofBits .f32 0x00000000#32 : F .f32)) :
    f = zeros (F := F) :=
  funext fun j => hz j (Nat.lt_of_lt_of_le (j 0).isLt (by decide))

theorem trips2 : Scf.trips k0_t2_loop.lb k0_t2_loop.ub k0_t2_loop.st = 625 := by decide

/-! ## The tile, its arrays and what it holds -/

variable {U : Type} [URA U] [CountersIn U]

local notation "𝕄" => MT nD τ sig (HIx 2) (Elt F) ℕ U ℕ

abbrev cV (L : grid0.Coords) : Fin τ.nSC := (L 0).castLE hcore0
abbrev jV (L : grid0.Coords) : Fin τ.nSub := (L 1).castLE hsub0
/-- The tile's number: which 10000 row words it reads and which row of the result it writes. -/
abbrev wid (L : grid0.Coords) : ℕ := 16 * (L 0).val + (L 1).val

-- the kernel's memrefs, spelt as the body table passes them
local notation "rowW" => (Memref.whole Cert.KernelIdeal.main_v1_scv : Memref Cert.KernelIdeal.sig Kind.scVector Space.hbm Cert.KernelIdeal.S320000 EltTy.i32)
local notation "outW" => (Memref.whole Cert.KernelIdeal.main_v8_scv : Memref Cert.KernelIdeal.sig Kind.scVector Space.hbm Cert.KernelIdeal.S32x1x10240 EltTy.f32)
local notation "s0W" => (Memref.whole Cert.KernelIdeal.cc0_scratch0 : Memref Cert.KernelIdeal.sig Kind.scVector Space.vmem Cert.KernelIdeal.S10000 EltTy.i32)
local notation "s1W" => (Memref.whole Cert.KernelIdeal.cc0_scratch1 : Memref Cert.KernelIdeal.sig Kind.scVector Space.vmem Cert.KernelIdeal.S10240 EltTy.f32)

/-- The tile's 10000 row words, as the kernel slices them off the row array. -/
abbrev rowSl (L : grid0.Coords) : Memref sig .scVector .hbm S10000 .i32 :=
  (rowW).slice (Rect.unit (s := S320000) (k0_off2 L) S10000.size (k0_off2_inb L)) (fun _ => rfl)
/-- The tile's row of the result, as the kernel slices and squeezes it. -/
abbrev outSl (L : grid0.Coords) : Memref sig .scVector .hbm S10240 .f32 :=
  ((outW).slice (Rect.unit (s := S32x1x10240) (k0_off4 L) S1x1x10240.size (k0_off4_inb L)) (fun _ => rfl)).squeeze S10240 squeezes_S1x1x10240_S10240

abbrev rowLoc (d : Dev nD) : Loc nD τ sig := (SparseCore.T d).loc main_v1
abbrev outLoc (d : Dev nD) : Loc nD τ sig := (SparseCore.T d).loc main_v8

/-- The tile's share of the row array: its own 10000 words, read-only at any share. -/
abbrev rowPts (d : Dev nD) (L : grid0.Coords) (q : PosShare TreeShare) (rowv : Buf (Elt F) (rowLoc d)) : sProp 𝕄 :=
  rowLoc d ↦[(rowSl L).view.set]{q} rowv
/-- The tile's row of the result, held outright. -/
abbrev outPts (d : Dev nD) (L : grid0.Coords) (fo : Buf (Elt F) (outLoc d)) : sProp 𝕄 :=
  outLoc d ↦[(outSl L).view.set]{fullShare} fo

/-! ## The tile's own scratch and semaphores, out of what it owns -/

abbrev c0cell (d : Dev nD) (L : grid0.Coords) : GSem nD τ sig := (V d (cV L) (jV L), .dma cc0_scoped0.sem)
abbrev c1cell (d : Dev nD) (L : grid0.Coords) : GSem nD τ sig := (V d (cV L) (jV L), .dma cc0_scoped1.sem)

omit [FloatOps F] [CountersIn U] in
/-- The kernel's two semaphores are among the tile's own: they, at zero, and the rest. -/
theorem ownSems0_tile (d : Dev nD) (L : grid0.Coords) :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨fun e => absurd (Prod.mk.inj e).2 (by decide),
      (mem_ownCells (g := c1cell d L)).mpr ⟨rfl, by show (SemLoc.dma cc0_scoped1.sem : SemLoc sig).isScoped .scVector = true; decide⟩⟩)]

omit [FloatOps F] [CountersIn U] in
/-- The kernel's two scratch buffers are among the tile's own: they, at some contents, and the rest. -/
theorem ownBufs_tile (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit [FloatOps F] [CountersIn U] in
theorem pts_row (d : Dev nD) (L : grid0.Coords) (q : PosShare TreeShare) (f : Buf (Elt F) (rowLoc d)) :
    ((rowSl L).view.loc (V d (cV L) (jV L)) ↦[(rowSl L).view.set]{q} f : sProp 𝕄) = rowPts d L q f := rfl
omit [FloatOps F] [CountersIn U] in
theorem pts_out (d : Dev nD) (L : grid0.Coords) (f : Buf (Elt F) (outLoc d)) :
    ((outSl L).view.loc (V d (cV L) (jV L)) ↦[(outSl L).view.set]{fullShare} f : sProp 𝕄) = outPts d L f := rfl
omit [FloatOps F] [CountersIn U] in
theorem pts_s0 (d : Dev nD) (L : grid0.Coords) (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] [CountersIn U] in
theorem pts_s1 (d : Dev nD) (L : grid0.Coords) (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl

omit [FloatOps F] [CountersIn U] in
/-- The accumulator held through its whole-rectangle view (what the indexed add reads and writes) is the accumulator. -/
theorem pts_s1_acc (d : Dev nD) (L : grid0.Coords) (f : Buf (Elt F) ((V d (cV L) (jV L)).loc cc0_scratch1)) :
    ((((s1W).access (Rect.whole S10240)).loc (V d (cV L) (jV L)) ↦[((s1W).access (Rect.whole S10240)).set]{fullShare} f : sProp 𝕄))
      = ((s1W).view.loc (V d (cV L) (jV L)) ↦{fullShare} f) := by
  rw [show ((s1W).access (Rect.whole S10240)).set = Finset.univ from Memref.set_access_whole (cc0_scratch1 : Ref sig .scVector)]

omit [FloatOps F] [CountersIn U] in
/-- The row scratch written whole holds what was written. -/
theorem pts_write_s0 (d : Dev nD) (L : grid0.Coords) (f w : Buf (Elt F) ((V d (cV L) (jV L)).loc cc0_scratch0)) :
    ((s0W).view.loc (V d (cV L) (jV L)) ↦{fullShare} View.write (Elt F) (s0W).view f w Finset.univ : sProp 𝕄)
      = ((s0W).view.loc (V d (cV L) (jV L)) ↦{fullShare} w) :=
  congrArg (fun g => ((s0W).view.loc (V d (cV L) (jV L)) ↦{fullShare} g : sProp 𝕄)) (View.write_whole_univ (Val := Elt F) (cc0_scratch0 : Ref sig .scVector) f w)

omit [FloatOps F] [CountersIn U] in
/-- The tile's row of the result after a whole write through it, as the run names it, is the row written. -/
theorem pts_out_writes (d : Dev nD) (L : grid0.Coords) (fo : Buf (Elt F) (outLoc d)) (w : S10240.Idx → Elt F .f32) :
    ((outSl L).view.loc (V d (cV L) (jV L)) ↦[(outSl L).view.set]{fullShare} (outSl L).view.writes (Elt F) fo [⟨Rect.whole S10240, w⟩] : sProp 𝕄)
      = outPts d L ((outSl L).view.write (Elt F) fo w Finset.univ) := by
  refine pointsTo_congr fun i hi => ?_
  obtain ⟨x, -, rfl⟩ := Finset.mem_map.mp hi
  have e : (outSl L).view.emb x = ((outSl L).view.slice (Rect.whole S10240)).emb x := by
    rw [View.emb_slice]
    show _ = (outSl L).view.emb ((Rect.whole S10240).emb x)
    rw [Rect.emb_whole_apply]
  rw [View.writes_singleton, View.write_emb_of_mem _ _ (Finset.mem_univ x)]
  rw [e, View.write_emb_of_mem _ _ (Finset.mem_univ _)]

/-! ## What a trip of the accumulating loop reads, and what it leaves -/

omit [FloatOps F] [CountersIn U] in
/-- Trip `k`'s sixteen words, read off the scratch holding the tile's row words, are words
    `10000 w + 16 k …` of the row array. -/
theorem read_chunk (d : Dev nD) (L : grid0.Coords) (rowv : Buf (Elt F) (rowLoc d)) (k : Fin k0_t2_loop.trips) :
    (s0W).view.readAt (Elt F) (Rect.unit (s := S10000) (k0_off3 k) S16.size (k0_off3_inb k)).toLoadRect ((rowSl L).view.read (Elt F) rowv)
      = chunk rowv (wid L) k.val := by
  funext x
  have h0 : (L 0).val < 2 := (L 0).isLt
  have h1 : (L 1).val < 16 := (L 1).isLt
  have hk : k.val < 625 := Nat.lt_of_lt_of_eq k.isLt (by decide)
  have hx : (x 0).val < 16 := (x 0).isLt
  have e2 : (k0_off2 L) 0 = 160000 * (L 0).val + 10000 * (L 1).val := by rw [k0_off2_eq]; rfl
  have e3 : (k0_off3 k) 0 = 16 * k.val := by rw [k0_off3_eq]; rfl
  show rowv ((rowSl L).view.emb ((Rect.unit (s := S10000) (k0_off3 k) S16.size (k0_off3_inb k)).toLoadRect.idx x)) = _
  unfold chunk
  refine congrArg rowv ((eq_ix1 (n := 320000) _).trans (congrArg ix1 (Fin.ext ?_)))
  show (k0_off2 L) 0 + 1 * ((k0_off3 k) 0 + 1 * (x 0).val) = (10000 * wid L + 16 * k.val + (x 0).val) % 320000
  unfold wid
  omega

/-- So the trip's check passes. -/
theorem chk_read (d : Dev nD) (L : grid0.Coords) (rowv : Buf (Elt F) (rowLoc d)) (hok : RowOK rowv) (k : Fin k0_t2_loop.trips) :
    k0_chk1 ((s0W).view.readAt (Elt F) (Rect.unit (s := S10000) (k0_off3 k) S16.size (k0_off3_inb k)).toLoadRect ((rowSl L).view.read (Elt F) rowv)) := by
  rw [read_chunk]; exact chunk_inb hok _ _

/-- What the trip's indexed add leaves in the accumulator: the next accumulator. -/
theorem step_eq (d : Dev nD) (L : grid0.Coords) (rowv : Buf (Elt F) (rowLoc d)) (hok : RowOK rowv) (k : Fin k0_t2_loop.trips)
    (h : ∀ a x, ((![(s0W).view.readAt (Elt F) (Rect.unit (s := S10000) (k0_off3 k) S16.size (k0_off3_inb k)).toLoadRect ((rowSl L).view.read (Elt F) rowv)] : Fin 1 → IVec S16 32) a x).toNat < S10240.size a) :
    ((s1W).access (Rect.whole S10240)).write (Elt F) (histN (F := F) rowv hok (wid L) k.val)
        (storeIdx (((s1W).access (Rect.whole S10240)).read (Elt F) (histN (F := F) rowv hok (wid L) k.val))
          ![(s0W).view.readAt (Elt F) (Rect.unit (s := S10000) (k0_off3 k) S16.size (k0_off3_inb k)).toLoadRect ((rowSl L).view.read (Elt F) rowv)]
          (k0_pay2 (F := F)) (fun _ => 1#1) true h) Finset.univ
      = histN (F := F) rowv hok (wid L) (k.val + 1) := by
  refine (Memref.write_access_whole_univ (Elt F) (cc0_scratch1 : Ref sig .scVector) _ _).trans ?_
  rw [histN_succ]
  unfold step
  exact storeIdx_congr' (Memref.read_access_whole (Elt F) (cc0_scratch1 : Ref sig .scVector) _)
    (congrArg (fun v : IVec SL 32 => (![v] : Fin 1 → IVec SL 32)) (read_chunk d L rowv k)) _ _ _ _ _

omit [CountersIn U] in
/-- The accumulator through its whole-rectangle view after the trip's indexed add is the next accumulator. -/
theorem pts_step (d : Dev nD) (L : grid0.Coords) (rowv : Buf (Elt F) (rowLoc d)) (hok : RowOK rowv) (k : Fin k0_t2_loop.trips)
    (h : ∀ a x, ((![(s0W).view.readAt (Elt F) (Rect.unit (s := S10000) (k0_off3 k) S16.size (k0_off3_inb k)).toLoadRect ((rowSl L).view.read (Elt F) rowv)] : Fin 1 → IVec S16 32) a x).toNat < S10240.size a) :
    ((((s1W).access (Rect.whole S10240)).loc (V d (cV L) (jV L)) ↦[((s1W).access (Rect.whole S10240)).set]{fullShare}
        ((s1W).access (Rect.whole S10240)).write (Elt F) (histN (F := F) rowv hok (wid L) k.val)
          (storeIdx (((s1W).access (Rect.whole S10240)).read (Elt F) (histN (F := F) rowv hok (wid L) k.val))
            ![(s0W).view.readAt (Elt F) (Rect.unit (s := S10000) (k0_off3 k) S16.size (k0_off3_inb k)).toLoadRect ((rowSl L).view.read (Elt F) rowv)]
            (k0_pay2 (F := F)) (fun _ => 1#1) true h) Finset.univ : sProp 𝕄))
      = ((s1W).view.loc (V d (cV L) (jV L)) ↦{fullShare} histN (F := F) rowv hok (wid L) (k.val + 1)) := by
  rw [step_eq (F := F) d L rowv hok k h]
  exact pts_s1_acc (F := F) d L _

/-- Before trip `k` of the zeroing loop: the accumulator's first `16 k` words are zero. -/
def inv1 (d : Dev nD) (L : grid0.Coords) (k : Nat) (_ : BitVec 32) : sProp 𝕄 :=
  iprop(∃ f : Buf (Elt F) ((V d (cV L) (jV L)).loc cc0_scratch1), ((s1W).view.loc (V d (cV L) (jV L)) ↦{fullShare} f)
    ∗ ⌜∀ j : S10240.Idx, (j 0).val < 16 * k → f j = (Scalar.ofBits .f32 0x00000000#32 : F .f32)⌝)

/-- Before trip `k` of the accumulating loop: the row words in their scratch, the accumulator after `k` trips. -/
def inv2 (d : Dev nD) (L : grid0.Coords) (rowv : Buf (Elt F) (rowLoc d)) (hok : RowOK rowv) (k : Nat) (_ : BitVec 32) : sProp 𝕄 :=
  iprop(((s0W).view.loc (V d (cV L) (jV L)) ↦{fullShare} (rowSl L).view.read (Elt F) rowv)
    ∗ ((s1W).view.loc (V d (cV L) (jV L)) ↦{fullShare} histN (F := F) rowv hok (wid L) k))

/-- The histogram kernel on tile `L` of device `d`. -/
theorem body (d : Dev nD) (L : grid0.Coords) (q : PosShare TreeShare)
    (rowv : Buf (Elt F) (rowLoc d)) (fo : Buf (Elt F) (outLoc d)) (hok : RowOK rowv)
    (O : CellTallies nD τ sig (HIx 2)) (W : Waits sig (HIx 2)) (hO : ∀ g, O g none = 0) :
    iprop(levAts (K (F := F)).L (K (F := F)).lev ∗ rowPts d L q rowv ∗ outPts d L fo
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__histo_kernel L rowW (Memref.isWhole_whole _) outW (Memref.isWhole_whole _) s0W (Memref.isWhole_whole _) s1W (Memref.isWhole_whole _) cc0_scoped0 cc0_scoped1)
          fun _ => iprop(rowPts d L q rowv
            ∗ outPts d L ((outSl L).view.write (Elt F) fo (histTile (F := F) rowv hok (wid L)) Finset.univ)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__histo_kernel_eq_skeleton]; unfold cc0__histo_kernel_skel
  rw [(K (F := F)).scopedBufs_V (facts (F := F)) d (cV L) (jV L), SparseCore.Cfg.scopedSems0_V (Val := Elt F) d (cV L) (jV L), ownSems0_tile, ownBufs_tile]
  iintro ⟨#Hlv, Hrow, Hout, ⟨⟨%f0, Hs0⟩, ⟨%f1, Hs1⟩, Hbufs⟩, ⟨Hsem0, Hsem1, Hsems⟩, HO⟩
  ihave Hmw := ((K (F := F)).mayWaits_none (thr := V d (cV L) (jV L)) hO) $$ Hlv
  ihave Hrow' := (Entails.of_eq (pts_row (F := F) d L q _).symm) $$ Hrow
  ihave Hout' := (Entails.of_eq (pts_out (F := F) d L _).symm) $$ Hout
  ihave Hs0' := (Entails.of_eq (pts_s0 (F := F) d L _).symm) $$ Hs0
  ihave Hs1' := (Entails.of_eq (pts_s1 (F := F) d L _).symm) $$ Hs1
  -- the zeroing loop
  sl_for (inv1 (F := F) (U := U) d L) $$ [Hs1']
  case region =>
    intro k _
    unfold inv1
    iintro ⟨%f, Hs1, %hz⟩
    sl_exec
    sl_step
    iexists _
    isplitl [Hs1]; · iexact Hs1
    ipureintro; exact zfill_step (F := F) f k hz
  · unfold inv1
    iexists f1
    isplitl [Hs1']; · iexact Hs1'
    ipureintro; intro j hj; exact absurd hj (by omega)
  iintro %_ HI
  unfold inv1
  icases HI with ⟨%fz, Hs1, %hz⟩
  have hfz := zfill_done (F := F) fz hz
  subst hfz
  -- the row words in, and the accumulating loop
  sl_exec
  sl_for (inv2 (F := F) (U := U) d L rowv hok) $$ [Hs0' Hs1]
  case region =>
    intro k _
    unfold inv2
    iintro ⟨Hs0, Hs1⟩
    have hchk := chk_read (F := F) d L rowv hok k
    sl_exec
    ihave Hs1a := (Entails.of_eq (pts_s1_acc (F := F) d L _).symm) $$ Hs1
    iapply (SparseCore.wp_vectorStoreIdx 𝒱₀ (V d (cV L) (jV L)) none Set.univ (base := s1W)) $$ Hs1a
    iintro Hs1a
    ihave Hs1 := (Entails.of_eq (pts_step (F := F) d L rowv hok k (k0_idx1_inb _ hchk))) $$ [Hs1a]
    · iexact Hs1a
    sl_step
    isplitl [Hs0]; · iexact Hs0
    iexact Hs1
  · unfold inv2
    ihave Hs0'' := (Entails.of_eq (pts_write_s0 (F := F) d L f0 _)) $$ Hs0'
    isplitl [Hs0'']; · iexact Hs0''
    iexact Hs1
  iintro %_ HI
  unfold inv2
  rw [trips2]
  icases HI with ⟨Hs0, Hs1⟩
  -- the accumulator out
  sl_exec
  sl_step
  isplitl [Hrow']
  · iapply (Entails.of_eq (pts_row (F := F) d L q _)); iexact Hrow'
  isplitl [Hout']
  · iapply (Entails.of_eq (pts_out_writes (F := F) d L fo _)); iexact Hout'
  isplitl [Hs0 Hs1 Hbufs]
  · isplitl [Hs0]; · iexists _; iexact Hs0
    isplitl [Hs1]; · iexists _; iexact Hs1
    iexact Hbufs
  isplitl [Hsem0 Hsem1 Hsems]
  · isplitl [Hsem0]; · iexact Hsem0
    isplitl [Hsem1]; · iexact Hsem1
    iexact Hsems
  iexists (insert (SemLoc.dma cc0_scoped1.sem, (default : HIx 2)) (insert (SemLoc.dma cc0_scoped0.sem, (default : HIx 2)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Cert.Proof.KI.Histo
-- ==== Proof.KI.EdgeRes.lean ====
/-
  The edge kernel's resources on one tile, named once: the tile's thread, the three arrays the kernel is handed
  (the packed edge words, the feature rows, the result rows) and the tile's six rows of the last two as the kernel
  slices them, the block scratch, and what the two nested loops of the walk hold before each of their trips.
-/
import proofs.«207992_g50208167690906_cont_8to1c4_731_36_alg».proof.Proof.KI.Base
import proofs.«207992_g50208167690906_cont_8to1c4_731_36_alg».proof.Proof.KI.EdgeVal

noncomputable section

namespace Cert.Proof.KI.Edge

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-- The tile at grid point `L` of device `d`. -/
abbrev thr (d : Dev nD) (L : grid3.Coords) : Thread nD τ := V d ((L 0).castLE hcore3) ((L 1).castLE hsub3)
abbrev pkW : Memref sig .scVector .hbm S320000 .i32 := Memref.whole main_v20_scv
abbrev vptW : Memref sig .scVector .hbm S192x1x10000 .f32 := Memref.whole main_v16_scv
abbrev outW : Memref sig .scVector .hbm S192x1x10000 .f32 := Memref.whole main_v21_scv
/-- Row `r` of the tile's six, as the kernel slices it. -/
abbrev rowRect (L : grid3.Coords) (r : Fin 6) : Rect S192x1x10000 :=
  Rect.unit (s := S192x1x10000) (k3_off2 L (BitVec.ofNat 32 r.val)) S1x1x10000.size (k3_off2_inb L r)
abbrev vptRow (L : grid3.Coords) (r : Fin 6) : Memref sig .scVector .hbm S10000 .f32 :=
  ((vptW : Memref sig .scVector .hbm S192x1x10000 .f32).slice (rowRect L r) (fun _ => rfl)).squeeze S10000 squeezes_S1x1x10000_S10000
abbrev outRow (L : grid3.Coords) (r : Fin 6) : Memref sig .scVector .hbm S10000 .f32 :=
  ((outW : Memref sig .scVector .hbm S192x1x10000 .f32).slice (rowRect L r) (fun _ => rfl)).squeeze S10000 squeezes_S1x1x10000_S10000

/-- Block `b` of the packed words: words `6400 b` to `6400 b + 6399`, as the block's copy lands them. -/
def blockOf (pk : IVec SP 32) (b : ℕ) : Vec F S6400 .i32 :=
  fun y => if h : 6400 * b + (y 0).val < 320000 then pk (ix1 ⟨6400 * b + (y 0).val, h⟩) else 0

abbrev sP : Memref sig .scVector .vmem S6400 .i32 := Memref.whole cc3_scratch0

/-- What the walk of a block holds before its trip `k`: the block in its scratch, the six feature rows in theirs,
    each accumulator at the fold of the groups before this trip's. -/
def TripInv (d : Dev nD) (L : grid3.Coords) (pk : IVec SP 32) (hpk : PackedOK pk) (vr : Fin 6 → Vec F SN .f32) (b k : ℕ) : sProp 𝕄 :=
  iprop(((sP).view.loc (thr d L) ↦{fullShare} blockOf (F := F) pk b)
    ∗ (((Memref.whole cc3_scratch1 : Memref sig .scVector .vmem S10000 .f32).access (.whole S10000)).loc (thr d L) ↦{fullShare} vr 0)
    ∗ (((Memref.whole cc3_scratch2 : Memref sig .scVector .vmem S10000 .f32).access (.whole S10000)).loc (thr d L) ↦{fullShare} vr 1)
    ∗ (((Memref.whole cc3_scratch3 : Memref sig .scVector .vmem S10000 .f32).access (.whole S10000)).loc (thr d L) ↦{fullShare} vr 2)
    ∗ (((Memref.whole cc3_scratch4 : Memref sig .scVector .vmem S10000 .f32).access (.whole S10000)).loc (thr d L) ↦{fullShare} vr 3)
    ∗ (((Memref.whole cc3_scratch5 : Memref sig .scVector .vmem S10000 .f32).access (.whole S10000)).loc (thr d L) ↦{fullShare} vr 4)
    ∗ (((Memref.whole cc3_scratch6 : Memref sig .scVector .vmem S10000 .f32).access (.whole S10000)).loc (thr d L) ↦{fullShare} vr 5)
    ∗ (((Memref.whole cc3_scratch7 : Memref sig .scVector .vmem S10000 .f32).access (.whole S10000)).loc (thr d L) ↦[((Memref.whole cc3_scratch7 : Memref sig .scVector .vmem S10000 .f32).access (.whole S10000)).set]{fullShare} aggN pk hpk (vr 0) (400 * b + 4 * k))
    ∗ (((Memref.whole cc3_scratch8 : Memref sig .scVector .vmem S10000 .f32).access (.whole S10000)).loc (thr d L) ↦[((Memref.whole cc3_scratch8 : Memref sig .scVector .vmem S10000 .f32).access (.whole S10000)).set]{fullShare} aggN pk hpk (vr 1) (400 * b + 4 * k))
    ∗ (((Memref.whole cc3_scratch9 : Memref sig .scVector .vmem S10000 .f32).access (.whole S10000)).loc (thr d L) ↦[((Memref.whole cc3_scratch9 : Memref sig .scVector .vmem S10000 .f32).access (.whole S10000)).set]{fullShare} aggN pk hpk (vr 2) (400 * b + 4 * k))
    ∗ (((Memref.whole cc3_scratch10 : Memref sig .scVector .vmem S10000 .f32).access (.whole S10000)).loc (thr d L) ↦[((Memref.whole cc3_scratch10 : Memref sig .scVector .vmem S10000 .f32).access (.whole S10000)).set]{fullShare} aggN pk hpk (vr 3) (400 * b + 4 * k))
    ∗ (((Memref.whole cc3_scratch11 : Memref sig .scVector .vmem S10000 .f32).access (.whole S10000)).loc (thr d L) ↦[((Memref.whole cc3_scratch11 : Memref sig .scVector .vmem S10000 .f32).access (.whole S10000)).set]{fullShare} aggN pk hpk (vr 4) (400 * b + 4 * k))
    ∗ (((Memref.whole cc3_scratch12 : Memref sig .scVector .vmem S10000 .f32).access (.whole S10000)).loc (thr d L) ↦[((Memref.whole cc3_scratch12 : Memref sig .scVector .vmem S10000 .f32).access (.whole S10000)).set]{fullShare} aggN pk hpk (vr 5) (400 * b + 4 * k)))

/-- What the walk holds before block `b`: the packed words (a read share), the block scratch at any contents, its
    copy's semaphore at zero, the six feature rows, each accumulator at the fold of the groups of the blocks before. -/
def BlockInv (d : Dev nD) (L : grid3.Coords) (qp : PosShare TreeShare) (pk : IVec SP 32) (hpk : PackedOK pk) (vr : Fin 6 → Vec F SN .f32)
    (O : CellTallies nD τ sig (HIx 2)) (W : Waits sig (HIx 2)) (b : ℕ) (_ : BitVec 32) : sProp 𝕄 :=
  iprop(Transfers.MayWaits (thr d L) (none : HIx 2) O
    ∗ ((pkW).view.loc (thr d L) ↦{qp} pk)
    ∗ (∃ f, (sP).view.loc (thr d L) ↦{fullShare} f)
    ∗ semVal (thr d L, SemLoc.dma cc3_scoped6.sem) 0
    ∗ (((Memref.whole cc3_scratch1 : Memref sig .scVector .vmem S10000 .f32).access (.whole S10000)).loc (thr d L) ↦{fullShare} vr 0)
    ∗ (((Memref.whole cc3_scratch2 : Memref sig .scVector .vmem S10000 .f32).access (.whole S10000)).loc (thr d L) ↦{fullShare} vr 1)
    ∗ (((Memref.whole cc3_scratch3 : Memref sig .scVector .vmem S10000 .f32).access (.whole S10000)).loc (thr d L) ↦{fullShare} vr 2)
    ∗ (((Memref.whole cc3_scratch4 : Memref sig .scVector .vmem S10000 .f32).access (.whole S10000)).loc (thr d L) ↦{fullShare} vr 3)
    ∗ (((Memref.whole cc3_scratch5 : Memref sig .scVector .vmem S10000 .f32).access (.whole S10000)).loc (thr d L) ↦{fullShare} vr 4)
    ∗ (((Memref.whole cc3_scratch6 : Memref sig .scVector .vmem S10000 .f32).access (.whole S10000)).loc (thr d L) ↦{fullShare} vr 5)
    ∗ (((Memref.whole cc3_scratch7 : Memref sig .scVector .vmem S10000 .f32).access (.whole S10000)).loc (thr d L) ↦[((Memref.whole cc3_scratch7 : Memref sig .scVector .vmem S10000 .f32).access (.whole S10000)).set]{fullShare} aggN pk hpk (vr 0) (400 * b))
    ∗ (((Memref.whole cc3_scratch8 : Memref sig .scVector .vmem S10000 .f32).access (.whole S10000)).loc (thr d L) ↦[((Memref.whole cc3_scratch8 : Memref sig .scVector .vmem S10000 .f32).access (.whole S10000)).set]{fullShare} aggN pk hpk (vr 1) (400 * b))
    ∗ (((Memref.whole cc3_scratch9 : Memref sig .scVector .vmem S10000 .f32).access (.whole S10000)).loc (thr d L) ↦[((Memref.whole cc3_scratch9 : Memref sig .scVector .vmem S10000 .f32).access (.whole S10000)).set]{fullShare} aggN pk hpk (vr 2) (400 * b))
    ∗ (((Memref.whole cc3_scratch10 : Memref sig .scVector .vmem S10000 .f32).access (.whole S10000)).loc (thr d L) ↦[((Memref.whole cc3_scratch10 : Memref sig .scVector .vmem S10000 .f32).access (.whole S10000)).set]{fullShare} aggN pk hpk (vr 3) (400 * b))
    ∗ (((Memref.whole cc3_scratch11 : Memref sig .scVector .vmem S10000 .f32).access (.whole S10000)).loc (thr d L) ↦[((Memref.whole cc3_scratch11 : Memref sig .scVector .vmem S10000 .f32).access (.whole S10000)).set]{fullShare} aggN pk hpk (vr 4) (400 * b))
    ∗ (((Memref.whole cc3_scratch12 : Memref sig .scVector .vmem S10000 .f32).access (.whole S10000)).loc (thr d L) ↦[((Memref.whole cc3_scratch12 : Memref sig .scVector .vmem S10000 .f32).access (.whole S10000)).set]{fullShare} aggN pk hpk (vr 5) (400 * b))
    ∗ ∃ W', ⌜∀ p ∈ W', p ∈ W ∨ p.2 = none⌝ ∗ owes (thr d L) O W')

end Cert.Proof.KI.Edge

end
-- ==== Proof.KI.EdgeLoop.lean ====
/-
  The walk of the packed edge words, loop by loop. One trip of the inner loop takes four groups of sixteen words
  off the block scratch; for each group the two node lists are in range because every packed word names two
  nodes, the six feature rows are read at the source nodes and the values added onto the six accumulators at the
  target nodes: each accumulator moves four groups along its fold. One block copies its 6400 words in and runs the
  hundred trips over them.
-/
import proofs.«207992_g50208167690906_cont_8to1c4_731_36_alg».proof.Proof.KI.EdgeRes

noncomputable section

namespace Cert.Proof.KI.Edge

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-! ## One trip of the inner loop -/

theorem pk_at (pk : IVec SP 32) {m n : ℕ} (e : m = n) :
    (if h : m < 320000 then pk (ix1 ⟨m, h⟩) else (0 : BitVec 32)) = (if h : n < 320000 then pk (ix1 ⟨n, h⟩) else 0) := by
  subst e; rfl

theorem load_chunk0 (pk : IVec SP 32) (b : ℕ) (k : Fin k3_t3_loop.trips) :
    (sP).view.readAt (Elt F) (Rect.unit (s := S6400) (k3_off4 k) S16.size (k3_off4_inb k)).toLoadRect (blockOf (F := F) pk b)
      = chunk pk (400 * b + 4 * k.val) := by
  funext x
  refine pk_at pk ?_
  show 6400 * b + (k3_off4 k 0 + 1 * (x 0).val) = 16 * (400 * b + 4 * k.val) + (x 0).val
  have h0 : k3_off4 k 0 = 64 * k.val := by rw [k3_off4_eq]; rfl
  omega

theorem load_chunk1 (pk : IVec SP 32) (b : ℕ) (k : Fin k3_t3_loop.trips) :
    (sP).view.readAt (Elt F) (Rect.unit (s := S6400) (k3_off5 k) S16.size (k3_off5_inb k)).toLoadRect (blockOf (F := F) pk b)
      = chunk pk (400 * b + 4 * k.val + 1) := by
  funext x
  refine pk_at pk ?_
  show 6400 * b + (k3_off5 k 0 + 1 * (x 0).val) = 16 * (400 * b + 4 * k.val + 1) + (x 0).val
  have h0 : k3_off5 k 0 = 64 * k.val + 16 := by rw [k3_off5_eq]; rfl
  omega

theorem load_chunk2 (pk : IVec SP 32) (b : ℕ) (k : Fin k3_t3_loop.trips) :
    (sP).view.readAt (Elt F) (Rect.unit (s := S6400) (k3_off6 k) S16.size (k3_off6_inb k)).toLoadRect (blockOf (F := F) pk b)
      = chunk pk (400 * b + 4 * k.val + 1 + 1) := by
  funext x
  refine pk_at pk ?_
  show 6400 * b + (k3_off6 k 0 + 1 * (x 0).val) = 16 * (400 * b + 4 * k.val + 1 + 1) + (x 0).val
  have h0 : k3_off6 k 0 = 64 * k.val + 32 := by rw [k3_off6_eq]; rfl
  omega

theorem load_chunk3 (pk : IVec SP 32) (b : ℕ) (k : Fin k3_t3_loop.trips) :
    (sP).view.readAt (Elt F) (Rect.unit (s := S6400) (k3_off7 k) S16.size (k3_off7_inb k)).toLoadRect (blockOf (F := F) pk b)
      = chunk pk (400 * b + 4 * k.val + 1 + 1 + 1) := by
  funext x
  refine pk_at pk ?_
  show 6400 * b + (k3_off7 k 0 + 1 * (x 0).val) = 16 * (400 * b + 4 * k.val + 1 + 1 + 1) + (x 0).val
  have h0 : k3_off7 k 0 = 64 * k.val + 48 := by rw [k3_off7_eq]; rfl
  omega

theorem chkR0_ok {pk : IVec SP 32} (hpk : PackedOK pk) (n : ℕ) : k3_chk2 (k3_pay1 (F := F) (chunk pk n)) := by
  unfold k3_chk2
  refine ⟨?_, ?_, ?_, ?_, ?_, ?_⟩ <;> exact row_inb hpk n
theorem chkC0_ok {pk : IVec SP 32} (hpk : PackedOK pk) (n : ℕ) : k3_chk1 (k3_pay2 (F := F) (chunk pk n)) := by
  unfold k3_chk1
  refine ⟨?_, ?_, ?_, ?_, ?_, ?_⟩ <;> exact col_inb hpk n

theorem chkR1_ok {pk : IVec SP 32} (hpk : PackedOK pk) (n : ℕ) : k3_chk4 (k3_pay3 (F := F) (chunk pk n)) := by
  unfold k3_chk4
  refine ⟨?_, ?_, ?_, ?_, ?_, ?_⟩ <;> exact row_inb hpk n
theorem chkC1_ok {pk : IVec SP 32} (hpk : PackedOK pk) (n : ℕ) : k3_chk3 (k3_pay4 (F := F) (chunk pk n)) := by
  unfold k3_chk3
  refine ⟨?_, ?_, ?_, ?_, ?_, ?_⟩ <;> exact col_inb hpk n

theorem chkR2_ok {pk : IVec SP 32} (hpk : PackedOK pk) (n : ℕ) : k3_chk6 (k3_pay6 (F := F) (chunk pk n) 14#32) := by
  unfold k3_chk6
  refine ⟨?_, ?_, ?_, ?_, ?_, ?_⟩ <;> exact row_inb hpk n
theorem chkC2_ok {pk : IVec SP 32} (hpk : PackedOK pk) (n : ℕ) : k3_chk5 (k3_pay7 (F := F) (chunk pk n)) := by
  unfold k3_chk5
  refine ⟨?_, ?_, ?_, ?_, ?_, ?_⟩ <;> exact col_inb hpk n

theorem chkR3_ok {pk : IVec SP 32} (hpk : PackedOK pk) (n : ℕ) : k3_chk8 (k3_pay8 (F := F) (chunk pk n)) := by
  unfold k3_chk8
  refine ⟨?_, ?_, ?_, ?_, ?_, ?_⟩ <;> exact row_inb hpk n
theorem chkC3_ok {pk : IVec SP 32} (hpk : PackedOK pk) (n : ℕ) : k3_chk7 (k3_pay9 (F := F) (chunk pk n)) := by
  unfold k3_chk7
  refine ⟨?_, ?_, ?_, ?_, ?_, ?_⟩ <;> exact col_inb hpk n

theorem aggN_succ (pk : IVec SP 32) (hpk : PackedOK pk) (v : Vec F SN .f32) (n : ℕ) :
    aggN pk hpk v (n + 1) = storeIdx (aggN pk hpk v n) ![row16 (chunk pk n)] (loadIdx v ![col16 (chunk pk n)] (col_inb hpk n)) (fun _ => 1#1) true (row_inb hpk n) := rfl

set_option maxRecDepth 65536 in
set_option maxHeartbeats 4000000 in
/-- One trip: four groups of sixteen words, each read off the block, its feature values gathered and added on. -/
theorem trip_body (d : Dev nD) (L : grid3.Coords) (pk : IVec SP 32) (hpk : PackedOK pk) (vr : Fin 6 → Vec F SN .f32)
    (b : ℕ) (v1 : BitVec 32) (k : Fin k3_t3_loop.trips) (a : BitVec 32) :
    (TripInv (F := F) (Name := Name) (U := U) d L pk hpk vr b k.val : sProp 𝕄)
      ⊢ wp frame (wpE (defs₀ (F := F)) 𝒱₀ (thr d L) none) Set.univ
          (k3_t3_body L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 v1 k a)
          fun _ => TripInv (F := F) (Name := Name) (U := U) d L pk hpk vr b (k.val + 1) := by
  unfold TripInv k3_t3_body
  simp only [k3_part1_eq_skeleton]; unfold k3_part1_skel
  simp only [Prog.lift, Prog.bind_op, Prog.bind_ret, Prog.pure_eq_ret, Prog.bind_assoc]
  iintro ⟨Hp, Hv0, Hv1, Hv2, Hv3, Hv4, Hv5, Ha0, Ha1, Ha2, Ha3, Ha4, Ha5⟩

  -- group 0 of the trip: its sixteen words, their two node lists in range, six reads, six additions
  iapply (wp_load 𝒱₀ (thr d L) none Set.univ (m := sP) (S := Finset.univ) (Finset.subset_univ _)) $$ Hp; iintro Hp
  rw [load_chunk0 (F := F) pk b k]
  rw [wp_assume_of _ _ _ _ (chkR0_ok (F := F) hpk (400 * b + 4 * k.val))]
  rw [wp_assume_of _ _ _ _ (chkC0_ok (F := F) hpk (400 * b + 4 * k.val))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 1 of the trip: its sixteen words, their two node lists in range, six reads, six additions
  iapply (wp_load 𝒱₀ (thr d L) none Set.univ (m := sP) (S := Finset.univ) (Finset.subset_univ _)) $$ Hp; iintro Hp
  rw [load_chunk1 (F := F) pk b k]
  rw [wp_assume_of _ _ _ _ (chkR1_ok (F := F) hpk (400 * b + 4 * k.val + 1))]
  rw [wp_assume_of _ _ _ _ (chkC1_ok (F := F) hpk (400 * b + 4 * k.val + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 2 of the trip: its sixteen words, their two node lists in range, six reads, six additions
  iapply (wp_load 𝒱₀ (thr d L) none Set.univ (m := sP) (S := Finset.univ) (Finset.subset_univ _)) $$ Hp; iintro Hp
  rw [load_chunk2 (F := F) pk b k]
  rw [wp_assume_of _ _ _ _ (chkR2_ok (F := F) hpk (400 * b + 4 * k.val + 1 + 1))]
  rw [wp_assume_of _ _ _ _ (chkC2_ok (F := F) hpk (400 * b + 4 * k.val + 1 + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 3 of the trip: its sixteen words, their two node lists in range, six reads, six additions
  iapply (wp_load 𝒱₀ (thr d L) none Set.univ (m := sP) (S := Finset.univ) (Finset.subset_univ _)) $$ Hp; iintro Hp
  rw [load_chunk3 (F := F) pk b k]
  rw [wp_assume_of _ _ _ _ (chkR3_ok (F := F) hpk (400 * b + 4 * k.val + 1 + 1 + 1))]
  rw [wp_assume_of _ _ _ _ (chkC3_ok (F := F) hpk (400 * b + 4 * k.val + 1 + 1 + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]
  rw [wp_ret]; imodintro
  rw [show 400 * b + 4 * (k.val + 1) = 400 * b + 4 * k.val + 1 + 1 + 1 + 1 by omega]
  simp only [aggN_succ]
  isplitl [Hp]; · iexact Hp
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Ha0]; · iexact Ha0
  isplitl [Ha1]; · iexact Ha1
  isplitl [Ha2]; · iexact Ha2
  isplitl [Ha3]; · iexact Ha3
  isplitl [Ha4]; · iexact Ha4
  iexact Ha5

/-! ## One block of packed words -/

theorem trips3 : Scf.trips k3_t3_loop.lb k3_t3_loop.ub k3_t3_loop.st = 100 := by decide +kernel

/-- The block's copy lands block `b` of the packed words. -/
theorem block_lands (pk : IVec SP 32) (b : Fin k3_t2_loop.trips) :
    ((pkW).slice (Rect.unit (s := S320000) (k3_off3 b) S6400.size (k3_off3_inb b)) (fun _ => rfl)).view.read (Elt F) pk
      = blockOf (F := F) pk b.val := by
  funext y
  have h0 : k3_off3 b 0 = 6400 * b.val := by rw [k3_off3_eq]; rfl
  have hlt := (((pkW).slice (Rect.unit (s := S320000) (k3_off3 b) S6400.size (k3_off3_inb b)) (fun _ => rfl)).view.emb y 0).isLt
  have hlt' : k3_off3 b 0 + 1 * (y 0).val < 320000 := hlt
  unfold blockOf
  rw [dif_pos (by omega)]
  show pk (((pkW).slice (Rect.unit (s := S320000) (k3_off3 b) S6400.size (k3_off3_inb b)) (fun _ => rfl)).view.emb y) = _
  congr 1
  exact (eq_ix1 _).trans (congrArg ix1 (Fin.ext (by
    show k3_off3 b 0 + 1 * (y 0).val = 6400 * b.val + (y 0).val
    omega)))

set_option maxRecDepth 65536 in
set_option maxHeartbeats 2000000 in
/-- One block: its 6400 words copied into the block scratch and waited for, then the hundred trips over them. -/
theorem block_body (d : Dev nD) (L : grid3.Coords) (qp : PosShare TreeShare) (pk : IVec SP 32) (hpk : PackedOK pk) (vr : Fin 6 → Vec F SN .f32)
    (O : CellTallies nD τ sig (HIx 2)) (W : Waits sig (HIx 2)) (v1 : BitVec 32) (b : Fin k3_t2_loop.trips) (a : BitVec 32) :
    (BlockInv (F := F) (Name := Name) (U := U) d L qp pk hpk vr O W b.val a : sProp 𝕄)
      ⊢ wp frame (wpE (defs₀ (F := F)) 𝒱₀ (thr d L) none) Set.univ
          (k3_t2_body L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 v1 b a)
          (BlockInv (F := F) (Name := Name) (U := U) d L qp pk hpk vr O W (b.val + 1)) := by
  unfold BlockInv k3_t2_body
  iintro ⟨Hmw, Hpk, ⟨%f, Hp⟩, Hsem, Hv0, Hv1, Hv2, Hv3, Hv4, Hv5, Ha0, Ha1, Ha2, Ha3, Ha4, Ha5, %W', %hW', HO⟩
  sl_exec (disch := exact View.amount_pos _ _ (show 0 < S6400.numel by decide))
  sl_for (fun k (_ : BitVec 32) => TripInv (F := F) (Name := Name) (U := U) d L pk hpk vr b.val k) $$ [Hp Hv0 Hv1 Hv2 Hv3 Hv4 Hv5 Ha0 Ha1 Ha2 Ha3 Ha4 Ha5]
  case region =>
    intro k acc
    exact trip_body d L pk hpk vr b.val v1 k acc
  · unfold TripInv
    rw [View.write_whole_univ]
    unfold block_body.sl.dma0
    rw [block_lands (F := F) pk b, show 400 * b.val + 4 * 0 = 400 * b.val by omega]
    isplitl [Hp]; · iexact Hp
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Ha0]; · iexact Ha0
    isplitl [Ha1]; · iexact Ha1
    isplitl [Ha2]; · iexact Ha2
    isplitl [Ha3]; · iexact Ha3
    isplitl [Ha4]; · iexact Ha4
    iexact Ha5
  iintro %acc HI
  unfold TripInv
  icases HI with ⟨Hp, Hv0, Hv1, Hv2, Hv3, Hv4, Hv5, Ha0, Ha1, Ha2, Ha3, Ha4, Ha5⟩
  rw [trips3, show 400 * b.val + 4 * 100 = 400 * (b.val + 1) by omega]
  sl_step
  isplitl [Hmw]; · iexact Hmw
  isplitl [Hpk]; · iexact Hpk
  isplitl [Hp]; · iexists _; iexact Hp
  isplitl [Hsem]; · iexact Hsem
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists (insert (SemLoc.dma cc3_scoped6.sem, (default : HIx 2)) W'); isplitr
  · ipureintro; intro p hp
    rcases Finset.mem_insert.mp hp with hp | hp
    · exact .inr (hp ▸ rfl)
    · exact hW' p hp
  · iexact HO

end Cert.Proof.KI.Edge

end
-- ==== Proof.KI.EdgeTop.lean ====
/-
  The edge kernel's body on one tile, assembled: the tile's thirteen scratch buffers and thirteen semaphores are
  taken out of what it owns; the zeroing loop goes by an invariant saying the first `16 k` words of each of the six
  accumulators are zero, so that after its 625 trips each is the zero row; the six feature rows are copied into
  their scratches; the walk over the fifty blocks of packed words goes by the block invariant, its region the
  block's own triple; the six accumulators, then at the fold of all 20000 groups, are copied out to the tile's six
  result rows, which read back exactly what was copied.
-/
import proofs.«207992_g50208167690906_cont_8to1c4_731_36_alg».proof.Proof.KI.EdgeLoop
import Idealize.ShloMosaic.Lib.ValueIdx

noncomputable section

namespace Cert.Proof.KI.Edge

open Cert.KernelIdeal Cert.KernelIdeal.Gen

open Idealize.ShloMosaic Idealize.ShloMosaic.ValueIdx
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable {Name : Type} [DecidableEq Name] [Infinite Name] {U : Type} [URA U] [CountersIn U]
local notation "𝕄" => MT nD τ sig (HIx 2) (Elt F) Name U ℕ
abbrev cS0 (d : Dev nD) (L : grid3.Coords) : GSem nD τ sig := (thr d L, .dma cc3_scoped0.sem)
abbrev cS1 (d : Dev nD) (L : grid3.Coords) : GSem nD τ sig := (thr d L, .dma cc3_scoped1.sem)
abbrev cS2 (d : Dev nD) (L : grid3.Coords) : GSem nD τ sig := (thr d L, .dma cc3_scoped2.sem)
abbrev cS3 (d : Dev nD) (L : grid3.Coords) : GSem nD τ sig := (thr d L, .dma cc3_scoped3.sem)
abbrev cS4 (d : Dev nD) (L : grid3.Coords) : GSem nD τ sig := (thr d L, .dma cc3_scoped4.sem)
abbrev cS5 (d : Dev nD) (L : grid3.Coords) : GSem nD τ sig := (thr d L, .dma cc3_scoped5.sem)
abbrev cS6 (d : Dev nD) (L : grid3.Coords) : GSem nD τ sig := (thr d L, .dma cc3_scoped6.sem)
abbrev cS7 (d : Dev nD) (L : grid3.Coords) : GSem nD τ sig := (thr d L, .dma cc3_scoped7.sem)
abbrev cS8 (d : Dev nD) (L : grid3.Coords) : GSem nD τ sig := (thr d L, .dma cc3_scoped8.sem)
abbrev cS9 (d : Dev nD) (L : grid3.Coords) : GSem nD τ sig := (thr d L, .dma cc3_scoped9.sem)
abbrev cS10 (d : Dev nD) (L : grid3.Coords) : GSem nD τ sig := (thr d L, .dma cc3_scoped10.sem)
abbrev cS11 (d : Dev nD) (L : grid3.Coords) : GSem nD τ sig := (thr d L, .dma cc3_scoped11.sem)
abbrev cS12 (d : Dev nD) (L : grid3.Coords) : GSem nD τ sig := (thr d L, .dma cc3_scoped12.sem)

omit [FloatOps F] [CountersIn U] in
/-- The kernel's thirteen semaphores are among the tile's own: they, at zero, and the rest. -/
theorem ownSems0_tile (d : Dev nD) (L : grid3.Coords) :
    (ownSems0 (thr d L) : sProp 𝕄)
      = iprop(semVal (cS0 d L) 0 ∗ semVal (cS1 d L) 0 ∗ semVal (cS2 d L) 0 ∗ semVal (cS3 d L) 0 ∗ semVal (cS4 d L) 0 ∗ semVal (cS5 d L) 0 ∗ semVal (cS6 d L) 0 ∗ semVal (cS7 d L) 0 ∗ semVal (cS8 d L) 0 ∗ semVal (cS9 d L) 0 ∗ semVal (cS10 d L) 0 ∗ semVal (cS11 d L) 0 ∗ semVal (cS12 d L) 0
          ∗ bigSep ((((((((((((((ownCells (thr d L)).erase (cS0 d L)).erase (cS1 d L)).erase (cS2 d L)).erase (cS3 d L)).erase (cS4 d L)).erase (cS5 d L)).erase (cS6 d L)).erase (cS7 d L)).erase (cS8 d L)).erase (cS9 d L)).erase (cS10 d L)).erase (cS11 d L)).erase (cS12 d L)) fun g => semVal g 0) := by
  unfold SparseCore.Cfg.ownSems0
  rw [SparseCore.bigSep_erase' ((mem_ownCells (g := cS0 d L)).mpr ⟨rfl, by show (SemLoc.dma cc3_scoped0.sem : SemLoc sig).isScoped .scVector = true; decide⟩),
    SparseCore.bigSep_erase' (Finset.mem_erase.mpr ⟨fun e => absurd (Prod.mk.inj e).2 (by decide), (mem_ownCells (g := cS1 d L)).mpr ⟨rfl, by show (SemLoc.dma cc3_scoped1.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := cS2 d L)).mpr ⟨rfl, by show (SemLoc.dma cc3_scoped2.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS3 d L)).mpr ⟨rfl, by show (SemLoc.dma cc3_scoped3.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS4 d L)).mpr ⟨rfl, by show (SemLoc.dma cc3_scoped4.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS5 d L)).mpr ⟨rfl, by show (SemLoc.dma cc3_scoped5.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS6 d L)).mpr ⟨rfl, by show (SemLoc.dma cc3_scoped6.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS7 d L)).mpr ⟨rfl, by show (SemLoc.dma cc3_scoped7.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS8 d L)).mpr ⟨rfl, by show (SemLoc.dma cc3_scoped8.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS9 d L)).mpr ⟨rfl, by show (SemLoc.dma cc3_scoped9.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS10 d L)).mpr ⟨rfl, by show (SemLoc.dma cc3_scoped10.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS11 d L)).mpr ⟨rfl, by show (SemLoc.dma cc3_scoped11.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS12 d L)).mpr ⟨rfl, by show (SemLoc.dma cc3_scoped12.sem : SemLoc sig).isScoped .scVector = true; decide⟩⟩⟩⟩⟩⟩⟩⟩⟩⟩⟩⟩⟩)]

omit [FloatOps F] [CountersIn U] in
/-- The kernel's thirteen scratch buffers are among the tile's own: they, at some contents, and the rest. -/
theorem ownBufs_tile (d : Dev nD) (L : grid3.Coords) :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f) ∗ (∃ f, (thr d L).loc cc3_scratch3 ↦{fullShare} f) ∗ (∃ f, (thr d L).loc cc3_scratch4 ↦{fullShare} f) ∗ (∃ f, (thr d L).loc cc3_scratch5 ↦{fullShare} f) ∗ (∃ f, (thr d L).loc cc3_scratch6 ↦{fullShare} f) ∗ (∃ f, (thr d L).loc cc3_scratch7 ↦{fullShare} f) ∗ (∃ f, (thr d L).loc cc3_scratch8 ↦{fullShare} f) ∗ (∃ f, (thr d L).loc cc3_scratch9 ↦{fullShare} f) ∗ (∃ f, (thr d L).loc cc3_scratch10 ↦{fullShare} f) ∗ (∃ f, (thr d L).loc cc3_scratch11 ↦{fullShare} f) ∗ (∃ f, (thr d L).loc cc3_scratch12 ↦{fullShare} f)
          ∗ bigSep ((((((((((((((ownRefs (τ := τ) (.scVector ((L 0).castLE hcore3) ((L 1).castLE hsub3))).erase ((Proc.scVector ((L 0).castLE hcore3) ((L 1).castLE hsub3)).devRef cc3_scratch0)).erase ((Proc.scVector ((L 0).castLE hcore3) ((L 1).castLE hsub3)).devRef cc3_scratch1)).erase ((Proc.scVector ((L 0).castLE hcore3) ((L 1).castLE hsub3)).devRef cc3_scratch2)).erase ((Proc.scVector ((L 0).castLE hcore3) ((L 1).castLE hsub3)).devRef cc3_scratch3)).erase ((Proc.scVector ((L 0).castLE hcore3) ((L 1).castLE hsub3)).devRef cc3_scratch4)).erase ((Proc.scVector ((L 0).castLE hcore3) ((L 1).castLE hsub3)).devRef cc3_scratch5)).erase ((Proc.scVector ((L 0).castLE hcore3) ((L 1).castLE hsub3)).devRef cc3_scratch6)).erase ((Proc.scVector ((L 0).castLE hcore3) ((L 1).castLE hsub3)).devRef cc3_scratch7)).erase ((Proc.scVector ((L 0).castLE hcore3) ((L 1).castLE hsub3)).devRef cc3_scratch8)).erase ((Proc.scVector ((L 0).castLE hcore3) ((L 1).castLE hsub3)).devRef cc3_scratch9)).erase ((Proc.scVector ((L 0).castLE hcore3) ((L 1).castLE hsub3)).devRef cc3_scratch10)).erase ((Proc.scVector ((L 0).castLE hcore3) ((L 1).castLE hsub3)).devRef cc3_scratch11)).erase ((Proc.scVector ((L 0).castLE hcore3) ((L 1).castLE hsub3)).devRef cc3_scratch12))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore3) ((L 1).castLE hsub3)) (b := (Proc.scVector ((L 0).castLE hcore3) ((L 1).castLE hsub3)).devRef cc3_scratch0) rfl)).trans ?_
  rw [SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch1) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch2) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch3) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch4) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch5) rfl⟩⟩⟩⟩⟩),
    SparseCore.bigSep_erase' (Finset.mem_erase.mpr ⟨fun e => absurd (Proc.devRef_injective _ e) (show (cc3_scratch6 : Ref sig .scVector) ≠ cc3_scratch5 by decide), Finset.mem_erase.mpr ⟨fun e => absurd (Proc.devRef_injective _ e) (show (cc3_scratch6 : Ref sig .scVector) ≠ cc3_scratch4 by decide), Finset.mem_erase.mpr ⟨fun e => absurd (Proc.devRef_injective _ e) (show (cc3_scratch6 : Ref sig .scVector) ≠ cc3_scratch3 by decide), Finset.mem_erase.mpr ⟨fun e => absurd (Proc.devRef_injective _ e) (show (cc3_scratch6 : Ref sig .scVector) ≠ cc3_scratch2 by decide), Finset.mem_erase.mpr ⟨fun e => absurd (Proc.devRef_injective _ e) (show (cc3_scratch6 : Ref sig .scVector) ≠ cc3_scratch1 by decide), Finset.mem_erase.mpr ⟨fun e => absurd (Proc.devRef_injective _ e) (show (cc3_scratch6 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch6) rfl⟩⟩⟩⟩⟩⟩),
    SparseCore.bigSep_erase' (Finset.mem_erase.mpr ⟨fun e => absurd (Proc.devRef_injective _ e) (show (cc3_scratch7 : Ref sig .scVector) ≠ cc3_scratch6 by decide), Finset.mem_erase.mpr ⟨fun e => absurd (Proc.devRef_injective _ e) (show (cc3_scratch7 : Ref sig .scVector) ≠ cc3_scratch5 by decide), Finset.mem_erase.mpr ⟨fun e => absurd (Proc.devRef_injective _ e) (show (cc3_scratch7 : Ref sig .scVector) ≠ cc3_scratch4 by decide), Finset.mem_erase.mpr ⟨fun e => absurd (Proc.devRef_injective _ e) (show (cc3_scratch7 : Ref sig .scVector) ≠ cc3_scratch3 by decide), Finset.mem_erase.mpr ⟨fun e => absurd (Proc.devRef_injective _ e) (show (cc3_scratch7 : Ref sig .scVector) ≠ cc3_scratch2 by decide), Finset.mem_erase.mpr ⟨fun e => absurd (Proc.devRef_injective _ e) (show (cc3_scratch7 : Ref sig .scVector) ≠ cc3_scratch1 by decide), Finset.mem_erase.mpr ⟨fun e => absurd (Proc.devRef_injective _ e) (show (cc3_scratch7 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch7) rfl⟩⟩⟩⟩⟩⟩⟩),
    SparseCore.bigSep_erase' (Finset.mem_erase.mpr ⟨fun e => absurd (Proc.devRef_injective _ e) (show (cc3_scratch8 : Ref sig .scVector) ≠ cc3_scratch7 by decide), Finset.mem_erase.mpr ⟨fun e => absurd (Proc.devRef_injective _ e) (show (cc3_scratch8 : Ref sig .scVector) ≠ cc3_scratch6 by decide), Finset.mem_erase.mpr ⟨fun e => absurd (Proc.devRef_injective _ e) (show (cc3_scratch8 : Ref sig .scVector) ≠ cc3_scratch5 by decide), Finset.mem_erase.mpr ⟨fun e => absurd (Proc.devRef_injective _ e) (show (cc3_scratch8 : Ref sig .scVector) ≠ cc3_scratch4 by decide), Finset.mem_erase.mpr ⟨fun e => absurd (Proc.devRef_injective _ e) (show (cc3_scratch8 : Ref sig .scVector) ≠ cc3_scratch3 by decide), Finset.mem_erase.mpr ⟨fun e => absurd (Proc.devRef_injective _ e) (show (cc3_scratch8 : Ref sig .scVector) ≠ cc3_scratch2 by decide), Finset.mem_erase.mpr ⟨fun e => absurd (Proc.devRef_injective _ e) (show (cc3_scratch8 : Ref sig .scVector) ≠ cc3_scratch1 by decide), Finset.mem_erase.mpr ⟨fun e => absurd (Proc.devRef_injective _ e) (show (cc3_scratch8 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch8) rfl⟩⟩⟩⟩⟩⟩⟩⟩),
    SparseCore.bigSep_erase' (Finset.mem_erase.mpr ⟨fun e => absurd (Proc.devRef_injective _ e) (show (cc3_scratch9 : Ref sig .scVector) ≠ cc3_scratch8 by decide), Finset.mem_erase.mpr ⟨fun e => absurd (Proc.devRef_injective _ e) (show (cc3_scratch9 : Ref sig .scVector) ≠ cc3_scratch7 by decide), Finset.mem_erase.mpr ⟨fun e => absurd (Proc.devRef_injective _ e) (show (cc3_scratch9 : Ref sig .scVector) ≠ cc3_scratch6 by decide), Finset.mem_erase.mpr ⟨fun e => absurd (Proc.devRef_injective _ e) (show (cc3_scratch9 : Ref sig .scVector) ≠ cc3_scratch5 by decide), Finset.mem_erase.mpr ⟨fun e => absurd (Proc.devRef_injective _ e) (show (cc3_scratch9 : Ref sig .scVector) ≠ cc3_scratch4 by decide), Finset.mem_erase.mpr ⟨fun e => absurd (Proc.devRef_injective _ e) (show (cc3_scratch9 : Ref sig .scVector) ≠ cc3_scratch3 by decide), Finset.mem_erase.mpr ⟨fun e => absurd (Proc.devRef_injective _ e) (show (cc3_scratch9 : Ref sig .scVector) ≠ cc3_scratch2 by decide), Finset.mem_erase.mpr ⟨fun e => absurd (Proc.devRef_injective _ e) (show (cc3_scratch9 : Ref sig .scVector) ≠ cc3_scratch1 by decide), Finset.mem_erase.mpr ⟨fun e => absurd (Proc.devRef_injective _ e) (show (cc3_scratch9 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch9) rfl⟩⟩⟩⟩⟩⟩⟩⟩⟩),
    SparseCore.bigSep_erase' (Finset.mem_erase.mpr ⟨fun e => absurd (Proc.devRef_injective _ e) (show (cc3_scratch10 : Ref sig .scVector) ≠ cc3_scratch9 by decide), Finset.mem_erase.mpr ⟨fun e => absurd (Proc.devRef_injective _ e) (show (cc3_scratch10 : Ref sig .scVector) ≠ cc3_scratch8 by decide), Finset.mem_erase.mpr ⟨fun e => absurd (Proc.devRef_injective _ e) (show (cc3_scratch10 : Ref sig .scVector) ≠ cc3_scratch7 by decide), Finset.mem_erase.mpr ⟨fun e => absurd (Proc.devRef_injective _ e) (show (cc3_scratch10 : Ref sig .scVector) ≠ cc3_scratch6 by decide), Finset.mem_erase.mpr ⟨fun e => absurd (Proc.devRef_injective _ e) (show (cc3_scratch10 : Ref sig .scVector) ≠ cc3_scratch5 by decide), Finset.mem_erase.mpr ⟨fun e => absurd (Proc.devRef_injective _ e) (show (cc3_scratch10 : Ref sig .scVector) ≠ cc3_scratch4 by decide), Finset.mem_erase.mpr ⟨fun e => absurd (Proc.devRef_injective _ e) (show (cc3_scratch10 : Ref sig .scVector) ≠ cc3_scratch3 by decide), Finset.mem_erase.mpr ⟨fun e => absurd (Proc.devRef_injective _ e) (show (cc3_scratch10 : Ref sig .scVector) ≠ cc3_scratch2 by decide), Finset.mem_erase.mpr ⟨fun e => absurd (Proc.devRef_injective _ e) (show (cc3_scratch10 : Ref sig .scVector) ≠ cc3_scratch1 by decide), Finset.mem_erase.mpr ⟨fun e => absurd (Proc.devRef_injective _ e) (show (cc3_scratch10 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch10) rfl⟩⟩⟩⟩⟩⟩⟩⟩⟩⟩),
    SparseCore.bigSep_erase' (Finset.mem_erase.mpr ⟨fun e => absurd (Proc.devRef_injective _ e) (show (cc3_scratch11 : Ref sig .scVector) ≠ cc3_scratch10 by decide), Finset.mem_erase.mpr ⟨fun e => absurd (Proc.devRef_injective _ e) (show (cc3_scratch11 : Ref sig .scVector) ≠ cc3_scratch9 by decide), Finset.mem_erase.mpr ⟨fun e => absurd (Proc.devRef_injective _ e) (show (cc3_scratch11 : Ref sig .scVector) ≠ cc3_scratch8 by decide), Finset.mem_erase.mpr ⟨fun e => absurd (Proc.devRef_injective _ e) (show (cc3_scratch11 : Ref sig .scVector) ≠ cc3_scratch7 by decide), Finset.mem_erase.mpr ⟨fun e => absurd (Proc.devRef_injective _ e) (show (cc3_scratch11 : Ref sig .scVector) ≠ cc3_scratch6 by decide), Finset.mem_erase.mpr ⟨fun e => absurd (Proc.devRef_injective _ e) (show (cc3_scratch11 : Ref sig .scVector) ≠ cc3_scratch5 by decide), Finset.mem_erase.mpr ⟨fun e => absurd (Proc.devRef_injective _ e) (show (cc3_scratch11 : Ref sig .scVector) ≠ cc3_scratch4 by decide), Finset.mem_erase.mpr ⟨fun e => absurd (Proc.devRef_injective _ e) (show (cc3_scratch11 : Ref sig .scVector) ≠ cc3_scratch3 by decide), Finset.mem_erase.mpr ⟨fun e => absurd (Proc.devRef_injective _ e) (show (cc3_scratch11 : Ref sig .scVector) ≠ cc3_scratch2 by decide), Finset.mem_erase.mpr ⟨fun e => absurd (Proc.devRef_injective _ e) (show (cc3_scratch11 : Ref sig .scVector) ≠ cc3_scratch1 by decide), Finset.mem_erase.mpr ⟨fun e => absurd (Proc.devRef_injective _ e) (show (cc3_scratch11 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch11) rfl⟩⟩⟩⟩⟩⟩⟩⟩⟩⟩⟩),
    SparseCore.bigSep_erase' (Finset.mem_erase.mpr ⟨fun e => absurd (Proc.devRef_injective _ e) (show (cc3_scratch12 : Ref sig .scVector) ≠ cc3_scratch11 by decide), Finset.mem_erase.mpr ⟨fun e => absurd (Proc.devRef_injective _ e) (show (cc3_scratch12 : Ref sig .scVector) ≠ cc3_scratch10 by decide), Finset.mem_erase.mpr ⟨fun e => absurd (Proc.devRef_injective _ e) (show (cc3_scratch12 : Ref sig .scVector) ≠ cc3_scratch9 by decide), Finset.mem_erase.mpr ⟨fun e => absurd (Proc.devRef_injective _ e) (show (cc3_scratch12 : Ref sig .scVector) ≠ cc3_scratch8 by decide), Finset.mem_erase.mpr ⟨fun e => absurd (Proc.devRef_injective _ e) (show (cc3_scratch12 : Ref sig .scVector) ≠ cc3_scratch7 by decide), Finset.mem_erase.mpr ⟨fun e => absurd (Proc.devRef_injective _ e) (show (cc3_scratch12 : Ref sig .scVector) ≠ cc3_scratch6 by decide), Finset.mem_erase.mpr ⟨fun e => absurd (Proc.devRef_injective _ e) (show (cc3_scratch12 : Ref sig .scVector) ≠ cc3_scratch5 by decide), Finset.mem_erase.mpr ⟨fun e => absurd (Proc.devRef_injective _ e) (show (cc3_scratch12 : Ref sig .scVector) ≠ cc3_scratch4 by decide), Finset.mem_erase.mpr ⟨fun e => absurd (Proc.devRef_injective _ e) (show (cc3_scratch12 : Ref sig .scVector) ≠ cc3_scratch3 by decide), Finset.mem_erase.mpr ⟨fun e => absurd (Proc.devRef_injective _ e) (show (cc3_scratch12 : Ref sig .scVector) ≠ cc3_scratch2 by decide), Finset.mem_erase.mpr ⟨fun e => absurd (Proc.devRef_injective _ e) (show (cc3_scratch12 : Ref sig .scVector) ≠ cc3_scratch1 by decide), Finset.mem_erase.mpr ⟨fun e => absurd (Proc.devRef_injective _ e) (show (cc3_scratch12 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch12) rfl⟩⟩⟩⟩⟩⟩⟩⟩⟩⟩⟩⟩)]

/-! ## The zeroing loop's trips -/

/-- A trip of the zeroing loop on accumulator scratch 7: sixteen more of its words are zero. -/
theorem zstep7 (f : (cc3_scratch7 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch7 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch7) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch7) ((View.whole cc3_scratch7).writes (Elt F) f
        [⟨Rect.unit (s := S10000) (k3_off1 k) S16.size (k3_off1_inb k), k3_pay5 (F := F)⟩]) j = View.read (Elt F) (View.whole cc3_scratch7) f j
    refine View.read_writes_apply_of_forall_not_mem (View.whole cc3_scratch7) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 8: sixteen more of its words are zero. -/
theorem zstep8 (f : (cc3_scratch8 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch8 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch8) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch8) ((View.whole cc3_scratch8).writes (Elt F) f
        [⟨Rect.unit (s := S10000) (k3_off1 k) S16.size (k3_off1_inb k), k3_pay5 (F := F)⟩]) j = View.read (Elt F) (View.whole cc3_scratch8) f j
    refine View.read_writes_apply_of_forall_not_mem (View.whole cc3_scratch8) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 9: sixteen more of its words are zero. -/
theorem zstep9 (f : (cc3_scratch9 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch9 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch9) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch9) ((View.whole cc3_scratch9).writes (Elt F) f
        [⟨Rect.unit (s := S10000) (k3_off1 k) S16.size (k3_off1_inb k), k3_pay5 (F := F)⟩]) j = View.read (Elt F) (View.whole cc3_scratch9) f j
    refine View.read_writes_apply_of_forall_not_mem (View.whole cc3_scratch9) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 10: sixteen more of its words are zero. -/
theorem zstep10 (f : (cc3_scratch10 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch10 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch10) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch10) ((View.whole cc3_scratch10).writes (Elt F) f
        [⟨Rect.unit (s := S10000) (k3_off1 k) S16.size (k3_off1_inb k), k3_pay5 (F := F)⟩]) j = View.read (Elt F) (View.whole cc3_scratch10) f j
    refine View.read_writes_apply_of_forall_not_mem (View.whole cc3_scratch10) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 11: sixteen more of its words are zero. -/
theorem zstep11 (f : (cc3_scratch11 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch11 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch11) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch11) ((View.whole cc3_scratch11).writes (Elt F) f
        [⟨Rect.unit (s := S10000) (k3_off1 k) S16.size (k3_off1_inb k), k3_pay5 (F := F)⟩]) j = View.read (Elt F) (View.whole cc3_scratch11) f j
    refine View.read_writes_apply_of_forall_not_mem (View.whole cc3_scratch11) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 12: sixteen more of its words are zero. -/
theorem zstep12 (f : (cc3_scratch12 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch12 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch12) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch12) ((View.whole cc3_scratch12).writes (Elt F) f
        [⟨Rect.unit (s := S10000) (k3_off1 k) S16.size (k3_off1_inb k), k3_pay5 (F := F)⟩]) j = View.read (Elt F) (View.whole cc3_scratch12) f j
    refine View.read_writes_apply_of_forall_not_mem (View.whole cc3_scratch12) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- After the 625 trips a whole accumulator is the zero row. -/
theorem zdone (f : Vec F SN .f32)
    (hz : ∀ j : S10000.Idx, (j 0).val < 16 * k3_t1_loop.trips → f j = (Scalar.ofBits .f32 0x00000000#32 : F .f32)) :
    f = zeroRow (F := F) :=
  funext fun j => hz j (Nat.lt_of_lt_of_le (j 0).isLt (by decide))

theorem trips50 : Scf.trips k3_t2_loop.lb k3_t2_loop.ub k3_t2_loop.st = 50 := by decide

/-! ## The arrays as the tile's memrefs address them -/

omit [FloatOps F] [CountersIn U] [Infinite Name] in
/-- A scratch written whole holds what was written. -/
theorem pts_write_whole (d : Dev nD) (L : grid3.Coords) (b : Ref sig .scVector) (f w : b.ty.Contents (Elt F)) :
    ((Memref.whole b).view.loc (thr d L) ↦{fullShare} View.write (Elt F) (Memref.whole b).view f w Finset.univ : sProp 𝕄)
      = ((Memref.whole b).view.loc (thr d L) ↦{fullShare} w) :=
  congrArg (fun g => ((Memref.whole b).view.loc (thr d L) ↦{fullShare} g : sProp 𝕄)) (View.write_whole_univ (Val := Elt F) b f w)

omit [FloatOps F] [CountersIn U] [Infinite Name] in
/-- A scratch held through its whole-rectangle view, by that view's elements, is the scratch. -/
theorem pts_acc (d : Dev nD) (L : grid3.Coords) (b : Ref sig .scVector) (f : b.ty.Contents (Elt F)) :
    ((((Memref.whole b).access (Rect.whole b.ty.shape)).loc (thr d L) ↦[((Memref.whole b).access (Rect.whole b.ty.shape)).set]{fullShare} f : sProp 𝕄))
      = ((Memref.whole b).view.loc (thr d L) ↦{fullShare} f) := by
  rw [Memref.set_access_whole b]

omit [FloatOps F] [CountersIn U] [Infinite Name] in
/-- A result row after a whole write through it, as the run names it, is the row written. -/
theorem pts_writes_whole (d : Dev nD) (L : grid3.Coords) (m : Memref sig .scVector .hbm S10000 .f32)
    (fo : Buf (Elt F) (m.view.loc (thr d L))) (w : S10000.Idx → Elt F .f32) :
    (m.view.loc (thr d L) ↦[m.view.set]{fullShare} m.view.writes (Elt F) fo [⟨Rect.whole S10000, w⟩] : sProp 𝕄)
      = (m.view.loc (thr d L) ↦[m.view.set]{fullShare} m.view.write (Elt F) fo w Finset.univ) := by
  refine pointsTo_congr fun i hi => ?_
  obtain ⟨x, -, rfl⟩ := Finset.mem_map.mp hi
  have e : m.view.emb x = (m.view.slice (Rect.whole S10000)).emb x := by
    rw [View.emb_slice]
    show _ = m.view.emb ((Rect.whole S10000).emb x)
    rw [Rect.emb_whole_apply]
  rw [View.writes_singleton, View.write_emb_of_mem _ _ (Finset.mem_univ x)]
  rw [e, View.write_emb_of_mem _ _ (Finset.mem_univ _)]

omit [FloatOps F] [CountersIn U] [Infinite Name] in
/-- A scratch as the tile's memref addresses it is the scratch. -/
theorem pts_sc (d : Dev nD) (L : grid3.Coords) (b : Ref sig .scVector) (f : Buf (Elt F) ((thr d L).loc b)) :
    ((Memref.whole b).view.loc (thr d L) ↦{fullShare} f : sProp 𝕄) = ((thr d L).loc b ↦{fullShare} f) := rfl

omit [FloatOps F] [CountersIn U] [Infinite Name] [DecidableEq Name] in
/-- One more wait at index `none` keeps every recorded wait old or at `none`. -/
theorem waits_insert {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (by rw [hp]; rfl)
  · exact h p hp

/-- Before trip `k` of the zeroing loop: the first `16 k` words of each of the six accumulators are zero. -/
def zinv (d : Dev nD) (L : grid3.Coords) (k : Nat) (_ : BitVec 32) : sProp 𝕄 :=
  iprop((∃ f : Buf (Elt F) ((thr d L).loc cc3_scratch7), ((Memref.whole cc3_scratch7 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch8), ((Memref.whole cc3_scratch8 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch9), ((Memref.whole cc3_scratch9 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch10), ((Memref.whole cc3_scratch10 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch11), ((Memref.whole cc3_scratch11 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch12), ((Memref.whole cc3_scratch12 : Memref sig .scVector .vmem S10000 .f32).view.loc (thr d L) ↦{fullShare} f)
      ∗ ⌜∀ j : S10000.Idx, (j 0).val < 16 * k → f j = (Scalar.ofBits .f32 0x00000000#32 : F .f32)⌝))

set_option maxHeartbeats 1000000 in
/-- The edge kernel's body on one tile. -/
theorem edge_top (d : Dev nD) (L : grid3.Coords) (qp qv : PosShare TreeShare)
    (pk : Buf (Elt F) ((pkW).view.loc (thr d L))) (vpt : Buf (Elt F) ((vptW).view.loc (thr d L)))
    (fo : Fin 6 → Buf (Elt F) ((outW).view.loc (thr d L))) (hpk : PackedOK pk)
    (O : CellTallies nD τ sig (HIx 2)) (W : Waits sig (HIx 2)) (hO : ∀ g, O g none = 0) :
    (iprop(levAts (K (F := F)).L (K (F := F)).lev
        ∗ ((pkW).view.loc (thr d L) ↦{qp} pk)
        ∗ ((vptW).view.loc (thr d L) ↦{qv} vpt)
        ∗ ((outRow L 0).view.loc (thr d L) ↦[(outRow L 0).view.set]{fullShare} fo 0)
        ∗ ((outRow L 1).view.loc (thr d L) ↦[(outRow L 1).view.set]{fullShare} fo 1)
        ∗ ((outRow L 2).view.loc (thr d L) ↦[(outRow L 2).view.set]{fullShare} fo 2)
        ∗ ((outRow L 3).view.loc (thr d L) ↦[(outRow L 3).view.set]{fullShare} fo 3)
        ∗ ((outRow L 4).view.loc (thr d L) ↦[(outRow L 4).view.set]{fullShare} fo 4)
        ∗ ((outRow L 5).view.loc (thr d L) ↦[(outRow L 5).view.set]{fullShare} fo 5)
        ∗ scopedBufs (thr d L) ∗ scopedSems0 (thr d L) ∗ owes (thr d L) O W) : sProp 𝕄)
      ⊢ wp frame (wpE (defs₀ (F := F)) 𝒱₀ (thr d L) none) Set.univ
          (cc3__edge_kernel L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12)
          fun _ => iprop(((pkW).view.loc (thr d L) ↦{qp} pk)
            ∗ ((vptW).view.loc (thr d L) ↦{qv} vpt)
            ∗ (∃ g, ⌜(outRow L 0).view.read (Elt F) g = aggRow pk hpk ((vptRow L 0).view.read (Elt F) vpt)⌝ ∗ (outRow L 0).view.loc (thr d L) ↦[(outRow L 0).view.set]{fullShare} g)
            ∗ (∃ g, ⌜(outRow L 1).view.read (Elt F) g = aggRow pk hpk ((vptRow L 1).view.read (Elt F) vpt)⌝ ∗ (outRow L 1).view.loc (thr d L) ↦[(outRow L 1).view.set]{fullShare} g)
            ∗ (∃ g, ⌜(outRow L 2).view.read (Elt F) g = aggRow pk hpk ((vptRow L 2).view.read (Elt F) vpt)⌝ ∗ (outRow L 2).view.loc (thr d L) ↦[(outRow L 2).view.set]{fullShare} g)
            ∗ (∃ g, ⌜(outRow L 3).view.read (Elt F) g = aggRow pk hpk ((vptRow L 3).view.read (Elt F) vpt)⌝ ∗ (outRow L 3).view.loc (thr d L) ↦[(outRow L 3).view.set]{fullShare} g)
            ∗ (∃ g, ⌜(outRow L 4).view.read (Elt F) g = aggRow pk hpk ((vptRow L 4).view.read (Elt F) vpt)⌝ ∗ (outRow L 4).view.loc (thr d L) ↦[(outRow L 4).view.set]{fullShare} g)
            ∗ (∃ g, ⌜(outRow L 5).view.read (Elt F) g = aggRow pk hpk ((vptRow L 5).view.read (Elt F) vpt)⌝ ∗ (outRow L 5).view.loc (thr d L) ↦[(outRow L 5).view.set]{fullShare} g)
            ∗ scopedBufs (thr d L) ∗ scopedSems0 (thr d L)
            ∗ ∃ W', ⌜∀ p ∈ W', p ∈ W ∨ p.2 = none⌝ ∗ owes (thr d L) O W') := by
  rw [(K (F := F)).scopedBufs_V (facts (F := F)) d ((L 0).castLE hcore3) ((L 1).castLE hsub3), SparseCore.Cfg.scopedSems0_V (Val := Elt F) d ((L 0).castLE hcore3) ((L 1).castLE hsub3), ownSems0_tile, ownBufs_tile]
  simp only [cc3__edge_kernel_eq_skeleton]; unfold cc3__edge_kernel_skel
  iintro ⟨#Hlv, Hpk, Hvpt, Ho0, Ho1, Ho2, Ho3, Ho4, Ho5, ⟨⟨%g0, Hb0⟩, ⟨%g1, Hb1⟩, ⟨%g2, Hb2⟩, ⟨%g3, Hb3⟩, ⟨%g4, Hb4⟩, ⟨%g5, Hb5⟩, ⟨%g6, Hb6⟩, ⟨%g7, Hb7⟩, ⟨%g8, Hb8⟩, ⟨%g9, Hb9⟩, ⟨%g10, Hb10⟩, ⟨%g11, Hb11⟩, ⟨%g12, Hb12⟩, Hbufs⟩, ⟨Hs0, Hs1, Hs2, Hs3, Hs4, Hs5, Hs6, Hs7, Hs8, Hs9, Hs10, Hs11, Hs12, Hsems⟩, HO⟩
  ihave Hmw := ((K (F := F)).mayWaits_none (thr := thr d L) hO) $$ Hlv
  ihave Hpk' := (Entails.of_eq (rfl : ((pkW).view.loc (thr d L) ↦{qp} pk : sProp 𝕄) = _)) $$ [Hpk]
  · iexact Hpk
  ihave Hvpt' := (Entails.of_eq (rfl : ((vptW).view.loc (thr d L) ↦{qv} vpt : sProp 𝕄) = _)) $$ [Hvpt]
  · iexact Hvpt
  ihave Hq0 := (Entails.of_eq (rfl : (((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.loc (thr d L) ↦[((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.set]{fullShare} fo 0 : sProp 𝕄) = _)) $$ [Ho0]
  · iexact Ho0
  ihave Hq1 := (Entails.of_eq (rfl : (((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.loc (thr d L) ↦[((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.set]{fullShare} fo 1 : sProp 𝕄) = _)) $$ [Ho1]
  · iexact Ho1
  ihave Hq2 := (Entails.of_eq (rfl : (((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.loc (thr d L) ↦[((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.set]{fullShare} fo 2 : sProp 𝕄) = _)) $$ [Ho2]
  · iexact Ho2
  ihave Hq3 := (Entails.of_eq (rfl : (((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.loc (thr d L) ↦[((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.set]{fullShare} fo 3 : sProp 𝕄) = _)) $$ [Ho3]
  · iexact Ho3
  ihave Hq4 := (Entails.of_eq (rfl : (((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.loc (thr d L) ↦[((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.set]{fullShare} fo 4 : sProp 𝕄) = _)) $$ [Ho4]
  · iexact Ho4
  ihave Hq5 := (Entails.of_eq (rfl : (((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.loc (thr d L) ↦[((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.set]{fullShare} fo 5 : sProp 𝕄) = _)) $$ [Ho5]
  · iexact Ho5
  ihave Hb0' := (Entails.of_eq (pts_sc (F := F) d L cc3_scratch0 _).symm) $$ Hb0
  ihave Hb1' := (Entails.of_eq (pts_sc (F := F) d L cc3_scratch1 _).symm) $$ Hb1
  ihave Hb2' := (Entails.of_eq (pts_sc (F := F) d L cc3_scratch2 _).symm) $$ Hb2
  ihave Hb3' := (Entails.of_eq (pts_sc (F := F) d L cc3_scratch3 _).symm) $$ Hb3
  ihave Hb4' := (Entails.of_eq (pts_sc (F := F) d L cc3_scratch4 _).symm) $$ Hb4
  ihave Hb5' := (Entails.of_eq (pts_sc (F := F) d L cc3_scratch5 _).symm) $$ Hb5
  ihave Hb6' := (Entails.of_eq (pts_sc (F := F) d L cc3_scratch6 _).symm) $$ Hb6
  sl_exec
  sl_for (zinv (F := F) (Name := Name) (U := U) d L) $$ [Hb7 Hb8 Hb9 Hb10 Hb11 Hb12]
  case region =>
    intro k _
    unfold zinv
    iintro ⟨⟨%f7, H7, %h7⟩, ⟨%f8, H8, %h8⟩, ⟨%f9, H9, %h9⟩, ⟨%f10, H10, %h10⟩, ⟨%f11, H11, %h11⟩, ⟨%f12, H12, %h12⟩⟩
    sl_exec
    sl_step
    isplitl [H7]
    · iexists _; isplitl [H7]; · iexact H7
      ipureintro; exact zstep7 (F := F) f7 k h7
    isplitl [H8]
    · iexists _; isplitl [H8]; · iexact H8
      ipureintro; exact zstep8 (F := F) f8 k h8
    isplitl [H9]
    · iexists _; isplitl [H9]; · iexact H9
      ipureintro; exact zstep9 (F := F) f9 k h9
    isplitl [H10]
    · iexists _; isplitl [H10]; · iexact H10
      ipureintro; exact zstep10 (F := F) f10 k h10
    isplitl [H11]
    · iexists _; isplitl [H11]; · iexact H11
      ipureintro; exact zstep11 (F := F) f11 k h11
    iexists _; isplitl [H12]; · iexact H12
    ipureintro; exact zstep12 (F := F) f12 k h12
  · unfold zinv
    isplitl [Hb7]
    · iexists g7; isplitl [Hb7]; · iexact Hb7
      ipureintro; intro j hj; exact absurd hj (by omega)
    isplitl [Hb8]
    · iexists g8; isplitl [Hb8]; · iexact Hb8
      ipureintro; intro j hj; exact absurd hj (by omega)
    isplitl [Hb9]
    · iexists g9; isplitl [Hb9]; · iexact Hb9
      ipureintro; intro j hj; exact absurd hj (by omega)
    isplitl [Hb10]
    · iexists g10; isplitl [Hb10]; · iexact Hb10
      ipureintro; intro j hj; exact absurd hj (by omega)
    isplitl [Hb11]
    · iexists g11; isplitl [Hb11]; · iexact Hb11
      ipureintro; intro j hj; exact absurd hj (by omega)
    iexists g12; isplitl [Hb12]; · iexact Hb12
    ipureintro; intro j hj; exact absurd hj (by omega)
  iintro %_ HI
  unfold zinv
  icases HI with ⟨⟨%z7, Ha7, %hz7⟩, ⟨%z8, Ha8, %hz8⟩, ⟨%z9, Ha9, %hz9⟩, ⟨%z10, Ha10, %hz10⟩, ⟨%z11, Ha11, %hz11⟩, ⟨%z12, Ha12, %hz12⟩⟩
  have e7 := zdone (F := F) z7 hz7; subst e7
  have e8 := zdone (F := F) z8 hz8; subst e8
  have e9 := zdone (F := F) z9 hz9; subst e9
  have e10 := zdone (F := F) z10 hz10; subst e10
  have e11 := zdone (F := F) z11 hz11; subst e11
  have e12 := zdone (F := F) z12 hz12; subst e12
  sl_exec
  ihave Hv1 := (Entails.of_eq (pts_write_whole (F := F) d L cc3_scratch1 _ _)) $$ [Hb1']
  · iexact Hb1'
  ihave Hv2 := (Entails.of_eq (pts_write_whole (F := F) d L cc3_scratch2 _ _)) $$ [Hb2']
  · iexact Hb2'
  ihave Hv3 := (Entails.of_eq (pts_write_whole (F := F) d L cc3_scratch3 _ _)) $$ [Hb3']
  · iexact Hb3'
  ihave Hv4 := (Entails.of_eq (pts_write_whole (F := F) d L cc3_scratch4 _ _)) $$ [Hb4']
  · iexact Hb4'
  ihave Hv5 := (Entails.of_eq (pts_write_whole (F := F) d L cc3_scratch5 _ _)) $$ [Hb5']
  · iexact Hb5'
  ihave Hv6 := (Entails.of_eq (pts_write_whole (F := F) d L cc3_scratch6 _ _)) $$ [Hb6']
  · iexact Hb6'
  ihave Hc7 := (Entails.of_eq (pts_acc (F := F) d L cc3_scratch7 _).symm) $$ [Ha7]
  · iexact Ha7
  ihave Hc8 := (Entails.of_eq (pts_acc (F := F) d L cc3_scratch8 _).symm) $$ [Ha8]
  · iexact Ha8
  ihave Hc9 := (Entails.of_eq (pts_acc (F := F) d L cc3_scratch9 _).symm) $$ [Ha9]
  · iexact Ha9
  ihave Hc10 := (Entails.of_eq (pts_acc (F := F) d L cc3_scratch10 _).symm) $$ [Ha10]
  · iexact Ha10
  ihave Hc11 := (Entails.of_eq (pts_acc (F := F) d L cc3_scratch11 _).symm) $$ [Ha11]
  · iexact Ha11
  ihave Hc12 := (Entails.of_eq (pts_acc (F := F) d L cc3_scratch12 _).symm) $$ [Ha12]
  · iexact Ha12
  sl_for (BlockInv (F := F) (Name := Name) (U := U) d L qp pk hpk (fun j : Fin 6 => (vptRow L j).view.read (Elt F) vpt) O W) $$ [Hpk' Hb0' Hs6 Hv1 Hv2 Hv3 Hv4 Hv5 Hv6 Hc7 Hc8 Hc9 Hc10 Hc11 Hc12 HO]
  case region =>
    intro b acc
    exact block_body (F := F) (Name := Name) (U := U) d L qp pk hpk (fun j : Fin 6 => (vptRow L j).view.read (Elt F) vpt) O W _ b acc
  · unfold BlockInv
    isplitr; · iexact Hmw
    isplitl [Hpk']; · iexact Hpk'
    isplitl [Hb0']; · iexists _; iexact Hb0'
    isplitl [Hs6]; · iexact Hs6
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    iexists _
    isplitr
    rotate_left
    · iexact HO
    · ipureintro
      exact waits_insert _ (waits_insert _ (waits_insert _ (waits_insert _ (waits_insert _ (waits_insert _ (fun p hp => .inl hp))))))
  iintro %_ HI
  unfold BlockInv
  rw [trips50]
  icases HI with ⟨-, Hpk, ⟨%fp, Hp⟩, Hs6, Hv1, Hv2, Hv3, Hv4, Hv5, Hv6, Hc7, Hc8, Hc9, Hc10, Hc11, Hc12, %W', %hW', HO⟩
  ihave Ha7 := (Entails.of_eq (pts_acc (F := F) d L cc3_scratch7 _)) $$ [Hc7]
  · iexact Hc7
  ihave Ha8 := (Entails.of_eq (pts_acc (F := F) d L cc3_scratch8 _)) $$ [Hc8]
  · iexact Hc8
  ihave Ha9 := (Entails.of_eq (pts_acc (F := F) d L cc3_scratch9 _)) $$ [Hc9]
  · iexact Hc9
  ihave Ha10 := (Entails.of_eq (pts_acc (F := F) d L cc3_scratch10 _)) $$ [Hc10]
  · iexact Hc10
  ihave Ha11 := (Entails.of_eq (pts_acc (F := F) d L cc3_scratch11 _)) $$ [Hc11]
  · iexact Hc11
  ihave Ha12 := (Entails.of_eq (pts_acc (F := F) d L cc3_scratch12 _)) $$ [Hc12]
  · iexact Hc12
  sl_exec
  sl_step
  isplitl [Hpk]; · iexact Hpk
  isplitl [Hvpt']; · iexact Hvpt'
  isplitl [Hq0]
  · ihave Hr0 := (Entails.of_eq (pts_writes_whole (F := F) d L ((((outW : Memref sig .scVector .hbm S192x1x10000 .f32).slice (Rect.unit (s := S192x1x10000) (k3_off2 L 0#32) S1x1x10000.size (k3_off2_inb L 0)) (fun _ => rfl)).squeeze S10000 squeezes_S1x1x10000_S10000)) (fo 0) _)) $$ [Hq0]
    · iexact Hq0
    iexists (((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.write (Elt F) (fo 0) (aggRow pk hpk ((vptRow L 0).view.read (Elt F) vpt)) Finset.univ)
    isplitr
    · ipureintro; exact View.read_write_univ _ _
    · iexact Hr0
  isplitl [Hq1]
  · ihave Hr1 := (Entails.of_eq (pts_writes_whole (F := F) d L ((((outW : Memref sig .scVector .hbm S192x1x10000 .f32).slice (Rect.unit (s := S192x1x10000) (k3_off2 L 1#32) S1x1x10000.size (k3_off2_inb L 1)) (fun _ => rfl)).squeeze S10000 squeezes_S1x1x10000_S10000)) (fo 1) _)) $$ [Hq1]
    · iexact Hq1
    iexists (((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.write (Elt F) (fo 1) (aggRow pk hpk ((vptRow L 1).view.read (Elt F) vpt)) Finset.univ)
    isplitr
    · ipureintro; exact View.read_write_univ _ _
    · iexact Hr1
  isplitl [Hq2]
  · ihave Hr2 := (Entails.of_eq (pts_writes_whole (F := F) d L ((((outW : Memref sig .scVector .hbm S192x1x10000 .f32).slice (Rect.unit (s := S192x1x10000) (k3_off2 L 2#32) S1x1x10000.size (k3_off2_inb L 2)) (fun _ => rfl)).squeeze S10000 squeezes_S1x1x10000_S10000)) (fo 2) _)) $$ [Hq2]
    · iexact Hq2
    iexists (((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.write (Elt F) (fo 2) (aggRow pk hpk ((vptRow L 2).view.read (Elt F) vpt)) Finset.univ)
    isplitr
    · ipureintro; exact View.read_write_univ _ _
    · iexact Hr2
  isplitl [Hq3]
  · ihave Hr3 := (Entails.of_eq (pts_writes_whole (F := F) d L ((((outW : Memref sig .scVector .hbm S192x1x10000 .f32).slice (Rect.unit (s := S192x1x10000) (k3_off2 L 3#32) S1x1x10000.size (k3_off2_inb L 3)) (fun _ => rfl)).squeeze S10000 squeezes_S1x1x10000_S10000)) (fo 3) _)) $$ [Hq3]
    · iexact Hq3
    iexists (((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.write (Elt F) (fo 3) (aggRow pk hpk ((vptRow L 3).view.read (Elt F) vpt)) Finset.univ)
    isplitr
    · ipureintro; exact View.read_write_univ _ _
    · iexact Hr3
  isplitl [Hq4]
  · ihave Hr4 := (Entails.of_eq (pts_writes_whole (F := F) d L ((((outW : Memref sig .scVector .hbm S192x1x10000 .f32).slice (Rect.unit (s := S192x1x10000) (k3_off2 L 4#32) S1x1x10000.size (k3_off2_inb L 4)) (fun _ => rfl)).squeeze S10000 squeezes_S1x1x10000_S10000)) (fo 4) _)) $$ [Hq4]
    · iexact Hq4
    iexists (((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.write (Elt F) (fo 4) (aggRow pk hpk ((vptRow L 4).view.read (Elt F) vpt)) Finset.univ)
    isplitr
    · ipureintro; exact View.read_write_univ _ _
    · iexact Hr4
  isplitl [Hq5]
  · ihave Hr5 := (Entails.of_eq (pts_writes_whole (F := F) d L ((((outW : Memref sig .scVector .hbm S192x1x10000 .f32).slice (Rect.unit (s := S192x1x10000) (k3_off2 L 5#32) S1x1x10000.size (k3_off2_inb L 5)) (fun _ => rfl)).squeeze S10000 squeezes_S1x1x10000_S10000)) (fo 5) _)) $$ [Hq5]
    · iexact Hq5
    iexists (((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.write (Elt F) (fo 5) (aggRow pk hpk ((vptRow L 5).view.read (Elt F) vpt)) Finset.univ)
    isplitr
    · ipureintro; exact View.read_write_univ _ _
    · iexact Hr5
  isplitl [Hp Hv1 Hv2 Hv3 Hv4 Hv5 Hv6 Ha7 Ha8 Ha9 Ha10 Ha11 Ha12 Hbufs]
  · isplitl [Hp]; · iexists _; iexact Hp
    isplitl [Hv1]; · iexists _; iexact Hv1
    isplitl [Hv2]; · iexists _; iexact Hv2
    isplitl [Hv3]; · iexists _; iexact Hv3
    isplitl [Hv4]; · iexists _; iexact Hv4
    isplitl [Hv5]; · iexists _; iexact Hv5
    isplitl [Hv6]; · iexists _; iexact Hv6
    isplitl [Ha7]; · iexists _; iexact Ha7
    isplitl [Ha8]; · iexists _; iexact Ha8
    isplitl [Ha9]; · iexists _; iexact Ha9
    isplitl [Ha10]; · iexists _; iexact Ha10
    isplitl [Ha11]; · iexists _; iexact Ha11
    isplitl [Ha12]; · iexists _; iexact Ha12
    iexact Hbufs
  isplitl [Hs0 Hs1 Hs2 Hs3 Hs4 Hs5 Hs6 Hs7 Hs8 Hs9 Hs10 Hs11 Hs12 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    iexact Hsems
  iexists _
  isplitr
  rotate_left
  · iexact HO
  · ipureintro
    exact waits_insert _ (waits_insert _ (waits_insert _ (waits_insert _ (waits_insert _ (waits_insert _ hW')))))

end Cert.Proof.KI.Edge
-- ==== Proof.KI.Edge.lean ====
/-
  The edge kernel's body on one tile, as one triple over the tile's resources: holding read shares of the packed
  edge words and of the feature rows, the tile's six result rows at any contents and its own scratch, the kernel
  ends with each result row at the fold of all the packed words over its feature row. The walk's loops and the
  copies around them are proved in the modules below this one; this module states the triple for its users.
-/
import proofs.«207992_g50208167690906_cont_8to1c4_731_36_alg».proof.Proof.KI.EdgeTop

noncomputable section

namespace Cert.Proof.KI.Edge

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-- The edge kernel's body on one tile: holding read shares of the packed words and of the feature rows, the tile's six
    result rows and its own scratch, it ends with each result row at the fold of the packed words over the feature row. -/
theorem edge_body (d : Dev nD) (L : grid3.Coords) (qp qv : PosShare TreeShare)
    (pk : Buf (Elt F) ((pkW).view.loc (thr d L))) (vpt : Buf (Elt F) ((vptW).view.loc (thr d L)))
    (fo : Fin 6 → Buf (Elt F) ((outW).view.loc (thr d L))) (hpk : PackedOK pk)
    (O : CellTallies nD τ sig (HIx 2)) (W : Waits sig (HIx 2)) (hO : ∀ g, O g none = 0) :
    (iprop(levAts (K (F := F)).L (K (F := F)).lev
        ∗ ((pkW).view.loc (thr d L) ↦{qp} pk)
        ∗ ((vptW).view.loc (thr d L) ↦{qv} vpt)
        ∗ ((outRow L 0).view.loc (thr d L) ↦[(outRow L 0).view.set]{fullShare} fo 0)
        ∗ ((outRow L 1).view.loc (thr d L) ↦[(outRow L 1).view.set]{fullShare} fo 1)
        ∗ ((outRow L 2).view.loc (thr d L) ↦[(outRow L 2).view.set]{fullShare} fo 2)
        ∗ ((outRow L 3).view.loc (thr d L) ↦[(outRow L 3).view.set]{fullShare} fo 3)
        ∗ ((outRow L 4).view.loc (thr d L) ↦[(outRow L 4).view.set]{fullShare} fo 4)
        ∗ ((outRow L 5).view.loc (thr d L) ↦[(outRow L 5).view.set]{fullShare} fo 5)
        ∗ scopedBufs (thr d L) ∗ scopedSems0 (thr d L) ∗ owes (thr d L) O W) : sProp 𝕄)
      ⊢ wp frame (wpE (defs₀ (F := F)) 𝒱₀ (thr d L) none) Set.univ
          (cc3__edge_kernel L pkW (Memref.isWhole_whole _) vptW (Memref.isWhole_whole _) outW (Memref.isWhole_whole _)
            (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _)
            cc3_scoped0 cc3_scoped1 cc3_scoped2 cc3_scoped3 cc3_scoped4 cc3_scoped5 cc3_scoped6 cc3_scoped7 cc3_scoped8 cc3_scoped9 cc3_scoped10 cc3_scoped11 cc3_scoped12)
          fun _ => iprop(((pkW).view.loc (thr d L) ↦{qp} pk)
            ∗ ((vptW).view.loc (thr d L) ↦{qv} vpt)
            ∗ (∃ g, ⌜(outRow L 0).view.read (Elt F) g = aggRow pk hpk ((vptRow L 0).view.read (Elt F) vpt)⌝ ∗ (outRow L 0).view.loc (thr d L) ↦[(outRow L 0).view.set]{fullShare} g)
            ∗ (∃ g, ⌜(outRow L 1).view.read (Elt F) g = aggRow pk hpk ((vptRow L 1).view.read (Elt F) vpt)⌝ ∗ (outRow L 1).view.loc (thr d L) ↦[(outRow L 1).view.set]{fullShare} g)
            ∗ (∃ g, ⌜(outRow L 2).view.read (Elt F) g = aggRow pk hpk ((vptRow L 2).view.read (Elt F) vpt)⌝ ∗ (outRow L 2).view.loc (thr d L) ↦[(outRow L 2).view.set]{fullShare} g)
            ∗ (∃ g, ⌜(outRow L 3).view.read (Elt F) g = aggRow pk hpk ((vptRow L 3).view.read (Elt F) vpt)⌝ ∗ (outRow L 3).view.loc (thr d L) ↦[(outRow L 3).view.set]{fullShare} g)
            ∗ (∃ g, ⌜(outRow L 4).view.read (Elt F) g = aggRow pk hpk ((vptRow L 4).view.read (Elt F) vpt)⌝ ∗ (outRow L 4).view.loc (thr d L) ↦[(outRow L 4).view.set]{fullShare} g)
            ∗ (∃ g, ⌜(outRow L 5).view.read (Elt F) g = aggRow pk hpk ((vptRow L 5).view.read (Elt F) vpt)⌝ ∗ (outRow L 5).view.loc (thr d L) ↦[(outRow L 5).view.set]{fullShare} g)
            ∗ scopedBufs (thr d L) ∗ scopedSems0 (thr d L)
            ∗ ∃ W', ⌜∀ p ∈ W', p ∈ W ∨ p.2 = none⌝ ∗ owes (thr d L) O W') :=
  edge_top d L qp qv pk vpt fo hpk O W hO

end Cert.Proof.KI.Edge

end
-- ==== Proof.KI.PayObl.lean ====
/-
  The two SparseCore kernels as the launch theorem's tile obligations: at tile (c, i) of a call, the kernel's body at
  that grid point runs from the tile's operands to the tile's results. What the body proves of a tile's result rows
  (the tile's histogram written through its row; a row that reads as the fold over the tile's feature row) is restated
  as the whole result array on that row's elements, so that the 32 tiles' rows join into one array: a row's word j is
  element (row, 0, j) of its array.
-/
import proofs.«207992_g50208167690906_cont_8to1c4_731_36_alg».proof.Proof.KI.Pay
import proofs.«207992_g50208167690906_cont_8to1c4_731_36_alg».proof.Proof.KI.Histo
import proofs.«207992_g50208167690906_cont_8to1c4_731_36_alg».proof.Proof.KI.Edge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 2) (Elt F) ℕ UU ℕ

/-! ## Where a row's words sit in its array -/

/-- A vector's index in the shape with two unit axes in front. -/
theorem reshape_11n {n : ℕ} (h : (⟨1, ![n]⟩ : Shape).numel = (⟨3, ![1, 1, n]⟩ : Shape).numel) (x : (⟨1, ![n]⟩ : Shape).Idx) :
    Shape.reshapeEquiv h x = ix3 (0 : Fin 1) (0 : Fin 1) (⟨(x 0).val, (x 0).isLt⟩ : Fin n) :=
  Shape.reshapeEquiv_eq_of_rowMajor h (by
    rw [Shape.rowMajor_val_three, Shape.rowMajor_val_one]
    show (0 * 1 + 0) * n + (x 0).val = (x 0).val
    omega)

/-- Word j of tile L's row of the histograms is element (16 (L 0) + (L 1), 0, j) of the array. -/
theorem outSl_emb (L : grid0.Coords) (x : S10240.Idx) (a : Fin 3) :
    (((outSl L).view.emb x : S32x1x10240.Idx) a).val = (![16 * (L 0).val + (L 1).val, 0, (x 0).val] : Fin 3 → ℕ) a := by
  show ((Rect.unit (s := S32x1x10240) (k0_off4 L) S1x1x10240.size (k0_off4_inb L)).emb (Shape.reshapeEquiv _ x) a).val = _
  rw [Rect.emb_apply, reshape_11n, Rect.off_unit, Rect.stride_unit]
  match a with
  | ⟨0, h⟩ =>
    have e : k0_off4 L ⟨0, h⟩ = 16 * (L 0).val + (L 1).val := congrFun (k0_off4_eq L) ⟨0, h⟩
    show k0_off4 L ⟨0, h⟩ + 1 * 0 = 16 * (L 0).val + (L 1).val
    omega
  | ⟨1, h⟩ =>
    have e : k0_off4 L ⟨1, h⟩ = 0 := congrFun (k0_off4_eq L) ⟨1, h⟩
    show k0_off4 L ⟨1, h⟩ + 1 * 0 = 0
    omega
  | ⟨2, h⟩ =>
    have e : k0_off4 L ⟨2, h⟩ = 0 := congrFun (k0_off4_eq L) ⟨2, h⟩
    show k0_off4 L ⟨2, h⟩ + 1 * (x 0).val = (x 0).val
    omega

/-- Word j of row r of tile L's six is element (96 (L 0) + 6 (L 1) + r, 0, j) of either [192, 1, 10000] array. -/
theorem aggRow_emb (L : grid3.Coords) (r : Fin 6) (x : S10000.Idx) (a : Fin 3) :
    (((aggRowSl L r).view.emb x : S192x1x10000.Idx) a).val = (![96 * (L 0).val + 6 * (L 1).val + r.val, 0, (x 0).val] : Fin 3 → ℕ) a := by
  show ((rowRect L r).emb (Shape.reshapeEquiv _ x) a).val = _
  rw [Rect.emb_apply, reshape_11n, Rect.off_unit, Rect.stride_unit]
  match a with
  | ⟨0, h⟩ =>
    have e : k3_off2 L (BitVec.ofNat 32 r.val) ⟨0, h⟩ = 96 * (L 0).val + 6 * (L 1).val + r.val := congrFun (k3_off2_eq L r) ⟨0, h⟩
    show k3_off2 L (BitVec.ofNat 32 r.val) ⟨0, h⟩ + 1 * 0 = 96 * (L 0).val + 6 * (L 1).val + r.val
    omega
  | ⟨1, h⟩ =>
    have e : k3_off2 L (BitVec.ofNat 32 r.val) ⟨1, h⟩ = 0 := congrFun (k3_off2_eq L r) ⟨1, h⟩
    show k3_off2 L (BitVec.ofNat 32 r.val) ⟨1, h⟩ + 1 * 0 = 0
    omega
  | ⟨2, h⟩ =>
    have e : k3_off2 L (BitVec.ofNat 32 r.val) ⟨2, h⟩ = 0 := congrFun (k3_off2_eq L r) ⟨2, h⟩
    show k3_off2 L (BitVec.ofNat 32 r.val) ⟨2, h⟩ + 1 * (x 0).val = (x 0).val
    omega
theorem vptRow_emb (L : grid3.Coords) (r : Fin 6) (x : S10000.Idx) (a : Fin 3) :
    (((vptRow L r).view.emb x : S192x1x10000.Idx) a).val = (![96 * (L 0).val + 6 * (L 1).val + r.val, 0, (x 0).val] : Fin 3 → ℕ) a :=
  aggRow_emb L r x a

variable [FloatOps F]

/-- The tile's histogram, written through the tile's row, is the whole result there. -/
theorem hist_agree (d : Dev nD) (L : grid0.Coords) (fo : Buf (Elt F) (v8Loc d)) (rowv : IVec Histo.SR 32) (hok : Histo.RowOK rowv) :
    ∀ i ∈ (outSl L).view.set,
      (outSl L).view.write (Elt F) fo (Histo.histTile (F := F) rowv hok (16 * (L 0).val + (L 1).val)) Finset.univ i
        = (Histo.histArr (F := F) rowv hok : Buf (Elt F) (v8Loc d)) i := by
  intro i hi
  obtain ⟨x, -, rfl⟩ := Finset.mem_map.mp hi
  rw [View.write_emb_of_mem _ _ (Finset.mem_univ x)]
  have h0 : (((outSl L).view.emb x : S32x1x10240.Idx) 0).val = 16 * (L 0).val + (L 1).val := outSl_emb L x 0
  have h2 : (((outSl L).view.emb x : S32x1x10240.Idx) 2).val = (x 0).val := outSl_emb L x 2
  rw [cast_eq]
  show Histo.histTile (F := F) rowv hok (16 * (L 0).val + (L 1).val) x
    = Histo.histTile (F := F) rowv hok (((outSl L).view.emb x : S32x1x10240.Idx) 0).val
        (ix1 (⟨(((outSl L).view.emb x : S32x1x10240.Idx) 2).val, (((outSl L).view.emb x : S32x1x10240.Idx) 2).isLt⟩ : Fin 10240))
  have hx : x = ix1 (⟨(((outSl L).view.emb x : S32x1x10240.Idx) 2).val, (((outSl L).view.emb x : S32x1x10240.Idx) 2).isLt⟩ : Fin 10240) := by
    funext a
    obtain rfl : a = 0 := Subsingleton.elim _ _
    exact Fin.ext h2.symm
  rw [h0]
  exact congrArg _ hx

/-- Word j of row r of tile L's six, as an index of the [192, 1, 10000] arrays. -/
theorem row_lt (L : grid3.Coords) (r : Fin 6) : 96 * (L 0).val + 6 * (L 1).val + r.val < 192 := by
  have h0 : (L 0).val < 2 := (L 0).isLt
  have h1 : (L 1).val < 16 := (L 1).isLt
  have h2 := r.isLt
  omega

theorem aggRow_emb_eq (L : grid3.Coords) (r : Fin 6) (x : S10000.Idx) :
    ((aggRowSl L r).view.emb x : S192x1x10000.Idx)
      = ix3 (⟨96 * (L 0).val + 6 * (L 1).val + r.val, row_lt L r⟩ : Fin 192) (0 : Fin 1) (⟨(x 0).val, (x 0).isLt⟩ : Fin 10000) := by
  funext a
  apply Fin.ext
  rw [aggRow_emb]
  match a with
  | ⟨0, _⟩ => rfl
  | ⟨1, _⟩ => rfl
  | ⟨2, _⟩ => rfl
theorem vptRow_emb_eq (L : grid3.Coords) (r : Fin 6) (x : S10000.Idx) :
    ((vptRow L r).view.emb x : S192x1x10000.Idx)
      = ix3 (⟨96 * (L 0).val + 6 * (L 1).val + r.val, row_lt L r⟩ : Fin 192) (0 : Fin 1) (⟨(x 0).val, (x 0).isLt⟩ : Fin 10000) :=
  aggRow_emb_eq L r x

/-- The feature rows read through the tile's row r: row 96 (L 0) + 6 (L 1) + r of them. -/
theorem vptRow_read (L : grid3.Coords) (r : Fin 6) (vpt : Vec F S192x1x10000 .f32) :
    (vptRow L r).view.read (Elt F) vpt = rowAt vpt ⟨96 * (L 0).val + 6 * (L 1).val + r.val, row_lt L r⟩ := by
  funext y
  rw [View.read_apply, cast_eq]
  show vpt ((vptRow L r).view.emb y) = vpt (ix3 _ 0 (y 0))
  rw [vptRow_emb_eq]
  rfl

/-- A row that reads as the fold over the tile's feature row is the whole result there. -/
theorem agg_agree (L : grid3.Coords) (r : Fin 6) (pk : IVec Edge.SP 32) (hpk : Edge.PackedOK pk) (vpt : Vec F S192x1x10000 .f32)
    (g : Vec F S192x1x10000 .f32)
    (hg : (aggRowSl L r).view.read (Elt F) g = Edge.aggRow pk hpk ((vptRow L r).view.read (Elt F) vpt)) :
    ∀ i ∈ (aggRowSl L r).view.set, g i = aggRows pk hpk vpt i := by
  intro i hi
  obtain ⟨x, -, rfl⟩ := Finset.mem_map.mp hi
  have h := congrFun hg x
  rw [View.read_apply, cast_eq, vptRow_read] at h
  rw [h]
  show _ = Edge.aggRow pk hpk (rowAt vpt (((aggRowSl L r).view.emb x : S192x1x10000.Idx) 0)) (ix1 (((aggRowSl L r).view.emb x : S192x1x10000.Idx) 2))
  rw [aggRow_emb_eq]
  show Edge.aggRow pk hpk _ x = Edge.aggRow pk hpk _ (ix1 (⟨(x 0).val, (x 0).isLt⟩ : Fin 10000))
  congr 1
  funext a
  obtain rfl : a = 0 := Subsingleton.elim _ _
  rfl

/-! ## The launch theorem's obligations: a tile's task from the kernel's body at the tile -/

variable (A : Handed F)

theorem defs₀_vector0 (c : Fin τ.nSC) (s : Fin τ.nSub) :
    defs₀ (F := F) (.scVector c s) 0 ()
      = SparseCore.onTile hcore0 hsub0 (fun c s => cc0__histo_kernel (tile0 c s)
          (Memref.whole main_v1_scv) (Memref.isWhole_whole _) (Memref.whole main_v8_scv) (Memref.isWhole_whole _)
          (Memref.whole cc0_scratch0) (Memref.isWhole_whole _) (Memref.whole cc0_scratch1) (Memref.isWhole_whole _) cc0_scoped0 cc0_scoped1) ⟨⟩ c s := rfl

theorem defs₀_vector3 (c : Fin τ.nSC) (s : Fin τ.nSub) :
    defs₀ (F := F) (.scVector c s) 3 ()
      = SparseCore.onTile hcore3 hsub3 (fun c s => cc3__edge_kernel (tile3 c s)
          (Memref.whole main_v20_scv) (Memref.isWhole_whole _) (Memref.whole main_v16_scv) (Memref.isWhole_whole _) (Memref.whole main_v21_scv) (Memref.isWhole_whole _)
          (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _)
          cc3_scoped0 cc3_scoped1 cc3_scoped2 cc3_scoped3 cc3_scoped4 cc3_scoped5 cc3_scoped6 cc3_scoped7 cc3_scoped8 cc3_scoped9 cc3_scoped10 cc3_scoped11 cc3_scoped12) ⟨⟩ c s := rfl

omit [FloatOps F] in
theorem obl_post {thr : Thread nD τ} {X B C : sProp 𝕄} {O : CellTallies nD τ sig (HIx 2)} {W : Waits sig (HIx 2)} {q : Fin 2} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A family over the six rows, row by row. -/
theorem bigSep_univ_six {M : Type} [URA M] (Φ : Fin 6 → sProp M) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

/-- Call 0, going in: the tile's operands as the kernel's body takes them. -/
theorem tile0_pre (d : Dev nD) (c : Fin 2) (i : Fin 16) (X B C E : sProp 𝕄) :
    iprop(X ∗ emp ∗ go0 A d c i ∗ B ∗ C ∗ E)
      ⊢ iprop(X ∗ (v1Loc d ↦[(rowSl (tile0 c i)).view.set]{fullShare} A.row d)
          ∗ (v8Loc d ↦[(outSl (tile0 c i)).view.set]{fullShare} A.h8 d) ∗ B ∗ C ∗ E) := by
  unfold go0
  iintro ⟨HX, -, ⟨Hr, Ho⟩, HB, HC, HE⟩
  isplitl [HX]; · iexact HX
  isplitl [Hr]; · iexact Hr
  isplitl [Ho]; · iexact Ho
  isplitl [HB]; · iexact HB
  isplitl [HC]; · iexact HC
  iexact HE

/-- Call 0, coming out: the tile's histogram, written through the tile's row, restated as the whole result there. -/
theorem tile0_post (d : Dev nD) (c : Fin 2) (i : Fin 16) (B C E : sProp 𝕄) :
    iprop((v1Loc d ↦[(rowSl (tile0 c i)).view.set]{fullShare} A.row d)
        ∗ (v8Loc d ↦[(outSl (tile0 c i)).view.set]{fullShare}
            (outSl (tile0 c i)).view.write (Elt F) (A.h8 d)
              (Histo.histTile (F := F) (A.row d) (A.hrow d) (16 * ((tile0 c i) 0).val + ((tile0 c i) 1).val)) Finset.univ)
        ∗ B ∗ C ∗ E)
      ⊢ iprop(td0 A d c i ∗ B ∗ C ∗ E) := by
  unfold td0 histBuf
  rw [pointsTo_congr (ℓ := v8Loc d) (q := fullShare) (hist_agree d (tile0 c i) (A.h8 d) (A.row d) (A.hrow d))]
  iintro ⟨Hr, Ho, HB, HC, HE⟩
  isplitl [Hr Ho]
  · isplitl [Hr]; · iexact Hr
    iexact Ho
  isplitl [HB]; · iexact HB
  isplitl [HC]; · iexact HC
  iexact HE

/-- Call 0: the histogram kernel at the tile. -/
theorem tileObl0 : (K (F := F)).TileObl (D (F := F)) 𝒱 (P A) v₀ 0 := by
  intro d c i O W hO _ _
  simp only [P_ox A, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  rw [P_x, P_go0, P_td0]
  exact (tile0_pre A d (cc 0 c) (ii 0 i) _ _ _ _).trans
    ((Histo.body (F := F) (U := UU) d (tile0 (cc 0 c) (ii 0 i)) fullShare (A.row d) (A.h8 d) (A.hrow d) O W hO).trans
      (wp_mono frame _ _ fun _ => (tile0_post A d (cc 0 c) (ii 0 i) _ _ _).trans obl_post))

/-- One row of the tile's six after the edge kernel: it reads as the fold, so it is the whole result there. -/
theorem agg_row_post (d : Dev nD) (L : grid3.Coords) (r : Fin 6) :
    iprop(∃ g, ⌜(aggRowSl L r).view.read (Elt F) g = Edge.aggRow (A.pk d) (A.hpk d) ((vptRow L r).view.read (Elt F) (A.vpt d))⌝
        ∗ v21Loc d ↦[(aggRowSl L r).view.set]{fullShare} g)
      ⊢ (v21Loc d ↦[(aggRowSl L r).view.set]{fullShare} aggBuf A d : sProp 𝕄) := by
  iintro ⟨%g, %hg, H⟩
  rw [← pointsTo_congr (ℓ := v21Loc d) (q := fullShare) (f := g) (g := aggBuf A d) (agg_agree L r (A.pk d) (A.hpk d) (A.vpt d) g hg)]
  iexact H

/-- Call 1, going in: the tile's operands as the kernel's body takes them, the six rows one by one. -/
theorem tile1_pre (d : Dev nD) (c : Fin 2) (i : Fin 16) (X B C E : sProp 𝕄) :
    iprop(X ∗ emp ∗ go1 A d c i ∗ B ∗ C ∗ E)
      ⊢ iprop(X ∗ (v20Loc d ↦{shareTok fullShare 32 (tid c i)} A.pk d) ∗ (v16Loc d ↦{shareTok fullShare 32 (tid c i)} A.vpt d)
          ∗ (v21Loc d ↦[(aggRowSl (tile3 c i) 0).view.set]{fullShare} A.h21 d)
          ∗ (v21Loc d ↦[(aggRowSl (tile3 c i) 1).view.set]{fullShare} A.h21 d)
          ∗ (v21Loc d ↦[(aggRowSl (tile3 c i) 2).view.set]{fullShare} A.h21 d)
          ∗ (v21Loc d ↦[(aggRowSl (tile3 c i) 3).view.set]{fullShare} A.h21 d)
          ∗ (v21Loc d ↦[(aggRowSl (tile3 c i) 4).view.set]{fullShare} A.h21 d)
          ∗ (v21Loc d ↦[(aggRowSl (tile3 c i) 5).view.set]{fullShare} A.h21 d)
          ∗ B ∗ C ∗ E) := by
  unfold go1
  rw [bigSep_univ_six]
  iintro ⟨HX, -, ⟨Hpk, Hv, H0, H1, H2, H3, H4, H5⟩, HB, HC, HE⟩
  isplitl [HX]; · iexact HX
  isplitl [Hpk]; · iexact Hpk
  isplitl [Hv]; · iexact Hv
  isplitl [H0]; · iexact H0
  isplitl [H1]; · iexact H1
  isplitl [H2]; · iexact H2
  isplitl [H3]; · iexact H3
  isplitl [H4]; · iexact H4
  isplitl [H5]; · iexact H5
  isplitl [HB]; · iexact HB
  isplitl [HC]; · iexact HC
  iexact HE

/-- Call 1, coming out: each of the six rows restated as the whole result there. -/
theorem tile1_post (d : Dev nD) (c : Fin 2) (i : Fin 16) (B C E : sProp 𝕄) :
    iprop((v20Loc d ↦{shareTok fullShare 32 (tid c i)} A.pk d) ∗ (v16Loc d ↦{shareTok fullShare 32 (tid c i)} A.vpt d)
        ∗ (∃ g, ⌜(aggRowSl (tile3 c i) 0).view.read (Elt F) g = Edge.aggRow (A.pk d) (A.hpk d) ((vptRow (tile3 c i) 0).view.read (Elt F) (A.vpt d))⌝ ∗ v21Loc d ↦[(aggRowSl (tile3 c i) 0).view.set]{fullShare} g)
        ∗ (∃ g, ⌜(aggRowSl (tile3 c i) 1).view.read (Elt F) g = Edge.aggRow (A.pk d) (A.hpk d) ((vptRow (tile3 c i) 1).view.read (Elt F) (A.vpt d))⌝ ∗ v21Loc d ↦[(aggRowSl (tile3 c i) 1).view.set]{fullShare} g)
        ∗ (∃ g, ⌜(aggRowSl (tile3 c i) 2).view.read (Elt F) g = Edge.aggRow (A.pk d) (A.hpk d) ((vptRow (tile3 c i) 2).view.read (Elt F) (A.vpt d))⌝ ∗ v21Loc d ↦[(aggRowSl (tile3 c i) 2).view.set]{fullShare} g)
        ∗ (∃ g, ⌜(aggRowSl (tile3 c i) 3).view.read (Elt F) g = Edge.aggRow (A.pk d) (A.hpk d) ((vptRow (tile3 c i) 3).view.read (Elt F) (A.vpt d))⌝ ∗ v21Loc d ↦[(aggRowSl (tile3 c i) 3).view.set]{fullShare} g)
        ∗ (∃ g, ⌜(aggRowSl (tile3 c i) 4).view.read (Elt F) g = Edge.aggRow (A.pk d) (A.hpk d) ((vptRow (tile3 c i) 4).view.read (Elt F) (A.vpt d))⌝ ∗ v21Loc d ↦[(aggRowSl (tile3 c i) 4).view.set]{fullShare} g)
        ∗ (∃ g, ⌜(aggRowSl (tile3 c i) 5).view.read (Elt F) g = Edge.aggRow (A.pk d) (A.hpk d) ((vptRow (tile3 c i) 5).view.read (Elt F) (A.vpt d))⌝ ∗ v21Loc d ↦[(aggRowSl (tile3 c i) 5).view.set]{fullShare} g)
        ∗ B ∗ C ∗ E)
      ⊢ iprop(td1 A d c i ∗ B ∗ C ∗ E) := by
  unfold td1
  rw [bigSep_univ_six]
  iintro ⟨Hpk, Hv, H0, H1, H2, H3, H4, H5, HB, HC, HE⟩
  isplitl [Hpk Hv H0 H1 H2 H3 H4 H5]
  · isplitl [Hpk]; · iexact Hpk
    isplitl [Hv]; · iexact Hv
    isplitl [H0]; · iapply (agg_row_post A d (tile3 c i) 0); iexact H0
    isplitl [H1]; · iapply (agg_row_post A d (tile3 c i) 1); iexact H1
    isplitl [H2]; · iapply (agg_row_post A d (tile3 c i) 2); iexact H2
    isplitl [H3]; · iapply (agg_row_post A d (tile3 c i) 3); iexact H3
    isplitl [H4]; · iapply (agg_row_post A d (tile3 c i) 4); iexact H4
    iapply (agg_row_post A d (tile3 c i) 5); iexact H5
  isplitl [HB]; · iexact HB
  isplitl [HC]; · iexact HC
  iexact HE

set_option maxHeartbeats 2000000 in
/-- Call 1: the edge kernel at the tile. -/
theorem tileObl1 : (K (F := F)).TileObl (D (F := F)) 𝒱 (P A) v₀ 1 := by
  intro d c i O W hO _ _
  simp only [P_ox A, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  rw [P_x, P_go1, P_td1]
  exact (tile1_pre A d (cc 1 c) (ii 1 i) _ _ _ _).trans
    ((Edge.edge_body (F := F) (Name := ℕ) (U := UU) d (tile3 (cc 1 c) (ii 1 i)) (shareTok fullShare 32 (tid (cc 1 c) (ii 1 i))) (shareTok fullShare 32 (tid (cc 1 c) (ii 1 i)))
        (A.pk d) (A.vpt d) (fun _ => A.h21 d) (A.hpk d) O W hO).trans
      (wp_mono frame _ _ fun _ => (tile1_post A d (cc 1 c) (ii 1 i) _ _ _).trans obl_post))

end Cert.Proof.KI

end
-- ==== Proof.KI.ChainInt.lean ====
/-
  The three integer arrays along @main, read at an index: the row words and the column words are the two rows of
  the edge array, and a packed word is its row word times 2^14 plus its column word. No float operation is
  involved, so everything here holds at every float instance.
-/
import proofs.«207992_g50208167690906_cont_8to1c4_731_36_alg».proof.Proof.KI.Chain
import Idealize.ShloMosaic.Lib.ValueLayout

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps

variable {F : FTy → Type} [FloatOps F]
variable (m : (ℓ : Loc nD τ sig) → Buf (Elt F) ℓ) (d : Dev nD)

/-- The edge array as launched: row 0 the row words, row 1 the column words. -/
abbrev edgeArr : IVec S2x320000 32 := m (d, dr main_arg1)

/-- The column words. -/
abbrev colWords : IVec Histo.SR 32 := W1 m d (dr main_v3)

theorem rowWords_eq :
    rowWords m d = shapeCast S320000 (extractStridedSlice S1x320000 ![0, 0] (edgeArr m d) slices_S2x320000_S1x320000_0_0)
      shapeCasts_S1x320000_S320000 := by
  dsimp only [rowWords, W1, ops0]; after_results; rfl

theorem colWords_eq :
    colWords m d = shapeCast S320000 (extractStridedSlice S1x320000 ![1, 0] (edgeArr m d) slices_S2x320000_S1x320000_1_0)
      shapeCasts_S1x320000_S320000 := by
  dsimp only [colWords, W1, ops0]; after_results; rfl

/-- Row word `e` is element `(0, e)` of the edge array. -/
theorem rowWords_apply (e : Fin 320000) : rowWords m d (ix1 e) = edgeArr m d (ix2 0 e) := by
  rw [rowWords_eq]
  refine (shapeCast_1a_a_apply _ _ e).trans ?_
  exact slice2_axis0_apply 0 _ _ 0 e 0 rfl

/-- Column word `e` is element `(1, e)` of the edge array. -/
theorem colWords_apply (e : Fin 320000) : colWords m d (ix1 e) = edgeArr m d (ix2 1 e) := by
  rw [colWords_eq]
  refine (shapeCast_1a_a_apply _ _ e).trans ?_
  exact slice2_axis0_apply 1 _ _ 0 e 1 rfl

/-! ### The two word arrays reach the packing region unchanged -/

theorem W3_v1 (hr : Histo.RowOK (rowWords m d)) : W3 m d hr (dr main_v1) = rowWords m d := by
  dsimp only [W3, ops1]; after_results
  exact Function.update_of_ne (by decide) _ _

theorem W3_v3 (hr : Histo.RowOK (rowWords m d)) : W3 m d hr (dr main_v3) = colWords m d := by
  dsimp only [W3, ops1]; after_results
  exact Function.update_of_ne (by decide) _ _

theorem W4_v1 (hr : Histo.RowOK (rowWords m d)) : W4 m d hr (dr main_v1) = rowWords m d := by
  unfold W4
  rw [Function.update_of_ne (by decide), Function.update_of_ne (by decide)]
  exact W3_v1 m d hr

theorem W4_v3 (hr : Histo.RowOK (rowWords m d)) : W4 m d hr (dr main_v3) = colWords m d := by
  unfold W4
  rw [Function.update_of_ne (by decide), Function.update_of_ne (by decide)]
  exact W3_v3 m d hr

/-- The packing region's value at an index: the first operand times 2^14 plus the second. -/
theorem pack_apply (r2 c2 : IVec S2500x128 32) (j : S2500x128.Idx) :
    Region.pack (F := F) r2 c2 j = r2 j * 16384#32 + c2 j := by
  show IntOp.addi (IntOp.muli (shapeCast S2500x128 r2 shapeCasts_S2500x128_S2500x128 j) 16384#32)
      (shapeCast S2500x128 c2 shapeCasts_S2500x128_S2500x128 j) = _
  rw [shapeCast_apply r2 _ j j rfl, shapeCast_apply c2 _ j j rfl]
  rfl

theorem packedWords_eq (hr : Histo.RowOK (rowWords m d)) :
    packedWords m d hr = shapeCast S320000 (Region.pack (F := F)
        (shapeCast S2500x128 (rowWords m d) shapeCasts_S320000_S2500x128)
        (shapeCast S2500x128 (colWords m d) shapeCasts_S320000_S2500x128)) shapeCasts_S2500x128_S320000 := by
  have e17 : W5 m d hr (dr main_v17) = shapeCast S2500x128 (rowWords m d) shapeCasts_S320000_S2500x128 := by
    dsimp only [W5, ops2]; after_results; rw [W4_v1]; rfl
  have e18 : W5 m d hr (dr main_v18) = shapeCast S2500x128 (colWords m d) shapeCasts_S320000_S2500x128 := by
    dsimp only [W5, ops2]; after_results; rw [W4_v3]; rfl
  have e19 : W6 m d hr (dr main_v19) = Region.pack (F := F) (W5 m d hr (dr main_v17)) (W5 m d hr (dr main_v18)) := by
    unfold W6; exact Function.update_self _ _ _
  dsimp only [packedWords, W7, ops3]; after_results; rw [e19, e17, e18]; rfl

/-- Packed word `e` is row word `e` times 2^14 plus column word `e`. -/
theorem packedWords_apply (hr : Histo.RowOK (rowWords m d)) (e : Fin 320000) :
    packedWords m d hr (ix1 e) = rowWords m d (ix1 e) * 16384#32 + colWords m d (ix1 e) := by
  have hq : e.val / 128 < 2500 := by have := e.isLt; omega
  have hrow : ∀ (x : IVec S320000 32), shapeCast S2500x128 x shapeCasts_S320000_S2500x128
      (ix2 (⟨e.val / 128, hq⟩ : Fin 2500) (⟨e.val % 128, Nat.mod_lt _ (by decide)⟩ : Fin 128)) = x (ix1 e) := fun x =>
    shapeCast_apply x _ _ (ix1 e) (by
      rw [Shape.rowMajor_val_two, Shape.rowMajor_val_one]
      show e.val = e.val / 128 * 128 + e.val % 128
      omega)
  rw [packedWords_eq]
  refine (shapeCast_apply _ _ (ix1 e) (ix2 (⟨e.val / 128, hq⟩ : Fin 2500) (⟨e.val % 128, Nat.mod_lt _ (by decide)⟩ : Fin 128)) ?_).trans ?_
  · rw [Shape.rowMajor_val_two, Shape.rowMajor_val_one]
    show e.val / 128 * 128 + e.val % 128 = e.val
    omega
  · rw [pack_apply, hrow, hrow]

end Cert.Proof.KI.Val

end
-- ==== Proof.KI.PackBits.lean ====
/-
  Packing two node numbers into one word and taking them apart again. For `r` and `c` below 10000 the word
  `r · 16384 + c` does not overflow 32 bits (it is below 10000 · 16384 + 10000 < 2³²), so as a natural number it is
  `16384 r + c` with `c < 16384`: its quotient by 2¹⁴ (the shift right by 14) is `r` and its remainder (the low 14
  bits) is `c`.
-/
import proofs.«207992_g50208167690906_cont_8to1c4_731_36_alg».proof.Proof.KI.EdgeVal

namespace Cert.Proof.KI.Val

open Idealize.ShloMosaic Idealize.ShloMosaic.ValueIdx Cert.Proof.KI.Edge

/-- The packed word as a natural number. -/
theorem pack_toNat (r c : BitVec 32) (hr : r.toNat < 10000) (hc : c.toNat < 10000) :
    (r * 16384#32 + c).toNat = 16384 * r.toNat + c.toNat := by
  rw [BitVec.toNat_add, BitVec.toNat_mul]
  have h16 : (16384#32 : BitVec 32).toNat = 16384 := rfl
  rw [h16]
  omega

/-- The shift right by 14 gives back the first number. -/
theorem pack_shr (r c : BitVec 32) (hr : r.toNat < 10000) (hc : c.toNat < 10000) :
    (r * 16384#32 + c) >>> (14 : ℕ) = r := by
  apply BitVec.eq_of_toNat_eq
  rw [BitVec.toNat_ushiftRight, Nat.shiftRight_eq_div_pow, pack_toNat r c hr hc]
  omega

/-- The low 14 bits give back the second number. -/
theorem pack_and (r c : BitVec 32) (hr : r.toNat < 10000) (hc : c.toNat < 10000) :
    (r * 16384#32 + c) &&& 16383#32 = c := by
  apply BitVec.eq_of_toNat_eq
  rw [BitVec.toNat_and, pack_toNat r c hr hc]
  have h16 : (16383#32 : BitVec 32).toNat = 2 ^ 14 - 1 := rfl
  rw [h16, Nat.and_two_pow_sub_one_eq_mod]
  omega

/-- Words packed from two arrays of node numbers are well packed, and unpack to those arrays. -/
theorem packedOK_of_pack (pk rowv colv : IVec SP 32) (hr : ∀ e, (rowv e).toNat < 10000) (hc : ∀ e, (colv e).toNat < 10000)
    (hpk : ∀ e, pk e = rowv e * 16384#32 + colv e) :
    PackedOK pk ∧ (∀ e, pk e >>> (14 : ℕ) = rowv e) ∧ (∀ e, pk e &&& 16383#32 = colv e) := by
  have h1 : ∀ e, pk e >>> (14 : ℕ) = rowv e := fun e => by rw [hpk e]; exact pack_shr _ _ (hr e) (hc e)
  have h2 : ∀ e, pk e &&& 16383#32 = colv e := fun e => by rw [hpk e]; exact pack_and _ _ (hr e) (hc e)
  refine ⟨fun e => ⟨?_, ?_⟩, h1, h2⟩
  · rw [h1 e]; exact hr e
  · rw [h2 e]; exact hc e

end Cert.Proof.KI.Val
-- ==== Proof.KI.Bridge.lean ====
/-
  The admitted inputs give the two indexed kernels their index ranges. Where the input-domain predicate is all ones
  every endpoint word of the edge array lies in [0, 10000). The row words the histogram reads are the edge array's
  first row, so each names an element of a 10240-word histogram; the packed words are row word times 2^14 plus column
  word, both below 10000, so each packed word carries two nodes. No float operation is involved: this holds at every
  float instance.
-/
import proofs.«207992_g50208167690906_cont_8to1c4_731_36_alg».proof.Proof.KI.Chain
import proofs.«207992_g50208167690906_cont_8to1c4_731_36_alg».proof.Proof.KI.ChainInt
import proofs.«207992_g50208167690906_cont_8to1c4_731_36_alg».proof.Proof.KI.PackBits
import proofs.«207992_g50208167690906_cont_8to1c4_731_36_alg».proof.Proof.RefLapRange

noncomputable section

namespace Cert.Proof.KI

open Cert.KernelIdeal Cert.KernelIdeal.Gen
open Idealize.ShloMosaic Idealize.SL.Sem
open Idealize.ShloMosaic.ValueIdx
open Cert.Proof.KI.Val

variable [Cert.Pre_input_domain.Facts] {F : FTy → Type} [FloatOps F]

/-- On an admitted input every row word and every column word along @main is a node. -/
theorem words_lt_of_pre (m : (ℓ : Loc nD τ sig) → Buf (Elt F) ℓ)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1))
    (d : Dev nD) :
    (∀ e : Histo.SR.Idx, (rowWords m d e).toNat < 10000) ∧ (∀ e : Histo.SR.Idx, (colWords m d e).toNat < 10000) := by
  have hrange : ∀ i, (edgeArr m d i).toNat < 10000 :=
    Cert.Proof.RefSide.range_of_pre (F := F) _ _ _ _ _ _ _ _ _ _ _ (hpre d)
  refine ⟨fun e => ?_, fun e => ?_⟩
  · obtain ⟨e0, rfl⟩ : ∃ e0 : Fin 320000, e = ix1 e0 := ⟨e 0, eq_ix1 e⟩
    rw [rowWords_apply]; exact hrange _
  · obtain ⟨e0, rfl⟩ : ∃ e0 : Fin 320000, e = ix1 e0 := ⟨e 0, eq_ix1 e⟩
    rw [colWords_apply]; exact hrange _

/-- On an admitted input the two indexed kernels' index ranges hold on every device. -/
theorem preOK_of_pre (m : (ℓ : Loc nD τ sig) → Buf (Elt F) ℓ)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    PreOK m := by
  have hr : ∀ d, Histo.RowOK (rowWords m d) := fun d e =>
    lt_trans ((words_lt_of_pre m hpre d).1 e) (by decide)
  refine ⟨hr, fun d => ?_⟩
  exact (packedOK_of_pack (packedWords m d (hr d)) (rowWords m d) (colWords m d)
    (words_lt_of_pre m hpre d).1 (words_lt_of_pre m hpre d).2
    (fun e => by
      obtain ⟨e0, rfl⟩ : ∃ e0 : Fin 320000, e = ix1 e0 := ⟨e 0, eq_ix1 e⟩
      exact packedWords_apply m d (hr d) e0)).1

end Cert.Proof.KI
-- ==== Proof.KI.Claim.lean ====
/-
  The run of the program on an admitted input: the input-domain predicate gives the two indexed kernels their index
  ranges, so the launch theorem applies; the post is every unscoped array at the chain's last valuation, and, read at
  the arguments, that they end as launched.
-/
import proofs.«207992_g50208167690906_cont_8to1c4_731_36_alg».proof.Proof.KI.Run
import proofs.«207992_g50208167690906_cont_8to1c4_731_36_alg».proof.Proof.KI.PayObl
import proofs.«207992_g50208167690906_cont_8to1c4_731_36_alg».proof.Proof.KI.Bridge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.Pre_input_domain.Facts] {F : FTy → Type} [FloatOps F]

/-- On an admitted input the program runs, and every unscoped array of every TensorCore ends at the last valuation. -/
theorem run_of_pre [∀ e, Nonempty (Elt F e)]
    (hR0 : ∀ P : (K (F := F)).Pay (nD := nD) (Val := Elt F) (Name := ℕ) (U := UU), RegionSpec P 0 R0 scaleOut)
    (hR1 : ∀ P : (K (F := F)).Pay (nD := nD) (Val := Elt F) (Name := ℕ) (U := UU), RegionSpec P 1 R1 packOut)
    (hR2 : ∀ P : (K (F := F)).Pay (nD := nD) (Val := Elt F) (Name := ℕ) (U := UU), RegionSpec P 2 R2 denseOut)
    (m : (ℓ : Loc nD τ sig) → Buf (Elt F) ℓ) (ρ : Dev nD → PrngReg)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    θ_run (Cert.KernelIdeal.defs (F := F)) (Cert.KernelIdeal.threads (F := F)) ⟨m, fun _ => 0, ρ⟩ (QC m (preOK_of_pre m hpre)) :=
  run_main m ρ (preOK_of_pre m hpre) (tileObl0 (handed m (preOK_of_pre m hpre))) (tileObl1 (handed m (preOK_of_pre m hpre)))
    (hR0 _) (hR1 _) (hR2 _)

omit [Cert.Pre_input_domain.Facts] in
/-- The post read at the eleven arguments: each ends as launched. -/
theorem args_of_QC (m : (ℓ : Loc nD τ sig) → Buf (Elt F) ℓ) (hok : PreOK m) {r : PUnit × MemSt nD τ sig (Elt F)} (h : QC m hok r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have ha := (QC_results m hok h c).2.2
  ⟨ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide)⟩

/-- On an admitted input the program runs and its arguments end unchanged. -/
theorem frame_of_pre [∀ e, Nonempty (Elt F e)]
    (hR0 : ∀ P : (K (F := F)).Pay (nD := nD) (Val := Elt F) (Name := ℕ) (U := UU), RegionSpec P 0 R0 scaleOut)
    (hR1 : ∀ P : (K (F := F)).Pay (nD := nD) (Val := Elt F) (Name := ℕ) (U := UU), RegionSpec P 1 R1 packOut)
    (hR2 : ∀ P : (K (F := F)).Pay (nD := nD) (Val := Elt F) (Name := ℕ) (U := UU), RegionSpec P 2 R2 denseOut)
    (m : (ℓ : Loc nD τ sig) → Buf (Elt F) ℓ) (ρ : Dev nD → PrngReg)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.KernelIdeal.defs _ _).mono (fun _ h c => args_of_QC m _ h c) (run_of_pre hR0 hR1 hR2 m ρ hpre)

end Cert.Proof.KI

end
-- ==== Proof.KI.ChainAt1.lean ====
/-
  The float arrays the first two stretches of @main make, read at an index: the hidden and the cell state are the
  two slabs of the stacked state argument; the degree column is, node by node, the sum over the 32 tiles of their
  histograms' word for that node.
-/
import proofs.«207992_g50208167690906_cont_8to1c4_731_36_alg».proof.Proof.KI.ChainInt
import Idealize.ShloMosaic.Lib.IdealHost

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps
open scoped BigOperators

/-! ## The two states (any float instance) -/

section Generic

variable {F : FTy → Type} [FloatOps F]
variable (m : (ℓ : Loc nD τ sig) → Buf (Elt F) ℓ) (d : Dev nD)

/-- The stacked state argument: slab 0 the hidden state, slab 1 the cell state. -/
abbrev stateArr : Vec F S2x10000x64 .f32 := m (d, dr main_arg2)

/-- The hidden state and the cell state after the first stretch. -/
abbrev hsArr : Vec F S10000x64 .f32 := W1 m d (dr main_v5)
abbrev csArr : Vec F S10000x64 .f32 := W1 m d (dr main_v7)

theorem hsArr_apply (n : Fin 10000) (j : Fin 64) : hsArr m d (ix2 n j) = stateArr m d (ix3 0 n j) := by
  have e : hsArr m d = shapeCast S10000x64
      (extractStridedSlice S1x10000x64 ![0, 0, 0] (stateArr m d) slices_S2x10000x64_S1x10000x64_0_0_0)
      shapeCasts_S1x10000x64_S10000x64 := by
    dsimp only [hsArr, W1, ops0]; after_results; rfl
  rw [e]
  refine (shapeCast_1ab_ab_apply _ _ n j).trans ?_
  exact extractStridedSlice_apply _ _ _ _ (ix3 0 n j) fun ax => by
    match ax with
    | ⟨0, _⟩ => rfl
    | ⟨1, _⟩ => exact (Nat.zero_add _).symm
    | ⟨2, _⟩ => exact (Nat.zero_add _).symm

theorem csArr_apply (n : Fin 10000) (j : Fin 64) : csArr m d (ix2 n j) = stateArr m d (ix3 1 n j) := by
  have e : csArr m d = shapeCast S10000x64
      (extractStridedSlice S1x10000x64 ![1, 0, 0] (stateArr m d) slices_S2x10000x64_S1x10000x64_1_0_0)
      shapeCasts_S1x10000x64_S10000x64 := by
    dsimp only [csArr, W1, ops0]; after_results; rfl
  rw [e]
  refine (shapeCast_1ab_ab_apply _ _ n j).trans ?_
  exact extractStridedSlice_apply _ _ _ _ (ix3 1 n j) fun ax => by
    match ax with
    | ⟨0, _⟩ => rfl
    | ⟨1, _⟩ => exact (Nat.zero_add _).symm
    | ⟨2, _⟩ => exact (Nat.zero_add _).symm

/-! ### What the second stretch leaves alone -/

variable (hr : Histo.RowOK (rowWords m d))

theorem W3_arg0 : W3 m d hr (dr main_arg0) = m (d, dr main_arg0) := by
  dsimp only [W3, ops1]; after_results
  exact Function.update_of_ne (by decide) _ _

theorem W3_v5 : W3 m d hr (dr main_v5) = hsArr m d := by
  dsimp only [W3, ops1]; after_results
  exact Function.update_of_ne (by decide) _ _

/-- The degree column, as the second stretch makes it from the histogram call's result. -/
abbrev degArr : Vec F S10000x1 .f32 := W3 m d hr (dr main_v12)

theorem degArr_eq :
    degArr m d hr = broadcastInDim S10000x1 ![0] bcast_S10000_S10000x1_0
      (extractStridedSlice S10000 ![0]
        (Host.reduceAdd (shapeCast S32x10240 (Histo.histArr (F := F) (rowWords m d) hr) shapeCasts_S32x1x10240_S32x10240)
          (constant S_ .f32 0x00000000#32) reducesTo_S32x10240_S10240_d0 h_S_)
        slices_S10240_S10000_0) := by
  have e8 : W2 m d hr (dr main_v8) = Histo.histArr (F := F) (rowWords m d) hr := by
    unfold W2; exact Function.update_self _ _ _
  dsimp only [degArr, W3, ops1]; after_results; rw [e8]; rfl

end Generic

/-! ## The degree column (extended reals) -/

section AtIdeal

variable (m : (ℓ : Loc nD τ sig) → Buf (Elt Ideal) ℓ) (d : Dev nD) (hr : Histo.RowOK (rowWords m d))

/-- Node `n`'s degree entry: the 32 tiles' histogram words for `n`, summed. -/
theorem degArr_apply (n : Fin 10000) (u : Fin 1) :
    degArr m d hr (ix2 n u)
      = ∑ t : Fin 32, Histo.histArr (F := Ideal) (rowWords m d) hr
          (ix3 t 0 (⟨n.val, lt_of_lt_of_le n.isLt (by decide)⟩ : Fin 10240)) := by
  have hR : S32x10240.Reduces [0] S10240 := by decide
  rw [degArr_eq]
  refine (broadcastInDim_apply _ _ _ (ix2 n u) (ix1 n) fun ax => ?_).trans ?_
  · match ax with
    | ⟨0, _⟩ => rfl
  refine (extractStridedSlice_apply _ _ _ (ix1 n) (ix1 (⟨n.val, lt_of_lt_of_le n.isLt (by decide)⟩ : Fin 10240)) fun ax => ?_).trans ?_
  · match ax with
    | ⟨0, _⟩ => exact (Nat.zero_add _).symm
  rw [hostReduceAdd_apply, Ideal.hostReduceAdd_single _ hR]
  have h0 : (constant (F := Ideal) S_ .f32 0x00000000#32) (Shape.Idx.first h_S_) = 0 := Ideal.ofBits_zero_f32
  rw [h0, zero_add]
  refine Finset.sum_congr rfl fun t _ => ?_
  refine shapeCast_apply _ _ _ (ix3 t 0 (⟨n.val, lt_of_lt_of_le n.isLt (by decide)⟩ : Fin 10240)) ?_
  rw [Shape.rowMajor_val_three, Shape.rowMajor_val_two]
  show (t.val * 1 + 0) * 10240 + n.val = t.val * 10240 + n.val
  omega

end AtIdeal

end Cert.Proof.KI.Val

end
-- ==== Proof.KI.ChainAt2.lean ====
/-
  The feature rows the edge call reads, at an index: row r below 128 is column r of the scaled node features, row
  128 + r column r of the scaled hidden state, both as the scaling region leaves them (the two results are laid
  side by side, transposed, and given a unit axis).
-/
import proofs.«207992_g50208167690906_cont_8to1c4_731_36_alg».proof.Proof.KI.ChainAt1

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps
open scoped BigOperators

variable {F : FTy → Type} [FloatOps F]
variable (m : (ℓ : Loc nD τ sig) → Buf (Elt F) ℓ) (d : Dev nD) (hr : Histo.RowOK (rowWords m d))

/-- The node features as launched. -/
abbrev xArr : Vec F S10000x128 .f32 := m (d, dr main_arg0)

/-- The scaling region's two results. -/
abbrev sx : Vec F S10000x128 .f32 := Region.scale0 (xArr m d) (degArr m d hr)
abbrev sh : Vec F S10000x64 .f32 := Region.scale1 (hsArr m d) (degArr m d hr)

theorem W4_v13_0 : W4 m d hr (dr main_v13_0) = sx m d hr := by
  unfold W4
  rw [Function.update_of_ne (by decide), Function.update_self, W3_arg0]

theorem W4_v13_1 : W4 m d hr (dr main_v13_1) = sh m d hr := by
  unfold W4
  rw [Function.update_self, W3_v5]

theorem featRows_eq :
    featRows m d hr = shapeCast S192x1x10000
      (transpose S192x10000 [1, 0]
        (concatenate S10000x192 1 [⟨S10000x128, sx m d hr⟩, ⟨S10000x64, sh m d hr⟩] concatenates_S10000x128_S10000x64_S10000x192_d1)
        transposes_S10000x192_S192x10000_1_0)
      shapeCasts_S192x10000_S192x1x10000 := by
  have e7 : featRows m d hr = W5 m d hr (dr main_v16) := by
    dsimp only [featRows, W7, ops3]; after_results
    exact Function.update_of_ne (by decide) _ _
  rw [e7]
  dsimp only [W5, ops2]; after_results; rw [W4_v13_0, W4_v13_1]; rfl

/-- A feature row at a node, through the unit axis and the transposition: the side-by-side array at (node, row). -/
theorem featRows_apply (r : Fin 192) (u : Fin 1) (j : Fin 10000) :
    featRows m d hr (ix3 r u j)
      = concatenate S10000x192 1 [⟨S10000x128, sx m d hr⟩, ⟨S10000x64, sh m d hr⟩]
          concatenates_S10000x128_S10000x64_S10000x192_d1 (ix2 j r) := by
  rw [featRows_eq]
  refine (shapeCast_apply _ _ (ix3 r u j) (ix2 r j) ?_).trans ?_
  · have hu : u.val = 0 := by omega
    rw [Shape.rowMajor_val_three, Shape.rowMajor_val_two]
    show r.val * 10000 + j.val = (r.val * 1 + u.val) * 10000 + j.val
    rw [hu]; omega
  exact transpose_ix2_apply _ _ r j

/-- Row `r` below 128 holds column `r` of the scaled node features. -/
theorem featRows_left (r : Fin 128) (u : Fin 1) (j : Fin 10000) :
    featRows m d hr (ix3 (⟨r.val, by omega⟩ : Fin 192) u j) = sx m d hr (ix2 j r) := by
  rw [featRows_apply]
  refine concatenate_pair_apply_left (t := S10000x192) (s₁ := S10000x128) (s₂ := S10000x64) (1 : Fin 2) (sx m d hr) (sh m d hr) _ _ rfl (ix2 j r) fun b => ?_
  match b with
  | ⟨0, _⟩ => rfl
  | ⟨1, _⟩ => rfl

/-- Row `128 + r` holds column `r` of the scaled hidden state. -/
theorem featRows_right (r : Fin 64) (u : Fin 1) (j : Fin 10000) :
    featRows m d hr (ix3 (⟨128 + r.val, by omega⟩ : Fin 192) u j) = sh m d hr (ix2 j r) := by
  rw [featRows_apply]
  refine concatenate_pair_apply_right (t := S10000x192) (s₁ := S10000x128) (s₂ := S10000x64) (1 : Fin 2) (sx m d hr) (sh m d hr) _ _ rfl rfl (ix2 j r) (fun b hb => ?_) ?_
  · match b with
    | ⟨0, _⟩ => rfl
    | ⟨1, _⟩ => exact absurd rfl hb
  · show r.val + 128 = 128 + r.val
    omega

end Cert.Proof.KI.Val

end
-- ==== Proof.KI.ChainAt3.lean ====
/-
  What the dense region reads, at an index. The two aggregates are the edge call's result rows, transposed back
  and cut at column 128; the four weight matrices lay a gate's [in, out] slab at Chebyshev order k side by side
  with the other gates' (column 64 g + j is gate g's output j); the bias row is the three bias tables added;
  the arguments and the two states reach the region unchanged.
-/
import proofs.«207992_g50208167690906_cont_8to1c4_731_36_alg».proof.Proof.KI.ChainAt2

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps
open scoped BigOperators

/-- What a chain of stretches and calls leaves alone: peel the stretches' operations and the calls' rewrites off a
    buffer none of them writes. -/
local macro "chain_pass" : tactic =>
  `(tactic| (simp only [after_cons, after_nil]
             repeat (first
               | rw [Function.update_of_ne (by decide)]
               | (rw [nullary_result_ne]; rotate_left; decide)
               | (rw [unary_result_ne]; rotate_left; decide)
               | (rw [binary_result_ne]; rotate_left; decide)
               | (rw [reshape_result_ne]; rotate_left; decide))))

/-! ## A gate slab's layout (any element type) -/

/-- A `[4, 2, K, 64]` weight tensor cut at Chebyshev order `o`, its unit axis dropped, the gate axis moved inside
    the input axis and merged with the output axis: entry `(i, 64 g + j)` is the tensor's `(g, o, i, j)`. -/
theorem gateSlab_apply {α : Type} {K : ℕ} (o : ℕ) (w : (⟨4, ![4, 2, K, 64]⟩ : Shape).Idx → α)
    (hs : (⟨4, ![4, 2, K, 64]⟩ : Shape).Slices ![0, o, 0, 0] ⟨4, ![4, 1, K, 64]⟩)
    (hc1 : (⟨4, ![4, 1, K, 64]⟩ : Shape).ShapeCasts ⟨3, ![4, K, 64]⟩)
    (ht : (⟨3, ![4, K, 64]⟩ : Shape).Transposes [1, 0, 2] ⟨3, ![K, 4, 64]⟩)
    (hc2 : (⟨3, ![K, 4, 64]⟩ : Shape).ShapeCasts ⟨2, ![K, 256]⟩)
    (i : Fin K) (g : Fin 4) (j : Fin 64) (k : Fin 2) (hk : k.val = o) (c : Fin 256) (hc : c.val = 64 * g.val + j.val) :
    shapeCast ⟨2, ![K, 256]⟩
        (transpose ⟨3, ![K, 4, 64]⟩ [1, 0, 2]
          (shapeCast ⟨3, ![4, K, 64]⟩ (extractStridedSlice ⟨4, ![4, 1, K, 64]⟩ ![0, o, 0, 0] w hs) hc1) ht) hc2 (ix2 i c)
      = w (ix4 g k i j) := by
  refine (shapeCast_apply _ hc2 (ix2 i c) (ix3 i g j) ?_).trans ?_
  · rw [Shape.rowMajor_val_three, Shape.rowMajor_val_two]
    show (i.val * 4 + g.val) * 64 + j.val = i.val * 256 + c.val
    omega
  refine (transpose_apply _ _ ht (ix3 i g j) (ix3 g i j) fun b => ?_).trans ?_
  · match b with
    | ⟨0, _⟩ => rfl
    | ⟨1, _⟩ => rfl
    | ⟨2, _⟩ => rfl
  refine (shapeCast_apply _ hc1 (ix3 g i j) (ix4 g (0 : Fin 1) i j) ?_).trans ?_
  · rw [Shape.rowMajor_val_four, Shape.rowMajor_val_three]
    show ((g.val * 1 + 0) * K + i.val) * 64 + j.val = (g.val * K + i.val) * 64 + j.val
    rw [Nat.mul_one, Nat.add_zero]
  exact slice4_axis1_apply o w hs g (0 : Fin 1) i j k (by show k.val = o + 0; omega)

section Generic

variable {F : FTy → Type} [FloatOps F]
variable (m : (ℓ : Loc nD τ sig) → Buf (Elt F) ℓ) (d : Dev nD) (hr : Histo.RowOK (rowWords m d))
  (hpk : Edge.PackedOK (packedWords m d hr))

/-! ## What reaches the dense region unchanged -/

theorem W9_arg0 : W9 m d hr hpk (dr main_arg0) = xArr m d := by
  show W9 m d hr hpk (dr main_arg0) = W0 m d (dr main_arg0)
  dsimp only [W9, W8, W7, W6, W5, W4, W3, W2, W1, ops0, ops1, ops2, ops3, ops4]; chain_pass

theorem W9_v5 : W9 m d hr hpk (dr main_v5) = hsArr m d := by
  show W9 m d hr hpk (dr main_v5) = W1 m d (dr main_v5)
  dsimp only [W9, W8, W7, W6, W5, W4, W3, W2, ops1, ops2, ops3, ops4]; chain_pass

theorem W9_v7 : W9 m d hr hpk (dr main_v7) = csArr m d := by
  show W9 m d hr hpk (dr main_v7) = W1 m d (dr main_v7)
  dsimp only [W9, W8, W7, W6, W5, W4, W3, W2, ops1, ops2, ops3, ops4]; chain_pass

theorem W9_v12 : W9 m d hr hpk (dr main_v12) = degArr m d hr := by
  show W9 m d hr hpk (dr main_v12) = W3 m d hr (dr main_v12)
  dsimp only [W9, W8, W7, W6, W5, W4, ops2, ops3, ops4]; chain_pass

/-- The weight, bias, peephole and read-out arguments as launched. -/
abbrev wxArr : Vec F S4x2x128x64 .f32 := m (d, dr main_arg3)
abbrev whArr : Vec F S4x2x64x64 .f32 := m (d, dr main_arg4)
abbrev bxArr : Vec F S4x64 .f32 := m (d, dr main_arg5)
abbrev bhArr : Vec F S4x64 .f32 := m (d, dr main_arg6)
abbrev wpArr : Vec F S3x64 .f32 := m (d, dr main_arg7)
abbrev bgArr : Vec F S4x64 .f32 := m (d, dr main_arg8)
abbrev woArr : Vec F S64x10 .f32 := m (d, dr main_arg9)
abbrev boArr : Vec F S10 .f32 := m (d, dr main_arg10)

theorem W9_arg7 : W9 m d hr hpk (dr main_arg7) = wpArr m d := by
  show W9 m d hr hpk (dr main_arg7) = W0 m d (dr main_arg7)
  dsimp only [W9, W8, W7, W6, W5, W4, W3, W2, W1, ops0, ops1, ops2, ops3, ops4]; chain_pass

theorem W9_arg9 : W9 m d hr hpk (dr main_arg9) = woArr m d := by
  show W9 m d hr hpk (dr main_arg9) = W0 m d (dr main_arg9)
  dsimp only [W9, W8, W7, W6, W5, W4, W3, W2, W1, ops0, ops1, ops2, ops3, ops4]; chain_pass

theorem W8_arg3 : W8 m d hr hpk (dr main_arg3) = wxArr m d := by
  show W8 m d hr hpk (dr main_arg3) = W0 m d (dr main_arg3)
  dsimp only [W8, W7, W6, W5, W4, W3, W2, W1, ops0, ops1, ops2, ops3]; chain_pass

theorem W8_arg4 : W8 m d hr hpk (dr main_arg4) = whArr m d := by
  show W8 m d hr hpk (dr main_arg4) = W0 m d (dr main_arg4)
  dsimp only [W8, W7, W6, W5, W4, W3, W2, W1, ops0, ops1, ops2, ops3]; chain_pass

theorem W8_arg5 : W8 m d hr hpk (dr main_arg5) = bxArr m d := by
  show W8 m d hr hpk (dr main_arg5) = W0 m d (dr main_arg5)
  dsimp only [W8, W7, W6, W5, W4, W3, W2, W1, ops0, ops1, ops2, ops3]; chain_pass

theorem W8_arg6 : W8 m d hr hpk (dr main_arg6) = bhArr m d := by
  show W8 m d hr hpk (dr main_arg6) = W0 m d (dr main_arg6)
  dsimp only [W8, W7, W6, W5, W4, W3, W2, W1, ops0, ops1, ops2, ops3]; chain_pass

theorem W8_arg8 : W8 m d hr hpk (dr main_arg8) = bgArr m d := by
  show W8 m d hr hpk (dr main_arg8) = W0 m d (dr main_arg8)
  dsimp only [W8, W7, W6, W5, W4, W3, W2, W1, ops0, ops1, ops2, ops3]; chain_pass

theorem W8_arg10 : W8 m d hr hpk (dr main_arg10) = boArr m d := by
  show W8 m d hr hpk (dr main_arg10) = W0 m d (dr main_arg10)
  dsimp only [W8, W7, W6, W5, W4, W3, W2, W1, ops0, ops1, ops2, ops3]; chain_pass

/-! ## The two aggregates -/

/-- The edge call's result. -/
abbrev aggOut : Vec F S192x1x10000 .f32 := aggArr (packedWords m d hr) hpk (featRows m d hr)

theorem W8_v21 : W8 m d hr hpk (dr main_v21) = aggOut m d hr hpk := by
  unfold W8; exact Function.update_self _ _ _

abbrev agg0Arr : Vec F S10000x128 .f32 := W9 m d hr hpk (dr main_v24)
abbrev agg1Arr : Vec F S10000x64 .f32 := W9 m d hr hpk (dr main_v25)

/-- The edge call's result transposed back to `[node, row]`. -/
abbrev aggT : Vec F S10000x192 .f32 :=
  transpose S10000x192 [1, 0] (shapeCast S192x10000 (aggOut m d hr hpk) shapeCasts_S192x1x10000_S192x10000)
    transposes_S192x10000_S10000x192_1_0

theorem aggT_apply (n : Fin 10000) (r : Fin 192) :
    aggT m d hr hpk (ix2 n r) = Edge.aggRow (packedWords m d hr) hpk (rowOf (featRows m d hr) r) (ix1 n) := by
  refine (transpose_ix2_apply _ _ n r).trans ?_
  refine (shapeCast_apply _ _ (ix2 r n) (ix3 r (0 : Fin 1) n) ?_).trans ?_
  · rw [Shape.rowMajor_val_three, Shape.rowMajor_val_two]
    show (r.val * 1 + 0) * 10000 + n.val = r.val * 10000 + n.val
    omega
  exact aggArr_apply _ _ _ r 0 n

theorem agg0Arr_apply (n : Fin 10000) (i : Fin 128) :
    agg0Arr m d hr hpk (ix2 n i)
      = Edge.aggRow (packedWords m d hr) hpk (rowOf (featRows m d hr) (⟨i.val, by omega⟩ : Fin 192)) (ix1 n) := by
  have e : agg0Arr m d hr hpk = extractStridedSlice S10000x128 ![0, 0] (aggT m d hr hpk) slices_S10000x192_S10000x128_0_0 := by
    dsimp only [agg0Arr, W9, ops4]; after_results; rw [W8_v21]; rfl
  rw [e]
  refine (slice2_axis1_apply 0 _ _ n i (⟨i.val, by omega⟩ : Fin 192) (by show i.val = 0 + i.val; omega)).trans ?_
  exact aggT_apply m d hr hpk n _

theorem agg1Arr_apply (n : Fin 10000) (j : Fin 64) :
    agg1Arr m d hr hpk (ix2 n j)
      = Edge.aggRow (packedWords m d hr) hpk (rowOf (featRows m d hr) (⟨128 + j.val, by omega⟩ : Fin 192)) (ix1 n) := by
  have e : agg1Arr m d hr hpk = extractStridedSlice S10000x64 ![0, 128] (aggT m d hr hpk) slices_S10000x192_S10000x64_0_128 := by
    dsimp only [agg1Arr, W9, ops4]; after_results; rw [W8_v21]; rfl
  rw [e]
  refine (slice2_axis1_apply 128 _ _ n j (⟨128 + j.val, by omega⟩ : Fin 192) rfl).trans ?_
  exact aggT_apply m d hr hpk n _

/-- The feature rows the two aggregates gather from, at a node. -/
theorem featRow_left_apply (i : Fin 128) (j : Fin 10000) :
    rowOf (featRows m d hr) (⟨i.val, by omega⟩ : Fin 192) (ix1 j) = sx m d hr (ix2 j i) :=
  featRows_left m d hr i 0 j

theorem featRow_right_apply (i : Fin 64) (j : Fin 10000) :
    rowOf (featRows m d hr) (⟨128 + i.val, by omega⟩ : Fin 192) (ix1 j) = sh m d hr (ix2 j i) :=
  featRows_right m d hr i 0 j

/-! ## The four weight matrices -/

abbrev wx0Arr : Vec F S128x256 .f32 := W9 m d hr hpk (dr main_v29)
abbrev wx1Arr : Vec F S128x256 .f32 := W9 m d hr hpk (dr main_v33)
abbrev wh0Arr : Vec F S64x256 .f32 := W9 m d hr hpk (dr main_v37)
abbrev wh1Arr : Vec F S64x256 .f32 := W9 m d hr hpk (dr main_v41)

theorem wx0Arr_apply (i : Fin 128) (g : Fin 4) (j : Fin 64) (c : Fin 256) (hc : c.val = 64 * g.val + j.val) :
    wx0Arr m d hr hpk (ix2 i c) = wxArr m d (ix4 g 0 i j) := by
  have e : wx0Arr m d hr hpk = shapeCast S128x256 (transpose S128x4x64 [1, 0, 2]
      (shapeCast S4x128x64 (extractStridedSlice S4x1x128x64 ![0, 0, 0, 0] (wxArr m d) slices_S4x2x128x64_S4x1x128x64_0_0_0_0)
        shapeCasts_S4x1x128x64_S4x128x64) transposes_S4x128x64_S128x4x64_1_0_2) shapeCasts_S128x4x64_S128x256 := by
    dsimp only [wx0Arr, W9, ops4]; after_results; rw [W8_arg3]; rfl
  rw [e]
  exact gateSlab_apply 0 (wxArr m d) _ _ _ _ i g j 0 rfl c hc

theorem wx1Arr_apply (i : Fin 128) (g : Fin 4) (j : Fin 64) (c : Fin 256) (hc : c.val = 64 * g.val + j.val) :
    wx1Arr m d hr hpk (ix2 i c) = wxArr m d (ix4 g 1 i j) := by
  have e : wx1Arr m d hr hpk = shapeCast S128x256 (transpose S128x4x64 [1, 0, 2]
      (shapeCast S4x128x64 (extractStridedSlice S4x1x128x64 ![0, 1, 0, 0] (wxArr m d) slices_S4x2x128x64_S4x1x128x64_0_1_0_0)
        shapeCasts_S4x1x128x64_S4x128x64) transposes_S4x128x64_S128x4x64_1_0_2) shapeCasts_S128x4x64_S128x256 := by
    dsimp only [wx1Arr, W9, ops4]; after_results; rw [W8_arg3]; rfl
  rw [e]
  exact gateSlab_apply 1 (wxArr m d) _ _ _ _ i g j 1 rfl c hc

theorem wh0Arr_apply (i : Fin 64) (g : Fin 4) (j : Fin 64) (c : Fin 256) (hc : c.val = 64 * g.val + j.val) :
    wh0Arr m d hr hpk (ix2 i c) = whArr m d (ix4 g 0 i j) := by
  have e : wh0Arr m d hr hpk = shapeCast S64x256 (transpose S64x4x64 [1, 0, 2]
      (shapeCast S4x64x64 (extractStridedSlice S4x1x64x64 ![0, 0, 0, 0] (whArr m d) slices_S4x2x64x64_S4x1x64x64_0_0_0_0)
        shapeCasts_S4x1x64x64_S4x64x64) transposes_S4x64x64_S64x4x64_1_0_2) shapeCasts_S64x4x64_S64x256 := by
    dsimp only [wh0Arr, W9, ops4]; after_results; rw [W8_arg4]; rfl
  rw [e]
  exact gateSlab_apply 0 (whArr m d) _ _ _ _ i g j 0 rfl c hc

theorem wh1Arr_apply (i : Fin 64) (g : Fin 4) (j : Fin 64) (c : Fin 256) (hc : c.val = 64 * g.val + j.val) :
    wh1Arr m d hr hpk (ix2 i c) = whArr m d (ix4 g 1 i j) := by
  have e : wh1Arr m d hr hpk = shapeCast S64x256 (transpose S64x4x64 [1, 0, 2]
      (shapeCast S4x64x64 (extractStridedSlice S4x1x64x64 ![0, 1, 0, 0] (whArr m d) slices_S4x2x64x64_S4x1x64x64_0_1_0_0)
        shapeCasts_S4x1x64x64_S4x64x64) transposes_S4x64x64_S64x4x64_1_0_2) shapeCasts_S64x4x64_S64x256 := by
    dsimp only [wh1Arr, W9, ops4]; after_results; rw [W8_arg4]; rfl
  rw [e]
  exact gateSlab_apply 1 (whArr m d) _ _ _ _ i g j 1 rfl c hc

/-! ## The read-out bias row -/

abbrev boutArr : Vec F S1x10 .f32 := W9 m d hr hpk (dr main_v45)

theorem boutArr_apply (u : Fin 1) (k : Fin 10) : boutArr m d hr hpk (ix2 u k) = boArr m d (ix1 k) := by
  have e : boutArr m d hr hpk = shapeCast S1x10 (boArr m d) shapeCasts_S10_S1x10 := by
    dsimp only [boutArr, W9, ops4]; after_results; rw [W8_arg10]; rfl
  rw [e]
  exact shapeCast_a_1a_apply _ _ u k

/-- The gate bias row. -/
abbrev btotArr : Vec F S1x256 .f32 := W9 m d hr hpk (dr main_v44)

theorem btotArr_eq :
    btotArr m d hr hpk = shapeCast S1x256 (addf (addf (bxArr m d) (bhArr m d)) (bgArr m d)) shapeCasts_S4x64_S1x256 := by
  dsimp only [btotArr, W9, ops4]; after_results_simp; rw [W8_arg5, W8_arg6, W8_arg8]; rfl

end Generic

/-! ## The gate bias row (extended reals) -/

section AtIdeal

variable (m : (ℓ : Loc nD τ sig) → Buf (Elt Ideal) ℓ) (d : Dev nD) (hr : Histo.RowOK (rowWords m d))
  (hpk : Edge.PackedOK (packedWords m d hr))

theorem btotArr_apply (u : Fin 1) (g : Fin 4) (j : Fin 64) (c : Fin 256) (hc : c.val = 64 * g.val + j.val) :
    btotArr m d hr hpk (ix2 u c) = (bxArr m d (ix2 g j) + bhArr m d (ix2 g j)) + bgArr m d (ix2 g j) := by
  rw [btotArr_eq]
  refine (shapeCast_apply _ _ (ix2 u c) (ix2 g j) ?_).trans ?_
  · have hu : u.val = 0 := by omega
    rw [Shape.rowMajor_val_two, Shape.rowMajor_val_two]
    show g.val * 64 + j.val = u.val * 256 + c.val
    omega
  rw [addf_apply, addf_apply]

end AtIdeal

end Cert.Proof.KI.Val

end
-- ==== Proof.KI.ChainAt4.lean ====
/-
  @main's return values: the first is the dense region's read-out as it left it; the second stacks the region's
  new hidden state on its new cell state along a new leading axis. And the dense region's three results as the
  region's value functions of the arrays named so far.
-/
import proofs.«207992_g50208167690906_cont_8to1c4_731_36_alg».proof.Proof.KI.ChainAt3

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps
open scoped BigOperators

/-! ## Two `[10000, 64]` arrays stacked along a new leading axis (any element type) -/

theorem stack_apply0 {α : Type} (a b : (⟨2, ![10000, 64]⟩ : Shape).Idx → α)
    (hb : (⟨2, ![10000, 64]⟩ : Shape).BroadcastsInDim ⟨3, ![1, 10000, 64]⟩ ![1, 2])
    (hc : Shape.Concatenates [(⟨3, ![1, 10000, 64]⟩ : Shape), ⟨3, ![1, 10000, 64]⟩] ⟨3, ![2, 10000, 64]⟩ 0)
    (n : Fin 10000) (j : Fin 64) :
    concatenate ⟨3, ![2, 10000, 64]⟩ 0
        [⟨⟨3, ![1, 10000, 64]⟩, broadcastInDim ⟨3, ![1, 10000, 64]⟩ ![1, 2] hb a⟩,
         ⟨⟨3, ![1, 10000, 64]⟩, broadcastInDim ⟨3, ![1, 10000, 64]⟩ ![1, 2] hb b⟩] hc (ix3 0 n j) = a (ix2 n j) := by
  refine (concatenate_pair_apply_left (t := ⟨3, ![2, 10000, 64]⟩) (s₁ := ⟨3, ![1, 10000, 64]⟩) (s₂ := ⟨3, ![1, 10000, 64]⟩)
    (0 : Fin 3) _ _ hc (ix3 0 n j) rfl (ix3 (0 : Fin 1) n j) fun c => ?_).trans ?_
  · match c with
    | ⟨0, _⟩ => rfl
    | ⟨1, _⟩ => rfl
    | ⟨2, _⟩ => rfl
  refine broadcastInDim_apply _ hb a (ix3 (0 : Fin 1) n j) (ix2 n j) fun ax => ?_
  match ax with
  | ⟨0, _⟩ => rfl
  | ⟨1, _⟩ => rfl

theorem stack_apply1 {α : Type} (a b : (⟨2, ![10000, 64]⟩ : Shape).Idx → α)
    (hb : (⟨2, ![10000, 64]⟩ : Shape).BroadcastsInDim ⟨3, ![1, 10000, 64]⟩ ![1, 2])
    (hc : Shape.Concatenates [(⟨3, ![1, 10000, 64]⟩ : Shape), ⟨3, ![1, 10000, 64]⟩] ⟨3, ![2, 10000, 64]⟩ 0)
    (n : Fin 10000) (j : Fin 64) :
    concatenate ⟨3, ![2, 10000, 64]⟩ 0
        [⟨⟨3, ![1, 10000, 64]⟩, broadcastInDim ⟨3, ![1, 10000, 64]⟩ ![1, 2] hb a⟩,
         ⟨⟨3, ![1, 10000, 64]⟩, broadcastInDim ⟨3, ![1, 10000, 64]⟩ ![1, 2] hb b⟩] hc (ix3 1 n j) = b (ix2 n j) := by
  refine (concatenate_pair_apply_right (t := ⟨3, ![2, 10000, 64]⟩) (s₁ := ⟨3, ![1, 10000, 64]⟩) (s₂ := ⟨3, ![1, 10000, 64]⟩)
    (0 : Fin 3) _ _ hc (ix3 1 n j) rfl rfl (ix3 (0 : Fin 1) n j) (fun c hne => ?_) rfl).trans ?_
  · match c with
    | ⟨0, _⟩ => exact absurd rfl hne
    | ⟨1, _⟩ => rfl
    | ⟨2, _⟩ => rfl
  refine broadcastInDim_apply _ hb b (ix3 (0 : Fin 1) n j) (ix2 n j) fun ax => ?_
  match ax with
  | ⟨0, _⟩ => rfl
  | ⟨1, _⟩ => rfl

variable {F : FTy → Type} [FloatOps F]
variable (m : (ℓ : Loc nD τ sig) → Buf (Elt F) ℓ) (d : Dev nD) (hr : Histo.RowOK (rowWords m d))
  (hpk : Edge.PackedOK (packedWords m d hr))

/-! ## The dense region's results over the named arrays -/

/-- The dense region's three results. -/
abbrev out0Arr : Vec F S10000x10 .f32 :=
  Region.dense0 (xArr m d) (hsArr m d) (csArr m d) (agg0Arr m d hr hpk) (agg1Arr m d hr hpk) (degArr m d hr)
    (wx0Arr m d hr hpk) (wx1Arr m d hr hpk) (wh0Arr m d hr hpk) (wh1Arr m d hr hpk) (btotArr m d hr hpk) (wpArr m d)
    (woArr m d) (boutArr m d hr hpk)
abbrev out1Arr : Vec F S10000x64 .f32 :=
  Region.dense1 (xArr m d) (hsArr m d) (csArr m d) (agg0Arr m d hr hpk) (agg1Arr m d hr hpk) (degArr m d hr)
    (wx0Arr m d hr hpk) (wx1Arr m d hr hpk) (wh0Arr m d hr hpk) (wh1Arr m d hr hpk) (btotArr m d hr hpk) (wpArr m d)
abbrev out2Arr : Vec F S10000x64 .f32 :=
  Region.dense2 (xArr m d) (hsArr m d) (csArr m d) (agg0Arr m d hr hpk) (agg1Arr m d hr hpk) (degArr m d hr)
    (wx0Arr m d hr hpk) (wx1Arr m d hr hpk) (wh0Arr m d hr hpk) (wh1Arr m d hr hpk) (btotArr m d hr hpk) (wpArr m d)

theorem denseOut0_W9 : denseOut0 (W9 m d hr hpk) = out0Arr m d hr hpk := by
  unfold denseOut0
  rw [W9_arg0, W9_v5, W9_v7, W9_v12, W9_arg7, W9_arg9]

theorem denseOut1_W9 : denseOut1 (W9 m d hr hpk) = out1Arr m d hr hpk := by
  unfold denseOut1
  rw [W9_arg0, W9_v5, W9_v7, W9_v12, W9_arg7]

theorem denseOut2_W9 : denseOut2 (W9 m d hr hpk) = out2Arr m d hr hpk := by
  unfold denseOut2
  rw [W9_arg0, W9_v5, W9_v7, W9_v12, W9_arg7]

/-! ## @main's two results -/

/-- The first result: the dense region's read-out. -/
theorem W11_v46_0 : W11 m d hr hpk (dr main_v46_0) = out0Arr m d hr hpk := by
  have e : W10 m d hr hpk (dr main_v46_0) = denseOut0 (W9 m d hr hpk) := by
    unfold W10
    rw [Function.update_of_ne (by decide), Function.update_of_ne (by decide), Function.update_self]
  dsimp only [W11, ops5]; after_results
  rw [e, denseOut0_W9]

/-- The second result: the region's new hidden state stacked on its new cell state. -/
theorem W11_v49_apply (s : Fin 2) (n : Fin 10000) (j : Fin 64) :
    W11 m d hr hpk (dr main_v49) (ix3 s n j) = if s = 0 then out1Arr m d hr hpk (ix2 n j) else out2Arr m d hr hpk (ix2 n j) := by
  have e1 : W10 m d hr hpk (dr main_v46_1) = denseOut1 (W9 m d hr hpk) := by
    unfold W10
    rw [Function.update_of_ne (by decide), Function.update_self]
  have e2 : W10 m d hr hpk (dr main_v46_2) = denseOut2 (W9 m d hr hpk) := by
    unfold W10
    rw [Function.update_self]
  have e : W11 m d hr hpk (dr main_v49) = concatenate S2x10000x64 0
      [⟨S1x10000x64, broadcastInDim S1x10000x64 ![1, 2] bcast_S10000x64_S1x10000x64_1_2 (out1Arr m d hr hpk)⟩,
       ⟨S1x10000x64, broadcastInDim S1x10000x64 ![1, 2] bcast_S10000x64_S1x10000x64_1_2 (out2Arr m d hr hpk)⟩]
      concatenates_S1x10000x64_S1x10000x64_S2x10000x64_d0 := by
    dsimp only [W11, ops5]; after_results
    rw [e1, e2, denseOut1_W9, denseOut2_W9]
  rw [e]
  match s with
  | ⟨0, _⟩ => exact stack_apply0 _ _ _ _ n j
  | ⟨1, _⟩ => exact stack_apply1 _ _ _ _ n j

end Cert.Proof.KI.Val

end
-- ==== Proof.KI.StoreSum.lean ====
/-
  An indexed store that adds, read at one element of the array it leaves. The lanes are folded in ascending order and
  each adds its value onto the element its index names; over the extended reals, where addition is commutative and
  associative whatever the terms are, the element at `j` after the store is therefore the element before it plus the
  sum of the values of the lanes whose index is `j`. No finiteness of any term is needed.
-/
import Idealize.ShloMosaic.PureOps
import Idealize.ShloMosaic.Lib.ValueIdx

noncomputable section

namespace Cert.Proof.KI.Val

open Idealize.ShloMosaic Idealize.ShloMosaic.ValueIdx
open scoped BigOperators

/-- Two indices with the same coordinates are the same index. -/
theorem idx_eq_iff {s : Shape} (i j : s.Idx) : (∀ a, (j a).val = (i a).val) ↔ i = j :=
  ⟨fun h => funext fun a => Fin.ext (h a).symm, fun h a => by rw [h]⟩

/-- An adding indexed store with every mask bit set, at the index `j` of a base array of any shape: the old element
    plus the values of the lanes that name `j`. By induction over the list of lanes the store folds over. -/
theorem storeIdx_add_apply_idx {s : Shape} {d : Fin 1 → ℕ} (f : Vec Ideal s .f32) (idxs : Fin s.rank → IVec ⟨1, d⟩ 32)
    (v : Vec Ideal ⟨1, d⟩ .f32) (h : ∀ a x, (idxs a x).toNat < s.size a) (j : s.Idx) :
    storeIdx f idxs v (fun _ => 1#1) true h j
      = f j + ∑ k : Fin (d 0), if idxAt idxs h (Shape.ofLane k) = j then v (Shape.ofLane k) else 0 := by
  rw [Fin.sum_univ_def]
  unfold storeIdx
  generalize List.finRange (d 0) = l
  induction l generalizing f with
  | nil => simp
  | cons k l ih =>
    rw [List.foldl_cons, ih, List.map_cons, List.sum_cons, ← add_assoc]
    congr 1
    by_cases hj : idxAt idxs h (Shape.ofLane k) = j
    · subst hj
      simp
    · have hj' : ¬ ∀ a, (j a).val = (idxAt idxs h (Shape.ofLane k) a).val := fun hh => hj ((idx_eq_iff _ _).1 hh)
      simp [hj, hj']

/-- Lane `k` of a rank-one vector is the index with coordinate `k`. -/
theorem ofLane_eq_ix1 {L : ℕ} (k : Fin L) : (Shape.ofLane (d := ![L]) k) = ix1 k := by
  funext a; match a with | ⟨0, _⟩ => rfl

/-- The same for a rank-one base array of `N` words and `L` lanes, by coordinates: after the store, word `j` is the
    old word `j` plus the sum over the lanes `l` whose index word is `j` of the lane's value. -/
theorem storeIdx_add_apply {N L : ℕ} (acc : Vec Ideal ⟨1, ![N]⟩ .f32) (idx : IVec ⟨1, ![L]⟩ 32) (v : Vec Ideal ⟨1, ![L]⟩ .f32)
    (h : ∀ (a : Fin (⟨1, ![N]⟩ : Shape).rank) (x : (⟨1, ![L]⟩ : Shape).Idx),
      ((![idx] : Fin (⟨1, ![N]⟩ : Shape).rank → IVec ⟨1, ![L]⟩ 32) a x).toNat < (⟨1, ![N]⟩ : Shape).size a) (j : Fin N) :
    storeIdx acc ![idx] v (fun _ => 1#1) true h (ix1 j)
      = acc (ix1 j) + ∑ l : Fin L, if (idx (ix1 l)).toNat = j.val then v (ix1 l) else 0 := by
  rw [storeIdx_add_apply_idx]
  congr 1
  refine Finset.sum_congr rfl fun (l : Fin L) _ => ?_
  have hl : (Shape.ofLane (d := ![L]) l) = ix1 l := ofLane_eq_ix1 l
  rw [hl]
  have hiff : idxAt ![idx] h (ix1 l) = ix1 j ↔ (idx (ix1 l)).toNat = j.val := by
    constructor
    · intro e
      have := congrArg (fun i => (i 0).val) e
      exact this
    · intro e
      funext a
      match a with
      | ⟨0, _⟩ => exact Fin.ext e
  by_cases hc : (idx (ix1 l)).toNat = j.val
  · rw [if_pos hc, if_pos (hiff.2 hc)]
  · rw [if_neg hc, if_neg (fun e => hc (hiff.1 e))]

end Cert.Proof.KI.Val
-- ==== Proof.KI.HistoSum.lean ====
/-
  What the histogram kernel's accumulators hold, as counts. After `n` trips tile `w`'s accumulator word `j` is the
  number of the first `16 n` words of the tile's stretch of the row words that are equal to `j`; after all 625 trips it
  counts the tile's whole stretch of 10000 words; and the 32 tiles' accumulators added up count all 320000 row words,
  which, read as the edges' first endpoints, is the degree of node `j`. Over the extended reals the order in which the
  ones are added does not matter, so nothing is asked of the counts' size.
-/
import proofs.«207992_g50208167690906_cont_8to1c4_731_36_alg».proof.Proof.KI.HistoVal
import proofs.«207992_g50208167690906_cont_8to1c4_731_36_alg».proof.Proof.KI.StoreSum
import proofs.«207992_g50208167690906_cont_8to1c4_731_36_alg».proof.Proof.Spec
import Idealize.ShloMosaic.Lib.IdealHost

noncomputable section

namespace Cert.Proof.KI.Val

open Idealize.ShloMosaic Idealize.ShloMosaic.ValueIdx Cert.Proof.KI.Histo
open scoped BigOperators

/-- What row word `e` (read cyclically over the 320000) adds to accumulator word `j`: one if it is `j`, else nothing. -/
def hterm (rowv : IVec SR 32) (j e : ℕ) : EReal :=
  if (rowv (ix1 ⟨e % 320000, Nat.mod_lt _ (by decide)⟩)).toNat = j then 1 else 0

/-- Each of the sixteen values a trip adds is the extended real one. -/
theorem ones_apply (x : SL.Idx) : (ones (F := Ideal)) x = 1 := Ideal.ofBits_one_f32

/-- The accumulator starts at zero. -/
theorem zeros_apply (x : SH.Idx) : (zeros (F := Ideal)) x = 0 := Ideal.ofBits_zero_f32

/-- One trip adds, onto word `j`, the terms of the sixteen row words it reads. -/
theorem step_apply (rowv : IVec SR 32) (hok : RowOK rowv) (w : ℕ) (acc : Vec Ideal SH .f32) (n : ℕ) (j : Fin 10240) :
    step rowv hok w acc n (ix1 j) = acc (ix1 j) + ∑ l ∈ Finset.range 16, hterm rowv j.val (10000 * w + 16 * n + l) := by
  unfold step
  rw [storeIdx_add_apply, Finset.sum_range]
  congr 1
  refine Finset.sum_congr rfl fun l _ => ?_
  rw [ones_apply]
  rfl

/-- After `n` trips: the terms of the first `16 n` words of the tile's stretch. -/
theorem histN_apply (rowv : IVec SR 32) (hok : RowOK rowv) (w n : ℕ) (j : Fin 10240) :
    histN (F := Ideal) rowv hok w n (ix1 j) = ∑ e ∈ Finset.range (16 * n), hterm rowv j.val (10000 * w + e) := by
  induction n with
  | zero => exact zeros_apply _
  | succ n ih =>
    rw [histN_succ, step_apply, ih, show 16 * (n + 1) = 16 * n + 16 from by ring, Finset.sum_range_add]
    refine congrArg _ (Finset.sum_congr rfl fun l _ => ?_)
    rw [Nat.add_assoc]

/-- Tile `w`'s accumulator after all its trips counts, at word `j`, the words equal to `j` among the 10000 row words
    `10000 w … 10000 w + 9999`. -/
theorem histTile_apply (rowv : IVec SR 32) (hok : RowOK rowv) (w : ℕ) (hw : w < 32) (j : Fin 10240) :
    histTile (F := Ideal) rowv hok w (ix1 j)
      = ∑ e : Fin 10000, if (rowv (ix1 ⟨10000 * w + e.val, by omega⟩)).toNat = j.val then (1 : EReal) else 0 := by
  unfold histTile
  rw [histN_apply, show 16 * 625 = 10000 from rfl, Finset.sum_range]
  refine Finset.sum_congr rfl fun e _ => ?_
  unfold hterm
  have hmod : (⟨(10000 * w + e.val) % 320000, Nat.mod_lt _ (by decide)⟩ : Fin 320000) = ⟨10000 * w + e.val, by omega⟩ :=
    Fin.ext (Nat.mod_eq_of_lt (by omega))
  rw [hmod]

/-- The 32 accumulators added up count, at word `j`, the words equal to `j` among all 320000 row words. -/
theorem histArr_sum (rowv : IVec SR 32) (hok : RowOK rowv) (j : Fin 10240) :
    ∑ w : Fin 32, histArr (F := Ideal) rowv hok (ix3 w 0 j)
      = ∑ e : Fin 320000, if (rowv (ix1 e)).toNat = j.val then (1 : EReal) else 0 := by
  have hre : (∑ e : Fin 320000, if (rowv (ix1 e)).toNat = j.val then (1 : EReal) else 0)
      = ∑ p : Fin 32 × Fin 10000, if (rowv (ix1 (finProdFinEquiv p))).toNat = j.val then (1 : EReal) else 0 :=
    (Equiv.sum_comp (finProdFinEquiv (m := 32) (n := 10000))
      (fun e : Fin 320000 => if (rowv (ix1 e)).toNat = j.val then (1 : EReal) else 0)).symm
  rw [hre, Fintype.sum_prod_type]
  refine Finset.sum_congr rfl fun w _ => ?_
  rw [histArr_apply, histTile_apply _ _ _ w.isLt]
  refine Finset.sum_congr rfl fun e _ => ?_
  have hfe : (finProdFinEquiv (w, e) : Fin 320000) = ⟨10000 * w.val + e.val, by omega⟩ :=
    Fin.ext (Nat.add_comm _ _)
  rw [hfe]

/-- Read as the edges' first endpoints, all of them nodes, that count is the degree of node `j`. -/
theorem histArr_sum_eq_deg (A : Spec.Args) (rowv : IVec SR 32) (hok : RowOK rowv)
    (hsrc : ∀ e : Fin 320000, A.src e = Spec.node (rowv (ix1 e))) (hr : ∀ e, (rowv e).toNat < 10000) (j : Fin 10000) :
    ∑ w : Fin 32, histArr (F := Ideal) rowv hok (ix3 w 0 (⟨j.val, lt_of_lt_of_le j.isLt (by decide)⟩ : Fin 10240))
      = Spec.deg A j := by
  rw [histArr_sum]
  unfold Spec.deg
  refine Finset.sum_congr rfl fun e _ => ?_
  have hiff : A.src e = j ↔ (rowv (ix1 e)).toNat = j.val := by
    rw [hsrc e]
    unfold Spec.node
    rw [Fin.ext_iff]
    show (rowv (ix1 e)).toNat % 10000 = j.val ↔ _
    rw [Nat.mod_eq_of_lt (hr _)]
  by_cases hc : (rowv (ix1 e)).toNat = j.val
  · rw [if_pos hc, if_pos (hiff.2 hc)]
  · rw [if_neg hc, if_neg (fun h => hc (hiff.1 h))]

end Cert.Proof.KI.Val
-- ==== Proof.KI.EdgeSum.lean ====
/-
  What the edge kernel leaves in an accumulator row, as a sum over the edges. Each group of sixteen packed words adds,
  onto the accumulator word a packed word's high bits name, the feature-row word its low 14 bits name; the accumulator
  starts at zero. After `n` groups word `j` is therefore the sum, over the first `16 n` packed words whose high bits
  are `j`, of the feature-row words they name; after all 20000 groups the sum runs over all 320000 packed words. Over
  the extended reals addition is commutative and associative whatever the terms, so nothing is asked of the feature
  row's entries.
-/
import proofs.«207992_g50208167690906_cont_8to1c4_731_36_alg».proof.Proof.KI.EdgeVal
import proofs.«207992_g50208167690906_cont_8to1c4_731_36_alg».proof.Proof.KI.StoreSum
import Idealize.ShloMosaic.PureOps.Ideal.Laws

noncomputable section

namespace Cert.Proof.KI.Val

open Idealize.ShloMosaic Idealize.ShloMosaic.ValueIdx Cert.Proof.KI.Edge
open scoped BigOperators

/-- What packed word `e` adds to accumulator word `j`: the feature-row word its low bits name if its high bits are
    `j`, else nothing. -/
def eterm (pk : IVec SP 32) (hpk : PackedOK pk) (vrow : Vec Ideal SN .f32) (j : ℕ) (e : Fin 320000) : EReal :=
  if (pk (ix1 e) >>> (14 : ℕ)).toNat = j then vrow (ix1 ⟨(pk (ix1 e) &&& 16383#32).toNat, (hpk (ix1 e)).2⟩) else 0

/-- The same over the natural numbers, nothing past the last word. -/
def etermN (pk : IVec SP 32) (hpk : PackedOK pk) (vrow : Vec Ideal SN .f32) (j e : ℕ) : EReal :=
  if h : e < 320000 then eterm pk hpk vrow j ⟨e, h⟩ else 0

/-- The accumulator row starts at zero. -/
theorem zeroRow_apply (x : SN.Idx) : (zeroRow (F := Ideal)) x = 0 := Ideal.ofBits_zero_f32

/-- A gather from a row, at lane `l`: the row's word at the lane's index word. -/
theorem loadIdx_apply1 {N L : ℕ} (f : Vec Ideal ⟨1, ![N]⟩ .f32) (idx : IVec ⟨1, ![L]⟩ 32)
    (h : ∀ (a : Fin (⟨1, ![N]⟩ : Shape).rank) (x : (⟨1, ![L]⟩ : Shape).Idx),
      ((![idx] : Fin (⟨1, ![N]⟩ : Shape).rank → IVec ⟨1, ![L]⟩ 32) a x).toNat < (⟨1, ![N]⟩ : Shape).size a) (l : Fin L) :
    loadIdx f ![idx] h (ix1 l) = f (ix1 ⟨(idx (ix1 l)).toNat, h 0 (ix1 l)⟩) := by
  unfold loadIdx
  congr 1
  funext a
  match a with
  | ⟨0, _⟩ => rfl

/-- A row read at two indices with the same coordinate. -/
theorem row_congr {N : ℕ} (f : Vec Ideal ⟨1, ![N]⟩ .f32) {a b : ℕ} (ha : a < N) (hb : b < N) (hab : a = b) :
    f (ix1 ⟨a, ha⟩) = f (ix1 ⟨b, hb⟩) := by
  subst hab; rfl

/-- One group adds, onto word `j`, the terms of its sixteen packed words. -/
theorem estep_apply (pk : IVec SP 32) (hpk : PackedOK pk) (vrow acc : Vec Ideal SN .f32) (n : ℕ) (hn : n < 20000)
    (j : Fin 10000) :
    step vrow acc (chunk pk n) (row_inb hpk n) (col_inb hpk n) (ix1 j)
      = acc (ix1 j) + ∑ l ∈ Finset.range 16, etermN pk hpk vrow j.val (16 * n + l) := by
  unfold step
  rw [storeIdx_add_apply, Finset.sum_range]
  congr 1
  refine Finset.sum_congr rfl fun l _ => ?_
  have h : 16 * n + l.val < 320000 := by have := l.isLt; omega
  have hch : chunk pk n (ix1 l) = pk (ix1 ⟨16 * n + l.val, h⟩) := dif_pos h
  unfold etermN
  rw [dif_pos h]
  unfold eterm
  rw [row16_apply, hch, loadIdx_apply1]
  by_cases hc : (pk (ix1 ⟨16 * n + l.val, h⟩) >>> (14 : ℕ)).toNat = j.val
  · rw [if_pos hc, if_pos hc]
    exact row_congr vrow _ _ (by rw [col16_apply, hch])
  · rw [if_neg hc, if_neg hc]

/-- After `n` groups: the terms of the first `16 n` packed words. -/
theorem aggN_apply (pk : IVec SP 32) (hpk : PackedOK pk) (vrow : Vec Ideal SN .f32) (n : ℕ) (hn : n ≤ 20000) (j : Fin 10000) :
    aggN pk hpk vrow n (ix1 j) = ∑ e ∈ Finset.range (16 * n), etermN pk hpk vrow j.val e := by
  induction n with
  | zero => exact zeroRow_apply _
  | succ n ih =>
    have hstep : aggN pk hpk vrow (n + 1) = step vrow (aggN pk hpk vrow n) (chunk pk n) (row_inb hpk n) (col_inb hpk n) := rfl
    rw [hstep, estep_apply pk hpk vrow _ n (by omega), ih (by omega), show 16 * (n + 1) = 16 * n + 16 from by ring,
      Finset.sum_range_add]

/-- The row the kernel ends with: word `j` is the sum, over the packed words whose high bits are `j`, of the feature-row
    words their low 14 bits name. -/
theorem aggRow_apply (pk : IVec SP 32) (hpk : PackedOK pk) (vrow : Vec Ideal SN .f32) (j : Fin 10000) :
    aggRow pk hpk vrow (ix1 j)
      = ∑ e : Fin 320000, if (pk (ix1 e) >>> (14 : ℕ)).toNat = j.val
          then vrow (ix1 ⟨(pk (ix1 e) &&& 16383#32).toNat, (hpk (ix1 e)).2⟩) else 0 := by
  unfold aggRow
  rw [aggN_apply pk hpk vrow 20000 (le_refl _) j, show 16 * 20000 = 320000 from rfl, Finset.sum_range]
  refine Finset.sum_congr rfl fun e _ => ?_
  unfold etermN
  rw [dif_pos e.isLt]
  rfl

end Cert.Proof.KI.Val
-- ==== Proof.KI.EdgeSpec.lean ====
/-
  The edge kernel's accumulator row against the neighbour sum. When the packed words are `r · 16384 + c` of the
  edges' two endpoint words, both nodes, a packed word's high bits are the edge's first endpoint and its low 14 bits the
  second; so the row the kernel ends with is, at node `n`, the sum over the edges whose first endpoint is `n` of the
  feature row at the second endpoint. With the feature row holding `deg^(-1/2)` times a feature that is the neighbour
  sum of the normalised features.
-/
import proofs.«207992_g50208167690906_cont_8to1c4_731_36_alg».proof.Proof.KI.EdgeSum
import proofs.«207992_g50208167690906_cont_8to1c4_731_36_alg».proof.Proof.KI.PackBits
import proofs.«207992_g50208167690906_cont_8to1c4_731_36_alg».proof.Proof.Spec

noncomputable section

namespace Cert.Proof.KI.Val

open Idealize.ShloMosaic Idealize.ShloMosaic.ValueIdx Cert.Proof.KI.Edge
open scoped BigOperators

/-- The end row as a sum over the edges of a function of the second endpoint, given that the two endpoints are the
    packed word's two fields and the feature row is that function. -/
theorem aggRow_eq_sum (A : Spec.Args) (pk : IVec SP 32) (hpk : PackedOK pk) (vrow : Vec Ideal SN .f32) (g : Fin 10000 → EReal)
    (hsrc : ∀ e : Fin 320000, (A.src e).val = (pk (ix1 e) >>> (14 : ℕ)).toNat)
    (hdst : ∀ e : Fin 320000, (A.dst e).val = (pk (ix1 e) &&& 16383#32).toNat)
    (hv : ∀ m : Fin 10000, vrow (ix1 m) = g m) (n : Fin 10000) :
    aggRow pk hpk vrow (ix1 n) = ∑ e : Fin 320000, if A.src e = n then g (A.dst e) else 0 := by
  rw [aggRow_apply]
  refine Finset.sum_congr rfl fun e _ => ?_
  have hiff : A.src e = n ↔ (pk (ix1 e) >>> (14 : ℕ)).toNat = n.val := by rw [Fin.ext_iff, hsrc e]
  have hval : vrow (ix1 ⟨(pk (ix1 e) &&& 16383#32).toNat, (hpk (ix1 e)).2⟩) = g (A.dst e) := by
    have hd : (⟨(pk (ix1 e) &&& 16383#32).toNat, (hpk (ix1 e)).2⟩ : Fin 10000) = A.dst e := Fin.ext (hdst e).symm
    rw [hd, hv]
  by_cases hc : (pk (ix1 e) >>> (14 : ℕ)).toNat = n.val
  · rw [if_pos hc, if_pos (hiff.2 hc), hval]
  · rw [if_neg hc, if_neg (fun h => hc (hiff.1 h))]

/-- The endpoints read off words packed from the two endpoint arrays. -/
theorem pack_endpoints (A : Spec.Args) (pk rowv colv : IVec SP 32) (hr : ∀ e, (rowv e).toNat < 10000)
    (hc : ∀ e, (colv e).toNat < 10000) (hpkeq : ∀ e, pk e = rowv e * 16384#32 + colv e)
    (hsrc : ∀ e : Fin 320000, A.src e = Spec.node (rowv (ix1 e))) (hdst : ∀ e : Fin 320000, A.dst e = Spec.node (colv (ix1 e))) :
    (∀ e : Fin 320000, (A.src e).val = (pk (ix1 e) >>> (14 : ℕ)).toNat)
      ∧ (∀ e : Fin 320000, (A.dst e).val = (pk (ix1 e) &&& 16383#32).toNat) := by
  obtain ⟨_, h1, h2⟩ := packedOK_of_pack pk rowv colv hr hc hpkeq
  refine ⟨fun e => ?_, fun e => ?_⟩
  · rw [hsrc e, h1 (ix1 e)]
    exact Nat.mod_eq_of_lt (hr _)
  · rw [hdst e, h2 (ix1 e)]
    exact Nat.mod_eq_of_lt (hc _)

/-- The end row, for words packed from the endpoint arrays: at node `n` the sum over the edges out of `n` of the
    feature row's function at the other endpoint. -/
theorem aggRow_of_pack (A : Spec.Args) (pk rowv colv : IVec SP 32) (hpk : PackedOK pk) (hr : ∀ e, (rowv e).toNat < 10000)
    (hc : ∀ e, (colv e).toNat < 10000) (hpkeq : ∀ e, pk e = rowv e * 16384#32 + colv e)
    (hsrc : ∀ e : Fin 320000, A.src e = Spec.node (rowv (ix1 e))) (hdst : ∀ e : Fin 320000, A.dst e = Spec.node (colv (ix1 e)))
    (vrow : Vec Ideal SN .f32) (g : Fin 10000 → EReal) (hv : ∀ m : Fin 10000, vrow (ix1 m) = g m) (n : Fin 10000) :
    aggRow pk hpk vrow (ix1 n) = ∑ e : Fin 320000, if A.src e = n then g (A.dst e) else 0 := by
  obtain ⟨h1, h2⟩ := pack_endpoints A pk rowv colv hr hc hpkeq hsrc hdst
  exact aggRow_eq_sum A pk hpk vrow g h1 h2 hv n

/-- With the feature row holding `deg^(-1/2)` times feature `f` of `v`, the end row is the neighbour sum. -/
theorem aggRow_eq_agg (A : Spec.Args) (pk rowv colv : IVec SP 32) (hpk : PackedOK pk) (hr : ∀ e, (rowv e).toNat < 10000)
    (hc : ∀ e, (colv e).toNat < 10000) (hpkeq : ∀ e, pk e = rowv e * 16384#32 + colv e)
    (hsrc : ∀ e : Fin 320000, A.src e = Spec.node (rowv (ix1 e))) (hdst : ∀ e : Fin 320000, A.dst e = Spec.node (colv (ix1 e)))
    {k : ℕ} (v : Fin 10000 → Fin k → EReal) (f : Fin k)
    (vrow : Vec Ideal SN .f32) (hv : ∀ m : Fin 10000, vrow (ix1 m) = Spec.dinv A m * v m f) (n : Fin 10000) :
    aggRow pk hpk vrow (ix1 n) = Spec.agg A v n f :=
  aggRow_of_pack A pk rowv colv hpk hr hc hpkeq hsrc hdst vrow (fun m => Spec.dinv A m * v m f) hv n

end Cert.Proof.KI.Val
-- ==== Proof.KI.RegionAtScalar.lean ====
/-
  Scalar facts the dense regions' read-back uses: the bit patterns of zero, one, minus one and two as extended
  reals, the two degree factors (the inverse square root of a positive degree, else zero; the sign that is one on
  a positive degree, else minus one) as a select on a comparison computes them, and a column broadcast read at an
  index.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.Proof.KI.Val

open Idealize.ShloMosaic Idealize.ShloMosaic.ValueIdx

/-- The inverse square root of a positive degree, zero elsewhere. -/
def dK (d : EReal) : EReal := if 0 < d then Ideal.rsqrt d else 0

/-- One on a positive degree, minus one elsewhere. -/
def sK (d : EReal) : EReal := if 0 < d then 1 else -1

theorem zero_f32 : Ideal.ofBits .f32 0x00000000#32 = 0 := Ideal.ofBits_zero_f32
theorem one_f32 : Ideal.ofBits .f32 0x3F800000#32 = 1 := IdealRules.sign_bit.ideal_onePat .f32
theorem negOne_f32 : Ideal.ofBits .f32 0xBF800000#32 = -1 := IdealRules.sign_bit.ideal_negOnePat .f32
theorem two_f32 : Ideal.ofBits .f32 0x40000000#32 = 2 := by
  simp [Ideal.ofBits, Ideal.ieee, -EReal.coe_mul]; norm_num
  first | rfl | norm_cast | exact EReal.coe_ofNat 2

/-- A select on "greater than zero" is the case split on the sign. -/
theorem select_gt_zero {α : Type} (d : EReal) (a b : α) :
    Scalar.select (FloatOps.cmpf (F := Ideal) (φ := .f32) .ogt d (Ideal.ofBits .f32 0x00000000#32)) a b
      = if 0 < d then a else b := by
  rw [Ideal.cmpf_def, zero_f32]
  unfold Ideal.cmp Scalar.select
  by_cases h : 0 < d <;> simp [h]

/-- The degree factor as the regions compute it: the inverse square root of the degree where it is positive (of
    one elsewhere, then discarded), zero elsewhere. -/
theorem dK_eq (d : EReal) :
    (if 0 < d then Ideal.rsqrt (if 0 < d then d else 1) else 0) = dK d := by
  unfold dK
  by_cases h : 0 < d
  · rw [if_pos h, if_pos h, if_pos h]
  · rw [if_neg h, if_neg h]

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.KI.Val

end
-- ==== Proof.KI.RegionAtPay1.lean ====
/-
  The scaling region's payloads read at an index, over the extended reals: each output element is the degree
  factor of its row times the input element.
-/
import proofs.«207992_g50208167690906_cont_8to1c4_731_36_alg».proof.Proof.Gen.KernelIdeal.Skeleton
import proofs.«207992_g50208167690906_cont_8to1c4_731_36_alg».proof.Proof.KI.RegionAtScalar

noncomputable section

namespace Cert.Proof.KI.Val

open Cert.KernelIdeal Cert.KernelIdeal.Gen
open Idealize.ShloMosaic Idealize.ShloMosaic.ValueIdx

/-- The degree factor of a block's rows, read at a row. -/
theorem k1_pay1_at (v0 : FVec Ideal S1000x1 .f32) (p : Fin 1000) :
    k1_pay1 (F := Ideal) v0 (ix2 p (0 : Fin 1)) = dK (v0 (ix2 p 0)) := by
  unfold k1_pay1
  simp only [shapeCast_self]
  show Scalar.select (FloatOps.cmpf (F := Ideal) (φ := .f32) .ogt (v0 (ix2 p 0)) (Ideal.ofBits .f32 0x00000000#32))
      (Ideal.rsqrt (Scalar.select (FloatOps.cmpf (F := Ideal) (φ := .f32) .ogt (v0 (ix2 p 0)) (Ideal.ofBits .f32 0x00000000#32))
        (v0 (ix2 p 0)) (Ideal.ofBits .f32 0x3F800000#32)))
      (Ideal.ofBits .f32 0x00000000#32) = _
  rw [select_gt_zero, select_gt_zero, one_f32, zero_f32, dK_eq]

/-- The scaled features of a block, read at an index. -/
theorem k1_pay2_at (v0 : FVec Ideal S1000x1 .f32) (v9 : FVec Ideal S1000x128 .f32) (p : Fin 1000) (q : Fin 128) :
    k1_pay2 (F := Ideal) v0 v9 (ix2 p q) = dK (v0 (ix2 p 0)) * v9 (ix2 p q) := by
  unfold k1_pay2
  show broadcastTo S1000x128 (k1_pay1 (F := Ideal) v0) broadcasts_S1000x1_S1000x128 (ix2 p q) * v9 (ix2 p q) = _
  rw [broadcastTo_a1_ab_apply, k1_pay1_at]

/-- The scaled hidden state of a block, read at an index. -/
theorem k1_pay3_at (v0 : FVec Ideal S1000x1 .f32) (v13 : FVec Ideal S1000x64 .f32) (p : Fin 1000) (q : Fin 64) :
    k1_pay3 (F := Ideal) v0 v13 (ix2 p q) = dK (v0 (ix2 p 0)) * v13 (ix2 p q) := by
  unfold k1_pay3
  simp only [shapeCast_self]
  show broadcastTo S1000x64 (k1_pay1 (F := Ideal) v0) broadcasts_S1000x1_S1000x64 (ix2 p q) * v13 (ix2 p q) = _
  rw [broadcastTo_a1_ab_apply, k1_pay1_at]

end Cert.Proof.KI.Val

end
-- ==== Proof.KI.RegionAtPay4a.lean ====
/-
  The dense region's first payloads read at an index, over the extended reals: the casts to the same shape, the
  two degree factors of a row, and the rescaled Laplacian of the feature block and of the hidden-state block.
-/
import proofs.«207992_g50208167690906_cont_8to1c4_731_36_alg».proof.Proof.Gen.KernelIdeal.Skeleton
import proofs.«207992_g50208167690906_cont_8to1c4_731_36_alg».proof.Proof.KI.RegionAtScalar

noncomputable section

namespace Cert.Proof.KI.Val

open Cert.KernelIdeal Cert.KernelIdeal.Gen
open Idealize.ShloMosaic Idealize.ShloMosaic.ValueIdx

/-- The hidden-state block as the dense region passes it on: a cast to its own shape. -/
theorem k4_pay7_eq (v13 : FVec Ideal S1000x64 .f32) : k4_pay7 (F := Ideal) v13 = v13 := shapeCast_self _ _

/-- The cell-state block likewise. -/
theorem k4_pay8_eq (v15 : FVec Ideal S1000x64 .f32) : k4_pay8 (F := Ideal) v15 = v15 := shapeCast_self _ _

/-- The first weight matrix likewise. -/
theorem k4_pay11_eq (v35 : FVec Ideal S128x256 .f32) : k4_pay11 (F := Ideal) v35 = v35 := shapeCast_self _ _

/-- The degree factor of a block's rows in the dense region, read at a row. -/
theorem k4_pay5_at (v0 : FVec Ideal S1000x1 .f32) (p : Fin 1000) :
    k4_pay5 (F := Ideal) v0 (ix2 p (0 : Fin 1)) = dK (v0 (ix2 p 0)) := by
  unfold k4_pay5 k4_pay4 k4_pay3
  simp only [shapeCast_self]
  show Scalar.select (FloatOps.cmpf (F := Ideal) (φ := .f32) .ogt (v0 (ix2 p 0)) (Ideal.ofBits .f32 0x00000000#32))
      (Ideal.rsqrt (Scalar.select (FloatOps.cmpf (F := Ideal) (φ := .f32) .ogt (v0 (ix2 p 0)) (Ideal.ofBits .f32 0x00000000#32))
        (v0 (ix2 p 0)) (Ideal.ofBits .f32 0x3F800000#32)))
      (Ideal.ofBits .f32 0x00000000#32) = _
  rw [select_gt_zero, select_gt_zero, one_f32, zero_f32, dK_eq]

/-- The sign factor of a block's rows in the dense region, read at a row. -/
theorem k4_pay6_at (v0 : FVec Ideal S1000x1 .f32) (p : Fin 1000) :
    k4_pay6 (F := Ideal) v0 (ix2 p (0 : Fin 1)) = sK (v0 (ix2 p 0)) := by
  unfold k4_pay6 k4_pay4 k4_pay3
  simp only [shapeCast_self]
  show Scalar.select (FloatOps.cmpf (F := Ideal) (φ := .f32) .ogt (v0 (ix2 p 0)) (Ideal.ofBits .f32 0x00000000#32))
      (Ideal.ofBits .f32 0x3F800000#32) (Ideal.ofBits .f32 0xBF800000#32) = _
  rw [select_gt_zero, one_f32, negOne_f32]
  rfl

/-- The rescaled Laplacian of the feature block, read at an index: the sign factor times the feature minus twice
    the degree factor times the neighbour sum. -/
theorem k4_pay9_at (v0 : FVec Ideal S1000x1 .f32) (v12 v17 : FVec Ideal S1000x128 .f32) (p : Fin 1000) (q : Fin 128) :
    k4_pay9 (F := Ideal) v0 v12 v17 (ix2 p q)
      = sK (v0 (ix2 p 0)) * v12 (ix2 p q) - (2 * dK (v0 (ix2 p 0))) * v17 (ix2 p q) := by
  unfold k4_pay9
  simp only [shapeCast_self]
  show broadcastTo S1000x128 (k4_pay6 (F := Ideal) v0) broadcasts_S1000x1_S1000x128 (ix2 p q) * v12 (ix2 p q)
      - broadcastTo S1000x128 (fun i => Ideal.ofBits .f32 0x40000000#32 * k4_pay5 (F := Ideal) v0 i) broadcasts_S1000x1_S1000x128 (ix2 p q)
        * v17 (ix2 p q) = _
  rw [broadcastTo_a1_ab_apply, broadcastTo_a1_ab_apply, k4_pay6_at, k4_pay5_at, two_f32]

/-- The rescaled Laplacian of the hidden-state block, read at an index. -/
theorem k4_pay10_at (v0 : FVec Ideal S1000x1 .f32) (v13 v19 : FVec Ideal S1000x64 .f32) (p : Fin 1000) (q : Fin 64) :
    k4_pay10 (F := Ideal) v0 v13 v19 (ix2 p q)
      = sK (v0 (ix2 p 0)) * v13 (ix2 p q) - (2 * dK (v0 (ix2 p 0))) * v19 (ix2 p q) := by
  unfold k4_pay10 k4_pay7
  simp only [shapeCast_self]
  show broadcastTo S1000x64 (k4_pay6 (F := Ideal) v0) broadcasts_S1000x1_S1000x64 (ix2 p q) * v13 (ix2 p q)
      - broadcastTo S1000x64 (fun i => Ideal.ofBits .f32 0x40000000#32 * k4_pay5 (F := Ideal) v0 i) broadcasts_S1000x1_S1000x64 (ix2 p q)
        * v19 (ix2 p q) = _
  rw [broadcastTo_a1_ab_apply, broadcastTo_a1_ab_apply, k4_pay6_at, k4_pay5_at, two_f32]

end Cert.Proof.KI.Val

end
-- ==== Proof.KI.RegionAtForm.lean ====
/-
  What the dense region computes, written element by element over the extended reals in the arrangement of the
  specification: per block row (the forms the payloads are read to) and per node (the forms the result arrays are
  read to): the rescaled Laplacian from the two degree factors and the neighbour sums, the four gates'
  pre-activations as sums over both Chebyshev orders, the peephole LSTM update, the rectified hidden state and the
  linear read-out.
-/
import proofs.«207992_g50208167690906_cont_8to1c4_731_36_alg».proof.Proof.KI.RegionAtScalar

noncomputable section

namespace Cert.Proof.KI.Val

open Idealize.ShloMosaic Idealize.ShloMosaic.ValueIdx

/-- Column `64 g + j` of the 256 gate columns: gate `g`'s column `j`. -/
def gcol (g : Fin 4) (j : Fin 64) : Fin 256 := ⟨64 * g.val + j.val, by have := g.isLt; have := j.isLt; omega⟩

section Block

variable (v12 : (⟨2, ![1000, 128]⟩ : Shape).Idx → EReal) (v14 v16 : (⟨2, ![1000, 64]⟩ : Shape).Idx → EReal)
  (v27 : (⟨2, ![1000, 128]⟩ : Shape).Idx → EReal) (v34 : (⟨2, ![1000, 64]⟩ : Shape).Idx → EReal)
  (v36 v38 : (⟨2, ![128, 256]⟩ : Shape).Idx → EReal) (v42 v46 : (⟨2, ![64, 256]⟩ : Shape).Idx → EReal)
  (v50 : (⟨2, ![1, 256]⟩ : Shape).Idx → EReal) (v55 v61 v72 : (⟨2, ![1, 64]⟩ : Shape).Idx → EReal)

/-- The 256 gate pre-activations of a block's row, before the peephole terms: the four products and the bias row. -/
def preB (p : Fin 1000) (c : Fin 256) : EReal :=
  ((((∑ k : Fin 128, v12 (ix2 p k) * v36 (ix2 k c)) + (∑ k : Fin 128, v27 (ix2 p k) * v38 (ix2 k c)))
      + (∑ k : Fin 64, v14 (ix2 p k) * v42 (ix2 k c))) + (∑ k : Fin 64, v34 (ix2 p k) * v46 (ix2 k c)))
    + v50 (ix2 (0 : Fin 1) c)

/-- The new cell state of a block's row. -/
def cellB (p : Fin 1000) (j : Fin 64) : EReal :=
  Ideal.logistic (preB v12 v14 v27 v34 v36 v38 v42 v46 v50 p (gcol 1 j) + v61 (ix2 (0 : Fin 1) j) * v16 (ix2 p j)) * v16 (ix2 p j)
    + Ideal.logistic (preB v12 v14 v27 v34 v36 v38 v42 v46 v50 p (gcol 0 j) + v55 (ix2 (0 : Fin 1) j) * v16 (ix2 p j))
      * Ideal.tanh (preB v12 v14 v27 v34 v36 v38 v42 v46 v50 p (gcol 2 j))

/-- The new hidden state of a block's row, before it is rectified. -/
def hidB (p : Fin 1000) (j : Fin 64) : EReal :=
  Ideal.logistic (preB v12 v14 v27 v34 v36 v38 v42 v46 v50 p (gcol 3 j)
      + v72 (ix2 (0 : Fin 1) j) * cellB v12 v14 v16 v27 v34 v36 v38 v42 v46 v50 v55 v61 p j)
    * Ideal.tanh (cellB v12 v14 v16 v27 v34 v36 v38 v42 v46 v50 v55 v61 p j)

end Block

section Array

variable (x : (⟨2, ![10000, 128]⟩ : Shape).Idx → EReal) (hs cs : (⟨2, ![10000, 64]⟩ : Shape).Idx → EReal)
  (agg0 : (⟨2, ![10000, 128]⟩ : Shape).Idx → EReal) (agg1 : (⟨2, ![10000, 64]⟩ : Shape).Idx → EReal)
  (deg : (⟨2, ![10000, 1]⟩ : Shape).Idx → EReal) (wx0 wx1 : (⟨2, ![128, 256]⟩ : Shape).Idx → EReal)
  (wh0 wh1 : (⟨2, ![64, 256]⟩ : Shape).Idx → EReal) (btot : (⟨2, ![1, 256]⟩ : Shape).Idx → EReal)
  (wp : (⟨2, ![3, 64]⟩ : Shape).Idx → EReal) (wout : (⟨2, ![64, 10]⟩ : Shape).Idx → EReal)
  (bout : (⟨2, ![1, 10]⟩ : Shape).Idx → EReal)

/-- The rescaled Laplacian applied to `v` given the neighbour sums `a`: the sign factor times the element minus
    twice the degree factor times the neighbour sum. -/
def lapK {k : ℕ} (v a : (⟨2, ![10000, k]⟩ : Shape).Idx → EReal) (n : Fin 10000) (i : Fin k) : EReal :=
  sK (deg (ix2 n (0 : Fin 1))) * v (ix2 n i) - (2 * dK (deg (ix2 n (0 : Fin 1)))) * a (ix2 n i)

/-- Gate `g`'s pre-activation at node `n`, column `j`, before the peephole term. -/
def preK (g : Fin 4) (n : Fin 10000) (j : Fin 64) : EReal :=
  ((((∑ i : Fin 128, x (ix2 n i) * wx0 (ix2 i (gcol g j))) + (∑ i : Fin 128, lapK deg x agg0 n i * wx1 (ix2 i (gcol g j))))
      + (∑ i : Fin 64, hs (ix2 n i) * wh0 (ix2 i (gcol g j)))) + (∑ i : Fin 64, lapK deg hs agg1 n i * wh1 (ix2 i (gcol g j))))
    + btot (ix2 (0 : Fin 1) (gcol g j))

def inK (n : Fin 10000) (j : Fin 64) : EReal :=
  Ideal.logistic (preK x hs agg0 agg1 deg wx0 wx1 wh0 wh1 btot 0 n j + wp (ix2 (0 : Fin 3) j) * cs (ix2 n j))
def forgetK (n : Fin 10000) (j : Fin 64) : EReal :=
  Ideal.logistic (preK x hs agg0 agg1 deg wx0 wx1 wh0 wh1 btot 1 n j + wp (ix2 (1 : Fin 3) j) * cs (ix2 n j))
def candK (n : Fin 10000) (j : Fin 64) : EReal :=
  Ideal.tanh (preK x hs agg0 agg1 deg wx0 wx1 wh0 wh1 btot 2 n j)
/-- The new cell state. -/
def cellK (n : Fin 10000) (j : Fin 64) : EReal :=
  forgetK x hs cs agg0 agg1 deg wx0 wx1 wh0 wh1 btot wp n j * cs (ix2 n j)
    + inK x hs cs agg0 agg1 deg wx0 wx1 wh0 wh1 btot wp n j * candK x hs agg0 agg1 deg wx0 wx1 wh0 wh1 btot n j
def outK (n : Fin 10000) (j : Fin 64) : EReal :=
  Ideal.logistic (preK x hs agg0 agg1 deg wx0 wx1 wh0 wh1 btot 3 n j
    + wp (ix2 (2 : Fin 3) j) * cellK x hs cs agg0 agg1 deg wx0 wx1 wh0 wh1 btot wp n j)
/-- The new hidden state, rectified. -/
def hiddenK (n : Fin 10000) (j : Fin 64) : EReal :=
  max (outK x hs cs agg0 agg1 deg wx0 wx1 wh0 wh1 btot wp n j
    * Ideal.tanh (cellK x hs cs agg0 agg1 deg wx0 wx1 wh0 wh1 btot wp n j)) 0
/-- The read-out of the rectified hidden state. -/
def outputK (n : Fin 10000) (k : Fin 10) : EReal :=
  (∑ j : Fin 64, hiddenK x hs cs agg0 agg1 deg wx0 wx1 wh0 wh1 btot wp n j * wout (ix2 j k)) + bout (ix2 (0 : Fin 1) k)

end Array

end Cert.Proof.KI.Val

end
-- ==== Proof.KI.RegionAtPay4b.lean ====
/-
  The dense region's three matrix products into a zero accumulator, read at an index over the extended reals: the
  sum over the contracted axis of the operands' products.
-/
import proofs.«207992_g50208167690906_cont_8to1c4_731_36_alg».proof.Proof.Gen.KernelIdeal.Skeleton
import Idealize.ShloMosaic.PureOps.Ideal.Laws
import Idealize.ShloMosaic.Lib.ValueIdx

noncomputable section

namespace Cert.Proof.KI.Val

open Cert.KernelIdeal Cert.KernelIdeal.Gen
open Idealize.ShloMosaic Idealize.ShloMosaic.ValueIdx

/-! ### A feature block `[1000, 128]` times a weight matrix `[128, 256]` -/

theorem lhsX_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhsX_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhsX_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhsX_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The product into a zero accumulator, read at an index: the sum over the contracted axis. -/
theorem matmulX_at (l : FVec Ideal S1000x128 .f32) (r : FVec Ideal S128x256 .f32) (p : Fin 1000) (c : Fin 256) :
    matmul dot_S1000x128_S128x256_S1000x256_1_0_0_1_n_n (some .fp32) l r (constant S1000x256 .f32 0x00000000#32) (ix2 p c)
      = ∑ k : Fin 128, l (ix2 p k) * r (ix2 k c) := by
  show FloatOps.matmul dot_S1000x128_S128x256_S1000x256_1_0_0_1_n_n (some .fp32) l r (constant S1000x256 .f32 0x00000000#32) (ix2 p c) = _
  rw [Ideal.matmul_constant_zero_apply, ← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p c) ((ValueIdx.contrEquiv1 dot_S1000x128_S128x256_S1000x256_1_0_0_1_n_n 128 rfl rfl).symm k) = ix2 p k := funext fun a => Fin.ext (by
    match a with
    | ⟨0, _⟩ => exact lhsX_0 _ _
    | ⟨1, _⟩ => exact (lhsX_1 _ _).trans hk)
  have er : dot_S1000x128_S128x256_S1000x256_1_0_0_1_n_n.rhsIdx (ix2 p c) ((ValueIdx.contrEquiv1 dot_S1000x128_S128x256_S1000x256_1_0_0_1_n_n 128 rfl rfl).symm k) = ix2 k c := funext fun a => Fin.ext (by
    match a with
    | ⟨0, _⟩ => exact (rhsX_0 _ _).trans hk
    | ⟨1, _⟩ => exact rhsX_1 _ _)
  rw [el, er]

/-! ### A hidden-state block `[1000, 64]` times a weight matrix `[64, 256]` -/

theorem lhsH_0 (i : S1000x256.Idx) (q : dot_S1000x64_S64x256_S1000x256_1_0_0_1_n_n.contr.Idx) :
    (dot_S1000x64_S64x256_S1000x256_1_0_0_1_n_n.lhsIdx i q 0).val = (i 0).val := by
  unfold DotDims.lhsIdx
  rw [dif_neg (show ¬(0 : Fin S1000x64.rank) ∈ dot_S1000x64_S64x256_S1000x256_1_0_0_1_n_n.lhsBatch by decide), dif_pos (show (0 : Fin S1000x64.rank) ∈ dot_S1000x64_S64x256_S1000x256_1_0_0_1_n_n.lhsNonContracting by decide)]
  rfl
theorem lhsH_1 (i : S1000x256.Idx) (q : dot_S1000x64_S64x256_S1000x256_1_0_0_1_n_n.contr.Idx) :
    (dot_S1000x64_S64x256_S1000x256_1_0_0_1_n_n.lhsIdx i q 1).val = (q ⟨0, by decide⟩).val :=
  dot_S1000x64_S64x256_S1000x256_1_0_0_1_n_n.lhsIdx_val_of_single rfl i q
theorem rhsH_0 (i : S1000x256.Idx) (q : dot_S1000x64_S64x256_S1000x256_1_0_0_1_n_n.contr.Idx) :
    (dot_S1000x64_S64x256_S1000x256_1_0_0_1_n_n.rhsIdx i q 0).val = (q ⟨0, by decide⟩).val :=
  dot_S1000x64_S64x256_S1000x256_1_0_0_1_n_n.rhsIdx_val_of_single rfl i q
theorem rhsH_1 (i : S1000x256.Idx) (q : dot_S1000x64_S64x256_S1000x256_1_0_0_1_n_n.contr.Idx) :
    (dot_S1000x64_S64x256_S1000x256_1_0_0_1_n_n.rhsIdx i q 1).val = (i 1).val := by
  unfold DotDims.rhsIdx
  rw [dif_neg (show ¬(1 : Fin S64x256.rank) ∈ dot_S1000x64_S64x256_S1000x256_1_0_0_1_n_n.rhsBatch by decide), dif_pos (show (1 : Fin S64x256.rank) ∈ dot_S1000x64_S64x256_S1000x256_1_0_0_1_n_n.rhsNonContracting by decide)]
  rfl

/-- The product into a zero accumulator, read at an index: the sum over the contracted axis. -/
theorem matmulH_at (l : FVec Ideal S1000x64 .f32) (r : FVec Ideal S64x256 .f32) (p : Fin 1000) (c : Fin 256) :
    matmul dot_S1000x64_S64x256_S1000x256_1_0_0_1_n_n (some .fp32) l r (constant S1000x256 .f32 0x00000000#32) (ix2 p c)
      = ∑ k : Fin 64, l (ix2 p k) * r (ix2 k c) := by
  show FloatOps.matmul dot_S1000x64_S64x256_S1000x256_1_0_0_1_n_n (some .fp32) l r (constant S1000x256 .f32 0x00000000#32) (ix2 p c) = _
  rw [Ideal.matmul_constant_zero_apply, ← Equiv.sum_comp (ValueIdx.contrEquiv1 dot_S1000x64_S64x256_S1000x256_1_0_0_1_n_n 64 rfl rfl).symm]
  refine Finset.sum_congr rfl fun k _ => ?_
  have hk := ValueIdx.contrEquiv1_symm_val dot_S1000x64_S64x256_S1000x256_1_0_0_1_n_n 64 rfl rfl k
  have el : dot_S1000x64_S64x256_S1000x256_1_0_0_1_n_n.lhsIdx (ix2 p c) ((ValueIdx.contrEquiv1 dot_S1000x64_S64x256_S1000x256_1_0_0_1_n_n 64 rfl rfl).symm k) = ix2 p k := funext fun a => Fin.ext (by
    match a with
    | ⟨0, _⟩ => exact lhsH_0 _ _
    | ⟨1, _⟩ => exact (lhsH_1 _ _).trans hk)
  have er : dot_S1000x64_S64x256_S1000x256_1_0_0_1_n_n.rhsIdx (ix2 p c) ((ValueIdx.contrEquiv1 dot_S1000x64_S64x256_S1000x256_1_0_0_1_n_n 64 rfl rfl).symm k) = ix2 k c := funext fun a => Fin.ext (by
    match a with
    | ⟨0, _⟩ => exact (rhsH_0 _ _).trans hk
    | ⟨1, _⟩ => exact rhsH_1 _ _)
  rw [el, er]

/-! ### A hidden-state block `[1000, 64]` times the read-out matrix `[64, 10]` -/

theorem lhsO_0 (i : S1000x10.Idx) (q : dot_S1000x64_S64x10_S1000x10_1_0_0_1_n_n.contr.Idx) :
    (dot_S1000x64_S64x10_S1000x10_1_0_0_1_n_n.lhsIdx i q 0).val = (i 0).val := by
  unfold DotDims.lhsIdx
  rw [dif_neg (show ¬(0 : Fin S1000x64.rank) ∈ dot_S1000x64_S64x10_S1000x10_1_0_0_1_n_n.lhsBatch by decide), dif_pos (show (0 : Fin S1000x64.rank) ∈ dot_S1000x64_S64x10_S1000x10_1_0_0_1_n_n.lhsNonContracting by decide)]
  rfl
theorem lhsO_1 (i : S1000x10.Idx) (q : dot_S1000x64_S64x10_S1000x10_1_0_0_1_n_n.contr.Idx) :
    (dot_S1000x64_S64x10_S1000x10_1_0_0_1_n_n.lhsIdx i q 1).val = (q ⟨0, by decide⟩).val :=
  dot_S1000x64_S64x10_S1000x10_1_0_0_1_n_n.lhsIdx_val_of_single rfl i q
theorem rhsO_0 (i : S1000x10.Idx) (q : dot_S1000x64_S64x10_S1000x10_1_0_0_1_n_n.contr.Idx) :
    (dot_S1000x64_S64x10_S1000x10_1_0_0_1_n_n.rhsIdx i q 0).val = (q ⟨0, by decide⟩).val :=
  dot_S1000x64_S64x10_S1000x10_1_0_0_1_n_n.rhsIdx_val_of_single rfl i q
theorem rhsO_1 (i : S1000x10.Idx) (q : dot_S1000x64_S64x10_S1000x10_1_0_0_1_n_n.contr.Idx) :
    (dot_S1000x64_S64x10_S1000x10_1_0_0_1_n_n.rhsIdx i q 1).val = (i 1).val := by
  unfold DotDims.rhsIdx
  rw [dif_neg (show ¬(1 : Fin S64x10.rank) ∈ dot_S1000x64_S64x10_S1000x10_1_0_0_1_n_n.rhsBatch by decide), dif_pos (show (1 : Fin S64x10.rank) ∈ dot_S1000x64_S64x10_S1000x10_1_0_0_1_n_n.rhsNonContracting by decide)]
  rfl

/-- The product into a zero accumulator, read at an index: the sum over the contracted axis. -/
theorem matmulO_at (l : FVec Ideal S1000x64 .f32) (r : FVec Ideal S64x10 .f32) (p : Fin 1000) (c : Fin 10) :
    matmul dot_S1000x64_S64x10_S1000x10_1_0_0_1_n_n (some .fp32) l r (constant S1000x10 .f32 0x00000000#32) (ix2 p c)
      = ∑ k : Fin 64, l (ix2 p k) * r (ix2 k c) := by
  show FloatOps.matmul dot_S1000x64_S64x10_S1000x10_1_0_0_1_n_n (some .fp32) l r (constant S1000x10 .f32 0x00000000#32) (ix2 p c) = _
  rw [Ideal.matmul_constant_zero_apply, ← Equiv.sum_comp (ValueIdx.contrEquiv1 dot_S1000x64_S64x10_S1000x10_1_0_0_1_n_n 64 rfl rfl).symm]
  refine Finset.sum_congr rfl fun k _ => ?_
  have hk := ValueIdx.contrEquiv1_symm_val dot_S1000x64_S64x10_S1000x10_1_0_0_1_n_n 64 rfl rfl k
  have el : dot_S1000x64_S64x10_S1000x10_1_0_0_1_n_n.lhsIdx (ix2 p c) ((ValueIdx.contrEquiv1 dot_S1000x64_S64x10_S1000x10_1_0_0_1_n_n 64 rfl rfl).symm k) = ix2 p k := funext fun a => Fin.ext (by
    match a with
    | ⟨0, _⟩ => exact lhsO_0 _ _
    | ⟨1, _⟩ => exact (lhsO_1 _ _).trans hk)
  have er : dot_S1000x64_S64x10_S1000x10_1_0_0_1_n_n.rhsIdx (ix2 p c) ((ValueIdx.contrEquiv1 dot_S1000x64_S64x10_S1000x10_1_0_0_1_n_n 64 rfl rfl).symm k) = ix2 k c := funext fun a => Fin.ext (by
    match a with
    | ⟨0, _⟩ => exact (rhsO_0 _ _).trans hk
    | ⟨1, _⟩ => exact rhsO_1 _ _)
  rw [el, er]

end Cert.Proof.KI.Val

end
-- ==== Proof.KI.RegionAtPay4c.lean ====
/-
  The dense region's gate payloads read at an index, over the extended reals: the 256 pre-activations of a block's
  row, the new cell state, the new hidden state before and after it is rectified, and the read-out.
-/
import proofs.«207992_g50208167690906_cont_8to1c4_731_36_alg».proof.Proof.Gen.KernelIdeal.Skeleton
import proofs.«207992_g50208167690906_cont_8to1c4_731_36_alg».proof.Proof.KI.RegionAtScalar
import proofs.«207992_g50208167690906_cont_8to1c4_731_36_alg».proof.Proof.KI.RegionAtForm
import proofs.«207992_g50208167690906_cont_8to1c4_731_36_alg».proof.Proof.KI.RegionAtPay4b

noncomputable section

namespace Cert.Proof.KI.Val

open Cert.KernelIdeal Cert.KernelIdeal.Gen
open Idealize.ShloMosaic Idealize.ShloMosaic.ValueIdx

/-- A logistic of a vector at an index is the logistic of the element. -/
theorem logistic_apply {s : Shape} {φ : FTy} (a : FVec Ideal s φ) (i : s.Idx) : logistic a i = Ideal.logistic (a i) := rfl

/-- A hyperbolic tangent of a vector at an index is that of the element. -/
theorem tanh_apply {s : Shape} {φ : FTy} (a : FVec Ideal s φ) (i : s.Idx) : tanh a i = Ideal.tanh (a i) := rfl

section Block

variable (v12 : FVec Ideal S1000x128 .f32) (v14 v16 : FVec Ideal S1000x64 .f32) (v27 : FVec Ideal S1000x128 .f32)
  (v34 : FVec Ideal S1000x64 .f32) (v36 v38 : FVec Ideal S128x256 .f32) (v42 v46 : FVec Ideal S64x256 .f32)
  (v50 : FVec Ideal S1x256 .f32) (v55 v61 v72 : FVec Ideal S1x64 .f32)

/-- The block's 256 gate pre-activations read at an index. -/
theorem k4_pay12_at (p : Fin 1000) (c : Fin 256) :
    k4_pay12 (F := Ideal) v12 v14 v27 v34 v36 (constant S1000x256 .f32 0x00000000#32) v38 v42 v46 v50 (ix2 p c)
      = preB v12 v14 v27 v34 v36 v38 v42 v46 v50 p c := by
  unfold k4_pay12 preB
  simp only [shapeCast_self, addf_apply, matmulX_at, matmulH_at, broadcastTo_1b_ab_apply]

/-- The block's new cell state read at an index. -/
theorem k4_pay13_at (p : Fin 1000) (j : Fin 64) :
    k4_pay13 (F := Ideal) v12 v14 v16 v27 v34 v36 (constant S1000x256 .f32 0x00000000#32) v38 v42 v46 v50 v55 v61 (ix2 p j)
      = cellB v12 v14 v16 v27 v34 v36 v38 v42 v46 v50 v55 v61 p j := by
  unfold k4_pay13 cellB
  have e0 := slice2_axis1_apply 0 (k4_pay12 (F := Ideal) v12 v14 v27 v34 v36 (constant S1000x256 .f32 0x00000000#32) v38 v42 v46 v50)
    slices_S1000x256_o0_0_S1000x64 p j (gcol 0 j) (by show 64 * 0 + j.val = 0 + j.val; omega)
  have e1 := slice2_axis1_apply 64 (k4_pay12 (F := Ideal) v12 v14 v27 v34 v36 (constant S1000x256 .f32 0x00000000#32) v38 v42 v46 v50)
    slices_S1000x256_o0_64_S1000x64 p j (gcol 1 j) (by show 64 * 1 + j.val = 64 + j.val; omega)
  have e2 := slice2_axis1_apply 128 (k4_pay12 (F := Ideal) v12 v14 v27 v34 v36 (constant S1000x256 .f32 0x00000000#32) v38 v42 v46 v50)
    slices_S1000x256_o0_128_S1000x64 p j (gcol 2 j) (by show 64 * 2 + j.val = 128 + j.val; omega)
  rw [k4_pay12_at] at e0 e1 e2
  simp only [addf_apply, mulf_apply, logistic_apply, tanh_apply, e0, e1, e2, broadcastTo_1b_ab_apply]

/-- The block's new hidden state, before it is rectified, read at an index. -/
theorem k4_pay14_at (p : Fin 1000) (j : Fin 64) :
    k4_pay14 (F := Ideal) v12 v14 v16 v27 v34 v36 (constant S1000x256 .f32 0x00000000#32) v38 v42 v46 v50 v55 v61 v72 (ix2 p j)
      = hidB v12 v14 v16 v27 v34 v36 v38 v42 v46 v50 v55 v61 v72 p j := by
  unfold k4_pay14 hidB
  have e3 := slice2_axis1_apply 192 (k4_pay12 (F := Ideal) v12 v14 v27 v34 v36 (constant S1000x256 .f32 0x00000000#32) v38 v42 v46 v50)
    slices_S1000x256_o0_192_S1000x64 p j (gcol 3 j) (by show 64 * 3 + j.val = 192 + j.val; omega)
  rw [k4_pay12_at] at e3
  simp only [addf_apply, mulf_apply, logistic_apply, tanh_apply, e3, broadcastTo_1b_ab_apply, k4_pay13_at]

end Block

/-- The rectified block read at an index. -/
theorem k4_pay1_at (v78 : FVec Ideal S1000x64 .f32) (p : Fin 1000) (j : Fin 64) :
    k4_pay1 (F := Ideal) v78 (Scalar.ofBits .f32 0x00000000#32) (ix2 p j) = max (v78 (ix2 p j)) 0 := by
  unfold k4_pay1
  show max (v78 (ix2 p j)) (Ideal.ofBits .f32 0x00000000#32) = _
  rw [zero_f32]

/-- The block's read-out read at an index. -/
theorem k4_pay2_at (v78 : FVec Ideal S1000x64 .f32) (v81 : FVec Ideal S64x10 .f32) (v83 : FVec Ideal S1x10 .f32)
    (p : Fin 1000) (k : Fin 10) :
    k4_pay2 (F := Ideal) v78 (Scalar.ofBits .f32 0x00000000#32) v81 v83 (ix2 p k)
      = (∑ j : Fin 64, max (v78 (ix2 p j)) 0 * v81 (ix2 j k)) + v83 (ix2 (0 : Fin 1) k) := by
  unfold k4_pay2
  simp only [shapeCast_self, addf_apply, matmulO_at, broadcastTo_1b_ab_apply, k4_pay1_at]

end Cert.Proof.KI.Val

end
-- ==== Proof.KI.RegionAt.lean ====
/-
  The three TensorCore regions' result arrays read element by element, over the extended reals: a blockwise array
  read at row `n` is block `n / 1000` read at row `n % 1000`, the block's payload is read at that index, and every
  input block read there is the input array at row `n`.
-/
import proofs.«207992_g50208167690906_cont_8to1c4_731_36_alg».proof.Proof.KI.RegionVal
import proofs.«207992_g50208167690906_cont_8to1c4_731_36_alg».proof.Proof.KI.RegionAtPay1
import proofs.«207992_g50208167690906_cont_8to1c4_731_36_alg».proof.Proof.KI.RegionAtPay4a
import proofs.«207992_g50208167690906_cont_8to1c4_731_36_alg».proof.Proof.KI.RegionAtPay4c

noncomputable section

namespace Cert.Proof.KI.Val

open Cert.KernelIdeal Cert.KernelIdeal.Gen Cert.Proof.KI.Region
open Idealize.ShloMosaic Idealize.ShloMosaic.ValueIdx

/-! ## From blocks to the array -/

/-- A blockwise array read at `(n, q)`: block `n / R` read at `(n % R, q)`. -/
theorem blockwise_at {β : Type} {N C : Nat} (R : Nat) (hR : 0 < R) (hN : ∀ r, r < N → r / R * R + R ≤ N)
    (f : (t : Nat) → t * R + R ≤ N → (⟨2, ![R, C]⟩ : Shape).Idx → β) (n : Fin N) (q : Fin C) :
    blockwise R hR hN f (ix2 n q) = f (n.val / R) (hN _ n.isLt) (ix2 ⟨n.val % R, Nat.mod_lt _ hR⟩ q) := by
  have e : inBlk R hR (ix2 n q) = ix2 ⟨n.val % R, Nat.mod_lt _ hR⟩ q := by
    funext a
    match a with
    | ⟨0, _⟩ => rfl
    | ⟨1, _⟩ => rfl
  exact congrArg (f (n.val / R) (hN _ n.isLt)) e

/-- Row block `n / 1000` read at row `n % 1000` is row `n`. -/
theorem rowBlk_divmod_at {α : Type} {C : Nat} (x : (⟨2, ![10000, C]⟩ : Shape).Idx → α) (n : Fin 10000) (q : Fin C)
    (h : n.val / 1000 * 1000 + 1000 ≤ 10000) (h' : n.val % 1000 < 1000) :
    rowBlk 1000 (n.val / 1000) h x (ix2 ⟨n.val % 1000, h'⟩ q) = x (ix2 n q) := by
  unfold rowBlk
  refine congrArg x (funext fun a => Fin.ext ?_)
  match a with
  | ⟨0, _⟩ => show n.val / 1000 * 1000 + 1 * (n.val % 1000) = n.val; omega
  | ⟨1, _⟩ => show 0 + 1 * q.val = q.val; omega

/-! ## The scaling region -/

/-- The scaled features, element by element: the degree factor of the row times the feature. -/
theorem scale0_at (x : FVec Ideal S10000x128 .f32) (deg : FVec Ideal S10000x1 .f32) (n : Fin 10000) (i : Fin 128) :
    scale0 x deg (ix2 n i) = dK (deg (ix2 n (0 : Fin 1))) * x (ix2 n i) := by
  unfold scale0
  rw [blockwise_at, k1_pay2_at, rowBlk_divmod_at, rowBlk_divmod_at]

/-- The scaled hidden state, element by element. -/
theorem scale1_at (hs : FVec Ideal S10000x64 .f32) (deg : FVec Ideal S10000x1 .f32) (n : Fin 10000) (i : Fin 64) :
    scale1 hs deg (ix2 n i) = dK (deg (ix2 n (0 : Fin 1))) * hs (ix2 n i) := by
  unfold scale1
  rw [blockwise_at, k1_pay3_at, rowBlk_divmod_at, rowBlk_divmod_at]

/-! ## The dense region -/

section Dense

variable (x : FVec Ideal S10000x128 .f32) (hs cs : FVec Ideal S10000x64 .f32) (agg0 : FVec Ideal S10000x128 .f32)
  (agg1 : FVec Ideal S10000x64 .f32) (deg : FVec Ideal S10000x1 .f32) (wx0 wx1 : FVec Ideal S128x256 .f32)
  (wh0 wh1 : FVec Ideal S64x256 .f32) (btot : FVec Ideal S1x256 .f32) (wp : FVec Ideal S3x64 .f32)
  (wout : FVec Ideal S64x10 .f32) (bout : FVec Ideal S1x10 .f32)

/-- The peephole rows as the body loads them, read at a column. -/
theorem wpRow0_at (j : Fin 64) : wpRow0 wp (ix2 (0 : Fin 1) j) = wp (ix2 (0 : Fin 3) j) := by
  unfold wpRow0
  refine congrArg wp (funext fun a => Fin.ext ?_)
  match a with
  | ⟨0, _⟩ => rfl
  | ⟨1, _⟩ => show 0 + 1 * j.val = j.val; omega
theorem wpRow1_at (j : Fin 64) : wpRow1 wp (ix2 (0 : Fin 1) j) = wp (ix2 (1 : Fin 3) j) := by
  unfold wpRow1
  refine congrArg wp (funext fun a => Fin.ext ?_)
  match a with
  | ⟨0, _⟩ => rfl
  | ⟨1, _⟩ => show 0 + 1 * j.val = j.val; omega
theorem wpRow2_at (j : Fin 64) : wpRow2 wp (ix2 (0 : Fin 1) j) = wp (ix2 (2 : Fin 3) j) := by
  unfold wpRow2
  refine congrArg wp (funext fun a => Fin.ext ?_)
  match a with
  | ⟨0, _⟩ => rfl
  | ⟨1, _⟩ => show 0 + 1 * j.val = j.val; omega

/-- The pre-activations of row `n % 1000` of block `n / 1000` are those of node `n`. -/
theorem preB_at (g : Fin 4) (n : Fin 10000) (j : Fin 64) (h : n.val / 1000 * 1000 + 1000 ≤ 10000) (h' : n.val % 1000 < 1000) :
    preB (rowBlk 1000 (n.val / 1000) h x) (k4_pay7 (F := Ideal) (rowBlk 1000 (n.val / 1000) h hs))
        (k4_pay9 (F := Ideal) (rowBlk 1000 (n.val / 1000) h deg) (rowBlk 1000 (n.val / 1000) h x) (rowBlk 1000 (n.val / 1000) h agg0))
        (k4_pay10 (F := Ideal) (rowBlk 1000 (n.val / 1000) h deg) (rowBlk 1000 (n.val / 1000) h hs) (rowBlk 1000 (n.val / 1000) h agg1))
        (k4_pay11 (F := Ideal) wx0) wx1 wh0 wh1 btot ⟨n.val % 1000, h'⟩ (gcol g j)
      = preK x hs agg0 agg1 deg wx0 wx1 wh0 wh1 btot g n j := by
  unfold preB preK lapK
  simp only [k4_pay7_eq, k4_pay11_eq, k4_pay9_at, k4_pay10_at, rowBlk_divmod_at]

/-- The new cell state of row `n % 1000` of block `n / 1000` is that of node `n`. -/
theorem cellB_at (n : Fin 10000) (j : Fin 64) (h : n.val / 1000 * 1000 + 1000 ≤ 10000) (h' : n.val % 1000 < 1000) :
    cellB (rowBlk 1000 (n.val / 1000) h x) (k4_pay7 (F := Ideal) (rowBlk 1000 (n.val / 1000) h hs)) (k4_pay8 (F := Ideal) (rowBlk 1000 (n.val / 1000) h cs))
        (k4_pay9 (F := Ideal) (rowBlk 1000 (n.val / 1000) h deg) (rowBlk 1000 (n.val / 1000) h x) (rowBlk 1000 (n.val / 1000) h agg0))
        (k4_pay10 (F := Ideal) (rowBlk 1000 (n.val / 1000) h deg) (rowBlk 1000 (n.val / 1000) h hs) (rowBlk 1000 (n.val / 1000) h agg1))
        (k4_pay11 (F := Ideal) wx0) wx1 wh0 wh1 btot (wpRow0 wp) (wpRow1 wp) ⟨n.val % 1000, h'⟩ j
      = cellK x hs cs agg0 agg1 deg wx0 wx1 wh0 wh1 btot wp n j := by
  unfold cellB cellK forgetK inK candK
  rw [preB_at x hs agg0 agg1 deg wx0 wx1 wh0 wh1 btot 1 n j h h', preB_at x hs agg0 agg1 deg wx0 wx1 wh0 wh1 btot 0 n j h h',
    preB_at x hs agg0 agg1 deg wx0 wx1 wh0 wh1 btot 2 n j h h', k4_pay8_eq, rowBlk_divmod_at, wpRow0_at, wpRow1_at]

/-- The new cell state, element by element. -/
theorem dense2_at (n : Fin 10000) (j : Fin 64) :
    dense2 x hs cs agg0 agg1 deg wx0 wx1 wh0 wh1 btot wp (ix2 n j)
      = cellK x hs cs agg0 agg1 deg wx0 wx1 wh0 wh1 btot wp n j := by
  unfold dense2
  rw [blockwise_at]
  unfold denseC
  rw [k4_pay13_at, cellB_at]

/-- The hidden state before it is rectified, of row `n % 1000` of block `n / 1000`. -/
theorem denseH_at (n : Fin 10000) (j : Fin 64) (h : n.val / 1000 * 1000 + 1000 ≤ 10000) (h' : n.val % 1000 < 1000) :
    denseH x hs cs agg0 agg1 deg wx0 wx1 wh0 wh1 btot wp (n.val / 1000) h (ix2 ⟨n.val % 1000, h'⟩ j)
      = outK x hs cs agg0 agg1 deg wx0 wx1 wh0 wh1 btot wp n j
        * Ideal.tanh (cellK x hs cs agg0 agg1 deg wx0 wx1 wh0 wh1 btot wp n j) := by
  unfold denseH
  rw [k4_pay14_at]
  unfold hidB outK
  rw [cellB_at x hs cs agg0 agg1 deg wx0 wx1 wh0 wh1 btot wp n j h h', preB_at x hs agg0 agg1 deg wx0 wx1 wh0 wh1 btot 3 n j h h',
    wpRow2_at]

/-- The new hidden state, element by element. -/
theorem dense1_at (n : Fin 10000) (j : Fin 64) :
    dense1 x hs cs agg0 agg1 deg wx0 wx1 wh0 wh1 btot wp (ix2 n j)
      = hiddenK x hs cs agg0 agg1 deg wx0 wx1 wh0 wh1 btot wp n j := by
  unfold dense1
  rw [blockwise_at, k4_pay1_at, denseH_at]
  rfl

/-- The read-out, element by element. -/
theorem dense0_at (n : Fin 10000) (k : Fin 10) :
    dense0 x hs cs agg0 agg1 deg wx0 wx1 wh0 wh1 btot wp wout bout (ix2 n k)
      = outputK x hs cs agg0 agg1 deg wx0 wx1 wh0 wh1 btot wp wout bout n k := by
  unfold dense0
  rw [blockwise_at, k4_pay2_at]
  unfold outputK hiddenK
  simp only [denseH_at]

end Dense

end Cert.Proof.KI.Val

end
-- ==== Proof.KI.RegionAtSpec.lean ====
/-
  The dense region's element-by-element forms are the specification's new cell state, rectified hidden state and
  read-out, once each input array is read as the specification's quantity it holds: the degree factors become the
  normalisation and the Laplacian's diagonal, the four sums the two convolutions at both Chebyshev orders, the one
  bias row the three bias tables added.
-/
import proofs.«207992_g50208167690906_cont_8to1c4_731_36_alg».proof.Proof.Spec
import proofs.«207992_g50208167690906_cont_8to1c4_731_36_alg».proof.Proof.KI.RegionAtForm

noncomputable section

namespace Cert.Proof.KI.Val

open Idealize.ShloMosaic Idealize.ShloMosaic.ValueIdx
open Cert.Proof

section

variable (A : Spec.Args)
  (x : (⟨2, ![10000, 128]⟩ : Shape).Idx → EReal) (hs cs : (⟨2, ![10000, 64]⟩ : Shape).Idx → EReal)
  (agg0 : (⟨2, ![10000, 128]⟩ : Shape).Idx → EReal) (agg1 : (⟨2, ![10000, 64]⟩ : Shape).Idx → EReal)
  (deg : (⟨2, ![10000, 1]⟩ : Shape).Idx → EReal) (wx0 wx1 : (⟨2, ![128, 256]⟩ : Shape).Idx → EReal)
  (wh0 wh1 : (⟨2, ![64, 256]⟩ : Shape).Idx → EReal) (btot : (⟨2, ![1, 256]⟩ : Shape).Idx → EReal)
  (wp : (⟨2, ![3, 64]⟩ : Shape).Idx → EReal) (wout : (⟨2, ![64, 10]⟩ : Shape).Idx → EReal)
  (bout : (⟨2, ![1, 10]⟩ : Shape).Idx → EReal)

/-- The dense region's twelve input arrays read, element by element, as the specification's quantities: the
    features and the two states, the degree and the two neighbour sums, the four weight matrices with gate `g`'s
    columns at `64 g + j`, the bias row as the sum of the three bias tables, and the peephole weights. -/
structure Reads : Prop where
  x_eq : ∀ n i, x (ix2 n i) = A.x n i
  h_eq : ∀ n i, hs (ix2 n i) = A.h n i
  c_eq : ∀ n j, cs (ix2 n j) = A.c n j
  deg_eq : ∀ n, deg (ix2 n (0 : Fin 1)) = Spec.deg A n
  agg0_eq : ∀ n i, agg0 (ix2 n i) = Spec.agg A A.x n i
  agg1_eq : ∀ n i, agg1 (ix2 n i) = Spec.agg A A.h n i
  wx0_eq : ∀ g i j, wx0 (ix2 i (gcol g j)) = A.wx g 0 i j
  wx1_eq : ∀ g i j, wx1 (ix2 i (gcol g j)) = A.wx g 1 i j
  wh0_eq : ∀ g i j, wh0 (ix2 i (gcol g j)) = A.wh g 0 i j
  wh1_eq : ∀ g i j, wh1 (ix2 i (gcol g j)) = A.wh g 1 i j
  b_eq : ∀ g j, btot (ix2 (0 : Fin 1) (gcol g j)) = (A.bx g j + A.bh g j) + A.bg g j
  wp_eq : ∀ p j, wp (ix2 p j) = A.wp p j

variable {A x hs cs agg0 agg1 deg wx0 wx1 wh0 wh1 btot wp}
variable (R : Reads A x hs cs agg0 agg1 deg wx0 wx1 wh0 wh1 btot wp)
include R

/-- The rescaled Laplacian of the features is the specification's. -/
theorem lapK_x_eq (n : Fin 10000) (i : Fin 128) : lapK deg x agg0 n i = Spec.lhat A A.x n i := by
  unfold lapK Spec.lhat Spec.sgn Spec.dinv sK dK
  rw [R.deg_eq, R.x_eq, R.agg0_eq]

/-- The rescaled Laplacian of the hidden state is the specification's. -/
theorem lapK_h_eq (n : Fin 10000) (i : Fin 64) : lapK deg hs agg1 n i = Spec.lhat A A.h n i := by
  unfold lapK Spec.lhat Spec.sgn Spec.dinv sK dK
  rw [R.deg_eq, R.h_eq, R.agg1_eq]

/-- A gate's pre-activation is the specification's. -/
theorem preK_eq (g : Fin 4) (n : Fin 10000) (j : Fin 64) :
    preK x hs agg0 agg1 deg wx0 wx1 wh0 wh1 btot g n j = Spec.pre A g n j := by
  unfold preK Spec.pre
  simp only [lapK_x_eq R, lapK_h_eq R, R.x_eq, R.h_eq, R.wx0_eq, R.wx1_eq, R.wh0_eq, R.wh1_eq, R.b_eq]

/-- The new cell state is the specification's. -/
theorem cellK_eq (n : Fin 10000) (j : Fin 64) :
    cellK x hs cs agg0 agg1 deg wx0 wx1 wh0 wh1 btot wp n j = Spec.cellNew A n j := by
  unfold cellK forgetK inK candK Spec.cellNew Spec.forgetGate Spec.inGate Spec.candidate
  rw [preK_eq R, preK_eq R, preK_eq R, R.wp_eq, R.wp_eq, R.c_eq]

/-- The rectified hidden state is the specification's. -/
theorem hiddenK_eq (n : Fin 10000) (j : Fin 64) :
    hiddenK x hs cs agg0 agg1 deg wx0 wx1 wh0 wh1 btot wp n j = Spec.hidden A n j := by
  unfold hiddenK outK Spec.hidden Spec.outGate
  rw [cellK_eq R, preK_eq R, R.wp_eq]

/-- The read-out is the specification's. -/
theorem outputK_eq (hwo : ∀ j k, wout (ix2 j k) = A.wo j k) (hbo : ∀ k, bout (ix2 (0 : Fin 1) k) = A.bo k)
    (n : Fin 10000) (k : Fin 10) :
    outputK x hs cs agg0 agg1 deg wx0 wx1 wh0 wh1 btot wp wout bout n k = Spec.out A n k := by
  unfold outputK Spec.out
  simp only [hiddenK_eq R, hwo, hbo]

end

end Cert.Proof.KI.Val

end
-- ==== Proof.KI.ChainSpec.lean ====
/-
  The kernel program's two results are the specification's. Each array the dense region reads holds, element by
  element, the specification's quantity: the features and the two states as launched; the degree column the
  in-degree (the 32 tiles' histograms summed count the edges whose first endpoint is the node); the two
  aggregates the neighbour sums of the normalised features and hidden state (the edge call's row for a feature
  gathers that feature's scaled column at each edge's second endpoint and adds it at the first); the weight
  matrices, the bias row and the peephole rows the weight tensors' slabs. The dense region's element-by-element
  forms then are the specification's new cell state, rectified hidden state and read-out, and @main returns the
  read-out and the two states stacked. The only part of the admitted domain the values use is that every endpoint
  word is below 10000.
-/
import proofs.«207992_g50208167690906_cont_8to1c4_731_36_alg».proof.Proof.KI.ChainAt4
import proofs.«207992_g50208167690906_cont_8to1c4_731_36_alg».proof.Proof.KI.HistoSum
import proofs.«207992_g50208167690906_cont_8to1c4_731_36_alg».proof.Proof.KI.EdgeSpec
import proofs.«207992_g50208167690906_cont_8to1c4_731_36_alg».proof.Proof.KI.RegionAt
import proofs.«207992_g50208167690906_cont_8to1c4_731_36_alg».proof.Proof.KI.RegionAtSpec

noncomputable section

namespace Cert.Proof.KI.Val

open Cert.KernelIdeal Cert.KernelIdeal.Gen
open Idealize.ShloMosaic Idealize.SL.Sem
open Idealize.ShloMosaic.StableHlo
open Idealize.ShloMosaic.ValueIdx
open Cert.Proof.KI Cert.Proof.KI.MainOps
open scoped BigOperators

open Cert.Proof Cert.Proof.KI.Region

variable (m : (ℓ : Loc nD τ sig) → Buf (Elt Ideal) ℓ) (d : Dev nD)

/-- The specification's arguments, read off the eleven argument arrays as launched on device `d`. -/
abbrev specArgs : Spec.Args :=
  Spec.Args.ofArrays (m (d, dr main_arg0)) (m (d, dr main_arg1)) (m (d, dr main_arg2)) (m (d, dr main_arg3))
    (m (d, dr main_arg4)) (m (d, dr main_arg5)) (m (d, dr main_arg6)) (m (d, dr main_arg7)) (m (d, dr main_arg8))
    (m (d, dr main_arg9)) (m (d, dr main_arg10))

/-! ## The endpoints -/

/-- An edge's first endpoint is the node its row word names. -/
theorem src_eq (e : Fin 320000) : (specArgs m d).src e = Spec.node (rowWords m d (ix1 e)) := by
  rw [rowWords_apply]; rfl

/-- An edge's second endpoint is the node its column word names. -/
theorem dst_eq (e : Fin 320000) : (specArgs m d).dst e = Spec.node (colWords m d (ix1 e)) := by
  rw [colWords_apply]; rfl

variable (hlt : ∀ i, (edgeArr m d i).toNat < 10000)
include hlt

theorem rowWords_lt (e : Histo.SR.Idx) : (rowWords m d e).toNat < 10000 := by
  obtain ⟨e0, rfl⟩ : ∃ e0 : Fin 320000, e = ix1 e0 := ⟨e 0, eq_ix1 e⟩
  rw [rowWords_apply]; exact hlt _

theorem colWords_lt (e : Histo.SR.Idx) : (colWords m d e).toNat < 10000 := by
  obtain ⟨e0, rfl⟩ : ∃ e0 : Fin 320000, e = ix1 e0 := ⟨e 0, eq_ix1 e⟩
  rw [colWords_apply]; exact hlt _

variable (hr : Histo.RowOK (rowWords m d)) (hpk : Edge.PackedOK (packedWords m d hr))

/-! ## The degree column and the scaled columns -/

/-- The degree column holds the in-degree. -/
theorem degArr_spec (n : Fin 10000) (u : Fin 1) : degArr m d hr (ix2 n u) = Spec.deg (specArgs m d) n := by
  rw [degArr_apply]
  exact histArr_sum_eq_deg (specArgs m d) (rowWords m d) hr (src_eq m d) (rowWords_lt m d hlt) n

/-- The scaled features: the normalisation times the feature. -/
theorem sx_spec (n : Fin 10000) (i : Fin 128) :
    sx m d hr (ix2 n i) = Spec.dinv (specArgs m d) n * (specArgs m d).x n i := by
  show scale0 (xArr m d) (degArr m d hr) (ix2 n i) = _
  rw [scale0_at, degArr_spec m d hlt hr]
  rfl

/-- The scaled hidden state likewise. -/
theorem sh_spec (n : Fin 10000) (j : Fin 64) :
    sh m d hr (ix2 n j) = Spec.dinv (specArgs m d) n * (specArgs m d).h n j := by
  show scale1 (hsArr m d) (degArr m d hr) (ix2 n j) = _
  rw [scale1_at, degArr_spec m d hlt hr, hsArr_apply]
  rfl

/-! ## The two aggregates -/

theorem packed_eq (e : Edge.SP.Idx) : packedWords m d hr e = rowWords m d e * 16384#32 + colWords m d e := by
  obtain ⟨e0, rfl⟩ : ∃ e0 : Fin 320000, e = ix1 e0 := ⟨e 0, eq_ix1 e⟩
  exact packedWords_apply m d hr e0

/-- The first aggregate is the neighbour sum of the normalised features. -/
theorem agg0Arr_spec (n : Fin 10000) (i : Fin 128) :
    agg0Arr m d hr hpk (ix2 n i) = Spec.agg (specArgs m d) (specArgs m d).x n i := by
  rw [agg0Arr_apply]
  exact aggRow_eq_agg (specArgs m d) (packedWords m d hr) (rowWords m d) (colWords m d) hpk
    (rowWords_lt m d hlt) (colWords_lt m d hlt) (packed_eq m d hlt hr) (src_eq m d) (dst_eq m d)
    (specArgs m d).x i _ (fun q => (featRow_left_apply m d hr i q).trans (sx_spec m d hlt hr q i)) n

/-- The second aggregate is the neighbour sum of the normalised hidden state. -/
theorem agg1Arr_spec (n : Fin 10000) (j : Fin 64) :
    agg1Arr m d hr hpk (ix2 n j) = Spec.agg (specArgs m d) (specArgs m d).h n j := by
  rw [agg1Arr_apply]
  exact aggRow_eq_agg (specArgs m d) (packedWords m d hr) (rowWords m d) (colWords m d) hpk
    (rowWords_lt m d hlt) (colWords_lt m d hlt) (packed_eq m d hlt hr) (src_eq m d) (dst_eq m d)
    (specArgs m d).h j _ (fun q => (featRow_right_apply m d hr j q).trans (sh_spec m d hlt hr q j)) n

/-! ## The dense region's inputs, all twelve -/

theorem reads :
    Reads (specArgs m d) (xArr m d) (hsArr m d) (csArr m d) (agg0Arr m d hr hpk) (agg1Arr m d hr hpk) (degArr m d hr)
      (wx0Arr m d hr hpk) (wx1Arr m d hr hpk) (wh0Arr m d hr hpk) (wh1Arr m d hr hpk) (btotArr m d hr hpk) (wpArr m d) where
  x_eq _ _ := rfl
  h_eq n i := hsArr_apply m d n i
  c_eq n j := csArr_apply m d n j
  deg_eq n := degArr_spec m d hlt hr n 0
  agg0_eq := agg0Arr_spec m d hlt hr hpk
  agg1_eq := agg1Arr_spec m d hlt hr hpk
  wx0_eq g i j := wx0Arr_apply m d hr hpk i g j (gcol g j) rfl
  wx1_eq g i j := wx1Arr_apply m d hr hpk i g j (gcol g j) rfl
  wh0_eq g i j := wh0Arr_apply m d hr hpk i g j (gcol g j) rfl
  wh1_eq g i j := wh1Arr_apply m d hr hpk i g j (gcol g j) rfl
  b_eq g j := btotArr_apply m d hr hpk 0 g j (gcol g j) rfl
  wp_eq _ _ := rfl

/-! ## The two results -/

/-- The first result is the specification's read-out. -/
theorem chain_out0 : W11 m d hr hpk (dr main_v46_0) = Spec.outArr (specArgs m d) := by
  rw [W11_v46_0]
  funext idx
  obtain ⟨n, k, rfl⟩ : ∃ n k, idx = ix2 n k := ⟨idx 0, idx 1, eq_ix2 idx⟩
  exact (dense0_at _ _ _ _ _ _ _ _ _ _ _ _ _ _ n k).trans
    (outputK_eq (woArr m d) (boutArr m d hr hpk) (reads m d hlt hr hpk) (fun _ _ => rfl) (fun k' => boutArr_apply m d hr hpk 0 k') n k)

/-- The second result is the specification's rectified hidden state stacked on its new cell state. -/
theorem chain_out1 : W11 m d hr hpk (dr main_v49) = Spec.stateArr (specArgs m d) := by
  funext idx
  obtain ⟨s, n, j, rfl⟩ : ∃ s n j, idx = ix3 s n j := ⟨idx 0, idx 1, idx 2, eq_ix3 idx⟩
  rw [W11_v49_apply]
  show _ = if s = 0 then Spec.hidden (specArgs m d) n j else Spec.cellNew (specArgs m d) n j
  by_cases hs : s = 0
  · rw [if_pos hs, if_pos hs]
    exact (dense1_at _ _ _ _ _ _ _ _ _ _ _ _ n j).trans (hiddenK_eq (reads m d hlt hr hpk) n j)
  · rw [if_neg hs, if_neg hs]
    exact (dense2_at _ _ _ _ _ _ _ _ _ _ _ _ n j).trans (cellK_eq (reads m d hlt hr hpk) n j)

end Cert.Proof.KI.Val

end
-- ==== Proof.KI.ClaimIdeal.lean ====
/-
  At the ideal instance the run's two results are the specification's arrays of the arguments as launched: the last
  valuation at the two result arrays is the specification's read-out and stacked states, and the endpoint words'
  range, which is all of the admitted domain the values use, follows from the input-domain predicate.
-/
import proofs.«207992_g50208167690906_cont_8to1c4_731_36_alg».proof.Proof.KI.Claim
import proofs.«207992_g50208167690906_cont_8to1c4_731_36_alg».proof.Proof.KI.ChainSpec
import proofs.«207992_g50208167690906_cont_8to1c4_731_36_alg».proof.Proof.RefLapRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.Pre_input_domain.Facts]

/-- On an admitted input, at the ideal instance, the program runs, its two results end at the specification's arrays
    of the launch arguments, and its arguments end unchanged. -/
theorem value_of_pre
    (hR0 : ∀ P : (K (F := Ideal)).Pay (nD := nD) (Val := Elt Ideal) (Name := ℕ) (U := UU), RegionSpec P 0 R0 scaleOut)
    (hR1 : ∀ P : (K (F := Ideal)).Pay (nD := nD) (Val := Elt Ideal) (Name := ℕ) (U := UU), RegionSpec P 1 R1 packOut)
    (hR2 : ∀ P : (K (F := Ideal)).Pay (nD := nD) (Val := Elt Ideal) (Name := ℕ) (U := UU), RegionSpec P 2 R2 denseOut)
    (m : (ℓ : Loc nD τ sig) → Buf (Elt Ideal) ℓ) (ρ : Dev nD → PrngReg)
    (hpre : ∀ c : Dev nD, (Cert.Pre_input_domain.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    θ_run (Cert.KernelIdeal.defs (F := Ideal)) (Cert.KernelIdeal.threads (F := Ideal)) ⟨m, fun _ => 0, ρ⟩ (fun r => ∀ c : Dev nD,
      r.2.mem ((c.tc : Thread nD τ).loc main_v46_0) = Spec.outArr (Val.specArgs m c)
      ∧ r.2.mem ((c.tc : Thread nD τ).loc main_v49) = Spec.stateArr (Val.specArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  have hlt : ∀ c : Dev nD, ∀ i, (Val.edgeArr m c i).toNat < 10000 := fun c =>
    Cert.Proof.RefSide.range_of_pre (F := Ideal) _ _ _ _ _ _ _ _ _ _ _ (hpre c)
  (θ_run Cert.KernelIdeal.defs _ _).mono
    (fun _ h c =>
      ⟨((QC_results m _ h c).1).trans (Val.chain_out0 m c (hlt c) _ _),
        ((QC_results m _ h c).2.1).trans (Val.chain_out1 m c (hlt c) _ _),
        args_of_QC m _ h c⟩)
    (run_of_pre hR0 hR1 hR2 m ρ hpre)

end Cert.Proof.KI

end
-- ==== Proof.KB.Base.lean ====
/-
  The program as the SparseCore launch theorem sees it: its label table (the kernels' labels under the three
  TensorCore pipelines' and the two SparseCore calls' dispatch), the SparseCore configuration, the body table, the
  variants, the configuration's side facts, and the carrier of the ghost state (the handshakes' rounds beside the
  local transfers' counters). Generic in the float instance.
-/
import proofs.«207992_g50208167690906_cont_8to1c4_731_36_alg».proof.Kernel
import proofs.«207992_g50208167690906_cont_8to1c4_731_36_alg».proof.Proof.Gen.Kernel
import proofs.«207992_g50208167690906_cont_8to1c4_731_36_alg».proof.Proof.Gen.Kernel.Skeleton
import proofs.«207992_g50208167690906_cont_8to1c4_731_36_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' under the three pipelines' and the SparseCore calls' dispatch. -/
abbrev ΛP : Labels := Pipeline.Sig Λ₀ (Fin 3) fun p => (pcfgs (F := F) p).Adm
/-- The two SparseCore calls: the histogram, then the edge aggregation. -/
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by
  match q with | 0 => rfl | 1 => rfl
theorem nSub_eq (q : Fin 2) : (K (F := F)).nSub q = 16 := by
  match q with | 0 => rfl | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ
/-- The pipelines' staging cells' rounds library: one copy for the three TensorCore calls. -/
abbrev UK : Type := URounds (GSem nD τ sig) Unit
/-- The ghost state's carrier: the handshakes' rounds, the staging cells' rounds, the local transfers' counters. -/
abbrev UU : Type := UH × (UK × Counters)

/-- The handshakes' component, embedded. -/
abbrev EH : Emb UH (MT nD τ sig (HIx 2) (Elt F) ℕ UU ℕ) := embL
/-- The staging cells' component, embedded. -/
def EP : Emb UK (MT nD τ sig (HIx 2) (Elt F) ℕ UU ℕ) := (Emb.inl : Emb UK (UK × Counters)).trans embR

instance EP_landsIn : (EP : Emb UK (MT nD τ sig (HIx 2) (Elt F) ℕ UU ℕ)).LandsIn (upEmb : UEmb _ (MT nD τ sig (HIx 2) (Elt F) ℕ UU ℕ)) := by
  unfold EP embR; infer_instance

end Cert.Proof.KB

end
-- ==== Proof.KB.MainOps.lean ====
import proofs.«207992_g50208167690906_cont_8to1c4_731_36_alg».proof.Kernel
import proofs.«207992_g50208167690906_cont_8to1c4_731_36_alg».proof.Proof.Gen.Kernel
import Idealize.ShloMosaic.Lib.StableHlo.Run

noncomputable section

namespace Cert.Proof.KB.MainOps

open Cert.Kernel Cert.Kernel.Gen Idealize.ShloMosaic Idealize.ShloMosaic.TcCoe Idealize.SL.Sem Idealize.ShloMosaic.StableHlo

variable {F : FTy → Type} [FloatOps F]

/-- Host stretch 0 of @main: 8 operations. -/
abbrev ops0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.unary main_arg2 main_v4 ((extractStridedSlice S1x10000x64 ![0, 0, 0] · slices_S2x10000x64_S1x10000x64_0_0_0) : (⟨S2x10000x64, .f32⟩ : BufTy).Contents (Elt F) → (⟨S1x10000x64, .f32⟩ : BufTy).Contents (Elt F)),
    StableHlo.reshape main_v4 main_v5 rfl shapeCasts_S1x10000x64_S10000x64,
    StableHlo.unary main_arg2 main_v6 ((extractStridedSlice S1x10000x64 ![1, 0, 0] · slices_S2x10000x64_S1x10000x64_1_0_0) : (⟨S2x10000x64, .f32⟩ : BufTy).Contents (Elt F) → (⟨S1x10000x64, .f32⟩ : BufTy).Contents (Elt F)),
    StableHlo.reshape main_v6 main_v7 rfl shapeCasts_S1x10000x64_S10000x64 ]

/-- Host stretch 1 of @main: 5 operations. -/
abbrev ops1 : List (HloOp τ sig (Elt F)) :=
  [ StableHlo.reshape main_v8 main_v9 rfl shapeCasts_S32x1x10240_S32x10240,
    StableHlo.nullary main_cst (constant S_ .f32 0x00000000#32),
    StableHlo.binary main_v9 main_cst main_v10 ((fun x v => Host.reduceAdd x v reducesTo_S32x10240_S10240_d0 h_S_) : (⟨S32x10240, .f32⟩ : BufTy).Contents (Elt F) → (⟨S_, .f32⟩ : BufTy).Contents (Elt F) → (⟨S10240, .f32⟩ : BufTy).Contents (Elt F)),
    StableHlo.unary main_v10 main_v11 ((extractStridedSlice S10000 ![0] · slices_S10240_S10000_0) : (⟨S10240, .f32⟩ : BufTy).Contents (Elt F) → (⟨S10000, .f32⟩ : BufTy).Contents (Elt F)),
    StableHlo.unary main_v11 main_v12 (broadcastInDim S10000x1 ![0] bcast_S10000_S10000x1_0 : (⟨S10000, .f32⟩ : BufTy).Contents (Elt F) → (⟨S10000x1, .f32⟩ : BufTy).Contents (Elt F)) ]

/-- Host stretch 2 of @main: 5 operations. -/
abbrev ops2 : List (HloOp τ sig (Elt F)) :=
  [ StableHlo.binary main_v13_0 main_v13_1 main_v14 ((fun a b => concatenate S10000x192 1 [⟨S10000x128, a⟩, ⟨S10000x64, b⟩] concatenates_S10000x128_S10000x64_S10000x192_d1) : (⟨S10000x128, .f32⟩ : BufTy).Contents (Elt F) → (⟨S10000x64, .f32⟩ : BufTy).Contents (Elt F) → (⟨S10000x192, .f32⟩ : BufTy).Contents (Elt F)),
    StableHlo.unary main_v14 main_v15 ((transpose S192x10000 [1, 0] · transposes_S10000x192_S192x10000_1_0) : (⟨S10000x192, .f32⟩ : BufTy).Contents (Elt F) → (⟨S192x10000, .f32⟩ : BufTy).Contents (Elt F)),
    StableHlo.reshape main_v15 main_v16 rfl shapeCasts_S192x10000_S192x1x10000,
    StableHlo.reshape main_v1 main_v17 rfl shapeCasts_S320000_S2500x128,
    StableHlo.reshape main_v3 main_v18 rfl shapeCasts_S320000_S2500x128 ]

/-- Host stretch 3 of @main: 1 operations. -/
abbrev ops3 : List (HloOp τ sig (Elt F)) :=
  [ StableHlo.reshape main_v19 main_v20 rfl shapeCasts_S2500x128_S320000 ]

/-- Host stretch 4 of @main: 24 operations. -/
abbrev ops4 : List (HloOp τ sig (Elt F)) :=
  [ StableHlo.reshape main_v21 main_v22 rfl shapeCasts_S192x1x10000_S192x10000,
    StableHlo.unary main_v22 main_v23 ((transpose S10000x192 [1, 0] · transposes_S192x10000_S10000x192_1_0) : (⟨S192x10000, .f32⟩ : BufTy).Contents (Elt F) → (⟨S10000x192, .f32⟩ : BufTy).Contents (Elt F)),
    StableHlo.unary main_v23 main_v24 ((extractStridedSlice S10000x128 ![0, 0] · slices_S10000x192_S10000x128_0_0) : (⟨S10000x192, .f32⟩ : BufTy).Contents (Elt F) → (⟨S10000x128, .f32⟩ : BufTy).Contents (Elt F)),
    StableHlo.unary main_v23 main_v25 ((extractStridedSlice S10000x64 ![0, 128] · slices_S10000x192_S10000x64_0_128) : (⟨S10000x192, .f32⟩ : BufTy).Contents (Elt F) → (⟨S10000x64, .f32⟩ : BufTy).Contents (Elt F)),
    StableHlo.unary main_arg3 main_v26 ((extractStridedSlice S4x1x128x64 ![0, 0, 0, 0] · slices_S4x2x128x64_S4x1x128x64_0_0_0_0) : (⟨S4x2x128x64, .f32⟩ : BufTy).Contents (Elt F) → (⟨S4x1x128x64, .f32⟩ : BufTy).Contents (Elt F)),
    StableHlo.reshape main_v26 main_v27 rfl shapeCasts_S4x1x128x64_S4x128x64,
    StableHlo.unary main_v27 main_v28 ((transpose S128x4x64 [1, 0, 2] · transposes_S4x128x64_S128x4x64_1_0_2) : (⟨S4x128x64, .f32⟩ : BufTy).Contents (Elt F) → (⟨S128x4x64, .f32⟩ : BufTy).Contents (Elt F)),
    StableHlo.reshape main_v28 main_v29 rfl shapeCasts_S128x4x64_S128x256,
    StableHlo.unary main_arg3 main_v30 ((extractStridedSlice S4x1x128x64 ![0, 1, 0, 0] · slices_S4x2x128x64_S4x1x128x64_0_1_0_0) : (⟨S4x2x128x64, .f32⟩ : BufTy).Contents (Elt F) → (⟨S4x1x128x64, .f32⟩ : BufTy).Contents (Elt F)),
    StableHlo.reshape main_v30 main_v31 rfl shapeCasts_S4x1x128x64_S4x128x64,
    StableHlo.unary main_v31 main_v32 ((transpose S128x4x64 [1, 0, 2] · transposes_S4x128x64_S128x4x64_1_0_2) : (⟨S4x128x64, .f32⟩ : BufTy).Contents (Elt F) → (⟨S128x4x64, .f32⟩ : BufTy).Contents (Elt F)),
    StableHlo.reshape main_v32 main_v33 rfl shapeCasts_S128x4x64_S128x256,
    StableHlo.unary main_arg4 main_v34 ((extractStridedSlice S4x1x64x64 ![0, 0, 0, 0] · slices_S4x2x64x64_S4x1x64x64_0_0_0_0) : (⟨S4x2x64x64, .f32⟩ : BufTy).Contents (Elt F) → (⟨S4x1x64x64, .f32⟩ : BufTy).Contents (Elt F)),
    StableHlo.reshape main_v34 main_v35 rfl shapeCasts_S4x1x64x64_S4x64x64,
    StableHlo.unary main_v35 main_v36 ((transpose S64x4x64 [1, 0, 2] · transposes_S4x64x64_S64x4x64_1_0_2) : (⟨S4x64x64, .f32⟩ : BufTy).Contents (Elt F) → (⟨S64x4x64, .f32⟩ : BufTy).Contents (Elt F)),
    StableHlo.reshape main_v36 main_v37 rfl shapeCasts_S64x4x64_S64x256,
    StableHlo.unary main_arg4 main_v38 ((extractStridedSlice S4x1x64x64 ![0, 1, 0, 0] · slices_S4x2x64x64_S4x1x64x64_0_1_0_0) : (⟨S4x2x64x64, .f32⟩ : BufTy).Contents (Elt F) → (⟨S4x1x64x64, .f32⟩ : BufTy).Contents (Elt F)),
    StableHlo.reshape main_v38 main_v39 rfl shapeCasts_S4x1x64x64_S4x64x64,
    StableHlo.unary main_v39 main_v40 ((transpose S64x4x64 [1, 0, 2] · transposes_S4x64x64_S64x4x64_1_0_2) : (⟨S4x64x64, .f32⟩ : BufTy).Contents (Elt F) → (⟨S64x4x64, .f32⟩ : BufTy).Contents (Elt F)),
    StableHlo.reshape main_v40 main_v41 rfl shapeCasts_S64x4x64_S64x256,
    StableHlo.binary main_arg5 main_arg6 main_v42 (addf : (⟨S4x64, .f32⟩ : BufTy).Contents (Elt F) → (⟨S4x64, .f32⟩ : BufTy).Contents (Elt F) → (⟨S4x64, .f32⟩ : BufTy).Contents (Elt F)),
    StableHlo.binary main_v42 main_arg8 main_v43 (addf : (⟨S4x64, .f32⟩ : BufTy).Contents (Elt F) → (⟨S4x64, .f32⟩ : BufTy).Contents (Elt F) → (⟨S4x64, .f32⟩ : BufTy).Contents (Elt F)),
    StableHlo.reshape main_v43 main_v44 rfl shapeCasts_S4x64_S1x256,
    StableHlo.reshape main_arg10 main_v45 rfl shapeCasts_S10_S1x10 ]

/-- Host stretch 5 of @main: 3 operations. -/
abbrev ops5 : List (HloOp τ sig (Elt F)) :=
  [ StableHlo.unary main_v46_1 main_v47 (broadcastInDim S1x10000x64 ![1, 2] bcast_S10000x64_S1x10000x64_1_2 : (⟨S10000x64, .f32⟩ : BufTy).Contents (Elt F) → (⟨S1x10000x64, .f32⟩ : BufTy).Contents (Elt F)),
    StableHlo.unary main_v46_2 main_v48 (broadcastInDim S1x10000x64 ![1, 2] bcast_S10000x64_S1x10000x64_1_2 : (⟨S10000x64, .f32⟩ : BufTy).Contents (Elt F) → (⟨S1x10000x64, .f32⟩ : BufTy).Contents (Elt F)),
    StableHlo.binary main_v47 main_v48 main_v49 ((fun a b => concatenate S2x10000x64 0 [⟨S1x10000x64, a⟩, ⟨S1x10000x64, b⟩] concatenates_S1x10000x64_S1x10000x64_S2x10000x64_d0) : (⟨S1x10000x64, .f32⟩ : BufTy).Contents (Elt F) → (⟨S1x10000x64, .f32⟩ : BufTy).Contents (Elt F) → (⟨S2x10000x64, .f32⟩ : BufTy).Contents (Elt F)) ]

-- the calls between the stretches, in order: sc.run d 0 ; Prog.lift (.customCall (SparseCore.inner (Pipeline.entry 0)) ()) ; Prog.lift (.customCall (SparseCore.inner (Pipeline.entry 1)) ()) ; sc.run d 1 ; Prog.lift (.customCall (SparseCore.inner (Pipeline.entry 2)) ())

end Cert.Proof.KB.MainOps

end
-- ==== Proof.KB.HistoVal.lean ====
/-
  The value of the per-tile histogram kernel, as pure functions of the row words: tile `w` reads words
  `10000 w … 10000 w + 9999` of the row array, sixteen at a trip, and at each trip adds one, lane by lane in
  ascending order, onto its 10240-word accumulator at each word read; the accumulator starts at zero.
  `histTile` is the accumulator after the 625 trips; `histArr` the 32 tiles' accumulators as one array.
-/
import Idealize.ShloMosaic.PureOps
import Idealize.ShloMosaic.Lib.ValueIdx

noncomputable section

namespace Cert.Proof.KB.Histo

open Idealize.ShloMosaic Idealize.ShloMosaic.ValueIdx

variable {F : FTy → Type} [FloatOps F]

/-- The row words: 320000. -/
abbrev SR : Shape := ⟨1, ![320000]⟩
/-- A trip's sixteen lanes. -/
abbrev SL : Shape := ⟨1, ![16]⟩
/-- A tile's accumulator: 10240 words. -/
abbrev SH : Shape := ⟨1, ![10240]⟩
/-- The result: one accumulator per tile. -/
abbrev SO : Shape := ⟨3, ![32, 1, 10240]⟩

/-- Every row word names an element of an accumulator. -/
def RowOK (rowv : IVec SR 32) : Prop := ∀ e, (rowv e).toNat < 10240

/-- What tile `w` reads at trip `n`: words `10000 w + 16 n … + 15` of the row words. -/
def chunk (rowv : IVec SR 32) (w n : ℕ) : IVec SL 32 :=
  fun x => rowv (ix1 ⟨(10000 * w + 16 * n + (x 0).val) % 320000, Nat.mod_lt _ (by decide)⟩)

/-- Every word of a chunk names an element of the accumulator. -/
theorem chunk_inb {rowv : IVec SR 32} (hok : RowOK rowv) (w n : ℕ) :
    ∀ a x, ((![chunk rowv w n] : Fin 1 → IVec SL 32) a x).toNat < SH.size a := by
  intro a x
  obtain rfl : a = 0 := Subsingleton.elim _ _
  exact hok _

/-- Sixteen ones: what a trip adds. -/
def ones : Vec F SL .f32 := broadcast SL (Scalar.ofBits .f32 0x3F800000#32 : F .f32)
/-- The accumulator before the first trip. -/
def zeros : Vec F SH .f32 := broadcast SH (Scalar.ofBits .f32 0x00000000#32 : F .f32)

/-- One trip on the accumulator `acc`: one added at each of the chunk's sixteen words, lanes in ascending order. -/
def step (rowv : IVec SR 32) (hok : RowOK rowv) (w : ℕ) (acc : Vec F SH .f32) (n : ℕ) : Vec F SH .f32 :=
  storeIdx acc ![chunk rowv w n] (ones (F := F)) (fun _ => 1#1) true (chunk_inb hok w n)

/-- Tile `w`'s accumulator after its first `n` trips. -/
def histN (rowv : IVec SR 32) (hok : RowOK rowv) (w : ℕ) : ℕ → Vec F SH .f32
  | 0 => zeros
  | n + 1 => step rowv hok w (histN rowv hok w n) n

theorem histN_succ (rowv : IVec SR 32) (hok : RowOK rowv) (w n : ℕ) :
    histN (F := F) rowv hok w (n + 1) = step rowv hok w (histN rowv hok w n) n := rfl

/-- Tile `w`'s accumulator after all its 625 trips: what it copies out. -/
def histTile (rowv : IVec SR 32) (hok : RowOK rowv) (w : ℕ) : Vec F SH .f32 := histN rowv hok w 625

/-- The same as a left fold over the trips in order. -/
theorem histN_eq_foldl (rowv : IVec SR 32) (hok : RowOK rowv) (w n : ℕ) :
    histN (F := F) rowv hok w n = (List.range n).foldl (step rowv hok w) zeros := by
  induction n with
  | zero => rfl
  | succ n ih => rw [histN_succ, ih, List.range_succ, List.foldl_append]; rfl

/-- The whole result: row `t` of it is tile `t`'s accumulator. -/
def histArr (rowv : IVec SR 32) (hok : RowOK rowv) : Vec F SO .f32 :=
  fun idx => histTile rowv hok (idx 0).val (ix1 (⟨(idx 2).val, (idx 2).isLt⟩ : Fin 10240))

theorem histArr_apply (rowv : IVec SR 32) (hok : RowOK rowv) (t : Fin 32) (u : Fin 1) (j : Fin 10240) :
    histArr (F := F) rowv hok (ix3 t u j) = histTile rowv hok t.val (ix1 j) := rfl

end Cert.Proof.KB.Histo
-- ==== Proof.KB.EdgeVal.lean ====
/-
  What the edge kernel leaves in one accumulator row, as a pure function of the packed edge words and of the
  feature row it gathers from. A packed word carries a target node in its bits above 14 and a source node in its
  low 14 bits. The words are taken sixteen at a time, in order; for each group of sixteen the feature row is read
  at the sixteen source nodes and the sixteen values are added onto the accumulator at the sixteen target nodes,
  lowest lane first. The row the kernel ends with is this step folded over all 20000 groups from the zero row.
-/
import Idealize.ShloMosaic.PureOps
import Idealize.ShloMosaic.Lib.ValueIdx

noncomputable section

namespace Cert.Proof.KB.Edge

open Idealize.ShloMosaic Idealize.ShloMosaic.ValueIdx

variable {F : FTy → Type} [FloatOps F]

/-- The packed edge words, one group of sixteen lanes, one row over the nodes. -/
abbrev SP : Shape := ⟨1, ![320000]⟩
abbrev SL : Shape := ⟨1, ![16]⟩
abbrev SN : Shape := ⟨1, ![10000]⟩

/-- The target nodes of sixteen packed words: each word shifted right by 14. -/
def row16 (w : IVec SL 32) : IVec SL 32 := shrui w (broadcast SL 14#32)
/-- The source nodes of sixteen packed words: each word's low 14 bits. -/
def col16 (w : IVec SL 32) : IVec SL 32 := andi w (broadcast SL 16383#32)

/-- Every packed word names two nodes. -/
def PackedOK (pk : IVec SP 32) : Prop := ∀ e, (pk e >>> 14).toNat < 10000 ∧ (pk e &&& 16383#32).toNat < 10000

/-- Group `n` of the packed words: words `16 n` to `16 n + 15` (zero past the end, which no group below 20000 reaches). -/
def chunk (pk : IVec SP 32) (n : ℕ) : IVec SL 32 :=
  fun x => if h : 16 * n + (x 0).val < 320000 then pk (ix1 ⟨16 * n + (x 0).val, h⟩) else 0

theorem row16_apply (w : IVec SL 32) (x : SL.Idx) : row16 w x = w x >>> 14 := by
  show IntOp.shrui .vector (w x) (14#32) = w x >>> 14
  unfold IntOp.shrui
  rw [if_pos (by decide)]
  rfl

theorem col16_apply (w : IVec SL 32) (x : SL.Idx) : col16 w x = w x &&& 16383#32 := rfl

/-- The targets of every group are nodes. -/
theorem row_inb {pk : IVec SP 32} (hpk : PackedOK pk) (n : ℕ) :
    ∀ (a : Fin SN.rank) (x : SL.Idx), ((![row16 (chunk pk n)] : Fin SN.rank → IVec SL 32) a x).toNat < SN.size a := by
  intro a x
  obtain rfl : a = 0 := Subsingleton.elim _ _
  show (row16 (chunk pk n) x).toNat < 10000
  rw [row16_apply]
  unfold chunk
  split
  · exact (hpk _).1
  · decide

/-- The sources of every group are nodes. -/
theorem col_inb {pk : IVec SP 32} (hpk : PackedOK pk) (n : ℕ) :
    ∀ (a : Fin SN.rank) (x : SL.Idx), ((![col16 (chunk pk n)] : Fin SN.rank → IVec SL 32) a x).toNat < SN.size a := by
  intro a x
  obtain rfl : a = 0 := Subsingleton.elim _ _
  show (col16 (chunk pk n) x).toNat < 10000
  rw [col16_apply]
  unfold chunk
  split
  · exact (hpk _).2
  · decide

/-- One group's step: the feature row read at the sources, added onto the accumulator at the targets. -/
def step (vrow acc : Vec F SN .f32) (w : IVec SL 32)
    (hr : ∀ (a : Fin SN.rank) (x : SL.Idx), ((![row16 w] : Fin SN.rank → IVec SL 32) a x).toNat < SN.size a)
    (hc : ∀ (a : Fin SN.rank) (x : SL.Idx), ((![col16 w] : Fin SN.rank → IVec SL 32) a x).toNat < SN.size a) : Vec F SN .f32 :=
  storeIdx acc ![row16 w] (loadIdx vrow ![col16 w] hc) (fun _ => 1#1) true hr

/-- The zero row the accumulators start from. -/
def zeroRow : Vec F SN .f32 := broadcast SN (Scalar.ofBits .f32 0x00000000#32)

/-- The accumulator after the first `n` groups. -/
def aggN (pk : IVec SP 32) (hpk : PackedOK pk) (vrow : Vec F SN .f32) : ℕ → Vec F SN .f32
  | 0 => zeroRow
  | n + 1 => step vrow (aggN pk hpk vrow n) (chunk pk n) (row_inb hpk n) (col_inb hpk n)

/-- The row the kernel ends with: all 20000 groups. -/
def aggRow (pk : IVec SP 32) (hpk : PackedOK pk) (vrow : Vec F SN .f32) : Vec F SN .f32 := aggN pk hpk vrow 20000

end Cert.Proof.KB.Edge

end
-- ==== Proof.KB.RegionVal.lean ====
import proofs.«207992_g50208167690906_cont_8to1c4_731_36_alg».proof.Proof.Gen.Kernel.Skeleton

/-!
The three TensorCore regions' output arrays as pure whole-array functions of their input arrays.

A region with a grid of ten points moves row blocks: point `t` reads rows `[1000 t, 1000 t + 1000)` of every
blocked input (all columns), the small operands whole, and writes the same rows of every output. An output
array is therefore stated blockwise: the element at row `r` is element `r % 1000` of the body's payload over
row block `r / 1000` of the inputs. The gridless region moves its one block, the whole array.
-/

noncomputable section

namespace Cert.Proof.KB.Region

open Cert.Kernel Cert.Kernel.Gen
open Idealize.ShloMosaic

variable {F : FTy → Type} [FloatOps F]

/-- Rows `[t R, t R + R)`, every column, of a `[N, C]` array, as a rectangle. -/
abbrev rowRect {N C : Nat} (R t : Nat) (h : t * R + R ≤ N) : Rect (⟨2, ![N, C]⟩ : Shape) :=
  Rect.unit ![t * R, 0] ![R, C] (Rect.inb₂ (show t * R + R ≤ N from h) (show 0 + C ≤ C from (Nat.zero_add C).le))

/-- Row block `t` (of `R` rows) of a `[N, C]` array. -/
def rowBlk {α : Type} {N C : Nat} (R t : Nat) (h : t * R + R ≤ N) (x : (⟨2, ![N, C]⟩ : Shape).Idx → α) :
    (⟨2, ![R, C]⟩ : Shape).Idx → α :=
  fun j => x ((rowRect R t h).emb j)

/-- A row index's position within its block of `R` rows. -/
def inBlk {N C : Nat} (R : Nat) (hR : 0 < R) (i : (⟨2, ![N, C]⟩ : Shape).Idx) : (⟨2, ![R, C]⟩ : Shape).Idx
  | ⟨0, _⟩ => ⟨(i 0).val % R, Nat.mod_lt _ hR⟩
  | ⟨1, _⟩ => i 1

/-- A `[N, C]` array given block by block: the element at row `r` is element `r % R` of block `r / R`. -/
def blockwise {β : Type} {N C : Nat} (R : Nat) (hR : 0 < R) (hN : ∀ r, r < N → r / R * R + R ≤ N)
    (f : (t : Nat) → t * R + R ≤ N → (⟨2, ![R, C]⟩ : Shape).Idx → β) : (⟨2, ![N, C]⟩ : Shape).Idx → β :=
  fun i => f ((i 0).val / R) (hN _ (i 0).isLt) (inBlk R hR i)

theorem blocks10 : ∀ r, r < 10000 → r / 1000 * 1000 + 1000 ≤ 10000 := fun r hr => by omega

/-! ## Region 0 (`_scale`) -/

/-- Result 0 of `_scale`: `x` scaled by the inverse square root of the positive degrees, block by block. -/
def scale0 (x : FVec F S10000x128 .f32) (deg : FVec F S10000x1 .f32) : FVec F S10000x128 .f32 :=
  blockwise 1000 (by decide) blocks10 fun t h => k1_pay2 (rowBlk 1000 t h deg) (rowBlk 1000 t h x)

/-- Result 1 of `_scale`: `hs` scaled likewise. -/
def scale1 (hs : FVec F S10000x64 .f32) (deg : FVec F S10000x1 .f32) : FVec F S10000x64 .f32 :=
  blockwise 1000 (by decide) blocks10 fun t h => k1_pay3 (rowBlk 1000 t h deg) (rowBlk 1000 t h hs)

/-! ## Region 1 (`_pack`) -/

/-- The result of `_pack`: `row * 16384 + col`, on the whole array (the one block). -/
def pack (r2 c2 : IVec S2500x128 32) : IVec S2500x128 32 := k2_pay1 (F := F) r2 c2

/-! ## Region 2 (`_dense`) -/

section Dense

variable (x : FVec F S10000x128 .f32) (hs cs : FVec F S10000x64 .f32) (agg0 : FVec F S10000x128 .f32)
  (agg1 : FVec F S10000x64 .f32) (deg : FVec F S10000x1 .f32) (wx0 wx1 : FVec F S128x256 .f32)
  (wh0 wh1 : FVec F S64x256 .f32) (btot : FVec F S1x256 .f32) (wp : FVec F S3x64 .f32)
  (wout : FVec F S64x10 .f32) (bout : FVec F S1x10 .f32)

/-- Row `k` of the peephole weights, as the body loads it. -/
def wpRow0 : FVec F S1x64 .f32 := fun j => wp ((Rect.unit (s := S3x64) ![0, 0] S1x64.size inb_S3x64_S1x64_0_0).emb j)
def wpRow1 : FVec F S1x64 .f32 := fun j => wp ((Rect.unit (s := S3x64) ![1, 0] S1x64.size inb_S3x64_S1x64_1_0).emb j)
def wpRow2 : FVec F S1x64 .f32 := fun j => wp ((Rect.unit (s := S3x64) ![2, 0] S1x64.size inb_S3x64_S1x64_2_0).emb j)

/-- The new cell state of row block `t`. -/
def denseC (t : Nat) (h : t * 1000 + 1000 ≤ 10000) : FVec F S1000x64 .f32 :=
  k4_pay13 (rowBlk 1000 t h x) (k4_pay7 (rowBlk 1000 t h hs)) (k4_pay8 (rowBlk 1000 t h cs))
    (k4_pay9 (rowBlk 1000 t h deg) (rowBlk 1000 t h x) (rowBlk 1000 t h agg0))
    (k4_pay10 (rowBlk 1000 t h deg) (rowBlk 1000 t h hs) (rowBlk 1000 t h agg1))
    (k4_pay11 wx0) (constant S1000x256 .f32 0x00000000#32) wx1 wh0 wh1 btot (wpRow0 wp) (wpRow1 wp)

/-- The pre-activation hidden state of row block `t` (what both the new hidden state and the read-out take). -/
def denseH (t : Nat) (h : t * 1000 + 1000 ≤ 10000) : FVec F S1000x64 .f32 :=
  k4_pay14 (rowBlk 1000 t h x) (k4_pay7 (rowBlk 1000 t h hs)) (k4_pay8 (rowBlk 1000 t h cs))
    (k4_pay9 (rowBlk 1000 t h deg) (rowBlk 1000 t h x) (rowBlk 1000 t h agg0))
    (k4_pay10 (rowBlk 1000 t h deg) (rowBlk 1000 t h hs) (rowBlk 1000 t h agg1))
    (k4_pay11 wx0) (constant S1000x256 .f32 0x00000000#32) wx1 wh0 wh1 btot (wpRow0 wp) (wpRow1 wp) (wpRow2 wp)

/-- Result 0 of `_dense`: the read-out, `[10000, 10]`. -/
def dense0 : FVec F S10000x10 .f32 :=
  blockwise 1000 (by decide) blocks10 fun t h =>
    k4_pay2 (denseH x hs cs agg0 agg1 deg wx0 wx1 wh0 wh1 btot wp t h) (Scalar.ofBits .f32 0x00000000#32) wout bout

/-- Result 1 of `_dense`: the new hidden state, `[10000, 64]`. -/
def dense1 : FVec F S10000x64 .f32 :=
  blockwise 1000 (by decide) blocks10 fun t h =>
    k4_pay1 (denseH x hs cs agg0 agg1 deg wx0 wx1 wh0 wh1 btot wp t h) (Scalar.ofBits .f32 0x00000000#32)

/-- Result 2 of `_dense`: the new cell state, `[10000, 64]`. -/
def dense2 : FVec F S10000x64 .f32 :=
  blockwise 1000 (by decide) blocks10 fun t h => denseC x hs cs agg0 agg1 deg wx0 wx1 wh0 wh1 btot wp t h

end Dense

/-! ## Reading a block back -/

/-- Block `t` of a blockwise array is the block it was given. -/
theorem rowBlk_blockwise {β : Type} {N C : Nat} (R : Nat) (hR : 0 < R) (hN : ∀ r, r < N → r / R * R + R ≤ N)
    (f : (t : Nat) → t * R + R ≤ N → (⟨2, ![R, C]⟩ : Shape).Idx → β) (t : Nat) (h : t * R + R ≤ N) :
    rowBlk R t h (blockwise R hR hN f) = f t h := by
  funext j
  unfold rowBlk blockwise
  have h0 : (((rowRect (N := N) (C := C) R t h).emb j) 0).val = t * R + (j 0).val := by
    rw [Rect.emb_apply]; show t * R + 1 * (j 0).val = _; omega
  have hj : (j 0).val < R := (j 0).isLt
  have hdiv : (t * R + (j 0).val) / R = t := by
    rw [Nat.mul_comm, Nat.mul_add_div hR, Nat.div_eq_of_lt hj, Nat.add_zero]
  have hmod : (t * R + (j 0).val) % R = (j 0).val := by
    rw [Nat.mul_comm, Nat.mul_add_mod, Nat.mod_eq_of_lt hj]
  have hin : inBlk R hR ((rowRect (N := N) (C := C) R t h).emb j) = j := by
    funext a
    match a with
    | ⟨0, _⟩ => exact Fin.ext (by show (((rowRect (N := N) (C := C) R t h).emb j) 0).val % R = (j 0).val; rw [h0, hmod])
    | ⟨1, _⟩ => exact Fin.ext (by show (((rowRect (N := N) (C := C) R t h).emb j) 1).val = (j 1).val; rw [Rect.emb_apply]; show 0 + 1 * (j 1).val = _; omega)
  rw [hin]
  have ht : (((rowRect (N := N) (C := C) R t h).emb j) 0).val / R = t := by rw [h0, hdiv]
  have key : ∀ (t' : Nat) (hp : t' * R + R ≤ N), t' = t → f t' hp j = f t h j := by
    intro t' hp e; subst e; rfl
  exact key _ _ ht

end Cert.Proof.KB.Region

end
-- ==== Proof.KB.Chain.lean ====
/-
  The contents of the TensorCore's arrays along @main, as a chain of valuations: the launch contents; after each
  straight line of host operations, the line's fold over the valuation before it; after each call, the valuation
  before it rewritten at the call's result arrays with the call's value as a pure function of its operand arrays
  there. Pure definitions: no program logic.
-/
import proofs.«207992_g50208167690906_cont_8to1c4_731_36_alg».proof.Proof.KB.MainOps
import proofs.«207992_g50208167690906_cont_8to1c4_731_36_alg».proof.Proof.KB.HistoVal
import proofs.«207992_g50208167690906_cont_8to1c4_731_36_alg».proof.Proof.KB.EdgeVal
import proofs.«207992_g50208167690906_cont_8to1c4_731_36_alg».proof.Proof.KB.RegionVal

noncomputable section

namespace Cert.Proof.KB

open Cert.Kernel Cert.Kernel.Gen

open Idealize.ShloMosaic Idealize.SL.Sem
open Idealize.ShloMosaic.StableHlo (after)
open Idealize.ShloMosaic.ValueIdx
open Cert.Proof.KB.MainOps

variable {F : FTy → Type} [FloatOps F]

/-- A TensorCore reference as a buffer of the device. -/
abbrev dr (r : Ref sig .tc) : DevRef τ sig := Proc.devRef .tc r

/-! ## The edge call's whole result -/

/-- Row `r` of a `[192, 1, 10000]` array. -/
def rowOf (a : Vec F S192x1x10000 .f32) (r : Fin 192) : Vec F Edge.SN .f32 := fun j => a (ix3 r 0 (j 0))

/-- The edge call's result array: its row `r` is the aggregation, over all the packed words, of row `r` of the
    feature array. -/
def aggArr (pk : IVec Edge.SP 32) (hpk : Edge.PackedOK pk) (vpt : Vec F S192x1x10000 .f32) : Vec F S192x1x10000 .f32 :=
  fun idx => Edge.aggRow pk hpk (rowOf vpt (idx 0)) (ix1 (idx 2))

theorem aggArr_apply (pk : IVec Edge.SP 32) (hpk : Edge.PackedOK pk) (vpt : Vec F S192x1x10000 .f32) (r : Fin 192) (u : Fin 1) (j : Fin 10000) :
    aggArr pk hpk vpt (ix3 r u j) = Edge.aggRow pk hpk (rowOf vpt r) (ix1 j) := rfl

/-! ## The chain -/

variable (m : (ℓ : Loc nD τ sig) → Buf (Elt F) ℓ) (d : Dev nD)

/-- The launch contents of device `d`'s arrays. -/
def W0 : Valuation τ sig (Elt F) := fun b => m (d, b)

/-- After the first line: the two rows of the edge array and the two states, sliced out. -/
def W1 : Valuation τ sig (Elt F) := after ops0 (W0 m d)

/-- The row words the histogram call reads. -/
abbrev rowWords : IVec Histo.SR 32 := W1 m d (dr main_v1)

/-- After the histogram call: its result array at the 32 tiles' histograms of the row words. -/
def W2 (hr : Histo.RowOK (rowWords m d)) : Valuation τ sig (Elt F) :=
  Function.update (W1 m d) (dr main_v8) (Histo.histArr (F := F) (rowWords m d) hr)

def W3 (hr : Histo.RowOK (rowWords m d)) : Valuation τ sig (Elt F) := after ops1 (W2 m d hr)

/-- After the scaling region: its two results. -/
def W4 (hr : Histo.RowOK (rowWords m d)) : Valuation τ sig (Elt F) :=
  Function.update
    (Function.update (W3 m d hr) (dr main_v13_0) (Region.scale0 (W3 m d hr (dr main_arg0)) (W3 m d hr (dr main_v12))))
    (dr main_v13_1) (Region.scale1 (W3 m d hr (dr main_v5)) (W3 m d hr (dr main_v12)))

def W5 (hr : Histo.RowOK (rowWords m d)) : Valuation τ sig (Elt F) := after ops2 (W4 m d hr)

/-- After the packing region: its result. -/
def W6 (hr : Histo.RowOK (rowWords m d)) : Valuation τ sig (Elt F) :=
  Function.update (W5 m d hr) (dr main_v19) (Region.pack (F := F) (W5 m d hr (dr main_v17)) (W5 m d hr (dr main_v18)))

def W7 (hr : Histo.RowOK (rowWords m d)) : Valuation τ sig (Elt F) := after ops3 (W6 m d hr)

/-- The packed words and the feature rows the edge call reads. -/
abbrev packedWords (hr : Histo.RowOK (rowWords m d)) : IVec Edge.SP 32 := W7 m d hr (dr main_v20)
abbrev featRows (hr : Histo.RowOK (rowWords m d)) : Vec F S192x1x10000 .f32 := W7 m d hr (dr main_v16)

/-- After the edge call: its result array at the aggregated rows. -/
def W8 (hr : Histo.RowOK (rowWords m d)) (hpk : Edge.PackedOK (packedWords m d hr)) : Valuation τ sig (Elt F) :=
  Function.update (W7 m d hr) (dr main_v21) (aggArr (packedWords m d hr) hpk (featRows m d hr))

def W9 (hr : Histo.RowOK (rowWords m d)) (hpk : Edge.PackedOK (packedWords m d hr)) : Valuation τ sig (Elt F) :=
  after ops4 (W8 m d hr hpk)

/-- The dense region's three results, from its fourteen operands in a valuation. -/
def denseOut0 (W : Valuation τ sig (Elt F)) : FVec F S10000x10 .f32 :=
  Region.dense0 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7)) (W (dr main_arg9)) (W (dr main_v45))
def denseOut1 (W : Valuation τ sig (Elt F)) : FVec F S10000x64 .f32 :=
  Region.dense1 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7))
def denseOut2 (W : Valuation τ sig (Elt F)) : FVec F S10000x64 .f32 :=
  Region.dense2 (W (dr main_arg0)) (W (dr main_v5)) (W (dr main_v7)) (W (dr main_v24)) (W (dr main_v25)) (W (dr main_v12))
    (W (dr main_v29)) (W (dr main_v33)) (W (dr main_v37)) (W (dr main_v41)) (W (dr main_v44)) (W (dr main_arg7))

/-- After the dense region: its three results. -/
def W10 (hr : Histo.RowOK (rowWords m d)) (hpk : Edge.PackedOK (packedWords m d hr)) : Valuation τ sig (Elt F) :=
  Function.update
    (Function.update
      (Function.update (W9 m d hr hpk) (dr main_v46_0) (denseOut0 (W9 m d hr hpk)))
      (dr main_v46_1) (denseOut1 (W9 m d hr hpk)))
    (dr main_v46_2) (denseOut2 (W9 m d hr hpk))

/-- At @main's return. -/
def W11 (hr : Histo.RowOK (rowWords m d)) (hpk : Edge.PackedOK (packedWords m d hr)) : Valuation τ sig (Elt F) :=
  after ops5 (W10 m d hr hpk)

/-- The index ranges the two SparseCore calls need, on every device: every row word names an element of a histogram,
    every packed word two nodes. -/
structure PreOK : Prop where
  row : ∀ d, Histo.RowOK (rowWords m d)
  packed : ∀ d, Edge.PackedOK (packedWords m d (row d))

end Cert.Proof.KB

end
-- ==== Proof.KB.Held.lean ====
/-
  The TensorCore's unscoped arrays as one held set: what the launch deals @main is that set at the launch contents;
  every host operation of @main touches only arrays of the set; a call's own arrays are taken out of the set and put
  back at the contents the call leaves.
-/
import proofs.«207992_g50208167690906_cont_8to1c4_731_36_alg».proof.Proof.KB.Base
import proofs.«207992_g50208167690906_cont_8to1c4_731_36_alg».proof.Proof.KB.MainOps
import proofs.«207992_g50208167690906_cont_8to1c4_731_36_alg».proof.Proof.KB.Chain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq tcRefs unary_bufs_sub reshape_bufs_sub binary_bufs_sub nullary_bufs_sub)
open Cert.Proof.KB.MainOps

variable {F : FTy → Type} [FloatOps F]

local notation "𝕄" => MT nD τ sig (HIx 2) (Elt F) ℕ UU ℕ

/-- Every unscoped array of the TensorCore, as buffers of the device. -/
def SU : Finset (DevRef τ sig) :=
  (Finset.univ.filter fun b : Ref sig .tc => ¬ b.isScoped).map ⟨Proc.devRef (sig := sig) (.tc : Proc τ), Proc.devRef_injective _⟩

omit [FloatOps F] in
theorem mem_SU {r : Ref sig .tc} (h : r.isScoped = false) : dr r ∈ SU :=
  Finset.mem_map.mpr ⟨r, Finset.mem_filter.mpr ⟨Finset.mem_univ _, by rw [h]; exact Bool.false_ne_true⟩, rfl⟩

/-- What the launch deals @main: the set at the launch contents. -/
theorem unscoped_held (m : (ℓ : Loc nD τ sig) → Buf (Elt F) ℓ) (d : Dev nD) :
    (unscopedBufs d (fun b => m ((SparseCore.T d).loc b)) : sProp 𝕄) = held (T d) SU (W0 m d) := by
  unfold unscopedBufs held SU
  rw [bigSep_map]
  rfl

/-- A host operation on TensorCore references touches only arrays of the set: it touches no scoped one. -/
theorem bufs_sub_SU (op : HloOp τ sig (Elt F)) (h : op.bufs ⊆ tcRefs τ sig) : op.bufs ⊆ SU := fun b hb => by
  obtain ⟨r, -, rfl⟩ := Finset.mem_map.mp (h hb)
  exact mem_SU (op.no_scoped _ hb)

theorem ops0_sub : ∀ op ∈ (ops0 : List (HloOp τ sig (Elt F))), op.bufs ⊆ SU :=
  List.forall_iff_forall_mem.mp (show (ops0 : List (HloOp τ sig (Elt F))).Forall (fun op => op.bufs ⊆ SU) from
    ⟨bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..)⟩)
theorem ops0_fresh : ∀ op ∈ (ops0 : List (HloOp τ sig (Elt F))), op.fresh = ∅ :=
  List.forall_iff_forall_mem.mp (show (ops0 : List (HloOp τ sig (Elt F))).Forall (fun op => op.fresh = ∅) from
    ⟨rfl, rfl, rfl, rfl, rfl, rfl, rfl, rfl⟩)

theorem ops1_sub : ∀ op ∈ (ops1 : List (HloOp τ sig (Elt F))), op.bufs ⊆ SU :=
  List.forall_iff_forall_mem.mp (show (ops1 : List (HloOp τ sig (Elt F))).Forall (fun op => op.bufs ⊆ SU) from
    ⟨bufs_sub_SU _ (reshape_bufs_sub ..), bufs_sub_SU _ (nullary_bufs_sub ..), bufs_sub_SU _ (binary_bufs_sub ..), bufs_sub_SU _ (unary_bufs_sub ..), bufs_sub_SU _ (unary_bufs_sub ..)⟩)
theorem ops1_fresh : ∀ op ∈ (ops1 : List (HloOp τ sig (Elt F))), op.fresh = ∅ :=
  List.forall_iff_forall_mem.mp (show (ops1 : List (HloOp τ sig (Elt F))).Forall (fun op => op.fresh = ∅) from
    ⟨rfl, rfl, rfl, rfl, rfl⟩)

theorem ops2_sub : ∀ op ∈ (ops2 : List (HloOp τ sig (Elt F))), op.bufs ⊆ SU :=
  List.forall_iff_forall_mem.mp (show (ops2 : List (HloOp τ sig (Elt F))).Forall (fun op => op.bufs ⊆ SU) from
    ⟨bufs_sub_SU _ (binary_bufs_sub ..), bufs_sub_SU _ (unary_bufs_sub ..), bufs_sub_SU _ (reshape_bufs_sub ..), bufs_sub_SU _ (reshape_bufs_sub ..), bufs_sub_SU _ (reshape_bufs_sub ..)⟩)
theorem ops2_fresh : ∀ op ∈ (ops2 : List (HloOp τ sig (Elt F))), op.fresh = ∅ :=
  List.forall_iff_forall_mem.mp (show (ops2 : List (HloOp τ sig (Elt F))).Forall (fun op => op.fresh = ∅) from
    ⟨rfl, rfl, rfl, rfl, rfl⟩)

theorem ops3_sub : ∀ op ∈ (ops3 : List (HloOp τ sig (Elt F))), op.bufs ⊆ SU :=
  List.forall_iff_forall_mem.mp (show (ops3 : List (HloOp τ sig (Elt F))).Forall (fun op => op.bufs ⊆ SU) from
    bufs_sub_SU _ (reshape_bufs_sub ..))
theorem ops3_fresh : ∀ op ∈ (ops3 : List (HloOp τ sig (Elt F))), op.fresh = ∅ :=
  List.forall_iff_forall_mem.mp (show (ops3 : List (HloOp τ sig (Elt F))).Forall (fun op => op.fresh = ∅) from
    rfl)

theorem ops4_sub : ∀ op ∈ (ops4 : List (HloOp τ sig (Elt F))), op.bufs ⊆ SU :=
  List.forall_iff_forall_mem.mp (show (ops4 : List (HloOp τ sig (Elt F))).Forall (fun op => op.bufs ⊆ SU) from
    ⟨bufs_sub_SU _ (reshape_bufs_sub ..), bufs_sub_SU _ (unary_bufs_sub ..), bufs_sub_SU _ (unary_bufs_sub ..), bufs_sub_SU _ (unary_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (unary_bufs_sub ..), bufs_sub_SU _ (reshape_bufs_sub ..), bufs_sub_SU _ (binary_bufs_sub ..), bufs_sub_SU _ (binary_bufs_sub ..), bufs_sub_SU _ (reshape_bufs_sub ..), bufs_sub_SU _ (reshape_bufs_sub ..)⟩)
theorem ops4_fresh : ∀ op ∈ (ops4 : List (HloOp τ sig (Elt F))), op.fresh = ∅ :=
  List.forall_iff_forall_mem.mp (show (ops4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl⟩)

theorem ops5_sub : ∀ op ∈ (ops5 : List (HloOp τ sig (Elt F))), op.bufs ⊆ SU :=
  List.forall_iff_forall_mem.mp (show (ops5 : List (HloOp τ sig (Elt F))).Forall (fun op => op.bufs ⊆ SU) from
    ⟨bufs_sub_SU _ (unary_bufs_sub ..), bufs_sub_SU _ (unary_bufs_sub ..), bufs_sub_SU _ (binary_bufs_sub ..)⟩)
theorem ops5_fresh : ∀ op ∈ (ops5 : List (HloOp τ sig (Elt F))), op.fresh = ∅ :=
  List.forall_iff_forall_mem.mp (show (ops5 : List (HloOp τ sig (Elt F))).Forall (fun op => op.fresh = ∅) from
    ⟨rfl, rfl, rfl⟩)

/-- A subset of a held set taken out, with the way back at any contents that agree outside the subset. -/
theorem held_swap {S T' : Finset (DevRef τ sig)} (hT : T' ⊆ S) {V V' : Valuation τ sig (Elt F)} (hV : ∀ b ∈ S \ T', V b = V' b)
    (c : Thread nD τ) :
    (held c S V : sProp 𝕄) ⊢ iprop(held c T' V ∗ (held c T' V' -∗ held c S V')) := by
  rw [held_sub_split c hT V, held_sub_split c hT V', held_congr c hV]
  iintro ⟨HT, HR⟩
  isplitl [HT]; · iexact HT
  iintro HT'
  isplitl [HT']; · iexact HT'
  iexact HR

end Cert.Proof.KB

end
-- ==== Proof.KB.Pay.lean ====
/-
  What the two SparseCore calls are handed and hand back, tile by tile, and how the whole arrays the TensorCore
  holds split into the tiles' pieces and join again.

  Call 0 (the histograms): tile w = 16 c + i of the 32 reads words 10000 w to 10000 w + 9999 of the row array and
  writes row w of the [32, 1, 10240] result. The 32 word ranges are disjoint and cover the row array, the 32 rows
  cover the result: each tile is handed its own pieces outright. Call 1 (the edge aggregation): every tile reads the
  whole packed array and the whole feature array, so each is handed one of 32 read shares of either; tile w writes
  rows 6 w to 6 w + 5 of the [192, 1, 10000] result and is handed those six rows outright.
-/
import proofs.«207992_g50208167690906_cont_8to1c4_731_36_alg».proof.Proof.KB.Base
import proofs.«207992_g50208167690906_cont_8to1c4_731_36_alg».proof.Proof.KB.HistoVal
import proofs.«207992_g50208167690906_cont_8to1c4_731_36_alg».proof.Proof.KB.EdgeVal
import Idealize.ShloMosaic.Lib.Transfers
import Idealize.ShloMosaic.Rules.PointsTo
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.ValueIdx

variable {F : FTy → Type}

local notation "𝕄" => MT nD τ sig (HIx 2) (Elt F) ℕ UU ℕ

/-! ## The five arrays, as the TensorCore's locations -/

/-- The row words (call 0 reads them), the histograms (call 0 writes them), the packed edge words and the feature
    rows (call 1 reads them), the aggregated rows (call 1 writes them). -/
abbrev v1Loc (d : Dev nD) : Loc nD τ sig := (SparseCore.T d).loc main_v1
abbrev v8Loc (d : Dev nD) : Loc nD τ sig := (SparseCore.T d).loc main_v8
abbrev v20Loc (d : Dev nD) : Loc nD τ sig := (SparseCore.T d).loc main_v20
abbrev v16Loc (d : Dev nD) : Loc nD τ sig := (SparseCore.T d).loc main_v16
abbrev v21Loc (d : Dev nD) : Loc nD τ sig := (SparseCore.T d).loc main_v21

/-! ## The tiles -/

/-- Tile i of SparseCore c, as a point of either kernel's grid. -/
def tile0 (c : Fin 2) (i : Fin 16) : grid0.Coords :=
  fun | 0 => c | 1 => i | ⟨_ + 2, h⟩ => absurd h (Nat.not_lt.2 (Nat.le_add_left _ _))
def tile3 (c : Fin 2) (i : Fin 16) : grid3.Coords :=
  fun | 0 => c | 1 => i | ⟨_ + 2, h⟩ => absurd h (Nat.not_lt.2 (Nat.le_add_left _ _))

/-- The tile's number among the 32. -/
def tid (c : Fin 2) (i : Fin 16) : Fin 32 := ⟨16 * c.val + i.val, by omega⟩

/-- The grid's SparseCore and tile numbers of a call, as numbers below 2 and 16. -/
abbrev cc (q : Fin 2) (c : Fin ((K (F := F)).nCore q)) : Fin 2 := Fin.cast (nCore_eq q) c
abbrev ii (q : Fin 2) (i : Fin ((K (F := F)).nSub q)) : Fin 16 := Fin.cast (nSub_eq q) i

/-! ## The tiles' pieces, as the kernels slice them -/

local notation "rowW" => (Memref.whole Cert.Kernel.main_v1_scv : Memref Cert.Kernel.sig Kind.scVector Space.hbm Cert.Kernel.S320000 EltTy.i32)
local notation "histW" => (Memref.whole Cert.Kernel.main_v8_scv : Memref Cert.Kernel.sig Kind.scVector Space.hbm Cert.Kernel.S32x1x10240 EltTy.f32)
local notation "aggW" => (Memref.whole Cert.Kernel.main_v21_scv : Memref Cert.Kernel.sig Kind.scVector Space.hbm Cert.Kernel.S192x1x10000 EltTy.f32)
local notation "vptW" => (Memref.whole Cert.Kernel.main_v16_scv : Memref Cert.Kernel.sig Kind.scVector Space.hbm Cert.Kernel.S192x1x10000 EltTy.f32)

/-- Call 0: the tile's 10000 row words; its row of the histograms. -/
abbrev rowSl (L : grid0.Coords) : Memref sig .scVector .hbm S10000 .i32 :=
  (rowW).slice (Rect.unit (s := S320000) (k0_off2 L) S10000.size (k0_off2_inb L)) (fun _ => rfl)
abbrev outSl (L : grid0.Coords) : Memref sig .scVector .hbm S10240 .f32 :=
  ((histW).slice (Rect.unit (s := S32x1x10240) (k0_off4 L) S1x1x10240.size (k0_off4_inb L)) (fun _ => rfl)).squeeze S10240 squeezes_S1x1x10240_S10240

/-- Call 1: row r of the tile's six, of the feature rows and of the aggregated rows. -/
abbrev rowRect (L : grid3.Coords) (r : Fin 6) : Rect S192x1x10000 :=
  Rect.unit (s := S192x1x10000) (k3_off2 L (BitVec.ofNat 32 r.val)) S1x1x10000.size (k3_off2_inb L r)
abbrev vptRow (L : grid3.Coords) (r : Fin 6) : Memref sig .scVector .hbm S10000 .f32 :=
  ((vptW).slice (rowRect L r) (fun _ => rfl)).squeeze S10000 squeezes_S1x1x10000_S10000
abbrev aggRowSl (L : grid3.Coords) (r : Fin 6) : Memref sig .scVector .hbm S10000 .f32 :=
  ((aggW).slice (rowRect L r) (fun _ => rfl)).squeeze S10000 squeezes_S1x1x10000_S10000

/-! ## The arrays the calls are handed, and the two whole results -/

/-- What the TensorCore holds in the five arrays when it starts each call: the row words and the histograms' array
    before call 0; the packed words, the feature rows and the aggregated rows' array before call 1; every row word
    names an element of a histogram, every packed word two nodes. -/
structure Handed (F : FTy → Type) where
  row : (d : Dev nD) → Buf (Elt F) (v1Loc d)
  h8 : (d : Dev nD) → Buf (Elt F) (v8Loc d)
  pk : (d : Dev nD) → Buf (Elt F) (v20Loc d)
  vpt : (d : Dev nD) → Buf (Elt F) (v16Loc d)
  h21 : (d : Dev nD) → Buf (Elt F) (v21Loc d)
  hrow : ∀ d, Histo.RowOK (row d)
  hpk : ∀ d, Edge.PackedOK (pk d)

variable [FloatOps F]

/-- Row r of a [192, 1, 10000] array. -/
def rowAt (a : Vec F S192x1x10000 .f32) (r : Fin 192) : Vec F Edge.SN .f32 := fun j => a (ix3 r 0 (j 0))

/-- The aggregated rows, whole: row r is the fold of all the packed words over row r of the feature rows. -/
def aggRows (pk : IVec Edge.SP 32) (hpk : Edge.PackedOK pk) (vpt : Vec F S192x1x10000 .f32) : Vec F S192x1x10000 .f32 :=
  fun idx => Edge.aggRow pk hpk (rowAt vpt (idx 0)) (ix1 (idx 2))

variable (A : Handed F)

/-- The histograms' array after call 0; the aggregated rows' array after call 1. -/
def histBuf (d : Dev nD) : Buf (Elt F) (v8Loc d) := Histo.histArr (F := F) (A.row d) (A.hrow d)
def aggBuf (d : Dev nD) : Buf (Elt F) (v21Loc d) := aggRows (A.pk d) (A.hpk d) (A.vpt d)

/-! ## What a tile is handed and hands back -/

/-- Call 0: the tile's row words and its row of the histograms, both outright. -/
def go0 (d : Dev nD) (c : Fin 2) (i : Fin 16) : sProp 𝕄 :=
  iprop((v1Loc d ↦[(rowSl (tile0 c i)).view.set]{fullShare} A.row d) ∗ (v8Loc d ↦[(outSl (tile0 c i)).view.set]{fullShare} A.h8 d))
def td0 (d : Dev nD) (c : Fin 2) (i : Fin 16) : sProp 𝕄 :=
  iprop((v1Loc d ↦[(rowSl (tile0 c i)).view.set]{fullShare} A.row d) ∗ (v8Loc d ↦[(outSl (tile0 c i)).view.set]{fullShare} histBuf A d))

/-- Call 1: a read share of the packed words, a read share of the feature rows, and the tile's six aggregated rows
    outright. -/
def go1 (d : Dev nD) (c : Fin 2) (i : Fin 16) : sProp 𝕄 :=
  iprop((v20Loc d ↦{shareTok fullShare 32 (tid c i)} A.pk d) ∗ (v16Loc d ↦{shareTok fullShare 32 (tid c i)} A.vpt d)
    ∗ bigSep Finset.univ fun r : Fin 6 => v21Loc d ↦[(aggRowSl (tile3 c i) r).view.set]{fullShare} A.h21 d)
def td1 (d : Dev nD) (c : Fin 2) (i : Fin 16) : sProp 𝕄 :=
  iprop((v20Loc d ↦{shareTok fullShare 32 (tid c i)} A.pk d) ∗ (v16Loc d ↦{shareTok fullShare 32 (tid c i)} A.vpt d)
    ∗ bigSep Finset.univ fun r : Fin 6 => v21Loc d ↦[(aggRowSl (tile3 c i) r).view.set]{fullShare} aggBuf A d)

/-- What the handshakes of the two calls carry: a SparseCore's operands are its sixteen tiles', its results theirs. -/
def P : (K (F := F)).Pay (nD := nD) (Val := Elt F) (Name := ℕ) (U := UU) where
  st := fun q d c => bigSep Finset.univ fun i : Fin ((K (F := F)).nSub q) =>
    match q with | 0 => go0 A d (cc 0 c) (ii 0 i) | 1 => go1 A d (cc 1 c) (ii 1 i)
  dn := fun q d c => bigSep Finset.univ fun i : Fin ((K (F := F)).nSub q) =>
    match q with | 0 => td0 A d (cc 0 c) (ii 0 i) | 1 => td1 A d (cc 1 c) (ii 1 i)
  go := fun q d c i => match q with | 0 => go0 A d (cc 0 c) (ii 0 i) | 1 => go1 A d (cc 1 c) (ii 1 i)
  td := fun q d c i => match q with | 0 => td0 A d (cc 0 c) (ii 0 i) | 1 => td1 A d (cc 1 c) (ii 1 i)
  x := fun _ _ => iprop(emp)

instance go0_storable (d : Dev nD) (c : Fin 2) (i : Fin 16) : BI.Storable (upEmb : UEmb _ 𝕄) (go0 A d c i) := by unfold go0; infer_instance
instance td0_storable (d : Dev nD) (c : Fin 2) (i : Fin 16) : BI.Storable (upEmb : UEmb _ 𝕄) (td0 A d c i) := by unfold td0; infer_instance
instance go1_storable (d : Dev nD) (c : Fin 2) (i : Fin 16) : BI.Storable (upEmb : UEmb _ 𝕄) (go1 A d c i) := by unfold go1; infer_instance
instance td1_storable (d : Dev nD) (c : Fin 2) (i : Fin 16) : BI.Storable (upEmb : UEmb _ 𝕄) (td1 A d c i) := by unfold td1; infer_instance

instance P_storable : (P (F := F) A).IsStorable where
  st q d c := match q with
    | 0 => by unfold P; dsimp only; infer_instance
    | 1 => by unfold P; dsimp only; infer_instance
  dn q d c := match q with
    | 0 => by unfold P; dsimp only; infer_instance
    | 1 => by unfold P; dsimp only; infer_instance
  go q d c i := match q with
    | 0 => by unfold P; dsimp only; infer_instance
    | 1 => by unfold P; dsimp only; infer_instance
  td q d c i := match q with
    | 0 => by unfold P; dsimp only; infer_instance
    | 1 => by unfold P; dsimp only; infer_instance

/-! ## The record's fields, as equations -/

theorem P_st (q : Fin 2) (d : Dev nD) (c : Fin ((K (F := F)).nCore q)) :
    (P A).st q d c = bigSep Finset.univ fun i : Fin ((K (F := F)).nSub q) => (P A).go q d c i := by
  match q with | 0 => rfl | 1 => rfl
theorem P_dn (q : Fin 2) (d : Dev nD) (c : Fin ((K (F := F)).nCore q)) :
    (P A).dn q d c = bigSep Finset.univ fun i : Fin ((K (F := F)).nSub q) => (P A).td q d c i := by
  match q with | 0 => rfl | 1 => rfl
theorem P_go0 (d : Dev nD) (c : Fin ((K (F := F)).nCore 0)) (i : Fin ((K (F := F)).nSub 0)) : (P A).go 0 d c i = go0 A d (cc 0 c) (ii 0 i) := rfl
theorem P_td0 (d : Dev nD) (c : Fin ((K (F := F)).nCore 0)) (i : Fin ((K (F := F)).nSub 0)) : (P A).td 0 d c i = td0 A d (cc 0 c) (ii 0 i) := rfl
theorem P_go1 (d : Dev nD) (c : Fin ((K (F := F)).nCore 1)) (i : Fin ((K (F := F)).nSub 1)) : (P A).go 1 d c i = go1 A d (cc 1 c) (ii 1 i) := rfl
theorem P_td1 (d : Dev nD) (c : Fin ((K (F := F)).nCore 1)) (i : Fin ((K (F := F)).nSub 1)) : (P A).td 1 d c i = td1 A d (cc 1 c) (ii 1 i) := rfl
theorem P_x (q : Fin 2) (thr : Thread nD τ) : (P A).x q thr = iprop(emp) := rfl
theorem P_ox : (P A).ox = fun _ _ => 0 := rfl

/-! ## A SparseCore's operands are its tiles', its results theirs -/

theorem vecSplit (q : Fin 2) : (K (F := F)).VecSplit' (P A) q := by
  intro d c
  rw [P_st, P_dn]
  iintro H; imodintro
  isplitl [H]; · iexact H
  iintro H; iexact H

/-! ## Re-indexing: the grid's numbers as numbers below 2 and 16; the 32 tiles as pairs -/

theorem bigSep_fin_cast {M : Type} [URA M] {n m : ℕ} (h : n = m) (Φ : Fin m → sProp M) :
    (bigSep Finset.univ fun i : Fin n => Φ (Fin.cast h i)) = bigSep Finset.univ Φ := by
  subst h; exact bigSep_congr fun _ _ => rfl

/-- The tile's number, as an embedding of the pairs into the 32. -/
def tidEmb : Fin 2 × Fin 16 ↪ Fin 32 :=
  ⟨fun p => tid p.1 p.2, fun p p' h => by
    have h' : 16 * p.1.val + p.2.val = 16 * p'.1.val + p'.2.val := congrArg Fin.val h
    have h2 := p.2.isLt; have h2' := p'.2.isLt
    exact Prod.ext (Fin.ext (by omega)) (Fin.ext (by omega))⟩

theorem map_tidEmb : (Finset.univ : Finset (Fin 2 × Fin 16)).map tidEmb = Finset.univ := by
  ext t
  simp only [Finset.mem_map, Finset.mem_univ, true_and, iff_true]
  have ht := t.isLt
  exact ⟨(⟨t.val / 16, by omega⟩, ⟨t.val % 16, by omega⟩), Fin.ext (by show 16 * (t.val / 16) + t.val % 16 = t.val; omega)⟩

/-- A family over the 32 tiles, SparseCore by SparseCore. -/
theorem bigSep_tiles {M : Type} [URA M] (Φ : Fin 32 → sProp M) :
    bigSep Finset.univ Φ = bigSep Finset.univ fun c : Fin 2 => bigSep Finset.univ fun i : Fin 16 => Φ (tid c i) := by
  rw [← map_tidEmb, bigSep_map, ← Finset.univ_product_univ, SparseCore.bigSep_product]; rfl

/-- An array cut into one piece per tile: whole, it is the pieces. -/
theorem pointsTo_tiles {ℓ : Loc nD τ sig} (Ks : Fin 2 × Fin 16 → Finset (Idx ℓ))
    (hd : ∀ p ∈ (Finset.univ : Finset (Fin 2 × Fin 16)), ∀ p' ∈ (Finset.univ : Finset (Fin 2 × Fin 16)), p ≠ p' → Disjoint (Ks p) (Ks p'))
    (hc : (Finset.univ : Finset (Fin 2 × Fin 16)).biUnion Ks = Finset.univ) (q : PosShare TreeShare) (f : Buf (Elt F) ℓ) :
    (ℓ ↦{q} f : sProp 𝕄) = bigSep Finset.univ fun c : Fin 2 => bigSep Finset.univ fun i : Fin 16 => ℓ ↦[Ks (c, i)]{q} f := by
  rw [← SparseCore.bigSep_product Finset.univ Finset.univ (fun p : Fin 2 × Fin 16 => (ℓ ↦[Ks p]{q} f : sProp 𝕄)), Finset.univ_product_univ,
    ← pointsTo_biUnion Finset.univ Ks hd, hc]

/-! ## The pieces' index sets: disjoint, and covering their arrays -/

@[simp] theorem tile0_zero (c : Fin 2) (i : Fin 16) : ((tile0 c i) 0).val = c.val := rfl
@[simp] theorem tile0_one (c : Fin 2) (i : Fin 16) : ((tile0 c i) 1).val = i.val := rfl
@[simp] theorem tile3_zero (c : Fin 2) (i : Fin 16) : ((tile3 c i) 0).val = c.val := rfl
@[simp] theorem tile3_one (c : Fin 2) (i : Fin 16) : ((tile3 c i) 1).val = i.val := rfl

theorem pair_ne {p p' : Fin 2 × Fin 16} (h : p ≠ p') : p.1.val ≠ p'.1.val ∨ p.2.val ≠ p'.2.val := by
  by_contra hn
  rw [not_or, not_not, not_not] at hn
  exact h (Prod.ext (Fin.ext hn.1) (Fin.ext hn.2))

/-- Call 0's row words: tile (c, i) has words 160000 c + 10000 i and the 9999 after. -/
theorem rowSet_eq (L : grid0.Coords) :
    (rowSl L).view.set = (Rect.unit (s := S320000) (k0_off2 L) S10000.size (k0_off2_inb L)).set := View.set_slice_whole _ _

abbrev rowSet (p : Fin 2 × Fin 16) : Finset S320000.Idx := (rowSl (tile0 p.1 p.2)).view.set

theorem rowSets_disjoint : ∀ p ∈ (Finset.univ : Finset (Fin 2 × Fin 16)), ∀ p' ∈ (Finset.univ : Finset (Fin 2 × Fin 16)), p ≠ p' →
    Disjoint (rowSet p) (rowSet p') := by
  intro p _ p' _ hne
  unfold rowSet
  rw [rowSet_eq, rowSet_eq]
  refine Rect.unit_disjoint 0 ?_
  rw [k0_off2_eq, k0_off2_eq]
  have h := pair_ne hne
  have h1 := p.1.isLt; have h2 := p.2.isLt; have h1' := p'.1.isLt; have h2' := p'.2.isLt
  simp only [tile0_zero, tile0_one, Matrix.cons_val_zero]
  show _ + 10000 ≤ _ ∨ _ + 10000 ≤ _
  omega

theorem rowSets_cover : (Finset.univ : Finset (Fin 2 × Fin 16)).biUnion rowSet = Finset.univ := by
  ext x
  simp only [Finset.mem_biUnion, Finset.mem_univ, true_and, iff_true]
  have hx : (x 0).val < 320000 := (x 0).isLt
  refine ⟨(⟨(x 0).val / 160000, by omega⟩, ⟨(x 0).val % 160000 / 10000, by omega⟩), ?_⟩
  unfold rowSet
  rw [rowSet_eq, Rect.mem_set_unit, k0_off2_eq]
  intro a
  obtain rfl : a = 0 := Subsingleton.elim _ _
  simp only [tile0_zero, tile0_one, Matrix.cons_val_zero]
  show _ ≤ (x 0).val ∧ (x 0).val < _ + 10000
  omega

/-- Call 0's histograms: tile (c, i) has row 16 c + i. -/
theorem outSet_eq (L : grid0.Coords) :
    (outSl L).view.set = (Rect.unit (s := S32x1x10240) (k0_off4 L) S1x1x10240.size (k0_off4_inb L)).set :=
  (View.set_reshape _ _).trans (View.set_slice_whole _ _)

abbrev outSet (p : Fin 2 × Fin 16) : Finset S32x1x10240.Idx := (outSl (tile0 p.1 p.2)).view.set

theorem outSets_disjoint : ∀ p ∈ (Finset.univ : Finset (Fin 2 × Fin 16)), ∀ p' ∈ (Finset.univ : Finset (Fin 2 × Fin 16)), p ≠ p' →
    Disjoint (outSet p) (outSet p') := by
  intro p _ p' _ hne
  unfold outSet
  rw [outSet_eq, outSet_eq]
  refine Rect.unit_disjoint 0 ?_
  rw [k0_off4_eq, k0_off4_eq]
  have h := pair_ne hne
  have h1 := p.1.isLt; have h2 := p.2.isLt; have h1' := p'.1.isLt; have h2' := p'.2.isLt
  simp only [tile0_zero, tile0_one, Matrix.cons_val_zero]
  show _ + 1 ≤ _ ∨ _ + 1 ≤ _
  omega

theorem outSets_cover : (Finset.univ : Finset (Fin 2 × Fin 16)).biUnion outSet = Finset.univ := by
  ext x
  simp only [Finset.mem_biUnion, Finset.mem_univ, true_and, iff_true]
  have hx : (x 0).val < 32 := (x 0).isLt
  have hx1 : (x 1).val < 1 := (x 1).isLt
  have hx2 : (x 2).val < 10240 := (x 2).isLt
  refine ⟨(⟨(x 0).val / 16, by omega⟩, ⟨(x 0).val % 16, by omega⟩), ?_⟩
  unfold outSet
  rw [outSet_eq, Rect.mem_set_unit, k0_off4_eq]
  intro a
  simp only [tile0_zero, tile0_one]
  match a with
  | ⟨0, _⟩ => show 16 * ((x 0).val / 16) + (x 0).val % 16 ≤ (x 0).val ∧ (x 0).val < 16 * ((x 0).val / 16) + (x 0).val % 16 + 1; omega
  | ⟨1, _⟩ => show 0 ≤ (x 1).val ∧ (x 1).val < 0 + 1; omega
  | ⟨2, _⟩ => show 0 ≤ (x 2).val ∧ (x 2).val < 0 + 10240; omega

/-- Call 1's aggregated rows: tile (c, i) has rows 96 c + 6 i + r, r below 6. -/
theorem aggSet_eq (L : grid3.Coords) (r : Fin 6) : (aggRowSl L r).view.set = (rowRect L r).set :=
  (View.set_reshape _ _).trans (View.set_slice_whole _ _)

abbrev aggSet (p : Fin 2 × Fin 16) (r : Fin 6) : Finset S192x1x10000.Idx := (aggRowSl (tile3 p.1 p.2) r).view.set

theorem aggSets_disjoint_row (p : Fin 2 × Fin 16) : ∀ r ∈ (Finset.univ : Finset (Fin 6)), ∀ r' ∈ (Finset.univ : Finset (Fin 6)), r ≠ r' →
    Disjoint (aggSet p r) (aggSet p r') := by
  intro r _ r' _ hne
  unfold aggSet
  rw [aggSet_eq, aggSet_eq]
  refine Rect.unit_disjoint 0 ?_
  rw [k3_off2_eq, k3_off2_eq]
  have h : r.val ≠ r'.val := fun e => hne (Fin.ext e)
  simp only [tile3_zero, tile3_one, Matrix.cons_val_zero]
  show _ + 1 ≤ _ ∨ _ + 1 ≤ _
  omega

/-- A tile's six rows, as one set. -/
abbrev aggSet6 (p : Fin 2 × Fin 16) : Finset S192x1x10000.Idx := (Finset.univ : Finset (Fin 6)).biUnion (aggSet p)

theorem mem_aggSet (p : Fin 2 × Fin 16) (r : Fin 6) (x : S192x1x10000.Idx) :
    x ∈ aggSet p r ↔ (x 0).val = 96 * p.1.val + 6 * p.2.val + r.val := by
  unfold aggSet
  rw [aggSet_eq, Rect.mem_set_unit, k3_off2_eq]
  have hx1 : (x 1).val < 1 := (x 1).isLt
  have hx2 : (x 2).val < 10000 := (x 2).isLt
  simp only [tile3_zero, tile3_one]
  constructor
  · intro h
    have h0 := h 0
    have h0' : 96 * p.1.val + 6 * p.2.val + r.val ≤ (x 0).val ∧ (x 0).val < 96 * p.1.val + 6 * p.2.val + r.val + 1 := h0
    omega
  · intro h a
    match a with
    | ⟨0, _⟩ => show 96 * p.1.val + 6 * p.2.val + r.val ≤ (x 0).val ∧ (x 0).val < 96 * p.1.val + 6 * p.2.val + r.val + 1; omega
    | ⟨1, _⟩ => show 0 ≤ (x 1).val ∧ (x 1).val < 0 + 1; omega
    | ⟨2, _⟩ => show 0 ≤ (x 2).val ∧ (x 2).val < 0 + 10000; omega

theorem aggSets6_disjoint : ∀ p ∈ (Finset.univ : Finset (Fin 2 × Fin 16)), ∀ p' ∈ (Finset.univ : Finset (Fin 2 × Fin 16)), p ≠ p' →
    Disjoint (aggSet6 p) (aggSet6 p') := by
  intro p _ p' _ hne
  rw [Finset.disjoint_left]
  intro x hx hx'
  obtain ⟨r, -, hr⟩ := Finset.mem_biUnion.mp hx
  obtain ⟨r', -, hr'⟩ := Finset.mem_biUnion.mp hx'
  rw [mem_aggSet] at hr hr'
  have h := pair_ne hne
  have h1 := p.1.isLt; have h2 := p.2.isLt; have h1' := p'.1.isLt; have h2' := p'.2.isLt
  have h3 := r.isLt; have h3' := r'.isLt
  omega

theorem aggSets6_cover : (Finset.univ : Finset (Fin 2 × Fin 16)).biUnion aggSet6 = Finset.univ := by
  ext x
  simp only [Finset.mem_biUnion, Finset.mem_univ, true_and, iff_true]
  have hx : (x 0).val < 192 := (x 0).isLt
  refine ⟨(⟨(x 0).val / 96, by omega⟩, ⟨(x 0).val % 96 / 6, by omega⟩), ⟨(x 0).val % 6, by omega⟩, ?_⟩
  rw [mem_aggSet]
  show (x 0).val = 96 * ((x 0).val / 96) + 6 * ((x 0).val % 96 / 6) + (x 0).val % 6
  omega

/-! ## The TensorCore's whole arrays and the 32 tiles' pieces -/

/-- A family over a call's grid, over numbers below 2 and 16. -/
theorem bigSep_grid (q : Fin 2) (Φ : Fin 2 → Fin 16 → sProp 𝕄) :
    (bigSep Finset.univ fun c : Fin ((K (F := F)).nCore q) => bigSep Finset.univ fun i : Fin ((K (F := F)).nSub q) => Φ (cc q c) (ii q i))
      = bigSep Finset.univ fun c : Fin 2 => bigSep Finset.univ fun i : Fin 16 => Φ c i := by
  rw [← bigSep_fin_cast (nCore_eq (F := F) q) (fun c => bigSep Finset.univ fun i : Fin 16 => Φ c i)]
  refine bigSep_congr fun c _ => ?_
  exact bigSep_fin_cast (nSub_eq (F := F) q) (fun i => Φ (cc q c) i)

theorem st0_eq (d : Dev nD) :
    (bigSep Finset.univ fun c : Fin ((K (F := F)).nCore 0) => (P A).st 0 d c : sProp 𝕄)
      = bigSep Finset.univ fun c : Fin 2 => bigSep Finset.univ fun i : Fin 16 => go0 A d c i := by
  rw [← bigSep_grid 0 (fun c i => go0 A d c i)]
  exact bigSep_congr fun c _ => P_st A 0 d c
theorem dn0_eq (d : Dev nD) :
    (bigSep Finset.univ fun c : Fin ((K (F := F)).nCore 0) => (P A).dn 0 d c : sProp 𝕄)
      = bigSep Finset.univ fun c : Fin 2 => bigSep Finset.univ fun i : Fin 16 => td0 A d c i := by
  rw [← bigSep_grid 0 (fun c i => td0 A d c i)]
  exact bigSep_congr fun c _ => P_dn A 0 d c
theorem st1_eq (d : Dev nD) :
    (bigSep Finset.univ fun c : Fin ((K (F := F)).nCore 1) => (P A).st 1 d c : sProp 𝕄)
      = bigSep Finset.univ fun c : Fin 2 => bigSep Finset.univ fun i : Fin 16 => go1 A d c i := by
  rw [← bigSep_grid 1 (fun c i => go1 A d c i)]
  exact bigSep_congr fun c _ => P_st A 1 d c
theorem dn1_eq (d : Dev nD) :
    (bigSep Finset.univ fun c : Fin ((K (F := F)).nCore 1) => (P A).dn 1 d c : sProp 𝕄)
      = bigSep Finset.univ fun c : Fin 2 => bigSep Finset.univ fun i : Fin 16 => td1 A d c i := by
  rw [← bigSep_grid 1 (fun c i => td1 A d c i)]
  exact bigSep_congr fun c _ => P_dn A 1 d c

/-- Call 0's two arrays, whole, are the 32 tiles' pieces of them. -/
theorem tiles0 (d : Dev nD) (f : Buf (Elt F) (v8Loc d)) :
    (bigSep Finset.univ fun c : Fin 2 => bigSep Finset.univ fun i : Fin 16 =>
        iprop((v1Loc d ↦[(rowSl (tile0 c i)).view.set]{fullShare} A.row d) ∗ (v8Loc d ↦[(outSl (tile0 c i)).view.set]{fullShare} f)) : sProp 𝕄)
      = iprop((v1Loc d ↦{fullShare} A.row d) ∗ (v8Loc d ↦{fullShare} f)) := by
  rw [pointsTo_tiles (ℓ := v1Loc d) rowSet rowSets_disjoint rowSets_cover fullShare (A.row d),
    pointsTo_tiles (ℓ := v8Loc d) outSet outSets_disjoint outSets_cover fullShare f, ← bigSep_sep']
  refine bigSep_congr fun c _ => ?_
  rw [← bigSep_sep']

/-- Before call 0: the row words and the histograms' array, whole, are the 32 tiles' pieces. -/
theorem st_of_whole0 (d : Dev nD) :
    iprop((v1Loc d ↦{fullShare} A.row d) ∗ (v8Loc d ↦{fullShare} A.h8 d))
      ⊢ (bigSep Finset.univ fun c : Fin ((K (F := F)).nCore 0) => (P A).st 0 d c : sProp 𝕄) := by
  rw [st0_eq, ← tiles0 A d (A.h8 d)]
  exact BI.Entails.refl _

/-- After call 0: the 32 tiles' pieces are the row words, whole and unchanged, and the histograms' array, whole. -/
theorem whole_of_dn0 (d : Dev nD) :
    (bigSep Finset.univ fun c : Fin ((K (F := F)).nCore 0) => (P A).dn 0 d c : sProp 𝕄)
      ⊢ iprop((v1Loc d ↦{fullShare} A.row d) ∗ (v8Loc d ↦{fullShare} histBuf A d)) := by
  rw [dn0_eq, ← tiles0 A d (histBuf A d)]
  exact BI.Entails.refl _

/-- An array every tile reads whole: 32 read shares of it, and what is left. -/
theorem toks_tiles {ℓ : Loc nD τ sig} (f : Buf (Elt F) ℓ) :
    (ℓ ↦{fullShare} f : sProp 𝕄) ⊣⊢ iprop((ℓ ↦{shareDrop fullShare 32} f)
      ∗ bigSep Finset.univ fun c : Fin 2 => bigSep Finset.univ fun i : Fin 16 => ℓ ↦{shareTok fullShare 32 (tid c i)} f) := by
  rw [← bigSep_tiles (fun t => (ℓ ↦{shareTok fullShare 32 t} f : sProp 𝕄))]
  exact Transfers.pointsTo_toks fullShare 32

/-- The aggregated rows' array, whole, is the 32 tiles' six rows each. -/
theorem agg_tiles (d : Dev nD) (f : Buf (Elt F) (v21Loc d)) :
    (v21Loc d ↦{fullShare} f : sProp 𝕄)
      = bigSep Finset.univ fun c : Fin 2 => bigSep Finset.univ fun i : Fin 16 => bigSep Finset.univ fun r : Fin 6 =>
          v21Loc d ↦[(aggRowSl (tile3 c i) r).view.set]{fullShare} f := by
  rw [pointsTo_tiles (ℓ := v21Loc d) aggSet6 aggSets6_disjoint aggSets6_cover fullShare f]
  refine bigSep_congr fun c _ => bigSep_congr fun i _ => ?_
  exact pointsTo_biUnion (ℓ := v21Loc d) (q := fullShare) (f := f) Finset.univ (aggSet (c, i)) (aggSets_disjoint_row (c, i))

/-- Call 1's three arrays: the read shares of two, the third whole, are the 32 tiles' pieces. -/
theorem tiles1 (d : Dev nD) (f : Buf (Elt F) (v21Loc d)) :
    (bigSep Finset.univ fun c : Fin 2 => bigSep Finset.univ fun i : Fin 16 =>
        iprop((v20Loc d ↦{shareTok fullShare 32 (tid c i)} A.pk d) ∗ (v16Loc d ↦{shareTok fullShare 32 (tid c i)} A.vpt d)
          ∗ bigSep Finset.univ fun r : Fin 6 => v21Loc d ↦[(aggRowSl (tile3 c i) r).view.set]{fullShare} f) : sProp 𝕄)
      = iprop((bigSep Finset.univ fun c : Fin 2 => bigSep Finset.univ fun i : Fin 16 => v20Loc d ↦{shareTok fullShare 32 (tid c i)} A.pk d)
          ∗ (bigSep Finset.univ fun c : Fin 2 => bigSep Finset.univ fun i : Fin 16 => v16Loc d ↦{shareTok fullShare 32 (tid c i)} A.vpt d)
          ∗ (v21Loc d ↦{fullShare} f)) := by
  rw [agg_tiles d f, ← bigSep_sep', ← bigSep_sep']
  refine bigSep_congr fun c _ => ?_
  rw [← bigSep_sep', ← bigSep_sep']

/-- Before call 1: the packed words and the feature rows go out as 32 read shares each (the TensorCore keeps what is
    left of either while the call runs); the aggregated rows' array, whole, is the 32 tiles' six rows each. -/
theorem st_of_whole1 (d : Dev nD) :
    iprop((v20Loc d ↦{fullShare} A.pk d) ∗ (v16Loc d ↦{fullShare} A.vpt d) ∗ (v21Loc d ↦{fullShare} A.h21 d))
      ⊢ (iprop((v20Loc d ↦{shareDrop fullShare 32} A.pk d) ∗ (v16Loc d ↦{shareDrop fullShare 32} A.vpt d)
          ∗ bigSep Finset.univ fun c : Fin ((K (F := F)).nCore 1) => (P A).st 1 d c) : sProp 𝕄) := by
  rw [st1_eq, show (bigSep Finset.univ fun c : Fin 2 => bigSep Finset.univ fun i : Fin 16 => go1 A d c i : sProp 𝕄) = _ from tiles1 A d (A.h21 d)]
  iintro ⟨H20, H16, H21⟩
  ihave H20' := (toks_tiles (A.pk d)).1 $$ H20
  ihave H16' := (toks_tiles (A.vpt d)).1 $$ H16
  icases H20' with ⟨H20d, H20t⟩
  icases H16' with ⟨H16d, H16t⟩
  isplitl [H20d]; · iexact H20d
  isplitl [H16d]; · iexact H16d
  isplitl [H20t]; · iexact H20t
  isplitl [H16t]; · iexact H16t
  iexact H21

/-- After call 1: the read shares join what the TensorCore kept; the 192 rows are the aggregated rows' array, whole. -/
theorem whole_of_dn1 (d : Dev nD) :
    (iprop((v20Loc d ↦{shareDrop fullShare 32} A.pk d) ∗ (v16Loc d ↦{shareDrop fullShare 32} A.vpt d)
          ∗ bigSep Finset.univ fun c : Fin ((K (F := F)).nCore 1) => (P A).dn 1 d c) : sProp 𝕄)
      ⊢ iprop((v20Loc d ↦{fullShare} A.pk d) ∗ (v16Loc d ↦{fullShare} A.vpt d) ∗ (v21Loc d ↦{fullShare} aggBuf A d)) := by
  rw [dn1_eq, show (bigSep Finset.univ fun c : Fin 2 => bigSep Finset.univ fun i : Fin 16 => td1 A d c i : sProp 𝕄) = _ from tiles1 A d (aggBuf A d)]
  iintro ⟨H20d, H16d, H20t, H16t, H21⟩
  isplitl [H20d H20t]
  · iapply (toks_tiles (A.pk d)).2
    isplitl [H20d]; · iexact H20d
    iexact H20t
  isplitl [H16d H16t]
  · iapply (toks_tiles (A.vpt d)).2
    isplitl [H16d]; · iexact H16d
    iexact H16t
  iexact H21

end Cert.Proof.KB

end
-- ==== Proof.KB.Calls.lean ====
/-
  The two SparseCore calls of @main, over the TensorCore's held set: each takes its own arrays out of the set, deals
  them to the call's SparseCores tile by tile, gets the tiles' results back, and puts the arrays back at the next
  valuation of the chain.
-/
import proofs.«207992_g50208167690906_cont_8to1c4_731_36_alg».proof.Proof.KB.Held
import proofs.«207992_g50208167690906_cont_8to1c4_731_36_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq)
open Idealize.ShloMosaic.Transfers (shareTok shareDrop)

variable {F : FTy → Type} [FloatOps F]

local notation "𝕄" => MT nD τ sig (HIx 2) (Elt F) ℕ UU ℕ

variable (m : (ℓ : Loc nD τ sig) → Buf (Elt F) ℓ) (hok : PreOK m)

/-- What the TensorCore holds in the calls' arrays when it starts each call. -/
def handed : Handed F where
  row d := W1 m d (dr main_v1)
  h8 d := W1 m d (dr main_v8)
  pk d := W7 m d (hok.row d) (dr main_v20)
  vpt d := W7 m d (hok.row d) (dr main_v16)
  h21 d := W7 m d (hok.row d) (dr main_v21)
  hrow := hok.row
  hpk := hok.packed

/-- What the handshakes carry. -/
abbrev PP : (K (F := F)).Pay (nD := nD) (Val := Elt F) (Name := ℕ) (U := UU) := P (handed m hok)

/-! ## Call 0: the row words and the histograms' array -/

def T0 : Finset (DevRef τ sig) := {dr main_v1, dr main_v8}

omit [FloatOps F] in
theorem T0_sub : T0 ⊆ SU := by
  intro b hb
  simp only [T0, Finset.mem_insert, Finset.mem_singleton] at hb
  rcases hb with rfl | rfl <;> exact mem_SU rfl

omit [FloatOps F] in
theorem held_T0 (d : Dev nD) (W : Valuation τ sig (Elt F)) :
    (held (T d) T0 W : sProp 𝕄) = iprop((v1Loc d ↦{fullShare} W (dr main_v1)) ∗ (v8Loc d ↦{fullShare} W (dr main_v8))) := by
  unfold held T0
  rw [SparseCore.bigSep_insert' (by decide), bigSep_singleton]

theorem W2_off (d : Dev nD) (hr : Histo.RowOK (rowWords m d)) : ∀ b ∈ SU \ T0, W1 m d b = W2 m d hr b := fun b hb => by
  have hb' := (Finset.mem_sdiff.mp hb).2
  unfold W2
  rw [Function.update_of_ne]
  rintro rfl
  exact hb' (by simp [T0])

theorem W2_v1 (d : Dev nD) (hr : Histo.RowOK (rowWords m d)) : W2 m d hr (dr main_v1) = W1 m d (dr main_v1) :=
  Function.update_of_ne (show dr main_v1 ≠ dr main_v8 by decide) _ _
theorem W2_v8 (d : Dev nD) : W2 m d (hok.row d) (dr main_v8) = histBuf (handed m hok) d :=
  Function.update_self _ _ _

/-- The histogram call, from the held set at the valuation before it to the set at the valuation after it. -/
theorem run0 (κ : GSem nD τ sig → ℕ) (d : Dev nD) {Φ : PUnit → sProp 𝕄} :
    iprop((K (F := F)).ctx EH (PP m hok) κ ∗ (K (F := F)).tcSt EH d 0 ∗ held (T d) SU (W1 m d)
        ∗ (((K (F := F)).tcSt EH d 1 ∗ held (T d) SU (W2 m d (hok.row d))) -∗ Φ ⟨⟩))
      ⊢ wp frame (wpE ((K (F := F)).defs (D (F := F))) 𝒱 (SparseCore.T d) none) Set.univ ((K (F := F)).run d 0) Φ := by
  iintro ⟨#Hctx, Hst, Hheld, HΦ⟩
  ihave H := (held_swap (F := F) T0_sub (W2_off m d (hok.row d)) (T d)) $$ Hheld
  icases H with ⟨HT, Hback⟩
  ihave HT' := (Entails.of_eq (held_T0 (F := F) d (W1 m d))) $$ HT
  iapply ((K (F := F)).wp_run (D (F := F)) 𝒱 (EH := EH) (P := PP m hok) κ d 0) $$ [Hst HT' Hback HΦ]
  isplitr; · iexact Hctx
  isplitl [Hst]; · iexact Hst
  isplitl [HT']
  · iapply (st_of_whole0 (handed m hok) d); iexact HT'
  iintro ⟨Hst, Hdn⟩
  ihave Hw := (whole_of_dn0 (handed m hok) d) $$ Hdn
  iapply HΦ
  isplitl [Hst]; · iexact Hst
  iapply Hback
  rw [held_T0, W2_v1, W2_v8 m hok]
  iexact Hw

/-! ## Call 1: the packed words, the feature rows and the aggregated rows' array -/

def T1 : Finset (DevRef τ sig) := {dr main_v20, dr main_v16, dr main_v21}

omit [FloatOps F] in
theorem T1_sub : T1 ⊆ SU := by
  intro b hb
  simp only [T1, Finset.mem_insert, Finset.mem_singleton] at hb
  rcases hb with rfl | rfl | rfl <;> exact mem_SU rfl

omit [FloatOps F] in
theorem held_T1 (d : Dev nD) (W : Valuation τ sig (Elt F)) :
    (held (T d) T1 W : sProp 𝕄)
      = iprop((v20Loc d ↦{fullShare} W (dr main_v20)) ∗ (v16Loc d ↦{fullShare} W (dr main_v16)) ∗ (v21Loc d ↦{fullShare} W (dr main_v21))) := by
  unfold held T1
  rw [SparseCore.bigSep_insert' (by decide), SparseCore.bigSep_insert' (by decide), bigSep_singleton]

theorem W8_off (d : Dev nD) (hr : Histo.RowOK (rowWords m d)) (hpk : Edge.PackedOK (packedWords m d hr)) :
    ∀ b ∈ SU \ T1, W7 m d hr b = W8 m d hr hpk b := fun b hb => by
  have hb' := (Finset.mem_sdiff.mp hb).2
  unfold W8
  rw [Function.update_of_ne]
  rintro rfl
  exact hb' (by simp [T1])

theorem W8_v20 (d : Dev nD) (hr : Histo.RowOK (rowWords m d)) (hpk : Edge.PackedOK (packedWords m d hr)) :
    W8 m d hr hpk (dr main_v20) = W7 m d hr (dr main_v20) :=
  Function.update_of_ne (show dr main_v20 ≠ dr main_v21 by decide) _ _
theorem W8_v16 (d : Dev nD) (hr : Histo.RowOK (rowWords m d)) (hpk : Edge.PackedOK (packedWords m d hr)) :
    W8 m d hr hpk (dr main_v16) = W7 m d hr (dr main_v16) :=
  Function.update_of_ne (show dr main_v16 ≠ dr main_v21 by decide) _ _
theorem W8_v21 (d : Dev nD) : W8 m d (hok.row d) (hok.packed d) (dr main_v21) = aggBuf (handed m hok) d :=
  Function.update_self _ _ _

/-- The call's three arrays at the valuation before it, as what the call is handed. -/
theorem held_T1h (d : Dev nD) :
    (held (T d) T1 (W7 m d (hok.row d)) : sProp 𝕄)
      = iprop((v20Loc d ↦{fullShare} (handed m hok).pk d) ∗ (v16Loc d ↦{fullShare} (handed m hok).vpt d) ∗ (v21Loc d ↦{fullShare} (handed m hok).h21 d)) :=
  held_T1 d _

/-- The edge call, likewise; what is left of the two arrays every tile reads stays with the TensorCore meanwhile. -/
theorem run1 (κ : GSem nD τ sig → ℕ) (d : Dev nD) {Φ : PUnit → sProp 𝕄} :
    iprop((K (F := F)).ctx EH (PP m hok) κ ∗ (K (F := F)).tcSt EH d 1 ∗ held (T d) SU (W7 m d (hok.row d))
        ∗ (((K (F := F)).tcSt EH d 2 ∗ held (T d) SU (W8 m d (hok.row d) (hok.packed d))) -∗ Φ ⟨⟩))
      ⊢ wp frame (wpE ((K (F := F)).defs (D (F := F))) 𝒱 (SparseCore.T d) none) Set.univ ((K (F := F)).run d 1) Φ := by
  iintro ⟨#Hctx, Hst, Hheld, HΦ⟩
  ihave H := (held_swap (F := F) T1_sub (W8_off m d (hok.row d) (hok.packed d)) (T d)) $$ Hheld
  icases H with ⟨HT, Hback⟩
  ihave HT' := (Entails.of_eq (held_T1h m hok d)) $$ HT
  ihave Hs := (st_of_whole1 (handed m hok) d) $$ HT'
  icases Hs with ⟨Hr20, Hr16, Hst1⟩
  iapply ((K (F := F)).wp_run (D (F := F)) 𝒱 (EH := EH) (P := PP m hok) κ d 1) $$ [Hst Hst1 Hr20 Hr16 Hback HΦ]
  isplitr; · iexact Hctx
  isplitl [Hst]; · iexact Hst
  isplitl [Hst1]; · iexact Hst1
  iintro ⟨Hst, Hdn⟩
  ihave Hw := (whole_of_dn1 (handed m hok) d) $$ [Hr20 Hr16 Hdn]
  · isplitl [Hr20]; · iexact Hr20
    isplitl [Hr16]; · iexact Hr16
    iexact Hdn
  iapply HΦ
  isplitl [Hst]; · iexact Hst
  iapply Hback
  rw [held_T1, W8_v20, W8_v16, W8_v21 m hok]
  iexact Hw

end Cert.Proof.KB

end
-- ==== Proof.KB.MainEq.lean ====
/-
  The TensorCore's program of the launch as six straight lines of host operations with the five calls between them:
  the printed `main` unfolds to this composition by computation.
-/
import proofs.«207992_g50208167690906_cont_8to1c4_731_36_alg».proof.Proof.KB.Base
import proofs.«207992_g50208167690906_cont_8to1c4_731_36_alg».proof.Proof.KB.MainOps

noncomputable section

namespace Cert.Proof.KB

open Cert.Kernel Cert.Kernel.Gen

open Idealize.ShloMosaic Idealize.SL.Sem
open Idealize.ShloMosaic.StableHlo (seq)
open Cert.Proof.KB.MainOps

variable {F : FTy → Type} [FloatOps F]

/-- The three TensorCore calls' lines in @main. -/
abbrev regionCall (p : Fin 3) : Prog (TpuEff nD τ sig (Elt F) (SparseCore.Sig (ΛP (F := F)) 2) .tc) PUnit :=
  Prog.lift (.customCall (SparseCore.inner (Pipeline.entry p)) ())

/-- @main, stretch by stretch: host operations, the histogram call, host operations, the scaling region, host
    operations, the packing region, one host operation, the edge call, host operations, the dense region, host
    operations. -/
def mainSplit (d : Dev nD) : Prog (TpuEff nD τ sig (Elt F) (SparseCore.Sig (ΛP (F := F)) 2) .tc) PUnit :=
  seq ops0 >>= fun _ => (K (F := F)).run d 0 >>= fun _ => seq ops1 >>= fun _ =>
  regionCall 0 >>= fun _ => seq ops2 >>= fun _ =>
  regionCall 1 >>= fun _ => seq ops3 >>= fun _ =>
  (K (F := F)).run d 1 >>= fun _ => seq ops4 >>= fun _ =>
  regionCall 2 >>= fun _ => seq ops5

set_option maxRecDepth 8192 in
set_option maxHeartbeats 4000000 in
theorem main_eq (d : Dev nD) : main (F := F) d = mainSplit d := rfl

end Cert.Proof.KB

end
-- ==== Proof.KB.Elem.lean ====
/-
  The launch element of the ghost state: the handshakes' rounds at their launch, the three pipelines' staging cells'
  rounds at theirs, the local transfers' counters at nothing. From it the launch deals the handshakes' component to
  the launch theorem and, to each device's TensorCore, the ghost state of the three pipelines' staging cells; the
  kernels' own proofs are dealt nothing.
-/
import proofs.«207992_g50208167690906_cont_8to1c4_731_36_alg».proof.Proof.KB.Base
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- No pipeline has a prefetched table: each is admissible at none. -/
abbrev adm (p : Fin 3) : (pcfgs (F := F) p).Adm := (cfgs p).toPCfg_adm

/-- What @main's proof starts from on device `d`, beyond what the launch deals every TensorCore: the ghost state
    of the three pipelines' staging cells. -/
abbrev G (d : Dev nD) : sProp 𝕄 := Pipeline.ghostOn (pcfgs (F := F)) adm EP Finset.univ d

/-- The launch element. -/
def u₀ : UU :=
  (initOf (K (F := F)).hsCells (K (F := F)).hsToks,
    (initOf (Pipeline.cells cfgs Gen.cellOf_inj) (Pipeline.launchToks cfgs Gen.cellOf_inj), 1))

theorem bigSep_emp' {I : Type} (s : Finset I) : (bigSep s fun _ => iprop(emp)) = (iprop(emp) : sProp 𝕄) := bigSep_emp_const s

/-- The staging cells' ghost state and duty tokens, regrouped per device. -/
theorem ghost_join :
    iprop((bigSep Finset.univ fun c : Dev nD => bigSep Finset.univ fun p : Fin 3 => Pipeline.cellsGhost (Pipeline.pin (pcfgs (F := F)) adm) EP p c)
        ∗ (bigSep Finset.univ fun c : Dev nD => bigSep Finset.univ fun p : Fin 3 => (Pipeline.toksInit (Pipeline.pin (pcfgs (F := F)) adm) EP p c : sProp 𝕄)))
      ⊢ bigSep Finset.univ fun c : Dev nD => (G c : sProp 𝕄) := by
  rw [← bigSep_sep']
  exact bigSep_mono fun c _ => show iprop((bigSep Finset.univ fun p : Fin 3 => Pipeline.cellsGhost (Pipeline.pin (pcfgs (F := F)) adm) EP p c)
        ∗ bigSep Finset.univ fun p : Fin 3 => (Pipeline.toksInit (Pipeline.pin (pcfgs (F := F)) adm) EP p c : sProp 𝕄)) ⊢ G c
    from Entails.of_eq (by
      show _ = Pipeline.PerCore.ghostOn (pcfgs (F := F)) (fun _ => adm) EP Finset.univ c
      unfold Pipeline.PerCore.ghostOn; rw [bigSep_sep'])

/-- The staging cells' component of the launch element, through its embedding. -/
theorem own_EP :
    (BI.own ((embR : Emb (UK × Counters) 𝕄) (initOf (Pipeline.cells cfgs Gen.cellOf_inj) (Pipeline.launchToks cfgs Gen.cellOf_inj), (1 : Counters))) : sProp 𝕄)
      ⊢ BI.own ((EP : Emb UK 𝕄) (initOf (Pipeline.cells (Pipeline.pin (pcfgs (F := F)) adm) Gen.cellOf_inj)
          (Pipeline.launchToks (Pipeline.pin (pcfgs (F := F)) adm) Gen.cellOf_inj))) := by
  have h2 : iprop(BI.own (((Emb.inl : Emb UK (UK × Counters)).trans (embR : Emb (UK × Counters) 𝕄))
          (initOf (Pipeline.cells cfgs Gen.cellOf_inj) (Pipeline.launchToks cfgs Gen.cellOf_inj)))
        ∗ BI.own (((Emb.inr : Emb Counters (UK × Counters)).trans (embR : Emb (UK × Counters) 𝕄)) (1 : Counters)))
      ⊢ (BI.own ((EP : Emb UK 𝕄) (initOf (Pipeline.cells (Pipeline.pin (pcfgs (F := F)) adm) Gen.cellOf_inj)
          (Pipeline.launchToks (Pipeline.pin (pcfgs (F := F)) adm) Gen.cellOf_inj))) : sProp 𝕄) := by
    unfold EP
    iintro ⟨H, -⟩
    iexact H
  exact (own_pair_emb (embR : Emb (UK × Counters) 𝕄) _ (1 : Counters)).trans h2

/-- The launch element splits into the handshakes' rounds, each device's pipelines' ghost state, and nothing for the
    kernels' own proofs. -/
theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => P.x q thr) := by
  unfold u₀
  iintro Hu
  ihave H := (ownU_pair _ _) $$ Hu
  icases H with ⟨HH, HR⟩
  ihave HP := (own_EP (F := F)) $$ HR
  imod (Pipeline.fund_ghost (Pipeline.pin (pcfgs (F := F)) adm) EP Gen.cellOf_inj) $$ HP with ⟨Hg, Ht⟩
  imodintro
  isplitl [HH]; · iexact HH
  isplitl [Hg Ht]
  · iapply ghost_join
    isplitl [Hg]; · iexact Hg
    iexact Ht
  rw [hx]
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KB

end
-- ==== Proof.KB.Main.lean ====
/-
  @main on a device's TensorCore: six straight lines of host operations over the held set of all its unscoped
  arrays, the two SparseCore calls and the three TensorCore regions between them, each taking its own arrays out
  of the set and putting them back at the next valuation of the chain. What is left at the return: the handshake
  state after both calls and the whole set at the last valuation.
-/
import proofs.«207992_g50208167690906_cont_8to1c4_731_36_alg».proof.Proof.KB.Calls
import proofs.«207992_g50208167690906_cont_8to1c4_731_36_alg».proof.Proof.KB.MainEq
import proofs.«207992_g50208167690906_cont_8to1c4_731_36_alg».proof.Proof.KB.Elem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq wp_seq)
open Cert.Proof.KB.MainOps

variable {F : FTy → Type} [FloatOps F]

local notation "𝕄" => MT nD τ sig (HIx 2) (Elt F) ℕ UU ℕ

/-! ## The regions' results, as rewritings of a valuation -/

/-- The scaling region's two results, written into a valuation. -/
def scaleOut (W : Valuation τ sig (Elt F)) : Valuation τ sig (Elt F) :=
  Function.update
    (Function.update W (dr main_v13_0) (Region.scale0 (W (dr main_arg0)) (W (dr main_v12))))
    (dr main_v13_1) (Region.scale1 (W (dr main_v5)) (W (dr main_v12)))

/-- The packing region's result. -/
def packOut (W : Valuation τ sig (Elt F)) : Valuation τ sig (Elt F) :=
  Function.update W (dr main_v19) (Region.pack (F := F) (W (dr main_v17)) (W (dr main_v18)))

/-- The dense region's three results. -/
def denseOut (W : Valuation τ sig (Elt F)) : Valuation τ sig (Elt F) :=
  Function.update
    (Function.update
      (Function.update W (dr main_v46_0) (denseOut0 W))
      (dr main_v46_1) (denseOut1 W))
    (dr main_v46_2) (denseOut2 W)

/-- The regions' arrays: every window's, operands and results. -/
def R0 : Finset (DevRef τ sig) := {dr main_arg0, dr main_v5, dr main_v12, dr main_v13_0, dr main_v13_1}
def R1 : Finset (DevRef τ sig) := {dr main_v17, dr main_v18, dr main_v19}
def R2 : Finset (DevRef τ sig) :=
  {dr main_arg0, dr main_v5, dr main_v7, dr main_v24, dr main_v25, dr main_v12, dr main_v29, dr main_v33, dr main_v37,
    dr main_v41, dr main_v44, dr main_arg7, dr main_arg9, dr main_v45, dr main_v46_0, dr main_v46_1, dr main_v46_2}

omit [FloatOps F] in
theorem R0_sub : R0 ⊆ SU := by
  intro b hb
  simp only [R0, Finset.mem_insert, Finset.mem_singleton] at hb
  rcases hb with rfl | rfl | rfl | rfl | rfl <;> exact mem_SU rfl
omit [FloatOps F] in
theorem R1_sub : R1 ⊆ SU := by
  intro b hb
  simp only [R1, Finset.mem_insert, Finset.mem_singleton] at hb
  rcases hb with rfl | rfl | rfl <;> exact mem_SU rfl
omit [FloatOps F] in
theorem R2_sub : R2 ⊆ SU := by
  intro b hb
  simp only [R2, Finset.mem_insert, Finset.mem_singleton] at hb
  rcases hb with rfl | rfl | rfl | rfl | rfl | rfl | rfl | rfl | rfl | rfl | rfl | rfl | rfl | rfl | rfl | rfl | rfl <;> exact mem_SU rfl

theorem scaleOut_off (W : Valuation τ sig (Elt F)) : ∀ b ∈ SU \ R0, W b = scaleOut W b := fun b hb => by
  have hb' := (Finset.mem_sdiff.mp hb).2
  unfold scaleOut
  rw [Function.update_of_ne (by rintro rfl; exact hb' (by simp [R0])), Function.update_of_ne (by rintro rfl; exact hb' (by simp [R0]))]
theorem packOut_off (W : Valuation τ sig (Elt F)) : ∀ b ∈ SU \ R1, W b = packOut W b := fun b hb => by
  have hb' := (Finset.mem_sdiff.mp hb).2
  unfold packOut
  rw [Function.update_of_ne (by rintro rfl; exact hb' (by simp [R1]))]
theorem denseOut_off (W : Valuation τ sig (Elt F)) : ∀ b ∈ SU \ R2, W b = denseOut W b := fun b hb => by
  have hb' := (Finset.mem_sdiff.mp hb).2
  unfold denseOut
  rw [Function.update_of_ne (by rintro rfl; exact hb' (by simp [R2])), Function.update_of_ne (by rintro rfl; exact hb' (by simp [R2])),
    Function.update_of_ne (by rintro rfl; exact hb' (by simp [R2]))]

/-! ## What a region is asked -/

/-- What the TensorCore owes before call `n`, its recorded waits bounded: the first factor of its handshake state. -/
abbrev owesTc (d : Dev nD) (n : ℕ) : sProp 𝕄 :=
  iprop(∃ W, ⌜(K (F := F)).WBelow (T d) W (8 * n)⌝ ∗ owes (T d) ((K (F := F)).Otc d n) W)

/-- Pipeline `p`'s staging cells' ghost state on device `d`, as the launch deals it. -/
abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

variable (P : (K (F := F)).Pay (nD := nD) (Val := Elt F) (Name := ℕ) (U := UU))

/-- A region's account over its own arrays held whole: from any valuation of them to the valuation with its results
    written, consuming its pipeline's ghost state; the boundary and what the TensorCore owes go in and come back. -/
def RegionSpec (p : Fin 3) (R : Finset (DevRef τ sig)) (out : Valuation τ sig (Elt F) → Valuation τ sig (Elt F)) : Prop :=
  ∀ (κ : GSem nD τ sig → ℕ) (d : Dev nD) (n : ℕ) (W : Valuation τ sig (Elt F)) (Φ : PUnit → sProp 𝕄),
    iprop((K (F := F)).ctx EH P κ ∗ boundary (T d) ∗ owesTc d n ∗ ghostAt p d ∗ held (T d) R W
        ∗ ((boundary (T d) ∗ owesTc d n ∗ held (T d) R (out W)) -∗ Φ ⟨⟩))
      ⊢ wp frame (wpE ((K (F := F)).defs (D (F := F))) 𝒱 (SparseCore.T d) none) Set.univ (regionCall p) Φ

/-! ## The steps, each ahead of a continuation -/

section Steps

variable {β : Type} (k : PUnit → Prog (TpuEff nD τ sig (Elt F) (SparseCore.Sig (ΛP (F := F)) 2) .tc) β) (Ψ : β → sProp (MT nD τ sig (HIx 2) (Elt F) ℕ UU ℕ))

set_option backward.isDefEq.respectTransparency.types false in
/-- A straight line of host operations over the held set. -/
theorem seq_step (d : Dev nD) (ops : List (HloOp τ sig (Elt F))) (hS : ∀ op ∈ ops, op.bufs ⊆ SU) (hf : ∀ op ∈ ops, op.fresh = ∅)
    (W : Valuation τ sig (Elt F)) :
    iprop(boundary (T d) ∗ held (T d) SU W
        ∗ ((boundary (T d) ∗ held (T d) SU (after ops W)) -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ (seq ops >>= k) Ψ := by
  iintro ⟨Hb, Hh, Hk⟩
  iapply (wp_seq (defs := (K (F := F)).defs (D (F := F))) 𝒱 none Set.univ d SU k ops hS hf W) $$ [Hb Hh]
  · isplitl [Hb]; · iexact Hb
    iexact Hh
  iexact Hk

variable (m : (ℓ : Loc nD τ sig) → Buf (Elt F) ℓ) (hok : PreOK m)

/-- The histogram call ahead of a continuation. -/
theorem run0_step (κ : GSem nD τ sig → ℕ) (d : Dev nD) :
    iprop((K (F := F)).ctx EH (PP m hok) κ ∗ (K (F := F)).tcSt EH d 0 ∗ held (T d) SU (W1 m d)
        ∗ (((K (F := F)).tcSt EH d 1 ∗ held (T d) SU (W2 m d (hok.row d)))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 0 >>= k) Ψ := by
  rw [wp_bind]
  exact run0 m hok κ d (Φ := fun x => wp frame (wpE ((K (F := F)).defs (D (F := F))) 𝒱 (SparseCore.T d) none) Set.univ (k x) Ψ)

/-- The edge call ahead of a continuation. -/
theorem run1_step (κ : GSem nD τ sig → ℕ) (d : Dev nD) :
    iprop((K (F := F)).ctx EH (PP m hok) κ ∗ (K (F := F)).tcSt EH d 1 ∗ held (T d) SU (W7 m d (hok.row d))
        ∗ (((K (F := F)).tcSt EH d 2 ∗ held (T d) SU (W8 m d (hok.row d) (hok.packed d)))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 1 >>= k) Ψ := by
  rw [wp_bind]
  exact run1 m hok κ d (Φ := fun x => wp frame (wpE ((K (F := F)).defs (D (F := F))) 𝒱 (SparseCore.T d) none) Set.univ (k x) Ψ)

/-- The handshake state's first factor is what the TensorCore owes. -/
theorem tcSt_owes (d : Dev nD) (n : ℕ) : ∃ R : sProp 𝕄, (K (F := F)).tcSt EH d n = iprop(owesTc d n ∗ R) := ⟨_, rfl⟩

/-- A region ahead of a continuation, over the held set: its arrays out, the region, its arrays back. -/
theorem region_step {p : Fin 3} {R : Finset (DevRef τ sig)} {out : Valuation τ sig (Elt F) → Valuation τ sig (Elt F)}
    (h : RegionSpec P p R out) (hR : R ⊆ SU) (hoff : ∀ W, ∀ b ∈ SU \ R, W b = out W b)
    (κ : GSem nD τ sig → ℕ) (d : Dev nD) (n : ℕ) (W : Valuation τ sig (Elt F)) :
    iprop((K (F := F)).ctx EH P κ ∗ boundary (T d) ∗ (K (F := F)).tcSt EH d n ∗ ghostAt p d ∗ held (T d) SU W
        ∗ ((boundary (T d) ∗ (K (F := F)).tcSt EH d n ∗ held (T d) SU (out W))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ (regionCall p >>= k) Ψ := by
  obtain ⟨Rest, hRest⟩ := tcSt_owes (F := F) d n
  rw [wp_bind, hRest]
  iintro ⟨#Hctx, Hb, ⟨Ho, Hrest⟩, Hg, Hheld, Hk⟩
  ihave H := (held_swap (F := F) hR (hoff W) (T d)) $$ Hheld
  icases H with ⟨HT, Hback⟩
  iapply (h κ d n W _) $$ [Hb Ho Hg HT Hrest Hback Hk]
  isplitr; · iexact Hctx
  isplitl [Hb]; · iexact Hb
  isplitl [Ho]; · iexact Ho
  isplitl [Hg]; · iexact Hg
  isplitl [HT]; · iexact HT
  iintro ⟨Hb, Ho, HT⟩
  iapply Hk
  isplitl [Hb]; · iexact Hb
  isplitl [Ho Hrest]
  · isplitl [Ho]; · iexact Ho
    iexact Hrest
  iapply Hback
  iexact HT

end Steps

/-! ## @main -/

variable (m : (ℓ : Loc nD τ sig) → Buf (Elt F) ℓ) (ρ : Dev nD → PrngReg) (hok : PreOK m)

/-- What @main leaves: the whole set at the last valuation. -/
abbrev FIN (d : Dev nD) : sProp 𝕄 := held (T d) SU (W11 m d (hok.row d) (hok.packed d))

omit [FloatOps F] in
/-- The three pipelines' ghost state, one by one. -/
theorem G_split (d : Dev nD) : (G (F := F) d : sProp 𝕄) = iprop(ghostAt 0 d ∗ ghostAt 1 d ∗ ghostAt 2 d) := by
  show Pipeline.PerCore.ghostOn (pcfgs (F := F)) (fun _ => adm) EP Finset.univ d = _
  unfold Pipeline.PerCore.ghostOn
  rw [Gen.bigSep_W2]

/-- @main on device `d`'s TensorCore. -/
theorem hmain (h0 : RegionSpec (PP m hok) 0 R0 scaleOut) (h1 : RegionSpec (PP m hok) 1 R1 packOut) (h2 : RegionSpec (PP m hok) 2 R2 denseOut)
    (κ : GSem nD τ sig → ℕ) (d : Dev nD) :
    iprop((K (F := F)).ctx EH (PP m hok) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m hok d) := by
  unfold SparseCore.Cfg.tcRes
  rw [unscoped_held, main_eq, G_split]
  unfold mainSplit
  iintro ⟨#Hctx, Hst, ⟨Hb, Hheld, -, -⟩, Hg0, Hg1, Hg2⟩
  -- the first line
  iapply (seq_step _ _ d ops0 ops0_sub ops0_fresh (W0 m d)) $$ [Hb Hheld Hst Hg0 Hg1 Hg2]
  isplitl [Hb]; · iexact Hb
  isplitl [Hheld]; · iexact Hheld
  iintro ⟨Hb, Hheld⟩
  -- the histogram call
  iapply (run0_step _ _ m hok κ d) $$ [Hb Hheld Hst Hg0 Hg1 Hg2]
  isplitr; · iexact Hctx
  isplitl [Hst]; · iexact Hst
  isplitl [Hheld]; · iexact Hheld
  iintro ⟨Hst, Hheld⟩
  -- the second line
  iapply (seq_step _ _ d ops1 ops1_sub ops1_fresh (W2 m d (hok.row d))) $$ [Hb Hheld Hst Hg0 Hg1 Hg2]
  isplitl [Hb]; · iexact Hb
  isplitl [Hheld]; · iexact Hheld
  iintro ⟨Hb, Hheld⟩
  -- the scaling region
  iapply (region_step (PP m hok) _ _ h0 R0_sub scaleOut_off κ d 1 (W3 m d (hok.row d))) $$ [Hb Hheld Hst Hg0 Hg1 Hg2]
  isplitr; · iexact Hctx
  isplitl [Hb]; · iexact Hb
  isplitl [Hst]; · iexact Hst
  isplitl [Hg0]; · iexact Hg0
  isplitl [Hheld]; · iexact Hheld
  iintro ⟨Hb, Hst, Hheld⟩
  -- the third line
  iapply (seq_step _ _ d ops2 ops2_sub ops2_fresh (W4 m d (hok.row d))) $$ [Hb Hheld Hst Hg1 Hg2]
  isplitl [Hb]; · iexact Hb
  isplitl [Hheld]; · iexact Hheld
  iintro ⟨Hb, Hheld⟩
  -- the packing region
  iapply (region_step (PP m hok) _ _ h1 R1_sub packOut_off κ d 1 (W5 m d (hok.row d))) $$ [Hb Hheld Hst Hg1 Hg2]
  isplitr; · iexact Hctx
  isplitl [Hb]; · iexact Hb
  isplitl [Hst]; · iexact Hst
  isplitl [Hg1]; · iexact Hg1
  isplitl [Hheld]; · iexact Hheld
  iintro ⟨Hb, Hst, Hheld⟩
  -- the fourth line
  iapply (seq_step _ _ d ops3 ops3_sub ops3_fresh (W6 m d (hok.row d))) $$ [Hb Hheld Hst Hg2]
  isplitl [Hb]; · iexact Hb
  isplitl [Hheld]; · iexact Hheld
  iintro ⟨Hb, Hheld⟩
  -- the edge call
  iapply (run1_step _ _ m hok κ d) $$ [Hb Hheld Hst Hg2]
  isplitr; · iexact Hctx
  isplitl [Hst]; · iexact Hst
  isplitl [Hheld]; · iexact Hheld
  iintro ⟨Hst, Hheld⟩
  -- the fifth line
  iapply (seq_step _ _ d ops4 ops4_sub ops4_fresh (W8 m d (hok.row d) (hok.packed d))) $$ [Hb Hheld Hst Hg2]
  isplitl [Hb]; · iexact Hb
  isplitl [Hheld]; · iexact Hheld
  iintro ⟨Hb, Hheld⟩
  -- the dense region
  iapply (region_step (PP m hok) _ _ h2 R2_sub denseOut_off κ d 2 (W9 m d (hok.row d) (hok.packed d))) $$ [Hb Hheld Hst Hg2]
  isplitr; · iexact Hctx
  isplitl [Hb]; · iexact Hb
  isplitl [Hst]; · iexact Hst
  isplitl [Hg2]; · iexact Hg2
  isplitl [Hheld]; · iexact Hheld
  iintro ⟨Hb, Hst, Hheld⟩
  -- the last line, and the return
  rw [show (seq (ops5 (F := F)) : Prog (TpuEff nD τ sig (Elt F) (SparseCore.Sig (ΛP (F := F)) 2) .tc) PUnit) = seq ops5 >>= fun _ => pure ⟨⟩ from (bind_pure _).symm]
  iapply (seq_step _ _ d ops5 ops5_sub ops5_fresh (W10 m d (hok.row d) (hok.packed d))) $$ [Hb Hheld Hst]
  isplitl [Hb]; · iexact Hb
  isplitl [Hheld]; · iexact Hheld
  iintro ⟨-, Hheld⟩
  rw [wp_pure]; imodintro
  isplitl [Hst]; · iexact Hst
  iexact Hheld

end Cert.Proof.KB

end
-- ==== Proof.KB.Run.lean ====
/-
  The program's run: every weakly fair execution of the mesh's threads from a memory whose counters are zero
  terminates, and at its end every unscoped array of every TensorCore holds what the chain's last valuation gives
  it; an array @main never writes holds its launch contents. The launch theorem applied to the two kernels' tile
  obligations, how a SparseCore's operands split among its tiles, @main's proof, the launch element, and the reading
  of the final memory.
-/
import proofs.«207992_g50208167690906_cont_8to1c4_731_36_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq after_of_writes_sub)
open Cert.Proof.KB.MainOps

variable {F : FTy → Type} [FloatOps F]

local notation "𝕄" => MT nD τ sig (HIx 2) (Elt F) ℕ UU ℕ

variable (m : (ℓ : Loc nD τ sig) → Buf (Elt F) ℓ) (ρ : Dev nD → PrngReg) (hok : PreOK m)

/-! ## Reading the final memory -/

omit [FloatOps F] in
/-- Under the state interpretation a held array pins the memory's contents of it. -/
theorem held_agree (d : Dev nD) {S : Finset (DevRef τ sig)} (W : Valuation τ sig (Elt F)) {b : DevRef τ sig} (hb : b ∈ S)
    (s' : Phys nD τ sig (Elt F)) :
    iprop(held (T d) S W ∗ SI s') ⊢ (⌜s'.mem.mem (d, b) = W b⌝ : sProp 𝕄) := by
  have h1 : (held (T d) S W : sProp 𝕄) ⊢ ((d, b) ↦{fullShare} W b : sProp 𝕄) := bigSep_elim hb
  iintro ⟨Hh, HSI⟩
  ihave Hx := h1 $$ Hh
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

/-- What the final memory is asked on device `d`: every unscoped array at the last valuation. -/
def fq (d : Dev nD) (s' : Phys nD τ sig (Elt F)) : Prop :=
  ∀ b : {b : DevRef τ sig // b ∈ SU}, s'.mem.mem (d, b.1) = W11 m d (hok.row d) (hok.packed d) b.1

theorem hfin (d : Dev nD) (s' : Phys nD τ sig (Elt F)) : iprop(FIN m hok d ∗ SI s') ⊢ (⌜fq m hok d s'⌝ : sProp 𝕄) :=
  (forall_intro fun b : {b : DevRef τ sig // b ∈ SU} => held_agree d _ b.2 s').trans pure_forall.2

/-- The run's post: on every device every unscoped array of the TensorCore ends at the last valuation. -/
def QC : PUnit × MemSt nD τ sig (Elt F) → Prop :=
  fun r => ∀ (c : Dev nD) (b : DevRef τ sig), b ∈ SU → r.2.mem (c, b) = W11 m c (hok.row c) (hok.packed c) b

/-! ## The run -/

theorem run_main [∀ e, Nonempty (Elt F e)]
    (htile0 : (K (F := F)).TileObl (D (F := F)) 𝒱 (PP m hok) v₀ 0) (htile1 : (K (F := F)).TileObl (D (F := F)) 𝒱 (PP m hok) v₀ 1)
    (h0 : RegionSpec (PP m hok) 0 R0 scaleOut) (h1 : RegionSpec (PP m hok) 1 R1 packOut) (h2 : RegionSpec (PP m hok) 2 R2 denseOut) :
    θ_run (Cert.Kernel.defs (F := F)) (Cert.Kernel.threads (F := F)) ⟨m, fun _ => 0, ρ⟩ (QC m hok) :=
  SparseCore.Cfg.θ_run_sc (K := K (F := F)) (D := D (F := F)) (𝒱 := 𝒱) (EH := EH) (P := PP m hok) facts v₀
    (fun q hq => match q with | 0 => nomatch hq | 1 => nomatch hq)
    (fun q _ => match q with | 0 => htile0 | 1 => htile1)
    (fun q _ => SparseCore.Cfg.VecSplit.of_plain (vecSplit (handed m hok) q))
    m ρ main (fun d => G d) (FIN m hok) (u₀ (F := F)) (sep_elim_left.trans (hu₀ (PP m hok) rfl)) (hmain m ρ hok h0 h1 h2)
    (fq m hok) (hfin m hok) (QC m hok) (fun _ h c b hb => h c ⟨b, hb⟩)

/-! ## The arrays @main never writes keep their launch contents -/

/-- Every reference some operation or call of @main writes. -/
def written : List (Ref sig .tc) :=
  [main_v0, main_v1, main_v2, main_v3, main_v4, main_v5, main_v6, main_v7, main_v9, main_cst, main_v10, main_v11, main_v12, main_v14, main_v15, main_v16, main_v17, main_v18, main_v20, main_v22, main_v23, main_v24, main_v25, main_v26, main_v27, main_v28, main_v29, main_v30, main_v31, main_v32, main_v33, main_v34, main_v35, main_v36, main_v37, main_v38, main_v39, main_v40, main_v41, main_v42, main_v43, main_v44, main_v45, main_v47, main_v48, main_v49, main_v8, main_v13_0, main_v13_1, main_v19, main_v21, main_v46_0, main_v46_1, main_v46_2]

omit [FloatOps F] in
theorem wr {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map.mpr ⟨y, h, rfl⟩))

theorem ops0_writes : (ops0 : List (HloOp τ sig (Elt F))).Forall fun op => op.writes ⊆ (written.map (Proc.devRef (τ := τ) .tc)).toFinset :=
  ⟨wr (by decide), wr (by decide), wr (by decide), wr (by decide), wr (by decide), wr (by decide), wr (by decide), wr (by decide)⟩
theorem ops1_writes : (ops1 : List (HloOp τ sig (Elt F))).Forall fun op => op.writes ⊆ (written.map (Proc.devRef (τ := τ) .tc)).toFinset :=
  ⟨wr (by decide), wr (by decide), wr (by decide), wr (by decide), wr (by decide)⟩
theorem ops2_writes : (ops2 : List (HloOp τ sig (Elt F))).Forall fun op => op.writes ⊆ (written.map (Proc.devRef (τ := τ) .tc)).toFinset :=
  ⟨wr (by decide), wr (by decide), wr (by decide), wr (by decide), wr (by decide)⟩
theorem ops3_writes : (ops3 : List (HloOp τ sig (Elt F))).Forall fun op => op.writes ⊆ (written.map (Proc.devRef (τ := τ) .tc)).toFinset :=
  wr (by decide)
theorem ops4_writes : (ops4 : List (HloOp τ sig (Elt F))).Forall fun op => op.writes ⊆ (written.map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩
theorem ops5_writes : (ops5 : List (HloOp τ sig (Elt F))).Forall fun op => op.writes ⊆ (written.map (Proc.devRef (τ := τ) .tc)).toFinset :=
  ⟨wr (by decide), wr (by decide), wr (by decide)⟩

omit [FloatOps F] in
/-- Rewriting a written reference's array leaves an unwritten one's alone. -/
theorem update_unwritten {r y : Ref sig .tc} (hr : r ∉ written) (hy : y ∈ written) (W : Valuation τ sig (Elt F)) (v : (dr y).ty.Contents (Elt F)) :
    Function.update W (dr y) v (dr r) = W (dr r) :=
  Function.update_of_ne (fun e => hr (by
    have h : r = y := Proc.devRef_injective (.tc : Proc τ) e
    exact h ▸ hy)) _ _

/-- An array @main never writes holds its launch contents at the last valuation. -/
theorem W11_unwritten {r : Ref sig .tc} (hr : r ∉ written) (d : Dev nD) (h1 : Histo.RowOK (rowWords m d)) (h2 : Edge.PackedOK (packedWords m d h1)) :
    W11 m d h1 h2 (dr r) = m (d, dr r) := by
  unfold W11 W10 W9 W8 W7 W6 W5 W4 W3 W2 W1 W0
  rw [after_of_writes_sub _ _ ops5_writes hr,
    update_unwritten hr (by decide), update_unwritten hr (by decide), update_unwritten hr (by decide),
    after_of_writes_sub _ _ ops4_writes hr, update_unwritten hr (by decide),
    after_of_writes_sub _ _ ops3_writes hr, update_unwritten hr (by decide),
    after_of_writes_sub _ _ ops2_writes hr, update_unwritten hr (by decide), update_unwritten hr (by decide),
    after_of_writes_sub _ _ ops1_writes hr, update_unwritten hr (by decide),
    after_of_writes_sub _ _ ops0_writes hr]

/-! ## The post, at the two results and the eleven arguments -/

/-- @main's arguments. -/
def argRefs : List (Ref sig .tc) :=
  [main_arg0, main_arg1, main_arg2, main_arg3, main_arg4, main_arg5, main_arg6, main_arg7, main_arg8, main_arg9, main_arg10]

omit [FloatOps F] in
theorem arg_unwritten : ∀ r ∈ argRefs, r ∉ written := by decide
omit [FloatOps F] in
theorem arg_unscoped : ∀ r ∈ argRefs, r.isScoped = false := by decide

/-- The run's post read at the two results and at the arguments: the results at the last valuation, every argument
    at its launch contents. -/
theorem QC_results {r : PUnit × MemSt nD τ sig (Elt F)} (h : QC m hok r) (c : Dev nD) :
    r.2.mem (c, dr main_v46_0) = W11 m c (hok.row c) (hok.packed c) (dr main_v46_0)
      ∧ r.2.mem (c, dr main_v49) = W11 m c (hok.row c) (hok.packed c) (dr main_v49)
      ∧ ∀ a ∈ argRefs, r.2.mem (c, dr a) = m (c, dr a) :=
  ⟨h c _ (mem_SU rfl), h c _ (mem_SU rfl),
    fun a ha => (h c _ (mem_SU (arg_unscoped a ha))).trans (W11_unwritten m (arg_unwritten a ha) c _ _)⟩

end Cert.Proof.KB

end
-- ==== Proof.KB.Histo.lean ====
/-
  The per-tile histogram kernel at a symbolic tile, as one triple over explicit resources.

  A tile zeroes its 10240-word accumulator (640 stores of sixteen zeros), copies its 10000 row words into
  its scratch, and in 625 trips reads sixteen of them and adds one, lane by lane in ascending order, onto
  the accumulator at each word read; then it copies the accumulator out to its row of the result. The
  triple states the value exactly: the tile's row of the result ends holding `histTile` of the row words at
  the tile's number — the 625-step recursion of the indexed add from the zero vector. The zeroing loop goes
  by an invariant saying the first `16 k` words are zero; the accumulating loop by one holding the
  accumulator after `k` trips; a trip's sixteen words, read off the scratch, are words
  `10000 w + 16 k …` of the row array by the closed forms of the kernel's offsets.
-/
import proofs.«207992_g50208167690906_cont_8to1c4_731_36_alg».proof.Proof.KB.Base
import proofs.«207992_g50208167690906_cont_8to1c4_731_36_alg».proof.Proof.KB.HistoVal
import Idealize.ShloMosaic.Lib.ValueIdx

noncomputable section

namespace Cert.Proof.KB.Histo

open Cert.Kernel Cert.Kernel.Gen

open Idealize.ShloMosaic Idealize.ShloMosaic.ValueIdx
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the loops' trips compute -/

/-- The indexed add at equal contents and index vectors is the same, whatever the evidence. -/
theorem storeIdx_congr' {f f' : Vec F SH .f32} {i i' : Fin 1 → IVec SL 32} (ef : f = f') (e : i = i') (v : Vec F SL .f32) (m : IVec SL 1) (a : Bool)
    (h : ∀ a x, (i a x).toNat < SH.size a) (h' : ∀ a x, (i' a x).toNat < SH.size a) :
    storeIdx f i v m a h = storeIdx f' i' v m a h' := by subst ef; subst e; rfl

theorem ones_eq : (ones : Vec F SL .f32) = k0_pay2 (F := F) := rfl

/-- A trip of the zeroing loop: sixteen more words of the accumulator are zero. -/
theorem zfill_step (f : (cc0_scratch1 : Ref sig .scVector).ty.Contents (Elt F)) (k : Fin k0_t1_loop.trips)
    (hz : ∀ j : S10240.Idx, (j 0).val < 16 * k.val → f j = (Scalar.ofBits .f32 0x00000000#32 : F .f32)) :
    ∀ j : S10240.Idx, (j 0).val < 16 * (k.val + 1) →
      (Memref.whole cc0_scratch1 : Memref sig .scVector .vmem S10240 .f32).view.writes (Elt F) f
          [⟨Rect.unit (s := S10240) (k0_off1 k) S16.size (k0_off1_inb k), k0_pay1 (F := F)⟩] j
        = (Scalar.ofBits .f32 0x00000000#32 : F .f32) := by
  intro j hj
  have hoff : (k0_off1 k) 0 = 16 * k.val := by rw [k0_off1_eq]; rfl
  by_cases h : 16 * k.val ≤ (j 0).val
  · -- under this trip's store: the payload, zero
    have hx : (j 0).val - 16 * k.val < 16 := by omega
    have hj' : j = (Rect.unit (s := S10240) (k0_off1 k) S16.size (k0_off1_inb k)).emb (ix1 ⟨(j 0).val - 16 * k.val, hx⟩) := by
      funext a
      obtain rfl : a = 0 := Subsingleton.elim _ _
      apply Fin.ext
      rw [Rect.emb_apply]
      show (j 0).val = (k0_off1 k) 0 + 1 * ((j 0).val - 16 * k.val)
      rw [hoff]; omega
    rw [hj']
    exact View.read_writes_cons_emb (View.whole cc0_scratch1) f (Rect.unit (s := S10240) (k0_off1 k) S16.size (k0_off1_inb k)) (k0_pay1 (F := F)) []
      (ix1 ⟨(j 0).val - 16 * k.val, hx⟩)
  · -- before it: as the trips before left it
    have hlt : (j 0).val < 16 * k.val := by omega
    rw [← hz j hlt]
    show View.read (Elt F) (View.whole cc0_scratch1) ((View.whole cc0_scratch1).writes (Elt F) f
        [⟨Rect.unit (s := S10240) (k0_off1 k) S16.size (k0_off1_inb k), k0_pay1 (F := F)⟩]) j = View.read (Elt F) (View.whole cc0_scratch1) f j
    refine View.read_writes_apply_of_forall_not_mem (View.whole cc0_scratch1) f j _ fun p hp => ?_
    rw [List.mem_singleton] at hp; subst hp
    intro hm
    have hm' : ∀ a, (k0_off1 k) a ≤ (j a).val ∧ (j a).val < (k0_off1 k) a + S16.size a :=
      (Rect.mem_set_unit (s := S10240) (off := k0_off1 k) (size := S16.size) (inb := k0_off1_inb k) (i := j)).mp hm
    have hm0 := (hm' 0).1
    rw [hoff] at hm0; omega

/-- After the 640 trips the whole accumulator is zero. -/
theorem zfill_done (f : (cc0_scratch1 : Ref sig .scVector).ty.Contents (Elt F))
    (hz : ∀ j : S10240.Idx, (j 0).val < 16 * k0_t1_loop.trips → f j = (Scalar.ofBits .f32 0x00000000#32 : F .f32)) :
    f = zeros (F := F) :=
  funext fun j => hz j (Nat.lt_of_lt_of_le (j 0).isLt (by decide))

theorem trips2 : Scf.trips k0_t2_loop.lb k0_t2_loop.ub k0_t2_loop.st = 625 := by decide

/-! ## The tile, its arrays and what it holds -/

variable {U : Type} [URA U] [CountersIn U]

local notation "𝕄" => MT nD τ sig (HIx 2) (Elt F) ℕ U ℕ

abbrev cV (L : grid0.Coords) : Fin τ.nSC := (L 0).castLE hcore0
abbrev jV (L : grid0.Coords) : Fin τ.nSub := (L 1).castLE hsub0
/-- The tile's number: which 10000 row words it reads and which row of the result it writes. -/
abbrev wid (L : grid0.Coords) : ℕ := 16 * (L 0).val + (L 1).val

-- the kernel's memrefs, spelt as the body table passes them
local notation "rowW" => (Memref.whole Cert.Kernel.main_v1_scv : Memref Cert.Kernel.sig Kind.scVector Space.hbm Cert.Kernel.S320000 EltTy.i32)
local notation "outW" => (Memref.whole Cert.Kernel.main_v8_scv : Memref Cert.Kernel.sig Kind.scVector Space.hbm Cert.Kernel.S32x1x10240 EltTy.f32)
local notation "s0W" => (Memref.whole Cert.Kernel.cc0_scratch0 : Memref Cert.Kernel.sig Kind.scVector Space.vmem Cert.Kernel.S10000 EltTy.i32)
local notation "s1W" => (Memref.whole Cert.Kernel.cc0_scratch1 : Memref Cert.Kernel.sig Kind.scVector Space.vmem Cert.Kernel.S10240 EltTy.f32)

/-- The tile's 10000 row words, as the kernel slices them off the row array. -/
abbrev rowSl (L : grid0.Coords) : Memref sig .scVector .hbm S10000 .i32 :=
  (rowW).slice (Rect.unit (s := S320000) (k0_off2 L) S10000.size (k0_off2_inb L)) (fun _ => rfl)
/-- The tile's row of the result, as the kernel slices and squeezes it. -/
abbrev outSl (L : grid0.Coords) : Memref sig .scVector .hbm S10240 .f32 :=
  ((outW).slice (Rect.unit (s := S32x1x10240) (k0_off4 L) S1x1x10240.size (k0_off4_inb L)) (fun _ => rfl)).squeeze S10240 squeezes_S1x1x10240_S10240

abbrev rowLoc (d : Dev nD) : Loc nD τ sig := (SparseCore.T d).loc main_v1
abbrev outLoc (d : Dev nD) : Loc nD τ sig := (SparseCore.T d).loc main_v8

/-- The tile's share of the row array: its own 10000 words, read-only at any share. -/
abbrev rowPts (d : Dev nD) (L : grid0.Coords) (q : PosShare TreeShare) (rowv : Buf (Elt F) (rowLoc d)) : sProp 𝕄 :=
  rowLoc d ↦[(rowSl L).view.set]{q} rowv
/-- The tile's row of the result, held outright. -/
abbrev outPts (d : Dev nD) (L : grid0.Coords) (fo : Buf (Elt F) (outLoc d)) : sProp 𝕄 :=
  outLoc d ↦[(outSl L).view.set]{fullShare} fo

/-! ## The tile's own scratch and semaphores, out of what it owns -/

abbrev c0cell (d : Dev nD) (L : grid0.Coords) : GSem nD τ sig := (V d (cV L) (jV L), .dma cc0_scoped0.sem)
abbrev c1cell (d : Dev nD) (L : grid0.Coords) : GSem nD τ sig := (V d (cV L) (jV L), .dma cc0_scoped1.sem)

omit [FloatOps F] [CountersIn U] in
/-- The kernel's two semaphores are among the tile's own: they, at zero, and the rest. -/
theorem ownSems0_tile (d : Dev nD) (L : grid0.Coords) :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨fun e => absurd (Prod.mk.inj e).2 (by decide),
      (mem_ownCells (g := c1cell d L)).mpr ⟨rfl, by show (SemLoc.dma cc0_scoped1.sem : SemLoc sig).isScoped .scVector = true; decide⟩⟩)]

omit [FloatOps F] [CountersIn U] in
/-- The kernel's two scratch buffers are among the tile's own: they, at some contents, and the rest. -/
theorem ownBufs_tile (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the tile's memrefs address them -/

omit [FloatOps F] [CountersIn U] in
theorem pts_row (d : Dev nD) (L : grid0.Coords) (q : PosShare TreeShare) (f : Buf (Elt F) (rowLoc d)) :
    ((rowSl L).view.loc (V d (cV L) (jV L)) ↦[(rowSl L).view.set]{q} f : sProp 𝕄) = rowPts d L q f := rfl
omit [FloatOps F] [CountersIn U] in
theorem pts_out (d : Dev nD) (L : grid0.Coords) (f : Buf (Elt F) (outLoc d)) :
    ((outSl L).view.loc (V d (cV L) (jV L)) ↦[(outSl L).view.set]{fullShare} f : sProp 𝕄) = outPts d L f := rfl
omit [FloatOps F] [CountersIn U] in
theorem pts_s0 (d : Dev nD) (L : grid0.Coords) (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] [CountersIn U] in
theorem pts_s1 (d : Dev nD) (L : grid0.Coords) (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl

omit [FloatOps F] [CountersIn U] in
/-- The accumulator held through its whole-rectangle view (what the indexed add reads and writes) is the accumulator. -/
theorem pts_s1_acc (d : Dev nD) (L : grid0.Coords) (f : Buf (Elt F) ((V d (cV L) (jV L)).loc cc0_scratch1)) :
    ((((s1W).access (Rect.whole S10240)).loc (V d (cV L) (jV L)) ↦[((s1W).access (Rect.whole S10240)).set]{fullShare} f : sProp 𝕄))
      = ((s1W).view.loc (V d (cV L) (jV L)) ↦{fullShare} f) := by
  rw [show ((s1W).access (Rect.whole S10240)).set = Finset.univ from Memref.set_access_whole (cc0_scratch1 : Ref sig .scVector)]

omit [FloatOps F] [CountersIn U] in
/-- The row scratch written whole holds what was written. -/
theorem pts_write_s0 (d : Dev nD) (L : grid0.Coords) (f w : Buf (Elt F) ((V d (cV L) (jV L)).loc cc0_scratch0)) :
    ((s0W).view.loc (V d (cV L) (jV L)) ↦{fullShare} View.write (Elt F) (s0W).view f w Finset.univ : sProp 𝕄)
      = ((s0W).view.loc (V d (cV L) (jV L)) ↦{fullShare} w) :=
  congrArg (fun g => ((s0W).view.loc (V d (cV L) (jV L)) ↦{fullShare} g : sProp 𝕄)) (View.write_whole_univ (Val := Elt F) (cc0_scratch0 : Ref sig .scVector) f w)

omit [FloatOps F] [CountersIn U] in
/-- The tile's row of the result after a whole write through it, as the run names it, is the row written. -/
theorem pts_out_writes (d : Dev nD) (L : grid0.Coords) (fo : Buf (Elt F) (outLoc d)) (w : S10240.Idx → Elt F .f32) :
    ((outSl L).view.loc (V d (cV L) (jV L)) ↦[(outSl L).view.set]{fullShare} (outSl L).view.writes (Elt F) fo [⟨Rect.whole S10240, w⟩] : sProp 𝕄)
      = outPts d L ((outSl L).view.write (Elt F) fo w Finset.univ) := by
  refine pointsTo_congr fun i hi => ?_
  obtain ⟨x, -, rfl⟩ := Finset.mem_map.mp hi
  have e : (outSl L).view.emb x = ((outSl L).view.slice (Rect.whole S10240)).emb x := by
    rw [View.emb_slice]
    show _ = (outSl L).view.emb ((Rect.whole S10240).emb x)
    rw [Rect.emb_whole_apply]
  rw [View.writes_singleton, View.write_emb_of_mem _ _ (Finset.mem_univ x)]
  rw [e, View.write_emb_of_mem _ _ (Finset.mem_univ _)]

/-! ## What a trip of the accumulating loop reads, and what it leaves -/

omit [FloatOps F] [CountersIn U] in
/-- Trip `k`'s sixteen words, read off the scratch holding the tile's row words, are words
    `10000 w + 16 k …` of the row array. -/
theorem read_chunk (d : Dev nD) (L : grid0.Coords) (rowv : Buf (Elt F) (rowLoc d)) (k : Fin k0_t2_loop.trips) :
    (s0W).view.readAt (Elt F) (Rect.unit (s := S10000) (k0_off3 k) S16.size (k0_off3_inb k)).toLoadRect ((rowSl L).view.read (Elt F) rowv)
      = chunk rowv (wid L) k.val := by
  funext x
  have h0 : (L 0).val < 2 := (L 0).isLt
  have h1 : (L 1).val < 16 := (L 1).isLt
  have hk : k.val < 625 := Nat.lt_of_lt_of_eq k.isLt (by decide)
  have hx : (x 0).val < 16 := (x 0).isLt
  have e2 : (k0_off2 L) 0 = 160000 * (L 0).val + 10000 * (L 1).val := by rw [k0_off2_eq]; rfl
  have e3 : (k0_off3 k) 0 = 16 * k.val := by rw [k0_off3_eq]; rfl
  show rowv ((rowSl L).view.emb ((Rect.unit (s := S10000) (k0_off3 k) S16.size (k0_off3_inb k)).toLoadRect.idx x)) = _
  unfold chunk
  refine congrArg rowv ((eq_ix1 (n := 320000) _).trans (congrArg ix1 (Fin.ext ?_)))
  show (k0_off2 L) 0 + 1 * ((k0_off3 k) 0 + 1 * (x 0).val) = (10000 * wid L + 16 * k.val + (x 0).val) % 320000
  unfold wid
  omega

/-- So the trip's check passes. -/
theorem chk_read (d : Dev nD) (L : grid0.Coords) (rowv : Buf (Elt F) (rowLoc d)) (hok : RowOK rowv) (k : Fin k0_t2_loop.trips) :
    k0_chk1 ((s0W).view.readAt (Elt F) (Rect.unit (s := S10000) (k0_off3 k) S16.size (k0_off3_inb k)).toLoadRect ((rowSl L).view.read (Elt F) rowv)) := by
  rw [read_chunk]; exact chunk_inb hok _ _

/-- What the trip's indexed add leaves in the accumulator: the next accumulator. -/
theorem step_eq (d : Dev nD) (L : grid0.Coords) (rowv : Buf (Elt F) (rowLoc d)) (hok : RowOK rowv) (k : Fin k0_t2_loop.trips)
    (h : ∀ a x, ((![(s0W).view.readAt (Elt F) (Rect.unit (s := S10000) (k0_off3 k) S16.size (k0_off3_inb k)).toLoadRect ((rowSl L).view.read (Elt F) rowv)] : Fin 1 → IVec S16 32) a x).toNat < S10240.size a) :
    ((s1W).access (Rect.whole S10240)).write (Elt F) (histN (F := F) rowv hok (wid L) k.val)
        (storeIdx (((s1W).access (Rect.whole S10240)).read (Elt F) (histN (F := F) rowv hok (wid L) k.val))
          ![(s0W).view.readAt (Elt F) (Rect.unit (s := S10000) (k0_off3 k) S16.size (k0_off3_inb k)).toLoadRect ((rowSl L).view.read (Elt F) rowv)]
          (k0_pay2 (F := F)) (fun _ => 1#1) true h) Finset.univ
      = histN (F := F) rowv hok (wid L) (k.val + 1) := by
  refine (Memref.write_access_whole_univ (Elt F) (cc0_scratch1 : Ref sig .scVector) _ _).trans ?_
  rw [histN_succ]
  unfold step
  exact storeIdx_congr' (Memref.read_access_whole (Elt F) (cc0_scratch1 : Ref sig .scVector) _)
    (congrArg (fun v : IVec SL 32 => (![v] : Fin 1 → IVec SL 32)) (read_chunk d L rowv k)) _ _ _ _ _

omit [CountersIn U] in
/-- The accumulator through its whole-rectangle view after the trip's indexed add is the next accumulator. -/
theorem pts_step (d : Dev nD) (L : grid0.Coords) (rowv : Buf (Elt F) (rowLoc d)) (hok : RowOK rowv) (k : Fin k0_t2_loop.trips)
    (h : ∀ a x, ((![(s0W).view.readAt (Elt F) (Rect.unit (s := S10000) (k0_off3 k) S16.size (k0_off3_inb k)).toLoadRect ((rowSl L).view.read (Elt F) rowv)] : Fin 1 → IVec S16 32) a x).toNat < S10240.size a) :
    ((((s1W).access (Rect.whole S10240)).loc (V d (cV L) (jV L)) ↦[((s1W).access (Rect.whole S10240)).set]{fullShare}
        ((s1W).access (Rect.whole S10240)).write (Elt F) (histN (F := F) rowv hok (wid L) k.val)
          (storeIdx (((s1W).access (Rect.whole S10240)).read (Elt F) (histN (F := F) rowv hok (wid L) k.val))
            ![(s0W).view.readAt (Elt F) (Rect.unit (s := S10000) (k0_off3 k) S16.size (k0_off3_inb k)).toLoadRect ((rowSl L).view.read (Elt F) rowv)]
            (k0_pay2 (F := F)) (fun _ => 1#1) true h) Finset.univ : sProp 𝕄))
      = ((s1W).view.loc (V d (cV L) (jV L)) ↦{fullShare} histN (F := F) rowv hok (wid L) (k.val + 1)) := by
  rw [step_eq (F := F) d L rowv hok k h]
  exact pts_s1_acc (F := F) d L _

/-- Before trip `k` of the zeroing loop: the accumulator's first `16 k` words are zero. -/
def inv1 (d : Dev nD) (L : grid0.Coords) (k : Nat) (_ : BitVec 32) : sProp 𝕄 :=
  iprop(∃ f : Buf (Elt F) ((V d (cV L) (jV L)).loc cc0_scratch1), ((s1W).view.loc (V d (cV L) (jV L)) ↦{fullShare} f)
    ∗ ⌜∀ j : S10240.Idx, (j 0).val < 16 * k → f j = (Scalar.ofBits .f32 0x00000000#32 : F .f32)⌝)

/-- Before trip `k` of the accumulating loop: the row words in their scratch, the accumulator after `k` trips. -/
def inv2 (d : Dev nD) (L : grid0.Coords) (rowv : Buf (Elt F) (rowLoc d)) (hok : RowOK rowv) (k : Nat) (_ : BitVec 32) : sProp 𝕄 :=
  iprop(((s0W).view.loc (V d (cV L) (jV L)) ↦{fullShare} (rowSl L).view.read (Elt F) rowv)
    ∗ ((s1W).view.loc (V d (cV L) (jV L)) ↦{fullShare} histN (F := F) rowv hok (wid L) k))

/-- The histogram kernel on tile `L` of device `d`. -/
theorem body (d : Dev nD) (L : grid0.Coords) (q : PosShare TreeShare)
    (rowv : Buf (Elt F) (rowLoc d)) (fo : Buf (Elt F) (outLoc d)) (hok : RowOK rowv)
    (O : CellTallies nD τ sig (HIx 2)) (W : Waits sig (HIx 2)) (hO : ∀ g, O g none = 0) :
    iprop(levAts (K (F := F)).L (K (F := F)).lev ∗ rowPts d L q rowv ∗ outPts d L fo
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__histo_kernel L rowW (Memref.isWhole_whole _) outW (Memref.isWhole_whole _) s0W (Memref.isWhole_whole _) s1W (Memref.isWhole_whole _) cc0_scoped0 cc0_scoped1)
          fun _ => iprop(rowPts d L q rowv
            ∗ outPts d L ((outSl L).view.write (Elt F) fo (histTile (F := F) rowv hok (wid L)) Finset.univ)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__histo_kernel_eq_skeleton]; unfold cc0__histo_kernel_skel
  rw [(K (F := F)).scopedBufs_V (facts (F := F)) d (cV L) (jV L), SparseCore.Cfg.scopedSems0_V (Val := Elt F) d (cV L) (jV L), ownSems0_tile, ownBufs_tile]
  iintro ⟨#Hlv, Hrow, Hout, ⟨⟨%f0, Hs0⟩, ⟨%f1, Hs1⟩, Hbufs⟩, ⟨Hsem0, Hsem1, Hsems⟩, HO⟩
  ihave Hmw := ((K (F := F)).mayWaits_none (thr := V d (cV L) (jV L)) hO) $$ Hlv
  ihave Hrow' := (Entails.of_eq (pts_row (F := F) d L q _).symm) $$ Hrow
  ihave Hout' := (Entails.of_eq (pts_out (F := F) d L _).symm) $$ Hout
  ihave Hs0' := (Entails.of_eq (pts_s0 (F := F) d L _).symm) $$ Hs0
  ihave Hs1' := (Entails.of_eq (pts_s1 (F := F) d L _).symm) $$ Hs1
  -- the zeroing loop
  sl_for (inv1 (F := F) (U := U) d L) $$ [Hs1']
  case region =>
    intro k _
    unfold inv1
    iintro ⟨%f, Hs1, %hz⟩
    sl_exec
    sl_step
    iexists _
    isplitl [Hs1]; · iexact Hs1
    ipureintro; exact zfill_step (F := F) f k hz
  · unfold inv1
    iexists f1
    isplitl [Hs1']; · iexact Hs1'
    ipureintro; intro j hj; exact absurd hj (by omega)
  iintro %_ HI
  unfold inv1
  icases HI with ⟨%fz, Hs1, %hz⟩
  have hfz := zfill_done (F := F) fz hz
  subst hfz
  -- the row words in, and the accumulating loop
  sl_exec
  sl_for (inv2 (F := F) (U := U) d L rowv hok) $$ [Hs0' Hs1]
  case region =>
    intro k _
    unfold inv2
    iintro ⟨Hs0, Hs1⟩
    have hchk := chk_read (F := F) d L rowv hok k
    sl_exec
    ihave Hs1a := (Entails.of_eq (pts_s1_acc (F := F) d L _).symm) $$ Hs1
    iapply (SparseCore.wp_vectorStoreIdx 𝒱₀ (V d (cV L) (jV L)) none Set.univ (base := s1W)) $$ Hs1a
    iintro Hs1a
    ihave Hs1 := (Entails.of_eq (pts_step (F := F) d L rowv hok k (k0_idx1_inb _ hchk))) $$ [Hs1a]
    · iexact Hs1a
    sl_step
    isplitl [Hs0]; · iexact Hs0
    iexact Hs1
  · unfold inv2
    ihave Hs0'' := (Entails.of_eq (pts_write_s0 (F := F) d L f0 _)) $$ Hs0'
    isplitl [Hs0'']; · iexact Hs0''
    iexact Hs1
  iintro %_ HI
  unfold inv2
  rw [trips2]
  icases HI with ⟨Hs0, Hs1⟩
  -- the accumulator out
  sl_exec
  sl_step
  isplitl [Hrow']
  · iapply (Entails.of_eq (pts_row (F := F) d L q _)); iexact Hrow'
  isplitl [Hout']
  · iapply (Entails.of_eq (pts_out_writes (F := F) d L fo _)); iexact Hout'
  isplitl [Hs0 Hs1 Hbufs]
  · isplitl [Hs0]; · iexists _; iexact Hs0
    isplitl [Hs1]; · iexists _; iexact Hs1
    iexact Hbufs
  isplitl [Hsem0 Hsem1 Hsems]
  · isplitl [Hsem0]; · iexact Hsem0
    isplitl [Hsem1]; · iexact Hsem1
    iexact Hsems
  iexists (insert (SemLoc.dma cc0_scoped1.sem, (default : HIx 2)) (insert (SemLoc.dma cc0_scoped0.sem, (default : HIx 2)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Cert.Proof.KB.Histo
-- ==== Proof.KB.EdgeRes.lean ====
/-
  The edge kernel's resources on one tile, named once: the tile's thread, the three arrays the kernel is handed
  (the packed edge words, the feature rows, the result rows) and the tile's six rows of the last two as the kernel
  slices them, the block scratch, and what the two nested loops of the walk hold before each of their trips.
-/
import proofs.«207992_g50208167690906_cont_8to1c4_731_36_alg».proof.Proof.KB.Base
import proofs.«207992_g50208167690906_cont_8to1c4_731_36_alg».proof.Proof.KB.EdgeVal

noncomputable section

namespace Cert.Proof.KB.Edge

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-- The tile at grid point `L` of device `d`. -/
abbrev thr (d : Dev nD) (L : grid3.Coords) : Thread nD τ := V d ((L 0).castLE hcore3) ((L 1).castLE hsub3)
abbrev pkW : Memref sig .scVector .hbm S320000 .i32 := Memref.whole main_v20_scv
abbrev vptW : Memref sig .scVector .hbm S192x1x10000 .f32 := Memref.whole main_v16_scv
abbrev outW : Memref sig .scVector .hbm S192x1x10000 .f32 := Memref.whole main_v21_scv
/-- Row `r` of the tile's six, as the kernel slices it. -/
abbrev rowRect (L : grid3.Coords) (r : Fin 6) : Rect S192x1x10000 :=
  Rect.unit (s := S192x1x10000) (k3_off2 L (BitVec.ofNat 32 r.val)) S1x1x10000.size (k3_off2_inb L r)
abbrev vptRow (L : grid3.Coords) (r : Fin 6) : Memref sig .scVector .hbm S10000 .f32 :=
  ((vptW : Memref sig .scVector .hbm S192x1x10000 .f32).slice (rowRect L r) (fun _ => rfl)).squeeze S10000 squeezes_S1x1x10000_S10000
abbrev outRow (L : grid3.Coords) (r : Fin 6) : Memref sig .scVector .hbm S10000 .f32 :=
  ((outW : Memref sig .scVector .hbm S192x1x10000 .f32).slice (rowRect L r) (fun _ => rfl)).squeeze S10000 squeezes_S1x1x10000_S10000

/-- Block `b` of the packed words: words `6400 b` to `6400 b + 6399`, as the block's copy lands them. -/
def blockOf (pk : IVec SP 32) (b : ℕ) : Vec F S6400 .i32 :=
  fun y => if h : 6400 * b + (y 0).val < 320000 then pk (ix1 ⟨6400 * b + (y 0).val, h⟩) else 0

abbrev sP : Memref sig .scVector .vmem S6400 .i32 := Memref.whole cc3_scratch0

/-- What the walk of a block holds before its trip `k`: the block in its scratch, the six feature rows in theirs,
    each accumulator at the fold of the groups before this trip's. -/
def TripInv (d : Dev nD) (L : grid3.Coords) (pk : IVec SP 32) (hpk : PackedOK pk) (vr : Fin 6 → Vec F SN .f32) (b k : ℕ) : sProp 𝕄 :=
  iprop(((sP).view.loc (thr d L) ↦{fullShare} blockOf (F := F) pk b)
    ∗ (((Memref.whole cc3_scratch1 : Memref sig .scVector .vmem S10000 .f32).access (.whole S10000)).loc (thr d L) ↦{fullShare} vr 0)
    ∗ (((Memref.whole cc3_scratch2 : Memref sig .scVector .vmem S10000 .f32).access (.whole S10000)).loc (thr d L) ↦{fullShare} vr 1)
    ∗ (((Memref.whole cc3_scratch3 : Memref sig .scVector .vmem S10000 .f32).access (.whole S10000)).loc (thr d L) ↦{fullShare} vr 2)
    ∗ (((Memref.whole cc3_scratch4 : Memref sig .scVector .vmem S10000 .f32).access (.whole S10000)).loc (thr d L) ↦{fullShare} vr 3)
    ∗ (((Memref.whole cc3_scratch5 : Memref sig .scVector .vmem S10000 .f32).access (.whole S10000)).loc (thr d L) ↦{fullShare} vr 4)
    ∗ (((Memref.whole cc3_scratch6 : Memref sig .scVector .vmem S10000 .f32).access (.whole S10000)).loc (thr d L) ↦{fullShare} vr 5)
    ∗ (((Memref.whole cc3_scratch7 : Memref sig .scVector .vmem S10000 .f32).access (.whole S10000)).loc (thr d L) ↦[((Memref.whole cc3_scratch7 : Memref sig .scVector .vmem S10000 .f32).access (.whole S10000)).set]{fullShare} aggN pk hpk (vr 0) (400 * b + 4 * k))
    ∗ (((Memref.whole cc3_scratch8 : Memref sig .scVector .vmem S10000 .f32).access (.whole S10000)).loc (thr d L) ↦[((Memref.whole cc3_scratch8 : Memref sig .scVector .vmem S10000 .f32).access (.whole S10000)).set]{fullShare} aggN pk hpk (vr 1) (400 * b + 4 * k))
    ∗ (((Memref.whole cc3_scratch9 : Memref sig .scVector .vmem S10000 .f32).access (.whole S10000)).loc (thr d L) ↦[((Memref.whole cc3_scratch9 : Memref sig .scVector .vmem S10000 .f32).access (.whole S10000)).set]{fullShare} aggN pk hpk (vr 2) (400 * b + 4 * k))
    ∗ (((Memref.whole cc3_scratch10 : Memref sig .scVector .vmem S10000 .f32).access (.whole S10000)).loc (thr d L) ↦[((Memref.whole cc3_scratch10 : Memref sig .scVector .vmem S10000 .f32).access (.whole S10000)).set]{fullShare} aggN pk hpk (vr 3) (400 * b + 4 * k))
    ∗ (((Memref.whole cc3_scratch11 : Memref sig .scVector .vmem S10000 .f32).access (.whole S10000)).loc (thr d L) ↦[((Memref.whole cc3_scratch11 : Memref sig .scVector .vmem S10000 .f32).access (.whole S10000)).set]{fullShare} aggN pk hpk (vr 4) (400 * b + 4 * k))
    ∗ (((Memref.whole cc3_scratch12 : Memref sig .scVector .vmem S10000 .f32).access (.whole S10000)).loc (thr d L) ↦[((Memref.whole cc3_scratch12 : Memref sig .scVector .vmem S10000 .f32).access (.whole S10000)).set]{fullShare} aggN pk hpk (vr 5) (400 * b + 4 * k)))

/-- What the walk holds before block `b`: the packed words (a read share), the block scratch at any contents, its
    copy's semaphore at zero, the six feature rows, each accumulator at the fold of the groups of the blocks before. -/
def BlockInv (d : Dev nD) (L : grid3.Coords) (qp : PosShare TreeShare) (pk : IVec SP 32) (hpk : PackedOK pk) (vr : Fin 6 → Vec F SN .f32)
    (O : CellTallies nD τ sig (HIx 2)) (W : Waits sig (HIx 2)) (b : ℕ) (_ : BitVec 32) : sProp 𝕄 :=
  iprop(Transfers.MayWaits (thr d L) (none : HIx 2) O
    ∗ ((pkW).view.loc (thr d L) ↦{qp} pk)
    ∗ (∃ f, (sP).view.loc (thr d L) ↦{fullShare} f)
    ∗ semVal (thr d L, SemLoc.dma cc3_scoped6.sem) 0
    ∗ (((Memref.whole cc3_scratch1 : Memref sig .scVector .vmem S10000 .f32).access (.whole S10000)).loc (thr d L) ↦{fullShare} vr 0)
    ∗ (((Memref.whole cc3_scratch2 : Memref sig .scVector .vmem S10000 .f32).access (.whole S10000)).loc (thr d L) ↦{fullShare} vr 1)
    ∗ (((Memref.whole cc3_scratch3 : Memref sig .scVector .vmem S10000 .f32).access (.whole S10000)).loc (thr d L) ↦{fullShare} vr 2)
    ∗ (((Memref.whole cc3_scratch4 : Memref sig .scVector .vmem S10000 .f32).access (.whole S10000)).loc (thr d L) ↦{fullShare} vr 3)
    ∗ (((Memref.whole cc3_scratch5 : Memref sig .scVector .vmem S10000 .f32).access (.whole S10000)).loc (thr d L) ↦{fullShare} vr 4)
    ∗ (((Memref.whole cc3_scratch6 : Memref sig .scVector .vmem S10000 .f32).access (.whole S10000)).loc (thr d L) ↦{fullShare} vr 5)
    ∗ (((Memref.whole cc3_scratch7 : Memref sig .scVector .vmem S10000 .f32).access (.whole S10000)).loc (thr d L) ↦[((Memref.whole cc3_scratch7 : Memref sig .scVector .vmem S10000 .f32).access (.whole S10000)).set]{fullShare} aggN pk hpk (vr 0) (400 * b))
    ∗ (((Memref.whole cc3_scratch8 : Memref sig .scVector .vmem S10000 .f32).access (.whole S10000)).loc (thr d L) ↦[((Memref.whole cc3_scratch8 : Memref sig .scVector .vmem S10000 .f32).access (.whole S10000)).set]{fullShare} aggN pk hpk (vr 1) (400 * b))
    ∗ (((Memref.whole cc3_scratch9 : Memref sig .scVector .vmem S10000 .f32).access (.whole S10000)).loc (thr d L) ↦[((Memref.whole cc3_scratch9 : Memref sig .scVector .vmem S10000 .f32).access (.whole S10000)).set]{fullShare} aggN pk hpk (vr 2) (400 * b))
    ∗ (((Memref.whole cc3_scratch10 : Memref sig .scVector .vmem S10000 .f32).access (.whole S10000)).loc (thr d L) ↦[((Memref.whole cc3_scratch10 : Memref sig .scVector .vmem S10000 .f32).access (.whole S10000)).set]{fullShare} aggN pk hpk (vr 3) (400 * b))
    ∗ (((Memref.whole cc3_scratch11 : Memref sig .scVector .vmem S10000 .f32).access (.whole S10000)).loc (thr d L) ↦[((Memref.whole cc3_scratch11 : Memref sig .scVector .vmem S10000 .f32).access (.whole S10000)).set]{fullShare} aggN pk hpk (vr 4) (400 * b))
    ∗ (((Memref.whole cc3_scratch12 : Memref sig .scVector .vmem S10000 .f32).access (.whole S10000)).loc (thr d L) ↦[((Memref.whole cc3_scratch12 : Memref sig .scVector .vmem S10000 .f32).access (.whole S10000)).set]{fullShare} aggN pk hpk (vr 5) (400 * b))
    ∗ ∃ W', ⌜∀ p ∈ W', p ∈ W ∨ p.2 = none⌝ ∗ owes (thr d L) O W')

end Cert.Proof.KB.Edge

end
-- ==== Proof.KB.EdgeLoop.lean ====
/-
  The walk of the packed edge words, loop by loop. One trip of the inner loop takes four groups of sixteen words
  off the block scratch; for each group the two node lists are in range because every packed word names two
  nodes, the six feature rows are read at the source nodes and the values added onto the six accumulators at the
  target nodes: each accumulator moves four groups along its fold. One block copies its 6400 words in and runs the
  hundred trips over them.
-/
import proofs.«207992_g50208167690906_cont_8to1c4_731_36_alg».proof.Proof.KB.EdgeRes

noncomputable section

namespace Cert.Proof.KB.Edge

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-! ## One trip of the inner loop -/

theorem pk_at (pk : IVec SP 32) {m n : ℕ} (e : m = n) :
    (if h : m < 320000 then pk (ix1 ⟨m, h⟩) else (0 : BitVec 32)) = (if h : n < 320000 then pk (ix1 ⟨n, h⟩) else 0) := by
  subst e; rfl

theorem load_chunk0 (pk : IVec SP 32) (b : ℕ) (k : Fin k3_t3_loop.trips) :
    (sP).view.readAt (Elt F) (Rect.unit (s := S6400) (k3_off4 k) S16.size (k3_off4_inb k)).toLoadRect (blockOf (F := F) pk b)
      = chunk pk (400 * b + 4 * k.val) := by
  funext x
  refine pk_at pk ?_
  show 6400 * b + (k3_off4 k 0 + 1 * (x 0).val) = 16 * (400 * b + 4 * k.val) + (x 0).val
  have h0 : k3_off4 k 0 = 64 * k.val := by rw [k3_off4_eq]; rfl
  omega

theorem load_chunk1 (pk : IVec SP 32) (b : ℕ) (k : Fin k3_t3_loop.trips) :
    (sP).view.readAt (Elt F) (Rect.unit (s := S6400) (k3_off5 k) S16.size (k3_off5_inb k)).toLoadRect (blockOf (F := F) pk b)
      = chunk pk (400 * b + 4 * k.val + 1) := by
  funext x
  refine pk_at pk ?_
  show 6400 * b + (k3_off5 k 0 + 1 * (x 0).val) = 16 * (400 * b + 4 * k.val + 1) + (x 0).val
  have h0 : k3_off5 k 0 = 64 * k.val + 16 := by rw [k3_off5_eq]; rfl
  omega

theorem load_chunk2 (pk : IVec SP 32) (b : ℕ) (k : Fin k3_t3_loop.trips) :
    (sP).view.readAt (Elt F) (Rect.unit (s := S6400) (k3_off6 k) S16.size (k3_off6_inb k)).toLoadRect (blockOf (F := F) pk b)
      = chunk pk (400 * b + 4 * k.val + 1 + 1) := by
  funext x
  refine pk_at pk ?_
  show 6400 * b + (k3_off6 k 0 + 1 * (x 0).val) = 16 * (400 * b + 4 * k.val + 1 + 1) + (x 0).val
  have h0 : k3_off6 k 0 = 64 * k.val + 32 := by rw [k3_off6_eq]; rfl
  omega

theorem load_chunk3 (pk : IVec SP 32) (b : ℕ) (k : Fin k3_t3_loop.trips) :
    (sP).view.readAt (Elt F) (Rect.unit (s := S6400) (k3_off7 k) S16.size (k3_off7_inb k)).toLoadRect (blockOf (F := F) pk b)
      = chunk pk (400 * b + 4 * k.val + 1 + 1 + 1) := by
  funext x
  refine pk_at pk ?_
  show 6400 * b + (k3_off7 k 0 + 1 * (x 0).val) = 16 * (400 * b + 4 * k.val + 1 + 1 + 1) + (x 0).val
  have h0 : k3_off7 k 0 = 64 * k.val + 48 := by rw [k3_off7_eq]; rfl
  omega

theorem chkR0_ok {pk : IVec SP 32} (hpk : PackedOK pk) (n : ℕ) : k3_chk2 (k3_pay1 (F := F) (chunk pk n)) := by
  unfold k3_chk2
  refine ⟨?_, ?_, ?_, ?_, ?_, ?_⟩ <;> exact row_inb hpk n
theorem chkC0_ok {pk : IVec SP 32} (hpk : PackedOK pk) (n : ℕ) : k3_chk1 (k3_pay2 (F := F) (chunk pk n)) := by
  unfold k3_chk1
  refine ⟨?_, ?_, ?_, ?_, ?_, ?_⟩ <;> exact col_inb hpk n

theorem chkR1_ok {pk : IVec SP 32} (hpk : PackedOK pk) (n : ℕ) : k3_chk4 (k3_pay3 (F := F) (chunk pk n)) := by
  unfold k3_chk4
  refine ⟨?_, ?_, ?_, ?_, ?_, ?_⟩ <;> exact row_inb hpk n
theorem chkC1_ok {pk : IVec SP 32} (hpk : PackedOK pk) (n : ℕ) : k3_chk3 (k3_pay4 (F := F) (chunk pk n)) := by
  unfold k3_chk3
  refine ⟨?_, ?_, ?_, ?_, ?_, ?_⟩ <;> exact col_inb hpk n

theorem chkR2_ok {pk : IVec SP 32} (hpk : PackedOK pk) (n : ℕ) : k3_chk6 (k3_pay6 (F := F) (chunk pk n) 14#32) := by
  unfold k3_chk6
  refine ⟨?_, ?_, ?_, ?_, ?_, ?_⟩ <;> exact row_inb hpk n
theorem chkC2_ok {pk : IVec SP 32} (hpk : PackedOK pk) (n : ℕ) : k3_chk5 (k3_pay7 (F := F) (chunk pk n)) := by
  unfold k3_chk5
  refine ⟨?_, ?_, ?_, ?_, ?_, ?_⟩ <;> exact col_inb hpk n

theorem chkR3_ok {pk : IVec SP 32} (hpk : PackedOK pk) (n : ℕ) : k3_chk8 (k3_pay8 (F := F) (chunk pk n)) := by
  unfold k3_chk8
  refine ⟨?_, ?_, ?_, ?_, ?_, ?_⟩ <;> exact row_inb hpk n
theorem chkC3_ok {pk : IVec SP 32} (hpk : PackedOK pk) (n : ℕ) : k3_chk7 (k3_pay9 (F := F) (chunk pk n)) := by
  unfold k3_chk7
  refine ⟨?_, ?_, ?_, ?_, ?_, ?_⟩ <;> exact col_inb hpk n

theorem aggN_succ (pk : IVec SP 32) (hpk : PackedOK pk) (v : Vec F SN .f32) (n : ℕ) :
    aggN pk hpk v (n + 1) = storeIdx (aggN pk hpk v n) ![row16 (chunk pk n)] (loadIdx v ![col16 (chunk pk n)] (col_inb hpk n)) (fun _ => 1#1) true (row_inb hpk n) := rfl

set_option maxRecDepth 65536 in
set_option maxHeartbeats 4000000 in
/-- One trip: four groups of sixteen words, each read off the block, its feature values gathered and added on. -/
theorem trip_body (d : Dev nD) (L : grid3.Coords) (pk : IVec SP 32) (hpk : PackedOK pk) (vr : Fin 6 → Vec F SN .f32)
    (b : ℕ) (v1 : BitVec 32) (k : Fin k3_t3_loop.trips) (a : BitVec 32) :
    (TripInv (F := F) (Name := Name) (U := U) d L pk hpk vr b k.val : sProp 𝕄)
      ⊢ wp frame (wpE (defs₀ (F := F)) 𝒱₀ (thr d L) none) Set.univ
          (k3_t3_body L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 v1 k a)
          fun _ => TripInv (F := F) (Name := Name) (U := U) d L pk hpk vr b (k.val + 1) := by
  unfold TripInv k3_t3_body
  simp only [k3_part1_eq_skeleton]; unfold k3_part1_skel
  simp only [Prog.lift, Prog.bind_op, Prog.bind_ret, Prog.pure_eq_ret, Prog.bind_assoc]
  iintro ⟨Hp, Hv0, Hv1, Hv2, Hv3, Hv4, Hv5, Ha0, Ha1, Ha2, Ha3, Ha4, Ha5⟩

  -- group 0 of the trip: its sixteen words, their two node lists in range, six reads, six additions
  iapply (wp_load 𝒱₀ (thr d L) none Set.univ (m := sP) (S := Finset.univ) (Finset.subset_univ _)) $$ Hp; iintro Hp
  rw [load_chunk0 (F := F) pk b k]
  rw [wp_assume_of _ _ _ _ (chkR0_ok (F := F) hpk (400 * b + 4 * k.val))]
  rw [wp_assume_of _ _ _ _ (chkC0_ok (F := F) hpk (400 * b + 4 * k.val))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 1 of the trip: its sixteen words, their two node lists in range, six reads, six additions
  iapply (wp_load 𝒱₀ (thr d L) none Set.univ (m := sP) (S := Finset.univ) (Finset.subset_univ _)) $$ Hp; iintro Hp
  rw [load_chunk1 (F := F) pk b k]
  rw [wp_assume_of _ _ _ _ (chkR1_ok (F := F) hpk (400 * b + 4 * k.val + 1))]
  rw [wp_assume_of _ _ _ _ (chkC1_ok (F := F) hpk (400 * b + 4 * k.val + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 2 of the trip: its sixteen words, their two node lists in range, six reads, six additions
  iapply (wp_load 𝒱₀ (thr d L) none Set.univ (m := sP) (S := Finset.univ) (Finset.subset_univ _)) $$ Hp; iintro Hp
  rw [load_chunk2 (F := F) pk b k]
  rw [wp_assume_of _ _ _ _ (chkR2_ok (F := F) hpk (400 * b + 4 * k.val + 1 + 1))]
  rw [wp_assume_of _ _ _ _ (chkC2_ok (F := F) hpk (400 * b + 4 * k.val + 1 + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]

  -- group 3 of the trip: its sixteen words, their two node lists in range, six reads, six additions
  iapply (wp_load 𝒱₀ (thr d L) none Set.univ (m := sP) (S := Finset.univ) (Finset.subset_univ _)) $$ Hp; iintro Hp
  rw [load_chunk3 (F := F) pk b k]
  rw [wp_assume_of _ _ _ _ (chkR3_ok (F := F) hpk (400 * b + 4 * k.val + 1 + 1 + 1))]
  rw [wp_assume_of _ _ _ _ (chkC3_ok (F := F) hpk (400 * b + 4 * k.val + 1 + 1 + 1))]
  iapply (SparseCore.wp_vectorLoadIdx 𝒱₀ (thr d L) none Set.univ (base := (Memref.whole cc3_scratch1 : Memref sig .scVector .vmem S10000 .f32)) (S := Finset.univ) (q := fullShare) (Finset.subset_univ _)) $$ Hv0; iintro Hv0
  iapply (SparseCore.wp_vectorLoadIdx 𝒱₀ (thr d L) none Set.univ (base := (Memref.whole cc3_scratch2 : Memref sig .scVector .vmem S10000 .f32)) (S := Finset.univ) (q := fullShare) (Finset.subset_univ _)) $$ Hv1; iintro Hv1
  iapply (SparseCore.wp_vectorLoadIdx 𝒱₀ (thr d L) none Set.univ (base := (Memref.whole cc3_scratch3 : Memref sig .scVector .vmem S10000 .f32)) (S := Finset.univ) (q := fullShare) (Finset.subset_univ _)) $$ Hv2; iintro Hv2
  iapply (SparseCore.wp_vectorLoadIdx 𝒱₀ (thr d L) none Set.univ (base := (Memref.whole cc3_scratch4 : Memref sig .scVector .vmem S10000 .f32)) (S := Finset.univ) (q := fullShare) (Finset.subset_univ _)) $$ Hv3; iintro Hv3
  iapply (SparseCore.wp_vectorLoadIdx 𝒱₀ (thr d L) none Set.univ (base := (Memref.whole cc3_scratch5 : Memref sig .scVector .vmem S10000 .f32)) (S := Finset.univ) (q := fullShare) (Finset.subset_univ _)) $$ Hv4; iintro Hv4
  iapply (SparseCore.wp_vectorLoadIdx 𝒱₀ (thr d L) none Set.univ (base := (Memref.whole cc3_scratch6 : Memref sig .scVector .vmem S10000 .f32)) (S := Finset.univ) (q := fullShare) (Finset.subset_univ _)) $$ Hv5; iintro Hv5
  iapply (SparseCore.wp_vectorStoreIdx 𝒱₀ (thr d L) none Set.univ (base := (Memref.whole cc3_scratch7 : Memref sig .scVector .vmem S10000 .f32))) $$ Ha0; iintro Ha0
  iapply (SparseCore.wp_vectorStoreIdx 𝒱₀ (thr d L) none Set.univ (base := (Memref.whole cc3_scratch8 : Memref sig .scVector .vmem S10000 .f32))) $$ Ha1; iintro Ha1
  iapply (SparseCore.wp_vectorStoreIdx 𝒱₀ (thr d L) none Set.univ (base := (Memref.whole cc3_scratch9 : Memref sig .scVector .vmem S10000 .f32))) $$ Ha2; iintro Ha2
  iapply (SparseCore.wp_vectorStoreIdx 𝒱₀ (thr d L) none Set.univ (base := (Memref.whole cc3_scratch10 : Memref sig .scVector .vmem S10000 .f32))) $$ Ha3; iintro Ha3
  iapply (SparseCore.wp_vectorStoreIdx 𝒱₀ (thr d L) none Set.univ (base := (Memref.whole cc3_scratch11 : Memref sig .scVector .vmem S10000 .f32))) $$ Ha4; iintro Ha4
  iapply (SparseCore.wp_vectorStoreIdx 𝒱₀ (thr d L) none Set.univ (base := (Memref.whole cc3_scratch12 : Memref sig .scVector .vmem S10000 .f32))) $$ Ha5; iintro Ha5
  simp only [Memref.read_access_whole, Memref.write_access_whole_univ]
  rw [wp_ret]; imodintro
  rw [show 400 * b + 4 * (k.val + 1) = 400 * b + 4 * k.val + 1 + 1 + 1 + 1 by omega]
  simp only [aggN_succ]
  isplitl [Hp]; · iexact Hp
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Ha0]; · iexact Ha0
  isplitl [Ha1]; · iexact Ha1
  isplitl [Ha2]; · iexact Ha2
  isplitl [Ha3]; · iexact Ha3
  isplitl [Ha4]; · iexact Ha4
  iexact Ha5

/-! ## One block of packed words -/

theorem trips3 : Scf.trips k3_t3_loop.lb k3_t3_loop.ub k3_t3_loop.st = 100 := by decide +kernel

/-- The block's copy lands block `b` of the packed words. -/
theorem block_lands (pk : IVec SP 32) (b : Fin k3_t2_loop.trips) :
    ((pkW).slice (Rect.unit (s := S320000) (k3_off3 b) S6400.size (k3_off3_inb b)) (fun _ => rfl)).view.read (Elt F) pk
      = blockOf (F := F) pk b.val := by
  funext y
  have h0 : k3_off3 b 0 = 6400 * b.val := by rw [k3_off3_eq]; rfl
  have hlt := (((pkW).slice (Rect.unit (s := S320000) (k3_off3 b) S6400.size (k3_off3_inb b)) (fun _ => rfl)).view.emb y 0).isLt
  have hlt' : k3_off3 b 0 + 1 * (y 0).val < 320000 := hlt
  unfold blockOf
  rw [dif_pos (by omega)]
  show pk (((pkW).slice (Rect.unit (s := S320000) (k3_off3 b) S6400.size (k3_off3_inb b)) (fun _ => rfl)).view.emb y) = _
  congr 1
  exact (eq_ix1 _).trans (congrArg ix1 (Fin.ext (by
    show k3_off3 b 0 + 1 * (y 0).val = 6400 * b.val + (y 0).val
    omega)))

set_option maxRecDepth 65536 in
set_option maxHeartbeats 2000000 in
/-- One block: its 6400 words copied into the block scratch and waited for, then the hundred trips over them. -/
theorem block_body (d : Dev nD) (L : grid3.Coords) (qp : PosShare TreeShare) (pk : IVec SP 32) (hpk : PackedOK pk) (vr : Fin 6 → Vec F SN .f32)
    (O : CellTallies nD τ sig (HIx 2)) (W : Waits sig (HIx 2)) (v1 : BitVec 32) (b : Fin k3_t2_loop.trips) (a : BitVec 32) :
    (BlockInv (F := F) (Name := Name) (U := U) d L qp pk hpk vr O W b.val a : sProp 𝕄)
      ⊢ wp frame (wpE (defs₀ (F := F)) 𝒱₀ (thr d L) none) Set.univ
          (k3_t2_body L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12 v1 b a)
          (BlockInv (F := F) (Name := Name) (U := U) d L qp pk hpk vr O W (b.val + 1)) := by
  unfold BlockInv k3_t2_body
  iintro ⟨Hmw, Hpk, ⟨%f, Hp⟩, Hsem, Hv0, Hv1, Hv2, Hv3, Hv4, Hv5, Ha0, Ha1, Ha2, Ha3, Ha4, Ha5, %W', %hW', HO⟩
  sl_exec (disch := exact View.amount_pos _ _ (show 0 < S6400.numel by decide))
  sl_for (fun k (_ : BitVec 32) => TripInv (F := F) (Name := Name) (U := U) d L pk hpk vr b.val k) $$ [Hp Hv0 Hv1 Hv2 Hv3 Hv4 Hv5 Ha0 Ha1 Ha2 Ha3 Ha4 Ha5]
  case region =>
    intro k acc
    exact trip_body d L pk hpk vr b.val v1 k acc
  · unfold TripInv
    rw [View.write_whole_univ]
    unfold block_body.sl.dma0
    rw [block_lands (F := F) pk b, show 400 * b.val + 4 * 0 = 400 * b.val by omega]
    isplitl [Hp]; · iexact Hp
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Ha0]; · iexact Ha0
    isplitl [Ha1]; · iexact Ha1
    isplitl [Ha2]; · iexact Ha2
    isplitl [Ha3]; · iexact Ha3
    isplitl [Ha4]; · iexact Ha4
    iexact Ha5
  iintro %acc HI
  unfold TripInv
  icases HI with ⟨Hp, Hv0, Hv1, Hv2, Hv3, Hv4, Hv5, Ha0, Ha1, Ha2, Ha3, Ha4, Ha5⟩
  rw [trips3, show 400 * b.val + 4 * 100 = 400 * (b.val + 1) by omega]
  sl_step
  isplitl [Hmw]; · iexact Hmw
  isplitl [Hpk]; · iexact Hpk
  isplitl [Hp]; · iexists _; iexact Hp
  isplitl [Hsem]; · iexact Hsem
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists (insert (SemLoc.dma cc3_scoped6.sem, (default : HIx 2)) W'); isplitr
  · ipureintro; intro p hp
    rcases Finset.mem_insert.mp hp with hp | hp
    · exact .inr (hp ▸ rfl)
    · exact hW' p hp
  · iexact HO

end Cert.Proof.KB.Edge

end
-- ==== Proof.KB.EdgeTop.lean ====
/-
  The edge kernel's body on one tile, assembled: the tile's thirteen scratch buffers and thirteen semaphores are
  taken out of what it owns; the zeroing loop goes by an invariant saying the first `16 k` words of each of the six
  accumulators are zero, so that after its 625 trips each is the zero row; the six feature rows are copied into
  their scratches; the walk over the fifty blocks of packed words goes by the block invariant, its region the
  block's own triple; the six accumulators, then at the fold of all 20000 groups, are copied out to the tile's six
  result rows, which read back exactly what was copied.
-/
import proofs.«207992_g50208167690906_cont_8to1c4_731_36_alg».proof.Proof.KB.EdgeLoop
import Idealize.ShloMosaic.Lib.ValueIdx

noncomputable section

namespace Cert.Proof.KB.Edge

open Cert.Kernel Cert.Kernel.Gen

open Idealize.ShloMosaic Idealize.ShloMosaic.ValueIdx
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable {Name : Type} [DecidableEq Name] [Infinite Name] {U : Type} [URA U] [CountersIn U]
local notation "𝕄" => MT nD τ sig (HIx 2) (Elt F) Name U ℕ
abbrev cS0 (d : Dev nD) (L : grid3.Coords) : GSem nD τ sig := (thr d L, .dma cc3_scoped0.sem)
abbrev cS1 (d : Dev nD) (L : grid3.Coords) : GSem nD τ sig := (thr d L, .dma cc3_scoped1.sem)
abbrev cS2 (d : Dev nD) (L : grid3.Coords) : GSem nD τ sig := (thr d L, .dma cc3_scoped2.sem)
abbrev cS3 (d : Dev nD) (L : grid3.Coords) : GSem nD τ sig := (thr d L, .dma cc3_scoped3.sem)
abbrev cS4 (d : Dev nD) (L : grid3.Coords) : GSem nD τ sig := (thr d L, .dma cc3_scoped4.sem)
abbrev cS5 (d : Dev nD) (L : grid3.Coords) : GSem nD τ sig := (thr d L, .dma cc3_scoped5.sem)
abbrev cS6 (d : Dev nD) (L : grid3.Coords) : GSem nD τ sig := (thr d L, .dma cc3_scoped6.sem)
abbrev cS7 (d : Dev nD) (L : grid3.Coords) : GSem nD τ sig := (thr d L, .dma cc3_scoped7.sem)
abbrev cS8 (d : Dev nD) (L : grid3.Coords) : GSem nD τ sig := (thr d L, .dma cc3_scoped8.sem)
abbrev cS9 (d : Dev nD) (L : grid3.Coords) : GSem nD τ sig := (thr d L, .dma cc3_scoped9.sem)
abbrev cS10 (d : Dev nD) (L : grid3.Coords) : GSem nD τ sig := (thr d L, .dma cc3_scoped10.sem)
abbrev cS11 (d : Dev nD) (L : grid3.Coords) : GSem nD τ sig := (thr d L, .dma cc3_scoped11.sem)
abbrev cS12 (d : Dev nD) (L : grid3.Coords) : GSem nD τ sig := (thr d L, .dma cc3_scoped12.sem)

omit [FloatOps F] [CountersIn U] in
/-- The kernel's thirteen semaphores are among the tile's own: they, at zero, and the rest. -/
theorem ownSems0_tile (d : Dev nD) (L : grid3.Coords) :
    (ownSems0 (thr d L) : sProp 𝕄)
      = iprop(semVal (cS0 d L) 0 ∗ semVal (cS1 d L) 0 ∗ semVal (cS2 d L) 0 ∗ semVal (cS3 d L) 0 ∗ semVal (cS4 d L) 0 ∗ semVal (cS5 d L) 0 ∗ semVal (cS6 d L) 0 ∗ semVal (cS7 d L) 0 ∗ semVal (cS8 d L) 0 ∗ semVal (cS9 d L) 0 ∗ semVal (cS10 d L) 0 ∗ semVal (cS11 d L) 0 ∗ semVal (cS12 d L) 0
          ∗ bigSep ((((((((((((((ownCells (thr d L)).erase (cS0 d L)).erase (cS1 d L)).erase (cS2 d L)).erase (cS3 d L)).erase (cS4 d L)).erase (cS5 d L)).erase (cS6 d L)).erase (cS7 d L)).erase (cS8 d L)).erase (cS9 d L)).erase (cS10 d L)).erase (cS11 d L)).erase (cS12 d L)) fun g => semVal g 0) := by
  unfold SparseCore.Cfg.ownSems0
  rw [SparseCore.bigSep_erase' ((mem_ownCells (g := cS0 d L)).mpr ⟨rfl, by show (SemLoc.dma cc3_scoped0.sem : SemLoc sig).isScoped .scVector = true; decide⟩),
    SparseCore.bigSep_erase' (Finset.mem_erase.mpr ⟨fun e => absurd (Prod.mk.inj e).2 (by decide), (mem_ownCells (g := cS1 d L)).mpr ⟨rfl, by show (SemLoc.dma cc3_scoped1.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := cS2 d L)).mpr ⟨rfl, by show (SemLoc.dma cc3_scoped2.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS3 d L)).mpr ⟨rfl, by show (SemLoc.dma cc3_scoped3.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS4 d L)).mpr ⟨rfl, by show (SemLoc.dma cc3_scoped4.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS5 d L)).mpr ⟨rfl, by show (SemLoc.dma cc3_scoped5.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS6 d L)).mpr ⟨rfl, by show (SemLoc.dma cc3_scoped6.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS7 d L)).mpr ⟨rfl, by show (SemLoc.dma cc3_scoped7.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS8 d L)).mpr ⟨rfl, by show (SemLoc.dma cc3_scoped8.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS9 d L)).mpr ⟨rfl, by show (SemLoc.dma cc3_scoped9.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS10 d L)).mpr ⟨rfl, by show (SemLoc.dma cc3_scoped10.sem : SemLoc sig).isScoped .scVector = true; decide⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS11 d L)).mpr ⟨rfl, by show (SemLoc.dma cc3_scoped11.sem : SemLoc sig).isScoped .scVector = true; decide⟩⟩⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cS12 d L)).mpr ⟨rfl, by show (SemLoc.dma cc3_scoped12.sem : SemLoc sig).isScoped .scVector = true; decide⟩⟩⟩⟩⟩⟩⟩⟩⟩⟩⟩⟩⟩)]

omit [FloatOps F] [CountersIn U] in
/-- The kernel's thirteen scratch buffers are among the tile's own: they, at some contents, and the rest. -/
theorem ownBufs_tile (d : Dev nD) (L : grid3.Coords) :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f) ∗ (∃ f, (thr d L).loc cc3_scratch3 ↦{fullShare} f) ∗ (∃ f, (thr d L).loc cc3_scratch4 ↦{fullShare} f) ∗ (∃ f, (thr d L).loc cc3_scratch5 ↦{fullShare} f) ∗ (∃ f, (thr d L).loc cc3_scratch6 ↦{fullShare} f) ∗ (∃ f, (thr d L).loc cc3_scratch7 ↦{fullShare} f) ∗ (∃ f, (thr d L).loc cc3_scratch8 ↦{fullShare} f) ∗ (∃ f, (thr d L).loc cc3_scratch9 ↦{fullShare} f) ∗ (∃ f, (thr d L).loc cc3_scratch10 ↦{fullShare} f) ∗ (∃ f, (thr d L).loc cc3_scratch11 ↦{fullShare} f) ∗ (∃ f, (thr d L).loc cc3_scratch12 ↦{fullShare} f)
          ∗ bigSep ((((((((((((((ownRefs (τ := τ) (.scVector ((L 0).castLE hcore3) ((L 1).castLE hsub3))).erase ((Proc.scVector ((L 0).castLE hcore3) ((L 1).castLE hsub3)).devRef cc3_scratch0)).erase ((Proc.scVector ((L 0).castLE hcore3) ((L 1).castLE hsub3)).devRef cc3_scratch1)).erase ((Proc.scVector ((L 0).castLE hcore3) ((L 1).castLE hsub3)).devRef cc3_scratch2)).erase ((Proc.scVector ((L 0).castLE hcore3) ((L 1).castLE hsub3)).devRef cc3_scratch3)).erase ((Proc.scVector ((L 0).castLE hcore3) ((L 1).castLE hsub3)).devRef cc3_scratch4)).erase ((Proc.scVector ((L 0).castLE hcore3) ((L 1).castLE hsub3)).devRef cc3_scratch5)).erase ((Proc.scVector ((L 0).castLE hcore3) ((L 1).castLE hsub3)).devRef cc3_scratch6)).erase ((Proc.scVector ((L 0).castLE hcore3) ((L 1).castLE hsub3)).devRef cc3_scratch7)).erase ((Proc.scVector ((L 0).castLE hcore3) ((L 1).castLE hsub3)).devRef cc3_scratch8)).erase ((Proc.scVector ((L 0).castLE hcore3) ((L 1).castLE hsub3)).devRef cc3_scratch9)).erase ((Proc.scVector ((L 0).castLE hcore3) ((L 1).castLE hsub3)).devRef cc3_scratch10)).erase ((Proc.scVector ((L 0).castLE hcore3) ((L 1).castLE hsub3)).devRef cc3_scratch11)).erase ((Proc.scVector ((L 0).castLE hcore3) ((L 1).castLE hsub3)).devRef cc3_scratch12))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore3) ((L 1).castLE hsub3)) (b := (Proc.scVector ((L 0).castLE hcore3) ((L 1).castLE hsub3)).devRef cc3_scratch0) rfl)).trans ?_
  rw [SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch1) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch2) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch3) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch4) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch5) rfl⟩⟩⟩⟩⟩),
    SparseCore.bigSep_erase' (Finset.mem_erase.mpr ⟨fun e => absurd (Proc.devRef_injective _ e) (show (cc3_scratch6 : Ref sig .scVector) ≠ cc3_scratch5 by decide), Finset.mem_erase.mpr ⟨fun e => absurd (Proc.devRef_injective _ e) (show (cc3_scratch6 : Ref sig .scVector) ≠ cc3_scratch4 by decide), Finset.mem_erase.mpr ⟨fun e => absurd (Proc.devRef_injective _ e) (show (cc3_scratch6 : Ref sig .scVector) ≠ cc3_scratch3 by decide), Finset.mem_erase.mpr ⟨fun e => absurd (Proc.devRef_injective _ e) (show (cc3_scratch6 : Ref sig .scVector) ≠ cc3_scratch2 by decide), Finset.mem_erase.mpr ⟨fun e => absurd (Proc.devRef_injective _ e) (show (cc3_scratch6 : Ref sig .scVector) ≠ cc3_scratch1 by decide), Finset.mem_erase.mpr ⟨fun e => absurd (Proc.devRef_injective _ e) (show (cc3_scratch6 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch6) rfl⟩⟩⟩⟩⟩⟩),
    SparseCore.bigSep_erase' (Finset.mem_erase.mpr ⟨fun e => absurd (Proc.devRef_injective _ e) (show (cc3_scratch7 : Ref sig .scVector) ≠ cc3_scratch6 by decide), Finset.mem_erase.mpr ⟨fun e => absurd (Proc.devRef_injective _ e) (show (cc3_scratch7 : Ref sig .scVector) ≠ cc3_scratch5 by decide), Finset.mem_erase.mpr ⟨fun e => absurd (Proc.devRef_injective _ e) (show (cc3_scratch7 : Ref sig .scVector) ≠ cc3_scratch4 by decide), Finset.mem_erase.mpr ⟨fun e => absurd (Proc.devRef_injective _ e) (show (cc3_scratch7 : Ref sig .scVector) ≠ cc3_scratch3 by decide), Finset.mem_erase.mpr ⟨fun e => absurd (Proc.devRef_injective _ e) (show (cc3_scratch7 : Ref sig .scVector) ≠ cc3_scratch2 by decide), Finset.mem_erase.mpr ⟨fun e => absurd (Proc.devRef_injective _ e) (show (cc3_scratch7 : Ref sig .scVector) ≠ cc3_scratch1 by decide), Finset.mem_erase.mpr ⟨fun e => absurd (Proc.devRef_injective _ e) (show (cc3_scratch7 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch7) rfl⟩⟩⟩⟩⟩⟩⟩),
    SparseCore.bigSep_erase' (Finset.mem_erase.mpr ⟨fun e => absurd (Proc.devRef_injective _ e) (show (cc3_scratch8 : Ref sig .scVector) ≠ cc3_scratch7 by decide), Finset.mem_erase.mpr ⟨fun e => absurd (Proc.devRef_injective _ e) (show (cc3_scratch8 : Ref sig .scVector) ≠ cc3_scratch6 by decide), Finset.mem_erase.mpr ⟨fun e => absurd (Proc.devRef_injective _ e) (show (cc3_scratch8 : Ref sig .scVector) ≠ cc3_scratch5 by decide), Finset.mem_erase.mpr ⟨fun e => absurd (Proc.devRef_injective _ e) (show (cc3_scratch8 : Ref sig .scVector) ≠ cc3_scratch4 by decide), Finset.mem_erase.mpr ⟨fun e => absurd (Proc.devRef_injective _ e) (show (cc3_scratch8 : Ref sig .scVector) ≠ cc3_scratch3 by decide), Finset.mem_erase.mpr ⟨fun e => absurd (Proc.devRef_injective _ e) (show (cc3_scratch8 : Ref sig .scVector) ≠ cc3_scratch2 by decide), Finset.mem_erase.mpr ⟨fun e => absurd (Proc.devRef_injective _ e) (show (cc3_scratch8 : Ref sig .scVector) ≠ cc3_scratch1 by decide), Finset.mem_erase.mpr ⟨fun e => absurd (Proc.devRef_injective _ e) (show (cc3_scratch8 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch8) rfl⟩⟩⟩⟩⟩⟩⟩⟩),
    SparseCore.bigSep_erase' (Finset.mem_erase.mpr ⟨fun e => absurd (Proc.devRef_injective _ e) (show (cc3_scratch9 : Ref sig .scVector) ≠ cc3_scratch8 by decide), Finset.mem_erase.mpr ⟨fun e => absurd (Proc.devRef_injective _ e) (show (cc3_scratch9 : Ref sig .scVector) ≠ cc3_scratch7 by decide), Finset.mem_erase.mpr ⟨fun e => absurd (Proc.devRef_injective _ e) (show (cc3_scratch9 : Ref sig .scVector) ≠ cc3_scratch6 by decide), Finset.mem_erase.mpr ⟨fun e => absurd (Proc.devRef_injective _ e) (show (cc3_scratch9 : Ref sig .scVector) ≠ cc3_scratch5 by decide), Finset.mem_erase.mpr ⟨fun e => absurd (Proc.devRef_injective _ e) (show (cc3_scratch9 : Ref sig .scVector) ≠ cc3_scratch4 by decide), Finset.mem_erase.mpr ⟨fun e => absurd (Proc.devRef_injective _ e) (show (cc3_scratch9 : Ref sig .scVector) ≠ cc3_scratch3 by decide), Finset.mem_erase.mpr ⟨fun e => absurd (Proc.devRef_injective _ e) (show (cc3_scratch9 : Ref sig .scVector) ≠ cc3_scratch2 by decide), Finset.mem_erase.mpr ⟨fun e => absurd (Proc.devRef_injective _ e) (show (cc3_scratch9 : Ref sig .scVector) ≠ cc3_scratch1 by decide), Finset.mem_erase.mpr ⟨fun e => absurd (Proc.devRef_injective _ e) (show (cc3_scratch9 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch9) rfl⟩⟩⟩⟩⟩⟩⟩⟩⟩),
    SparseCore.bigSep_erase' (Finset.mem_erase.mpr ⟨fun e => absurd (Proc.devRef_injective _ e) (show (cc3_scratch10 : Ref sig .scVector) ≠ cc3_scratch9 by decide), Finset.mem_erase.mpr ⟨fun e => absurd (Proc.devRef_injective _ e) (show (cc3_scratch10 : Ref sig .scVector) ≠ cc3_scratch8 by decide), Finset.mem_erase.mpr ⟨fun e => absurd (Proc.devRef_injective _ e) (show (cc3_scratch10 : Ref sig .scVector) ≠ cc3_scratch7 by decide), Finset.mem_erase.mpr ⟨fun e => absurd (Proc.devRef_injective _ e) (show (cc3_scratch10 : Ref sig .scVector) ≠ cc3_scratch6 by decide), Finset.mem_erase.mpr ⟨fun e => absurd (Proc.devRef_injective _ e) (show (cc3_scratch10 : Ref sig .scVector) ≠ cc3_scratch5 by decide), Finset.mem_erase.mpr ⟨fun e => absurd (Proc.devRef_injective _ e) (show (cc3_scratch10 : Ref sig .scVector) ≠ cc3_scratch4 by decide), Finset.mem_erase.mpr ⟨fun e => absurd (Proc.devRef_injective _ e) (show (cc3_scratch10 : Ref sig .scVector) ≠ cc3_scratch3 by decide), Finset.mem_erase.mpr ⟨fun e => absurd (Proc.devRef_injective _ e) (show (cc3_scratch10 : Ref sig .scVector) ≠ cc3_scratch2 by decide), Finset.mem_erase.mpr ⟨fun e => absurd (Proc.devRef_injective _ e) (show (cc3_scratch10 : Ref sig .scVector) ≠ cc3_scratch1 by decide), Finset.mem_erase.mpr ⟨fun e => absurd (Proc.devRef_injective _ e) (show (cc3_scratch10 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch10) rfl⟩⟩⟩⟩⟩⟩⟩⟩⟩⟩),
    SparseCore.bigSep_erase' (Finset.mem_erase.mpr ⟨fun e => absurd (Proc.devRef_injective _ e) (show (cc3_scratch11 : Ref sig .scVector) ≠ cc3_scratch10 by decide), Finset.mem_erase.mpr ⟨fun e => absurd (Proc.devRef_injective _ e) (show (cc3_scratch11 : Ref sig .scVector) ≠ cc3_scratch9 by decide), Finset.mem_erase.mpr ⟨fun e => absurd (Proc.devRef_injective _ e) (show (cc3_scratch11 : Ref sig .scVector) ≠ cc3_scratch8 by decide), Finset.mem_erase.mpr ⟨fun e => absurd (Proc.devRef_injective _ e) (show (cc3_scratch11 : Ref sig .scVector) ≠ cc3_scratch7 by decide), Finset.mem_erase.mpr ⟨fun e => absurd (Proc.devRef_injective _ e) (show (cc3_scratch11 : Ref sig .scVector) ≠ cc3_scratch6 by decide), Finset.mem_erase.mpr ⟨fun e => absurd (Proc.devRef_injective _ e) (show (cc3_scratch11 : Ref sig .scVector) ≠ cc3_scratch5 by decide), Finset.mem_erase.mpr ⟨fun e => absurd (Proc.devRef_injective _ e) (show (cc3_scratch11 : Ref sig .scVector) ≠ cc3_scratch4 by decide), Finset.mem_erase.mpr ⟨fun e => absurd (Proc.devRef_injective _ e) (show (cc3_scratch11 : Ref sig .scVector) ≠ cc3_scratch3 by decide), Finset.mem_erase.mpr ⟨fun e => absurd (Proc.devRef_injective _ e) (show (cc3_scratch11 : Ref sig .scVector) ≠ cc3_scratch2 by decide), Finset.mem_erase.mpr ⟨fun e => absurd (Proc.devRef_injective _ e) (show (cc3_scratch11 : Ref sig .scVector) ≠ cc3_scratch1 by decide), Finset.mem_erase.mpr ⟨fun e => absurd (Proc.devRef_injective _ e) (show (cc3_scratch11 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch11) rfl⟩⟩⟩⟩⟩⟩⟩⟩⟩⟩⟩),
    SparseCore.bigSep_erase' (Finset.mem_erase.mpr ⟨fun e => absurd (Proc.devRef_injective _ e) (show (cc3_scratch12 : Ref sig .scVector) ≠ cc3_scratch11 by decide), Finset.mem_erase.mpr ⟨fun e => absurd (Proc.devRef_injective _ e) (show (cc3_scratch12 : Ref sig .scVector) ≠ cc3_scratch10 by decide), Finset.mem_erase.mpr ⟨fun e => absurd (Proc.devRef_injective _ e) (show (cc3_scratch12 : Ref sig .scVector) ≠ cc3_scratch9 by decide), Finset.mem_erase.mpr ⟨fun e => absurd (Proc.devRef_injective _ e) (show (cc3_scratch12 : Ref sig .scVector) ≠ cc3_scratch8 by decide), Finset.mem_erase.mpr ⟨fun e => absurd (Proc.devRef_injective _ e) (show (cc3_scratch12 : Ref sig .scVector) ≠ cc3_scratch7 by decide), Finset.mem_erase.mpr ⟨fun e => absurd (Proc.devRef_injective _ e) (show (cc3_scratch12 : Ref sig .scVector) ≠ cc3_scratch6 by decide), Finset.mem_erase.mpr ⟨fun e => absurd (Proc.devRef_injective _ e) (show (cc3_scratch12 : Ref sig .scVector) ≠ cc3_scratch5 by decide), Finset.mem_erase.mpr ⟨fun e => absurd (Proc.devRef_injective _ e) (show (cc3_scratch12 : Ref sig .scVector) ≠ cc3_scratch4 by decide), Finset.mem_erase.mpr ⟨fun e => absurd (Proc.devRef_injective _ e) (show (cc3_scratch12 : Ref sig .scVector) ≠ cc3_scratch3 by decide), Finset.mem_erase.mpr ⟨fun e => absurd (Proc.devRef_injective _ e) (show (cc3_scratch12 : Ref sig .scVector) ≠ cc3_scratch2 by decide), Finset.mem_erase.mpr ⟨fun e => absurd (Proc.devRef_injective _ e) (show (cc3_scratch12 : Ref sig .scVector) ≠ cc3_scratch1 by decide), Finset.mem_erase.mpr ⟨fun e => absurd (Proc.devRef_injective _ e) (show (cc3_scratch12 : Ref sig .scVector) ≠ cc3_scratch0 by decide), SparseCore.Cfg.mem_ownRefs_of_owner (p := Proc.scVector ((L 0).castLE hcore3) ((L 1).castLE hsub3)) (b := (Proc.scVector ((L 0).castLE hcore3) ((L 1).castLE hsub3)).devRef cc3_scratch12) rfl⟩⟩⟩⟩⟩⟩⟩⟩⟩⟩⟩⟩)]

/-! ## The zeroing loop's trips -/

/-- A trip of the zeroing loop on accumulator scratch 7: sixteen more of its words are zero. -/
theorem zstep7 (f : (cc3_scratch7 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch7 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch7) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch7) ((View.whole cc3_scratch7).writes (Elt F) f
        [⟨Rect.unit (s := S10000) (k3_off1 k) S16.size (k3_off1_inb k), k3_pay5 (F := F)⟩]) j = View.read (Elt F) (View.whole cc3_scratch7) f j
    refine View.read_writes_apply_of_forall_not_mem (View.whole cc3_scratch7) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 8: sixteen more of its words are zero. -/
theorem zstep8 (f : (cc3_scratch8 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch8 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch8) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch8) ((View.whole cc3_scratch8).writes (Elt F) f
        [⟨Rect.unit (s := S10000) (k3_off1 k) S16.size (k3_off1_inb k), k3_pay5 (F := F)⟩]) j = View.read (Elt F) (View.whole cc3_scratch8) f j
    refine View.read_writes_apply_of_forall_not_mem (View.whole cc3_scratch8) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 9: sixteen more of its words are zero. -/
theorem zstep9 (f : (cc3_scratch9 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch9 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch9) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch9) ((View.whole cc3_scratch9).writes (Elt F) f
        [⟨Rect.unit (s := S10000) (k3_off1 k) S16.size (k3_off1_inb k), k3_pay5 (F := F)⟩]) j = View.read (Elt F) (View.whole cc3_scratch9) f j
    refine View.read_writes_apply_of_forall_not_mem (View.whole cc3_scratch9) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 10: sixteen more of its words are zero. -/
theorem zstep10 (f : (cc3_scratch10 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch10 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch10) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch10) ((View.whole cc3_scratch10).writes (Elt F) f
        [⟨Rect.unit (s := S10000) (k3_off1 k) S16.size (k3_off1_inb k), k3_pay5 (F := F)⟩]) j = View.read (Elt F) (View.whole cc3_scratch10) f j
    refine View.read_writes_apply_of_forall_not_mem (View.whole cc3_scratch10) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 11: sixteen more of its words are zero. -/
theorem zstep11 (f : (cc3_scratch11 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch11 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch11) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch11) ((View.whole cc3_scratch11).writes (Elt F) f
        [⟨Rect.unit (s := S10000) (k3_off1 k) S16.size (k3_off1_inb k), k3_pay5 (F := F)⟩]) j = View.read (Elt F) (View.whole cc3_scratch11) f j
    refine View.read_writes_apply_of_forall_not_mem (View.whole cc3_scratch11) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- A trip of the zeroing loop on accumulator scratch 12: sixteen more of its words are zero. -/
theorem zstep12 (f : (cc3_scratch12 : Ref sig .scVector).ty.Contents (Elt F)) (k : Fin k3_t1_loop.trips)
    (hz : ∀ j : S10000.Idx, (j 0).val < 16 * k.val → f j = (Scalar.ofBits .f32 0x00000000#32 : F .f32)) :
    ∀ j : S10000.Idx, (j 0).val < 16 * (k.val + 1) →
      (Memref.whole cc3_scratch12 : Memref sig .scVector .vmem S10000 .f32).view.writes (Elt F) f
          [⟨Rect.unit (s := S10000) (k3_off1 k) S16.size (k3_off1_inb k), k3_pay5 (F := F)⟩] j
        = (Scalar.ofBits .f32 0x00000000#32 : F .f32) := by
  intro j hj
  have hoff : (k3_off1 k) 0 = 16 * k.val := by rw [k3_off1_eq]; rfl
  by_cases h : 16 * k.val ≤ (j 0).val
  · have hx : (j 0).val - 16 * k.val < 16 := by omega
    have hj' : j = (Rect.unit (s := S10000) (k3_off1 k) S16.size (k3_off1_inb k)).emb (ix1 ⟨(j 0).val - 16 * k.val, hx⟩) := by
      funext a
      obtain rfl : a = 0 := Subsingleton.elim _ _
      apply Fin.ext
      rw [Rect.emb_apply]
      show (j 0).val = (k3_off1 k) 0 + 1 * ((j 0).val - 16 * k.val)
      rw [hoff]; omega
    rw [hj']
    exact View.read_writes_cons_emb (View.whole cc3_scratch12) f (Rect.unit (s := S10000) (k3_off1 k) S16.size (k3_off1_inb k)) (k3_pay5 (F := F)) []
      (ix1 ⟨(j 0).val - 16 * k.val, hx⟩)
  · have hlt : (j 0).val < 16 * k.val := by omega
    rw [← hz j hlt]
    show View.read (Elt F) (View.whole cc3_scratch12) ((View.whole cc3_scratch12).writes (Elt F) f
        [⟨Rect.unit (s := S10000) (k3_off1 k) S16.size (k3_off1_inb k), k3_pay5 (F := F)⟩]) j = View.read (Elt F) (View.whole cc3_scratch12) f j
    refine View.read_writes_apply_of_forall_not_mem (View.whole cc3_scratch12) f j _ fun p hp => ?_
    rw [List.mem_singleton] at hp; subst hp
    intro hm
    have hm' : ∀ a, (k3_off1 k) a ≤ (j a).val ∧ (j a).val < (k3_off1 k) a + S16.size a :=
      (Rect.mem_set_unit (s := S10000) (off := k3_off1 k) (size := S16.size) (inb := k3_off1_inb k) (i := j)).mp hm
    have hm0 := (hm' 0).1
    rw [hoff] at hm0; omega

/-- After the 625 trips a whole accumulator is the zero row. -/
theorem zdone (f : Vec F SN .f32)
    (hz : ∀ j : S10000.Idx, (j 0).val < 16 * k3_t1_loop.trips → f j = (Scalar.ofBits .f32 0x00000000#32 : F .f32)) :
    f = zeroRow (F := F) :=
  funext fun j => hz j (Nat.lt_of_lt_of_le (j 0).isLt (by decide))

theorem trips50 : Scf.trips k3_t2_loop.lb k3_t2_loop.ub k3_t2_loop.st = 50 := by decide

/-! ## The arrays as the tile's memrefs address them -/

omit [FloatOps F] [CountersIn U] [Infinite Name] in
/-- A scratch written whole holds what was written. -/
theorem pts_write_whole (d : Dev nD) (L : grid3.Coords) (b : Ref sig .scVector) (f w : b.ty.Contents (Elt F)) :
    ((Memref.whole b).view.loc (thr d L) ↦{fullShare} View.write (Elt F) (Memref.whole b).view f w Finset.univ : sProp 𝕄)
      = ((Memref.whole b).view.loc (thr d L) ↦{fullShare} w) :=
  congrArg (fun g => ((Memref.whole b).view.loc (thr d L) ↦{fullShare} g : sProp 𝕄)) (View.write_whole_univ (Val := Elt F) b f w)

omit [FloatOps F] [CountersIn U] [Infinite Name] in
/-- A scratch held through its whole-rectangle view, by that view's elements, is the scratch. -/
theorem pts_acc (d : Dev nD) (L : grid3.Coords) (b : Ref sig .scVector) (f : b.ty.Contents (Elt F)) :
    ((((Memref.whole b).access (Rect.whole b.ty.shape)).loc (thr d L) ↦[((Memref.whole b).access (Rect.whole b.ty.shape)).set]{fullShare} f : sProp 𝕄))
      = ((Memref.whole b).view.loc (thr d L) ↦{fullShare} f) := by
  rw [Memref.set_access_whole b]

omit [FloatOps F] [CountersIn U] [Infinite Name] in
/-- A result row after a whole write through it, as the run names it, is the row written. -/
theorem pts_writes_whole (d : Dev nD) (L : grid3.Coords) (m : Memref sig .scVector .hbm S10000 .f32)
    (fo : Buf (Elt F) (m.view.loc (thr d L))) (w : S10000.Idx → Elt F .f32) :
    (m.view.loc (thr d L) ↦[m.view.set]{fullShare} m.view.writes (Elt F) fo [⟨Rect.whole S10000, w⟩] : sProp 𝕄)
      = (m.view.loc (thr d L) ↦[m.view.set]{fullShare} m.view.write (Elt F) fo w Finset.univ) := by
  refine pointsTo_congr fun i hi => ?_
  obtain ⟨x, -, rfl⟩ := Finset.mem_map.mp hi
  have e : m.view.emb x = (m.view.slice (Rect.whole S10000)).emb x := by
    rw [View.emb_slice]
    show _ = m.view.emb ((Rect.whole S10000).emb x)
    rw [Rect.emb_whole_apply]
  rw [View.writes_singleton, View.write_emb_of_mem _ _ (Finset.mem_univ x)]
  rw [e, View.write_emb_of_mem _ _ (Finset.mem_univ _)]

omit [FloatOps F] [CountersIn U] [Infinite Name] in
/-- A scratch as the tile's memref addresses it is the scratch. -/
theorem pts_sc (d : Dev nD) (L : grid3.Coords) (b : Ref sig .scVector) (f : Buf (Elt F) ((thr d L).loc b)) :
    ((Memref.whole b).view.loc (thr d L) ↦{fullShare} f : sProp 𝕄) = ((thr d L).loc b ↦{fullShare} f) := rfl

omit [FloatOps F] [CountersIn U] [Infinite Name] [DecidableEq Name] in
/-- One more wait at index `none` keeps every recorded wait old or at `none`. -/
theorem waits_insert {W W' : Waits sig (HIx 2)} (s : SemLoc sig) (h : ∀ p ∈ W', p ∈ W ∨ p.2 = none) :
    ∀ p ∈ insert (s, (default : HIx 2)) W', p ∈ W ∨ p.2 = none := by
  intro p hp
  rcases Finset.mem_insert.mp hp with hp | hp
  · exact .inr (by rw [hp]; rfl)
  · exact h p hp

/-- Before trip `k` of the zeroing loop: the first `16 k` words of each of the six accumulators are zero. -/
def zinv (d : Dev nD) (L : grid3.Coords) (k : Nat) (_ : BitVec 32) : sProp 𝕄 :=
  iprop((∃ f : Buf (Elt F) ((thr d L).loc cc3_scratch7), ((Memref.whole cc3_scratch7 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch8), ((Memref.whole cc3_scratch8 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch9), ((Memref.whole cc3_scratch9 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch10), ((Memref.whole cc3_scratch10 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch11), ((Memref.whole cc3_scratch11 : Memref sig .scVector .vmem S10000 .f32).view.loc (thr d L) ↦{fullShare} f)
      ∗ ⌜∀ j : S10000.Idx, (j 0).val < 16 * k → f j = (Scalar.ofBits .f32 0x00000000#32 : F .f32)⌝)
    ∗ (∃ f : Buf (Elt F) ((thr d L).loc cc3_scratch12), ((Memref.whole cc3_scratch12 : Memref sig .scVector .vmem S10000 .f32).view.loc (thr d L) ↦{fullShare} f)
      ∗ ⌜∀ j : S10000.Idx, (j 0).val < 16 * k → f j = (Scalar.ofBits .f32 0x00000000#32 : F .f32)⌝))

set_option maxHeartbeats 1000000 in
/-- The edge kernel's body on one tile. -/
theorem edge_top (d : Dev nD) (L : grid3.Coords) (qp qv : PosShare TreeShare)
    (pk : Buf (Elt F) ((pkW).view.loc (thr d L))) (vpt : Buf (Elt F) ((vptW).view.loc (thr d L)))
    (fo : Fin 6 → Buf (Elt F) ((outW).view.loc (thr d L))) (hpk : PackedOK pk)
    (O : CellTallies nD τ sig (HIx 2)) (W : Waits sig (HIx 2)) (hO : ∀ g, O g none = 0) :
    (iprop(levAts (K (F := F)).L (K (F := F)).lev
        ∗ ((pkW).view.loc (thr d L) ↦{qp} pk)
        ∗ ((vptW).view.loc (thr d L) ↦{qv} vpt)
        ∗ ((outRow L 0).view.loc (thr d L) ↦[(outRow L 0).view.set]{fullShare} fo 0)
        ∗ ((outRow L 1).view.loc (thr d L) ↦[(outRow L 1).view.set]{fullShare} fo 1)
        ∗ ((outRow L 2).view.loc (thr d L) ↦[(outRow L 2).view.set]{fullShare} fo 2)
        ∗ ((outRow L 3).view.loc (thr d L) ↦[(outRow L 3).view.set]{fullShare} fo 3)
        ∗ ((outRow L 4).view.loc (thr d L) ↦[(outRow L 4).view.set]{fullShare} fo 4)
        ∗ ((outRow L 5).view.loc (thr d L) ↦[(outRow L 5).view.set]{fullShare} fo 5)
        ∗ scopedBufs (thr d L) ∗ scopedSems0 (thr d L) ∗ owes (thr d L) O W) : sProp 𝕄)
      ⊢ wp frame (wpE (defs₀ (F := F)) 𝒱₀ (thr d L) none) Set.univ
          (cc3__edge_kernel L pkW (Memref.isWhole_whole _) vptW (Memref.isWhole_whole _) outW (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _) cc3_scoped0 cc3_scoped1 cc3_scoped2 cc3_scoped3 cc3_scoped4 cc3_scoped5 cc3_scoped6 cc3_scoped7 cc3_scoped8 cc3_scoped9 cc3_scoped10 cc3_scoped11 cc3_scoped12)
          fun _ => iprop(((pkW).view.loc (thr d L) ↦{qp} pk)
            ∗ ((vptW).view.loc (thr d L) ↦{qv} vpt)
            ∗ (∃ g, ⌜(outRow L 0).view.read (Elt F) g = aggRow pk hpk ((vptRow L 0).view.read (Elt F) vpt)⌝ ∗ (outRow L 0).view.loc (thr d L) ↦[(outRow L 0).view.set]{fullShare} g)
            ∗ (∃ g, ⌜(outRow L 1).view.read (Elt F) g = aggRow pk hpk ((vptRow L 1).view.read (Elt F) vpt)⌝ ∗ (outRow L 1).view.loc (thr d L) ↦[(outRow L 1).view.set]{fullShare} g)
            ∗ (∃ g, ⌜(outRow L 2).view.read (Elt F) g = aggRow pk hpk ((vptRow L 2).view.read (Elt F) vpt)⌝ ∗ (outRow L 2).view.loc (thr d L) ↦[(outRow L 2).view.set]{fullShare} g)
            ∗ (∃ g, ⌜(outRow L 3).view.read (Elt F) g = aggRow pk hpk ((vptRow L 3).view.read (Elt F) vpt)⌝ ∗ (outRow L 3).view.loc (thr d L) ↦[(outRow L 3).view.set]{fullShare} g)
            ∗ (∃ g, ⌜(outRow L 4).view.read (Elt F) g = aggRow pk hpk ((vptRow L 4).view.read (Elt F) vpt)⌝ ∗ (outRow L 4).view.loc (thr d L) ↦[(outRow L 4).view.set]{fullShare} g)
            ∗ (∃ g, ⌜(outRow L 5).view.read (Elt F) g = aggRow pk hpk ((vptRow L 5).view.read (Elt F) vpt)⌝ ∗ (outRow L 5).view.loc (thr d L) ↦[(outRow L 5).view.set]{fullShare} g)
            ∗ scopedBufs (thr d L) ∗ scopedSems0 (thr d L)
            ∗ ∃ W', ⌜∀ p ∈ W', p ∈ W ∨ p.2 = none⌝ ∗ owes (thr d L) O W') := by
  rw [(K (F := F)).scopedBufs_V (facts (F := F)) d ((L 0).castLE hcore3) ((L 1).castLE hsub3), SparseCore.Cfg.scopedSems0_V (Val := Elt F) d ((L 0).castLE hcore3) ((L 1).castLE hsub3), ownSems0_tile, ownBufs_tile]
  simp only [cc3__edge_kernel_eq_skeleton]; unfold cc3__edge_kernel_skel
  iintro ⟨#Hlv, Hpk, Hvpt, Ho0, Ho1, Ho2, Ho3, Ho4, Ho5, ⟨⟨%g0, Hb0⟩, ⟨%g1, Hb1⟩, ⟨%g2, Hb2⟩, ⟨%g3, Hb3⟩, ⟨%g4, Hb4⟩, ⟨%g5, Hb5⟩, ⟨%g6, Hb6⟩, ⟨%g7, Hb7⟩, ⟨%g8, Hb8⟩, ⟨%g9, Hb9⟩, ⟨%g10, Hb10⟩, ⟨%g11, Hb11⟩, ⟨%g12, Hb12⟩, Hbufs⟩, ⟨Hs0, Hs1, Hs2, Hs3, Hs4, Hs5, Hs6, Hs7, Hs8, Hs9, Hs10, Hs11, Hs12, Hsems⟩, HO⟩
  ihave Hmw := ((K (F := F)).mayWaits_none (thr := thr d L) hO) $$ Hlv
  ihave Hpk' := (Entails.of_eq (rfl : ((pkW).view.loc (thr d L) ↦{qp} pk : sProp 𝕄) = _)) $$ [Hpk]
  · iexact Hpk
  ihave Hvpt' := (Entails.of_eq (rfl : ((vptW).view.loc (thr d L) ↦{qv} vpt : sProp 𝕄) = _)) $$ [Hvpt]
  · iexact Hvpt
  ihave Hq0 := (Entails.of_eq (rfl : (((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.loc (thr d L) ↦[((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.set]{fullShare} fo 0 : sProp 𝕄) = _)) $$ [Ho0]
  · iexact Ho0
  ihave Hq1 := (Entails.of_eq (rfl : (((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.loc (thr d L) ↦[((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.set]{fullShare} fo 1 : sProp 𝕄) = _)) $$ [Ho1]
  · iexact Ho1
  ihave Hq2 := (Entails.of_eq (rfl : (((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.loc (thr d L) ↦[((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.set]{fullShare} fo 2 : sProp 𝕄) = _)) $$ [Ho2]
  · iexact Ho2
  ihave Hq3 := (Entails.of_eq (rfl : (((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.loc (thr d L) ↦[((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.set]{fullShare} fo 3 : sProp 𝕄) = _)) $$ [Ho3]
  · iexact Ho3
  ihave Hq4 := (Entails.of_eq (rfl : (((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.loc (thr d L) ↦[((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.set]{fullShare} fo 4 : sProp 𝕄) = _)) $$ [Ho4]
  · iexact Ho4
  ihave Hq5 := (Entails.of_eq (rfl : (((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.loc (thr d L) ↦[((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.set]{fullShare} fo 5 : sProp 𝕄) = _)) $$ [Ho5]
  · iexact Ho5
  ihave Hb0' := (Entails.of_eq (pts_sc (F := F) d L cc3_scratch0 _).symm) $$ Hb0
  ihave Hb1' := (Entails.of_eq (pts_sc (F := F) d L cc3_scratch1 _).symm) $$ Hb1
  ihave Hb2' := (Entails.of_eq (pts_sc (F := F) d L cc3_scratch2 _).symm) $$ Hb2
  ihave Hb3' := (Entails.of_eq (pts_sc (F := F) d L cc3_scratch3 _).symm) $$ Hb3
  ihave Hb4' := (Entails.of_eq (pts_sc (F := F) d L cc3_scratch4 _).symm) $$ Hb4
  ihave Hb5' := (Entails.of_eq (pts_sc (F := F) d L cc3_scratch5 _).symm) $$ Hb5
  ihave Hb6' := (Entails.of_eq (pts_sc (F := F) d L cc3_scratch6 _).symm) $$ Hb6
  sl_exec
  sl_for (zinv (F := F) (Name := Name) (U := U) d L) $$ [Hb7 Hb8 Hb9 Hb10 Hb11 Hb12]
  case region =>
    intro k _
    unfold zinv
    iintro ⟨⟨%f7, H7, %h7⟩, ⟨%f8, H8, %h8⟩, ⟨%f9, H9, %h9⟩, ⟨%f10, H10, %h10⟩, ⟨%f11, H11, %h11⟩, ⟨%f12, H12, %h12⟩⟩
    sl_exec
    sl_step
    isplitl [H7]
    · iexists _; isplitl [H7]; · iexact H7
      ipureintro; exact zstep7 (F := F) f7 k h7
    isplitl [H8]
    · iexists _; isplitl [H8]; · iexact H8
      ipureintro; exact zstep8 (F := F) f8 k h8
    isplitl [H9]
    · iexists _; isplitl [H9]; · iexact H9
      ipureintro; exact zstep9 (F := F) f9 k h9
    isplitl [H10]
    · iexists _; isplitl [H10]; · iexact H10
      ipureintro; exact zstep10 (F := F) f10 k h10
    isplitl [H11]
    · iexists _; isplitl [H11]; · iexact H11
      ipureintro; exact zstep11 (F := F) f11 k h11
    iexists _; isplitl [H12]; · iexact H12
    ipureintro; exact zstep12 (F := F) f12 k h12
  · unfold zinv
    isplitl [Hb7]
    · iexists g7; isplitl [Hb7]; · iexact Hb7
      ipureintro; intro j hj; exact absurd hj (by omega)
    isplitl [Hb8]
    · iexists g8; isplitl [Hb8]; · iexact Hb8
      ipureintro; intro j hj; exact absurd hj (by omega)
    isplitl [Hb9]
    · iexists g9; isplitl [Hb9]; · iexact Hb9
      ipureintro; intro j hj; exact absurd hj (by omega)
    isplitl [Hb10]
    · iexists g10; isplitl [Hb10]; · iexact Hb10
      ipureintro; intro j hj; exact absurd hj (by omega)
    isplitl [Hb11]
    · iexists g11; isplitl [Hb11]; · iexact Hb11
      ipureintro; intro j hj; exact absurd hj (by omega)
    iexists g12; isplitl [Hb12]; · iexact Hb12
    ipureintro; intro j hj; exact absurd hj (by omega)
  iintro %_ HI
  unfold zinv
  icases HI with ⟨⟨%z7, Ha7, %hz7⟩, ⟨%z8, Ha8, %hz8⟩, ⟨%z9, Ha9, %hz9⟩, ⟨%z10, Ha10, %hz10⟩, ⟨%z11, Ha11, %hz11⟩, ⟨%z12, Ha12, %hz12⟩⟩
  have e7 := zdone (F := F) z7 hz7; subst e7
  have e8 := zdone (F := F) z8 hz8; subst e8
  have e9 := zdone (F := F) z9 hz9; subst e9
  have e10 := zdone (F := F) z10 hz10; subst e10
  have e11 := zdone (F := F) z11 hz11; subst e11
  have e12 := zdone (F := F) z12 hz12; subst e12
  sl_exec
  ihave Hv1 := (Entails.of_eq (pts_write_whole (F := F) d L cc3_scratch1 _ _)) $$ [Hb1']
  · iexact Hb1'
  ihave Hv2 := (Entails.of_eq (pts_write_whole (F := F) d L cc3_scratch2 _ _)) $$ [Hb2']
  · iexact Hb2'
  ihave Hv3 := (Entails.of_eq (pts_write_whole (F := F) d L cc3_scratch3 _ _)) $$ [Hb3']
  · iexact Hb3'
  ihave Hv4 := (Entails.of_eq (pts_write_whole (F := F) d L cc3_scratch4 _ _)) $$ [Hb4']
  · iexact Hb4'
  ihave Hv5 := (Entails.of_eq (pts_write_whole (F := F) d L cc3_scratch5 _ _)) $$ [Hb5']
  · iexact Hb5'
  ihave Hv6 := (Entails.of_eq (pts_write_whole (F := F) d L cc3_scratch6 _ _)) $$ [Hb6']
  · iexact Hb6'
  ihave Hc7 := (Entails.of_eq (pts_acc (F := F) d L cc3_scratch7 _).symm) $$ [Ha7]
  · iexact Ha7
  ihave Hc8 := (Entails.of_eq (pts_acc (F := F) d L cc3_scratch8 _).symm) $$ [Ha8]
  · iexact Ha8
  ihave Hc9 := (Entails.of_eq (pts_acc (F := F) d L cc3_scratch9 _).symm) $$ [Ha9]
  · iexact Ha9
  ihave Hc10 := (Entails.of_eq (pts_acc (F := F) d L cc3_scratch10 _).symm) $$ [Ha10]
  · iexact Ha10
  ihave Hc11 := (Entails.of_eq (pts_acc (F := F) d L cc3_scratch11 _).symm) $$ [Ha11]
  · iexact Ha11
  ihave Hc12 := (Entails.of_eq (pts_acc (F := F) d L cc3_scratch12 _).symm) $$ [Ha12]
  · iexact Ha12
  sl_for (BlockInv (F := F) (Name := Name) (U := U) d L qp pk hpk (fun j : Fin 6 => (vptRow L j).view.read (Elt F) vpt) O W) $$ [Hpk' Hb0' Hs6 Hv1 Hv2 Hv3 Hv4 Hv5 Hv6 Hc7 Hc8 Hc9 Hc10 Hc11 Hc12 HO]
  case region =>
    intro b acc
    exact block_body (F := F) (Name := Name) (U := U) d L qp pk hpk (fun j : Fin 6 => (vptRow L j).view.read (Elt F) vpt) O W _ b acc
  · unfold BlockInv
    isplitr; · iexact Hmw
    isplitl [Hpk']; · iexact Hpk'
    isplitl [Hb0']; · iexists _; iexact Hb0'
    isplitl [Hs6]; · iexact Hs6
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    iexists _
    isplitr
    rotate_left
    · iexact HO
    · ipureintro
      exact waits_insert _ (waits_insert _ (waits_insert _ (waits_insert _ (waits_insert _ (waits_insert _ (fun p hp => .inl hp))))))
  iintro %_ HI
  unfold BlockInv
  rw [trips50]
  icases HI with ⟨-, Hpk, ⟨%fp, Hp⟩, Hs6, Hv1, Hv2, Hv3, Hv4, Hv5, Hv6, Hc7, Hc8, Hc9, Hc10, Hc11, Hc12, %W', %hW', HO⟩
  ihave Ha7 := (Entails.of_eq (pts_acc (F := F) d L cc3_scratch7 _)) $$ [Hc7]
  · iexact Hc7
  ihave Ha8 := (Entails.of_eq (pts_acc (F := F) d L cc3_scratch8 _)) $$ [Hc8]
  · iexact Hc8
  ihave Ha9 := (Entails.of_eq (pts_acc (F := F) d L cc3_scratch9 _)) $$ [Hc9]
  · iexact Hc9
  ihave Ha10 := (Entails.of_eq (pts_acc (F := F) d L cc3_scratch10 _)) $$ [Hc10]
  · iexact Hc10
  ihave Ha11 := (Entails.of_eq (pts_acc (F := F) d L cc3_scratch11 _)) $$ [Hc11]
  · iexact Hc11
  ihave Ha12 := (Entails.of_eq (pts_acc (F := F) d L cc3_scratch12 _)) $$ [Hc12]
  · iexact Hc12
  sl_exec
  sl_step
  isplitl [Hpk]; · iexact Hpk
  isplitl [Hvpt']; · iexact Hvpt'
  isplitl [Hq0]
  · ihave Hr0 := (Entails.of_eq (pts_writes_whole (F := F) d L ((((outW : Memref sig .scVector .hbm S192x1x10000 .f32).slice (Rect.unit (s := S192x1x10000) (k3_off2 L 0#32) S1x1x10000.size (k3_off2_inb L 0)) (fun _ => rfl)).squeeze S10000 squeezes_S1x1x10000_S10000)) (fo 0) _)) $$ [Hq0]
    · iexact Hq0
    iexists (((((outW : Memref sig .scVector .hbm S192x1x10000 .f32).slice (Rect.unit (s := S192x1x10000) (k3_off2 L 0#32) S1x1x10000.size (k3_off2_inb L 0)) (fun _ => rfl)).squeeze S10000 squeezes_S1x1x10000_S10000)).view.write (Elt F) (fo 0) (aggRow pk hpk ((vptRow L 0).view.read (Elt F) vpt)) Finset.univ)
    isplitr
    · ipureintro; exact View.read_write_univ _ _
    · iexact Hr0
  isplitl [Hq1]
  · ihave Hr1 := (Entails.of_eq (pts_writes_whole (F := F) d L ((((outW : Memref sig .scVector .hbm S192x1x10000 .f32).slice (Rect.unit (s := S192x1x10000) (k3_off2 L 1#32) S1x1x10000.size (k3_off2_inb L 1)) (fun _ => rfl)).squeeze S10000 squeezes_S1x1x10000_S10000)) (fo 1) _)) $$ [Hq1]
    · iexact Hq1
    iexists (((((outW : Memref sig .scVector .hbm S192x1x10000 .f32).slice (Rect.unit (s := S192x1x10000) (k3_off2 L 1#32) S1x1x10000.size (k3_off2_inb L 1)) (fun _ => rfl)).squeeze S10000 squeezes_S1x1x10000_S10000)).view.write (Elt F) (fo 1) (aggRow pk hpk ((vptRow L 1).view.read (Elt F) vpt)) Finset.univ)
    isplitr
    · ipureintro; exact View.read_write_univ _ _
    · iexact Hr1
  isplitl [Hq2]
  · ihave Hr2 := (Entails.of_eq (pts_writes_whole (F := F) d L ((((outW : Memref sig .scVector .hbm S192x1x10000 .f32).slice (Rect.unit (s := S192x1x10000) (k3_off2 L 2#32) S1x1x10000.size (k3_off2_inb L 2)) (fun _ => rfl)).squeeze S10000 squeezes_S1x1x10000_S10000)) (fo 2) _)) $$ [Hq2]
    · iexact Hq2
    iexists (((((outW : Memref sig .scVector .hbm S192x1x10000 .f32).slice (Rect.unit (s := S192x1x10000) (k3_off2 L 2#32) S1x1x10000.size (k3_off2_inb L 2)) (fun _ => rfl)).squeeze S10000 squeezes_S1x1x10000_S10000)).view.write (Elt F) (fo 2) (aggRow pk hpk ((vptRow L 2).view.read (Elt F) vpt)) Finset.univ)
    isplitr
    · ipureintro; exact View.read_write_univ _ _
    · iexact Hr2
  isplitl [Hq3]
  · ihave Hr3 := (Entails.of_eq (pts_writes_whole (F := F) d L ((((outW : Memref sig .scVector .hbm S192x1x10000 .f32).slice (Rect.unit (s := S192x1x10000) (k3_off2 L 3#32) S1x1x10000.size (k3_off2_inb L 3)) (fun _ => rfl)).squeeze S10000 squeezes_S1x1x10000_S10000)) (fo 3) _)) $$ [Hq3]
    · iexact Hq3
    iexists (((((outW : Memref sig .scVector .hbm S192x1x10000 .f32).slice (Rect.unit (s := S192x1x10000) (k3_off2 L 3#32) S1x1x10000.size (k3_off2_inb L 3)) (fun _ => rfl)).squeeze S10000 squeezes_S1x1x10000_S10000)).view.write (Elt F) (fo 3) (aggRow pk hpk ((vptRow L 3).view.read (Elt F) vpt)) Finset.univ)
    isplitr
    · ipureintro; exact View.read_write_univ _ _
    · iexact Hr3
  isplitl [Hq4]
  · ihave Hr4 := (Entails.of_eq (pts_writes_whole (F := F) d L ((((outW : Memref sig .scVector .hbm S192x1x10000 .f32).slice (Rect.unit (s := S192x1x10000) (k3_off2 L 4#32) S1x1x10000.size (k3_off2_inb L 4)) (fun _ => rfl)).squeeze S10000 squeezes_S1x1x10000_S10000)) (fo 4) _)) $$ [Hq4]
    · iexact Hq4
    iexists (((((outW : Memref sig .scVector .hbm S192x1x10000 .f32).slice (Rect.unit (s := S192x1x10000) (k3_off2 L 4#32) S1x1x10000.size (k3_off2_inb L 4)) (fun _ => rfl)).squeeze S10000 squeezes_S1x1x10000_S10000)).view.write (Elt F) (fo 4) (aggRow pk hpk ((vptRow L 4).view.read (Elt F) vpt)) Finset.univ)
    isplitr
    · ipureintro; exact View.read_write_univ _ _
    · iexact Hr4
  isplitl [Hq5]
  · ihave Hr5 := (Entails.of_eq (pts_writes_whole (F := F) d L ((((outW : Memref sig .scVector .hbm S192x1x10000 .f32).slice (Rect.unit (s := S192x1x10000) (k3_off2 L 5#32) S1x1x10000.size (k3_off2_inb L 5)) (fun _ => rfl)).squeeze S10000 squeezes_S1x1x10000_S10000)) (fo 5) _)) $$ [Hq5]
    · iexact Hq5
    iexists (((((outW : Memref sig .scVector .hbm S192x1x10000 .f32).slice (Rect.unit (s := S192x1x10000) (k3_off2 L 5#32) S1x1x10000.size (k3_off2_inb L 5)) (fun _ => rfl)).squeeze S10000 squeezes_S1x1x10000_S10000)).view.write (Elt F) (fo 5) (aggRow pk hpk ((vptRow L 5).view.read (Elt F) vpt)) Finset.univ)
    isplitr
    · ipureintro; exact View.read_write_univ _ _
    · iexact Hr5
  isplitl [Hp Hv1 Hv2 Hv3 Hv4 Hv5 Hv6 Ha7 Ha8 Ha9 Ha10 Ha11 Ha12 Hbufs]
  · isplitl [Hp]; · iexists _; iexact Hp
    isplitl [Hv1]; · iexists _; iexact Hv1
    isplitl [Hv2]; · iexists _; iexact Hv2
    isplitl [Hv3]; · iexists _; iexact Hv3
    isplitl [Hv4]; · iexists _; iexact Hv4
    isplitl [Hv5]; · iexists _; iexact Hv5
    isplitl [Hv6]; · iexists _; iexact Hv6
    isplitl [Ha7]; · iexists _; iexact Ha7
    isplitl [Ha8]; · iexists _; iexact Ha8
    isplitl [Ha9]; · iexists _; iexact Ha9
    isplitl [Ha10]; · iexists _; iexact Ha10
    isplitl [Ha11]; · iexists _; iexact Ha11
    isplitl [Ha12]; · iexists _; iexact Ha12
    iexact Hbufs
  isplitl [Hs0 Hs1 Hs2 Hs3 Hs4 Hs5 Hs6 Hs7 Hs8 Hs9 Hs10 Hs11 Hs12 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    iexact Hsems
  iexists _
  isplitr
  rotate_left
  · iexact HO
  · ipureintro
    exact waits_insert _ (waits_insert _ (waits_insert _ (waits_insert _ (waits_insert _ (waits_insert _ hW')))))

end Cert.Proof.KB.Edge
-- ==== Proof.KB.Edge.lean ====
/-
  The edge kernel's body on one tile, as one triple over the tile's resources: holding read shares of the packed
  edge words and of the feature rows, the tile's six result rows at any contents and its own scratch, the kernel
  ends with each result row at the fold of all the packed words over its feature row. The walk's loops and the
  copies around them are proved in the modules below this one; this module states the triple for its users.
-/
import proofs.«207992_g50208167690906_cont_8to1c4_731_36_alg».proof.Proof.KB.EdgeTop

noncomputable section

namespace Cert.Proof.KB.Edge

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Name : Type} [DecidableEq Name] [Infinite Name] {U : Type} [URA U] [CountersIn U]
local notation "𝕄" => MT nD τ sig (HIx 2) (Elt F) Name U ℕ

/-- The edge kernel's body on one tile: holding read shares of the packed words and of the feature rows, the tile's six
    result rows and its own scratch, it ends with each result row at the fold of the packed words over the feature row. -/
theorem edge_body (d : Dev nD) (L : grid3.Coords) (qp qv : PosShare TreeShare)
    (pk : Buf (Elt F) ((pkW).view.loc (thr d L))) (vpt : Buf (Elt F) ((vptW).view.loc (thr d L)))
    (fo : Fin 6 → Buf (Elt F) ((outW).view.loc (thr d L))) (hpk : PackedOK pk)
    (O : CellTallies nD τ sig (HIx 2)) (W : Waits sig (HIx 2)) (hO : ∀ g, O g none = 0) :
    (iprop(levAts (K (F := F)).L (K (F := F)).lev
        ∗ ((pkW).view.loc (thr d L) ↦{qp} pk)
        ∗ ((vptW).view.loc (thr d L) ↦{qv} vpt)
        ∗ ((outRow L 0).view.loc (thr d L) ↦[(outRow L 0).view.set]{fullShare} fo 0)
        ∗ ((outRow L 1).view.loc (thr d L) ↦[(outRow L 1).view.set]{fullShare} fo 1)
        ∗ ((outRow L 2).view.loc (thr d L) ↦[(outRow L 2).view.set]{fullShare} fo 2)
        ∗ ((outRow L 3).view.loc (thr d L) ↦[(outRow L 3).view.set]{fullShare} fo 3)
        ∗ ((outRow L 4).view.loc (thr d L) ↦[(outRow L 4).view.set]{fullShare} fo 4)
        ∗ ((outRow L 5).view.loc (thr d L) ↦[(outRow L 5).view.set]{fullShare} fo 5)
        ∗ scopedBufs (thr d L) ∗ scopedSems0 (thr d L) ∗ owes (thr d L) O W) : sProp 𝕄)
      ⊢ wp frame (wpE (defs₀ (F := F)) 𝒱₀ (thr d L) none) Set.univ
          (cc3__edge_kernel L pkW (Memref.isWhole_whole _) vptW (Memref.isWhole_whole _) outW (Memref.isWhole_whole _)
            (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _)
            cc3_scoped0 cc3_scoped1 cc3_scoped2 cc3_scoped3 cc3_scoped4 cc3_scoped5 cc3_scoped6 cc3_scoped7 cc3_scoped8 cc3_scoped9 cc3_scoped10 cc3_scoped11 cc3_scoped12)
          fun _ => iprop(((pkW).view.loc (thr d L) ↦{qp} pk)
            ∗ ((vptW).view.loc (thr d L) ↦{qv} vpt)
            ∗ (∃ g, ⌜(outRow L 0).view.read (Elt F) g = aggRow pk hpk ((vptRow L 0).view.read (Elt F) vpt)⌝ ∗ (outRow L 0).view.loc (thr d L) ↦[(outRow L 0).view.set]{fullShare} g)
            ∗ (∃ g, ⌜(outRow L 1).view.read (Elt F) g = aggRow pk hpk ((vptRow L 1).view.read (Elt F) vpt)⌝ ∗ (outRow L 1).view.loc (thr d L) ↦[(outRow L 1).view.set]{fullShare} g)
            ∗ (∃ g, ⌜(outRow L 2).view.read (Elt F) g = aggRow pk hpk ((vptRow L 2).view.read (Elt F) vpt)⌝ ∗ (outRow L 2).view.loc (thr d L) ↦[(outRow L 2).view.set]{fullShare} g)
            ∗ (∃ g, ⌜(outRow L 3).view.read (Elt F) g = aggRow pk hpk ((vptRow L 3).view.read (Elt F) vpt)⌝ ∗ (outRow L 3).view.loc (thr d L) ↦[(outRow L 3).view.set]{fullShare} g)
            ∗ (∃ g, ⌜(outRow L 4).view.read (Elt F) g = aggRow pk hpk ((vptRow L 4).view.read (Elt F) vpt)⌝ ∗ (outRow L 4).view.loc (thr d L) ↦[(outRow L 4).view.set]{fullShare} g)
            ∗ (∃ g, ⌜(outRow L 5).view.read (Elt F) g = aggRow pk hpk ((vptRow L 5).view.read (Elt F) vpt)⌝ ∗ (outRow L 5).view.loc (thr d L) ↦[(outRow L 5).view.set]{fullShare} g)
            ∗ scopedBufs (thr d L) ∗ scopedSems0 (thr d L)
            ∗ ∃ W', ⌜∀ p ∈ W', p ∈ W ∨ p.2 = none⌝ ∗ owes (thr d L) O W') :=
  edge_top d L qp qv pk vpt fo hpk O W hO

end Cert.Proof.KB.Edge

end
-- ==== Proof.KB.PayObl.lean ====
/-
  The two SparseCore kernels as the launch theorem's tile obligations: at tile (c, i) of a call, the kernel's body at
  that grid point runs from the tile's operands to the tile's results. What the body proves of a tile's result rows
  (the tile's histogram written through its row; a row that reads as the fold over the tile's feature row) is restated
  as the whole result array on that row's elements, so that the 32 tiles' rows join into one array: a row's word j is
  element (row, 0, j) of its array.
-/
import proofs.«207992_g50208167690906_cont_8to1c4_731_36_alg».proof.Proof.KB.Pay
import proofs.«207992_g50208167690906_cont_8to1c4_731_36_alg».proof.Proof.KB.Histo
import proofs.«207992_g50208167690906_cont_8to1c4_731_36_alg».proof.Proof.KB.Edge

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 2) (Elt F) ℕ UU ℕ

/-! ## Where a row's words sit in its array -/

/-- A vector's index in the shape with two unit axes in front. -/
theorem reshape_11n {n : ℕ} (h : (⟨1, ![n]⟩ : Shape).numel = (⟨3, ![1, 1, n]⟩ : Shape).numel) (x : (⟨1, ![n]⟩ : Shape).Idx) :
    Shape.reshapeEquiv h x = ix3 (0 : Fin 1) (0 : Fin 1) (⟨(x 0).val, (x 0).isLt⟩ : Fin n) :=
  Shape.reshapeEquiv_eq_of_rowMajor h (by
    rw [Shape.rowMajor_val_three, Shape.rowMajor_val_one]
    show (0 * 1 + 0) * n + (x 0).val = (x 0).val
    omega)

/-- Word j of tile L's row of the histograms is element (16 (L 0) + (L 1), 0, j) of the array. -/
theorem outSl_emb (L : grid0.Coords) (x : S10240.Idx) (a : Fin 3) :
    (((outSl L).view.emb x : S32x1x10240.Idx) a).val = (![16 * (L 0).val + (L 1).val, 0, (x 0).val] : Fin 3 → ℕ) a := by
  show ((Rect.unit (s := S32x1x10240) (k0_off4 L) S1x1x10240.size (k0_off4_inb L)).emb (Shape.reshapeEquiv _ x) a).val = _
  rw [Rect.emb_apply, reshape_11n, Rect.off_unit, Rect.stride_unit]
  match a with
  | ⟨0, h⟩ =>
    have e : k0_off4 L ⟨0, h⟩ = 16 * (L 0).val + (L 1).val := congrFun (k0_off4_eq L) ⟨0, h⟩
    show k0_off4 L ⟨0, h⟩ + 1 * 0 = 16 * (L 0).val + (L 1).val
    omega
  | ⟨1, h⟩ =>
    have e : k0_off4 L ⟨1, h⟩ = 0 := congrFun (k0_off4_eq L) ⟨1, h⟩
    show k0_off4 L ⟨1, h⟩ + 1 * 0 = 0
    omega
  | ⟨2, h⟩ =>
    have e : k0_off4 L ⟨2, h⟩ = 0 := congrFun (k0_off4_eq L) ⟨2, h⟩
    show k0_off4 L ⟨2, h⟩ + 1 * (x 0).val = (x 0).val
    omega

/-- Word j of row r of tile L's six is element (96 (L 0) + 6 (L 1) + r, 0, j) of either [192, 1, 10000] array. -/
theorem aggRow_emb (L : grid3.Coords) (r : Fin 6) (x : S10000.Idx) (a : Fin 3) :
    (((aggRowSl L r).view.emb x : S192x1x10000.Idx) a).val = (![96 * (L 0).val + 6 * (L 1).val + r.val, 0, (x 0).val] : Fin 3 → ℕ) a := by
  show ((rowRect L r).emb (Shape.reshapeEquiv _ x) a).val = _
  rw [Rect.emb_apply, reshape_11n, Rect.off_unit, Rect.stride_unit]
  match a with
  | ⟨0, h⟩ =>
    have e : k3_off2 L (BitVec.ofNat 32 r.val) ⟨0, h⟩ = 96 * (L 0).val + 6 * (L 1).val + r.val := congrFun (k3_off2_eq L r) ⟨0, h⟩
    show k3_off2 L (BitVec.ofNat 32 r.val) ⟨0, h⟩ + 1 * 0 = 96 * (L 0).val + 6 * (L 1).val + r.val
    omega
  | ⟨1, h⟩ =>
    have e : k3_off2 L (BitVec.ofNat 32 r.val) ⟨1, h⟩ = 0 := congrFun (k3_off2_eq L r) ⟨1, h⟩
    show k3_off2 L (BitVec.ofNat 32 r.val) ⟨1, h⟩ + 1 * 0 = 0
    omega
  | ⟨2, h⟩ =>
    have e : k3_off2 L (BitVec.ofNat 32 r.val) ⟨2, h⟩ = 0 := congrFun (k3_off2_eq L r) ⟨2, h⟩
    show k3_off2 L (BitVec.ofNat 32 r.val) ⟨2, h⟩ + 1 * (x 0).val = (x 0).val
    omega
theorem vptRow_emb (L : grid3.Coords) (r : Fin 6) (x : S10000.Idx) (a : Fin 3) :
    (((vptRow L r).view.emb x : S192x1x10000.Idx) a).val = (![96 * (L 0).val + 6 * (L 1).val + r.val, 0, (x 0).val] : Fin 3 → ℕ) a :=
  aggRow_emb L r x a

variable [FloatOps F]

/-- The tile's histogram, written through the tile's row, is the whole result there. -/
theorem hist_agree (d : Dev nD) (L : grid0.Coords) (fo : Buf (Elt F) (v8Loc d)) (rowv : IVec Histo.SR 32) (hok : Histo.RowOK rowv) :
    ∀ i ∈ (outSl L).view.set,
      (outSl L).view.write (Elt F) fo (Histo.histTile (F := F) rowv hok (16 * (L 0).val + (L 1).val)) Finset.univ i
        = (Histo.histArr (F := F) rowv hok : Buf (Elt F) (v8Loc d)) i := by
  intro i hi
  obtain ⟨x, -, rfl⟩ := Finset.mem_map.mp hi
  rw [View.write_emb_of_mem _ _ (Finset.mem_univ x)]
  have h0 : (((outSl L).view.emb x : S32x1x10240.Idx) 0).val = 16 * (L 0).val + (L 1).val := outSl_emb L x 0
  have h2 : (((outSl L).view.emb x : S32x1x10240.Idx) 2).val = (x 0).val := outSl_emb L x 2
  rw [cast_eq]
  show Histo.histTile (F := F) rowv hok (16 * (L 0).val + (L 1).val) x
    = Histo.histTile (F := F) rowv hok (((outSl L).view.emb x : S32x1x10240.Idx) 0).val
        (ix1 (⟨(((outSl L).view.emb x : S32x1x10240.Idx) 2).val, (((outSl L).view.emb x : S32x1x10240.Idx) 2).isLt⟩ : Fin 10240))
  have hx : x = ix1 (⟨(((outSl L).view.emb x : S32x1x10240.Idx) 2).val, (((outSl L).view.emb x : S32x1x10240.Idx) 2).isLt⟩ : Fin 10240) := by
    funext a
    obtain rfl : a = 0 := Subsingleton.elim _ _
    exact Fin.ext h2.symm
  rw [h0]
  exact congrArg _ hx

/-- Word j of row r of tile L's six, as an index of the [192, 1, 10000] arrays. -/
theorem row_lt (L : grid3.Coords) (r : Fin 6) : 96 * (L 0).val + 6 * (L 1).val + r.val < 192 := by
  have h0 : (L 0).val < 2 := (L 0).isLt
  have h1 : (L 1).val < 16 := (L 1).isLt
  have h2 := r.isLt
  omega

theorem aggRow_emb_eq (L : grid3.Coords) (r : Fin 6) (x : S10000.Idx) :
    ((aggRowSl L r).view.emb x : S192x1x10000.Idx)
      = ix3 (⟨96 * (L 0).val + 6 * (L 1).val + r.val, row_lt L r⟩ : Fin 192) (0 : Fin 1) (⟨(x 0).val, (x 0).isLt⟩ : Fin 10000) := by
  funext a
  apply Fin.ext
  rw [aggRow_emb]
  match a with
  | ⟨0, _⟩ => rfl
  | ⟨1, _⟩ => rfl
  | ⟨2, _⟩ => rfl
theorem vptRow_emb_eq (L : grid3.Coords) (r : Fin 6) (x : S10000.Idx) :
    ((vptRow L r).view.emb x : S192x1x10000.Idx)
      = ix3 (⟨96 * (L 0).val + 6 * (L 1).val + r.val, row_lt L r⟩ : Fin 192) (0 : Fin 1) (⟨(x 0).val, (x 0).isLt⟩ : Fin 10000) :=
  aggRow_emb_eq L r x

/-- The feature rows read through the tile's row r: row 96 (L 0) + 6 (L 1) + r of them. -/
theorem vptRow_read (L : grid3.Coords) (r : Fin 6) (vpt : Vec F S192x1x10000 .f32) :
    (vptRow L r).view.read (Elt F) vpt = rowAt vpt ⟨96 * (L 0).val + 6 * (L 1).val + r.val, row_lt L r⟩ := by
  funext y
  rw [View.read_apply, cast_eq]
  show vpt ((vptRow L r).view.emb y) = vpt (ix3 _ 0 (y 0))
  rw [vptRow_emb_eq]
  rfl

/-- A row that reads as the fold over the tile's feature row is the whole result there. -/
theorem agg_agree (L : grid3.Coords) (r : Fin 6) (pk : IVec Edge.SP 32) (hpk : Edge.PackedOK pk) (vpt : Vec F S192x1x10000 .f32)
    (g : Vec F S192x1x10000 .f32)
    (hg : (aggRowSl L r).view.read (Elt F) g = Edge.aggRow pk hpk ((vptRow L r).view.read (Elt F) vpt)) :
    ∀ i ∈ (aggRowSl L r).view.set, g i = aggRows pk hpk vpt i := by
  intro i hi
  obtain ⟨x, -, rfl⟩ := Finset.mem_map.mp hi
  have h := congrFun hg x
  rw [View.read_apply, cast_eq, vptRow_read] at h
  rw [h]
  show _ = Edge.aggRow pk hpk (rowAt vpt (((aggRowSl L r).view.emb x : S192x1x10000.Idx) 0)) (ix1 (((aggRowSl L r).view.emb x : S192x1x10000.Idx) 2))
  rw [aggRow_emb_eq]
  show Edge.aggRow pk hpk _ x = Edge.aggRow pk hpk _ (ix1 (⟨(x 0).val, (x 0).isLt⟩ : Fin 10000))
  congr 1
  funext a
  obtain rfl : a = 0 := Subsingleton.elim _ _
  rfl

/-! ## The launch theorem's obligations: a tile's task from the kernel's body at the tile -/

variable (A : Handed F)

theorem defs₀_vector0 (c : Fin τ.nSC) (s : Fin τ.nSub) :
    defs₀ (F := F) (.scVector c s) 0 ()
      = SparseCore.onTile hcore0 hsub0 (fun c s => cc0__histo_kernel (tile0 c s)
          (Memref.whole main_v1_scv) (Memref.isWhole_whole _) (Memref.whole main_v8_scv) (Memref.isWhole_whole _)
          (Memref.whole cc0_scratch0) (Memref.isWhole_whole _) (Memref.whole cc0_scratch1) (Memref.isWhole_whole _) cc0_scoped0 cc0_scoped1) ⟨⟩ c s := rfl

theorem defs₀_vector3 (c : Fin τ.nSC) (s : Fin τ.nSub) :
    defs₀ (F := F) (.scVector c s) 3 ()
      = SparseCore.onTile hcore3 hsub3 (fun c s => cc3__edge_kernel (tile3 c s)
          (Memref.whole main_v20_scv) (Memref.isWhole_whole _) (Memref.whole main_v16_scv) (Memref.isWhole_whole _) (Memref.whole main_v21_scv) (Memref.isWhole_whole _)
          (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) (Memref.whole cc3_scratch11) (Memref.isWhole_whole _) (Memref.whole cc3_scratch12) (Memref.isWhole_whole _)
          cc3_scoped0 cc3_scoped1 cc3_scoped2 cc3_scoped3 cc3_scoped4 cc3_scoped5 cc3_scoped6 cc3_scoped7 cc3_scoped8 cc3_scoped9 cc3_scoped10 cc3_scoped11 cc3_scoped12) ⟨⟩ c s := rfl

omit [FloatOps F] in
theorem obl_post {thr : Thread nD τ} {X B C : sProp 𝕄} {O : CellTallies nD τ sig (HIx 2)} {W : Waits sig (HIx 2)} {q : Fin 2} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A family over the six rows, row by row. -/
theorem bigSep_univ_six {M : Type} [URA M] (Φ : Fin 6 → sProp M) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

/-- Call 0, going in: the tile's operands as the kernel's body takes them. -/
theorem tile0_pre (d : Dev nD) (c : Fin 2) (i : Fin 16) (X B C E : sProp 𝕄) :
    iprop(X ∗ emp ∗ go0 A d c i ∗ B ∗ C ∗ E)
      ⊢ iprop(X ∗ (v1Loc d ↦[(rowSl (tile0 c i)).view.set]{fullShare} A.row d)
          ∗ (v8Loc d ↦[(outSl (tile0 c i)).view.set]{fullShare} A.h8 d) ∗ B ∗ C ∗ E) := by
  unfold go0
  iintro ⟨HX, -, ⟨Hr, Ho⟩, HB, HC, HE⟩
  isplitl [HX]; · iexact HX
  isplitl [Hr]; · iexact Hr
  isplitl [Ho]; · iexact Ho
  isplitl [HB]; · iexact HB
  isplitl [HC]; · iexact HC
  iexact HE

/-- Call 0, coming out: the tile's histogram, written through the tile's row, restated as the whole result there. -/
theorem tile0_post (d : Dev nD) (c : Fin 2) (i : Fin 16) (B C E : sProp 𝕄) :
    iprop((v1Loc d ↦[(rowSl (tile0 c i)).view.set]{fullShare} A.row d)
        ∗ (v8Loc d ↦[(outSl (tile0 c i)).view.set]{fullShare}
            (outSl (tile0 c i)).view.write (Elt F) (A.h8 d)
              (Histo.histTile (F := F) (A.row d) (A.hrow d) (16 * ((tile0 c i) 0).val + ((tile0 c i) 1).val)) Finset.univ)
        ∗ B ∗ C ∗ E)
      ⊢ iprop(td0 A d c i ∗ B ∗ C ∗ E) := by
  unfold td0 histBuf
  rw [pointsTo_congr (ℓ := v8Loc d) (q := fullShare) (hist_agree d (tile0 c i) (A.h8 d) (A.row d) (A.hrow d))]
  iintro ⟨Hr, Ho, HB, HC, HE⟩
  isplitl [Hr Ho]
  · isplitl [Hr]; · iexact Hr
    iexact Ho
  isplitl [HB]; · iexact HB
  isplitl [HC]; · iexact HC
  iexact HE

/-- Call 0: the histogram kernel at the tile. -/
theorem tileObl0 : (K (F := F)).TileObl (D (F := F)) 𝒱 (P A) v₀ 0 := by
  intro d c i O W hO _ _
  simp only [P_ox A, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  rw [P_x, P_go0, P_td0]
  exact (tile0_pre A d (cc 0 c) (ii 0 i) _ _ _ _).trans
    ((Histo.body (F := F) (U := UU) d (tile0 (cc 0 c) (ii 0 i)) fullShare (A.row d) (A.h8 d) (A.hrow d) O W hO).trans
      (wp_mono frame _ _ fun _ => (tile0_post A d (cc 0 c) (ii 0 i) _ _ _).trans obl_post))

/-- One row of the tile's six after the edge kernel: it reads as the fold, so it is the whole result there. -/
theorem agg_row_post (d : Dev nD) (L : grid3.Coords) (r : Fin 6) :
    iprop(∃ g, ⌜(aggRowSl L r).view.read (Elt F) g = Edge.aggRow (A.pk d) (A.hpk d) ((vptRow L r).view.read (Elt F) (A.vpt d))⌝
        ∗ v21Loc d ↦[(aggRowSl L r).view.set]{fullShare} g)
      ⊢ (v21Loc d ↦[(aggRowSl L r).view.set]{fullShare} aggBuf A d : sProp 𝕄) := by
  iintro ⟨%g, %hg, H⟩
  rw [← pointsTo_congr (ℓ := v21Loc d) (q := fullShare) (f := g) (g := aggBuf A d) (agg_agree L r (A.pk d) (A.hpk d) (A.vpt d) g hg)]
  iexact H

/-- Call 1, going in: the tile's operands as the kernel's body takes them, the six rows one by one. -/
theorem tile1_pre (d : Dev nD) (c : Fin 2) (i : Fin 16) (X B C E : sProp 𝕄) :
    iprop(X ∗ emp ∗ go1 A d c i ∗ B ∗ C ∗ E)
      ⊢ iprop(X ∗ (v20Loc d ↦{shareTok fullShare 32 (tid c i)} A.pk d) ∗ (v16Loc d ↦{shareTok fullShare 32 (tid c i)} A.vpt d)
          ∗ (v21Loc d ↦[(aggRowSl (tile3 c i) 0).view.set]{fullShare} A.h21 d)
          ∗ (v21Loc d ↦[(aggRowSl (tile3 c i) 1).view.set]{fullShare} A.h21 d)
          ∗ (v21Loc d ↦[(aggRowSl (tile3 c i) 2).view.set]{fullShare} A.h21 d)
          ∗ (v21Loc d ↦[(aggRowSl (tile3 c i) 3).view.set]{fullShare} A.h21 d)
          ∗ (v21Loc d ↦[(aggRowSl (tile3 c i) 4).view.set]{fullShare} A.h21 d)
          ∗ (v21Loc d ↦[(aggRowSl (tile3 c i) 5).view.set]{fullShare} A.h21 d)
          ∗ B ∗ C ∗ E) := by
  unfold go1
  rw [bigSep_univ_six]
  iintro ⟨HX, -, ⟨Hpk, Hv, H0, H1, H2, H3, H4, H5⟩, HB, HC, HE⟩
  isplitl [HX]; · iexact HX
  isplitl [Hpk]; · iexact Hpk
  isplitl [Hv]; · iexact Hv
  isplitl [H0]; · iexact H0
  isplitl [H1]; · iexact H1
  isplitl [H2]; · iexact H2
  isplitl [H3]; · iexact H3
  isplitl [H4]; · iexact H4
  isplitl [H5]; · iexact H5
  isplitl [HB]; · iexact HB
  isplitl [HC]; · iexact HC
  iexact HE

/-- Call 1, coming out: each of the six rows restated as the whole result there. -/
theorem tile1_post (d : Dev nD) (c : Fin 2) (i : Fin 16) (B C E : sProp 𝕄) :
    iprop((v20Loc d ↦{shareTok fullShare 32 (tid c i)} A.pk d) ∗ (v16Loc d ↦{shareTok fullShare 32 (tid c i)} A.vpt d)
        ∗ (∃ g, ⌜(aggRowSl (tile3 c i) 0).view.read (Elt F) g = Edge.aggRow (A.pk d) (A.hpk d) ((vptRow (tile3 c i) 0).view.read (Elt F) (A.vpt d))⌝ ∗ v21Loc d ↦[(aggRowSl (tile3 c i) 0).view.set]{fullShare} g)
        ∗ (∃ g, ⌜(aggRowSl (tile3 c i) 1).view.read (Elt F) g = Edge.aggRow (A.pk d) (A.hpk d) ((vptRow (tile3 c i) 1).view.read (Elt F) (A.vpt d))⌝ ∗ v21Loc d ↦[(aggRowSl (tile3 c i) 1).view.set]{fullShare} g)
        ∗ (∃ g, ⌜(aggRowSl (tile3 c i) 2).view.read (Elt F) g = Edge.aggRow (A.pk d) (A.hpk d) ((vptRow (tile3 c i) 2).view.read (Elt F) (A.vpt d))⌝ ∗ v21Loc d ↦[(aggRowSl (tile3 c i) 2).view.set]{fullShare} g)
        ∗ (∃ g, ⌜(aggRowSl (tile3 c i) 3).view.read (Elt F) g = Edge.aggRow (A.pk d) (A.hpk d) ((vptRow (tile3 c i) 3).view.read (Elt F) (A.vpt d))⌝ ∗ v21Loc d ↦[(aggRowSl (tile3 c i) 3).view.set]{fullShare} g)
        ∗ (∃ g, ⌜(aggRowSl (tile3 c i) 4).view.read (Elt F) g = Edge.aggRow (A.pk d) (A.hpk d) ((vptRow (tile3 c i) 4).view.read (Elt F) (A.vpt d))⌝ ∗ v21Loc d ↦[(aggRowSl (tile3 c i) 4).view.set]{fullShare} g)
        ∗ (∃ g, ⌜(aggRowSl (tile3 c i) 5).view.read (Elt F) g = Edge.aggRow (A.pk d) (A.hpk d) ((vptRow (tile3 c i) 5).view.read (Elt F) (A.vpt d))⌝ ∗ v21Loc d ↦[(aggRowSl (tile3 c i) 5).view.set]{fullShare} g)
        ∗ B ∗ C ∗ E)
      ⊢ iprop(td1 A d c i ∗ B ∗ C ∗ E) := by
  unfold td1
  rw [bigSep_univ_six]
  iintro ⟨Hpk, Hv, H0, H1, H2, H3, H4, H5, HB, HC, HE⟩
  isplitl [Hpk Hv H0 H1 H2 H3 H4 H5]
  · isplitl [Hpk]; · iexact Hpk
    isplitl [Hv]; · iexact Hv
    isplitl [H0]; · iapply (agg_row_post A d (tile3 c i) 0); iexact H0
    isplitl [H1]; · iapply (agg_row_post A d (tile3 c i) 1); iexact H1
    isplitl [H2]; · iapply (agg_row_post A d (tile3 c i) 2); iexact H2
    isplitl [H3]; · iapply (agg_row_post A d (tile3 c i) 3); iexact H3
    isplitl [H4]; · iapply (agg_row_post A d (tile3 c i) 4); iexact H4
    iapply (agg_row_post A d (tile3 c i) 5); iexact H5
  isplitl [HB]; · iexact HB
  isplitl [HC]; · iexact HC
  iexact HE

set_option maxHeartbeats 2000000 in
/-- Call 1: the edge kernel at the tile. -/
theorem tileObl1 : (K (F := F)).TileObl (D (F := F)) 𝒱 (P A) v₀ 1 := by
  intro d c i O W hO _ _
  simp only [P_ox A, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  rw [P_x, P_go1, P_td1]
  exact (tile1_pre A d (cc 1 c) (ii 1 i) _ _ _ _).trans
    ((Edge.edge_body (F := F) (Name := ℕ) (U := UU) d (tile3 (cc 1 c) (ii 1 i)) (shareTok fullShare 32 (tid (cc 1 c) (ii 1 i))) (shareTok fullShare 32 (tid (cc 1 c) (ii 1 i)))
        (A.pk d) (A.vpt d) (fun _ => A.h21 d) (A.hpk d) O W hO).trans
      (wp_mono frame _ _ fun _ => (tile1_post A d (cc 1 c) (ii 1 i) _ _ _).trans obl_post))

end Cert.Proof.KB

end
-- ==== Proof.KB.ChainInt.lean ====
/-
  The three integer arrays along @main, read at an index: the row words and the column words are the two rows of
  the edge array, and a packed word is its row word times 2^14 plus its column word. No float operation is
  involved, so everything here holds at every float instance.
-/
import proofs.«207992_g50208167690906_cont_8to1c4_731_36_alg».proof.Proof.KB.Chain
import Idealize.ShloMosaic.Lib.ValueLayout

noncomputable section

namespace Cert.Proof.KB.Val

open Cert.Kernel Cert.Kernel.Gen
open Idealize.ShloMosaic Idealize.SL.Sem
open Idealize.ShloMosaic.StableHlo
open Idealize.ShloMosaic.ValueIdx
open Cert.Proof.KB Cert.Proof.KB.MainOps

variable {F : FTy → Type} [FloatOps F]
variable (m : (ℓ : Loc nD τ sig) → Buf (Elt F) ℓ) (d : Dev nD)

/-- The edge array as launched: row 0 the row words, row 1 the column words. -/
abbrev edgeArr : IVec S2x320000 32 := m (d, dr main_arg1)

/-- The column words. -/
abbrev colWords : IVec Histo.SR 32 := W1 m d (dr main_v3)

theorem rowWords_eq :
    rowWords m d = shapeCast S320000 (extractStridedSlice S1x320000 ![0, 0] (edgeArr m d) slices_S2x320000_S1x320000_0_0)
      shapeCasts_S1x320000_S320000 := by
  dsimp only [rowWords, W1, ops0]; after_results; rfl

theorem colWords_eq :
    colWords m d = shapeCast S320000 (extractStridedSlice S1x320000 ![1, 0] (edgeArr m d) slices_S2x320000_S1x320000_1_0)
      shapeCasts_S1x320000_S320000 := by
  dsimp only [colWords, W1, ops0]; after_results; rfl

/-- Row word `e` is element `(0, e)` of the edge array. -/
theorem rowWords_apply (e : Fin 320000) : rowWords m d (ix1 e) = edgeArr m d (ix2 0 e) := by
  rw [rowWords_eq]
  refine (shapeCast_1a_a_apply _ _ e).trans ?_
  exact slice2_axis0_apply 0 _ _ 0 e 0 rfl

/-- Column word `e` is element `(1, e)` of the edge array. -/
theorem colWords_apply (e : Fin 320000) : colWords m d (ix1 e) = edgeArr m d (ix2 1 e) := by
  rw [colWords_eq]
  refine (shapeCast_1a_a_apply _ _ e).trans ?_
  exact slice2_axis0_apply 1 _ _ 0 e 1 rfl

/-! ### The two word arrays reach the packing region unchanged -/

theorem W3_v1 (hr : Histo.RowOK (rowWords m d)) : W3 m d hr (dr main_v1) = rowWords m d := by
  dsimp only [W3, ops1]; after_results
  exact Function.update_of_ne (by decide) _ _

theorem W3_v3 (hr : Histo.RowOK (rowWords m d)) : W3 m d hr (dr main_v3) = colWords m d := by
  dsimp only [W3, ops1]; after_results
  exact Function.update_of_ne (by decide) _ _

theorem W4_v1 (hr : Histo.RowOK (rowWords m d)) : W4 m d hr (dr main_v1) = rowWords m d := by
  unfold W4
  rw [Function.update_of_ne (by decide), Function.update_of_ne (by decide)]
  exact W3_v1 m d hr

theorem W4_v3 (hr : Histo.RowOK (rowWords m d)) : W4 m d hr (dr main_v3) = colWords m d := by
  unfold W4
  rw [Function.update_of_ne (by decide), Function.update_of_ne (by decide)]
  exact W3_v3 m d hr

/-- The packing region's value at an index: the first operand times 2^14 plus the second. -/
theorem pack_apply (r2 c2 : IVec S2500x128 32) (j : S2500x128.Idx) :
    Region.pack (F := F) r2 c2 j = r2 j * 16384#32 + c2 j := by
  show IntOp.addi (IntOp.muli (shapeCast S2500x128 r2 shapeCasts_S2500x128_S2500x128 j) 16384#32)
      (shapeCast S2500x128 c2 shapeCasts_S2500x128_S2500x128 j) = _
  rw [shapeCast_apply r2 _ j j rfl, shapeCast_apply c2 _ j j rfl]
  rfl

theorem packedWords_eq (hr : Histo.RowOK (rowWords m d)) :
    packedWords m d hr = shapeCast S320000 (Region.pack (F := F)
        (shapeCast S2500x128 (rowWords m d) shapeCasts_S320000_S2500x128)
        (shapeCast S2500x128 (colWords m d) shapeCasts_S320000_S2500x128)) shapeCasts_S2500x128_S320000 := by
  have e17 : W5 m d hr (dr main_v17) = shapeCast S2500x128 (rowWords m d) shapeCasts_S320000_S2500x128 := by
    dsimp only [W5, ops2]; after_results; rw [W4_v1]; rfl
  have e18 : W5 m d hr (dr main_v18) = shapeCast S2500x128 (colWords m d) shapeCasts_S320000_S2500x128 := by
    dsimp only [W5, ops2]; after_results; rw [W4_v3]; rfl
  have e19 : W6 m d hr (dr main_v19) = Region.pack (F := F) (W5 m d hr (dr main_v17)) (W5 m d hr (dr main_v18)) := by
    unfold W6; exact Function.update_self _ _ _
  dsimp only [packedWords, W7, ops3]; after_results; rw [e19, e17, e18]; rfl

/-- Packed word `e` is row word `e` times 2^14 plus column word `e`. -/
theorem packedWords_apply (hr : Histo.RowOK (rowWords m d)) (e : Fin 320000) :
    packedWords m d hr (ix1 e) = rowWords m d (ix1 e) * 16384#32 + colWords m d (ix1 e) := by
  have hq : e.val / 128 < 2500 := by have := e.isLt; omega
  have hrow : ∀ (x : IVec S320000 32), shapeCast S2500x128 x shapeCasts_S320000_S2500x128
      (ix2 (⟨e.val / 128, hq⟩ : Fin 2500) (⟨e.val % 128, Nat.mod_lt _ (by decide)⟩ : Fin 128)) = x (ix1 e) := fun x =>
    shapeCast_apply x _ _ (ix1 e) (by
      rw [Shape.rowMajor_val_two, Shape.rowMajor_val_one]
      show e.val = e.val / 128 * 128 + e.val % 128
      omega)
  rw [packedWords_eq]
  refine (shapeCast_apply _ _ (ix1 e) (ix2 (⟨e.val / 128, hq⟩ : Fin 2500) (⟨e.val % 128, Nat.mod_lt _ (by decide)⟩ : Fin 128)) ?_).trans ?_
  · rw [Shape.rowMajor_val_two, Shape.rowMajor_val_one]
    show e.val / 128 * 128 + e.val % 128 = e.val
    omega
  · rw [pack_apply, hrow, hrow]

end Cert.Proof.KB.Val

end
-- ==== Proof.KB.PackBits.lean ====
/-
  Packing two node numbers into one word and taking them apart again. For `r` and `c` below 10000 the word
  `r · 16384 + c` does not overflow 32 bits (it is below 10000 · 16384 + 10000 < 2³²), so as a natural number it is
  `16384 r + c` with `c < 16384`: its quotient by 2¹⁴ (the shift right by 14) is `r` and its remainder (the low 14
  bits) is `c`.
-/
import proofs.«207992_g50208167690906_cont_8to1c4_731_36_alg».proof.Proof.KB.EdgeVal

namespace Cert.Proof.KB.Val

open Idealize.ShloMosaic Idealize.ShloMosaic.ValueIdx Cert.Proof.KB.Edge

/-- The packed word as a natural number. -/
theorem pack_toNat (r c : BitVec 32) (hr : r.toNat < 10000) (hc : c.toNat < 10000) :
    (r * 16384#32 + c).toNat = 16384 * r.toNat + c.toNat := by
  rw [BitVec.toNat_add, BitVec.toNat_mul]
  have h16 : (16384#32 : BitVec 32).toNat = 16384 := rfl
  rw [h16]
  omega

/-- The shift right by 14 gives back the first number. -/
theorem pack_shr (r c : BitVec 32) (hr : r.toNat < 10000) (hc : c.toNat < 10000) :
    (r * 16384#32 + c) >>> (14 : ℕ) = r := by
  apply BitVec.eq_of_toNat_eq
  rw [BitVec.toNat_ushiftRight, Nat.shiftRight_eq_div_pow, pack_toNat r c hr hc]
  omega

/-- The low 14 bits give back the second number. -/
theorem pack_and (r c : BitVec 32) (hr : r.toNat < 10000) (hc : c.toNat < 10000) :
    (r * 16384#32 + c) &&& 16383#32 = c := by
  apply BitVec.eq_of_toNat_eq
  rw [BitVec.toNat_and, pack_toNat r c hr hc]
  have h16 : (16383#32 : BitVec 32).toNat = 2 ^ 14 - 1 := rfl
  rw [h16, Nat.and_two_pow_sub_one_eq_mod]
  omega

/-- Words packed from two arrays of node numbers are well packed, and unpack to those arrays. -/
theorem packedOK_of_pack (pk rowv colv : IVec SP 32) (hr : ∀ e, (rowv e).toNat < 10000) (hc : ∀ e, (colv e).toNat < 10000)
    (hpk : ∀ e, pk e = rowv e * 16384#32 + colv e) :
    PackedOK pk ∧ (∀ e, pk e >>> (14 : ℕ) = rowv e) ∧ (∀ e, pk e &&& 16383#32 = colv e) := by
  have h1 : ∀ e, pk e >>> (14 : ℕ) = rowv e := fun e => by rw [hpk e]; exact pack_shr _ _ (hr e) (hc e)
  have h2 : ∀ e, pk e &&& 16383#32 = colv e := fun e => by rw [hpk e]; exact pack_and _ _ (hr e) (hc e)
  refine ⟨fun e => ⟨?_, ?_⟩, h1, h2⟩
  · rw [h1 e]; exact hr e
  · rw [h2 e]; exact hc e

end Cert.Proof.KB.Val
-- ==== Proof.KB.Bridge.lean ====
/-
  The admitted inputs give the two indexed kernels their index ranges. Where the input-domain predicate is all ones
  every endpoint word of the edge array lies in [0, 10000). The row words the histogram reads are the edge array's
  first row, so each names an element of a 10240-word histogram; the packed words are row word times 2^14 plus column
  word, both below 10000, so each packed word carries two nodes. No float operation is involved: this holds at every
  float instance.
-/
import proofs.«207992_g50208167690906_cont_8to1c4_731_36_alg».proof.Proof.KB.Chain
import proofs.«207992_g50208167690906_cont_8to1c4_731_36_alg».proof.Proof.KB.ChainInt
import proofs.«207992_g50208167690906_cont_8to1c4_731_36_alg».proof.Proof.KB.PackBits
import proofs.«207992_g50208167690906_cont_8to1c4_731_36_alg».proof.Proof.RefLapRange

noncomputable section

namespace Cert.Proof.KB

open Cert.Kernel Cert.Kernel.Gen
open Idealize.ShloMosaic Idealize.SL.Sem
open Idealize.ShloMosaic.ValueIdx
open Cert.Proof.KB.Val

variable [Cert.Pre_input_domain.Facts] {F : FTy → Type} [FloatOps F]

/-- On an admitted input every row word and every column word along @main is a node. -/
theorem words_lt_of_pre (m : (ℓ : Loc nD τ sig) → Buf (Elt F) ℓ)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1))
    (d : Dev nD) :
    (∀ e : Histo.SR.Idx, (rowWords m d e).toNat < 10000) ∧ (∀ e : Histo.SR.Idx, (colWords m d e).toNat < 10000) := by
  have hrange : ∀ i, (edgeArr m d i).toNat < 10000 :=
    Cert.Proof.RefSide.range_of_pre (F := F) _ _ _ _ _ _ _ _ _ _ _ (hpre d)
  refine ⟨fun e => ?_, fun e => ?_⟩
  · obtain ⟨e0, rfl⟩ : ∃ e0 : Fin 320000, e = ix1 e0 := ⟨e 0, eq_ix1 e⟩
    rw [rowWords_apply]; exact hrange _
  · obtain ⟨e0, rfl⟩ : ∃ e0 : Fin 320000, e = ix1 e0 := ⟨e 0, eq_ix1 e⟩
    rw [colWords_apply]; exact hrange _

/-- On an admitted input the two indexed kernels' index ranges hold on every device. -/
theorem preOK_of_pre (m : (ℓ : Loc nD τ sig) → Buf (Elt F) ℓ)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    PreOK m := by
  have hr : ∀ d, Histo.RowOK (rowWords m d) := fun d e =>
    lt_trans ((words_lt_of_pre m hpre d).1 e) (by decide)
  refine ⟨hr, fun d => ?_⟩
  exact (packedOK_of_pack (packedWords m d (hr d)) (rowWords m d) (colWords m d)
    (words_lt_of_pre m hpre d).1 (words_lt_of_pre m hpre d).2
    (fun e => by
      obtain ⟨e0, rfl⟩ : ∃ e0 : Fin 320000, e = ix1 e0 := ⟨e 0, eq_ix1 e⟩
      exact packedWords_apply m d (hr d) e0)).1

end Cert.Proof.KB
-- ==== Proof.KB.Claim.lean ====
/-
  The run of the program on an admitted input: the input-domain predicate gives the two indexed kernels their index
  ranges, so the launch theorem applies; the post is every unscoped array at the chain's last valuation, and, read at
  the arguments, that they end as launched.
-/
import proofs.«207992_g50208167690906_cont_8to1c4_731_36_alg».proof.Proof.KB.Run
import proofs.«207992_g50208167690906_cont_8to1c4_731_36_alg».proof.Proof.KB.PayObl
import proofs.«207992_g50208167690906_cont_8to1c4_731_36_alg».proof.Proof.KB.Bridge

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.Pre_input_domain.Facts] {F : FTy → Type} [FloatOps F]

/-- On an admitted input the program runs, and every unscoped array of every TensorCore ends at the last valuation. -/
theorem run_of_pre [∀ e, Nonempty (Elt F e)]
    (hR0 : ∀ P : (K (F := F)).Pay (nD := nD) (Val := Elt F) (Name := ℕ) (U := UU), RegionSpec P 0 R0 scaleOut)
    (hR1 : ∀ P : (K (F := F)).Pay (nD := nD) (Val := Elt F) (Name := ℕ) (U := UU), RegionSpec P 1 R1 packOut)
    (hR2 : ∀ P : (K (F := F)).Pay (nD := nD) (Val := Elt F) (Name := ℕ) (U := UU), RegionSpec P 2 R2 denseOut)
    (m : (ℓ : Loc nD τ sig) → Buf (Elt F) ℓ) (ρ : Dev nD → PrngReg)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    θ_run (Cert.Kernel.defs (F := F)) (Cert.Kernel.threads (F := F)) ⟨m, fun _ => 0, ρ⟩ (QC m (preOK_of_pre m hpre)) :=
  run_main m ρ (preOK_of_pre m hpre) (tileObl0 (handed m (preOK_of_pre m hpre))) (tileObl1 (handed m (preOK_of_pre m hpre)))
    (hR0 _) (hR1 _) (hR2 _)

omit [Cert.Pre_input_domain.Facts] in
/-- The post read at the eleven arguments: each ends as launched. -/
theorem args_of_QC (m : (ℓ : Loc nD τ sig) → Buf (Elt F) ℓ) (hok : PreOK m) {r : PUnit × MemSt nD τ sig (Elt F)} (h : QC m hok r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have ha := (QC_results m hok h c).2.2
  ⟨ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide)⟩

/-- On an admitted input the program runs and its arguments end unchanged. -/
theorem frame_of_pre [∀ e, Nonempty (Elt F e)]
    (hR0 : ∀ P : (K (F := F)).Pay (nD := nD) (Val := Elt F) (Name := ℕ) (U := UU), RegionSpec P 0 R0 scaleOut)
    (hR1 : ∀ P : (K (F := F)).Pay (nD := nD) (Val := Elt F) (Name := ℕ) (U := UU), RegionSpec P 1 R1 packOut)
    (hR2 : ∀ P : (K (F := F)).Pay (nD := nD) (Val := Elt F) (Name := ℕ) (U := UU), RegionSpec P 2 R2 denseOut)
    (m : (ℓ : Loc nD τ sig) → Buf (Elt F) ℓ) (ρ : Dev nD → PrngReg)
    (hpre : ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) = (fun _ => 1#1)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.Kernel.defs _ _).mono (fun _ h c => args_of_QC m _ h c) (run_of_pre hR0 hR1 hR2 m ρ hpre)

end Cert.Proof.KB

end
-- ==== Proof.KI.RegionCommon.lean ====
import proofs.«207992_g50208167690906_cont_8to1c4_731_36_alg».proof.Proof.KI.Base
import proofs.«207992_g50208167690906_cont_8to1c4_731_36_alg».proof.Proof.Gen.KernelIdeal.Points
import Idealize.ShloMosaic.Lib.Pipeline.Regions

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## What every region shares -/

/-- The prefetched tables' admissible contents: no pipeline has a table. -/
abbrev adm : (p : Fin 3) → (pcfgs (F := F) p).Adm := fun p => (cfgs p).toPCfg_adm

/-- What the launch deals TensorCore `d` for pipeline `p`'s staging cells; the region consumes it. -/
abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

/-- A buffer's contents on core `c`. -/
abbrev Bw (c : Dev nD) (b : Ref sig .tc) : Type := Buf (Elt F) ((c : Thread nD τ).loc b)

/-- Proof data of a pipeline a region's family does not run: nothing is asked of it. -/
def datNone (cfg : Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- A load of a whole buffer through the whole-shape rectangle at zero offsets reads the contents. -/
theorem readAt_unit_zero (b : Ref sig .tc) {off : Fin b.ty.shape.rank → Nat} (h : off = fun _ => 0)
    (inb : ∀ a, off a + b.ty.shape.size a ≤ b.ty.shape.size a) (f : b.ty.Contents (Elt F)) :
    (Memref.whole b : Memref sig .tc _ _ _).view.readAt (Elt F) (Rect.unit off b.ty.shape.size inb).toLoadRect f = f := by
  subst h; exact Memref.readAt_whole (Elt F) b f

/-- A store of a whole buffer through it leaves the payload. -/
theorem write_unit_zero (b : Ref sig .tc) {off : Fin b.ty.shape.rank → Nat} (h : off = fun _ => 0)
    (inb : ∀ a, off a + b.ty.shape.size a ≤ b.ty.shape.size a) (f w : b.ty.Contents (Elt F)) :
    ((Memref.whole b : Memref sig .tc _ _ _).access (Rect.unit off b.ty.shape.size inb)).write (Elt F) f w Finset.univ = w := by
  subst h; exact Memref.write_access_whole_univ (Elt F) b f w

theorem zeros2 : (![0, 0] : Fin 2 → Nat) = fun _ => 0 := by funext a; fin_cases a <;> rfl

/-- A read of a whole buffer through the whole-shape rectangle at zero offsets is the contents. -/
theorem read_unit_zero (b : Ref sig .tc) {off : Fin b.ty.shape.rank → Nat} (h : off = fun _ => 0)
    (inb : ∀ a, off a + b.ty.shape.size a ≤ b.ty.shape.size a) (f : b.ty.Contents (Elt F)) :
    ((Memref.whole b : Memref sig .tc _ _ _).access (Rect.unit off b.ty.shape.size inb)).read (Elt F) f = f := by
  subst h; exact Memref.read_access_whole (Elt F) b f

/-! ## The TensorCore's own state around a region -/

/-- The TensorCore owes nothing at index `none`: every unit it owes is a later call's start signal, at that call's index. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply]
    split
    · next e => exact absurd e.2 (by simp)
    · rfl
  · rfl

/-- The (cell, index) pairs at or below level `8 n` on TensorCore `d`: what its recorded pairs lie within before call `n`. -/
abbrev Bn (d : Dev nD) (n : ℕ) : Set (SemLoc sig × HIx 2) := {p | (K (F := F)).lev (T d, p.1) p.2 ≤ 8 * n}

/-- What the TensorCore owes before call `n`, as its handshake state holds it. -/
abbrev owesTc (d : Dev nD) (n : ℕ) : sProp 𝕄 :=
  iprop(∃ W, ⌜(K (F := F)).WBelow (T d) W (8 * n)⌝ ∗ owes (T d) ((K (F := F)).Otc d n) W)

/-- Entering a region: the handshake state's bound on the recorded pairs is the region's. -/
theorem owesTc_in (d : Dev nD) (n : ℕ) :
    owesTc (F := F) d n ⊢ Pipeline.owesWithin d ((K (F := F)).Otc d n) (Bn (F := F) d n) := by
  iintro ⟨%W, %hW, HO⟩
  iexists W; isplitr; · ipureintro; exact fun p hp => hW p (Finset.mem_coe.mp hp)
  iexact HO

/-- Leaving it: the pairs the pipeline's own waits recorded, at index `none`, sit at level zero. -/
theorem owesTc_out (cfg : Cfg sig Λ₀) (d : Dev nD) (n : ℕ) :
    Pipeline.owesWithin d ((K (F := F)).Otc d n) (Bn (F := F) d n ∪ cfg.waitPairs none) ⊢ owesTc (F := F) d n := by
  iintro ⟨%W, %hW, HO⟩
  iexists W; isplitr; swap; (· iexact HO)
  ipureintro
  intro p hp
  rcases hW (Finset.mem_coe.mpr hp) with h | ⟨w, s, rfl⟩
  · exact h
  · show (K (F := F)).lev _ none ≤ _
    rw [SparseCore.Cfg.lev_none]; exact Nat.zero_le _

end Cert.Proof.KI.Region

end
-- ==== Proof.KI.Region0Body.lean ====
/-
  The scaling call (the first TensorCore call, a grid of ten row blocks) as the pipeline rule sees it: the body's run
  on either set of staging buffers, the call's proof data — after the body each input's buffer holds its block, each
  result's the body's payload over the degree block and the input block —, what the body finds in each buffer at a
  point, and the body obligation at every point. The body neither waits nor signals: the core's dues and the scoped
  rest pass through untouched.
-/
import proofs.«207992_g50208167690906_cont_8to1c4_731_36_alg».proof.Proof.KI.RegionCommon
import proofs.«207992_g50208167690906_cont_8to1c4_731_36_alg».proof.Proof.Gen.KernelIdeal.Points
import Idealize.ShloMosaic.Lib.Pipeline.Regions
import Idealize.ShloMosaic.Lib.Pipeline.FrameBody

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The whole-block rectangles of the scaling body's loads and stores. -/
abbrev R0x : Rect S1000x128 := Rect.unit (s := S1000x128) ![0, 0] S1000x128.size inb_S1000x128_S1000x128_0_0
abbrev R0h : Rect S1000x64 := Rect.unit (s := S1000x64) ![0, 0] S1000x64.size inb_S1000x64_S1000x64_0_0
abbrev R0d : Rect S1000x1 := Rect.unit (s := S1000x1) ![0, 0] S1000x1.size inb_S1000x1_S1000x1_0_0

/-- What the scaling body leaves in its two result buffers (staging buffers 0). -/
abbrev outA0 (c : Dev nD) (fx : Bw (F := F) c cc1_stg0_0) (fd : Bw (F := F) c cc1_stg2_0) (fo : Bw (F := F) c cc1_stg3_0) :
    Bw (F := F) c cc1_stg3_0 :=
  ((Memref.whole cc1_stg3_0 : Memref sig .tc _ _ _).access R0x).write (Elt F) fo
    (k1_pay2 (F := F) ((Memref.whole cc1_stg2_0 : Memref sig .tc _ _ _).view.readAt (Elt F) R0d.toLoadRect fd)
      ((Memref.whole cc1_stg0_0 : Memref sig .tc _ _ _).view.readAt (Elt F) R0x.toLoadRect fx)) Finset.univ
abbrev outB0 (c : Dev nD) (fh : Bw (F := F) c cc1_stg1_0) (fd : Bw (F := F) c cc1_stg2_0) (fo : Bw (F := F) c cc1_stg4_0) :
    Bw (F := F) c cc1_stg4_0 :=
  ((Memref.whole cc1_stg4_0 : Memref sig .tc _ _ _).access R0h).write (Elt F) fo
    (k1_pay3 (F := F) ((Memref.whole cc1_stg2_0 : Memref sig .tc _ _ _).view.readAt (Elt F) R0d.toLoadRect fd)
      ((Memref.whole cc1_stg1_0 : Memref sig .tc _ _ _).view.readAt (Elt F) R0h.toLoadRect fh)) Finset.univ

/-- The scaling body on staging buffers 0: three loads, a store, two loads, a store. -/
theorem kernelRun0_0_raw (i : grid1.Coords) (c : Dev nD) (fx : Bw (F := F) c cc1_stg0_0) (fh : Bw (F := F) c cc1_stg1_0)
    (fd : Bw (F := F) c cc1_stg2_0) (fa : Bw (F := F) c cc1_stg3_0) (fb : Bw (F := F) c cc1_stg4_0)
    (E : Set ℕ) (Q : PUnit → sProp 𝕄) :
    iprop((((c : Thread nD τ).loc cc1_stg0_0) ↦{fullShare} fx) ∗ (((c : Thread nD τ).loc cc1_stg1_0) ↦{fullShare} fh)
        ∗ (((c : Thread nD τ).loc cc1_stg2_0) ↦{fullShare} fd) ∗ (((c : Thread nD τ).loc cc1_stg3_0) ↦{fullShare} fa)
        ∗ (((c : Thread nD τ).loc cc1_stg4_0) ↦{fullShare} fb)
        ∗ (iprop((((c : Thread nD τ).loc cc1_stg0_0) ↦{fullShare} fx) ∗ (((c : Thread nD τ).loc cc1_stg1_0) ↦{fullShare} fh)
            ∗ (((c : Thread nD τ).loc cc1_stg2_0) ↦{fullShare} fd) ∗ (((c : Thread nD τ).loc cc1_stg3_0) ↦{fullShare} outA0 c fx fd fa)
            ∗ (((c : Thread nD τ).loc cc1_stg4_0) ↦{fullShare} outB0 c fh fd fb)) -∗ Q ⟨⟩))
      ⊢ wp frame (wpE (defs₀ (F := F)) 𝒱₀ (c : Thread nD τ) none) E
          (cc1__scale_body i (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0)) Q := by
  rw [cc1__scale_body_eq_skeleton]; unfold cc1__scale_body_skel
  iintro ⟨Hx, Hh, Hd, Ha, Hb, Hk⟩
  iapply (wp_load 𝒱₀ (c : Thread nD τ) none E (m := Memref.whole cc1_stg2_0) (r := R0d.toLoadRect) (S := Finset.univ) (Finset.subset_univ _)) $$ Hd
  iintro Hd
  iapply (wp_load 𝒱₀ (c : Thread nD τ) none E (m := Memref.whole cc1_stg0_0) (r := R0x.toLoadRect) (S := Finset.univ) (Finset.subset_univ _)) $$ Hx
  iintro Hx
  iapply (wp_load 𝒱₀ (c : Thread nD τ) none E (m := Memref.whole cc1_stg3_0) (r := R0x.toLoadRect) (S := Finset.univ) (Finset.subset_univ _)) $$ Ha
  iintro Ha
  iapply (wp_store 𝒱₀ (c : Thread nD τ) none E (m := Memref.whole cc1_stg3_0) (r := R0x) (S := Finset.univ) (Finset.subset_univ _)) $$ Ha
  iintro Ha
  iapply (wp_load 𝒱₀ (c : Thread nD τ) none E (m := Memref.whole cc1_stg1_0) (r := R0h.toLoadRect) (S := Finset.univ) (Finset.subset_univ _)) $$ Hh
  iintro Hh
  iapply (wp_load 𝒱₀ (c : Thread nD τ) none E (m := Memref.whole cc1_stg4_0) (r := R0h.toLoadRect) (S := Finset.univ) (Finset.subset_univ _)) $$ Hb
  iintro Hb
  iapply (wp_store 𝒱₀ (c : Thread nD τ) none E (m := Memref.whole cc1_stg4_0) (r := R0h) (S := Finset.univ) (Finset.subset_univ _)) $$ Hb
  iintro Hb
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [Hx]; · iexact Hx
  isplitl [Hh]; · iexact Hh
  isplitl [Hd]; · iexact Hd
  isplitl [Ha]; · iexact Ha
  iexact Hb

theorem outA0_eq (c : Dev nD) (fx : Bw (F := F) c cc1_stg0_0) (fd : Bw (F := F) c cc1_stg2_0) (fa : Bw (F := F) c cc1_stg3_0) :
    outA0 c fx fd fa = (k1_pay2 (F := F) fd fx : Bw (F := F) c cc1_stg3_0) := by
  have ed : (Memref.whole cc1_stg2_0 : Memref sig .tc _ _ _).view.readAt (Elt F) R0d.toLoadRect fd = fd :=
    readAt_unit_zero cc1_stg2_0 zeros2 inb_S1000x1_S1000x1_0_0 fd
  have ex : (Memref.whole cc1_stg0_0 : Memref sig .tc _ _ _).view.readAt (Elt F) R0x.toLoadRect fx = fx :=
    readAt_unit_zero cc1_stg0_0 zeros2 inb_S1000x128_S1000x128_0_0 fx
  unfold outA0
  rw [ed, ex]
  exact write_unit_zero cc1_stg3_0 zeros2 inb_S1000x128_S1000x128_0_0 fa (k1_pay2 (F := F) fd fx)

theorem outB0_eq (c : Dev nD) (fh : Bw (F := F) c cc1_stg1_0) (fd : Bw (F := F) c cc1_stg2_0) (fb : Bw (F := F) c cc1_stg4_0) :
    outB0 c fh fd fb = (k1_pay3 (F := F) fd fh : Bw (F := F) c cc1_stg4_0) := by
  have ed : (Memref.whole cc1_stg2_0 : Memref sig .tc _ _ _).view.readAt (Elt F) R0d.toLoadRect fd = fd :=
    readAt_unit_zero cc1_stg2_0 zeros2 inb_S1000x1_S1000x1_0_0 fd
  have eh : (Memref.whole cc1_stg1_0 : Memref sig .tc _ _ _).view.readAt (Elt F) R0h.toLoadRect fh = fh :=
    readAt_unit_zero cc1_stg1_0 zeros2 inb_S1000x64_S1000x64_0_0 fh
  unfold outB0
  rw [ed, eh]
  exact write_unit_zero cc1_stg4_0 zeros2 inb_S1000x64_S1000x64_0_0 fb (k1_pay3 (F := F) fd fh)

/-- The scaling body on staging buffers 0: the inputs come back as they were; each result's buffer holds the body's
    payload over the inputs' contents. -/
theorem kernelRun0_0 (i : grid1.Coords) (c : Dev nD) (fx : Bw (F := F) c cc1_stg0_0) (fh : Bw (F := F) c cc1_stg1_0)
    (fd : Bw (F := F) c cc1_stg2_0) (fa : Bw (F := F) c cc1_stg3_0) (fb : Bw (F := F) c cc1_stg4_0)
    (E : Set ℕ) (Q : PUnit → sProp 𝕄) :
    iprop((((c : Thread nD τ).loc cc1_stg0_0) ↦{fullShare} fx) ∗ (((c : Thread nD τ).loc cc1_stg1_0) ↦{fullShare} fh)
        ∗ (((c : Thread nD τ).loc cc1_stg2_0) ↦{fullShare} fd) ∗ (((c : Thread nD τ).loc cc1_stg3_0) ↦{fullShare} fa)
        ∗ (((c : Thread nD τ).loc cc1_stg4_0) ↦{fullShare} fb)
        ∗ (iprop((((c : Thread nD τ).loc cc1_stg0_0) ↦{fullShare} fx) ∗ (((c : Thread nD τ).loc cc1_stg1_0) ↦{fullShare} fh)
            ∗ (((c : Thread nD τ).loc cc1_stg2_0) ↦{fullShare} fd)
            ∗ (((c : Thread nD τ).loc cc1_stg3_0) ↦{fullShare} (k1_pay2 (F := F) fd fx : Bw (F := F) c cc1_stg3_0))
            ∗ (((c : Thread nD τ).loc cc1_stg4_0) ↦{fullShare} (k1_pay3 (F := F) fd fh : Bw (F := F) c cc1_stg4_0))) -∗ Q ⟨⟩))
      ⊢ wp frame (wpE (defs₀ (F := F)) 𝒱₀ (c : Thread nD τ) none) E
          (cc1__scale_body i (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0)) Q := by
  have h := kernelRun0_0_raw i c fx fh fd fa fb E Q
  rw [outA0_eq, outB0_eq] at h
  exact h

/-- What the scaling body leaves in its two result buffers (staging buffers 1). -/
abbrev outA1 (c : Dev nD) (fx : Bw (F := F) c cc1_stg0_1) (fd : Bw (F := F) c cc1_stg2_1) (fo : Bw (F := F) c cc1_stg3_1) :
    Bw (F := F) c cc1_stg3_1 :=
  ((Memref.whole cc1_stg3_1 : Memref sig .tc _ _ _).access R0x).write (Elt F) fo
    (k1_pay2 (F := F) ((Memref.whole cc1_stg2_1 : Memref sig .tc _ _ _).view.readAt (Elt F) R0d.toLoadRect fd)
      ((Memref.whole cc1_stg0_1 : Memref sig .tc _ _ _).view.readAt (Elt F) R0x.toLoadRect fx)) Finset.univ
abbrev outB1 (c : Dev nD) (fh : Bw (F := F) c cc1_stg1_1) (fd : Bw (F := F) c cc1_stg2_1) (fo : Bw (F := F) c cc1_stg4_1) :
    Bw (F := F) c cc1_stg4_1 :=
  ((Memref.whole cc1_stg4_1 : Memref sig .tc _ _ _).access R0h).write (Elt F) fo
    (k1_pay3 (F := F) ((Memref.whole cc1_stg2_1 : Memref sig .tc _ _ _).view.readAt (Elt F) R0d.toLoadRect fd)
      ((Memref.whole cc1_stg1_1 : Memref sig .tc _ _ _).view.readAt (Elt F) R0h.toLoadRect fh)) Finset.univ

/-- The scaling body on staging buffers 1: three loads, a store, two loads, a store. -/
theorem kernelRun0_1_raw (i : grid1.Coords) (c : Dev nD) (fx : Bw (F := F) c cc1_stg0_1) (fh : Bw (F := F) c cc1_stg1_1)
    (fd : Bw (F := F) c cc1_stg2_1) (fa : Bw (F := F) c cc1_stg3_1) (fb : Bw (F := F) c cc1_stg4_1)
    (E : Set ℕ) (Q : PUnit → sProp 𝕄) :
    iprop((((c : Thread nD τ).loc cc1_stg0_1) ↦{fullShare} fx) ∗ (((c : Thread nD τ).loc cc1_stg1_1) ↦{fullShare} fh)
        ∗ (((c : Thread nD τ).loc cc1_stg2_1) ↦{fullShare} fd) ∗ (((c : Thread nD τ).loc cc1_stg3_1) ↦{fullShare} fa)
        ∗ (((c : Thread nD τ).loc cc1_stg4_1) ↦{fullShare} fb)
        ∗ (iprop((((c : Thread nD τ).loc cc1_stg0_1) ↦{fullShare} fx) ∗ (((c : Thread nD τ).loc cc1_stg1_1) ↦{fullShare} fh)
            ∗ (((c : Thread nD τ).loc cc1_stg2_1) ↦{fullShare} fd) ∗ (((c : Thread nD τ).loc cc1_stg3_1) ↦{fullShare} outA1 c fx fd fa)
            ∗ (((c : Thread nD τ).loc cc1_stg4_1) ↦{fullShare} outB1 c fh fd fb)) -∗ Q ⟨⟩))
      ⊢ wp frame (wpE (defs₀ (F := F)) 𝒱₀ (c : Thread nD τ) none) E
          (cc1__scale_body i (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1)) Q := by
  rw [cc1__scale_body_eq_skeleton]; unfold cc1__scale_body_skel
  iintro ⟨Hx, Hh, Hd, Ha, Hb, Hk⟩
  iapply (wp_load 𝒱₀ (c : Thread nD τ) none E (m := Memref.whole cc1_stg2_1) (r := R0d.toLoadRect) (S := Finset.univ) (Finset.subset_univ _)) $$ Hd
  iintro Hd
  iapply (wp_load 𝒱₀ (c : Thread nD τ) none E (m := Memref.whole cc1_stg0_1) (r := R0x.toLoadRect) (S := Finset.univ) (Finset.subset_univ _)) $$ Hx
  iintro Hx
  iapply (wp_load 𝒱₀ (c : Thread nD τ) none E (m := Memref.whole cc1_stg3_1) (r := R0x.toLoadRect) (S := Finset.univ) (Finset.subset_univ _)) $$ Ha
  iintro Ha
  iapply (wp_store 𝒱₀ (c : Thread nD τ) none E (m := Memref.whole cc1_stg3_1) (r := R0x) (S := Finset.univ) (Finset.subset_univ _)) $$ Ha
  iintro Ha
  iapply (wp_load 𝒱₀ (c : Thread nD τ) none E (m := Memref.whole cc1_stg1_1) (r := R0h.toLoadRect) (S := Finset.univ) (Finset.subset_univ _)) $$ Hh
  iintro Hh
  iapply (wp_load 𝒱₀ (c : Thread nD τ) none E (m := Memref.whole cc1_stg4_1) (r := R0h.toLoadRect) (S := Finset.univ) (Finset.subset_univ _)) $$ Hb
  iintro Hb
  iapply (wp_store 𝒱₀ (c : Thread nD τ) none E (m := Memref.whole cc1_stg4_1) (r := R0h) (S := Finset.univ) (Finset.subset_univ _)) $$ Hb
  iintro Hb
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [Hx]; · iexact Hx
  isplitl [Hh]; · iexact Hh
  isplitl [Hd]; · iexact Hd
  isplitl [Ha]; · iexact Ha
  iexact Hb

theorem outA1_eq (c : Dev nD) (fx : Bw (F := F) c cc1_stg0_1) (fd : Bw (F := F) c cc1_stg2_1) (fa : Bw (F := F) c cc1_stg3_1) :
    outA1 c fx fd fa = (k1_pay2 (F := F) fd fx : Bw (F := F) c cc1_stg3_1) := by
  have ed : (Memref.whole cc1_stg2_1 : Memref sig .tc _ _ _).view.readAt (Elt F) R0d.toLoadRect fd = fd :=
    readAt_unit_zero cc1_stg2_1 zeros2 inb_S1000x1_S1000x1_0_0 fd
  have ex : (Memref.whole cc1_stg0_1 : Memref sig .tc _ _ _).view.readAt (Elt F) R0x.toLoadRect fx = fx :=
    readAt_unit_zero cc1_stg0_1 zeros2 inb_S1000x128_S1000x128_0_0 fx
  unfold outA1
  rw [ed, ex]
  exact write_unit_zero cc1_stg3_1 zeros2 inb_S1000x128_S1000x128_0_0 fa (k1_pay2 (F := F) fd fx)

theorem outB1_eq (c : Dev nD) (fh : Bw (F := F) c cc1_stg1_1) (fd : Bw (F := F) c cc1_stg2_1) (fb : Bw (F := F) c cc1_stg4_1) :
    outB1 c fh fd fb = (k1_pay3 (F := F) fd fh : Bw (F := F) c cc1_stg4_1) := by
  have ed : (Memref.whole cc1_stg2_1 : Memref sig .tc _ _ _).view.readAt (Elt F) R0d.toLoadRect fd = fd :=
    readAt_unit_zero cc1_stg2_1 zeros2 inb_S1000x1_S1000x1_0_0 fd
  have eh : (Memref.whole cc1_stg1_1 : Memref sig .tc _ _ _).view.readAt (Elt F) R0h.toLoadRect fh = fh :=
    readAt_unit_zero cc1_stg1_1 zeros2 inb_S1000x64_S1000x64_0_0 fh
  unfold outB1
  rw [ed, eh]
  exact write_unit_zero cc1_stg4_1 zeros2 inb_S1000x64_S1000x64_0_0 fb (k1_pay3 (F := F) fd fh)

/-- The scaling body on staging buffers 1: the inputs come back as they were; each result's buffer holds the body's
    payload over the inputs' contents. -/
theorem kernelRun0_1 (i : grid1.Coords) (c : Dev nD) (fx : Bw (F := F) c cc1_stg0_1) (fh : Bw (F := F) c cc1_stg1_1)
    (fd : Bw (F := F) c cc1_stg2_1) (fa : Bw (F := F) c cc1_stg3_1) (fb : Bw (F := F) c cc1_stg4_1)
    (E : Set ℕ) (Q : PUnit → sProp 𝕄) :
    iprop((((c : Thread nD τ).loc cc1_stg0_1) ↦{fullShare} fx) ∗ (((c : Thread nD τ).loc cc1_stg1_1) ↦{fullShare} fh)
        ∗ (((c : Thread nD τ).loc cc1_stg2_1) ↦{fullShare} fd) ∗ (((c : Thread nD τ).loc cc1_stg3_1) ↦{fullShare} fa)
        ∗ (((c : Thread nD τ).loc cc1_stg4_1) ↦{fullShare} fb)
        ∗ (iprop((((c : Thread nD τ).loc cc1_stg0_1) ↦{fullShare} fx) ∗ (((c : Thread nD τ).loc cc1_stg1_1) ↦{fullShare} fh)
            ∗ (((c : Thread nD τ).loc cc1_stg2_1) ↦{fullShare} fd)
            ∗ (((c : Thread nD τ).loc cc1_stg3_1) ↦{fullShare} (k1_pay2 (F := F) fd fx : Bw (F := F) c cc1_stg3_1))
            ∗ (((c : Thread nD τ).loc cc1_stg4_1) ↦{fullShare} (k1_pay3 (F := F) fd fh : Bw (F := F) c cc1_stg4_1))) -∗ Q ⟨⟩))
      ⊢ wp frame (wpE (defs₀ (F := F)) 𝒱₀ (c : Thread nD τ) none) E
          (cc1__scale_body i (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1)) Q := by
  have h := kernelRun0_1_raw i c fx fh fd fa fb E Q
  rw [outA1_eq, outB1_eq] at h
  exact h

/-! ## Region 0: the scaling call on its grid of ten row blocks -/

/-- Every window of the scaling call is on buffer `t mod 2` at point `t`. -/
theorem slots1_val : ∀ (t : Fin cfg1.N) (w : Fin 5), (cfg1.slots t w).val = t.val % 2 := by decide +kernel

/-- The arrays of the scaling call's windows on core `c`: features, state, degree column, and the two results. -/
abbrev Arr0 (c : Dev nD) : Type := (w : Fin cfg1.W) → Buf (Elt F) ((cfg1.win w).arr.view.loc (c.tc : Thread nD τ))

section Region0

variable (O : CellTallies nD τ sig (HIx 2)) (B : Set (SemLoc sig × HIx 2))
variable (c : Dev nD) (A : Arr0 (F := F) c)

/-- Window `w`'s block at point `t`, read off its array at the contents `A`. -/
def iblk0 (w : Fin cfg1.W) (t : Fin cfg1.N) : ((cfg1.win w).xblock (cfg1.grid.coords t)).Idx → Elt F (cfg1.win w).elt :=
  ((cfg1.win w).blk t).view.read (Elt F) (A w)

/-- The proof data of the scaling call on core `c` entered at the array contents `A`: after the body at point `t`
    each input's buffer holds its block, each result's the body's payload over the degree block and the input block;
    the invariant is the scoped rest, untouched; the core owes `O` throughout. -/
def dat0 : Dat τ (Elt F) (HIx 2) ℕ UU ℕ cfg1 c where
  A := A
  after w t := match w with
    | ⟨0, _⟩ => iblk0 c A 0 t
    | ⟨1, _⟩ => iblk0 c A 1 t
    | ⟨2, _⟩ => iblk0 c A 2 t
    | ⟨3, _⟩ => k1_pay2 (F := F) (iblk0 c A 2 t) (iblk0 c A 0 t)
    | ⟨4, _⟩ => k1_pay3 (F := F) (iblk0 c A 2 t) (iblk0 c A 1 t)
  Φ _ := Pipeline.scopedRest (Ix := HIx 2) (Name := ℕ) (U := UU) (Lvl := ℕ) (Val := Elt F) spec1 c
  q _ := fullShare
  owed _ := O
  recorded _ := B

theorem after0_0 (t : Fin cfg1.N) : (dat0 O B c A).after 0 t = iblk0 c A 0 t := by dsimp only [dat0]
theorem after0_1 (t : Fin cfg1.N) : (dat0 O B c A).after 1 t = iblk0 c A 1 t := by dsimp only [dat0]
theorem after0_2 (t : Fin cfg1.N) : (dat0 O B c A).after 2 t = iblk0 c A 2 t := by dsimp only [dat0]
theorem after0_3 (t : Fin cfg1.N) : (dat0 O B c A).after 3 t = k1_pay2 (F := F) (iblk0 c A 2 t) (iblk0 c A 0 t) := by dsimp only [dat0]
theorem after0_4 (t : Fin cfg1.N) : (dat0 O B c A).after 4 t = k1_pay3 (F := F) (iblk0 c A 2 t) (iblk0 c A 1 t) := by dsimp only [dat0]

/-- An input window, fetched at every point, holds its block. -/
theorem before0_0 (t : Fin cfg1.N) (d) : (dat0 O B c A).before 0 t d = iblk0 c A 0 t :=
  ((dat0 O B c A).before_fetched 0 t (fetch1_0 t) d).trans (by unfold Dat.fetched Dat.blockOf iblk0; rfl)
theorem before0_1 (t : Fin cfg1.N) (d) : (dat0 O B c A).before 1 t d = iblk0 c A 1 t :=
  ((dat0 O B c A).before_fetched 1 t (fetch1_1 t) d).trans (by unfold Dat.fetched Dat.blockOf iblk0; rfl)
theorem before0_2 (t : Fin cfg1.N) (d) : (dat0 O B c A).before 2 t d = iblk0 c A 2 t :=
  ((dat0 O B c A).before_fetched 2 t (fetch1_2 t) d).trans (by unfold Dat.fetched Dat.blockOf iblk0; rfl)

/-- A result window, written back at every point, is fresh at every point. -/
theorem before0_3 (t : Fin cfg1.N) (d) : (dat0 O B c A).before 3 t d = d :=
  (dat0 O B c A).before_out_reset 3 rfl t (by
    by_cases h : t.val = 0
    · exact .inl h
    · exact .inr ⟨h, flush1_3 _⟩) d
theorem before0_4 (t : Fin cfg1.N) (d) : (dat0 O B c A).before 4 t d = d :=
  (dat0 O B c A).before_out_reset 4 rfl t (by
    by_cases h : t.val = 0
    · exact .inl h
    · exact .inr ⟨h, flush1_4 _⟩) d

end Region0

section Region0b

variable (O : CellTallies nD τ sig (HIx 2)) (B : Set (SemLoc sig × HIx 2))
variable (c : Dev nD) (A : Arr0 (F := F) c)

/-- What the body is called with at point `t`, the windows one by one, -/
def bodyPre0 (t : Fin cfg1.N) : sProp 𝕄 :=
  iprop((dat0 O B c A).Φ t.castSucc ∗ (dat0 O B c A).owesAt none t.castSucc
    ∗ (∃ d, owns (c : Thread nD τ) (st1_0 t) fullShare ((dat0 O B c A).before 0 t d))
    ∗ (∃ d, owns (c : Thread nD τ) (st1_1 t) fullShare ((dat0 O B c A).before 1 t d))
    ∗ (∃ d, owns (c : Thread nD τ) (st1_2 t) fullShare ((dat0 O B c A).before 2 t d))
    ∗ (∃ d, owns (c : Thread nD τ) (st1_3 t) fullShare ((dat0 O B c A).before 3 t d))
    ∗ (∃ d, owns (c : Thread nD τ) (st1_4 t) fullShare ((dat0 O B c A).before 4 t d)))

/-- and what it returns. -/
def bodyPost0 (t : Fin cfg1.N) : sProp 𝕄 :=
  iprop((dat0 O B c A).Φ t.succ ∗ (dat0 O B c A).owesAt none t.succ
    ∗ owns (c : Thread nD τ) (st1_0 t) fullShare ((dat0 O B c A).after 0 t)
    ∗ owns (c : Thread nD τ) (st1_1 t) fullShare ((dat0 O B c A).after 1 t)
    ∗ owns (c : Thread nD τ) (st1_2 t) fullShare ((dat0 O B c A).after 2 t)
    ∗ owns (c : Thread nD τ) (st1_3 t) fullShare ((dat0 O B c A).after 3 t)
    ∗ owns (c : Thread nD τ) (st1_4 t) fullShare ((dat0 O B c A).after 4 t))

set_option maxHeartbeats 1000000 in
/-- The body at any point: each input's buffer holds its block, each result's anything; the body leaves the inputs
    as they were and the results at its payloads; the invariant and the core's dues pass through unread. -/
theorem sound_body0 (t : Fin cfg1.N) :
    bodyPre0 O B c A t ⊢ wp frame (wpE (defs₀ (F := F)) 𝒱₀ (c : Thread nD τ) none) Set.univ (bodyAt1 t) (fun _ => bodyPost0 O B c A t) := by
  unfold bodyPre0 bodyPost0 bodyAt1 st1_0 st1_1 st1_2 st1_3 st1_4
  simp only [before0_0, before0_1, before0_2, before0_3, before0_4]
  rw [show (dat0 O B c A).Φ t.succ = (dat0 O B c A).Φ t.castSucc from rfl,
    show (dat0 O B c A).owesAt none t.succ = (dat0 O B c A).owesAt none t.castSucc from rfl,
    after0_0, after0_1, after0_2, after0_3, after0_4]
  rcases Nat.mod_two_eq_zero_or_one t.val with h | h
  ·
    have e0 : cfg1.slots t 0 = (⟨0, by decide⟩ : Fin (cfg1.win 0).nbuf) := Fin.ext ((slots1_val t 0).trans h)
    have e1 : cfg1.slots t 1 = (⟨0, by decide⟩ : Fin (cfg1.win 1).nbuf) := Fin.ext ((slots1_val t 1).trans h)
    have e2 : cfg1.slots t 2 = (⟨0, by decide⟩ : Fin (cfg1.win 2).nbuf) := Fin.ext ((slots1_val t 2).trans h)
    have e3 : cfg1.slots t 3 = (⟨0, by decide⟩ : Fin (cfg1.win 3).nbuf) := Fin.ext ((slots1_val t 3).trans h)
    have e4 : cfg1.slots t 4 = (⟨0, by decide⟩ : Fin (cfg1.win 4).nbuf) := Fin.ext ((slots1_val t 4).trans h)
    simp only [e0, e1, e2, e3, e4]
    show iprop(_ ∗ _ ∗ (∃ d, owns (c : Thread nD τ) (Memref.whole cc1_stg0_0) fullShare _)
        ∗ (∃ d, owns (c : Thread nD τ) (Memref.whole cc1_stg1_0) fullShare _)
        ∗ (∃ d, owns (c : Thread nD τ) (Memref.whole cc1_stg2_0) fullShare _)
        ∗ (∃ d, owns (c : Thread nD τ) (Memref.whole cc1_stg3_0) fullShare d)
        ∗ (∃ d, owns (c : Thread nD τ) (Memref.whole cc1_stg4_0) fullShare d))
      ⊢ wp frame (wpE (defs₀ (F := F)) 𝒱₀ (c : Thread nD τ) none) Set.univ
          (cc1__scale_body (grid1.coords t) (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0))
          (fun _ => iprop(_ ∗ _ ∗ owns (c : Thread nD τ) (Memref.whole cc1_stg0_0) fullShare _
            ∗ owns (c : Thread nD τ) (Memref.whole cc1_stg1_0) fullShare _
            ∗ owns (c : Thread nD τ) (Memref.whole cc1_stg2_0) fullShare _
            ∗ owns (c : Thread nD τ) (Memref.whole cc1_stg3_0) fullShare _
            ∗ owns (c : Thread nD τ) (Memref.whole cc1_stg4_0) fullShare _))
    simp only [owns_whole]
    iintro ⟨HΦ, Ho, ⟨%d0, H0⟩, ⟨%d1, H1⟩, ⟨%d2, H2⟩, ⟨%d3, H3⟩, ⟨%d4, H4⟩⟩
    iapply (kernelRun0_0 (grid1.coords t) c _ _ _ d3 d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  ·
    have e0 : cfg1.slots t 0 = (⟨1, by decide⟩ : Fin (cfg1.win 0).nbuf) := Fin.ext ((slots1_val t 0).trans h)
    have e1 : cfg1.slots t 1 = (⟨1, by decide⟩ : Fin (cfg1.win 1).nbuf) := Fin.ext ((slots1_val t 1).trans h)
    have e2 : cfg1.slots t 2 = (⟨1, by decide⟩ : Fin (cfg1.win 2).nbuf) := Fin.ext ((slots1_val t 2).trans h)
    have e3 : cfg1.slots t 3 = (⟨1, by decide⟩ : Fin (cfg1.win 3).nbuf) := Fin.ext ((slots1_val t 3).trans h)
    have e4 : cfg1.slots t 4 = (⟨1, by decide⟩ : Fin (cfg1.win 4).nbuf) := Fin.ext ((slots1_val t 4).trans h)
    simp only [e0, e1, e2, e3, e4]
    show iprop(_ ∗ _ ∗ (∃ d, owns (c : Thread nD τ) (Memref.whole cc1_stg0_1) fullShare _)
        ∗ (∃ d, owns (c : Thread nD τ) (Memref.whole cc1_stg1_1) fullShare _)
        ∗ (∃ d, owns (c : Thread nD τ) (Memref.whole cc1_stg2_1) fullShare _)
        ∗ (∃ d, owns (c : Thread nD τ) (Memref.whole cc1_stg3_1) fullShare d)
        ∗ (∃ d, owns (c : Thread nD τ) (Memref.whole cc1_stg4_1) fullShare d))
      ⊢ wp frame (wpE (defs₀ (F := F)) 𝒱₀ (c : Thread nD τ) none) Set.univ
          (cc1__scale_body (grid1.coords t) (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1))
          (fun _ => iprop(_ ∗ _ ∗ owns (c : Thread nD τ) (Memref.whole cc1_stg0_1) fullShare _
            ∗ owns (c : Thread nD τ) (Memref.whole cc1_stg1_1) fullShare _
            ∗ owns (c : Thread nD τ) (Memref.whole cc1_stg2_1) fullShare _
            ∗ owns (c : Thread nD τ) (Memref.whole cc1_stg3_1) fullShare _
            ∗ owns (c : Thread nD τ) (Memref.whole cc1_stg4_1) fullShare _))
    simp only [owns_whole]
    iintro ⟨HΦ, Ho, ⟨%d0, H0⟩, ⟨%d1, H1⟩, ⟨%d2, H2⟩, ⟨%d3, H3⟩, ⟨%d4, H4⟩⟩
    iapply (kernelRun0_1 (grid1.coords t) c _ _ _ d3 d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 : BodyObligation (dat0 O B c A) (defs₀ (F := F)) 𝒱₀ none Set.univ := fun t => by
  rw [bigSep_W1, bigSep_W1]
  exact sound_body0 O B c A t

end Region0b

end Cert.Proof.KI.Region

end
-- ==== Proof.KI.Region0.lean ====
/-
  The scaling call as a region of @main on the TensorCore: the region rule's record — the call entered from its
  five arrays held whole and what the core owes, left with the arrays at the contents the pipeline computes and the
  same owed; no semaphore of its own; nothing in the invariant but the scoped buffers no window stages — and the
  call's run from the region boundary and the pipeline's staging-cell ghost state.
-/
import proofs.«207992_g50208167690906_cont_8to1c4_731_36_alg».proof.Proof.KI.Region0Body
import proofs.«207992_g50208167690906_cont_8to1c4_731_36_alg».proof.Proof.Gen.KernelIdeal.Points
import Idealize.ShloMosaic.Lib.Pipeline.Regions
import Idealize.ShloMosaic.Lib.Pipeline.FrameBody

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The windows' arrays held whole at contents `X`. -/
abbrev arrs0 (c : Dev nD) (X : Arr0 (F := F) c) : sProp 𝕄 :=
  bigSep Finset.univ fun w : Fin cfg1.W => (((c.tc : Thread nD τ).loc (Pipeline.arrRef spec1 w)) ↦{fullShare} X w : sProp 𝕄)

section Data

variable (O : CellTallies nD τ sig (HIx 2)) (B : Set (SemLoc sig × HIx 2))

/-- The family the region rule takes: the scaling region's data at pipeline 0. -/
def pdats0 (A : (c : Dev nD) → Arr0 (F := F) c) :
    (p : Fin 3) → (c : Dev nD) → Dat τ (Elt F) (HIx 2) ℕ UU ℕ (Pipeline.pin (pcfgs (F := F)) adm p) c
  | ⟨0, _⟩ => fun c => dat0 O B c (A c)
  | ⟨1, _⟩ => fun c => datNone _ c
  | ⟨2, _⟩ => fun c => datNone _ c

end Data

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B10 : Set (SemLoc sig × HIx 2) := B ∪ cfg1.waitPairs none

include hO hlv in
-- the record's fields are stated over `cfgs p` at the pinned configuration: they unify with the statements over `cfg1`
-- only when unification may unfold plain definitions in a metavariable's type
set_option backward.isDefEq.respectTransparency.types false in
/-- The scaling region as the region rule takes it: entered from its five arrays held whole and what the core owes,
    left with the arrays at their final contents and the same owed. No semaphore of its own; nothing enters the
    invariant but the scoped buffers no window stages. -/
def reg0 (A : (c : Dev nD) → Arr0 (F := F) c) :
    Pipeline.RegionSeg (pcfgs (F := F)) adm (pdats0 O B A) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation0 O B c (A c)).loose
  hwaits c := Pipeline.cellsWaits_intro (Pipeline.pin (pcfgs (F := F)) adm) (pdats0 O B A) none 0 c (R := levAts (K (F := F)).L lv)
    fun w s t => (K (F := F)).mayWait_none (SemLoc.dma _) hO lv hlv
  pre c := iprop(arrs0 c (A c) ∗ Pipeline.owesWithin c O B)
  post c := iprop(arrs0 c (fun w => (dat0 O B c (A c)).arrAt w cfg1.N) ∗ Pipeline.owesWithin c O (B10 B))
  X _ := iprop(emp)
  Y _ := iprop(emp)
  Z _ := iprop(emp)
  hentry c := by
    rw [Pipeline.arrays_eq (Pipeline.pin (pcfgs (F := F)) adm) (pdats0 O B A) 0 c launch1.arr_whole
      ((dat0 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec1 c)
      ⊢ Pipeline.scopedRest (Ix := HIx 2) (Name := ℕ) (U := UU) (Lvl := ℕ) (Val := Elt F) spec1 c
    exact sep_elim_right.trans sep_elim_right
  hout c := by
    show Pipeline.scopedRest (Ix := HIx 2) (Name := ℕ) (U := UU) (Lvl := ℕ) (Val := Elt F) spec1 c
      ⊢ iprop(iprop(emp) ∗ Pipeline.ownSems0 (fun k : PEmpty => k.elim) c ∗ Pipeline.scopedRest (Ix := HIx 2) (Name := ℕ) (U := UU) (Lvl := ℕ) (Val := Elt F) spec1 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats0 O B A) 0 c launch1.arr_whole
      ((dat0 O B c (A c)).share_full fun _ => rfl)]
    iintro ⟨Ha, HO, -, -⟩
    imodintro
    isplitl [Ha]; · iexact Ha
    iexact HO

include hO hlv in
set_option backward.isDefEq.respectTransparency.types false in
/-- **Region 0.** On TensorCore `d`, inside @main's proof: from the level facts, the region boundary, pipeline 0's
    staging-cell ghost state, what the core owes (any tallies with nothing at index `none`; its recorded pairs within
    `B`) and the five arrays held whole at `A d`, the call of pipeline 0's region runs to the boundary, the same owed
    (the recorded pairs now within `B10 B`) and the arrays at the contents the pipeline library computes. -/
theorem region_0 (A : (c : Dev nD) → Arr0 (F := F) c) (d : Dev nD) (Φ : PUnit → sProp 𝕄) :
    iprop(levAts (K (F := F)).L lv ∗ boundary (T d) ∗ ghostAt (F := F) 0 d ∗ Pipeline.owesWithin d O B ∗ arrs0 d (A d)
        ∗ (iprop(boundary (T d) ∗ Pipeline.owesWithin d O (B10 B) ∗ arrs0 d (fun w => (dat0 O B d (A d)).arrAt w cfg1.N)) -∗ Φ ⟨⟩))
      ⊢ wp frame (wpE ((K (F := F)).defs D) 𝒱 (T d) none) Set.univ
          (Prog.lift (.customCall (SparseCore.inner (Pipeline.entry 0)) ())) Φ := by
  iintro ⟨#Hl, Hb, ⟨Hg, Ht⟩, HO, Ha, Hk⟩
  iapply ((K (F := F)).wp_liftProg D 𝒱 (T d) Set.univ none (Prog.lift (.customCall (Pipeline.entry 0) ())) Φ)
  iapply (Pipeline.RegionSeg.wp (pcfgs (F := F)) adm (pdats0 O B A) none cellOf_inj EP defs₀ 𝒱₀ (K (F := F)).L lv
    (reg0 O B hO lv hlv A) d none (fun _ h => nomatch h) (fun u => Prog.ret u) Φ)
  isplitl [Hk]
  · iintro ⟨Hb, Hpost⟩
    ihave Hpost' := (show (reg0 O B hO lv hlv A).post d
        ⊢ iprop(arrs0 d (fun w => (dat0 O B d (A d)).arrAt w cfg1.N) ∗ Pipeline.owesWithin d O (B10 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs0 d (A d) ∗ Pipeline.owesWithin d O B) ⊢ (reg0 O B hO lv hlv A).pre d from .rfl)
    isplitl [Ha]; · iexact Ha
    iexact HO
  isplitr; · iexact Hl
  isplitl [Hg]; · iexact Hg
  iexact Ht

end Region

section Wrapper

variable (lv : GSem nD τ sig → HIx 2 → ℕ) (hlv : (K (F := F)).Refines lv)

include hlv in
/-- **Region 0 in @main's proof**: the TensorCore's owed state before call `n` goes in and comes back unchanged. -/
theorem region_0_tc (n : ℕ) (A : (c : Dev nD) → Arr0 (F := F) c) (d : Dev nD) (Φ : PUnit → sProp 𝕄) :
    iprop(levAts (K (F := F)).L lv ∗ boundary (T d) ∗ ghostAt (F := F) 0 d ∗ owesTc (F := F) d n ∗ arrs0 d (A d)
        ∗ (iprop(boundary (T d) ∗ owesTc (F := F) d n
            ∗ arrs0 d (fun w => (dat0 ((K (F := F)).Otc d n) (Bn (F := F) d n) d (A d)).arrAt w cfg1.N)) -∗ Φ ⟨⟩))
      ⊢ wp frame (wpE ((K (F := F)).defs D) 𝒱 (T d) none) Set.univ
          (Prog.lift (.customCall (SparseCore.inner (Pipeline.entry 0)) ())) Φ := by
  iintro ⟨#Hl, Hb, Hg, HO, Ha, Hk⟩
  iapply (region_0 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg1 d n); iexact HO
  iexact Ha

end Wrapper

end Cert.Proof.KI.Region

end
-- ==== Proof.KI.Region0Val.lean ====
/-
  What the scaling call's five arrays hold after the region. Point `t` of the grid moves row block `t` of every
  window (rows `1000 t` to `1000 t + 999`, all columns), so a window's block read through the window is the row
  block; the three inputs are never written; each result's ten blocks tile its array, and block `t` written back is
  the body's payload over the degree block and the input block, which is block `t` of the blockwise array.
-/
import proofs.«207992_g50208167690906_cont_8to1c4_731_36_alg».proof.Proof.KI.Region0Body
import proofs.«207992_g50208167690906_cont_8to1c4_731_36_alg».proof.Proof.KI.RegionVal
import Idealize.ShloMosaic.Lib.Pipeline.Value

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- Ten row blocks of a thousand rows. -/
theorem blk_h (t : Fin cfg1.N) : t.val * 1000 + 1000 ≤ 10000 := by
  have h1 := t.isLt
  have h2 : cfg1.N = 10 := N_1
  omega

theorem idx1_0 : ∀ t : Fin cfg1.N, (cfg1.win 0).index t = ![t.val, 0] := by decide

/-- Block `t` of window 0's array, read through the window, is row block `t`. -/
theorem read_blk1_0 (t : Fin cfg1.N) (X : FVec F S10000x128 .f32) :
    ((cfg1.win 0).blk t).view.read (Elt F) X = Region.rowBlk 1000 t.val (blk_h t) X := by
  funext j
  rw [View.read_apply]
  unfold Region.rowBlk
  show X _ = X _
  refine congrArg X (funext fun a => Fin.ext ?_)
  show (((cfg1.win 0).rect t).emb j a : ℕ) = ((Region.rowRect (N := 10000) (C := 128) 1000 t.val (blk_h t)).emb j a : ℕ)
  rw [Window.rect_emb_val, idx1_0 t, Rect.emb_apply]
  match a with
  | ⟨0, _⟩ => show t.val * 1000 + (j 0 : ℕ) = t.val * 1000 + 1 * (j 0 : ℕ); omega
  | ⟨1, _⟩ => show 0 * 128 + (j 1 : ℕ) = 0 + 1 * (j 1 : ℕ); omega

theorem idx1_1 : ∀ t : Fin cfg1.N, (cfg1.win 1).index t = ![t.val, 0] := by decide

/-- Block `t` of window 1's array, read through the window, is row block `t`. -/
theorem read_blk1_1 (t : Fin cfg1.N) (X : FVec F S10000x64 .f32) :
    ((cfg1.win 1).blk t).view.read (Elt F) X = Region.rowBlk 1000 t.val (blk_h t) X := by
  funext j
  rw [View.read_apply]
  unfold Region.rowBlk
  show X _ = X _
  refine congrArg X (funext fun a => Fin.ext ?_)
  show (((cfg1.win 1).rect t).emb j a : ℕ) = ((Region.rowRect (N := 10000) (C := 64) 1000 t.val (blk_h t)).emb j a : ℕ)
  rw [Window.rect_emb_val, idx1_1 t, Rect.emb_apply]
  match a with
  | ⟨0, _⟩ => show t.val * 1000 + (j 0 : ℕ) = t.val * 1000 + 1 * (j 0 : ℕ); omega
  | ⟨1, _⟩ => show 0 * 64 + (j 1 : ℕ) = 0 + 1 * (j 1 : ℕ); omega

theorem idx1_2 : ∀ t : Fin cfg1.N, (cfg1.win 2).index t = ![t.val, 0] := by decide

/-- Block `t` of window 2's array, read through the window, is row block `t`. -/
theorem read_blk1_2 (t : Fin cfg1.N) (X : FVec F S10000x1 .f32) :
    ((cfg1.win 2).blk t).view.read (Elt F) X = Region.rowBlk 1000 t.val (blk_h t) X := by
  funext j
  rw [View.read_apply]
  unfold Region.rowBlk
  show X _ = X _
  refine congrArg X (funext fun a => Fin.ext ?_)
  show (((cfg1.win 2).rect t).emb j a : ℕ) = ((Region.rowRect (N := 10000) (C := 1) 1000 t.val (blk_h t)).emb j a : ℕ)
  rw [Window.rect_emb_val, idx1_2 t, Rect.emb_apply]
  match a with
  | ⟨0, _⟩ => show t.val * 1000 + (j 0 : ℕ) = t.val * 1000 + 1 * (j 0 : ℕ); omega
  | ⟨1, _⟩ => show 0 * 1 + (j 1 : ℕ) = 0 + 1 * (j 1 : ℕ); omega

theorem idx1_3 : ∀ t : Fin cfg1.N, (cfg1.win 3).index t = ![t.val, 0] := by decide

/-- Block `t` of window 3's array, read through the window, is row block `t`. -/
theorem read_blk1_3 (t : Fin cfg1.N) (X : FVec F S10000x128 .f32) :
    ((cfg1.win 3).blk t).view.read (Elt F) X = Region.rowBlk 1000 t.val (blk_h t) X := by
  funext j
  rw [View.read_apply]
  unfold Region.rowBlk
  show X _ = X _
  refine congrArg X (funext fun a => Fin.ext ?_)
  show (((cfg1.win 3).rect t).emb j a : ℕ) = ((Region.rowRect (N := 10000) (C := 128) 1000 t.val (blk_h t)).emb j a : ℕ)
  rw [Window.rect_emb_val, idx1_3 t, Rect.emb_apply]
  match a with
  | ⟨0, _⟩ => show t.val * 1000 + (j 0 : ℕ) = t.val * 1000 + 1 * (j 0 : ℕ); omega
  | ⟨1, _⟩ => show 0 * 128 + (j 1 : ℕ) = 0 + 1 * (j 1 : ℕ); omega

theorem idx1_4 : ∀ t : Fin cfg1.N, (cfg1.win 4).index t = ![t.val, 0] := by decide

/-- Block `t` of window 4's array, read through the window, is row block `t`. -/
theorem read_blk1_4 (t : Fin cfg1.N) (X : FVec F S10000x64 .f32) :
    ((cfg1.win 4).blk t).view.read (Elt F) X = Region.rowBlk 1000 t.val (blk_h t) X := by
  funext j
  rw [View.read_apply]
  unfold Region.rowBlk
  show X _ = X _
  refine congrArg X (funext fun a => Fin.ext ?_)
  show (((cfg1.win 4).rect t).emb j a : ℕ) = ((Region.rowRect (N := 10000) (C := 64) 1000 t.val (blk_h t)).emb j a : ℕ)
  rw [Window.rect_emb_val, idx1_4 t, Rect.emb_apply]
  match a with
  | ⟨0, _⟩ => show t.val * 1000 + (j 0 : ℕ) = t.val * 1000 + 1 * (j 0 : ℕ); omega
  | ⟨1, _⟩ => show 0 * 64 + (j 1 : ℕ) = 0 + 1 * (j 1 : ℕ); omega

/-! ## What the five arrays hold after the region -/

section Values

variable (O : CellTallies nD τ sig (HIx 2)) (B : Set (SemLoc sig × HIx 2)) (c : Dev nD) (A : Arr0 (F := F) c)

/-- The three inputs are not written. -/
theorem arrAt0_0 : (dat0 O B c A).arrAt 0 cfg1.N = A 0 := (dat0 O B c A).arrAt_in 0 rfl _
theorem arrAt0_1 : (dat0 O B c A).arrAt 1 cfg1.N = A 1 := (dat0 O B c A).arrAt_in 1 rfl _
theorem arrAt0_2 : (dat0 O B c A).arrAt 2 cfg1.N = A 2 := (dat0 O B c A).arrAt_in 2 rfl _

/-- Result 0 after the region: the features scaled, block by block. -/
theorem arrAt0_3 : (dat0 O B c A).arrAt 3 cfg1.N = Region.scale0 (F := F) (A 0) (A 2) := by
  refine (dat0 O B c A).arrAt_eq_of_cover 3 (Region.scale0 (F := F) (A 0) (A 2)) (fun t _ => ?_) (fun i => ?_)
  · show k1_pay2 (F := F) (iblk0 c A 2 t) (iblk0 c A 0 t) = _
    rw [read_blk1_3]
    unfold Region.scale0
    rw [Region.rowBlk_blockwise]
    unfold iblk0
    rw [read_blk1_2, read_blk1_0]
  · have hi0 : (i 0).val < 10000 := (i 0).isLt
    have hq : (i 0).val / 1000 < cfg1.N := by
      have h2 : cfg1.N = 10 := N_1
      omega
    refine ⟨⟨(i 0).val / 1000, hq⟩, flush1_3 _, ?_⟩
    have he : ((cfg1.win 3).blk ⟨(i 0).val / 1000, hq⟩).view.emb (Region.inBlk (N := 10000) (C := 128) 1000 (by decide) i) = i := by
      funext a
      apply Fin.ext
      show (((cfg1.win 3).rect ⟨(i 0).val / 1000, hq⟩).emb (Region.inBlk (N := 10000) (C := 128) 1000 (by decide) i) a : ℕ) = (i a : ℕ)
      rw [Window.rect_emb_val, idx1_3]
      match a with
      | ⟨0, _⟩ => show (i 0).val / 1000 * 1000 + (i 0).val % 1000 = (i 0).val; omega
      | ⟨1, _⟩ => show 0 * 128 + (i 1).val = (i 1).val; omega
    have hm := View.emb_mem_set (v := ((cfg1.win 3).blk ⟨(i 0).val / 1000, hq⟩).view) (Region.inBlk (N := 10000) (C := 128) 1000 (by decide) i)
    rwa [he] at hm

/-- Result 1 after the region: the state scaled, block by block. -/
theorem arrAt0_4 : (dat0 O B c A).arrAt 4 cfg1.N = Region.scale1 (F := F) (A 1) (A 2) := by
  refine (dat0 O B c A).arrAt_eq_of_cover 4 (Region.scale1 (F := F) (A 1) (A 2)) (fun t _ => ?_) (fun i => ?_)
  · show k1_pay3 (F := F) (iblk0 c A 2 t) (iblk0 c A 1 t) = _
    rw [read_blk1_4]
    unfold Region.scale1
    rw [Region.rowBlk_blockwise]
    unfold iblk0
    rw [read_blk1_2, read_blk1_1]
  · have hi0 : (i 0).val < 10000 := (i 0).isLt
    have hq : (i 0).val / 1000 < cfg1.N := by
      have h2 : cfg1.N = 10 := N_1
      omega
    refine ⟨⟨(i 0).val / 1000, hq⟩, flush1_4 _, ?_⟩
    have he : ((cfg1.win 4).blk ⟨(i 0).val / 1000, hq⟩).view.emb (Region.inBlk (N := 10000) (C := 64) 1000 (by decide) i) = i := by
      funext a
      apply Fin.ext
      show (((cfg1.win 4).rect ⟨(i 0).val / 1000, hq⟩).emb (Region.inBlk (N := 10000) (C := 64) 1000 (by decide) i) a : ℕ) = (i a : ℕ)
      rw [Window.rect_emb_val, idx1_4]
      match a with
      | ⟨0, _⟩ => show (i 0).val / 1000 * 1000 + (i 0).val % 1000 = (i 0).val; omega
      | ⟨1, _⟩ => show 0 * 64 + (i 1).val = (i 1).val; omega
    have hm := View.emb_mem_set (v := ((cfg1.win 4).blk ⟨(i 0).val / 1000, hq⟩).view) (Region.inBlk (N := 10000) (C := 64) 1000 (by decide) i)
    rwa [he] at hm

end Values

end Cert.Proof.KI.Region

end
-- ==== Proof.KI.RegionAdapt0.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KI.Main
import proofs.«207992_g50208167690906_cont_8to1c4_731_36_alg».proof.Proof.KI.Region0
import proofs.«207992_g50208167690906_cont_8to1c4_731_36_alg».proof.Proof.KI.Region0Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The scaling region -/

/-- The scaling region's five arrays, read off a valuation window by window. -/
def arr0 (W : Valuation τ sig (Elt F)) (c : Dev nD) : Region.Arr0 (F := F) c := fun w => W (dr (Pipeline.arrRef spec1 w))

omit [FloatOps F] in
theorem heldArr0 (d : Dev nD) (W : Valuation τ sig (Elt F)) :
    (held (T d) R0 W : sProp 𝕄) = Region.arrs0 d (arr0 W d) := by
  unfold held R0 Region.arrs0
  rw [Gen.bigSep_W1, SparseCore.bigSep_insert' (by decide), SparseCore.bigSep_insert' (by decide), SparseCore.bigSep_insert' (by decide),
    SparseCore.bigSep_insert' (by decide), bigSep_singleton]
  rfl

theorem scaleOut_other (W : Valuation τ sig (Elt F)) (b : DevRef τ sig) (h0 : b ≠ dr main_v13_0) (h1 : b ≠ dr main_v13_1) :
    scaleOut W b = W b := by
  unfold scaleOut
  rw [Function.update_of_ne h1, Function.update_of_ne h0]
theorem scaleOut_at0 (W : Valuation τ sig (Elt F)) :
    scaleOut W (dr main_v13_0) = Region.scale0 (W (dr main_arg0)) (W (dr main_v12)) := by
  unfold scaleOut
  rw [Function.update_of_ne (show dr main_v13_0 ≠ dr main_v13_1 by decide), Function.update_self]
theorem scaleOut_at1 (W : Valuation τ sig (Elt F)) :
    scaleOut W (dr main_v13_1) = Region.scale1 (W (dr main_v5)) (W (dr main_v12)) := by
  unfold scaleOut
  rw [Function.update_self]

/-- What the region leaves in its arrays is the rewritten valuation, window by window. -/
theorem arrAt0_scaleOut (O : CellTallies nD τ sig (HIx 2)) (B : Set (SemLoc sig × HIx 2)) (d : Dev nD) (W : Valuation τ sig (Elt F)) :
    (fun w => (Region.dat0 O B d (arr0 W d)).arrAt w cfg1.N) = arr0 (scaleOut W) d := by
  funext w
  match w with
  | ⟨0, _⟩ => exact (Region.arrAt0_0 O B d (arr0 W d)).trans (scaleOut_other W (dr main_arg0) (by decide) (by decide)).symm
  | ⟨1, _⟩ => exact (Region.arrAt0_1 O B d (arr0 W d)).trans (scaleOut_other W (dr main_v5) (by decide) (by decide)).symm
  | ⟨2, _⟩ => exact (Region.arrAt0_2 O B d (arr0 W d)).trans (scaleOut_other W (dr main_v12) (by decide) (by decide)).symm
  | ⟨3, _⟩ => exact (Region.arrAt0_3 O B d (arr0 W d)).trans (scaleOut_at0 W).symm
  | ⟨4, _⟩ => exact (Region.arrAt0_4 O B d (arr0 W d)).trans (scaleOut_at1 W).symm

/-- The scaling region, as @main's proof takes it. -/
theorem regionSpec0 : RegionSpec P 0 R0 scaleOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_0_tc (F := F) (K (F := F)).lev (SparseCore.Cfg.refines_self _) n (arr0 W) d Φ)
  isplitr; · iexact Hl
  isplitl [Hb]; · iexact Hb
  isplitl [Hg]; · iexact Hg
  isplitl [Ho]; · iexact Ho
  isplitl [Hheld]
  · rw [← heldArr0]; iexact Hheld
  iintro ⟨Hb, Ho, Ha⟩
  iapply Hk
  isplitl [Hb]; · iexact Hb
  isplitl [Ho]; · iexact Ho
  rw [heldArr0, ← arrAt0_scaleOut]
  iexact Ha

end Cert.Proof.KI

end
-- ==== Proof.KI.Region1.lean ====
import proofs.«207992_g50208167690906_cont_8to1c4_731_36_alg».proof.Proof.KI.Base
import proofs.«207992_g50208167690906_cont_8to1c4_731_36_alg».proof.Proof.KI.RegionCommon
import proofs.«207992_g50208167690906_cont_8to1c4_731_36_alg».proof.Proof.Gen.KernelIdeal.Points
import Idealize.ShloMosaic.Lib.Pipeline.Regions

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## Region 1: the gridless pack -/

/-- The whole-block rectangle of the pack body's loads and store. -/
abbrev R2 : Rect S2500x128 := Rect.unit (s := S2500x128) ![0, 0] S2500x128.size inb_S2500x128_S2500x128_0_0

/-- The pack body on its three staging buffers held whole: the inputs come back as they were, the result's
    buffer holds the payload over the inputs' contents. -/
theorem kernelRun1 (c : Dev nD) (f0 : Bw (F := F) c cc2_stg0_0) (f1 : Bw (F := F) c cc2_stg1_0) (f2 : Bw (F := F) c cc2_stg2_0)
    (E : Set ℕ) (Q : PUnit → sProp 𝕄) :
    iprop((((c : Thread nD τ).loc cc2_stg0_0) ↦{fullShare} f0) ∗ (((c : Thread nD τ).loc cc2_stg1_0) ↦{fullShare} f1)
        ∗ (((c : Thread nD τ).loc cc2_stg2_0) ↦{fullShare} f2)
        ∗ (iprop((((c : Thread nD τ).loc cc2_stg0_0) ↦{fullShare} f0) ∗ (((c : Thread nD τ).loc cc2_stg1_0) ↦{fullShare} f1)
            ∗ (((c : Thread nD τ).loc cc2_stg2_0) ↦{fullShare} (k2_pay1 (F := F) f0 f1 : Bw (F := F) c cc2_stg2_0))) -∗ Q ⟨⟩))
      ⊢ wp frame (wpE (defs₀ (F := F)) 𝒱₀ (c : Thread nD τ) none) E
          (cc2__pack_body (Memref.whole cc2_stg0_0) (hstage2_0 0) (Memref.whole cc2_stg1_0) (hstage2_1 0) (Memref.whole cc2_stg2_0) (hstage2_2 0)) Q := by
  have e0 : (Memref.whole cc2_stg0_0 : Memref sig .tc _ _ _).view.readAt (Elt F) R2.toLoadRect f0 = f0 :=
    readAt_unit_zero cc2_stg0_0 zeros2 inb_S2500x128_S2500x128_0_0 f0
  have e1 : (Memref.whole cc2_stg1_0 : Memref sig .tc _ _ _).view.readAt (Elt F) R2.toLoadRect f1 = f1 :=
    readAt_unit_zero cc2_stg1_0 zeros2 inb_S2500x128_S2500x128_0_0 f1
  have e2 : ((Memref.whole cc2_stg2_0 : Memref sig .tc _ _ _).access R2).write (Elt F) f2 (k2_pay1 (F := F) f0 f1) Finset.univ
      = (k2_pay1 (F := F) f0 f1 : Bw (F := F) c cc2_stg2_0) :=
    write_unit_zero cc2_stg2_0 zeros2 inb_S2500x128_S2500x128_0_0 f2 (k2_pay1 (F := F) f0 f1)
  rw [cc2__pack_body_eq_skeleton]; unfold cc2__pack_body_skel
  iintro ⟨H0, H1, H2, Hk⟩
  iapply (wp_load 𝒱₀ (c : Thread nD τ) none E (m := Memref.whole cc2_stg0_0) (r := R2.toLoadRect) (S := Finset.univ) (Finset.subset_univ _)) $$ H0
  iintro H0
  iapply (wp_load 𝒱₀ (c : Thread nD τ) none E (m := Memref.whole cc2_stg1_0) (r := R2.toLoadRect) (S := Finset.univ) (Finset.subset_univ _)) $$ H1
  iintro H1
  iapply (wp_load 𝒱₀ (c : Thread nD τ) none E (m := Memref.whole cc2_stg2_0) (r := R2.toLoadRect) (S := Finset.univ) (Finset.subset_univ _)) $$ H2
  iintro H2
  iapply (wp_store 𝒱₀ (c : Thread nD τ) none E (m := Memref.whole cc2_stg2_0) (r := R2) (S := Finset.univ) (Finset.subset_univ _)) $$ H2
  iintro H2
  rw [show ((Prog.ret PUnit.unit).bind fun __r => Pure.pure PUnit.unit) = (Prog.ret PUnit.unit : Prog (TpuEff nD τ sig (Elt F) Λ₀ .tc) PUnit) from rfl, wp_ret]
  rw [e0, e1, e2]
  imodintro
  iapply Hk
  isplitl [H0]; · iexact H0
  isplitl [H1]; · iexact H1
  iexact H2

/-- The pack body over its staging buffers as the pipeline hands them: owned whole at contents `X0`, `X1`, `X2`. -/
theorem sound_body1 (c : Dev nD) (X0 X1 X2 : S2500x128.Idx → Elt F .i32) (E : Set ℕ) (Q : PUnit → sProp 𝕄) :
    iprop(owns (c : Thread nD τ) (Memref.whole cc2_stg0_0) fullShare X0 ∗ owns (c : Thread nD τ) (Memref.whole cc2_stg1_0) fullShare X1
        ∗ owns (c : Thread nD τ) (Memref.whole cc2_stg2_0) fullShare X2
        ∗ (iprop(owns (c : Thread nD τ) (Memref.whole cc2_stg0_0) fullShare X0 ∗ owns (c : Thread nD τ) (Memref.whole cc2_stg1_0) fullShare X1
            ∗ owns (c : Thread nD τ) (Memref.whole cc2_stg2_0) fullShare (k2_pay1 (F := F) X0 X1)) -∗ Q ⟨⟩))
      ⊢ wp frame (wpE (defs₀ (F := F)) 𝒱₀ (c : Thread nD τ) none) E
          (cc2__pack_body (Memref.whole cc2_stg0_0) (hstage2_0 0) (Memref.whole cc2_stg1_0) (hstage2_1 0) (Memref.whole cc2_stg2_0) (hstage2_2 0)) Q := by
  simp only [owns_whole_eq]
  iintro ⟨⟨%f0, %hf0, H0⟩, ⟨%f1, %hf1, H1⟩, ⟨%f2, %hf2, H2⟩, Hk⟩
  subst hf0 hf1
  iapply (kernelRun1 c f0 f1 f2 E Q)
  isplitl [H0]; · iexact H0
  isplitl [H1]; · iexact H1
  isplitl [H2]; · iexact H2
  iintro ⟨H0, H1, H2⟩
  iapply Hk
  isplitl [H0]; · iexists f0; isplitr; · ipureintro; rfl
                  iexact H0
  isplitl [H1]; · iexists f1; isplitr; · ipureintro; rfl
                  iexact H1
  iexists _; isplitr; swap; (· iexact H2); ipureintro; rfl

/-- The arrays of pipeline 1's windows on core `c`: the two index arrays and the packed result. -/
abbrev Arr1 (c : Dev nD) : Type := (w : Fin cfg2.W) → Buf (Elt F) ((cfg2.win w).arr.view.loc (c.tc : Thread nD τ))

/-- The windows' arrays held whole at contents `X`. -/
abbrev arrs1 (c : Dev nD) (X : Arr1 (F := F) c) : sProp 𝕄 :=
  bigSep Finset.univ fun w : Fin cfg2.W => (((c.tc : Thread nD τ).loc (Pipeline.arrRef spec2 w)) ↦{fullShare} X w : sProp 𝕄)

section Data

variable (O : CellTallies nD τ sig (HIx 2)) (B : Set (SemLoc sig × HIx 2))

/-- The proof data of the pack region on core `c`, entered with the arrays at `A`, the core owing `O` throughout with its
    recorded pairs within `B`: each input's buffer holds its block after the body as before it, the result's the
    payload over the two; the invariant is the scoped buffers no window stages. -/
def dat1 (c : Dev nD) (A : Arr1 (F := F) c) : Dat τ (Elt F) (HIx 2) ℕ UU ℕ cfg2 c where
  A := A
  after w t := match w with
    | ⟨0, _⟩ => ((cfg2.win 0).blk t).view.read (Elt F) (A 0)
    | ⟨1, _⟩ => ((cfg2.win 1).blk t).view.read (Elt F) (A 1)
    | ⟨2, _⟩ => k2_pay1 (F := F) (((cfg2.win 0).blk t).view.read (Elt F) (A 0)) (((cfg2.win 1).blk t).view.read (Elt F) (A 1))
  Φ _ := Pipeline.scopedRest (Ix := HIx 2) (Name := ℕ) (U := UU) (Lvl := ℕ) (Val := Elt F) spec2 c
  q _ := fullShare
  owed _ := O
  recorded _ := B

/-- The family the region rule takes: the pack region's data at pipeline 1. -/
def pdats1 (A : (c : Dev nD) → Arr1 (F := F) c) :
    (p : Fin 3) → (c : Dev nD) → Dat τ (Elt F) (HIx 2) ℕ UU ℕ (Pipeline.pin (pcfgs (F := F)) adm p) c
  | ⟨0, _⟩ => fun c => datNone _ c
  | ⟨1, _⟩ => fun c => dat1 O B c (A c)
  | ⟨2, _⟩ => fun c => datNone _ c

/-- A fetched input's buffer holds the array's block. -/
theorem before_in0 (c : Dev nD) (A : Arr1 (F := F) c) (d : (cfg2.win 0).block.Idx → Elt F (cfg2.win 0).elt) :
    (dat1 O B c A).before 0 t2_0 d = ((cfg2.win 0).blk t2_0).view.read (Elt F) (A 0) := by
  unfold Dat.before; rw [if_pos (fetch2_0 t2_0)]; rfl

theorem before_in1 (c : Dev nD) (A : Arr1 (F := F) c) (d : (cfg2.win 1).block.Idx → Elt F (cfg2.win 1).elt) :
    (dat1 O B c A).before 1 t2_0 d = ((cfg2.win 1).blk t2_0).view.read (Elt F) (A 1) := by
  unfold Dat.before; rw [if_pos (fetch2_1 t2_0)]; rfl

/-- The body obligation: the three staging buffers taken apart, the body's run, its post reassembled. -/
theorem body_obligation1 (c : Dev nD) (A : Arr1 (F := F) c) : BodyObligation (dat1 O B c A) (defs₀ (F := F)) 𝒱₀ none Set.univ := fun t => by
  obtain rfl := fin_N2 t
  rw [bigSep_W2, bigSep_W2]
  simp only
  rw [show (dat1 O B c A).Φ t2_0.succ = (dat1 O B c A).Φ t2_0.castSucc from rfl,
    show (dat1 O B c A).owesAt none t2_0.succ = (dat1 O B c A).owesAt none t2_0.castSucc from rfl]
  iintro ⟨HΦ, HO, ⟨%d0, H0⟩, ⟨%d1, H1⟩, ⟨%d2, H2⟩⟩
  rw [before_in0 O B c A d0, before_in1 O B c A d1]
  iapply (sound_body1 c (((cfg2.win 0).blk t2_0).view.read (Elt F) (A 0)) (((cfg2.win 1).blk t2_0).view.read (Elt F) (A 1))
    ((dat1 O B c A).before 2 t2_0 d2) Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

end Data

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B1 : Set (SemLoc sig × HIx 2) := B ∪ cfg2.waitPairs none

include hO hlv in
set_option backward.isDefEq.respectTransparency.types false in
/-- The pack region as the region rule takes it: entered from its three arrays held whole and what the core owes,
    left with the arrays at their final contents and the same owed. No semaphore of its own; nothing enters the
    invariant but the scoped buffers no window stages. -/
def reg1 (A : (c : Dev nD) → Arr1 (F := F) c) :
    Pipeline.RegionSeg (pcfgs (F := F)) adm (pdats1 O B A) none defs₀ 𝒱₀ (K (F := F)).L lv 1 where
  win := launch2.win.to₀
  block_pos := launch2.block_pos
  stage_whole := launch2.stage_whole
  K := PEmpty
  osem := fun k => k.elim
  ho := Pipeline.OwnSemFacts.none _
  hbody c := (body_obligation1 O B c (A c)).loose
  hwaits c := Pipeline.cellsWaits_intro (Pipeline.pin (pcfgs (F := F)) adm) (pdats1 O B A) none 1 c (R := levAts (K (F := F)).L lv)
    fun w s t => (K (F := F)).mayWait_none (SemLoc.dma _) hO lv hlv
  pre c := iprop(arrs1 c (A c) ∗ Pipeline.owesWithin c O B)
  post c := iprop(arrs1 c (fun w => (dat1 O B c (A c)).arrAt w cfg2.N) ∗ Pipeline.owesWithin c O (B1 B))
  X _ := iprop(emp)
  Y _ := iprop(emp)
  Z _ := iprop(emp)
  hentry c := by
    rw [Pipeline.arrays_eq (Pipeline.pin (pcfgs (F := F)) adm) (pdats1 O B A) 1 c launch2.arr_whole
      ((dat1 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec2 c)
      ⊢ Pipeline.scopedRest (Ix := HIx 2) (Name := ℕ) (U := UU) (Lvl := ℕ) (Val := Elt F) spec2 c
    exact sep_elim_right.trans sep_elim_right
  hout c := by
    show Pipeline.scopedRest (Ix := HIx 2) (Name := ℕ) (U := UU) (Lvl := ℕ) (Val := Elt F) spec2 c
      ⊢ iprop(iprop(emp) ∗ Pipeline.ownSems0 (fun k : PEmpty => k.elim) c ∗ Pipeline.scopedRest (Ix := HIx 2) (Name := ℕ) (U := UU) (Lvl := ℕ) (Val := Elt F) spec2 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats1 O B A) 1 c launch2.arr_whole
      ((dat1 O B c (A c)).share_full fun _ => rfl)]
    iintro ⟨Ha, HO, -, -⟩
    imodintro
    isplitl [Ha]; · iexact Ha
    iexact HO

include hO hlv in
set_option backward.isDefEq.respectTransparency.types false in
/-- **Region 1.** On TensorCore `d`, inside @main's proof: from the level facts, the region boundary, pipeline 1's
    staging-cell ghost state, what the core owes (any tallies with nothing at index `none`; its recorded pairs within
    `B`) and the three arrays held whole at `A d`, the call of pipeline 1's region runs to the boundary, the same owed
    (the recorded pairs now within `B1 B`) and the arrays at the contents the pipeline library computes. -/
theorem region_1 (A : (c : Dev nD) → Arr1 (F := F) c) (d : Dev nD) (Φ : PUnit → sProp 𝕄) :
    iprop(levAts (K (F := F)).L lv ∗ boundary (T d) ∗ ghostAt (F := F) 1 d ∗ Pipeline.owesWithin d O B ∗ arrs1 d (A d)
        ∗ (iprop(boundary (T d) ∗ Pipeline.owesWithin d O (B1 B) ∗ arrs1 d (fun w => (dat1 O B d (A d)).arrAt w cfg2.N)) -∗ Φ ⟨⟩))
      ⊢ wp frame (wpE ((K (F := F)).defs D) 𝒱 (T d) none) Set.univ
          (Prog.lift (.customCall (SparseCore.inner (Pipeline.entry 1)) ())) Φ := by
  iintro ⟨#Hl, Hb, ⟨Hg, Ht⟩, HO, Ha, Hk⟩
  iapply ((K (F := F)).wp_liftProg D 𝒱 (T d) Set.univ none (Prog.lift (.customCall (Pipeline.entry 1) ())) Φ)
  iapply (Pipeline.RegionSeg.wp (pcfgs (F := F)) adm (pdats1 O B A) none cellOf_inj EP defs₀ 𝒱₀ (K (F := F)).L lv
    (reg1 O B hO lv hlv A) d none (fun _ h => nomatch h) (fun u => Prog.ret u) Φ)
  isplitl [Hk]
  · iintro ⟨Hb, Hpost⟩
    ihave Hpost' := (show (reg1 O B hO lv hlv A).post d
        ⊢ iprop(arrs1 d (fun w => (dat1 O B d (A d)).arrAt w cfg2.N) ∗ Pipeline.owesWithin d O (B1 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs1 d (A d) ∗ Pipeline.owesWithin d O B) ⊢ (reg1 O B hO lv hlv A).pre d from .rfl)
    isplitl [Ha]; · iexact Ha
    iexact HO
  isplitr; · iexact Hl
  isplitl [Hg]; · iexact Hg
  iexact Ht

end Region

/-! ## The TensorCore's own state around a region -/

section Wrapper

variable (lv : GSem nD τ sig → HIx 2 → ℕ) (hlv : (K (F := F)).Refines lv)

include hlv in
/-- **Region 1 in @main's proof**: the TensorCore's owed state before call `n` goes in and comes back unchanged. -/
theorem region_1_tc (n : ℕ) (A : (c : Dev nD) → Arr1 (F := F) c) (d : Dev nD) (Φ : PUnit → sProp 𝕄) :
    iprop(levAts (K (F := F)).L lv ∗ boundary (T d) ∗ ghostAt (F := F) 1 d ∗ owesTc (F := F) d n ∗ arrs1 d (A d)
        ∗ (iprop(boundary (T d) ∗ owesTc (F := F) d n
            ∗ arrs1 d (fun w => (dat1 ((K (F := F)).Otc d n) (Bn (F := F) d n) d (A d)).arrAt w cfg2.N)) -∗ Φ ⟨⟩))
      ⊢ wp frame (wpE ((K (F := F)).defs D) 𝒱 (T d) none) Set.univ
          (Prog.lift (.customCall (SparseCore.inner (Pipeline.entry 1)) ())) Φ := by
  iintro ⟨#Hl, Hb, Hg, HO, Ha, Hk⟩
  iapply (region_1 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg2 d n); iexact HO
  iexact Ha

end Wrapper

/-! ## What the arrays hold after the region -/

section Values

variable (O : CellTallies nD τ sig (HIx 2)) (B : Set (SemLoc sig × HIx 2))

/-- The two index arrays are not written. -/
theorem arrAt1_0 (c : Dev nD) (A : Arr1 (F := F) c) : (dat1 O B c A).arrAt 0 cfg2.N = A 0 := (dat1 O B c A).arrAt_in 0 rfl _
theorem arrAt1_1 (c : Dev nD) (A : Arr1 (F := F) c) : (dat1 O B c A).arrAt 1 cfg2.N = A 1 := (dat1 O B c A).arrAt_in 1 rfl _

end Values

section Values2

variable (O : CellTallies nD τ sig (HIx 2)) (B : Set (SemLoc sig × HIx 2))

/-- The one block of each window is its whole array: read through it, an array's contents are themselves, -/
theorem blk0_read (X : main_v17.ty.Contents (Elt F)) : ((cfg2.win 0).blk t2_0).view.read (Elt F) X = X := by
  have h : (fun a => (cfg2.win 0).index t2_0 a * (cfg2.win 0).size a) = fun _ => 0 := by funext a; fin_cases a <;> rfl
  exact read_unit_zero main_v17 h _ X

theorem blk1_read (X : main_v18.ty.Contents (Elt F)) : ((cfg2.win 1).blk t2_0).view.read (Elt F) X = X := by
  have h : (fun a => (cfg2.win 1).index t2_0 a * (cfg2.win 1).size a) = fun _ => 0 := by funext a; fin_cases a <;> rfl
  exact read_unit_zero main_v18 h _ X

/-- and a write of every element through it leaves what was written. -/
theorem blk2_write (f w : main_v19.ty.Contents (Elt F)) : ((cfg2.win 2).blk t2_0).view.write (Elt F) f w Finset.univ = w := by
  have h : (fun a => (cfg2.win 2).index t2_0 a * (cfg2.win 2).size a) = fun _ => 0 := by funext a; fin_cases a <;> rfl
  exact write_unit_zero main_v19 h _ f w

/-- The packed array after the region: the payload over the two index arrays. -/
theorem arrAt1_2 (c : Dev nD) (A : Arr1 (F := F) c) : (dat1 O B c A).arrAt 2 cfg2.N = k2_pay1 (F := F) (A 0) (A 1) := by
  rw [show cfg2.N = (t2_0 : Fin cfg2.N).val + 1 from N_2, Dat.arrAt_succ, if_pos (flush2_2 t2_0)]
  show ((cfg2.win 2).blk t2_0).view.write (Elt F) _
    (k2_pay1 (F := F) (((cfg2.win 0).blk t2_0).view.read (Elt F) (A 0)) (((cfg2.win 1).blk t2_0).view.read (Elt F) (A 1))) Finset.univ = _
  rw [blk0_read, blk1_read, blk2_write]

end Values2

end Cert.Proof.KI.Region

end
-- ==== Proof.KI.RegionAdapt1.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KI.Main
import proofs.«207992_g50208167690906_cont_8to1c4_731_36_alg».proof.Proof.KI.Region1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The packing region -/

/-- The packing region's three arrays, read off a valuation window by window. -/
def arr1 (W : Valuation τ sig (Elt F)) (c : Dev nD) : Region.Arr1 (F := F) c := fun w => W (dr (Pipeline.arrRef spec2 w))

omit [FloatOps F] in
/-- The region's arrays held at a valuation are the windows' arrays at what is read off it. -/
theorem heldArr1 (d : Dev nD) (W : Valuation τ sig (Elt F)) :
    (held (T d) R1 W : sProp 𝕄) = Region.arrs1 d (arr1 W d) := by
  unfold held R1 Region.arrs1
  rw [Gen.bigSep_W2, SparseCore.bigSep_insert' (by decide), SparseCore.bigSep_insert' (by decide), bigSep_singleton]
  rfl

/-- The rewritten valuation away from the result, and at it. -/
theorem packOut_other (W : Valuation τ sig (Elt F)) (b : DevRef τ sig) (h : b ≠ dr main_v19) : packOut W b = W b := by
  unfold packOut
  rw [Function.update_of_ne h]
theorem packOut_at (W : Valuation τ sig (Elt F)) :
    packOut W (dr main_v19) = Region.pack (F := F) (W (dr main_v17)) (W (dr main_v18)) := by
  unfold packOut
  rw [Function.update_self]

/-- What the region leaves in its arrays is the rewritten valuation, window by window. -/
theorem arrAt1_packOut (O : CellTallies nD τ sig (HIx 2)) (B : Set (SemLoc sig × HIx 2)) (d : Dev nD) (W : Valuation τ sig (Elt F)) :
    (fun w => (Region.dat1 O B d (arr1 W d)).arrAt w cfg2.N) = arr1 (packOut W) d := by
  funext w
  match w with
  | ⟨0, _⟩ => exact (Region.arrAt1_0 O B d (arr1 W d)).trans (packOut_other W (dr main_v17) (by decide)).symm
  | ⟨1, _⟩ => exact (Region.arrAt1_1 O B d (arr1 W d)).trans (packOut_other W (dr main_v18) (by decide)).symm
  | ⟨2, _⟩ => exact (Region.arrAt1_2 O B d (arr1 W d)).trans (packOut_at W).symm

/-- The packing region, as @main's proof takes it. -/
theorem regionSpec1 : RegionSpec P 1 R1 packOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_1_tc (F := F) (K (F := F)).lev (SparseCore.Cfg.refines_self _) n (arr1 W) d Φ)
  isplitr; · iexact Hl
  isplitl [Hb]; · iexact Hb
  isplitl [Hg]; · iexact Hg
  isplitl [Ho]; · iexact Ho
  isplitl [Hheld]
  · rw [← heldArr1]; iexact Hheld
  iintro ⟨Hb, Ho, Ha⟩
  iapply Hk
  isplitl [Hb]; · iexact Hb
  isplitl [Ho]; · iexact Ho
  rw [heldArr1, ← arrAt1_packOut]
  iexact Ha

end Cert.Proof.KI

end
-- ==== Proof.KI.RegionHeld.lean ====
/-
  A region's arrays, held as a set, are its windows' arrays one by one in window order, each at the valuation's
  contents of it.
-/
import proofs.«207992_g50208167690906_cont_8to1c4_731_36_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 2) (Elt F) ℕ UU ℕ

/-- The scaling region's five windows. -/
theorem held_R0 (d : Dev nD) (W : Valuation τ sig (Elt F)) :
    (held (T d) R0 W : sProp 𝕄)
      = bigSep Finset.univ fun w : Fin 5 => (((SparseCore.T d).loc (Pipeline.arrRef spec1 w)) ↦{fullShare} W (dr (Pipeline.arrRef spec1 w)) : sProp 𝕄) := by
  unfold held R0
  rw [Gen.bigSep_W1, SparseCore.bigSep_insert' (by decide), SparseCore.bigSep_insert' (by decide), SparseCore.bigSep_insert' (by decide),
    SparseCore.bigSep_insert' (by decide), bigSep_singleton]

/-- The packing region's three windows. -/
theorem held_R1 (d : Dev nD) (W : Valuation τ sig (Elt F)) :
    (held (T d) R1 W : sProp 𝕄)
      = bigSep Finset.univ fun w : Fin 3 => (((SparseCore.T d).loc (Pipeline.arrRef spec2 w)) ↦{fullShare} W (dr (Pipeline.arrRef spec2 w)) : sProp 𝕄) := by
  unfold held R1
  rw [Gen.bigSep_W2, SparseCore.bigSep_insert' (by decide), SparseCore.bigSep_insert' (by decide), bigSep_singleton]

set_option maxHeartbeats 3200000 in
/-- The dense region's seventeen windows. -/
theorem held_R2 (d : Dev nD) (W : Valuation τ sig (Elt F)) :
    (held (T d) R2 W : sProp 𝕄)
      = bigSep Finset.univ fun w : Fin 17 => (((SparseCore.T d).loc (Pipeline.arrRef spec4 w)) ↦{fullShare} W (dr (Pipeline.arrRef spec4 w)) : sProp 𝕄) := by
  unfold held R2
  rw [Gen.bigSep_W4, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

end Cert.Proof.KI

end
-- ==== Proof.KI.Region2Body.lean ====
/-
  The dense body's triple: on whole staging memrefs, the fourteen inputs' at read contents and the three outputs'
  at anything, the body runs to its continuation holding the inputs' as they were and each output's at what its
  one store leaves, the payload over the loaded blocks.
-/
import proofs.«207992_g50208167690906_cont_8to1c4_731_36_alg».proof.Proof.KI.Base
import proofs.«207992_g50208167690906_cont_8to1c4_731_36_alg».proof.Proof.Gen.KernelIdeal.Points
import Idealize.ShloMosaic.Lib.Pipeline.FrameBody
import Idealize.ShloMosaic.Lib.Pipeline.Regions
import Idealize.ShloMosaic.Lib.Writes

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body's accesses -/

abbrev rA : Rect S1000x128 := Rect.unit (s := S1000x128) ![0, 0] S1000x128.size inb_S1000x128_S1000x128_0_0
abbrev rB : Rect S1000x64 := Rect.unit (s := S1000x64) ![0, 0] S1000x64.size inb_S1000x64_S1000x64_0_0
abbrev rC : Rect S1000x1 := Rect.unit (s := S1000x1) ![0, 0] S1000x1.size inb_S1000x1_S1000x1_0_0
abbrev rD : Rect S128x256 := Rect.unit (s := S128x256) ![0, 0] S128x256.size inb_S128x256_S128x256_0_0
abbrev rE : Rect S64x256 := Rect.unit (s := S64x256) ![0, 0] S64x256.size inb_S64x256_S64x256_0_0
abbrev rF : Rect S1x256 := Rect.unit (s := S1x256) ![0, 0] S1x256.size inb_S1x256_S1x256_0_0
abbrev rG0 : Rect S3x64 := Rect.unit (s := S3x64) ![0, 0] S1x64.size inb_S3x64_S1x64_0_0
abbrev rG1 : Rect S3x64 := Rect.unit (s := S3x64) ![1, 0] S1x64.size inb_S3x64_S1x64_1_0
abbrev rG2 : Rect S3x64 := Rect.unit (s := S3x64) ![2, 0] S1x64.size inb_S3x64_S1x64_2_0
abbrev rH : Rect S64x10 := Rect.unit (s := S64x10) ![0, 0] S64x10.size inb_S64x10_S64x10_0_0
abbrev rI : Rect S1x10 := Rect.unit (s := S1x10) ![0, 0] S1x10.size inb_S1x10_S1x10_0_0
abbrev rJ : Rect S1000x10 := Rect.unit (s := S1000x10) ![0, 0] S1000x10.size inb_S1000x10_S1000x10_0_0

/-! ## What the body leaves in each output window's buffer -/

section Outs
variable (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32)

/-- The new cell state of the block, from the twelve input blocks the gates read. -/
def cell4 : FVec F S1000x64 .f32 :=
  k4_pay13 (View.ld x1 rA) (k4_pay7 (View.ld x2 rB)) (k4_pay8 (View.ld x3 rB))
    (k4_pay9 (View.ld x6 rC) (View.ld x1 rA) (View.ld x4 rA)) (k4_pay10 (View.ld x6 rC) (View.ld x2 rB) (View.ld x5 rB))
    (k4_pay11 (View.ld x7 rD)) (constant S1000x256 .f32 0x00000000#32) (View.ld x8 rD) (View.ld x9 rE) (View.ld x10 rE)
    (View.ld x11 rF) (View.ld x12 rG0) (View.ld x12 rG1)

/-- The new hidden state of the block before it is rectified. -/
def hid4 : FVec F S1000x64 .f32 :=
  k4_pay14 (View.ld x1 rA) (k4_pay7 (View.ld x2 rB)) (k4_pay8 (View.ld x3 rB))
    (k4_pay9 (View.ld x6 rC) (View.ld x1 rA) (View.ld x4 rA)) (k4_pay10 (View.ld x6 rC) (View.ld x2 rB) (View.ld x5 rB))
    (k4_pay11 (View.ld x7 rD)) (constant S1000x256 .f32 0x00000000#32) (View.ld x8 rD) (View.ld x9 rE) (View.ld x10 rE)
    (View.ld x11 rF) (View.ld x12 rG0) (View.ld x12 rG1) (View.ld x12 rG2)

/-- Window 14's staging buffer after the body: its one store. -/
def out4_14 : Vec F S1000x10 .f32 :=
  View.canon [⟨rJ, k4_pay2 (hid4 x1 x2 x3 x4 x5 x6 x7 x8 x9 x10 x11 x12) (Scalar.ofBits .f32 0x00000000#32) (View.ld x13 rH) (View.ld x14 rI)⟩]
/-- Window 15's. -/
def out4_15 : Vec F S1000x64 .f32 :=
  View.canon [⟨rB, k4_pay1 (hid4 x1 x2 x3 x4 x5 x6 x7 x8 x9 x10 x11 x12) (Scalar.ofBits .f32 0x00000000#32)⟩]
/-- Window 16's. -/
def out4_16 : Vec F S1000x64 .f32 :=
  View.canon [⟨rB, cell4 x1 x2 x3 x4 x5 x6 x7 x8 x9 x10 x11 x12⟩]

end Outs

/-- Each output's one store tiles its buffer, so covers it. -/
theorem cover4_14 (p : Vec F S1000x10 .f32) (y : S1000x10.Idx) :
    ∃ pc ∈ ([⟨rJ, p⟩] : List (View.Piece (Elt F) S1000x10 .f32)), y ∈ pc.1.set :=
  View.cover_of_tiled [⟨rJ, p⟩] S1000x10.size (by rfl) y
theorem cover4_B (p : Vec F S1000x64 .f32) (y : S1000x64.Idx) :
    ∃ pc ∈ ([⟨rB, p⟩] : List (View.Piece (Elt F) S1000x64 .f32)), y ∈ pc.1.set :=
  View.cover_of_tiled [⟨rB, p⟩] S1000x64.size (by rfl) y

/-! ## The body's triple -/

set_option maxHeartbeats 4000000 in
/-- The dense body on whole staging memrefs, the inputs' at read contents and the outputs' at anything, runs to the
    continuation holding the inputs' as they were and each output's at what its one store leaves. -/
theorem sound_kernel4 (c : Dev nD) (E : Set ℕ) (i : grid4.Coords) (arg1 : Memref sig .tc .vmem S1000x128 .f32) (harg1 : arg1.IsWhole) (arg2 : Memref sig .tc .vmem S1000x64 .f32) (harg2 : arg2.IsWhole) (arg3 : Memref sig .tc .vmem S1000x64 .f32) (harg3 : arg3.IsWhole) (arg4 : Memref sig .tc .vmem S1000x128 .f32) (harg4 : arg4.IsWhole) (arg5 : Memref sig .tc .vmem S1000x64 .f32) (harg5 : arg5.IsWhole) (arg6 : Memref sig .tc .vmem S1000x1 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S3x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S1000x10 .f32) (harg15 : arg15.IsWhole) (arg16 : Memref sig .tc .vmem S1000x64 .f32) (harg16 : arg16.IsWhole) (arg17 : Memref sig .tc .vmem S1000x64 .f32) (harg17 : arg17.IsWhole)
    (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ owns (c : Thread nD τ) arg15 fullShare (out4_14 x1 x2 x3 x4 x5 x6 x7 x8 x9 x10 x11 x12 x13 x14) ∗ owns (c : Thread nD τ) arg16 fullShare (out4_15 x1 x2 x3 x4 x5 x6 x7 x8 x9 x10 x11 x12) ∗ owns (c : Thread nD τ) arg17 fullShare (out4_16 x1 x2 x3 x4 x5 x6 x7 x8 x9 x10 x11 x12)) -∗ K ⟨⟩))
      ⊢ wp frame (wpE (defs₀ (F := F)) 𝒱₀ (c : Thread nD τ) none) E (cc4__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc4__dense_body_eq_skeleton]; unfold cc4__dense_body_skel
  rw [k4_part1_eq_skeleton, k4_part2_eq_skeleton]; unfold k4_part1_skel k4_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf1 hf2 hf3 hf4 hf5 hf6 hf7 hf8 hf9 hf10 hf11 hf12 hf13 hf14
  iapply (wp_load 𝒱₀ (c : Thread nD τ) none E (m := arg6) (r := rC.toLoadRect) (S := arg6.view.set) (View.setOn_subset_set _ _)) $$ H6
  iintro H6
  iapply (wp_load 𝒱₀ (c : Thread nD τ) none E (m := arg1) (r := rA.toLoadRect) (S := arg1.view.set) (View.setOn_subset_set _ _)) $$ H1
  iintro H1
  iapply (wp_load 𝒱₀ (c : Thread nD τ) none E (m := arg2) (r := rB.toLoadRect) (S := arg2.view.set) (View.setOn_subset_set _ _)) $$ H2
  iintro H2
  iapply (wp_load 𝒱₀ (c : Thread nD τ) none E (m := arg3) (r := rB.toLoadRect) (S := arg3.view.set) (View.setOn_subset_set _ _)) $$ H3
  iintro H3
  iapply (wp_load 𝒱₀ (c : Thread nD τ) none E (m := arg4) (r := rA.toLoadRect) (S := arg4.view.set) (View.setOn_subset_set _ _)) $$ H4
  iintro H4
  iapply (wp_load 𝒱₀ (c : Thread nD τ) none E (m := arg5) (r := rB.toLoadRect) (S := arg5.view.set) (View.setOn_subset_set _ _)) $$ H5
  iintro H5
  iapply (wp_load 𝒱₀ (c : Thread nD τ) none E (m := arg7) (r := rD.toLoadRect) (S := arg7.view.set) (View.setOn_subset_set _ _)) $$ H7
  iintro H7
  iapply (wp_load 𝒱₀ (c : Thread nD τ) none E (m := arg8) (r := rD.toLoadRect) (S := arg8.view.set) (View.setOn_subset_set _ _)) $$ H8
  iintro H8
  iapply (wp_load 𝒱₀ (c : Thread nD τ) none E (m := arg9) (r := rE.toLoadRect) (S := arg9.view.set) (View.setOn_subset_set _ _)) $$ H9
  iintro H9
  iapply (wp_load 𝒱₀ (c : Thread nD τ) none E (m := arg10) (r := rE.toLoadRect) (S := arg10.view.set) (View.setOn_subset_set _ _)) $$ H10
  iintro H10
  iapply (wp_load 𝒱₀ (c : Thread nD τ) none E (m := arg11) (r := rF.toLoadRect) (S := arg11.view.set) (View.setOn_subset_set _ _)) $$ H11
  iintro H11
  iapply (wp_load 𝒱₀ (c : Thread nD τ) none E (m := arg12) (r := rG0.toLoadRect) (S := arg12.view.set) (View.setOn_subset_set _ _)) $$ H12
  iintro H12
  iapply (wp_load 𝒱₀ (c : Thread nD τ) none E (m := arg12) (r := rG1.toLoadRect) (S := arg12.view.set) (View.setOn_subset_set _ _)) $$ H12
  iintro H12
  iapply (wp_load 𝒱₀ (c : Thread nD τ) none E (m := arg12) (r := rG2.toLoadRect) (S := arg12.view.set) (View.setOn_subset_set _ _)) $$ H12
  iintro H12
  iapply (wp_load 𝒱₀ (c : Thread nD τ) none E (m := arg13) (r := rH.toLoadRect) (S := arg13.view.set) (View.setOn_subset_set _ _)) $$ H13
  iintro H13
  iapply (wp_load 𝒱₀ (c : Thread nD τ) none E (m := arg14) (r := rI.toLoadRect) (S := arg14.view.set) (View.setOn_subset_set _ _)) $$ H14
  iintro H14
  iapply (wp_load 𝒱₀ (c : Thread nD τ) none E (m := arg15) (r := rJ.toLoadRect) (S := arg15.view.set) (View.setOn_subset_set _ _)) $$ H15
  iintro H15
  iapply (wp_store_writes₀ 𝒱₀ (c : Thread nD τ) none E (m := arg15) (r := rJ) (S := arg15.view.set) (View.set_slice_subset _ _)) $$ H15
  iintro H15
  iapply (wp_load 𝒱₀ (c : Thread nD τ) none E (m := arg16) (r := rB.toLoadRect) (S := arg16.view.set) (View.setOn_subset_set _ _)) $$ H16
  iintro H16
  iapply (wp_store_writes₀ 𝒱₀ (c : Thread nD τ) none E (m := arg16) (r := rB) (S := arg16.view.set) (View.set_slice_subset _ _)) $$ H16
  iintro H16
  iapply (wp_load 𝒱₀ (c : Thread nD τ) none E (m := arg17) (r := rB.toLoadRect) (S := arg17.view.set) (View.setOn_subset_set _ _)) $$ H17
  iintro H17
  iapply (wp_store_writes₀ 𝒱₀ (c : Thread nD τ) none E (m := arg17) (r := rB) (S := arg17.view.set) (View.set_slice_subset _ _)) $$ H17
  iintro H17
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover4_14 _)
  isplitl [H16]
  · iexists _; isplitr
    swap; · iexact H16
    ipureintro
    exact View.read_writes_eq_canon _ _ _ (cover4_B _)
  iexists _; isplitr
  swap; · iexact H17
  ipureintro
  exact View.read_writes_eq_canon _ _ _ (cover4_B _)

end Cert.Proof.KI.Region

end
-- ==== Proof.KI.Region2Frame.lean ====
/-
  The dense region's proof data and body obligation: after the body at a grid point each input's staging buffer
  holds its block of the input array as before it (fetched there or not), each result's what the body's one store
  leaves; the body's triple applies at every point.
-/
import proofs.«207992_g50208167690906_cont_8to1c4_731_36_alg».proof.Proof.KI.RegionCommon
import proofs.«207992_g50208167690906_cont_8to1c4_731_36_alg».proof.Proof.KI.Region2Body

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The pipeline's proof data -/

/-- The arrays of the dense region's windows on core `c`: the fourteen inputs and the three results. -/
abbrev Arr2 (c : Dev nD) : Type := (w : Fin cfg4.W) → Buf (Elt F) ((cfg4.win w).arr.view.loc (c.tc : Thread nD τ))

/-- Window `w`'s block at point `t`, read off its array as the region finds it. -/
def iblk4 (c : Dev nD) (A : Arr2 (F := F) c) (w : Fin cfg4.W) (t : Fin cfg4.N) :
    ((cfg4.win w).xblock (cfg4.grid.coords t)).Idx → Elt F (cfg4.win w).elt :=
  ((cfg4.win w).blk t).view.read (Elt F) (A w)

section Data

variable (O : CellTallies nD τ sig (HIx 2)) (B : Set (SemLoc sig × HIx 2))

/-- The proof data of the dense region on core `c`, entered with the arrays at `A`, the core owing `O` throughout with
    its recorded pairs within `B`: after the body at point `t` each input's buffer holds its block as before it, each
    result's what its one store leaves; the invariant is the scoped buffers no window stages. -/
def dat2 (c : Dev nD) (A : Arr2 (F := F) c) : Dat τ (Elt F) (HIx 2) ℕ UU ℕ cfg4 c where
  A := A
  after w t := match w with
    | ⟨0, _⟩ => iblk4 c A 0 t
    | ⟨1, _⟩ => iblk4 c A 1 t
    | ⟨2, _⟩ => iblk4 c A 2 t
    | ⟨3, _⟩ => iblk4 c A 3 t
    | ⟨4, _⟩ => iblk4 c A 4 t
    | ⟨5, _⟩ => iblk4 c A 5 t
    | ⟨6, _⟩ => iblk4 c A 6 t
    | ⟨7, _⟩ => iblk4 c A 7 t
    | ⟨8, _⟩ => iblk4 c A 8 t
    | ⟨9, _⟩ => iblk4 c A 9 t
    | ⟨10, _⟩ => iblk4 c A 10 t
    | ⟨11, _⟩ => iblk4 c A 11 t
    | ⟨12, _⟩ => iblk4 c A 12 t
    | ⟨13, _⟩ => iblk4 c A 13 t
    | ⟨14, _⟩ => out4_14 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t)
    | ⟨15, _⟩ => out4_15 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t)
    | ⟨16, _⟩ => out4_16 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t)
    | ⟨_ + 17, h⟩ => absurd h (Nat.not_lt.2 (Nat.le_add_left _ _))
  Φ _ := Pipeline.scopedRest (Ix := HIx 2) (Name := ℕ) (U := UU) (Lvl := ℕ) (Val := Elt F) spec4 c
  q _ := fullShare
  owed _ := O
  recorded _ := B

/-- The proof data's arrays are the region-entry contents. -/
theorem A_eq4 (c : Dev nD) (A : Arr2 (F := F) c) (w : Fin cfg4.W) : (dat2 O B c A).A w = A w := by
  dsimp only [dat2]

/-- What the body leaves, window by window. -/
theorem after4_0 (c : Dev nD) (A : Arr2 (F := F) c) (t : Fin cfg4.N) : (dat2 O B c A).after 0 t = iblk4 c A 0 t := by dsimp only [dat2]
theorem after4_1 (c : Dev nD) (A : Arr2 (F := F) c) (t : Fin cfg4.N) : (dat2 O B c A).after 1 t = iblk4 c A 1 t := by dsimp only [dat2]
theorem after4_2 (c : Dev nD) (A : Arr2 (F := F) c) (t : Fin cfg4.N) : (dat2 O B c A).after 2 t = iblk4 c A 2 t := by dsimp only [dat2]
theorem after4_3 (c : Dev nD) (A : Arr2 (F := F) c) (t : Fin cfg4.N) : (dat2 O B c A).after 3 t = iblk4 c A 3 t := by dsimp only [dat2]
theorem after4_4 (c : Dev nD) (A : Arr2 (F := F) c) (t : Fin cfg4.N) : (dat2 O B c A).after 4 t = iblk4 c A 4 t := by dsimp only [dat2]
theorem after4_5 (c : Dev nD) (A : Arr2 (F := F) c) (t : Fin cfg4.N) : (dat2 O B c A).after 5 t = iblk4 c A 5 t := by dsimp only [dat2]
theorem after4_6 (c : Dev nD) (A : Arr2 (F := F) c) (t : Fin cfg4.N) : (dat2 O B c A).after 6 t = iblk4 c A 6 t := by dsimp only [dat2]
theorem after4_7 (c : Dev nD) (A : Arr2 (F := F) c) (t : Fin cfg4.N) : (dat2 O B c A).after 7 t = iblk4 c A 7 t := by dsimp only [dat2]
theorem after4_8 (c : Dev nD) (A : Arr2 (F := F) c) (t : Fin cfg4.N) : (dat2 O B c A).after 8 t = iblk4 c A 8 t := by dsimp only [dat2]
theorem after4_9 (c : Dev nD) (A : Arr2 (F := F) c) (t : Fin cfg4.N) : (dat2 O B c A).after 9 t = iblk4 c A 9 t := by dsimp only [dat2]
theorem after4_10 (c : Dev nD) (A : Arr2 (F := F) c) (t : Fin cfg4.N) : (dat2 O B c A).after 10 t = iblk4 c A 10 t := by dsimp only [dat2]
theorem after4_11 (c : Dev nD) (A : Arr2 (F := F) c) (t : Fin cfg4.N) : (dat2 O B c A).after 11 t = iblk4 c A 11 t := by dsimp only [dat2]
theorem after4_12 (c : Dev nD) (A : Arr2 (F := F) c) (t : Fin cfg4.N) : (dat2 O B c A).after 12 t = iblk4 c A 12 t := by dsimp only [dat2]
theorem after4_13 (c : Dev nD) (A : Arr2 (F := F) c) (t : Fin cfg4.N) : (dat2 O B c A).after 13 t = iblk4 c A 13 t := by dsimp only [dat2]
theorem after4_14 (c : Dev nD) (A : Arr2 (F := F) c) (t : Fin cfg4.N) : (dat2 O B c A).after 14 t = out4_14 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t) := by dsimp only [dat2]
theorem after4_15 (c : Dev nD) (A : Arr2 (F := F) c) (t : Fin cfg4.N) : (dat2 O B c A).after 15 t = out4_15 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) := by dsimp only [dat2]
theorem after4_16 (c : Dev nD) (A : Arr2 (F := F) c) (t : Fin cfg4.N) : (dat2 O B c A).after 16 t = out4_16 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) := by dsimp only [dat2]

/-- Each input's current staging buffer holds its block at every point, fetched there or not: unfetched, the block
    index has not moved and the body left the block in place. -/
theorem before4_0 (c : Dev nD) (A : Arr2 (F := F) c) (t : Fin cfg4.N) (d) : (dat2 O B c A).before 0 t d = iblk4 c A 0 t :=
  ((dat2 O B c A).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (A : Arr2 (F := F) c) (t : Fin cfg4.N) (d) : (dat2 O B c A).before 1 t d = iblk4 c A 1 t :=
  ((dat2 O B c A).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (A : Arr2 (F := F) c) (t : Fin cfg4.N) (d) : (dat2 O B c A).before 2 t d = iblk4 c A 2 t :=
  ((dat2 O B c A).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (A : Arr2 (F := F) c) (t : Fin cfg4.N) (d) : (dat2 O B c A).before 3 t d = iblk4 c A 3 t :=
  ((dat2 O B c A).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (A : Arr2 (F := F) c) (t : Fin cfg4.N) (d) : (dat2 O B c A).before 4 t d = iblk4 c A 4 t :=
  ((dat2 O B c A).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (A : Arr2 (F := F) c) (t : Fin cfg4.N) (d) : (dat2 O B c A).before 5 t d = iblk4 c A 5 t :=
  ((dat2 O B c A).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (A : Arr2 (F := F) c) (t : Fin cfg4.N) (d) : (dat2 O B c A).before 6 t d = iblk4 c A 6 t :=
  ((dat2 O B c A).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (A : Arr2 (F := F) c) (t : Fin cfg4.N) (d) : (dat2 O B c A).before 7 t d = iblk4 c A 7 t :=
  ((dat2 O B c A).before_in_eq_fetched 7 rfl (fun _ => rfl) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (A : Arr2 (F := F) c) (t : Fin cfg4.N) (d) : (dat2 O B c A).before 8 t d = iblk4 c A 8 t :=
  ((dat2 O B c A).before_in_eq_fetched 8 rfl (fun _ => rfl) (fun _ _ _ => rfl) (fun t => by rw [after4_8]; unfold Dat.blockOf iblk4; rw [A_eq4]; try rfl) t d).trans
    (by unfold Dat.fetched Dat.blockOf iblk4; rw [A_eq4]; try rfl)
theorem before4_9 (c : Dev nD) (A : Arr2 (F := F) c) (t : Fin cfg4.N) (d) : (dat2 O B c A).before 9 t d = iblk4 c A 9 t :=
  ((dat2 O B c A).before_in_eq_fetched 9 rfl (fun _ => rfl) (fun _ _ _ => rfl) (fun t => by rw [after4_9]; unfold Dat.blockOf iblk4; rw [A_eq4]; try rfl) t d).trans
    (by unfold Dat.fetched Dat.blockOf iblk4; rw [A_eq4]; try rfl)
theorem before4_10 (c : Dev nD) (A : Arr2 (F := F) c) (t : Fin cfg4.N) (d) : (dat2 O B c A).before 10 t d = iblk4 c A 10 t :=
  ((dat2 O B c A).before_in_eq_fetched 10 rfl (fun _ => rfl) (fun _ _ _ => rfl) (fun t => by rw [after4_10]; unfold Dat.blockOf iblk4; rw [A_eq4]; try rfl) t d).trans
    (by unfold Dat.fetched Dat.blockOf iblk4; rw [A_eq4]; try rfl)
theorem before4_11 (c : Dev nD) (A : Arr2 (F := F) c) (t : Fin cfg4.N) (d) : (dat2 O B c A).before 11 t d = iblk4 c A 11 t :=
  ((dat2 O B c A).before_in_eq_fetched 11 rfl (fun _ => rfl) (fun _ _ _ => rfl) (fun t => by rw [after4_11]; unfold Dat.blockOf iblk4; rw [A_eq4]; try rfl) t d).trans
    (by unfold Dat.fetched Dat.blockOf iblk4; rw [A_eq4]; try rfl)
theorem before4_12 (c : Dev nD) (A : Arr2 (F := F) c) (t : Fin cfg4.N) (d) : (dat2 O B c A).before 12 t d = iblk4 c A 12 t :=
  ((dat2 O B c A).before_in_eq_fetched 12 rfl (fun _ => rfl) (fun _ _ _ => rfl) (fun t => by rw [after4_12]; unfold Dat.blockOf iblk4; rw [A_eq4]; try rfl) t d).trans
    (by unfold Dat.fetched Dat.blockOf iblk4; rw [A_eq4]; try rfl)
theorem before4_13 (c : Dev nD) (A : Arr2 (F := F) c) (t : Fin cfg4.N) (d) : (dat2 O B c A).before 13 t d = iblk4 c A 13 t :=
  ((dat2 O B c A).before_in_eq_fetched 13 rfl (fun _ => rfl) (fun _ _ _ => rfl) (fun t => by rw [after4_13]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (A : Arr2 (F := F) c) (t : Fin cfg4.N) : sProp 𝕄 :=
  iprop((dat2 O B c A).Φ t.castSucc ∗ (dat2 O B c A).owesAt none t.castSucc
    ∗ (∃ d, owns (c : Thread nD τ) (st4_0 t) fullShare ((dat2 O B c A).before 0 t d))
    ∗ (∃ d, owns (c : Thread nD τ) (st4_1 t) fullShare ((dat2 O B c A).before 1 t d))
    ∗ (∃ d, owns (c : Thread nD τ) (st4_2 t) fullShare ((dat2 O B c A).before 2 t d))
    ∗ (∃ d, owns (c : Thread nD τ) (st4_3 t) fullShare ((dat2 O B c A).before 3 t d))
    ∗ (∃ d, owns (c : Thread nD τ) (st4_4 t) fullShare ((dat2 O B c A).before 4 t d))
    ∗ (∃ d, owns (c : Thread nD τ) (st4_5 t) fullShare ((dat2 O B c A).before 5 t d))
    ∗ (∃ d, owns (c : Thread nD τ) (st4_6 t) fullShare ((dat2 O B c A).before 6 t d))
    ∗ (∃ d, owns (c : Thread nD τ) (st4_7 t) fullShare ((dat2 O B c A).before 7 t d))
    ∗ (∃ d, owns (c : Thread nD τ) (st4_8 t) fullShare ((dat2 O B c A).before 8 t d))
    ∗ (∃ d, owns (c : Thread nD τ) (st4_9 t) fullShare ((dat2 O B c A).before 9 t d))
    ∗ (∃ d, owns (c : Thread nD τ) (st4_10 t) fullShare ((dat2 O B c A).before 10 t d))
    ∗ (∃ d, owns (c : Thread nD τ) (st4_11 t) fullShare ((dat2 O B c A).before 11 t d))
    ∗ (∃ d, owns (c : Thread nD τ) (st4_12 t) fullShare ((dat2 O B c A).before 12 t d))
    ∗ (∃ d, owns (c : Thread nD τ) (st4_13 t) fullShare ((dat2 O B c A).before 13 t d))
    ∗ (∃ d, owns (c : Thread nD τ) (st4_14 t) fullShare ((dat2 O B c A).before 14 t d))
    ∗ (∃ d, owns (c : Thread nD τ) (st4_15 t) fullShare ((dat2 O B c A).before 15 t d))
    ∗ (∃ d, owns (c : Thread nD τ) (st4_16 t) fullShare ((dat2 O B c A).before 16 t d)))

/-- and what it returns. -/
def bodyPost4 (c : Dev nD) (A : Arr2 (F := F) c) (t : Fin cfg4.N) : sProp 𝕄 :=
  iprop((dat2 O B c A).Φ t.succ ∗ (dat2 O B c A).owesAt none t.succ
    ∗ owns (c : Thread nD τ) (st4_0 t) fullShare ((dat2 O B c A).after 0 t)
    ∗ owns (c : Thread nD τ) (st4_1 t) fullShare ((dat2 O B c A).after 1 t)
    ∗ owns (c : Thread nD τ) (st4_2 t) fullShare ((dat2 O B c A).after 2 t)
    ∗ owns (c : Thread nD τ) (st4_3 t) fullShare ((dat2 O B c A).after 3 t)
    ∗ owns (c : Thread nD τ) (st4_4 t) fullShare ((dat2 O B c A).after 4 t)
    ∗ owns (c : Thread nD τ) (st4_5 t) fullShare ((dat2 O B c A).after 5 t)
    ∗ owns (c : Thread nD τ) (st4_6 t) fullShare ((dat2 O B c A).after 6 t)
    ∗ owns (c : Thread nD τ) (st4_7 t) fullShare ((dat2 O B c A).after 7 t)
    ∗ owns (c : Thread nD τ) (st4_8 t) fullShare ((dat2 O B c A).after 8 t)
    ∗ owns (c : Thread nD τ) (st4_9 t) fullShare ((dat2 O B c A).after 9 t)
    ∗ owns (c : Thread nD τ) (st4_10 t) fullShare ((dat2 O B c A).after 10 t)
    ∗ owns (c : Thread nD τ) (st4_11 t) fullShare ((dat2 O B c A).after 11 t)
    ∗ owns (c : Thread nD τ) (st4_12 t) fullShare ((dat2 O B c A).after 12 t)
    ∗ owns (c : Thread nD τ) (st4_13 t) fullShare ((dat2 O B c A).after 13 t)
    ∗ owns (c : Thread nD τ) (st4_14 t) fullShare ((dat2 O B c A).after 14 t)
    ∗ owns (c : Thread nD τ) (st4_15 t) fullShare ((dat2 O B c A).after 15 t)
    ∗ owns (c : Thread nD τ) (st4_16 t) fullShare ((dat2 O B c A).after 16 t))

set_option maxHeartbeats 4000000 in
/-- The body at any point: the inputs' memrefs hold their blocks, so the body's triple applies; the invariant and the
    core's debts pass through unread. -/
theorem sound_body4 (c : Dev nD) (A : Arr2 (F := F) c) (t : Fin cfg4.N) :
    bodyPre4 O B c A t ⊢ wp frame (wpE (defs₀ (F := F)) 𝒱₀ (c : Thread nD τ) none) Set.univ (bodyAt4 t) (fun _ => bodyPost4 O B c A t) := by
  unfold bodyPre4 bodyPost4 bodyAt4
  simp only [before4_0, before4_1, before4_2, before4_3, before4_4, before4_5, before4_6, before4_7, before4_8, before4_9, before4_10, before4_11, before4_12, before4_13]
  rw [show (dat2 O B c A).Φ t.succ = (dat2 O B c A).Φ t.castSucc from rfl,
    show (dat2 O B c A).owesAt none t.succ = (dat2 O B c A).owesAt none t.castSucc from rfl,
    after4_0, after4_1, after4_2, after4_3, after4_4, after4_5, after4_6, after4_7, after4_8, after4_9, after4_10, after4_11, after4_12, after4_13, after4_14, after4_15, after4_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel4 c Set.univ _ _ _ _ _ _ _ _ _ _ _ _ _ _ _ _ _ _ _ _ _ _ _ _ _ _ _ _ _ _ _ _ _ _ _ (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation2 (c : Dev nD) (A : Arr2 (F := F) c) :
    BodyObligation (dat2 O B c A) (defs₀ (F := F)) 𝒱₀ none Set.univ := fun t => by
  rw [bigSep_W4, bigSep_W4]
  exact sound_body4 O B c A t

end Data

end Cert.Proof.KI.Region

end
-- ==== Proof.KI.Region2.lean ====
/-
  The dense region as one step of the main program's proof: from its seventeen arrays held whole and what the
  core owes, the region's call runs to the arrays at the contents the write-backs leave, the same owed.
-/
import proofs.«207992_g50208167690906_cont_8to1c4_731_36_alg».proof.Proof.KI.Region2Frame

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The windows' arrays held whole at contents `X`. -/
abbrev arrs2 (c : Dev nD) (X : Arr2 (F := F) c) : sProp 𝕄 :=
  bigSep Finset.univ fun w : Fin cfg4.W => (((c.tc : Thread nD τ).loc (Pipeline.arrRef spec4 w)) ↦{fullShare} X w : sProp 𝕄)

section Family

variable (O : CellTallies nD τ sig (HIx 2)) (B : Set (SemLoc sig × HIx 2))

/-- The family the region rule takes: the dense region's data at pipeline 2. -/
def pdats2 (A : (c : Dev nD) → Arr2 (F := F) c) :
    (p : Fin 3) → (c : Dev nD) → Dat τ (Elt F) (HIx 2) ℕ UU ℕ (Pipeline.pin (pcfgs (F := F)) adm p) c
  | ⟨0, _⟩ => fun c => datNone _ c
  | ⟨1, _⟩ => fun c => datNone _ c
  | ⟨2, _⟩ => fun c => dat2 O B c (A c)

end Family

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B2 : Set (SemLoc sig × HIx 2) := B ∪ cfg4.waitPairs none

include hO hlv in
set_option backward.isDefEq.respectTransparency.types false in
/-- The dense region as the region rule takes it: entered from its seventeen arrays held whole and what the core owes,
    left with the arrays at their final contents and the same owed. No semaphore of its own; nothing enters the
    invariant but the scoped buffers no window stages. -/
def reg2 (A : (c : Dev nD) → Arr2 (F := F) c) :
    Pipeline.RegionSeg (pcfgs (F := F)) adm (pdats2 O B A) none defs₀ 𝒱₀ (K (F := F)).L lv 2 where
  win := launch4.win.to₀
  block_pos := launch4.block_pos
  stage_whole := launch4.stage_whole
  K := PEmpty
  osem := fun k => k.elim
  ho := Pipeline.OwnSemFacts.none _
  hbody c := (body_obligation2 O B c (A c)).loose
  hwaits c := Pipeline.cellsWaits_intro (Pipeline.pin (pcfgs (F := F)) adm) (pdats2 O B A) none 2 c (R := levAts (K (F := F)).L lv)
    fun w s t => (K (F := F)).mayWait_none (SemLoc.dma _) hO lv hlv
  pre c := iprop(arrs2 c (A c) ∗ Pipeline.owesWithin c O B)
  post c := iprop(arrs2 c (fun w => (dat2 O B c (A c)).arrAt w cfg4.N) ∗ Pipeline.owesWithin c O (B2 B))
  X _ := iprop(emp)
  Y _ := iprop(emp)
  Z _ := iprop(emp)
  hentry c := by
    rw [Pipeline.arrays_eq (Pipeline.pin (pcfgs (F := F)) adm) (pdats2 O B A) 2 c launch4.arr_whole
      ((dat2 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec4 c)
      ⊢ Pipeline.scopedRest (Ix := HIx 2) (Name := ℕ) (U := UU) (Lvl := ℕ) (Val := Elt F) spec4 c
    exact sep_elim_right.trans sep_elim_right
  hout c := by
    show Pipeline.scopedRest (Ix := HIx 2) (Name := ℕ) (U := UU) (Lvl := ℕ) (Val := Elt F) spec4 c
      ⊢ iprop(iprop(emp) ∗ Pipeline.ownSems0 (fun k : PEmpty => k.elim) c ∗ Pipeline.scopedRest (Ix := HIx 2) (Name := ℕ) (U := UU) (Lvl := ℕ) (Val := Elt F) spec4 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats2 O B A) 2 c launch4.arr_whole
      ((dat2 O B c (A c)).share_full fun _ => rfl)]
    iintro ⟨Ha, HO, -, -⟩
    imodintro
    isplitl [Ha]; · iexact Ha
    iexact HO

include hO hlv in
set_option backward.isDefEq.respectTransparency.types false in
/-- **Region 2.** On TensorCore `d`, inside @main's proof: from the level facts, the region boundary, pipeline 2's
    staging-cell ghost state, what the core owes (any tallies with nothing at index `none`; its recorded pairs within
    `B`) and the seventeen arrays held whole at `A d`, the call of pipeline 2's region runs to the boundary, the same
    owed (the recorded pairs now within `B2 B`) and the arrays at the contents the pipeline library computes. -/
theorem region_2 (A : (c : Dev nD) → Arr2 (F := F) c) (d : Dev nD) (Φ : PUnit → sProp 𝕄) :
    iprop(levAts (K (F := F)).L lv ∗ boundary (T d) ∗ ghostAt (F := F) 2 d ∗ Pipeline.owesWithin d O B ∗ arrs2 d (A d)
        ∗ (iprop(boundary (T d) ∗ Pipeline.owesWithin d O (B2 B) ∗ arrs2 d (fun w => (dat2 O B d (A d)).arrAt w cfg4.N)) -∗ Φ ⟨⟩))
      ⊢ wp frame (wpE ((K (F := F)).defs D) 𝒱 (T d) none) Set.univ
          (Prog.lift (.customCall (SparseCore.inner (Pipeline.entry 2)) ())) Φ := by
  iintro ⟨#Hl, Hb, ⟨Hg, Ht⟩, HO, Ha, Hk⟩
  iapply ((K (F := F)).wp_liftProg D 𝒱 (T d) Set.univ none (Prog.lift (.customCall (Pipeline.entry 2) ())) Φ)
  iapply (Pipeline.RegionSeg.wp (pcfgs (F := F)) adm (pdats2 O B A) none cellOf_inj EP defs₀ 𝒱₀ (K (F := F)).L lv
    (reg2 O B hO lv hlv A) d none (fun _ h => nomatch h) (fun u => Prog.ret u) Φ)
  isplitl [Hk]
  · iintro ⟨Hb, Hpost⟩
    ihave Hpost' := (show (reg2 O B hO lv hlv A).post d
        ⊢ iprop(arrs2 d (fun w => (dat2 O B d (A d)).arrAt w cfg4.N) ∗ Pipeline.owesWithin d O (B2 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs2 d (A d) ∗ Pipeline.owesWithin d O B) ⊢ (reg2 O B hO lv hlv A).pre d from .rfl)
    isplitl [Ha]; · iexact Ha
    iexact HO
  isplitr; · iexact Hl
  isplitl [Hg]; · iexact Hg
  iexact Ht

end Region

section Wrapper

variable (lv : GSem nD τ sig → HIx 2 → ℕ) (hlv : (K (F := F)).Refines lv)

include hlv in
/-- **Region 2 in the main program's proof**: the TensorCore's owed state before call `n` goes in and comes back unchanged. -/
theorem region_2_tc (n : ℕ) (A : (c : Dev nD) → Arr2 (F := F) c) (d : Dev nD) (Φ : PUnit → sProp 𝕄) :
    iprop(levAts (K (F := F)).L lv ∗ boundary (T d) ∗ ghostAt (F := F) 2 d ∗ owesTc (F := F) d n ∗ arrs2 d (A d)
        ∗ (iprop(boundary (T d) ∗ owesTc (F := F) d n
            ∗ arrs2 d (fun w => (dat2 ((K (F := F)).Otc d n) (Bn (F := F) d n) d (A d)).arrAt w cfg4.N)) -∗ Φ ⟨⟩))
      ⊢ wp frame (wpE ((K (F := F)).defs D) 𝒱 (T d) none) Set.univ
          (Prog.lift (.customCall (SparseCore.inner (Pipeline.entry 2)) ())) Φ := by
  iintro ⟨#Hl, Hb, Hg, HO, Ha, Hk⟩
  iapply (region_2 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg4 d n); iexact HO
  iexact Ha

end Wrapper

end Cert.Proof.KI.Region

end
-- ==== Proof.KI.Region2Val.lean ====
/-
  What the dense region's arrays hold after it: a row-blocked window's block at grid point `t` is rows
  `1000 t … 1000 t + 999` of its array and a whole-array window's block is the array, so what point `t` writes back
  of each result is block `t` of one whole-array function of the input arrays; the ten blocks cover the rows, and
  the result array ends at that function.
-/
import proofs.«207992_g50208167690906_cont_8to1c4_731_36_alg».proof.Proof.KI.Region2Frame
import proofs.«207992_g50208167690906_cont_8to1c4_731_36_alg».proof.Proof.KI.RegionVal
import Idealize.ShloMosaic.Lib.Pipeline.Value

set_option maxRecDepth 16384

noncomputable section

namespace Cert.Proof.KI.Region

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The windows' blocks -/

/-- A grid point's rows lie inside the arrays. -/
theorem rows4 (t : Fin cfg4.N) : t.val * 1000 + 1000 ≤ 10000 := by
  have h := t.isLt; have hN : cfg4.N = 10 := N_4; omega

/-- The printed index maps of the row-blocked windows, decided over the grid: block `t` of the rows, the one block of
    the columns. -/
theorem idx_row4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_14.index t (0 : Fin 2) = t.val ∧ win4_14.index t (1 : Fin 2) = 0
    ∧ win4_15.index t (0 : Fin 2) = t.val ∧ win4_15.index t (1 : Fin 2) = 0
    ∧ win4_16.index t (0 : Fin 2) = t.val ∧ win4_16.index t (1 : Fin 2) = 0 :=
  (by decide +kernel : ∀ t : Fin grid4.N, _)

/-- The printed index maps of the windows that take their whole array at every point. -/
theorem idx_whole4 : ∀ t : Fin cfg4.N,
    win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = 0 ∧ win4_13.index t (1 : Fin 2) = 0 :=
  (by decide +kernel : ∀ t : Fin grid4.N, _)

/-! A row-blocked window's block at point `t`, read off an array, is rows `1000 t … 1000 t + 999` of it. -/

theorem read_blk4_0 (t : Fin cfg4.N) (X : FVec F S10000x128 .f32) :
    ((cfg4.win 0).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 0).blk t).view.emb j) = X ((rowRect 1000 t.val (rows4 t)).emb j)
  refine congrArg X (funext fun a => Fin.ext ?_)
  match a with
  | ⟨0, _⟩ => show win4_0.index t (0 : Fin 2) * 1000 + 1 * (j 0).val = t.val * 1000 + 1 * (j 0).val; rw [e0a]
  | ⟨1, _⟩ => show win4_0.index t (1 : Fin 2) * 128 + 1 * (j 1).val = 0 + 1 * (j 1).val; rw [e0b, Nat.zero_mul]
theorem read_blk4_1 (t : Fin cfg4.N) (X : FVec F S10000x64 .f32) :
    ((cfg4.win 1).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 1).blk t).view.emb j) = X ((rowRect 1000 t.val (rows4 t)).emb j)
  refine congrArg X (funext fun a => Fin.ext ?_)
  match a with
  | ⟨0, _⟩ => show win4_1.index t (0 : Fin 2) * 1000 + 1 * (j 0).val = t.val * 1000 + 1 * (j 0).val; rw [e1a]
  | ⟨1, _⟩ => show win4_1.index t (1 : Fin 2) * 64 + 1 * (j 1).val = 0 + 1 * (j 1).val; rw [e1b, Nat.zero_mul]
theorem read_blk4_2 (t : Fin cfg4.N) (X : FVec F S10000x64 .f32) :
    ((cfg4.win 2).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 2).blk t).view.emb j) = X ((rowRect 1000 t.val (rows4 t)).emb j)
  refine congrArg X (funext fun a => Fin.ext ?_)
  match a with
  | ⟨0, _⟩ => show win4_2.index t (0 : Fin 2) * 1000 + 1 * (j 0).val = t.val * 1000 + 1 * (j 0).val; rw [e2a]
  | ⟨1, _⟩ => show win4_2.index t (1 : Fin 2) * 64 + 1 * (j 1).val = 0 + 1 * (j 1).val; rw [e2b, Nat.zero_mul]
theorem read_blk4_3 (t : Fin cfg4.N) (X : FVec F S10000x128 .f32) :
    ((cfg4.win 3).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 3).blk t).view.emb j) = X ((rowRect 1000 t.val (rows4 t)).emb j)
  refine congrArg X (funext fun a => Fin.ext ?_)
  match a with
  | ⟨0, _⟩ => show win4_3.index t (0 : Fin 2) * 1000 + 1 * (j 0).val = t.val * 1000 + 1 * (j 0).val; rw [e3a]
  | ⟨1, _⟩ => show win4_3.index t (1 : Fin 2) * 128 + 1 * (j 1).val = 0 + 1 * (j 1).val; rw [e3b, Nat.zero_mul]
theorem read_blk4_4 (t : Fin cfg4.N) (X : FVec F S10000x64 .f32) :
    ((cfg4.win 4).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 4).blk t).view.emb j) = X ((rowRect 1000 t.val (rows4 t)).emb j)
  refine congrArg X (funext fun a => Fin.ext ?_)
  match a with
  | ⟨0, _⟩ => show win4_4.index t (0 : Fin 2) * 1000 + 1 * (j 0).val = t.val * 1000 + 1 * (j 0).val; rw [e4a]
  | ⟨1, _⟩ => show win4_4.index t (1 : Fin 2) * 64 + 1 * (j 1).val = 0 + 1 * (j 1).val; rw [e4b, Nat.zero_mul]
theorem read_blk4_5 (t : Fin cfg4.N) (X : FVec F S10000x1 .f32) :
    ((cfg4.win 5).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 5).blk t).view.emb j) = X ((rowRect 1000 t.val (rows4 t)).emb j)
  refine congrArg X (funext fun a => Fin.ext ?_)
  match a with
  | ⟨0, _⟩ => show win4_5.index t (0 : Fin 2) * 1000 + 1 * (j 0).val = t.val * 1000 + 1 * (j 0).val; rw [e5a]
  | ⟨1, _⟩ => show win4_5.index t (1 : Fin 2) * 1 + 1 * (j 1).val = 0 + 1 * (j 1).val; rw [e5b, Nat.zero_mul]
theorem read_blk4_14 (t : Fin cfg4.N) (X : FVec F S10000x10 .f32) :
    ((cfg4.win 14).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 14).blk t).view.emb j) = X ((rowRect 1000 t.val (rows4 t)).emb j)
  refine congrArg X (funext fun a => Fin.ext ?_)
  match a with
  | ⟨0, _⟩ => show win4_14.index t (0 : Fin 2) * 1000 + 1 * (j 0).val = t.val * 1000 + 1 * (j 0).val; rw [e14a]
  | ⟨1, _⟩ => show win4_14.index t (1 : Fin 2) * 10 + 1 * (j 1).val = 0 + 1 * (j 1).val; rw [e14b, Nat.zero_mul]
theorem read_blk4_15 (t : Fin cfg4.N) (X : FVec F S10000x64 .f32) :
    ((cfg4.win 15).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 15).blk t).view.emb j) = X ((rowRect 1000 t.val (rows4 t)).emb j)
  refine congrArg X (funext fun a => Fin.ext ?_)
  match a with
  | ⟨0, _⟩ => show win4_15.index t (0 : Fin 2) * 1000 + 1 * (j 0).val = t.val * 1000 + 1 * (j 0).val; rw [e15a]
  | ⟨1, _⟩ => show win4_15.index t (1 : Fin 2) * 64 + 1 * (j 1).val = 0 + 1 * (j 1).val; rw [e15b, Nat.zero_mul]
theorem read_blk4_16 (t : Fin cfg4.N) (X : FVec F S10000x64 .f32) :
    ((cfg4.win 16).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 16).blk t).view.emb j) = X ((rowRect 1000 t.val (rows4 t)).emb j)
  refine congrArg X (funext fun a => Fin.ext ?_)
  match a with
  | ⟨0, _⟩ => show win4_16.index t (0 : Fin 2) * 1000 + 1 * (j 0).val = t.val * 1000 + 1 * (j 0).val; rw [e16a]
  | ⟨1, _⟩ => show win4_16.index t (1 : Fin 2) * 64 + 1 * (j 1).val = 0 + 1 * (j 1).val; rw [e16b, Nat.zero_mul]

/-! A whole-array window's block is the array. -/

theorem read_blk4_6 (t : Fin cfg4.N) (X : FVec F S128x256 .f32) :
    ((cfg4.win 6).blk t).view.read (Elt F) X = X := by
  obtain ⟨e6a, e6b, e7a, e7b, e8a, e8b, e9a, e9b, e10a, e10b, e11a, e11b, e12a, e12b, e13a, e13b⟩ := idx_whole4 t
  funext j
  show X (((cfg4.win 6).blk t).view.emb j) = X j
  refine congrArg X (funext fun a => Fin.ext ?_)
  match a with
  | ⟨0, _⟩ => show win4_6.index t (0 : Fin 2) * 128 + 1 * (j 0).val = (j 0).val; rw [e6a]; omega
  | ⟨1, _⟩ => show win4_6.index t (1 : Fin 2) * 256 + 1 * (j 1).val = (j 1).val; rw [e6b]; omega
theorem read_blk4_7 (t : Fin cfg4.N) (X : FVec F S128x256 .f32) :
    ((cfg4.win 7).blk t).view.read (Elt F) X = X := by
  obtain ⟨e6a, e6b, e7a, e7b, e8a, e8b, e9a, e9b, e10a, e10b, e11a, e11b, e12a, e12b, e13a, e13b⟩ := idx_whole4 t
  funext j
  show X (((cfg4.win 7).blk t).view.emb j) = X j
  refine congrArg X (funext fun a => Fin.ext ?_)
  match a with
  | ⟨0, _⟩ => show win4_7.index t (0 : Fin 2) * 128 + 1 * (j 0).val = (j 0).val; rw [e7a]; omega
  | ⟨1, _⟩ => show win4_7.index t (1 : Fin 2) * 256 + 1 * (j 1).val = (j 1).val; rw [e7b]; omega
theorem read_blk4_8 (t : Fin cfg4.N) (X : FVec F S64x256 .f32) :
    ((cfg4.win 8).blk t).view.read (Elt F) X = X := by
  obtain ⟨e6a, e6b, e7a, e7b, e8a, e8b, e9a, e9b, e10a, e10b, e11a, e11b, e12a, e12b, e13a, e13b⟩ := idx_whole4 t
  funext j
  show X (((cfg4.win 8).blk t).view.emb j) = X j
  refine congrArg X (funext fun a => Fin.ext ?_)
  match a with
  | ⟨0, _⟩ => show win4_8.index t (0 : Fin 2) * 64 + 1 * (j 0).val = (j 0).val; rw [e8a]; omega
  | ⟨1, _⟩ => show win4_8.index t (1 : Fin 2) * 256 + 1 * (j 1).val = (j 1).val; rw [e8b]; omega
theorem read_blk4_9 (t : Fin cfg4.N) (X : FVec F S64x256 .f32) :
    ((cfg4.win 9).blk t).view.read (Elt F) X = X := by
  obtain ⟨e6a, e6b, e7a, e7b, e8a, e8b, e9a, e9b, e10a, e10b, e11a, e11b, e12a, e12b, e13a, e13b⟩ := idx_whole4 t
  funext j
  show X (((cfg4.win 9).blk t).view.emb j) = X j
  refine congrArg X (funext fun a => Fin.ext ?_)
  match a with
  | ⟨0, _⟩ => show win4_9.index t (0 : Fin 2) * 64 + 1 * (j 0).val = (j 0).val; rw [e9a]; omega
  | ⟨1, _⟩ => show win4_9.index t (1 : Fin 2) * 256 + 1 * (j 1).val = (j 1).val; rw [e9b]; omega
theorem read_blk4_10 (t : Fin cfg4.N) (X : FVec F S1x256 .f32) :
    ((cfg4.win 10).blk t).view.read (Elt F) X = X := by
  obtain ⟨e6a, e6b, e7a, e7b, e8a, e8b, e9a, e9b, e10a, e10b, e11a, e11b, e12a, e12b, e13a, e13b⟩ := idx_whole4 t
  funext j
  show X (((cfg4.win 10).blk t).view.emb j) = X j
  refine congrArg X (funext fun a => Fin.ext ?_)
  match a with
  | ⟨0, _⟩ => show win4_10.index t (0 : Fin 2) * 1 + 1 * (j 0).val = (j 0).val; rw [e10a]; omega
  | ⟨1, _⟩ => show win4_10.index t (1 : Fin 2) * 256 + 1 * (j 1).val = (j 1).val; rw [e10b]; omega
theorem read_blk4_11 (t : Fin cfg4.N) (X : FVec F S3x64 .f32) :
    ((cfg4.win 11).blk t).view.read (Elt F) X = X := by
  obtain ⟨e6a, e6b, e7a, e7b, e8a, e8b, e9a, e9b, e10a, e10b, e11a, e11b, e12a, e12b, e13a, e13b⟩ := idx_whole4 t
  funext j
  show X (((cfg4.win 11).blk t).view.emb j) = X j
  refine congrArg X (funext fun a => Fin.ext ?_)
  match a with
  | ⟨0, _⟩ => show win4_11.index t (0 : Fin 2) * 3 + 1 * (j 0).val = (j 0).val; rw [e11a]; omega
  | ⟨1, _⟩ => show win4_11.index t (1 : Fin 2) * 64 + 1 * (j 1).val = (j 1).val; rw [e11b]; omega
theorem read_blk4_12 (t : Fin cfg4.N) (X : FVec F S64x10 .f32) :
    ((cfg4.win 12).blk t).view.read (Elt F) X = X := by
  obtain ⟨e6a, e6b, e7a, e7b, e8a, e8b, e9a, e9b, e10a, e10b, e11a, e11b, e12a, e12b, e13a, e13b⟩ := idx_whole4 t
  funext j
  show X (((cfg4.win 12).blk t).view.emb j) = X j
  refine congrArg X (funext fun a => Fin.ext ?_)
  match a with
  | ⟨0, _⟩ => show win4_12.index t (0 : Fin 2) * 64 + 1 * (j 0).val = (j 0).val; rw [e12a]; omega
  | ⟨1, _⟩ => show win4_12.index t (1 : Fin 2) * 10 + 1 * (j 1).val = (j 1).val; rw [e12b]; omega
theorem read_blk4_13 (t : Fin cfg4.N) (X : FVec F S1x10 .f32) :
    ((cfg4.win 13).blk t).view.read (Elt F) X = X := by
  obtain ⟨e6a, e6b, e7a, e7b, e8a, e8b, e9a, e9b, e10a, e10b, e11a, e11b, e12a, e12b, e13a, e13b⟩ := idx_whole4 t
  funext j
  show X (((cfg4.win 13).blk t).view.emb j) = X j
  refine congrArg X (funext fun a => Fin.ext ?_)
  match a with
  | ⟨0, _⟩ => show win4_13.index t (0 : Fin 2) * 1 + 1 * (j 0).val = (j 0).val; rw [e13a]; omega
  | ⟨1, _⟩ => show win4_13.index t (1 : Fin 2) * 10 + 1 * (j 1).val = (j 1).val; rw [e13b]; omega

/-! The same for the blocks the proof data name. -/

theorem iblk4_0 (c : Dev nD) (A : Arr2 (F := F) c) (t : Fin cfg4.N) : iblk4 c A 0 t = rowBlk 1000 t.val (rows4 t) (A 0) := read_blk4_0 t (A 0)
theorem iblk4_1 (c : Dev nD) (A : Arr2 (F := F) c) (t : Fin cfg4.N) : iblk4 c A 1 t = rowBlk 1000 t.val (rows4 t) (A 1) := read_blk4_1 t (A 1)
theorem iblk4_2 (c : Dev nD) (A : Arr2 (F := F) c) (t : Fin cfg4.N) : iblk4 c A 2 t = rowBlk 1000 t.val (rows4 t) (A 2) := read_blk4_2 t (A 2)
theorem iblk4_3 (c : Dev nD) (A : Arr2 (F := F) c) (t : Fin cfg4.N) : iblk4 c A 3 t = rowBlk 1000 t.val (rows4 t) (A 3) := read_blk4_3 t (A 3)
theorem iblk4_4 (c : Dev nD) (A : Arr2 (F := F) c) (t : Fin cfg4.N) : iblk4 c A 4 t = rowBlk 1000 t.val (rows4 t) (A 4) := read_blk4_4 t (A 4)
theorem iblk4_5 (c : Dev nD) (A : Arr2 (F := F) c) (t : Fin cfg4.N) : iblk4 c A 5 t = rowBlk 1000 t.val (rows4 t) (A 5) := read_blk4_5 t (A 5)
theorem iblk4_6 (c : Dev nD) (A : Arr2 (F := F) c) (t : Fin cfg4.N) : iblk4 c A 6 t = A 6 := read_blk4_6 t (A 6)
theorem iblk4_7 (c : Dev nD) (A : Arr2 (F := F) c) (t : Fin cfg4.N) : iblk4 c A 7 t = A 7 := read_blk4_7 t (A 7)
theorem iblk4_8 (c : Dev nD) (A : Arr2 (F := F) c) (t : Fin cfg4.N) : iblk4 c A 8 t = A 8 := read_blk4_8 t (A 8)
theorem iblk4_9 (c : Dev nD) (A : Arr2 (F := F) c) (t : Fin cfg4.N) : iblk4 c A 9 t = A 9 := read_blk4_9 t (A 9)
theorem iblk4_10 (c : Dev nD) (A : Arr2 (F := F) c) (t : Fin cfg4.N) : iblk4 c A 10 t = A 10 := read_blk4_10 t (A 10)
theorem iblk4_11 (c : Dev nD) (A : Arr2 (F := F) c) (t : Fin cfg4.N) : iblk4 c A 11 t = A 11 := read_blk4_11 t (A 11)
theorem iblk4_12 (c : Dev nD) (A : Arr2 (F := F) c) (t : Fin cfg4.N) : iblk4 c A 12 t = A 12 := read_blk4_12 t (A 12)
theorem iblk4_13 (c : Dev nD) (A : Arr2 (F := F) c) (t : Fin cfg4.N) : iblk4 c A 13 t = A 13 := read_blk4_13 t (A 13)

/-! ## What the body's stores leave, as the payloads of the blocks -/

section OutEq
variable (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32)

/-- The body's loads of the peephole rows are the rows. -/
theorem ld_row0 : (View.ld (Val := Elt F) x12 rG0 : Vec F S1x64 .f32) = wpRow0 x12 := rfl
theorem ld_row1 : (View.ld (Val := Elt F) x12 rG1 : Vec F S1x64 .f32) = wpRow1 x12 := rfl
theorem ld_row2 : (View.ld (Val := Elt F) x12 rG2 : Vec F S1x64 .f32) = wpRow2 x12 := rfl

theorem cell4_eq : cell4 x1 x2 x3 x4 x5 x6 x7 x8 x9 x10 x11 x12 = k4_pay13 x1 (k4_pay7 x2) (k4_pay8 x3) (k4_pay9 x6 x1 x4) (k4_pay10 x6 x2 x5) (k4_pay11 x7) (constant S1000x256 .f32 0x00000000#32) x8 x9 x10 x11 (wpRow0 x12) (wpRow1 x12) := by
  unfold cell4
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]
  rw [ld_row0, ld_row1]

theorem hid4_eq : hid4 x1 x2 x3 x4 x5 x6 x7 x8 x9 x10 x11 x12 = k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12) := by
  unfold hid4
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]
  rw [ld_row0, ld_row1, ld_row2]

theorem out4_16_eq : out4_16 x1 x2 x3 x4 x5 x6 x7 x8 x9 x10 x11 x12 = k4_pay13 x1 (k4_pay7 x2) (k4_pay8 x3) (k4_pay9 x6 x1 x4) (k4_pay10 x6 x2 x5) (k4_pay11 x7) (constant S1000x256 .f32 0x00000000#32) x8 x9 x10 x11 (wpRow0 x12) (wpRow1 x12) := by
  unfold out4_16
  rw [View.canon_unit_zero zeros2, cell4_eq]

theorem out4_15_eq : out4_15 x1 x2 x3 x4 x5 x6 x7 x8 x9 x10 x11 x12 = k4_pay1 (k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12)) (Scalar.ofBits .f32 0x00000000#32) := by
  unfold out4_15
  rw [View.canon_unit_zero zeros2, hid4_eq]

theorem out4_14_eq : out4_14 x1 x2 x3 x4 x5 x6 x7 x8 x9 x10 x11 x12 x13 x14 = k4_pay2 (k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12)) (Scalar.ofBits .f32 0x00000000#32) x13 x14 := by
  unfold out4_14
  rw [View.canon_unit_zero zeros2, hid4_eq]
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]

end OutEq

attribute [local irreducible] iblk4

section Values

variable (O : CellTallies nD τ sig (HIx 2)) (B : Set (SemLoc sig × HIx 2))

/-- The fourteen input arrays are not written. -/
theorem arrAt2_in (c : Dev nD) (A : Arr2 (F := F) c) (w : Fin cfg4.W) (hw : (cfg4.win w).isOut = false) :
    (dat2 O B c A).arrAt w cfg4.N = A w := (dat2 O B c A).arrAt_in w hw _

set_option maxHeartbeats 4000000 in
/-- What point `t` writes back of result 2 is block `t` of the whole-array function. -/
theorem flushed4_16 (c : Dev nD) (A : Arr2 (F := F) c) (t : Fin cfg4.N) :
    (dat2 O B c A).flushed 16 t = ((cfg4.win 16).blk t).view.read (Elt F) (dense2 (A 0) (A 1) (A 2) (A 3) (A 4) (A 5) (A 6) (A 7) (A 8) (A 9) (A 10) (A 11)) := by
  show (cfg4.win 16).cut (grid4.coords t) ((dat2 O B c A).after 16 t) = _
  rw [after4_16, read_blk4_16, out4_16_eq]
  unfold dense2
  rw [rowBlk_blockwise]
  unfold denseC
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t]
  rfl

/-- An index of the array is in point `t`'s block iff each coordinate is in the block's range on its axis. -/
theorem mem_blk4_16 (t : Fin cfg4.N) (i : S10000x64.Idx) :
    i ∈ ((cfg4.win 16).blk t).view.set ↔ ∀ a : Fin 2, win4_16.index t a * S1000x64.size a ≤ (i a).val ∧ (i a).val < win4_16.index t a * S1000x64.size a + S1000x64.size a := by
  show i ∈ ((View.whole main_v46_2).slice (win4_16.rect t)).set ↔ _
  rw [View.set_slice_whole, Rect.mem_set_unit]
  exact Iff.rfl

/-- Every row is in the block of the point `row / 1000`. -/
theorem cover4_16_arr (i : S10000x64.Idx) : ∃ t : Fin cfg4.N, (cfg4.win 16).flush t = true ∧ i ∈ ((cfg4.win 16).blk t).view.set := by
  have hi0 : (i 0).val < 10000 := (i 0).isLt
  have hi1 : (i 1).val < 64 := (i 1).isLt
  have hN : cfg4.N = 10 := N_4
  refine ⟨⟨(i 0).val / 1000, by rw [hN]; omega⟩, flush4_16 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_16]
  intro a
  match a with
  | ⟨0, _⟩ =>
    show win4_16.index _ (0 : Fin 2) * 1000 ≤ (i 0).val ∧ (i 0).val < win4_16.index _ (0 : Fin 2) * 1000 + 1000
    rw [e16a]; show (i 0).val / 1000 * 1000 ≤ (i 0).val ∧ (i 0).val < (i 0).val / 1000 * 1000 + 1000; omega
  | ⟨1, _⟩ =>
    show win4_16.index _ (1 : Fin 2) * 64 ≤ (i 1).val ∧ (i 1).val < win4_16.index _ (1 : Fin 2) * 64 + 64
    rw [e16b]; omega

/-- Result 2 after the region: the whole-array function of the input arrays as the region finds them. -/
theorem arrAt2_16 (c : Dev nD) (A : Arr2 (F := F) c) : (dat2 O B c A).arrAt 16 cfg4.N = dense2 (A 0) (A 1) (A 2) (A 3) (A 4) (A 5) (A 6) (A 7) (A 8) (A 9) (A 10) (A 11) :=
  (dat2 O B c A).arrAt_eq_of_cover 16 _ (fun t _ => flushed4_16 O B c A t) cover4_16_arr

set_option maxHeartbeats 4000000 in
/-- What point `t` writes back of result 1 is block `t` of the whole-array function. -/
theorem flushed4_15 (c : Dev nD) (A : Arr2 (F := F) c) (t : Fin cfg4.N) :
    (dat2 O B c A).flushed 15 t = ((cfg4.win 15).blk t).view.read (Elt F) (dense1 (A 0) (A 1) (A 2) (A 3) (A 4) (A 5) (A 6) (A 7) (A 8) (A 9) (A 10) (A 11)) := by
  show (cfg4.win 15).cut (grid4.coords t) ((dat2 O B c A).after 15 t) = _
  rw [after4_15, read_blk4_15, out4_15_eq]
  unfold dense1
  rw [rowBlk_blockwise]
  unfold denseH
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t]
  rfl

/-- An index of the array is in point `t`'s block iff each coordinate is in the block's range on its axis. -/
theorem mem_blk4_15 (t : Fin cfg4.N) (i : S10000x64.Idx) :
    i ∈ ((cfg4.win 15).blk t).view.set ↔ ∀ a : Fin 2, win4_15.index t a * S1000x64.size a ≤ (i a).val ∧ (i a).val < win4_15.index t a * S1000x64.size a + S1000x64.size a := by
  show i ∈ ((View.whole main_v46_1).slice (win4_15.rect t)).set ↔ _
  rw [View.set_slice_whole, Rect.mem_set_unit]
  exact Iff.rfl

/-- Every row is in the block of the point `row / 1000`. -/
theorem cover4_15_arr (i : S10000x64.Idx) : ∃ t : Fin cfg4.N, (cfg4.win 15).flush t = true ∧ i ∈ ((cfg4.win 15).blk t).view.set := by
  have hi0 : (i 0).val < 10000 := (i 0).isLt
  have hi1 : (i 1).val < 64 := (i 1).isLt
  have hN : cfg4.N = 10 := N_4
  refine ⟨⟨(i 0).val / 1000, by rw [hN]; omega⟩, flush4_15 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_15]
  intro a
  match a with
  | ⟨0, _⟩ =>
    show win4_15.index _ (0 : Fin 2) * 1000 ≤ (i 0).val ∧ (i 0).val < win4_15.index _ (0 : Fin 2) * 1000 + 1000
    rw [e15a]; show (i 0).val / 1000 * 1000 ≤ (i 0).val ∧ (i 0).val < (i 0).val / 1000 * 1000 + 1000; omega
  | ⟨1, _⟩ =>
    show win4_15.index _ (1 : Fin 2) * 64 ≤ (i 1).val ∧ (i 1).val < win4_15.index _ (1 : Fin 2) * 64 + 64
    rw [e15b]; omega

/-- Result 1 after the region: the whole-array function of the input arrays as the region finds them. -/
theorem arrAt2_15 (c : Dev nD) (A : Arr2 (F := F) c) : (dat2 O B c A).arrAt 15 cfg4.N = dense1 (A 0) (A 1) (A 2) (A 3) (A 4) (A 5) (A 6) (A 7) (A 8) (A 9) (A 10) (A 11) :=
  (dat2 O B c A).arrAt_eq_of_cover 15 _ (fun t _ => flushed4_15 O B c A t) cover4_15_arr

set_option maxHeartbeats 4000000 in
/-- What point `t` writes back of result 0 is block `t` of the whole-array function. -/
theorem flushed4_14 (c : Dev nD) (A : Arr2 (F := F) c) (t : Fin cfg4.N) :
    (dat2 O B c A).flushed 14 t = ((cfg4.win 14).blk t).view.read (Elt F) (dense0 (A 0) (A 1) (A 2) (A 3) (A 4) (A 5) (A 6) (A 7) (A 8) (A 9) (A 10) (A 11) (A 12) (A 13)) := by
  show (cfg4.win 14).cut (grid4.coords t) ((dat2 O B c A).after 14 t) = _
  rw [after4_14, read_blk4_14, out4_14_eq]
  unfold dense0
  rw [rowBlk_blockwise]
  unfold denseH
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t, iblk4_12 c A t, iblk4_13 c A t]
  rfl

/-- An index of the array is in point `t`'s block iff each coordinate is in the block's range on its axis. -/
theorem mem_blk4_14 (t : Fin cfg4.N) (i : S10000x10.Idx) :
    i ∈ ((cfg4.win 14).blk t).view.set ↔ ∀ a : Fin 2, win4_14.index t a * S1000x10.size a ≤ (i a).val ∧ (i a).val < win4_14.index t a * S1000x10.size a + S1000x10.size a := by
  show i ∈ ((View.whole main_v46_0).slice (win4_14.rect t)).set ↔ _
  rw [View.set_slice_whole, Rect.mem_set_unit]
  exact Iff.rfl

/-- Every row is in the block of the point `row / 1000`. -/
theorem cover4_14_arr (i : S10000x10.Idx) : ∃ t : Fin cfg4.N, (cfg4.win 14).flush t = true ∧ i ∈ ((cfg4.win 14).blk t).view.set := by
  have hi0 : (i 0).val < 10000 := (i 0).isLt
  have hi1 : (i 1).val < 10 := (i 1).isLt
  have hN : cfg4.N = 10 := N_4
  refine ⟨⟨(i 0).val / 1000, by rw [hN]; omega⟩, flush4_14 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_14]
  intro a
  match a with
  | ⟨0, _⟩ =>
    show win4_14.index _ (0 : Fin 2) * 1000 ≤ (i 0).val ∧ (i 0).val < win4_14.index _ (0 : Fin 2) * 1000 + 1000
    rw [e14a]; show (i 0).val / 1000 * 1000 ≤ (i 0).val ∧ (i 0).val < (i 0).val / 1000 * 1000 + 1000; omega
  | ⟨1, _⟩ =>
    show win4_14.index _ (1 : Fin 2) * 10 ≤ (i 1).val ∧ (i 1).val < win4_14.index _ (1 : Fin 2) * 10 + 10
    rw [e14b]; omega

/-- Result 0 after the region: the whole-array function of the input arrays as the region finds them. -/
theorem arrAt2_14 (c : Dev nD) (A : Arr2 (F := F) c) : (dat2 O B c A).arrAt 14 cfg4.N = dense0 (A 0) (A 1) (A 2) (A 3) (A 4) (A 5) (A 6) (A 7) (A 8) (A 9) (A 10) (A 11) (A 12) (A 13) :=
  (dat2 O B c A).arrAt_eq_of_cover 14 _ (fun t _ => flushed4_14 O B c A t) cover4_14_arr

end Values

end Cert.Proof.KI.Region

end
-- ==== Proof.KI.RegionAdapt2.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KI.Main
import proofs.«207992_g50208167690906_cont_8to1c4_731_36_alg».proof.Proof.KI.RegionHeld
import proofs.«207992_g50208167690906_cont_8to1c4_731_36_alg».proof.Proof.KI.Region2
import proofs.«207992_g50208167690906_cont_8to1c4_731_36_alg».proof.Proof.KI.Region2Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The dense region -/

/-- The dense region's seventeen arrays, read off a valuation window by window. -/
def arr2 (W : Valuation τ sig (Elt F)) (c : Dev nD) : Region.Arr2 (F := F) c := fun w => W (dr (Pipeline.arrRef spec4 w))

omit [FloatOps F] in
theorem heldArr2 (d : Dev nD) (W : Valuation τ sig (Elt F)) :
    (held (T d) R2 W : sProp 𝕄) = Region.arrs2 d (arr2 W d) := held_R2 d W

/-- The rewritten valuation away from the three results, and at each. -/
theorem denseOut_other (W : Valuation τ sig (Elt F)) (b : DevRef τ sig) (h0 : b ≠ dr main_v46_0) (h1 : b ≠ dr main_v46_1) (h2 : b ≠ dr main_v46_2) :
    denseOut W b = W b := by
  unfold denseOut
  rw [Function.update_of_ne h2, Function.update_of_ne h1, Function.update_of_ne h0]
theorem denseOut_at0 (W : Valuation τ sig (Elt F)) : denseOut W (dr main_v46_0) = denseOut0 W := by
  unfold denseOut
  rw [Function.update_of_ne (show dr main_v46_0 ≠ dr main_v46_2 by decide), Function.update_of_ne (show dr main_v46_0 ≠ dr main_v46_1 by decide), Function.update_self]
theorem denseOut_at1 (W : Valuation τ sig (Elt F)) : denseOut W (dr main_v46_1) = denseOut1 W := by
  unfold denseOut
  rw [Function.update_of_ne (show dr main_v46_1 ≠ dr main_v46_2 by decide), Function.update_self]
theorem denseOut_at2 (W : Valuation τ sig (Elt F)) : denseOut W (dr main_v46_2) = denseOut2 W := by
  unfold denseOut
  rw [Function.update_self]

/-- What the region leaves in its arrays is the rewritten valuation, window by window. -/
theorem arrAt2_denseOut (O : CellTallies nD τ sig (HIx 2)) (B : Set (SemLoc sig × HIx 2)) (d : Dev nD) (W : Valuation τ sig (Elt F)) :
    (fun w => (Region.dat2 O B d (arr2 W d)).arrAt w cfg4.N) = arr2 (denseOut W) d := by
  funext w
  match w with
  | ⟨0, h⟩ => exact ((Region.dat2 O B d (arr2 W d)).arrAt_in ⟨0, h⟩ rfl _).trans (denseOut_other W (dr main_arg0) (by decide) (by decide) (by decide)).symm
  | ⟨1, h⟩ => exact ((Region.dat2 O B d (arr2 W d)).arrAt_in ⟨1, h⟩ rfl _).trans (denseOut_other W (dr main_v5) (by decide) (by decide) (by decide)).symm
  | ⟨2, h⟩ => exact ((Region.dat2 O B d (arr2 W d)).arrAt_in ⟨2, h⟩ rfl _).trans (denseOut_other W (dr main_v7) (by decide) (by decide) (by decide)).symm
  | ⟨3, h⟩ => exact ((Region.dat2 O B d (arr2 W d)).arrAt_in ⟨3, h⟩ rfl _).trans (denseOut_other W (dr main_v24) (by decide) (by decide) (by decide)).symm
  | ⟨4, h⟩ => exact ((Region.dat2 O B d (arr2 W d)).arrAt_in ⟨4, h⟩ rfl _).trans (denseOut_other W (dr main_v25) (by decide) (by decide) (by decide)).symm
  | ⟨5, h⟩ => exact ((Region.dat2 O B d (arr2 W d)).arrAt_in ⟨5, h⟩ rfl _).trans (denseOut_other W (dr main_v12) (by decide) (by decide) (by decide)).symm
  | ⟨6, h⟩ => exact ((Region.dat2 O B d (arr2 W d)).arrAt_in ⟨6, h⟩ rfl _).trans (denseOut_other W (dr main_v29) (by decide) (by decide) (by decide)).symm
  | ⟨7, h⟩ => exact ((Region.dat2 O B d (arr2 W d)).arrAt_in ⟨7, h⟩ rfl _).trans (denseOut_other W (dr main_v33) (by decide) (by decide) (by decide)).symm
  | ⟨8, h⟩ => exact ((Region.dat2 O B d (arr2 W d)).arrAt_in ⟨8, h⟩ rfl _).trans (denseOut_other W (dr main_v37) (by decide) (by decide) (by decide)).symm
  | ⟨9, h⟩ => exact ((Region.dat2 O B d (arr2 W d)).arrAt_in ⟨9, h⟩ rfl _).trans (denseOut_other W (dr main_v41) (by decide) (by decide) (by decide)).symm
  | ⟨10, h⟩ => exact ((Region.dat2 O B d (arr2 W d)).arrAt_in ⟨10, h⟩ rfl _).trans (denseOut_other W (dr main_v44) (by decide) (by decide) (by decide)).symm
  | ⟨11, h⟩ => exact ((Region.dat2 O B d (arr2 W d)).arrAt_in ⟨11, h⟩ rfl _).trans (denseOut_other W (dr main_arg7) (by decide) (by decide) (by decide)).symm
  | ⟨12, h⟩ => exact ((Region.dat2 O B d (arr2 W d)).arrAt_in ⟨12, h⟩ rfl _).trans (denseOut_other W (dr main_arg9) (by decide) (by decide) (by decide)).symm
  | ⟨13, h⟩ => exact ((Region.dat2 O B d (arr2 W d)).arrAt_in ⟨13, h⟩ rfl _).trans (denseOut_other W (dr main_v45) (by decide) (by decide) (by decide)).symm
  | ⟨14, _⟩ => exact (Region.arrAt2_14 O B d (arr2 W d)).trans (denseOut_at0 W).symm
  | ⟨15, _⟩ => exact (Region.arrAt2_15 O B d (arr2 W d)).trans (denseOut_at1 W).symm
  | ⟨16, _⟩ => exact (Region.arrAt2_16 O B d (arr2 W d)).trans (denseOut_at2 W).symm
  | ⟨_ + 17, h⟩ => exact absurd h (Nat.not_lt.2 (Nat.le_add_left _ _))

/-- The dense region, as @main's proof takes it. -/
theorem regionSpec2 : RegionSpec P 2 R2 denseOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_2_tc (F := F) (K (F := F)).lev (SparseCore.Cfg.refines_self _) n (arr2 W) d Φ)
  isplitr; · iexact Hl
  isplitl [Hb]; · iexact Hb
  isplitl [Hg]; · iexact Hg
  isplitl [Ho]; · iexact Ho
  isplitl [Hheld]
  · rw [← heldArr2]; iexact Hheld
  iintro ⟨Hb, Ho, Ha⟩
  iapply Hk
  isplitl [Hb]; · iexact Hb
  isplitl [Ho]; · iexact Ho
  rw [heldArr2, ← arrAt2_denseOut]
  iexact Ha

end Cert.Proof.KI

end
-- ==== Proof.KB.RegionCommon.lean ====
import proofs.«207992_g50208167690906_cont_8to1c4_731_36_alg».proof.Proof.KB.Base
import proofs.«207992_g50208167690906_cont_8to1c4_731_36_alg».proof.Proof.Gen.Kernel.Points
import Idealize.ShloMosaic.Lib.Pipeline.Regions

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## What every region shares -/

/-- The prefetched tables' admissible contents: no pipeline has a table. -/
abbrev adm : (p : Fin 3) → (pcfgs (F := F) p).Adm := fun p => (cfgs p).toPCfg_adm

/-- What the launch deals TensorCore `d` for pipeline `p`'s staging cells; the region consumes it. -/
abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

/-- A buffer's contents on core `c`. -/
abbrev Bw (c : Dev nD) (b : Ref sig .tc) : Type := Buf (Elt F) ((c : Thread nD τ).loc b)

/-- Proof data of a pipeline a region's family does not run: nothing is asked of it. -/
def datNone (cfg : Cfg sig Λ₀) (c : Dev nD) : Dat τ (Elt F) (HIx 2) ℕ UU ℕ cfg c where
  A _ := fun _ => Classical.arbitrary _
  after _ _ := fun _ => Classical.arbitrary _
  Φ _ := iprop(emp)
  q _ := fullShare
  owed _ := 0

/-- A load of a whole buffer through the whole-shape rectangle at zero offsets reads the contents. -/
theorem readAt_unit_zero (b : Ref sig .tc) {off : Fin b.ty.shape.rank → Nat} (h : off = fun _ => 0)
    (inb : ∀ a, off a + b.ty.shape.size a ≤ b.ty.shape.size a) (f : b.ty.Contents (Elt F)) :
    (Memref.whole b : Memref sig .tc _ _ _).view.readAt (Elt F) (Rect.unit off b.ty.shape.size inb).toLoadRect f = f := by
  subst h; exact Memref.readAt_whole (Elt F) b f

/-- A store of a whole buffer through it leaves the payload. -/
theorem write_unit_zero (b : Ref sig .tc) {off : Fin b.ty.shape.rank → Nat} (h : off = fun _ => 0)
    (inb : ∀ a, off a + b.ty.shape.size a ≤ b.ty.shape.size a) (f w : b.ty.Contents (Elt F)) :
    ((Memref.whole b : Memref sig .tc _ _ _).access (Rect.unit off b.ty.shape.size inb)).write (Elt F) f w Finset.univ = w := by
  subst h; exact Memref.write_access_whole_univ (Elt F) b f w

theorem zeros2 : (![0, 0] : Fin 2 → Nat) = fun _ => 0 := by funext a; fin_cases a <;> rfl

/-- A read of a whole buffer through the whole-shape rectangle at zero offsets is the contents. -/
theorem read_unit_zero (b : Ref sig .tc) {off : Fin b.ty.shape.rank → Nat} (h : off = fun _ => 0)
    (inb : ∀ a, off a + b.ty.shape.size a ≤ b.ty.shape.size a) (f : b.ty.Contents (Elt F)) :
    ((Memref.whole b : Memref sig .tc _ _ _).access (Rect.unit off b.ty.shape.size inb)).read (Elt F) f = f := by
  subst h; exact Memref.read_access_whole (Elt F) b f

/-! ## The TensorCore's own state around a region -/

/-- The TensorCore owes nothing at index `none`: every unit it owes is a later call's start signal, at that call's index. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply]
    split
    · next e => exact absurd e.2 (by simp)
    · rfl
  · rfl

/-- The (cell, index) pairs at or below level `8 n` on TensorCore `d`: what its recorded pairs lie within before call `n`. -/
abbrev Bn (d : Dev nD) (n : ℕ) : Set (SemLoc sig × HIx 2) := {p | (K (F := F)).lev (T d, p.1) p.2 ≤ 8 * n}

/-- What the TensorCore owes before call `n`, as its handshake state holds it. -/
abbrev owesTc (d : Dev nD) (n : ℕ) : sProp 𝕄 :=
  iprop(∃ W, ⌜(K (F := F)).WBelow (T d) W (8 * n)⌝ ∗ owes (T d) ((K (F := F)).Otc d n) W)

/-- Entering a region: the handshake state's bound on the recorded pairs is the region's. -/
theorem owesTc_in (d : Dev nD) (n : ℕ) :
    owesTc (F := F) d n ⊢ Pipeline.owesWithin d ((K (F := F)).Otc d n) (Bn (F := F) d n) := by
  iintro ⟨%W, %hW, HO⟩
  iexists W; isplitr; · ipureintro; exact fun p hp => hW p (Finset.mem_coe.mp hp)
  iexact HO

/-- Leaving it: the pairs the pipeline's own waits recorded, at index `none`, sit at level zero. -/
theorem owesTc_out (cfg : Cfg sig Λ₀) (d : Dev nD) (n : ℕ) :
    Pipeline.owesWithin d ((K (F := F)).Otc d n) (Bn (F := F) d n ∪ cfg.waitPairs none) ⊢ owesTc (F := F) d n := by
  iintro ⟨%W, %hW, HO⟩
  iexists W; isplitr; swap; (· iexact HO)
  ipureintro
  intro p hp
  rcases hW (Finset.mem_coe.mpr hp) with h | ⟨w, s, rfl⟩
  · exact h
  · show (K (F := F)).lev _ none ≤ _
    rw [SparseCore.Cfg.lev_none]; exact Nat.zero_le _

end Cert.Proof.KB.Region

end
-- ==== Proof.KB.Region0Body.lean ====
/-
  The scaling call (the first TensorCore call, a grid of ten row blocks) as the pipeline rule sees it: the body's run
  on either set of staging buffers, the call's proof data — after the body each input's buffer holds its block, each
  result's the body's payload over the degree block and the input block —, what the body finds in each buffer at a
  point, and the body obligation at every point. The body neither waits nor signals: the core's dues and the scoped
  rest pass through untouched.
-/
import proofs.«207992_g50208167690906_cont_8to1c4_731_36_alg».proof.Proof.KB.RegionCommon
import proofs.«207992_g50208167690906_cont_8to1c4_731_36_alg».proof.Proof.Gen.Kernel.Points
import Idealize.ShloMosaic.Lib.Pipeline.Regions
import Idealize.ShloMosaic.Lib.Pipeline.FrameBody

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The whole-block rectangles of the scaling body's loads and stores. -/
abbrev R0x : Rect S1000x128 := Rect.unit (s := S1000x128) ![0, 0] S1000x128.size inb_S1000x128_S1000x128_0_0
abbrev R0h : Rect S1000x64 := Rect.unit (s := S1000x64) ![0, 0] S1000x64.size inb_S1000x64_S1000x64_0_0
abbrev R0d : Rect S1000x1 := Rect.unit (s := S1000x1) ![0, 0] S1000x1.size inb_S1000x1_S1000x1_0_0

/-- What the scaling body leaves in its two result buffers (staging buffers 0). -/
abbrev outA0 (c : Dev nD) (fx : Bw (F := F) c cc1_stg0_0) (fd : Bw (F := F) c cc1_stg2_0) (fo : Bw (F := F) c cc1_stg3_0) :
    Bw (F := F) c cc1_stg3_0 :=
  ((Memref.whole cc1_stg3_0 : Memref sig .tc _ _ _).access R0x).write (Elt F) fo
    (k1_pay2 (F := F) ((Memref.whole cc1_stg2_0 : Memref sig .tc _ _ _).view.readAt (Elt F) R0d.toLoadRect fd)
      ((Memref.whole cc1_stg0_0 : Memref sig .tc _ _ _).view.readAt (Elt F) R0x.toLoadRect fx)) Finset.univ
abbrev outB0 (c : Dev nD) (fh : Bw (F := F) c cc1_stg1_0) (fd : Bw (F := F) c cc1_stg2_0) (fo : Bw (F := F) c cc1_stg4_0) :
    Bw (F := F) c cc1_stg4_0 :=
  ((Memref.whole cc1_stg4_0 : Memref sig .tc _ _ _).access R0h).write (Elt F) fo
    (k1_pay3 (F := F) ((Memref.whole cc1_stg2_0 : Memref sig .tc _ _ _).view.readAt (Elt F) R0d.toLoadRect fd)
      ((Memref.whole cc1_stg1_0 : Memref sig .tc _ _ _).view.readAt (Elt F) R0h.toLoadRect fh)) Finset.univ

/-- The scaling body on staging buffers 0: three loads, a store, two loads, a store. -/
theorem kernelRun0_0_raw (i : grid1.Coords) (c : Dev nD) (fx : Bw (F := F) c cc1_stg0_0) (fh : Bw (F := F) c cc1_stg1_0)
    (fd : Bw (F := F) c cc1_stg2_0) (fa : Bw (F := F) c cc1_stg3_0) (fb : Bw (F := F) c cc1_stg4_0)
    (E : Set ℕ) (Q : PUnit → sProp 𝕄) :
    iprop((((c : Thread nD τ).loc cc1_stg0_0) ↦{fullShare} fx) ∗ (((c : Thread nD τ).loc cc1_stg1_0) ↦{fullShare} fh)
        ∗ (((c : Thread nD τ).loc cc1_stg2_0) ↦{fullShare} fd) ∗ (((c : Thread nD τ).loc cc1_stg3_0) ↦{fullShare} fa)
        ∗ (((c : Thread nD τ).loc cc1_stg4_0) ↦{fullShare} fb)
        ∗ (iprop((((c : Thread nD τ).loc cc1_stg0_0) ↦{fullShare} fx) ∗ (((c : Thread nD τ).loc cc1_stg1_0) ↦{fullShare} fh)
            ∗ (((c : Thread nD τ).loc cc1_stg2_0) ↦{fullShare} fd) ∗ (((c : Thread nD τ).loc cc1_stg3_0) ↦{fullShare} outA0 c fx fd fa)
            ∗ (((c : Thread nD τ).loc cc1_stg4_0) ↦{fullShare} outB0 c fh fd fb)) -∗ Q ⟨⟩))
      ⊢ wp frame (wpE (defs₀ (F := F)) 𝒱₀ (c : Thread nD τ) none) E
          (cc1__scale_body i (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0)) Q := by
  rw [cc1__scale_body_eq_skeleton]; unfold cc1__scale_body_skel
  iintro ⟨Hx, Hh, Hd, Ha, Hb, Hk⟩
  iapply (wp_load 𝒱₀ (c : Thread nD τ) none E (m := Memref.whole cc1_stg2_0) (r := R0d.toLoadRect) (S := Finset.univ) (Finset.subset_univ _)) $$ Hd
  iintro Hd
  iapply (wp_load 𝒱₀ (c : Thread nD τ) none E (m := Memref.whole cc1_stg0_0) (r := R0x.toLoadRect) (S := Finset.univ) (Finset.subset_univ _)) $$ Hx
  iintro Hx
  iapply (wp_load 𝒱₀ (c : Thread nD τ) none E (m := Memref.whole cc1_stg3_0) (r := R0x.toLoadRect) (S := Finset.univ) (Finset.subset_univ _)) $$ Ha
  iintro Ha
  iapply (wp_store 𝒱₀ (c : Thread nD τ) none E (m := Memref.whole cc1_stg3_0) (r := R0x) (S := Finset.univ) (Finset.subset_univ _)) $$ Ha
  iintro Ha
  iapply (wp_load 𝒱₀ (c : Thread nD τ) none E (m := Memref.whole cc1_stg1_0) (r := R0h.toLoadRect) (S := Finset.univ) (Finset.subset_univ _)) $$ Hh
  iintro Hh
  iapply (wp_load 𝒱₀ (c : Thread nD τ) none E (m := Memref.whole cc1_stg4_0) (r := R0h.toLoadRect) (S := Finset.univ) (Finset.subset_univ _)) $$ Hb
  iintro Hb
  iapply (wp_store 𝒱₀ (c : Thread nD τ) none E (m := Memref.whole cc1_stg4_0) (r := R0h) (S := Finset.univ) (Finset.subset_univ _)) $$ Hb
  iintro Hb
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [Hx]; · iexact Hx
  isplitl [Hh]; · iexact Hh
  isplitl [Hd]; · iexact Hd
  isplitl [Ha]; · iexact Ha
  iexact Hb

theorem outA0_eq (c : Dev nD) (fx : Bw (F := F) c cc1_stg0_0) (fd : Bw (F := F) c cc1_stg2_0) (fa : Bw (F := F) c cc1_stg3_0) :
    outA0 c fx fd fa = (k1_pay2 (F := F) fd fx : Bw (F := F) c cc1_stg3_0) := by
  have ed : (Memref.whole cc1_stg2_0 : Memref sig .tc _ _ _).view.readAt (Elt F) R0d.toLoadRect fd = fd :=
    readAt_unit_zero cc1_stg2_0 zeros2 inb_S1000x1_S1000x1_0_0 fd
  have ex : (Memref.whole cc1_stg0_0 : Memref sig .tc _ _ _).view.readAt (Elt F) R0x.toLoadRect fx = fx :=
    readAt_unit_zero cc1_stg0_0 zeros2 inb_S1000x128_S1000x128_0_0 fx
  unfold outA0
  rw [ed, ex]
  exact write_unit_zero cc1_stg3_0 zeros2 inb_S1000x128_S1000x128_0_0 fa (k1_pay2 (F := F) fd fx)

theorem outB0_eq (c : Dev nD) (fh : Bw (F := F) c cc1_stg1_0) (fd : Bw (F := F) c cc1_stg2_0) (fb : Bw (F := F) c cc1_stg4_0) :
    outB0 c fh fd fb = (k1_pay3 (F := F) fd fh : Bw (F := F) c cc1_stg4_0) := by
  have ed : (Memref.whole cc1_stg2_0 : Memref sig .tc _ _ _).view.readAt (Elt F) R0d.toLoadRect fd = fd :=
    readAt_unit_zero cc1_stg2_0 zeros2 inb_S1000x1_S1000x1_0_0 fd
  have eh : (Memref.whole cc1_stg1_0 : Memref sig .tc _ _ _).view.readAt (Elt F) R0h.toLoadRect fh = fh :=
    readAt_unit_zero cc1_stg1_0 zeros2 inb_S1000x64_S1000x64_0_0 fh
  unfold outB0
  rw [ed, eh]
  exact write_unit_zero cc1_stg4_0 zeros2 inb_S1000x64_S1000x64_0_0 fb (k1_pay3 (F := F) fd fh)

/-- The scaling body on staging buffers 0: the inputs come back as they were; each result's buffer holds the body's
    payload over the inputs' contents. -/
theorem kernelRun0_0 (i : grid1.Coords) (c : Dev nD) (fx : Bw (F := F) c cc1_stg0_0) (fh : Bw (F := F) c cc1_stg1_0)
    (fd : Bw (F := F) c cc1_stg2_0) (fa : Bw (F := F) c cc1_stg3_0) (fb : Bw (F := F) c cc1_stg4_0)
    (E : Set ℕ) (Q : PUnit → sProp 𝕄) :
    iprop((((c : Thread nD τ).loc cc1_stg0_0) ↦{fullShare} fx) ∗ (((c : Thread nD τ).loc cc1_stg1_0) ↦{fullShare} fh)
        ∗ (((c : Thread nD τ).loc cc1_stg2_0) ↦{fullShare} fd) ∗ (((c : Thread nD τ).loc cc1_stg3_0) ↦{fullShare} fa)
        ∗ (((c : Thread nD τ).loc cc1_stg4_0) ↦{fullShare} fb)
        ∗ (iprop((((c : Thread nD τ).loc cc1_stg0_0) ↦{fullShare} fx) ∗ (((c : Thread nD τ).loc cc1_stg1_0) ↦{fullShare} fh)
            ∗ (((c : Thread nD τ).loc cc1_stg2_0) ↦{fullShare} fd)
            ∗ (((c : Thread nD τ).loc cc1_stg3_0) ↦{fullShare} (k1_pay2 (F := F) fd fx : Bw (F := F) c cc1_stg3_0))
            ∗ (((c : Thread nD τ).loc cc1_stg4_0) ↦{fullShare} (k1_pay3 (F := F) fd fh : Bw (F := F) c cc1_stg4_0))) -∗ Q ⟨⟩))
      ⊢ wp frame (wpE (defs₀ (F := F)) 𝒱₀ (c : Thread nD τ) none) E
          (cc1__scale_body i (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0)) Q := by
  have h := kernelRun0_0_raw i c fx fh fd fa fb E Q
  rw [outA0_eq, outB0_eq] at h
  exact h

/-- What the scaling body leaves in its two result buffers (staging buffers 1). -/
abbrev outA1 (c : Dev nD) (fx : Bw (F := F) c cc1_stg0_1) (fd : Bw (F := F) c cc1_stg2_1) (fo : Bw (F := F) c cc1_stg3_1) :
    Bw (F := F) c cc1_stg3_1 :=
  ((Memref.whole cc1_stg3_1 : Memref sig .tc _ _ _).access R0x).write (Elt F) fo
    (k1_pay2 (F := F) ((Memref.whole cc1_stg2_1 : Memref sig .tc _ _ _).view.readAt (Elt F) R0d.toLoadRect fd)
      ((Memref.whole cc1_stg0_1 : Memref sig .tc _ _ _).view.readAt (Elt F) R0x.toLoadRect fx)) Finset.univ
abbrev outB1 (c : Dev nD) (fh : Bw (F := F) c cc1_stg1_1) (fd : Bw (F := F) c cc1_stg2_1) (fo : Bw (F := F) c cc1_stg4_1) :
    Bw (F := F) c cc1_stg4_1 :=
  ((Memref.whole cc1_stg4_1 : Memref sig .tc _ _ _).access R0h).write (Elt F) fo
    (k1_pay3 (F := F) ((Memref.whole cc1_stg2_1 : Memref sig .tc _ _ _).view.readAt (Elt F) R0d.toLoadRect fd)
      ((Memref.whole cc1_stg1_1 : Memref sig .tc _ _ _).view.readAt (Elt F) R0h.toLoadRect fh)) Finset.univ

/-- The scaling body on staging buffers 1: three loads, a store, two loads, a store. -/
theorem kernelRun0_1_raw (i : grid1.Coords) (c : Dev nD) (fx : Bw (F := F) c cc1_stg0_1) (fh : Bw (F := F) c cc1_stg1_1)
    (fd : Bw (F := F) c cc1_stg2_1) (fa : Bw (F := F) c cc1_stg3_1) (fb : Bw (F := F) c cc1_stg4_1)
    (E : Set ℕ) (Q : PUnit → sProp 𝕄) :
    iprop((((c : Thread nD τ).loc cc1_stg0_1) ↦{fullShare} fx) ∗ (((c : Thread nD τ).loc cc1_stg1_1) ↦{fullShare} fh)
        ∗ (((c : Thread nD τ).loc cc1_stg2_1) ↦{fullShare} fd) ∗ (((c : Thread nD τ).loc cc1_stg3_1) ↦{fullShare} fa)
        ∗ (((c : Thread nD τ).loc cc1_stg4_1) ↦{fullShare} fb)
        ∗ (iprop((((c : Thread nD τ).loc cc1_stg0_1) ↦{fullShare} fx) ∗ (((c : Thread nD τ).loc cc1_stg1_1) ↦{fullShare} fh)
            ∗ (((c : Thread nD τ).loc cc1_stg2_1) ↦{fullShare} fd) ∗ (((c : Thread nD τ).loc cc1_stg3_1) ↦{fullShare} outA1 c fx fd fa)
            ∗ (((c : Thread nD τ).loc cc1_stg4_1) ↦{fullShare} outB1 c fh fd fb)) -∗ Q ⟨⟩))
      ⊢ wp frame (wpE (defs₀ (F := F)) 𝒱₀ (c : Thread nD τ) none) E
          (cc1__scale_body i (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1)) Q := by
  rw [cc1__scale_body_eq_skeleton]; unfold cc1__scale_body_skel
  iintro ⟨Hx, Hh, Hd, Ha, Hb, Hk⟩
  iapply (wp_load 𝒱₀ (c : Thread nD τ) none E (m := Memref.whole cc1_stg2_1) (r := R0d.toLoadRect) (S := Finset.univ) (Finset.subset_univ _)) $$ Hd
  iintro Hd
  iapply (wp_load 𝒱₀ (c : Thread nD τ) none E (m := Memref.whole cc1_stg0_1) (r := R0x.toLoadRect) (S := Finset.univ) (Finset.subset_univ _)) $$ Hx
  iintro Hx
  iapply (wp_load 𝒱₀ (c : Thread nD τ) none E (m := Memref.whole cc1_stg3_1) (r := R0x.toLoadRect) (S := Finset.univ) (Finset.subset_univ _)) $$ Ha
  iintro Ha
  iapply (wp_store 𝒱₀ (c : Thread nD τ) none E (m := Memref.whole cc1_stg3_1) (r := R0x) (S := Finset.univ) (Finset.subset_univ _)) $$ Ha
  iintro Ha
  iapply (wp_load 𝒱₀ (c : Thread nD τ) none E (m := Memref.whole cc1_stg1_1) (r := R0h.toLoadRect) (S := Finset.univ) (Finset.subset_univ _)) $$ Hh
  iintro Hh
  iapply (wp_load 𝒱₀ (c : Thread nD τ) none E (m := Memref.whole cc1_stg4_1) (r := R0h.toLoadRect) (S := Finset.univ) (Finset.subset_univ _)) $$ Hb
  iintro Hb
  iapply (wp_store 𝒱₀ (c : Thread nD τ) none E (m := Memref.whole cc1_stg4_1) (r := R0h) (S := Finset.univ) (Finset.subset_univ _)) $$ Hb
  iintro Hb
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [Hx]; · iexact Hx
  isplitl [Hh]; · iexact Hh
  isplitl [Hd]; · iexact Hd
  isplitl [Ha]; · iexact Ha
  iexact Hb

theorem outA1_eq (c : Dev nD) (fx : Bw (F := F) c cc1_stg0_1) (fd : Bw (F := F) c cc1_stg2_1) (fa : Bw (F := F) c cc1_stg3_1) :
    outA1 c fx fd fa = (k1_pay2 (F := F) fd fx : Bw (F := F) c cc1_stg3_1) := by
  have ed : (Memref.whole cc1_stg2_1 : Memref sig .tc _ _ _).view.readAt (Elt F) R0d.toLoadRect fd = fd :=
    readAt_unit_zero cc1_stg2_1 zeros2 inb_S1000x1_S1000x1_0_0 fd
  have ex : (Memref.whole cc1_stg0_1 : Memref sig .tc _ _ _).view.readAt (Elt F) R0x.toLoadRect fx = fx :=
    readAt_unit_zero cc1_stg0_1 zeros2 inb_S1000x128_S1000x128_0_0 fx
  unfold outA1
  rw [ed, ex]
  exact write_unit_zero cc1_stg3_1 zeros2 inb_S1000x128_S1000x128_0_0 fa (k1_pay2 (F := F) fd fx)

theorem outB1_eq (c : Dev nD) (fh : Bw (F := F) c cc1_stg1_1) (fd : Bw (F := F) c cc1_stg2_1) (fb : Bw (F := F) c cc1_stg4_1) :
    outB1 c fh fd fb = (k1_pay3 (F := F) fd fh : Bw (F := F) c cc1_stg4_1) := by
  have ed : (Memref.whole cc1_stg2_1 : Memref sig .tc _ _ _).view.readAt (Elt F) R0d.toLoadRect fd = fd :=
    readAt_unit_zero cc1_stg2_1 zeros2 inb_S1000x1_S1000x1_0_0 fd
  have eh : (Memref.whole cc1_stg1_1 : Memref sig .tc _ _ _).view.readAt (Elt F) R0h.toLoadRect fh = fh :=
    readAt_unit_zero cc1_stg1_1 zeros2 inb_S1000x64_S1000x64_0_0 fh
  unfold outB1
  rw [ed, eh]
  exact write_unit_zero cc1_stg4_1 zeros2 inb_S1000x64_S1000x64_0_0 fb (k1_pay3 (F := F) fd fh)

/-- The scaling body on staging buffers 1: the inputs come back as they were; each result's buffer holds the body's
    payload over the inputs' contents. -/
theorem kernelRun0_1 (i : grid1.Coords) (c : Dev nD) (fx : Bw (F := F) c cc1_stg0_1) (fh : Bw (F := F) c cc1_stg1_1)
    (fd : Bw (F := F) c cc1_stg2_1) (fa : Bw (F := F) c cc1_stg3_1) (fb : Bw (F := F) c cc1_stg4_1)
    (E : Set ℕ) (Q : PUnit → sProp 𝕄) :
    iprop((((c : Thread nD τ).loc cc1_stg0_1) ↦{fullShare} fx) ∗ (((c : Thread nD τ).loc cc1_stg1_1) ↦{fullShare} fh)
        ∗ (((c : Thread nD τ).loc cc1_stg2_1) ↦{fullShare} fd) ∗ (((c : Thread nD τ).loc cc1_stg3_1) ↦{fullShare} fa)
        ∗ (((c : Thread nD τ).loc cc1_stg4_1) ↦{fullShare} fb)
        ∗ (iprop((((c : Thread nD τ).loc cc1_stg0_1) ↦{fullShare} fx) ∗ (((c : Thread nD τ).loc cc1_stg1_1) ↦{fullShare} fh)
            ∗ (((c : Thread nD τ).loc cc1_stg2_1) ↦{fullShare} fd)
            ∗ (((c : Thread nD τ).loc cc1_stg3_1) ↦{fullShare} (k1_pay2 (F := F) fd fx : Bw (F := F) c cc1_stg3_1))
            ∗ (((c : Thread nD τ).loc cc1_stg4_1) ↦{fullShare} (k1_pay3 (F := F) fd fh : Bw (F := F) c cc1_stg4_1))) -∗ Q ⟨⟩))
      ⊢ wp frame (wpE (defs₀ (F := F)) 𝒱₀ (c : Thread nD τ) none) E
          (cc1__scale_body i (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1)) Q := by
  have h := kernelRun0_1_raw i c fx fh fd fa fb E Q
  rw [outA1_eq, outB1_eq] at h
  exact h

/-! ## Region 0: the scaling call on its grid of ten row blocks -/

/-- Every window of the scaling call is on buffer `t mod 2` at point `t`. -/
theorem slots1_val : ∀ (t : Fin cfg1.N) (w : Fin 5), (cfg1.slots t w).val = t.val % 2 := by decide +kernel

/-- The arrays of the scaling call's windows on core `c`: features, state, degree column, and the two results. -/
abbrev Arr0 (c : Dev nD) : Type := (w : Fin cfg1.W) → Buf (Elt F) ((cfg1.win w).arr.view.loc (c.tc : Thread nD τ))

section Region0

variable (O : CellTallies nD τ sig (HIx 2)) (B : Set (SemLoc sig × HIx 2))
variable (c : Dev nD) (A : Arr0 (F := F) c)

/-- Window `w`'s block at point `t`, read off its array at the contents `A`. -/
def iblk0 (w : Fin cfg1.W) (t : Fin cfg1.N) : ((cfg1.win w).xblock (cfg1.grid.coords t)).Idx → Elt F (cfg1.win w).elt :=
  ((cfg1.win w).blk t).view.read (Elt F) (A w)

/-- The proof data of the scaling call on core `c` entered at the array contents `A`: after the body at point `t`
    each input's buffer holds its block, each result's the body's payload over the degree block and the input block;
    the invariant is the scoped rest, untouched; the core owes `O` throughout. -/
def dat0 : Dat τ (Elt F) (HIx 2) ℕ UU ℕ cfg1 c where
  A := A
  after w t := match w with
    | ⟨0, _⟩ => iblk0 c A 0 t
    | ⟨1, _⟩ => iblk0 c A 1 t
    | ⟨2, _⟩ => iblk0 c A 2 t
    | ⟨3, _⟩ => k1_pay2 (F := F) (iblk0 c A 2 t) (iblk0 c A 0 t)
    | ⟨4, _⟩ => k1_pay3 (F := F) (iblk0 c A 2 t) (iblk0 c A 1 t)
  Φ _ := Pipeline.scopedRest (Ix := HIx 2) (Name := ℕ) (U := UU) (Lvl := ℕ) (Val := Elt F) spec1 c
  q _ := fullShare
  owed _ := O
  recorded _ := B

theorem after0_0 (t : Fin cfg1.N) : (dat0 O B c A).after 0 t = iblk0 c A 0 t := by dsimp only [dat0]
theorem after0_1 (t : Fin cfg1.N) : (dat0 O B c A).after 1 t = iblk0 c A 1 t := by dsimp only [dat0]
theorem after0_2 (t : Fin cfg1.N) : (dat0 O B c A).after 2 t = iblk0 c A 2 t := by dsimp only [dat0]
theorem after0_3 (t : Fin cfg1.N) : (dat0 O B c A).after 3 t = k1_pay2 (F := F) (iblk0 c A 2 t) (iblk0 c A 0 t) := by dsimp only [dat0]
theorem after0_4 (t : Fin cfg1.N) : (dat0 O B c A).after 4 t = k1_pay3 (F := F) (iblk0 c A 2 t) (iblk0 c A 1 t) := by dsimp only [dat0]

/-- An input window, fetched at every point, holds its block. -/
theorem before0_0 (t : Fin cfg1.N) (d) : (dat0 O B c A).before 0 t d = iblk0 c A 0 t :=
  ((dat0 O B c A).before_fetched 0 t (fetch1_0 t) d).trans (by unfold Dat.fetched Dat.blockOf iblk0; rfl)
theorem before0_1 (t : Fin cfg1.N) (d) : (dat0 O B c A).before 1 t d = iblk0 c A 1 t :=
  ((dat0 O B c A).before_fetched 1 t (fetch1_1 t) d).trans (by unfold Dat.fetched Dat.blockOf iblk0; rfl)
theorem before0_2 (t : Fin cfg1.N) (d) : (dat0 O B c A).before 2 t d = iblk0 c A 2 t :=
  ((dat0 O B c A).before_fetched 2 t (fetch1_2 t) d).trans (by unfold Dat.fetched Dat.blockOf iblk0; rfl)

/-- A result window, written back at every point, is fresh at every point. -/
theorem before0_3 (t : Fin cfg1.N) (d) : (dat0 O B c A).before 3 t d = d :=
  (dat0 O B c A).before_out_reset 3 rfl t (by
    by_cases h : t.val = 0
    · exact .inl h
    · exact .inr ⟨h, flush1_3 _⟩) d
theorem before0_4 (t : Fin cfg1.N) (d) : (dat0 O B c A).before 4 t d = d :=
  (dat0 O B c A).before_out_reset 4 rfl t (by
    by_cases h : t.val = 0
    · exact .inl h
    · exact .inr ⟨h, flush1_4 _⟩) d

end Region0

section Region0b

variable (O : CellTallies nD τ sig (HIx 2)) (B : Set (SemLoc sig × HIx 2))
variable (c : Dev nD) (A : Arr0 (F := F) c)

/-- What the body is called with at point `t`, the windows one by one, -/
def bodyPre0 (t : Fin cfg1.N) : sProp 𝕄 :=
  iprop((dat0 O B c A).Φ t.castSucc ∗ (dat0 O B c A).owesAt none t.castSucc
    ∗ (∃ d, owns (c : Thread nD τ) (st1_0 t) fullShare ((dat0 O B c A).before 0 t d))
    ∗ (∃ d, owns (c : Thread nD τ) (st1_1 t) fullShare ((dat0 O B c A).before 1 t d))
    ∗ (∃ d, owns (c : Thread nD τ) (st1_2 t) fullShare ((dat0 O B c A).before 2 t d))
    ∗ (∃ d, owns (c : Thread nD τ) (st1_3 t) fullShare ((dat0 O B c A).before 3 t d))
    ∗ (∃ d, owns (c : Thread nD τ) (st1_4 t) fullShare ((dat0 O B c A).before 4 t d)))

/-- and what it returns. -/
def bodyPost0 (t : Fin cfg1.N) : sProp 𝕄 :=
  iprop((dat0 O B c A).Φ t.succ ∗ (dat0 O B c A).owesAt none t.succ
    ∗ owns (c : Thread nD τ) (st1_0 t) fullShare ((dat0 O B c A).after 0 t)
    ∗ owns (c : Thread nD τ) (st1_1 t) fullShare ((dat0 O B c A).after 1 t)
    ∗ owns (c : Thread nD τ) (st1_2 t) fullShare ((dat0 O B c A).after 2 t)
    ∗ owns (c : Thread nD τ) (st1_3 t) fullShare ((dat0 O B c A).after 3 t)
    ∗ owns (c : Thread nD τ) (st1_4 t) fullShare ((dat0 O B c A).after 4 t))

set_option maxHeartbeats 1000000 in
/-- The body at any point: each input's buffer holds its block, each result's anything; the body leaves the inputs
    as they were and the results at its payloads; the invariant and the core's dues pass through unread. -/
theorem sound_body0 (t : Fin cfg1.N) :
    bodyPre0 O B c A t ⊢ wp frame (wpE (defs₀ (F := F)) 𝒱₀ (c : Thread nD τ) none) Set.univ (bodyAt1 t) (fun _ => bodyPost0 O B c A t) := by
  unfold bodyPre0 bodyPost0 bodyAt1 st1_0 st1_1 st1_2 st1_3 st1_4
  simp only [before0_0, before0_1, before0_2, before0_3, before0_4]
  rw [show (dat0 O B c A).Φ t.succ = (dat0 O B c A).Φ t.castSucc from rfl,
    show (dat0 O B c A).owesAt none t.succ = (dat0 O B c A).owesAt none t.castSucc from rfl,
    after0_0, after0_1, after0_2, after0_3, after0_4]
  rcases Nat.mod_two_eq_zero_or_one t.val with h | h
  ·
    have e0 : cfg1.slots t 0 = (⟨0, by decide⟩ : Fin (cfg1.win 0).nbuf) := Fin.ext ((slots1_val t 0).trans h)
    have e1 : cfg1.slots t 1 = (⟨0, by decide⟩ : Fin (cfg1.win 1).nbuf) := Fin.ext ((slots1_val t 1).trans h)
    have e2 : cfg1.slots t 2 = (⟨0, by decide⟩ : Fin (cfg1.win 2).nbuf) := Fin.ext ((slots1_val t 2).trans h)
    have e3 : cfg1.slots t 3 = (⟨0, by decide⟩ : Fin (cfg1.win 3).nbuf) := Fin.ext ((slots1_val t 3).trans h)
    have e4 : cfg1.slots t 4 = (⟨0, by decide⟩ : Fin (cfg1.win 4).nbuf) := Fin.ext ((slots1_val t 4).trans h)
    simp only [e0, e1, e2, e3, e4]
    show iprop(_ ∗ _ ∗ (∃ d, owns (c : Thread nD τ) (Memref.whole cc1_stg0_0) fullShare _)
        ∗ (∃ d, owns (c : Thread nD τ) (Memref.whole cc1_stg1_0) fullShare _)
        ∗ (∃ d, owns (c : Thread nD τ) (Memref.whole cc1_stg2_0) fullShare _)
        ∗ (∃ d, owns (c : Thread nD τ) (Memref.whole cc1_stg3_0) fullShare d)
        ∗ (∃ d, owns (c : Thread nD τ) (Memref.whole cc1_stg4_0) fullShare d))
      ⊢ wp frame (wpE (defs₀ (F := F)) 𝒱₀ (c : Thread nD τ) none) Set.univ
          (cc1__scale_body (grid1.coords t) (Memref.whole cc1_stg0_0) (hstage1_0 0) (Memref.whole cc1_stg1_0) (hstage1_1 0)
            (Memref.whole cc1_stg2_0) (hstage1_2 0) (Memref.whole cc1_stg3_0) (hstage1_3 0) (Memref.whole cc1_stg4_0) (hstage1_4 0))
          (fun _ => iprop(_ ∗ _ ∗ owns (c : Thread nD τ) (Memref.whole cc1_stg0_0) fullShare _
            ∗ owns (c : Thread nD τ) (Memref.whole cc1_stg1_0) fullShare _
            ∗ owns (c : Thread nD τ) (Memref.whole cc1_stg2_0) fullShare _
            ∗ owns (c : Thread nD τ) (Memref.whole cc1_stg3_0) fullShare _
            ∗ owns (c : Thread nD τ) (Memref.whole cc1_stg4_0) fullShare _))
    simp only [owns_whole]
    iintro ⟨HΦ, Ho, ⟨%d0, H0⟩, ⟨%d1, H1⟩, ⟨%d2, H2⟩, ⟨%d3, H3⟩, ⟨%d4, H4⟩⟩
    iapply (kernelRun0_0 (grid1.coords t) c _ _ _ d3 d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  ·
    have e0 : cfg1.slots t 0 = (⟨1, by decide⟩ : Fin (cfg1.win 0).nbuf) := Fin.ext ((slots1_val t 0).trans h)
    have e1 : cfg1.slots t 1 = (⟨1, by decide⟩ : Fin (cfg1.win 1).nbuf) := Fin.ext ((slots1_val t 1).trans h)
    have e2 : cfg1.slots t 2 = (⟨1, by decide⟩ : Fin (cfg1.win 2).nbuf) := Fin.ext ((slots1_val t 2).trans h)
    have e3 : cfg1.slots t 3 = (⟨1, by decide⟩ : Fin (cfg1.win 3).nbuf) := Fin.ext ((slots1_val t 3).trans h)
    have e4 : cfg1.slots t 4 = (⟨1, by decide⟩ : Fin (cfg1.win 4).nbuf) := Fin.ext ((slots1_val t 4).trans h)
    simp only [e0, e1, e2, e3, e4]
    show iprop(_ ∗ _ ∗ (∃ d, owns (c : Thread nD τ) (Memref.whole cc1_stg0_1) fullShare _)
        ∗ (∃ d, owns (c : Thread nD τ) (Memref.whole cc1_stg1_1) fullShare _)
        ∗ (∃ d, owns (c : Thread nD τ) (Memref.whole cc1_stg2_1) fullShare _)
        ∗ (∃ d, owns (c : Thread nD τ) (Memref.whole cc1_stg3_1) fullShare d)
        ∗ (∃ d, owns (c : Thread nD τ) (Memref.whole cc1_stg4_1) fullShare d))
      ⊢ wp frame (wpE (defs₀ (F := F)) 𝒱₀ (c : Thread nD τ) none) Set.univ
          (cc1__scale_body (grid1.coords t) (Memref.whole cc1_stg0_1) (hstage1_0 1) (Memref.whole cc1_stg1_1) (hstage1_1 1)
            (Memref.whole cc1_stg2_1) (hstage1_2 1) (Memref.whole cc1_stg3_1) (hstage1_3 1) (Memref.whole cc1_stg4_1) (hstage1_4 1))
          (fun _ => iprop(_ ∗ _ ∗ owns (c : Thread nD τ) (Memref.whole cc1_stg0_1) fullShare _
            ∗ owns (c : Thread nD τ) (Memref.whole cc1_stg1_1) fullShare _
            ∗ owns (c : Thread nD τ) (Memref.whole cc1_stg2_1) fullShare _
            ∗ owns (c : Thread nD τ) (Memref.whole cc1_stg3_1) fullShare _
            ∗ owns (c : Thread nD τ) (Memref.whole cc1_stg4_1) fullShare _))
    simp only [owns_whole]
    iintro ⟨HΦ, Ho, ⟨%d0, H0⟩, ⟨%d1, H1⟩, ⟨%d2, H2⟩, ⟨%d3, H3⟩, ⟨%d4, H4⟩⟩
    iapply (kernelRun0_1 (grid1.coords t) c _ _ _ d3 d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 : BodyObligation (dat0 O B c A) (defs₀ (F := F)) 𝒱₀ none Set.univ := fun t => by
  rw [bigSep_W1, bigSep_W1]
  exact sound_body0 O B c A t

end Region0b

end Cert.Proof.KB.Region

end
-- ==== Proof.KB.Region0.lean ====
/-
  The scaling call as a region of @main on the TensorCore: the region rule's record — the call entered from its
  five arrays held whole and what the core owes, left with the arrays at the contents the pipeline computes and the
  same owed; no semaphore of its own; nothing in the invariant but the scoped buffers no window stages — and the
  call's run from the region boundary and the pipeline's staging-cell ghost state.
-/
import proofs.«207992_g50208167690906_cont_8to1c4_731_36_alg».proof.Proof.KB.Region0Body
import proofs.«207992_g50208167690906_cont_8to1c4_731_36_alg».proof.Proof.Gen.Kernel.Points
import Idealize.ShloMosaic.Lib.Pipeline.Regions
import Idealize.ShloMosaic.Lib.Pipeline.FrameBody

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The windows' arrays held whole at contents `X`. -/
abbrev arrs0 (c : Dev nD) (X : Arr0 (F := F) c) : sProp 𝕄 :=
  bigSep Finset.univ fun w : Fin cfg1.W => (((c.tc : Thread nD τ).loc (Pipeline.arrRef spec1 w)) ↦{fullShare} X w : sProp 𝕄)

section Data

variable (O : CellTallies nD τ sig (HIx 2)) (B : Set (SemLoc sig × HIx 2))

/-- The family the region rule takes: the scaling region's data at pipeline 0. -/
def pdats0 (A : (c : Dev nD) → Arr0 (F := F) c) :
    (p : Fin 3) → (c : Dev nD) → Dat τ (Elt F) (HIx 2) ℕ UU ℕ (Pipeline.pin (pcfgs (F := F)) adm p) c
  | ⟨0, _⟩ => fun c => dat0 O B c (A c)
  | ⟨1, _⟩ => fun c => datNone _ c
  | ⟨2, _⟩ => fun c => datNone _ c

end Data

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B10 : Set (SemLoc sig × HIx 2) := B ∪ cfg1.waitPairs none

include hO hlv in
-- the record's fields are stated over `cfgs p` at the pinned configuration: they unify with the statements over `cfg1`
-- only when unification may unfold plain definitions in a metavariable's type
set_option backward.isDefEq.respectTransparency.types false in
/-- The scaling region as the region rule takes it: entered from its five arrays held whole and what the core owes,
    left with the arrays at their final contents and the same owed. No semaphore of its own; nothing enters the
    invariant but the scoped buffers no window stages. -/
def reg0 (A : (c : Dev nD) → Arr0 (F := F) c) :
    Pipeline.RegionSeg (pcfgs (F := F)) adm (pdats0 O B A) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation0 O B c (A c)).loose
  hwaits c := Pipeline.cellsWaits_intro (Pipeline.pin (pcfgs (F := F)) adm) (pdats0 O B A) none 0 c (R := levAts (K (F := F)).L lv)
    fun w s t => (K (F := F)).mayWait_none (SemLoc.dma _) hO lv hlv
  pre c := iprop(arrs0 c (A c) ∗ Pipeline.owesWithin c O B)
  post c := iprop(arrs0 c (fun w => (dat0 O B c (A c)).arrAt w cfg1.N) ∗ Pipeline.owesWithin c O (B10 B))
  X _ := iprop(emp)
  Y _ := iprop(emp)
  Z _ := iprop(emp)
  hentry c := by
    rw [Pipeline.arrays_eq (Pipeline.pin (pcfgs (F := F)) adm) (pdats0 O B A) 0 c launch1.arr_whole
      ((dat0 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec1 c)
      ⊢ Pipeline.scopedRest (Ix := HIx 2) (Name := ℕ) (U := UU) (Lvl := ℕ) (Val := Elt F) spec1 c
    exact sep_elim_right.trans sep_elim_right
  hout c := by
    show Pipeline.scopedRest (Ix := HIx 2) (Name := ℕ) (U := UU) (Lvl := ℕ) (Val := Elt F) spec1 c
      ⊢ iprop(iprop(emp) ∗ Pipeline.ownSems0 (fun k : PEmpty => k.elim) c ∗ Pipeline.scopedRest (Ix := HIx 2) (Name := ℕ) (U := UU) (Lvl := ℕ) (Val := Elt F) spec1 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats0 O B A) 0 c launch1.arr_whole
      ((dat0 O B c (A c)).share_full fun _ => rfl)]
    iintro ⟨Ha, HO, -, -⟩
    imodintro
    isplitl [Ha]; · iexact Ha
    iexact HO

include hO hlv in
set_option backward.isDefEq.respectTransparency.types false in
/-- **Region 0.** On TensorCore `d`, inside @main's proof: from the level facts, the region boundary, pipeline 0's
    staging-cell ghost state, what the core owes (any tallies with nothing at index `none`; its recorded pairs within
    `B`) and the five arrays held whole at `A d`, the call of pipeline 0's region runs to the boundary, the same owed
    (the recorded pairs now within `B10 B`) and the arrays at the contents the pipeline library computes. -/
theorem region_0 (A : (c : Dev nD) → Arr0 (F := F) c) (d : Dev nD) (Φ : PUnit → sProp 𝕄) :
    iprop(levAts (K (F := F)).L lv ∗ boundary (T d) ∗ ghostAt (F := F) 0 d ∗ Pipeline.owesWithin d O B ∗ arrs0 d (A d)
        ∗ (iprop(boundary (T d) ∗ Pipeline.owesWithin d O (B10 B) ∗ arrs0 d (fun w => (dat0 O B d (A d)).arrAt w cfg1.N)) -∗ Φ ⟨⟩))
      ⊢ wp frame (wpE ((K (F := F)).defs D) 𝒱 (T d) none) Set.univ
          (Prog.lift (.customCall (SparseCore.inner (Pipeline.entry 0)) ())) Φ := by
  iintro ⟨#Hl, Hb, ⟨Hg, Ht⟩, HO, Ha, Hk⟩
  iapply ((K (F := F)).wp_liftProg D 𝒱 (T d) Set.univ none (Prog.lift (.customCall (Pipeline.entry 0) ())) Φ)
  iapply (Pipeline.RegionSeg.wp (pcfgs (F := F)) adm (pdats0 O B A) none cellOf_inj EP defs₀ 𝒱₀ (K (F := F)).L lv
    (reg0 O B hO lv hlv A) d none (fun _ h => nomatch h) (fun u => Prog.ret u) Φ)
  isplitl [Hk]
  · iintro ⟨Hb, Hpost⟩
    ihave Hpost' := (show (reg0 O B hO lv hlv A).post d
        ⊢ iprop(arrs0 d (fun w => (dat0 O B d (A d)).arrAt w cfg1.N) ∗ Pipeline.owesWithin d O (B10 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs0 d (A d) ∗ Pipeline.owesWithin d O B) ⊢ (reg0 O B hO lv hlv A).pre d from .rfl)
    isplitl [Ha]; · iexact Ha
    iexact HO
  isplitr; · iexact Hl
  isplitl [Hg]; · iexact Hg
  iexact Ht

end Region

section Wrapper

variable (lv : GSem nD τ sig → HIx 2 → ℕ) (hlv : (K (F := F)).Refines lv)

include hlv in
/-- **Region 0 in @main's proof**: the TensorCore's owed state before call `n` goes in and comes back unchanged. -/
theorem region_0_tc (n : ℕ) (A : (c : Dev nD) → Arr0 (F := F) c) (d : Dev nD) (Φ : PUnit → sProp 𝕄) :
    iprop(levAts (K (F := F)).L lv ∗ boundary (T d) ∗ ghostAt (F := F) 0 d ∗ owesTc (F := F) d n ∗ arrs0 d (A d)
        ∗ (iprop(boundary (T d) ∗ owesTc (F := F) d n
            ∗ arrs0 d (fun w => (dat0 ((K (F := F)).Otc d n) (Bn (F := F) d n) d (A d)).arrAt w cfg1.N)) -∗ Φ ⟨⟩))
      ⊢ wp frame (wpE ((K (F := F)).defs D) 𝒱 (T d) none) Set.univ
          (Prog.lift (.customCall (SparseCore.inner (Pipeline.entry 0)) ())) Φ := by
  iintro ⟨#Hl, Hb, Hg, HO, Ha, Hk⟩
  iapply (region_0 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg1 d n); iexact HO
  iexact Ha

end Wrapper

end Cert.Proof.KB.Region

end
-- ==== Proof.KB.Region0Val.lean ====
/-
  What the scaling call's five arrays hold after the region. Point `t` of the grid moves row block `t` of every
  window (rows `1000 t` to `1000 t + 999`, all columns), so a window's block read through the window is the row
  block; the three inputs are never written; each result's ten blocks tile its array, and block `t` written back is
  the body's payload over the degree block and the input block, which is block `t` of the blockwise array.
-/
import proofs.«207992_g50208167690906_cont_8to1c4_731_36_alg».proof.Proof.KB.Region0Body
import proofs.«207992_g50208167690906_cont_8to1c4_731_36_alg».proof.Proof.KB.RegionVal
import Idealize.ShloMosaic.Lib.Pipeline.Value

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- Ten row blocks of a thousand rows. -/
theorem blk_h (t : Fin cfg1.N) : t.val * 1000 + 1000 ≤ 10000 := by
  have h1 := t.isLt
  have h2 : cfg1.N = 10 := N_1
  omega

theorem idx1_0 : ∀ t : Fin cfg1.N, (cfg1.win 0).index t = ![t.val, 0] := by decide

/-- Block `t` of window 0's array, read through the window, is row block `t`. -/
theorem read_blk1_0 (t : Fin cfg1.N) (X : FVec F S10000x128 .f32) :
    ((cfg1.win 0).blk t).view.read (Elt F) X = Region.rowBlk 1000 t.val (blk_h t) X := by
  funext j
  rw [View.read_apply]
  unfold Region.rowBlk
  show X _ = X _
  refine congrArg X (funext fun a => Fin.ext ?_)
  show (((cfg1.win 0).rect t).emb j a : ℕ) = ((Region.rowRect (N := 10000) (C := 128) 1000 t.val (blk_h t)).emb j a : ℕ)
  rw [Window.rect_emb_val, idx1_0 t, Rect.emb_apply]
  match a with
  | ⟨0, _⟩ => show t.val * 1000 + (j 0 : ℕ) = t.val * 1000 + 1 * (j 0 : ℕ); omega
  | ⟨1, _⟩ => show 0 * 128 + (j 1 : ℕ) = 0 + 1 * (j 1 : ℕ); omega

theorem idx1_1 : ∀ t : Fin cfg1.N, (cfg1.win 1).index t = ![t.val, 0] := by decide

/-- Block `t` of window 1's array, read through the window, is row block `t`. -/
theorem read_blk1_1 (t : Fin cfg1.N) (X : FVec F S10000x64 .f32) :
    ((cfg1.win 1).blk t).view.read (Elt F) X = Region.rowBlk 1000 t.val (blk_h t) X := by
  funext j
  rw [View.read_apply]
  unfold Region.rowBlk
  show X _ = X _
  refine congrArg X (funext fun a => Fin.ext ?_)
  show (((cfg1.win 1).rect t).emb j a : ℕ) = ((Region.rowRect (N := 10000) (C := 64) 1000 t.val (blk_h t)).emb j a : ℕ)
  rw [Window.rect_emb_val, idx1_1 t, Rect.emb_apply]
  match a with
  | ⟨0, _⟩ => show t.val * 1000 + (j 0 : ℕ) = t.val * 1000 + 1 * (j 0 : ℕ); omega
  | ⟨1, _⟩ => show 0 * 64 + (j 1 : ℕ) = 0 + 1 * (j 1 : ℕ); omega

theorem idx1_2 : ∀ t : Fin cfg1.N, (cfg1.win 2).index t = ![t.val, 0] := by decide

/-- Block `t` of window 2's array, read through the window, is row block `t`. -/
theorem read_blk1_2 (t : Fin cfg1.N) (X : FVec F S10000x1 .f32) :
    ((cfg1.win 2).blk t).view.read (Elt F) X = Region.rowBlk 1000 t.val (blk_h t) X := by
  funext j
  rw [View.read_apply]
  unfold Region.rowBlk
  show X _ = X _
  refine congrArg X (funext fun a => Fin.ext ?_)
  show (((cfg1.win 2).rect t).emb j a : ℕ) = ((Region.rowRect (N := 10000) (C := 1) 1000 t.val (blk_h t)).emb j a : ℕ)
  rw [Window.rect_emb_val, idx1_2 t, Rect.emb_apply]
  match a with
  | ⟨0, _⟩ => show t.val * 1000 + (j 0 : ℕ) = t.val * 1000 + 1 * (j 0 : ℕ); omega
  | ⟨1, _⟩ => show 0 * 1 + (j 1 : ℕ) = 0 + 1 * (j 1 : ℕ); omega

theorem idx1_3 : ∀ t : Fin cfg1.N, (cfg1.win 3).index t = ![t.val, 0] := by decide

/-- Block `t` of window 3's array, read through the window, is row block `t`. -/
theorem read_blk1_3 (t : Fin cfg1.N) (X : FVec F S10000x128 .f32) :
    ((cfg1.win 3).blk t).view.read (Elt F) X = Region.rowBlk 1000 t.val (blk_h t) X := by
  funext j
  rw [View.read_apply]
  unfold Region.rowBlk
  show X _ = X _
  refine congrArg X (funext fun a => Fin.ext ?_)
  show (((cfg1.win 3).rect t).emb j a : ℕ) = ((Region.rowRect (N := 10000) (C := 128) 1000 t.val (blk_h t)).emb j a : ℕ)
  rw [Window.rect_emb_val, idx1_3 t, Rect.emb_apply]
  match a with
  | ⟨0, _⟩ => show t.val * 1000 + (j 0 : ℕ) = t.val * 1000 + 1 * (j 0 : ℕ); omega
  | ⟨1, _⟩ => show 0 * 128 + (j 1 : ℕ) = 0 + 1 * (j 1 : ℕ); omega

theorem idx1_4 : ∀ t : Fin cfg1.N, (cfg1.win 4).index t = ![t.val, 0] := by decide

/-- Block `t` of window 4's array, read through the window, is row block `t`. -/
theorem read_blk1_4 (t : Fin cfg1.N) (X : FVec F S10000x64 .f32) :
    ((cfg1.win 4).blk t).view.read (Elt F) X = Region.rowBlk 1000 t.val (blk_h t) X := by
  funext j
  rw [View.read_apply]
  unfold Region.rowBlk
  show X _ = X _
  refine congrArg X (funext fun a => Fin.ext ?_)
  show (((cfg1.win 4).rect t).emb j a : ℕ) = ((Region.rowRect (N := 10000) (C := 64) 1000 t.val (blk_h t)).emb j a : ℕ)
  rw [Window.rect_emb_val, idx1_4 t, Rect.emb_apply]
  match a with
  | ⟨0, _⟩ => show t.val * 1000 + (j 0 : ℕ) = t.val * 1000 + 1 * (j 0 : ℕ); omega
  | ⟨1, _⟩ => show 0 * 64 + (j 1 : ℕ) = 0 + 1 * (j 1 : ℕ); omega

/-! ## What the five arrays hold after the region -/

section Values

variable (O : CellTallies nD τ sig (HIx 2)) (B : Set (SemLoc sig × HIx 2)) (c : Dev nD) (A : Arr0 (F := F) c)

/-- The three inputs are not written. -/
theorem arrAt0_0 : (dat0 O B c A).arrAt 0 cfg1.N = A 0 := (dat0 O B c A).arrAt_in 0 rfl _
theorem arrAt0_1 : (dat0 O B c A).arrAt 1 cfg1.N = A 1 := (dat0 O B c A).arrAt_in 1 rfl _
theorem arrAt0_2 : (dat0 O B c A).arrAt 2 cfg1.N = A 2 := (dat0 O B c A).arrAt_in 2 rfl _

/-- Result 0 after the region: the features scaled, block by block. -/
theorem arrAt0_3 : (dat0 O B c A).arrAt 3 cfg1.N = Region.scale0 (F := F) (A 0) (A 2) := by
  refine (dat0 O B c A).arrAt_eq_of_cover 3 (Region.scale0 (F := F) (A 0) (A 2)) (fun t _ => ?_) (fun i => ?_)
  · show k1_pay2 (F := F) (iblk0 c A 2 t) (iblk0 c A 0 t) = _
    rw [read_blk1_3]
    unfold Region.scale0
    rw [Region.rowBlk_blockwise]
    unfold iblk0
    rw [read_blk1_2, read_blk1_0]
  · have hi0 : (i 0).val < 10000 := (i 0).isLt
    have hq : (i 0).val / 1000 < cfg1.N := by
      have h2 : cfg1.N = 10 := N_1
      omega
    refine ⟨⟨(i 0).val / 1000, hq⟩, flush1_3 _, ?_⟩
    have he : ((cfg1.win 3).blk ⟨(i 0).val / 1000, hq⟩).view.emb (Region.inBlk (N := 10000) (C := 128) 1000 (by decide) i) = i := by
      funext a
      apply Fin.ext
      show (((cfg1.win 3).rect ⟨(i 0).val / 1000, hq⟩).emb (Region.inBlk (N := 10000) (C := 128) 1000 (by decide) i) a : ℕ) = (i a : ℕ)
      rw [Window.rect_emb_val, idx1_3]
      match a with
      | ⟨0, _⟩ => show (i 0).val / 1000 * 1000 + (i 0).val % 1000 = (i 0).val; omega
      | ⟨1, _⟩ => show 0 * 128 + (i 1).val = (i 1).val; omega
    have hm := View.emb_mem_set (v := ((cfg1.win 3).blk ⟨(i 0).val / 1000, hq⟩).view) (Region.inBlk (N := 10000) (C := 128) 1000 (by decide) i)
    rwa [he] at hm

/-- Result 1 after the region: the state scaled, block by block. -/
theorem arrAt0_4 : (dat0 O B c A).arrAt 4 cfg1.N = Region.scale1 (F := F) (A 1) (A 2) := by
  refine (dat0 O B c A).arrAt_eq_of_cover 4 (Region.scale1 (F := F) (A 1) (A 2)) (fun t _ => ?_) (fun i => ?_)
  · show k1_pay3 (F := F) (iblk0 c A 2 t) (iblk0 c A 1 t) = _
    rw [read_blk1_4]
    unfold Region.scale1
    rw [Region.rowBlk_blockwise]
    unfold iblk0
    rw [read_blk1_2, read_blk1_1]
  · have hi0 : (i 0).val < 10000 := (i 0).isLt
    have hq : (i 0).val / 1000 < cfg1.N := by
      have h2 : cfg1.N = 10 := N_1
      omega
    refine ⟨⟨(i 0).val / 1000, hq⟩, flush1_4 _, ?_⟩
    have he : ((cfg1.win 4).blk ⟨(i 0).val / 1000, hq⟩).view.emb (Region.inBlk (N := 10000) (C := 64) 1000 (by decide) i) = i := by
      funext a
      apply Fin.ext
      show (((cfg1.win 4).rect ⟨(i 0).val / 1000, hq⟩).emb (Region.inBlk (N := 10000) (C := 64) 1000 (by decide) i) a : ℕ) = (i a : ℕ)
      rw [Window.rect_emb_val, idx1_4]
      match a with
      | ⟨0, _⟩ => show (i 0).val / 1000 * 1000 + (i 0).val % 1000 = (i 0).val; omega
      | ⟨1, _⟩ => show 0 * 64 + (i 1).val = (i 1).val; omega
    have hm := View.emb_mem_set (v := ((cfg1.win 4).blk ⟨(i 0).val / 1000, hq⟩).view) (Region.inBlk (N := 10000) (C := 64) 1000 (by decide) i)
    rwa [he] at hm

end Values

end Cert.Proof.KB.Region

end
-- ==== Proof.KB.RegionAdapt0.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KB.Main
import proofs.«207992_g50208167690906_cont_8to1c4_731_36_alg».proof.Proof.KB.Region0
import proofs.«207992_g50208167690906_cont_8to1c4_731_36_alg».proof.Proof.KB.Region0Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The scaling region -/

/-- The scaling region's five arrays, read off a valuation window by window. -/
def arr0 (W : Valuation τ sig (Elt F)) (c : Dev nD) : Region.Arr0 (F := F) c := fun w => W (dr (Pipeline.arrRef spec1 w))

omit [FloatOps F] in
theorem heldArr0 (d : Dev nD) (W : Valuation τ sig (Elt F)) :
    (held (T d) R0 W : sProp 𝕄) = Region.arrs0 d (arr0 W d) := by
  unfold held R0 Region.arrs0
  rw [Gen.bigSep_W1, SparseCore.bigSep_insert' (by decide), SparseCore.bigSep_insert' (by decide), SparseCore.bigSep_insert' (by decide),
    SparseCore.bigSep_insert' (by decide), bigSep_singleton]
  rfl

theorem scaleOut_other (W : Valuation τ sig (Elt F)) (b : DevRef τ sig) (h0 : b ≠ dr main_v13_0) (h1 : b ≠ dr main_v13_1) :
    scaleOut W b = W b := by
  unfold scaleOut
  rw [Function.update_of_ne h1, Function.update_of_ne h0]
theorem scaleOut_at0 (W : Valuation τ sig (Elt F)) :
    scaleOut W (dr main_v13_0) = Region.scale0 (W (dr main_arg0)) (W (dr main_v12)) := by
  unfold scaleOut
  rw [Function.update_of_ne (show dr main_v13_0 ≠ dr main_v13_1 by decide), Function.update_self]
theorem scaleOut_at1 (W : Valuation τ sig (Elt F)) :
    scaleOut W (dr main_v13_1) = Region.scale1 (W (dr main_v5)) (W (dr main_v12)) := by
  unfold scaleOut
  rw [Function.update_self]

/-- What the region leaves in its arrays is the rewritten valuation, window by window. -/
theorem arrAt0_scaleOut (O : CellTallies nD τ sig (HIx 2)) (B : Set (SemLoc sig × HIx 2)) (d : Dev nD) (W : Valuation τ sig (Elt F)) :
    (fun w => (Region.dat0 O B d (arr0 W d)).arrAt w cfg1.N) = arr0 (scaleOut W) d := by
  funext w
  match w with
  | ⟨0, _⟩ => exact (Region.arrAt0_0 O B d (arr0 W d)).trans (scaleOut_other W (dr main_arg0) (by decide) (by decide)).symm
  | ⟨1, _⟩ => exact (Region.arrAt0_1 O B d (arr0 W d)).trans (scaleOut_other W (dr main_v5) (by decide) (by decide)).symm
  | ⟨2, _⟩ => exact (Region.arrAt0_2 O B d (arr0 W d)).trans (scaleOut_other W (dr main_v12) (by decide) (by decide)).symm
  | ⟨3, _⟩ => exact (Region.arrAt0_3 O B d (arr0 W d)).trans (scaleOut_at0 W).symm
  | ⟨4, _⟩ => exact (Region.arrAt0_4 O B d (arr0 W d)).trans (scaleOut_at1 W).symm

/-- The scaling region, as @main's proof takes it. -/
theorem regionSpec0 : RegionSpec P 0 R0 scaleOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_0_tc (F := F) (K (F := F)).lev (SparseCore.Cfg.refines_self _) n (arr0 W) d Φ)
  isplitr; · iexact Hl
  isplitl [Hb]; · iexact Hb
  isplitl [Hg]; · iexact Hg
  isplitl [Ho]; · iexact Ho
  isplitl [Hheld]
  · rw [← heldArr0]; iexact Hheld
  iintro ⟨Hb, Ho, Ha⟩
  iapply Hk
  isplitl [Hb]; · iexact Hb
  isplitl [Ho]; · iexact Ho
  rw [heldArr0, ← arrAt0_scaleOut]
  iexact Ha

end Cert.Proof.KB

end
-- ==== Proof.KB.Region1.lean ====
import proofs.«207992_g50208167690906_cont_8to1c4_731_36_alg».proof.Proof.KB.Base
import proofs.«207992_g50208167690906_cont_8to1c4_731_36_alg».proof.Proof.KB.RegionCommon
import proofs.«207992_g50208167690906_cont_8to1c4_731_36_alg».proof.Proof.Gen.Kernel.Points
import Idealize.ShloMosaic.Lib.Pipeline.Regions

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## Region 1: the gridless pack -/

/-- The whole-block rectangle of the pack body's loads and store. -/
abbrev R2 : Rect S2500x128 := Rect.unit (s := S2500x128) ![0, 0] S2500x128.size inb_S2500x128_S2500x128_0_0

/-- The pack body on its three staging buffers held whole: the inputs come back as they were, the result's
    buffer holds the payload over the inputs' contents. -/
theorem kernelRun1 (c : Dev nD) (f0 : Bw (F := F) c cc2_stg0_0) (f1 : Bw (F := F) c cc2_stg1_0) (f2 : Bw (F := F) c cc2_stg2_0)
    (E : Set ℕ) (Q : PUnit → sProp 𝕄) :
    iprop((((c : Thread nD τ).loc cc2_stg0_0) ↦{fullShare} f0) ∗ (((c : Thread nD τ).loc cc2_stg1_0) ↦{fullShare} f1)
        ∗ (((c : Thread nD τ).loc cc2_stg2_0) ↦{fullShare} f2)
        ∗ (iprop((((c : Thread nD τ).loc cc2_stg0_0) ↦{fullShare} f0) ∗ (((c : Thread nD τ).loc cc2_stg1_0) ↦{fullShare} f1)
            ∗ (((c : Thread nD τ).loc cc2_stg2_0) ↦{fullShare} (k2_pay1 (F := F) f0 f1 : Bw (F := F) c cc2_stg2_0))) -∗ Q ⟨⟩))
      ⊢ wp frame (wpE (defs₀ (F := F)) 𝒱₀ (c : Thread nD τ) none) E
          (cc2__pack_body (Memref.whole cc2_stg0_0) (hstage2_0 0) (Memref.whole cc2_stg1_0) (hstage2_1 0) (Memref.whole cc2_stg2_0) (hstage2_2 0)) Q := by
  have e0 : (Memref.whole cc2_stg0_0 : Memref sig .tc _ _ _).view.readAt (Elt F) R2.toLoadRect f0 = f0 :=
    readAt_unit_zero cc2_stg0_0 zeros2 inb_S2500x128_S2500x128_0_0 f0
  have e1 : (Memref.whole cc2_stg1_0 : Memref sig .tc _ _ _).view.readAt (Elt F) R2.toLoadRect f1 = f1 :=
    readAt_unit_zero cc2_stg1_0 zeros2 inb_S2500x128_S2500x128_0_0 f1
  have e2 : ((Memref.whole cc2_stg2_0 : Memref sig .tc _ _ _).access R2).write (Elt F) f2 (k2_pay1 (F := F) f0 f1) Finset.univ
      = (k2_pay1 (F := F) f0 f1 : Bw (F := F) c cc2_stg2_0) :=
    write_unit_zero cc2_stg2_0 zeros2 inb_S2500x128_S2500x128_0_0 f2 (k2_pay1 (F := F) f0 f1)
  rw [cc2__pack_body_eq_skeleton]; unfold cc2__pack_body_skel
  iintro ⟨H0, H1, H2, Hk⟩
  iapply (wp_load 𝒱₀ (c : Thread nD τ) none E (m := Memref.whole cc2_stg0_0) (r := R2.toLoadRect) (S := Finset.univ) (Finset.subset_univ _)) $$ H0
  iintro H0
  iapply (wp_load 𝒱₀ (c : Thread nD τ) none E (m := Memref.whole cc2_stg1_0) (r := R2.toLoadRect) (S := Finset.univ) (Finset.subset_univ _)) $$ H1
  iintro H1
  iapply (wp_load 𝒱₀ (c : Thread nD τ) none E (m := Memref.whole cc2_stg2_0) (r := R2.toLoadRect) (S := Finset.univ) (Finset.subset_univ _)) $$ H2
  iintro H2
  iapply (wp_store 𝒱₀ (c : Thread nD τ) none E (m := Memref.whole cc2_stg2_0) (r := R2) (S := Finset.univ) (Finset.subset_univ _)) $$ H2
  iintro H2
  rw [show ((Prog.ret PUnit.unit).bind fun __r => Pure.pure PUnit.unit) = (Prog.ret PUnit.unit : Prog (TpuEff nD τ sig (Elt F) Λ₀ .tc) PUnit) from rfl, wp_ret]
  rw [e0, e1, e2]
  imodintro
  iapply Hk
  isplitl [H0]; · iexact H0
  isplitl [H1]; · iexact H1
  iexact H2

/-- The pack body over its staging buffers as the pipeline hands them: owned whole at contents `X0`, `X1`, `X2`. -/
theorem sound_body1 (c : Dev nD) (X0 X1 X2 : S2500x128.Idx → Elt F .i32) (E : Set ℕ) (Q : PUnit → sProp 𝕄) :
    iprop(owns (c : Thread nD τ) (Memref.whole cc2_stg0_0) fullShare X0 ∗ owns (c : Thread nD τ) (Memref.whole cc2_stg1_0) fullShare X1
        ∗ owns (c : Thread nD τ) (Memref.whole cc2_stg2_0) fullShare X2
        ∗ (iprop(owns (c : Thread nD τ) (Memref.whole cc2_stg0_0) fullShare X0 ∗ owns (c : Thread nD τ) (Memref.whole cc2_stg1_0) fullShare X1
            ∗ owns (c : Thread nD τ) (Memref.whole cc2_stg2_0) fullShare (k2_pay1 (F := F) X0 X1)) -∗ Q ⟨⟩))
      ⊢ wp frame (wpE (defs₀ (F := F)) 𝒱₀ (c : Thread nD τ) none) E
          (cc2__pack_body (Memref.whole cc2_stg0_0) (hstage2_0 0) (Memref.whole cc2_stg1_0) (hstage2_1 0) (Memref.whole cc2_stg2_0) (hstage2_2 0)) Q := by
  simp only [owns_whole_eq]
  iintro ⟨⟨%f0, %hf0, H0⟩, ⟨%f1, %hf1, H1⟩, ⟨%f2, %hf2, H2⟩, Hk⟩
  subst hf0 hf1
  iapply (kernelRun1 c f0 f1 f2 E Q)
  isplitl [H0]; · iexact H0
  isplitl [H1]; · iexact H1
  isplitl [H2]; · iexact H2
  iintro ⟨H0, H1, H2⟩
  iapply Hk
  isplitl [H0]; · iexists f0; isplitr; · ipureintro; rfl
                  iexact H0
  isplitl [H1]; · iexists f1; isplitr; · ipureintro; rfl
                  iexact H1
  iexists _; isplitr; swap; (· iexact H2); ipureintro; rfl

/-- The arrays of pipeline 1's windows on core `c`: the two index arrays and the packed result. -/
abbrev Arr1 (c : Dev nD) : Type := (w : Fin cfg2.W) → Buf (Elt F) ((cfg2.win w).arr.view.loc (c.tc : Thread nD τ))

/-- The windows' arrays held whole at contents `X`. -/
abbrev arrs1 (c : Dev nD) (X : Arr1 (F := F) c) : sProp 𝕄 :=
  bigSep Finset.univ fun w : Fin cfg2.W => (((c.tc : Thread nD τ).loc (Pipeline.arrRef spec2 w)) ↦{fullShare} X w : sProp 𝕄)

section Data

variable (O : CellTallies nD τ sig (HIx 2)) (B : Set (SemLoc sig × HIx 2))

/-- The proof data of the pack region on core `c`, entered with the arrays at `A`, the core owing `O` throughout with its
    recorded pairs within `B`: each input's buffer holds its block after the body as before it, the result's the
    payload over the two; the invariant is the scoped buffers no window stages. -/
def dat1 (c : Dev nD) (A : Arr1 (F := F) c) : Dat τ (Elt F) (HIx 2) ℕ UU ℕ cfg2 c where
  A := A
  after w t := match w with
    | ⟨0, _⟩ => ((cfg2.win 0).blk t).view.read (Elt F) (A 0)
    | ⟨1, _⟩ => ((cfg2.win 1).blk t).view.read (Elt F) (A 1)
    | ⟨2, _⟩ => k2_pay1 (F := F) (((cfg2.win 0).blk t).view.read (Elt F) (A 0)) (((cfg2.win 1).blk t).view.read (Elt F) (A 1))
  Φ _ := Pipeline.scopedRest (Ix := HIx 2) (Name := ℕ) (U := UU) (Lvl := ℕ) (Val := Elt F) spec2 c
  q _ := fullShare
  owed _ := O
  recorded _ := B

/-- The family the region rule takes: the pack region's data at pipeline 1. -/
def pdats1 (A : (c : Dev nD) → Arr1 (F := F) c) :
    (p : Fin 3) → (c : Dev nD) → Dat τ (Elt F) (HIx 2) ℕ UU ℕ (Pipeline.pin (pcfgs (F := F)) adm p) c
  | ⟨0, _⟩ => fun c => datNone _ c
  | ⟨1, _⟩ => fun c => dat1 O B c (A c)
  | ⟨2, _⟩ => fun c => datNone _ c

/-- A fetched input's buffer holds the array's block. -/
theorem before_in0 (c : Dev nD) (A : Arr1 (F := F) c) (d : (cfg2.win 0).block.Idx → Elt F (cfg2.win 0).elt) :
    (dat1 O B c A).before 0 t2_0 d = ((cfg2.win 0).blk t2_0).view.read (Elt F) (A 0) := by
  unfold Dat.before; rw [if_pos (fetch2_0 t2_0)]; rfl

theorem before_in1 (c : Dev nD) (A : Arr1 (F := F) c) (d : (cfg2.win 1).block.Idx → Elt F (cfg2.win 1).elt) :
    (dat1 O B c A).before 1 t2_0 d = ((cfg2.win 1).blk t2_0).view.read (Elt F) (A 1) := by
  unfold Dat.before; rw [if_pos (fetch2_1 t2_0)]; rfl

/-- The body obligation: the three staging buffers taken apart, the body's run, its post reassembled. -/
theorem body_obligation1 (c : Dev nD) (A : Arr1 (F := F) c) : BodyObligation (dat1 O B c A) (defs₀ (F := F)) 𝒱₀ none Set.univ := fun t => by
  obtain rfl := fin_N2 t
  rw [bigSep_W2, bigSep_W2]
  simp only
  rw [show (dat1 O B c A).Φ t2_0.succ = (dat1 O B c A).Φ t2_0.castSucc from rfl,
    show (dat1 O B c A).owesAt none t2_0.succ = (dat1 O B c A).owesAt none t2_0.castSucc from rfl]
  iintro ⟨HΦ, HO, ⟨%d0, H0⟩, ⟨%d1, H1⟩, ⟨%d2, H2⟩⟩
  rw [before_in0 O B c A d0, before_in1 O B c A d1]
  iapply (sound_body1 c (((cfg2.win 0).blk t2_0).view.read (Elt F) (A 0)) (((cfg2.win 1).blk t2_0).view.read (Elt F) (A 1))
    ((dat1 O B c A).before 2 t2_0 d2) Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

end Data

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B1 : Set (SemLoc sig × HIx 2) := B ∪ cfg2.waitPairs none

include hO hlv in
set_option backward.isDefEq.respectTransparency.types false in
/-- The pack region as the region rule takes it: entered from its three arrays held whole and what the core owes,
    left with the arrays at their final contents and the same owed. No semaphore of its own; nothing enters the
    invariant but the scoped buffers no window stages. -/
def reg1 (A : (c : Dev nD) → Arr1 (F := F) c) :
    Pipeline.RegionSeg (pcfgs (F := F)) adm (pdats1 O B A) none defs₀ 𝒱₀ (K (F := F)).L lv 1 where
  win := launch2.win.to₀
  block_pos := launch2.block_pos
  stage_whole := launch2.stage_whole
  K := PEmpty
  osem := fun k => k.elim
  ho := Pipeline.OwnSemFacts.none _
  hbody c := (body_obligation1 O B c (A c)).loose
  hwaits c := Pipeline.cellsWaits_intro (Pipeline.pin (pcfgs (F := F)) adm) (pdats1 O B A) none 1 c (R := levAts (K (F := F)).L lv)
    fun w s t => (K (F := F)).mayWait_none (SemLoc.dma _) hO lv hlv
  pre c := iprop(arrs1 c (A c) ∗ Pipeline.owesWithin c O B)
  post c := iprop(arrs1 c (fun w => (dat1 O B c (A c)).arrAt w cfg2.N) ∗ Pipeline.owesWithin c O (B1 B))
  X _ := iprop(emp)
  Y _ := iprop(emp)
  Z _ := iprop(emp)
  hentry c := by
    rw [Pipeline.arrays_eq (Pipeline.pin (pcfgs (F := F)) adm) (pdats1 O B A) 1 c launch2.arr_whole
      ((dat1 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec2 c)
      ⊢ Pipeline.scopedRest (Ix := HIx 2) (Name := ℕ) (U := UU) (Lvl := ℕ) (Val := Elt F) spec2 c
    exact sep_elim_right.trans sep_elim_right
  hout c := by
    show Pipeline.scopedRest (Ix := HIx 2) (Name := ℕ) (U := UU) (Lvl := ℕ) (Val := Elt F) spec2 c
      ⊢ iprop(iprop(emp) ∗ Pipeline.ownSems0 (fun k : PEmpty => k.elim) c ∗ Pipeline.scopedRest (Ix := HIx 2) (Name := ℕ) (U := UU) (Lvl := ℕ) (Val := Elt F) spec2 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats1 O B A) 1 c launch2.arr_whole
      ((dat1 O B c (A c)).share_full fun _ => rfl)]
    iintro ⟨Ha, HO, -, -⟩
    imodintro
    isplitl [Ha]; · iexact Ha
    iexact HO

include hO hlv in
set_option backward.isDefEq.respectTransparency.types false in
/-- **Region 1.** On TensorCore `d`, inside @main's proof: from the level facts, the region boundary, pipeline 1's
    staging-cell ghost state, what the core owes (any tallies with nothing at index `none`; its recorded pairs within
    `B`) and the three arrays held whole at `A d`, the call of pipeline 1's region runs to the boundary, the same owed
    (the recorded pairs now within `B1 B`) and the arrays at the contents the pipeline library computes. -/
theorem region_1 (A : (c : Dev nD) → Arr1 (F := F) c) (d : Dev nD) (Φ : PUnit → sProp 𝕄) :
    iprop(levAts (K (F := F)).L lv ∗ boundary (T d) ∗ ghostAt (F := F) 1 d ∗ Pipeline.owesWithin d O B ∗ arrs1 d (A d)
        ∗ (iprop(boundary (T d) ∗ Pipeline.owesWithin d O (B1 B) ∗ arrs1 d (fun w => (dat1 O B d (A d)).arrAt w cfg2.N)) -∗ Φ ⟨⟩))
      ⊢ wp frame (wpE ((K (F := F)).defs D) 𝒱 (T d) none) Set.univ
          (Prog.lift (.customCall (SparseCore.inner (Pipeline.entry 1)) ())) Φ := by
  iintro ⟨#Hl, Hb, ⟨Hg, Ht⟩, HO, Ha, Hk⟩
  iapply ((K (F := F)).wp_liftProg D 𝒱 (T d) Set.univ none (Prog.lift (.customCall (Pipeline.entry 1) ())) Φ)
  iapply (Pipeline.RegionSeg.wp (pcfgs (F := F)) adm (pdats1 O B A) none cellOf_inj EP defs₀ 𝒱₀ (K (F := F)).L lv
    (reg1 O B hO lv hlv A) d none (fun _ h => nomatch h) (fun u => Prog.ret u) Φ)
  isplitl [Hk]
  · iintro ⟨Hb, Hpost⟩
    ihave Hpost' := (show (reg1 O B hO lv hlv A).post d
        ⊢ iprop(arrs1 d (fun w => (dat1 O B d (A d)).arrAt w cfg2.N) ∗ Pipeline.owesWithin d O (B1 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs1 d (A d) ∗ Pipeline.owesWithin d O B) ⊢ (reg1 O B hO lv hlv A).pre d from .rfl)
    isplitl [Ha]; · iexact Ha
    iexact HO
  isplitr; · iexact Hl
  isplitl [Hg]; · iexact Hg
  iexact Ht

end Region

/-! ## The TensorCore's own state around a region -/

section Wrapper

variable (lv : GSem nD τ sig → HIx 2 → ℕ) (hlv : (K (F := F)).Refines lv)

include hlv in
/-- **Region 1 in @main's proof**: the TensorCore's owed state before call `n` goes in and comes back unchanged. -/
theorem region_1_tc (n : ℕ) (A : (c : Dev nD) → Arr1 (F := F) c) (d : Dev nD) (Φ : PUnit → sProp 𝕄) :
    iprop(levAts (K (F := F)).L lv ∗ boundary (T d) ∗ ghostAt (F := F) 1 d ∗ owesTc (F := F) d n ∗ arrs1 d (A d)
        ∗ (iprop(boundary (T d) ∗ owesTc (F := F) d n
            ∗ arrs1 d (fun w => (dat1 ((K (F := F)).Otc d n) (Bn (F := F) d n) d (A d)).arrAt w cfg2.N)) -∗ Φ ⟨⟩))
      ⊢ wp frame (wpE ((K (F := F)).defs D) 𝒱 (T d) none) Set.univ
          (Prog.lift (.customCall (SparseCore.inner (Pipeline.entry 1)) ())) Φ := by
  iintro ⟨#Hl, Hb, Hg, HO, Ha, Hk⟩
  iapply (region_1 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg2 d n); iexact HO
  iexact Ha

end Wrapper

/-! ## What the arrays hold after the region -/

section Values

variable (O : CellTallies nD τ sig (HIx 2)) (B : Set (SemLoc sig × HIx 2))

/-- The two index arrays are not written. -/
theorem arrAt1_0 (c : Dev nD) (A : Arr1 (F := F) c) : (dat1 O B c A).arrAt 0 cfg2.N = A 0 := (dat1 O B c A).arrAt_in 0 rfl _
theorem arrAt1_1 (c : Dev nD) (A : Arr1 (F := F) c) : (dat1 O B c A).arrAt 1 cfg2.N = A 1 := (dat1 O B c A).arrAt_in 1 rfl _

end Values

section Values2

variable (O : CellTallies nD τ sig (HIx 2)) (B : Set (SemLoc sig × HIx 2))

/-- The one block of each window is its whole array: read through it, an array's contents are themselves, -/
theorem blk0_read (X : main_v17.ty.Contents (Elt F)) : ((cfg2.win 0).blk t2_0).view.read (Elt F) X = X := by
  have h : (fun a => (cfg2.win 0).index t2_0 a * (cfg2.win 0).size a) = fun _ => 0 := by funext a; fin_cases a <;> rfl
  exact read_unit_zero main_v17 h _ X

theorem blk1_read (X : main_v18.ty.Contents (Elt F)) : ((cfg2.win 1).blk t2_0).view.read (Elt F) X = X := by
  have h : (fun a => (cfg2.win 1).index t2_0 a * (cfg2.win 1).size a) = fun _ => 0 := by funext a; fin_cases a <;> rfl
  exact read_unit_zero main_v18 h _ X

/-- and a write of every element through it leaves what was written. -/
theorem blk2_write (f w : main_v19.ty.Contents (Elt F)) : ((cfg2.win 2).blk t2_0).view.write (Elt F) f w Finset.univ = w := by
  have h : (fun a => (cfg2.win 2).index t2_0 a * (cfg2.win 2).size a) = fun _ => 0 := by funext a; fin_cases a <;> rfl
  exact write_unit_zero main_v19 h _ f w

/-- The packed array after the region: the payload over the two index arrays. -/
theorem arrAt1_2 (c : Dev nD) (A : Arr1 (F := F) c) : (dat1 O B c A).arrAt 2 cfg2.N = k2_pay1 (F := F) (A 0) (A 1) := by
  rw [show cfg2.N = (t2_0 : Fin cfg2.N).val + 1 from N_2, Dat.arrAt_succ, if_pos (flush2_2 t2_0)]
  show ((cfg2.win 2).blk t2_0).view.write (Elt F) _
    (k2_pay1 (F := F) (((cfg2.win 0).blk t2_0).view.read (Elt F) (A 0)) (((cfg2.win 1).blk t2_0).view.read (Elt F) (A 1))) Finset.univ = _
  rw [blk0_read, blk1_read, blk2_write]

end Values2

end Cert.Proof.KB.Region

end
-- ==== Proof.KB.RegionAdapt1.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KB.Main
import proofs.«207992_g50208167690906_cont_8to1c4_731_36_alg».proof.Proof.KB.Region1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The packing region -/

/-- The packing region's three arrays, read off a valuation window by window. -/
def arr1 (W : Valuation τ sig (Elt F)) (c : Dev nD) : Region.Arr1 (F := F) c := fun w => W (dr (Pipeline.arrRef spec2 w))

omit [FloatOps F] in
/-- The region's arrays held at a valuation are the windows' arrays at what is read off it. -/
theorem heldArr1 (d : Dev nD) (W : Valuation τ sig (Elt F)) :
    (held (T d) R1 W : sProp 𝕄) = Region.arrs1 d (arr1 W d) := by
  unfold held R1 Region.arrs1
  rw [Gen.bigSep_W2, SparseCore.bigSep_insert' (by decide), SparseCore.bigSep_insert' (by decide), bigSep_singleton]
  rfl

/-- The rewritten valuation away from the result, and at it. -/
theorem packOut_other (W : Valuation τ sig (Elt F)) (b : DevRef τ sig) (h : b ≠ dr main_v19) : packOut W b = W b := by
  unfold packOut
  rw [Function.update_of_ne h]
theorem packOut_at (W : Valuation τ sig (Elt F)) :
    packOut W (dr main_v19) = Region.pack (F := F) (W (dr main_v17)) (W (dr main_v18)) := by
  unfold packOut
  rw [Function.update_self]

/-- What the region leaves in its arrays is the rewritten valuation, window by window. -/
theorem arrAt1_packOut (O : CellTallies nD τ sig (HIx 2)) (B : Set (SemLoc sig × HIx 2)) (d : Dev nD) (W : Valuation τ sig (Elt F)) :
    (fun w => (Region.dat1 O B d (arr1 W d)).arrAt w cfg2.N) = arr1 (packOut W) d := by
  funext w
  match w with
  | ⟨0, _⟩ => exact (Region.arrAt1_0 O B d (arr1 W d)).trans (packOut_other W (dr main_v17) (by decide)).symm
  | ⟨1, _⟩ => exact (Region.arrAt1_1 O B d (arr1 W d)).trans (packOut_other W (dr main_v18) (by decide)).symm
  | ⟨2, _⟩ => exact (Region.arrAt1_2 O B d (arr1 W d)).trans (packOut_at W).symm

/-- The packing region, as @main's proof takes it. -/
theorem regionSpec1 : RegionSpec P 1 R1 packOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_1_tc (F := F) (K (F := F)).lev (SparseCore.Cfg.refines_self _) n (arr1 W) d Φ)
  isplitr; · iexact Hl
  isplitl [Hb]; · iexact Hb
  isplitl [Hg]; · iexact Hg
  isplitl [Ho]; · iexact Ho
  isplitl [Hheld]
  · rw [← heldArr1]; iexact Hheld
  iintro ⟨Hb, Ho, Ha⟩
  iapply Hk
  isplitl [Hb]; · iexact Hb
  isplitl [Ho]; · iexact Ho
  rw [heldArr1, ← arrAt1_packOut]
  iexact Ha

end Cert.Proof.KB

end
-- ==== Proof.KB.RegionHeld.lean ====
/-
  A region's arrays, held as a set, are its windows' arrays one by one in window order, each at the valuation's
  contents of it.
-/
import proofs.«207992_g50208167690906_cont_8to1c4_731_36_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 2) (Elt F) ℕ UU ℕ

/-- The scaling region's five windows. -/
theorem held_R0 (d : Dev nD) (W : Valuation τ sig (Elt F)) :
    (held (T d) R0 W : sProp 𝕄)
      = bigSep Finset.univ fun w : Fin 5 => (((SparseCore.T d).loc (Pipeline.arrRef spec1 w)) ↦{fullShare} W (dr (Pipeline.arrRef spec1 w)) : sProp 𝕄) := by
  unfold held R0
  rw [Gen.bigSep_W1, SparseCore.bigSep_insert' (by decide), SparseCore.bigSep_insert' (by decide), SparseCore.bigSep_insert' (by decide),
    SparseCore.bigSep_insert' (by decide), bigSep_singleton]

/-- The packing region's three windows. -/
theorem held_R1 (d : Dev nD) (W : Valuation τ sig (Elt F)) :
    (held (T d) R1 W : sProp 𝕄)
      = bigSep Finset.univ fun w : Fin 3 => (((SparseCore.T d).loc (Pipeline.arrRef spec2 w)) ↦{fullShare} W (dr (Pipeline.arrRef spec2 w)) : sProp 𝕄) := by
  unfold held R1
  rw [Gen.bigSep_W2, SparseCore.bigSep_insert' (by decide), SparseCore.bigSep_insert' (by decide), bigSep_singleton]

set_option maxHeartbeats 3200000 in
/-- The dense region's seventeen windows. -/
theorem held_R2 (d : Dev nD) (W : Valuation τ sig (Elt F)) :
    (held (T d) R2 W : sProp 𝕄)
      = bigSep Finset.univ fun w : Fin 17 => (((SparseCore.T d).loc (Pipeline.arrRef spec4 w)) ↦{fullShare} W (dr (Pipeline.arrRef spec4 w)) : sProp 𝕄) := by
  unfold held R2
  rw [Gen.bigSep_W4, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

end Cert.Proof.KB

end
-- ==== Proof.KB.Region2Body.lean ====
/-
  The dense body's triple: on whole staging memrefs, the fourteen inputs' at read contents and the three outputs'
  at anything, the body runs to its continuation holding the inputs' as they were and each output's at what its
  one store leaves, the payload over the loaded blocks.
-/
import proofs.«207992_g50208167690906_cont_8to1c4_731_36_alg».proof.Proof.KB.Base
import proofs.«207992_g50208167690906_cont_8to1c4_731_36_alg».proof.Proof.Gen.Kernel.Points
import Idealize.ShloMosaic.Lib.Pipeline.FrameBody
import Idealize.ShloMosaic.Lib.Pipeline.Regions
import Idealize.ShloMosaic.Lib.Writes

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body's accesses -/

abbrev rA : Rect S1000x128 := Rect.unit (s := S1000x128) ![0, 0] S1000x128.size inb_S1000x128_S1000x128_0_0
abbrev rB : Rect S1000x64 := Rect.unit (s := S1000x64) ![0, 0] S1000x64.size inb_S1000x64_S1000x64_0_0
abbrev rC : Rect S1000x1 := Rect.unit (s := S1000x1) ![0, 0] S1000x1.size inb_S1000x1_S1000x1_0_0
abbrev rD : Rect S128x256 := Rect.unit (s := S128x256) ![0, 0] S128x256.size inb_S128x256_S128x256_0_0
abbrev rE : Rect S64x256 := Rect.unit (s := S64x256) ![0, 0] S64x256.size inb_S64x256_S64x256_0_0
abbrev rF : Rect S1x256 := Rect.unit (s := S1x256) ![0, 0] S1x256.size inb_S1x256_S1x256_0_0
abbrev rG0 : Rect S3x64 := Rect.unit (s := S3x64) ![0, 0] S1x64.size inb_S3x64_S1x64_0_0
abbrev rG1 : Rect S3x64 := Rect.unit (s := S3x64) ![1, 0] S1x64.size inb_S3x64_S1x64_1_0
abbrev rG2 : Rect S3x64 := Rect.unit (s := S3x64) ![2, 0] S1x64.size inb_S3x64_S1x64_2_0
abbrev rH : Rect S64x10 := Rect.unit (s := S64x10) ![0, 0] S64x10.size inb_S64x10_S64x10_0_0
abbrev rI : Rect S1x10 := Rect.unit (s := S1x10) ![0, 0] S1x10.size inb_S1x10_S1x10_0_0
abbrev rJ : Rect S1000x10 := Rect.unit (s := S1000x10) ![0, 0] S1000x10.size inb_S1000x10_S1000x10_0_0

/-! ## What the body leaves in each output window's buffer -/

section Outs
variable (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32)

/-- The new cell state of the block, from the twelve input blocks the gates read. -/
def cell4 : FVec F S1000x64 .f32 :=
  k4_pay13 (View.ld x1 rA) (k4_pay7 (View.ld x2 rB)) (k4_pay8 (View.ld x3 rB))
    (k4_pay9 (View.ld x6 rC) (View.ld x1 rA) (View.ld x4 rA)) (k4_pay10 (View.ld x6 rC) (View.ld x2 rB) (View.ld x5 rB))
    (k4_pay11 (View.ld x7 rD)) (constant S1000x256 .f32 0x00000000#32) (View.ld x8 rD) (View.ld x9 rE) (View.ld x10 rE)
    (View.ld x11 rF) (View.ld x12 rG0) (View.ld x12 rG1)

/-- The new hidden state of the block before it is rectified. -/
def hid4 : FVec F S1000x64 .f32 :=
  k4_pay14 (View.ld x1 rA) (k4_pay7 (View.ld x2 rB)) (k4_pay8 (View.ld x3 rB))
    (k4_pay9 (View.ld x6 rC) (View.ld x1 rA) (View.ld x4 rA)) (k4_pay10 (View.ld x6 rC) (View.ld x2 rB) (View.ld x5 rB))
    (k4_pay11 (View.ld x7 rD)) (constant S1000x256 .f32 0x00000000#32) (View.ld x8 rD) (View.ld x9 rE) (View.ld x10 rE)
    (View.ld x11 rF) (View.ld x12 rG0) (View.ld x12 rG1) (View.ld x12 rG2)

/-- Window 14's staging buffer after the body: its one store. -/
def out4_14 : Vec F S1000x10 .f32 :=
  View.canon [⟨rJ, k4_pay2 (hid4 x1 x2 x3 x4 x5 x6 x7 x8 x9 x10 x11 x12) (Scalar.ofBits .f32 0x00000000#32) (View.ld x13 rH) (View.ld x14 rI)⟩]
/-- Window 15's. -/
def out4_15 : Vec F S1000x64 .f32 :=
  View.canon [⟨rB, k4_pay1 (hid4 x1 x2 x3 x4 x5 x6 x7 x8 x9 x10 x11 x12) (Scalar.ofBits .f32 0x00000000#32)⟩]
/-- Window 16's. -/
def out4_16 : Vec F S1000x64 .f32 :=
  View.canon [⟨rB, cell4 x1 x2 x3 x4 x5 x6 x7 x8 x9 x10 x11 x12⟩]

end Outs

/-- Each output's one store tiles its buffer, so covers it. -/
theorem cover4_14 (p : Vec F S1000x10 .f32) (y : S1000x10.Idx) :
    ∃ pc ∈ ([⟨rJ, p⟩] : List (View.Piece (Elt F) S1000x10 .f32)), y ∈ pc.1.set :=
  View.cover_of_tiled [⟨rJ, p⟩] S1000x10.size (by rfl) y
theorem cover4_B (p : Vec F S1000x64 .f32) (y : S1000x64.Idx) :
    ∃ pc ∈ ([⟨rB, p⟩] : List (View.Piece (Elt F) S1000x64 .f32)), y ∈ pc.1.set :=
  View.cover_of_tiled [⟨rB, p⟩] S1000x64.size (by rfl) y

/-! ## The body's triple -/

set_option maxHeartbeats 4000000 in
/-- The dense body on whole staging memrefs, the inputs' at read contents and the outputs' at anything, runs to the
    continuation holding the inputs' as they were and each output's at what its one store leaves. -/
theorem sound_kernel4 (c : Dev nD) (E : Set ℕ) (i : grid4.Coords) (arg1 : Memref sig .tc .vmem S1000x128 .f32) (harg1 : arg1.IsWhole) (arg2 : Memref sig .tc .vmem S1000x64 .f32) (harg2 : arg2.IsWhole) (arg3 : Memref sig .tc .vmem S1000x64 .f32) (harg3 : arg3.IsWhole) (arg4 : Memref sig .tc .vmem S1000x128 .f32) (harg4 : arg4.IsWhole) (arg5 : Memref sig .tc .vmem S1000x64 .f32) (harg5 : arg5.IsWhole) (arg6 : Memref sig .tc .vmem S1000x1 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S3x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S1000x10 .f32) (harg15 : arg15.IsWhole) (arg16 : Memref sig .tc .vmem S1000x64 .f32) (harg16 : arg16.IsWhole) (arg17 : Memref sig .tc .vmem S1000x64 .f32) (harg17 : arg17.IsWhole)
    (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ owns (c : Thread nD τ) arg15 fullShare (out4_14 x1 x2 x3 x4 x5 x6 x7 x8 x9 x10 x11 x12 x13 x14) ∗ owns (c : Thread nD τ) arg16 fullShare (out4_15 x1 x2 x3 x4 x5 x6 x7 x8 x9 x10 x11 x12) ∗ owns (c : Thread nD τ) arg17 fullShare (out4_16 x1 x2 x3 x4 x5 x6 x7 x8 x9 x10 x11 x12)) -∗ K ⟨⟩))
      ⊢ wp frame (wpE (defs₀ (F := F)) 𝒱₀ (c : Thread nD τ) none) E (cc4__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc4__dense_body_eq_skeleton]; unfold cc4__dense_body_skel
  rw [k4_part1_eq_skeleton, k4_part2_eq_skeleton]; unfold k4_part1_skel k4_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf1 hf2 hf3 hf4 hf5 hf6 hf7 hf8 hf9 hf10 hf11 hf12 hf13 hf14
  iapply (wp_load 𝒱₀ (c : Thread nD τ) none E (m := arg6) (r := rC.toLoadRect) (S := arg6.view.set) (View.setOn_subset_set _ _)) $$ H6
  iintro H6
  iapply (wp_load 𝒱₀ (c : Thread nD τ) none E (m := arg1) (r := rA.toLoadRect) (S := arg1.view.set) (View.setOn_subset_set _ _)) $$ H1
  iintro H1
  iapply (wp_load 𝒱₀ (c : Thread nD τ) none E (m := arg2) (r := rB.toLoadRect) (S := arg2.view.set) (View.setOn_subset_set _ _)) $$ H2
  iintro H2
  iapply (wp_load 𝒱₀ (c : Thread nD τ) none E (m := arg3) (r := rB.toLoadRect) (S := arg3.view.set) (View.setOn_subset_set _ _)) $$ H3
  iintro H3
  iapply (wp_load 𝒱₀ (c : Thread nD τ) none E (m := arg4) (r := rA.toLoadRect) (S := arg4.view.set) (View.setOn_subset_set _ _)) $$ H4
  iintro H4
  iapply (wp_load 𝒱₀ (c : Thread nD τ) none E (m := arg5) (r := rB.toLoadRect) (S := arg5.view.set) (View.setOn_subset_set _ _)) $$ H5
  iintro H5
  iapply (wp_load 𝒱₀ (c : Thread nD τ) none E (m := arg7) (r := rD.toLoadRect) (S := arg7.view.set) (View.setOn_subset_set _ _)) $$ H7
  iintro H7
  iapply (wp_load 𝒱₀ (c : Thread nD τ) none E (m := arg8) (r := rD.toLoadRect) (S := arg8.view.set) (View.setOn_subset_set _ _)) $$ H8
  iintro H8
  iapply (wp_load 𝒱₀ (c : Thread nD τ) none E (m := arg9) (r := rE.toLoadRect) (S := arg9.view.set) (View.setOn_subset_set _ _)) $$ H9
  iintro H9
  iapply (wp_load 𝒱₀ (c : Thread nD τ) none E (m := arg10) (r := rE.toLoadRect) (S := arg10.view.set) (View.setOn_subset_set _ _)) $$ H10
  iintro H10
  iapply (wp_load 𝒱₀ (c : Thread nD τ) none E (m := arg11) (r := rF.toLoadRect) (S := arg11.view.set) (View.setOn_subset_set _ _)) $$ H11
  iintro H11
  iapply (wp_load 𝒱₀ (c : Thread nD τ) none E (m := arg12) (r := rG0.toLoadRect) (S := arg12.view.set) (View.setOn_subset_set _ _)) $$ H12
  iintro H12
  iapply (wp_load 𝒱₀ (c : Thread nD τ) none E (m := arg12) (r := rG1.toLoadRect) (S := arg12.view.set) (View.setOn_subset_set _ _)) $$ H12
  iintro H12
  iapply (wp_load 𝒱₀ (c : Thread nD τ) none E (m := arg12) (r := rG2.toLoadRect) (S := arg12.view.set) (View.setOn_subset_set _ _)) $$ H12
  iintro H12
  iapply (wp_load 𝒱₀ (c : Thread nD τ) none E (m := arg13) (r := rH.toLoadRect) (S := arg13.view.set) (View.setOn_subset_set _ _)) $$ H13
  iintro H13
  iapply (wp_load 𝒱₀ (c : Thread nD τ) none E (m := arg14) (r := rI.toLoadRect) (S := arg14.view.set) (View.setOn_subset_set _ _)) $$ H14
  iintro H14
  iapply (wp_load 𝒱₀ (c : Thread nD τ) none E (m := arg15) (r := rJ.toLoadRect) (S := arg15.view.set) (View.setOn_subset_set _ _)) $$ H15
  iintro H15
  iapply (wp_store_writes₀ 𝒱₀ (c : Thread nD τ) none E (m := arg15) (r := rJ) (S := arg15.view.set) (View.set_slice_subset _ _)) $$ H15
  iintro H15
  iapply (wp_load 𝒱₀ (c : Thread nD τ) none E (m := arg16) (r := rB.toLoadRect) (S := arg16.view.set) (View.setOn_subset_set _ _)) $$ H16
  iintro H16
  iapply (wp_store_writes₀ 𝒱₀ (c : Thread nD τ) none E (m := arg16) (r := rB) (S := arg16.view.set) (View.set_slice_subset _ _)) $$ H16
  iintro H16
  iapply (wp_load 𝒱₀ (c : Thread nD τ) none E (m := arg17) (r := rB.toLoadRect) (S := arg17.view.set) (View.setOn_subset_set _ _)) $$ H17
  iintro H17
  iapply (wp_store_writes₀ 𝒱₀ (c : Thread nD τ) none E (m := arg17) (r := rB) (S := arg17.view.set) (View.set_slice_subset _ _)) $$ H17
  iintro H17
  rw [show ((Prog.ret PUnit.unit).bind fun __r => Pure.pure PUnit.unit) = (Prog.ret PUnit.unit : Prog (TpuEff nD τ sig (Elt F) Λ₀ .tc) PUnit) from rfl, wp_ret]
  imodintro
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover4_14 _)
  isplitl [H16]
  · iexists _; isplitr
    swap; · iexact H16
    ipureintro
    exact View.read_writes_eq_canon _ _ _ (cover4_B _)
  iexists _; isplitr
  swap; · iexact H17
  ipureintro
  exact View.read_writes_eq_canon _ _ _ (cover4_B _)

end Cert.Proof.KB.Region

end
-- ==== Proof.KB.Region2Frame.lean ====
/-
  The dense region's proof data and body obligation: after the body at a grid point each input's staging buffer
  holds its block of the input array as before it (fetched there or not), each result's what the body's one store
  leaves; the body's triple applies at every point.
-/
import proofs.«207992_g50208167690906_cont_8to1c4_731_36_alg».proof.Proof.KB.RegionCommon
import proofs.«207992_g50208167690906_cont_8to1c4_731_36_alg».proof.Proof.KB.Region2Body

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The pipeline's proof data -/

/-- The arrays of the dense region's windows on core `c`: the fourteen inputs and the three results. -/
abbrev Arr2 (c : Dev nD) : Type := (w : Fin cfg4.W) → Buf (Elt F) ((cfg4.win w).arr.view.loc (c.tc : Thread nD τ))

/-- Window `w`'s block at point `t`, read off its array as the region finds it. -/
def iblk4 (c : Dev nD) (A : Arr2 (F := F) c) (w : Fin cfg4.W) (t : Fin cfg4.N) :
    ((cfg4.win w).xblock (cfg4.grid.coords t)).Idx → Elt F (cfg4.win w).elt :=
  ((cfg4.win w).blk t).view.read (Elt F) (A w)

section Data

variable (O : CellTallies nD τ sig (HIx 2)) (B : Set (SemLoc sig × HIx 2))

/-- The proof data of the dense region on core `c`, entered with the arrays at `A`, the core owing `O` throughout with
    its recorded pairs within `B`: after the body at point `t` each input's buffer holds its block as before it, each
    result's what its one store leaves; the invariant is the scoped buffers no window stages. -/
def dat2 (c : Dev nD) (A : Arr2 (F := F) c) : Dat τ (Elt F) (HIx 2) ℕ UU ℕ cfg4 c where
  A := A
  after w t := match w with
    | ⟨0, _⟩ => iblk4 c A 0 t
    | ⟨1, _⟩ => iblk4 c A 1 t
    | ⟨2, _⟩ => iblk4 c A 2 t
    | ⟨3, _⟩ => iblk4 c A 3 t
    | ⟨4, _⟩ => iblk4 c A 4 t
    | ⟨5, _⟩ => iblk4 c A 5 t
    | ⟨6, _⟩ => iblk4 c A 6 t
    | ⟨7, _⟩ => iblk4 c A 7 t
    | ⟨8, _⟩ => iblk4 c A 8 t
    | ⟨9, _⟩ => iblk4 c A 9 t
    | ⟨10, _⟩ => iblk4 c A 10 t
    | ⟨11, _⟩ => iblk4 c A 11 t
    | ⟨12, _⟩ => iblk4 c A 12 t
    | ⟨13, _⟩ => iblk4 c A 13 t
    | ⟨14, _⟩ => out4_14 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t)
    | ⟨15, _⟩ => out4_15 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t)
    | ⟨16, _⟩ => out4_16 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t)
    | ⟨_ + 17, h⟩ => absurd h (Nat.not_lt.2 (Nat.le_add_left _ _))
  Φ _ := Pipeline.scopedRest (Ix := HIx 2) (Name := ℕ) (U := UU) (Lvl := ℕ) (Val := Elt F) spec4 c
  q _ := fullShare
  owed _ := O
  recorded _ := B

/-- The proof data's arrays are the region-entry contents. -/
theorem A_eq4 (c : Dev nD) (A : Arr2 (F := F) c) (w : Fin cfg4.W) : (dat2 O B c A).A w = A w := by
  dsimp only [dat2]

/-- What the body leaves, window by window. -/
theorem after4_0 (c : Dev nD) (A : Arr2 (F := F) c) (t : Fin cfg4.N) : (dat2 O B c A).after 0 t = iblk4 c A 0 t := by dsimp only [dat2]
theorem after4_1 (c : Dev nD) (A : Arr2 (F := F) c) (t : Fin cfg4.N) : (dat2 O B c A).after 1 t = iblk4 c A 1 t := by dsimp only [dat2]
theorem after4_2 (c : Dev nD) (A : Arr2 (F := F) c) (t : Fin cfg4.N) : (dat2 O B c A).after 2 t = iblk4 c A 2 t := by dsimp only [dat2]
theorem after4_3 (c : Dev nD) (A : Arr2 (F := F) c) (t : Fin cfg4.N) : (dat2 O B c A).after 3 t = iblk4 c A 3 t := by dsimp only [dat2]
theorem after4_4 (c : Dev nD) (A : Arr2 (F := F) c) (t : Fin cfg4.N) : (dat2 O B c A).after 4 t = iblk4 c A 4 t := by dsimp only [dat2]
theorem after4_5 (c : Dev nD) (A : Arr2 (F := F) c) (t : Fin cfg4.N) : (dat2 O B c A).after 5 t = iblk4 c A 5 t := by dsimp only [dat2]
theorem after4_6 (c : Dev nD) (A : Arr2 (F := F) c) (t : Fin cfg4.N) : (dat2 O B c A).after 6 t = iblk4 c A 6 t := by dsimp only [dat2]
theorem after4_7 (c : Dev nD) (A : Arr2 (F := F) c) (t : Fin cfg4.N) : (dat2 O B c A).after 7 t = iblk4 c A 7 t := by dsimp only [dat2]
theorem after4_8 (c : Dev nD) (A : Arr2 (F := F) c) (t : Fin cfg4.N) : (dat2 O B c A).after 8 t = iblk4 c A 8 t := by dsimp only [dat2]
theorem after4_9 (c : Dev nD) (A : Arr2 (F := F) c) (t : Fin cfg4.N) : (dat2 O B c A).after 9 t = iblk4 c A 9 t := by dsimp only [dat2]
theorem after4_10 (c : Dev nD) (A : Arr2 (F := F) c) (t : Fin cfg4.N) : (dat2 O B c A).after 10 t = iblk4 c A 10 t := by dsimp only [dat2]
theorem after4_11 (c : Dev nD) (A : Arr2 (F := F) c) (t : Fin cfg4.N) : (dat2 O B c A).after 11 t = iblk4 c A 11 t := by dsimp only [dat2]
theorem after4_12 (c : Dev nD) (A : Arr2 (F := F) c) (t : Fin cfg4.N) : (dat2 O B c A).after 12 t = iblk4 c A 12 t := by dsimp only [dat2]
theorem after4_13 (c : Dev nD) (A : Arr2 (F := F) c) (t : Fin cfg4.N) : (dat2 O B c A).after 13 t = iblk4 c A 13 t := by dsimp only [dat2]
theorem after4_14 (c : Dev nD) (A : Arr2 (F := F) c) (t : Fin cfg4.N) : (dat2 O B c A).after 14 t = out4_14 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t) := by dsimp only [dat2]
theorem after4_15 (c : Dev nD) (A : Arr2 (F := F) c) (t : Fin cfg4.N) : (dat2 O B c A).after 15 t = out4_15 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) := by dsimp only [dat2]
theorem after4_16 (c : Dev nD) (A : Arr2 (F := F) c) (t : Fin cfg4.N) : (dat2 O B c A).after 16 t = out4_16 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) := by dsimp only [dat2]

/-- Each input's current staging buffer holds its block at every point, fetched there or not: unfetched, the block
    index has not moved and the body left the block in place. -/
theorem before4_0 (c : Dev nD) (A : Arr2 (F := F) c) (t : Fin cfg4.N) (d) : (dat2 O B c A).before 0 t d = iblk4 c A 0 t :=
  ((dat2 O B c A).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (A : Arr2 (F := F) c) (t : Fin cfg4.N) (d) : (dat2 O B c A).before 1 t d = iblk4 c A 1 t :=
  ((dat2 O B c A).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (A : Arr2 (F := F) c) (t : Fin cfg4.N) (d) : (dat2 O B c A).before 2 t d = iblk4 c A 2 t :=
  ((dat2 O B c A).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (A : Arr2 (F := F) c) (t : Fin cfg4.N) (d) : (dat2 O B c A).before 3 t d = iblk4 c A 3 t :=
  ((dat2 O B c A).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (A : Arr2 (F := F) c) (t : Fin cfg4.N) (d) : (dat2 O B c A).before 4 t d = iblk4 c A 4 t :=
  ((dat2 O B c A).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (A : Arr2 (F := F) c) (t : Fin cfg4.N) (d) : (dat2 O B c A).before 5 t d = iblk4 c A 5 t :=
  ((dat2 O B c A).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (A : Arr2 (F := F) c) (t : Fin cfg4.N) (d) : (dat2 O B c A).before 6 t d = iblk4 c A 6 t :=
  ((dat2 O B c A).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (A : Arr2 (F := F) c) (t : Fin cfg4.N) (d) : (dat2 O B c A).before 7 t d = iblk4 c A 7 t :=
  ((dat2 O B c A).before_in_eq_fetched 7 rfl (fun _ => rfl) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (A : Arr2 (F := F) c) (t : Fin cfg4.N) (d) : (dat2 O B c A).before 8 t d = iblk4 c A 8 t :=
  ((dat2 O B c A).before_in_eq_fetched 8 rfl (fun _ => rfl) (fun _ _ _ => rfl) (fun t => by rw [after4_8]; unfold Dat.blockOf iblk4; rw [A_eq4]; try rfl) t d).trans
    (by unfold Dat.fetched Dat.blockOf iblk4; rw [A_eq4]; try rfl)
theorem before4_9 (c : Dev nD) (A : Arr2 (F := F) c) (t : Fin cfg4.N) (d) : (dat2 O B c A).before 9 t d = iblk4 c A 9 t :=
  ((dat2 O B c A).before_in_eq_fetched 9 rfl (fun _ => rfl) (fun _ _ _ => rfl) (fun t => by rw [after4_9]; unfold Dat.blockOf iblk4; rw [A_eq4]; try rfl) t d).trans
    (by unfold Dat.fetched Dat.blockOf iblk4; rw [A_eq4]; try rfl)
theorem before4_10 (c : Dev nD) (A : Arr2 (F := F) c) (t : Fin cfg4.N) (d) : (dat2 O B c A).before 10 t d = iblk4 c A 10 t :=
  ((dat2 O B c A).before_in_eq_fetched 10 rfl (fun _ => rfl) (fun _ _ _ => rfl) (fun t => by rw [after4_10]; unfold Dat.blockOf iblk4; rw [A_eq4]; try rfl) t d).trans
    (by unfold Dat.fetched Dat.blockOf iblk4; rw [A_eq4]; try rfl)
theorem before4_11 (c : Dev nD) (A : Arr2 (F := F) c) (t : Fin cfg4.N) (d) : (dat2 O B c A).before 11 t d = iblk4 c A 11 t :=
  ((dat2 O B c A).before_in_eq_fetched 11 rfl (fun _ => rfl) (fun _ _ _ => rfl) (fun t => by rw [after4_11]; unfold Dat.blockOf iblk4; rw [A_eq4]; try rfl) t d).trans
    (by unfold Dat.fetched Dat.blockOf iblk4; rw [A_eq4]; try rfl)
theorem before4_12 (c : Dev nD) (A : Arr2 (F := F) c) (t : Fin cfg4.N) (d) : (dat2 O B c A).before 12 t d = iblk4 c A 12 t :=
  ((dat2 O B c A).before_in_eq_fetched 12 rfl (fun _ => rfl) (fun _ _ _ => rfl) (fun t => by rw [after4_12]; unfold Dat.blockOf iblk4; rw [A_eq4]; try rfl) t d).trans
    (by unfold Dat.fetched Dat.blockOf iblk4; rw [A_eq4]; try rfl)
theorem before4_13 (c : Dev nD) (A : Arr2 (F := F) c) (t : Fin cfg4.N) (d) : (dat2 O B c A).before 13 t d = iblk4 c A 13 t :=
  ((dat2 O B c A).before_in_eq_fetched 13 rfl (fun _ => rfl) (fun _ _ _ => rfl) (fun t => by rw [after4_13]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (A : Arr2 (F := F) c) (t : Fin cfg4.N) : sProp 𝕄 :=
  iprop((dat2 O B c A).Φ t.castSucc ∗ (dat2 O B c A).owesAt none t.castSucc
    ∗ (∃ d, owns (c : Thread nD τ) (st4_0 t) fullShare ((dat2 O B c A).before 0 t d))
    ∗ (∃ d, owns (c : Thread nD τ) (st4_1 t) fullShare ((dat2 O B c A).before 1 t d))
    ∗ (∃ d, owns (c : Thread nD τ) (st4_2 t) fullShare ((dat2 O B c A).before 2 t d))
    ∗ (∃ d, owns (c : Thread nD τ) (st4_3 t) fullShare ((dat2 O B c A).before 3 t d))
    ∗ (∃ d, owns (c : Thread nD τ) (st4_4 t) fullShare ((dat2 O B c A).before 4 t d))
    ∗ (∃ d, owns (c : Thread nD τ) (st4_5 t) fullShare ((dat2 O B c A).before 5 t d))
    ∗ (∃ d, owns (c : Thread nD τ) (st4_6 t) fullShare ((dat2 O B c A).before 6 t d))
    ∗ (∃ d, owns (c : Thread nD τ) (st4_7 t) fullShare ((dat2 O B c A).before 7 t d))
    ∗ (∃ d, owns (c : Thread nD τ) (st4_8 t) fullShare ((dat2 O B c A).before 8 t d))
    ∗ (∃ d, owns (c : Thread nD τ) (st4_9 t) fullShare ((dat2 O B c A).before 9 t d))
    ∗ (∃ d, owns (c : Thread nD τ) (st4_10 t) fullShare ((dat2 O B c A).before 10 t d))
    ∗ (∃ d, owns (c : Thread nD τ) (st4_11 t) fullShare ((dat2 O B c A).before 11 t d))
    ∗ (∃ d, owns (c : Thread nD τ) (st4_12 t) fullShare ((dat2 O B c A).before 12 t d))
    ∗ (∃ d, owns (c : Thread nD τ) (st4_13 t) fullShare ((dat2 O B c A).before 13 t d))
    ∗ (∃ d, owns (c : Thread nD τ) (st4_14 t) fullShare ((dat2 O B c A).before 14 t d))
    ∗ (∃ d, owns (c : Thread nD τ) (st4_15 t) fullShare ((dat2 O B c A).before 15 t d))
    ∗ (∃ d, owns (c : Thread nD τ) (st4_16 t) fullShare ((dat2 O B c A).before 16 t d)))

/-- and what it returns. -/
def bodyPost4 (c : Dev nD) (A : Arr2 (F := F) c) (t : Fin cfg4.N) : sProp 𝕄 :=
  iprop((dat2 O B c A).Φ t.succ ∗ (dat2 O B c A).owesAt none t.succ
    ∗ owns (c : Thread nD τ) (st4_0 t) fullShare ((dat2 O B c A).after 0 t)
    ∗ owns (c : Thread nD τ) (st4_1 t) fullShare ((dat2 O B c A).after 1 t)
    ∗ owns (c : Thread nD τ) (st4_2 t) fullShare ((dat2 O B c A).after 2 t)
    ∗ owns (c : Thread nD τ) (st4_3 t) fullShare ((dat2 O B c A).after 3 t)
    ∗ owns (c : Thread nD τ) (st4_4 t) fullShare ((dat2 O B c A).after 4 t)
    ∗ owns (c : Thread nD τ) (st4_5 t) fullShare ((dat2 O B c A).after 5 t)
    ∗ owns (c : Thread nD τ) (st4_6 t) fullShare ((dat2 O B c A).after 6 t)
    ∗ owns (c : Thread nD τ) (st4_7 t) fullShare ((dat2 O B c A).after 7 t)
    ∗ owns (c : Thread nD τ) (st4_8 t) fullShare ((dat2 O B c A).after 8 t)
    ∗ owns (c : Thread nD τ) (st4_9 t) fullShare ((dat2 O B c A).after 9 t)
    ∗ owns (c : Thread nD τ) (st4_10 t) fullShare ((dat2 O B c A).after 10 t)
    ∗ owns (c : Thread nD τ) (st4_11 t) fullShare ((dat2 O B c A).after 11 t)
    ∗ owns (c : Thread nD τ) (st4_12 t) fullShare ((dat2 O B c A).after 12 t)
    ∗ owns (c : Thread nD τ) (st4_13 t) fullShare ((dat2 O B c A).after 13 t)
    ∗ owns (c : Thread nD τ) (st4_14 t) fullShare ((dat2 O B c A).after 14 t)
    ∗ owns (c : Thread nD τ) (st4_15 t) fullShare ((dat2 O B c A).after 15 t)
    ∗ owns (c : Thread nD τ) (st4_16 t) fullShare ((dat2 O B c A).after 16 t))

set_option maxHeartbeats 4000000 in
/-- The body at any point: the inputs' memrefs hold their blocks, so the body's triple applies; the invariant and the
    core's debts pass through unread. -/
theorem sound_body4 (c : Dev nD) (A : Arr2 (F := F) c) (t : Fin cfg4.N) :
    bodyPre4 O B c A t ⊢ wp frame (wpE (defs₀ (F := F)) 𝒱₀ (c : Thread nD τ) none) Set.univ (bodyAt4 t) (fun _ => bodyPost4 O B c A t) := by
  unfold bodyPre4 bodyPost4 bodyAt4
  simp only [before4_0, before4_1, before4_2, before4_3, before4_4, before4_5, before4_6, before4_7, before4_8, before4_9, before4_10, before4_11, before4_12, before4_13]
  rw [show (dat2 O B c A).Φ t.succ = (dat2 O B c A).Φ t.castSucc from rfl,
    show (dat2 O B c A).owesAt none t.succ = (dat2 O B c A).owesAt none t.castSucc from rfl,
    after4_0, after4_1, after4_2, after4_3, after4_4, after4_5, after4_6, after4_7, after4_8, after4_9, after4_10, after4_11, after4_12, after4_13, after4_14, after4_15, after4_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel4 c Set.univ _ _ _ _ _ _ _ _ _ _ _ _ _ _ _ _ _ _ _ _ _ _ _ _ _ _ _ _ _ _ _ _ _ _ _ (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) (iblk4 c A 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation2 (c : Dev nD) (A : Arr2 (F := F) c) :
    BodyObligation (dat2 O B c A) (defs₀ (F := F)) 𝒱₀ none Set.univ := fun t => by
  rw [bigSep_W4, bigSep_W4]
  exact sound_body4 O B c A t

end Data

end Cert.Proof.KB.Region

end
-- ==== Proof.KB.Region2.lean ====
/-
  The dense region as one step of the main program's proof: from its seventeen arrays held whole and what the
  core owes, the region's call runs to the arrays at the contents the write-backs leave, the same owed.
-/
import proofs.«207992_g50208167690906_cont_8to1c4_731_36_alg».proof.Proof.KB.Region2Frame

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The windows' arrays held whole at contents `X`. -/
abbrev arrs2 (c : Dev nD) (X : Arr2 (F := F) c) : sProp 𝕄 :=
  bigSep Finset.univ fun w : Fin cfg4.W => (((c.tc : Thread nD τ).loc (Pipeline.arrRef spec4 w)) ↦{fullShare} X w : sProp 𝕄)

section Family

variable (O : CellTallies nD τ sig (HIx 2)) (B : Set (SemLoc sig × HIx 2))

/-- The family the region rule takes: the dense region's data at pipeline 2. -/
def pdats2 (A : (c : Dev nD) → Arr2 (F := F) c) :
    (p : Fin 3) → (c : Dev nD) → Dat τ (Elt F) (HIx 2) ℕ UU ℕ (Pipeline.pin (pcfgs (F := F)) adm p) c
  | ⟨0, _⟩ => fun c => datNone _ c
  | ⟨1, _⟩ => fun c => datNone _ c
  | ⟨2, _⟩ => fun c => dat2 O B c (A c)

end Family

section Region

variable (O : CellTallies nD τ sig (HIx 2)) (B : Set (SemLoc sig × HIx 2)) (hO : ∀ g, O g none = 0)
variable (lv : GSem nD τ sig → HIx 2 → ℕ) (hlv : (K (F := F)).Refines lv)

/-- The bound on the recorded pairs after the region: the loop's own waits, at index `none`, beside `B`. -/
abbrev B2 : Set (SemLoc sig × HIx 2) := B ∪ cfg4.waitPairs none

include hO hlv in
set_option backward.isDefEq.respectTransparency.types false in
/-- The dense region as the region rule takes it: entered from its seventeen arrays held whole and what the core owes,
    left with the arrays at their final contents and the same owed. No semaphore of its own; nothing enters the
    invariant but the scoped buffers no window stages. -/
def reg2 (A : (c : Dev nD) → Arr2 (F := F) c) :
    Pipeline.RegionSeg (pcfgs (F := F)) adm (pdats2 O B A) none defs₀ 𝒱₀ (K (F := F)).L lv 2 where
  win := launch4.win.to₀
  block_pos := launch4.block_pos
  stage_whole := launch4.stage_whole
  K := PEmpty
  osem := fun k => k.elim
  ho := Pipeline.OwnSemFacts.none _
  hbody c := (body_obligation2 O B c (A c)).loose
  hwaits c := Pipeline.cellsWaits_intro (Pipeline.pin (pcfgs (F := F)) adm) (pdats2 O B A) none 2 c (R := levAts (K (F := F)).L lv)
    fun w s t => (K (F := F)).mayWait_none (SemLoc.dma _) hO lv hlv
  pre c := iprop(arrs2 c (A c) ∗ Pipeline.owesWithin c O B)
  post c := iprop(arrs2 c (fun w => (dat2 O B c (A c)).arrAt w cfg4.N) ∗ Pipeline.owesWithin c O (B2 B))
  X _ := iprop(emp)
  Y _ := iprop(emp)
  Z _ := iprop(emp)
  hentry c := by
    rw [Pipeline.arrays_eq (Pipeline.pin (pcfgs (F := F)) adm) (pdats2 O B A) 2 c launch4.arr_whole
      ((dat2 O B c (A c)).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (Pipeline.owesWithin_mono c O (Set.subset_union_left)); iexact HO
    isplitl <;> iempintro
  hin c := by
    show iprop(iprop(emp) ∗ _ ∗ Pipeline.scopedRest (Ix := HIx 2) (Name := ℕ) (U := UU) (Lvl := ℕ) (Val := Elt F) spec4 c)
      ⊢ Pipeline.scopedRest (Ix := HIx 2) (Name := ℕ) (U := UU) (Lvl := ℕ) (Val := Elt F) spec4 c
    exact sep_elim_right.trans sep_elim_right
  hout c := by
    show Pipeline.scopedRest (Ix := HIx 2) (Name := ℕ) (U := UU) (Lvl := ℕ) (Val := Elt F) spec4 c
      ⊢ iprop(iprop(emp) ∗ Pipeline.ownSems0 (fun k : PEmpty => k.elim) c ∗ Pipeline.scopedRest (Ix := HIx 2) (Name := ℕ) (U := UU) (Lvl := ℕ) (Val := Elt F) spec4 c)
    unfold Pipeline.ownSems0; rw [Finset.univ_eq_empty, BI.bigSep_empty]
    iintro Hr
    isplitr; · iempintro
    isplitr; · iempintro
    iexact Hr
  hexit c := by
    rw [Pipeline.arrays_eq (Pipeline.pin (pcfgs (F := F)) adm) (pdats2 O B A) 2 c launch4.arr_whole
      ((dat2 O B c (A c)).share_full fun _ => rfl)]
    iintro ⟨Ha, HO, -, -⟩
    imodintro
    isplitl [Ha]; · iexact Ha
    iexact HO

include hO hlv in
set_option backward.isDefEq.respectTransparency.types false in
/-- **Region 2.** On TensorCore `d`, inside @main's proof: from the level facts, the region boundary, pipeline 2's
    staging-cell ghost state, what the core owes (any tallies with nothing at index `none`; its recorded pairs within
    `B`) and the seventeen arrays held whole at `A d`, the call of pipeline 2's region runs to the boundary, the same
    owed (the recorded pairs now within `B2 B`) and the arrays at the contents the pipeline library computes. -/
theorem region_2 (A : (c : Dev nD) → Arr2 (F := F) c) (d : Dev nD) (Φ : PUnit → sProp 𝕄) :
    iprop(levAts (K (F := F)).L lv ∗ boundary (T d) ∗ ghostAt (F := F) 2 d ∗ Pipeline.owesWithin d O B ∗ arrs2 d (A d)
        ∗ (iprop(boundary (T d) ∗ Pipeline.owesWithin d O (B2 B) ∗ arrs2 d (fun w => (dat2 O B d (A d)).arrAt w cfg4.N)) -∗ Φ ⟨⟩))
      ⊢ wp frame (wpE ((K (F := F)).defs D) 𝒱 (T d) none) Set.univ
          (Prog.lift (.customCall (SparseCore.inner (Pipeline.entry 2)) ())) Φ := by
  iintro ⟨#Hl, Hb, ⟨Hg, Ht⟩, HO, Ha, Hk⟩
  iapply ((K (F := F)).wp_liftProg D 𝒱 (T d) Set.univ none (Prog.lift (.customCall (Pipeline.entry 2) ())) Φ)
  iapply (Pipeline.RegionSeg.wp (pcfgs (F := F)) adm (pdats2 O B A) none cellOf_inj EP defs₀ 𝒱₀ (K (F := F)).L lv
    (reg2 O B hO lv hlv A) d none (fun _ h => nomatch h) (fun u => Prog.ret u) Φ)
  isplitl [Hk]
  · iintro ⟨Hb, Hpost⟩
    ihave Hpost' := (show (reg2 O B hO lv hlv A).post d
        ⊢ iprop(arrs2 d (fun w => (dat2 O B d (A d)).arrAt w cfg4.N) ∗ Pipeline.owesWithin d O (B2 B)) from .rfl) $$ Hpost
    icases Hpost' with ⟨Ha, HO⟩
    rw [wp_ret]; imodintro
    iapply Hk
    isplitl [Hb]; · iexact Hb
    isplitl [HO]; · iexact HO
    iexact Ha
  isplitl [Hb]; · iexact Hb
  isplitl [Ha HO]
  · iapply (show iprop(arrs2 d (A d) ∗ Pipeline.owesWithin d O B) ⊢ (reg2 O B hO lv hlv A).pre d from .rfl)
    isplitl [Ha]; · iexact Ha
    iexact HO
  isplitr; · iexact Hl
  isplitl [Hg]; · iexact Hg
  iexact Ht

end Region

section Wrapper

variable (lv : GSem nD τ sig → HIx 2 → ℕ) (hlv : (K (F := F)).Refines lv)

include hlv in
/-- **Region 2 in the main program's proof**: the TensorCore's owed state before call `n` goes in and comes back unchanged. -/
theorem region_2_tc (n : ℕ) (A : (c : Dev nD) → Arr2 (F := F) c) (d : Dev nD) (Φ : PUnit → sProp 𝕄) :
    iprop(levAts (K (F := F)).L lv ∗ boundary (T d) ∗ ghostAt (F := F) 2 d ∗ owesTc (F := F) d n ∗ arrs2 d (A d)
        ∗ (iprop(boundary (T d) ∗ owesTc (F := F) d n
            ∗ arrs2 d (fun w => (dat2 ((K (F := F)).Otc d n) (Bn (F := F) d n) d (A d)).arrAt w cfg4.N)) -∗ Φ ⟨⟩))
      ⊢ wp frame (wpE ((K (F := F)).defs D) 𝒱 (T d) none) Set.univ
          (Prog.lift (.customCall (SparseCore.inner (Pipeline.entry 2)) ())) Φ := by
  iintro ⟨#Hl, Hb, Hg, HO, Ha, Hk⟩
  iapply (region_2 ((K (F := F)).Otc d n) (Bn (F := F) d n) (Otc_none d n) lv hlv A d Φ)
  isplitr; · iexact Hl
  isplitl [Hb]; · iexact Hb
  isplitl [Hg]; · iexact Hg
  isplitl [HO]; · iapply (owesTc_in d n); iexact HO
  isplitl [Ha]; · iexact Ha
  iintro ⟨Hb, HO, Ha⟩
  iapply Hk
  isplitl [Hb]; · iexact Hb
  isplitl [HO]; · iapply (owesTc_out cfg4 d n); iexact HO
  iexact Ha

end Wrapper

end Cert.Proof.KB.Region

end
-- ==== Proof.KB.Region2Val.lean ====
/-
  What the dense region's arrays hold after it: a row-blocked window's block at grid point `t` is rows
  `1000 t … 1000 t + 999` of its array and a whole-array window's block is the array, so what point `t` writes back
  of each result is block `t` of one whole-array function of the input arrays; the ten blocks cover the rows, and
  the result array ends at that function.
-/
import proofs.«207992_g50208167690906_cont_8to1c4_731_36_alg».proof.Proof.KB.Region2Frame
import proofs.«207992_g50208167690906_cont_8to1c4_731_36_alg».proof.Proof.KB.RegionVal
import Idealize.ShloMosaic.Lib.Pipeline.Value

set_option maxRecDepth 16384

noncomputable section

namespace Cert.Proof.KB.Region

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The windows' blocks -/

/-- A grid point's rows lie inside the arrays. -/
theorem rows4 (t : Fin cfg4.N) : t.val * 1000 + 1000 ≤ 10000 := by
  have h := t.isLt; have hN : cfg4.N = 10 := N_4; omega

/-- The printed index maps of the row-blocked windows, decided over the grid: block `t` of the rows, the one block of
    the columns. -/
theorem idx_row4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_14.index t (0 : Fin 2) = t.val ∧ win4_14.index t (1 : Fin 2) = 0
    ∧ win4_15.index t (0 : Fin 2) = t.val ∧ win4_15.index t (1 : Fin 2) = 0
    ∧ win4_16.index t (0 : Fin 2) = t.val ∧ win4_16.index t (1 : Fin 2) = 0 :=
  (by decide +kernel : ∀ t : Fin grid4.N, _)

/-- The printed index maps of the windows that take their whole array at every point. -/
theorem idx_whole4 : ∀ t : Fin cfg4.N,
    win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = 0 ∧ win4_13.index t (1 : Fin 2) = 0 :=
  (by decide +kernel : ∀ t : Fin grid4.N, _)

/-! A row-blocked window's block at point `t`, read off an array, is rows `1000 t … 1000 t + 999` of it. -/

theorem read_blk4_0 (t : Fin cfg4.N) (X : FVec F S10000x128 .f32) :
    ((cfg4.win 0).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 0).blk t).view.emb j) = X ((rowRect 1000 t.val (rows4 t)).emb j)
  refine congrArg X (funext fun a => Fin.ext ?_)
  match a with
  | ⟨0, _⟩ => show win4_0.index t (0 : Fin 2) * 1000 + 1 * (j 0).val = t.val * 1000 + 1 * (j 0).val; rw [e0a]
  | ⟨1, _⟩ => show win4_0.index t (1 : Fin 2) * 128 + 1 * (j 1).val = 0 + 1 * (j 1).val; rw [e0b, Nat.zero_mul]
theorem read_blk4_1 (t : Fin cfg4.N) (X : FVec F S10000x64 .f32) :
    ((cfg4.win 1).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 1).blk t).view.emb j) = X ((rowRect 1000 t.val (rows4 t)).emb j)
  refine congrArg X (funext fun a => Fin.ext ?_)
  match a with
  | ⟨0, _⟩ => show win4_1.index t (0 : Fin 2) * 1000 + 1 * (j 0).val = t.val * 1000 + 1 * (j 0).val; rw [e1a]
  | ⟨1, _⟩ => show win4_1.index t (1 : Fin 2) * 64 + 1 * (j 1).val = 0 + 1 * (j 1).val; rw [e1b, Nat.zero_mul]
theorem read_blk4_2 (t : Fin cfg4.N) (X : FVec F S10000x64 .f32) :
    ((cfg4.win 2).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 2).blk t).view.emb j) = X ((rowRect 1000 t.val (rows4 t)).emb j)
  refine congrArg X (funext fun a => Fin.ext ?_)
  match a with
  | ⟨0, _⟩ => show win4_2.index t (0 : Fin 2) * 1000 + 1 * (j 0).val = t.val * 1000 + 1 * (j 0).val; rw [e2a]
  | ⟨1, _⟩ => show win4_2.index t (1 : Fin 2) * 64 + 1 * (j 1).val = 0 + 1 * (j 1).val; rw [e2b, Nat.zero_mul]
theorem read_blk4_3 (t : Fin cfg4.N) (X : FVec F S10000x128 .f32) :
    ((cfg4.win 3).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 3).blk t).view.emb j) = X ((rowRect 1000 t.val (rows4 t)).emb j)
  refine congrArg X (funext fun a => Fin.ext ?_)
  match a with
  | ⟨0, _⟩ => show win4_3.index t (0 : Fin 2) * 1000 + 1 * (j 0).val = t.val * 1000 + 1 * (j 0).val; rw [e3a]
  | ⟨1, _⟩ => show win4_3.index t (1 : Fin 2) * 128 + 1 * (j 1).val = 0 + 1 * (j 1).val; rw [e3b, Nat.zero_mul]
theorem read_blk4_4 (t : Fin cfg4.N) (X : FVec F S10000x64 .f32) :
    ((cfg4.win 4).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 4).blk t).view.emb j) = X ((rowRect 1000 t.val (rows4 t)).emb j)
  refine congrArg X (funext fun a => Fin.ext ?_)
  match a with
  | ⟨0, _⟩ => show win4_4.index t (0 : Fin 2) * 1000 + 1 * (j 0).val = t.val * 1000 + 1 * (j 0).val; rw [e4a]
  | ⟨1, _⟩ => show win4_4.index t (1 : Fin 2) * 64 + 1 * (j 1).val = 0 + 1 * (j 1).val; rw [e4b, Nat.zero_mul]
theorem read_blk4_5 (t : Fin cfg4.N) (X : FVec F S10000x1 .f32) :
    ((cfg4.win 5).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 5).blk t).view.emb j) = X ((rowRect 1000 t.val (rows4 t)).emb j)
  refine congrArg X (funext fun a => Fin.ext ?_)
  match a with
  | ⟨0, _⟩ => show win4_5.index t (0 : Fin 2) * 1000 + 1 * (j 0).val = t.val * 1000 + 1 * (j 0).val; rw [e5a]
  | ⟨1, _⟩ => show win4_5.index t (1 : Fin 2) * 1 + 1 * (j 1).val = 0 + 1 * (j 1).val; rw [e5b, Nat.zero_mul]
theorem read_blk4_14 (t : Fin cfg4.N) (X : FVec F S10000x10 .f32) :
    ((cfg4.win 14).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 14).blk t).view.emb j) = X ((rowRect 1000 t.val (rows4 t)).emb j)
  refine congrArg X (funext fun a => Fin.ext ?_)
  match a with
  | ⟨0, _⟩ => show win4_14.index t (0 : Fin 2) * 1000 + 1 * (j 0).val = t.val * 1000 + 1 * (j 0).val; rw [e14a]
  | ⟨1, _⟩ => show win4_14.index t (1 : Fin 2) * 10 + 1 * (j 1).val = 0 + 1 * (j 1).val; rw [e14b, Nat.zero_mul]
theorem read_blk4_15 (t : Fin cfg4.N) (X : FVec F S10000x64 .f32) :
    ((cfg4.win 15).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 15).blk t).view.emb j) = X ((rowRect 1000 t.val (rows4 t)).emb j)
  refine congrArg X (funext fun a => Fin.ext ?_)
  match a with
  | ⟨0, _⟩ => show win4_15.index t (0 : Fin 2) * 1000 + 1 * (j 0).val = t.val * 1000 + 1 * (j 0).val; rw [e15a]
  | ⟨1, _⟩ => show win4_15.index t (1 : Fin 2) * 64 + 1 * (j 1).val = 0 + 1 * (j 1).val; rw [e15b, Nat.zero_mul]
theorem read_blk4_16 (t : Fin cfg4.N) (X : FVec F S10000x64 .f32) :
    ((cfg4.win 16).blk t).view.read (Elt F) X = rowBlk 1000 t.val (rows4 t) X := by
  obtain ⟨e0a, e0b, e1a, e1b, e2a, e2b, e3a, e3b, e4a, e4b, e5a, e5b, e14a, e14b, e15a, e15b, e16a, e16b⟩ := idx_row4 t
  funext j
  show X (((cfg4.win 16).blk t).view.emb j) = X ((rowRect 1000 t.val (rows4 t)).emb j)
  refine congrArg X (funext fun a => Fin.ext ?_)
  match a with
  | ⟨0, _⟩ => show win4_16.index t (0 : Fin 2) * 1000 + 1 * (j 0).val = t.val * 1000 + 1 * (j 0).val; rw [e16a]
  | ⟨1, _⟩ => show win4_16.index t (1 : Fin 2) * 64 + 1 * (j 1).val = 0 + 1 * (j 1).val; rw [e16b, Nat.zero_mul]

/-! A whole-array window's block is the array. -/

theorem read_blk4_6 (t : Fin cfg4.N) (X : FVec F S128x256 .f32) :
    ((cfg4.win 6).blk t).view.read (Elt F) X = X := by
  obtain ⟨e6a, e6b, e7a, e7b, e8a, e8b, e9a, e9b, e10a, e10b, e11a, e11b, e12a, e12b, e13a, e13b⟩ := idx_whole4 t
  funext j
  show X (((cfg4.win 6).blk t).view.emb j) = X j
  refine congrArg X (funext fun a => Fin.ext ?_)
  match a with
  | ⟨0, _⟩ => show win4_6.index t (0 : Fin 2) * 128 + 1 * (j 0).val = (j 0).val; rw [e6a]; omega
  | ⟨1, _⟩ => show win4_6.index t (1 : Fin 2) * 256 + 1 * (j 1).val = (j 1).val; rw [e6b]; omega
theorem read_blk4_7 (t : Fin cfg4.N) (X : FVec F S128x256 .f32) :
    ((cfg4.win 7).blk t).view.read (Elt F) X = X := by
  obtain ⟨e6a, e6b, e7a, e7b, e8a, e8b, e9a, e9b, e10a, e10b, e11a, e11b, e12a, e12b, e13a, e13b⟩ := idx_whole4 t
  funext j
  show X (((cfg4.win 7).blk t).view.emb j) = X j
  refine congrArg X (funext fun a => Fin.ext ?_)
  match a with
  | ⟨0, _⟩ => show win4_7.index t (0 : Fin 2) * 128 + 1 * (j 0).val = (j 0).val; rw [e7a]; omega
  | ⟨1, _⟩ => show win4_7.index t (1 : Fin 2) * 256 + 1 * (j 1).val = (j 1).val; rw [e7b]; omega
theorem read_blk4_8 (t : Fin cfg4.N) (X : FVec F S64x256 .f32) :
    ((cfg4.win 8).blk t).view.read (Elt F) X = X := by
  obtain ⟨e6a, e6b, e7a, e7b, e8a, e8b, e9a, e9b, e10a, e10b, e11a, e11b, e12a, e12b, e13a, e13b⟩ := idx_whole4 t
  funext j
  show X (((cfg4.win 8).blk t).view.emb j) = X j
  refine congrArg X (funext fun a => Fin.ext ?_)
  match a with
  | ⟨0, _⟩ => show win4_8.index t (0 : Fin 2) * 64 + 1 * (j 0).val = (j 0).val; rw [e8a]; omega
  | ⟨1, _⟩ => show win4_8.index t (1 : Fin 2) * 256 + 1 * (j 1).val = (j 1).val; rw [e8b]; omega
theorem read_blk4_9 (t : Fin cfg4.N) (X : FVec F S64x256 .f32) :
    ((cfg4.win 9).blk t).view.read (Elt F) X = X := by
  obtain ⟨e6a, e6b, e7a, e7b, e8a, e8b, e9a, e9b, e10a, e10b, e11a, e11b, e12a, e12b, e13a, e13b⟩ := idx_whole4 t
  funext j
  show X (((cfg4.win 9).blk t).view.emb j) = X j
  refine congrArg X (funext fun a => Fin.ext ?_)
  match a with
  | ⟨0, _⟩ => show win4_9.index t (0 : Fin 2) * 64 + 1 * (j 0).val = (j 0).val; rw [e9a]; omega
  | ⟨1, _⟩ => show win4_9.index t (1 : Fin 2) * 256 + 1 * (j 1).val = (j 1).val; rw [e9b]; omega
theorem read_blk4_10 (t : Fin cfg4.N) (X : FVec F S1x256 .f32) :
    ((cfg4.win 10).blk t).view.read (Elt F) X = X := by
  obtain ⟨e6a, e6b, e7a, e7b, e8a, e8b, e9a, e9b, e10a, e10b, e11a, e11b, e12a, e12b, e13a, e13b⟩ := idx_whole4 t
  funext j
  show X (((cfg4.win 10).blk t).view.emb j) = X j
  refine congrArg X (funext fun a => Fin.ext ?_)
  match a with
  | ⟨0, _⟩ => show win4_10.index t (0 : Fin 2) * 1 + 1 * (j 0).val = (j 0).val; rw [e10a]; omega
  | ⟨1, _⟩ => show win4_10.index t (1 : Fin 2) * 256 + 1 * (j 1).val = (j 1).val; rw [e10b]; omega
theorem read_blk4_11 (t : Fin cfg4.N) (X : FVec F S3x64 .f32) :
    ((cfg4.win 11).blk t).view.read (Elt F) X = X := by
  obtain ⟨e6a, e6b, e7a, e7b, e8a, e8b, e9a, e9b, e10a, e10b, e11a, e11b, e12a, e12b, e13a, e13b⟩ := idx_whole4 t
  funext j
  show X (((cfg4.win 11).blk t).view.emb j) = X j
  refine congrArg X (funext fun a => Fin.ext ?_)
  match a with
  | ⟨0, _⟩ => show win4_11.index t (0 : Fin 2) * 3 + 1 * (j 0).val = (j 0).val; rw [e11a]; omega
  | ⟨1, _⟩ => show win4_11.index t (1 : Fin 2) * 64 + 1 * (j 1).val = (j 1).val; rw [e11b]; omega
theorem read_blk4_12 (t : Fin cfg4.N) (X : FVec F S64x10 .f32) :
    ((cfg4.win 12).blk t).view.read (Elt F) X = X := by
  obtain ⟨e6a, e6b, e7a, e7b, e8a, e8b, e9a, e9b, e10a, e10b, e11a, e11b, e12a, e12b, e13a, e13b⟩ := idx_whole4 t
  funext j
  show X (((cfg4.win 12).blk t).view.emb j) = X j
  refine congrArg X (funext fun a => Fin.ext ?_)
  match a with
  | ⟨0, _⟩ => show win4_12.index t (0 : Fin 2) * 64 + 1 * (j 0).val = (j 0).val; rw [e12a]; omega
  | ⟨1, _⟩ => show win4_12.index t (1 : Fin 2) * 10 + 1 * (j 1).val = (j 1).val; rw [e12b]; omega
theorem read_blk4_13 (t : Fin cfg4.N) (X : FVec F S1x10 .f32) :
    ((cfg4.win 13).blk t).view.read (Elt F) X = X := by
  obtain ⟨e6a, e6b, e7a, e7b, e8a, e8b, e9a, e9b, e10a, e10b, e11a, e11b, e12a, e12b, e13a, e13b⟩ := idx_whole4 t
  funext j
  show X (((cfg4.win 13).blk t).view.emb j) = X j
  refine congrArg X (funext fun a => Fin.ext ?_)
  match a with
  | ⟨0, _⟩ => show win4_13.index t (0 : Fin 2) * 1 + 1 * (j 0).val = (j 0).val; rw [e13a]; omega
  | ⟨1, _⟩ => show win4_13.index t (1 : Fin 2) * 10 + 1 * (j 1).val = (j 1).val; rw [e13b]; omega

/-! The same for the blocks the proof data name. -/

theorem iblk4_0 (c : Dev nD) (A : Arr2 (F := F) c) (t : Fin cfg4.N) : iblk4 c A 0 t = rowBlk 1000 t.val (rows4 t) (A 0) := read_blk4_0 t (A 0)
theorem iblk4_1 (c : Dev nD) (A : Arr2 (F := F) c) (t : Fin cfg4.N) : iblk4 c A 1 t = rowBlk 1000 t.val (rows4 t) (A 1) := read_blk4_1 t (A 1)
theorem iblk4_2 (c : Dev nD) (A : Arr2 (F := F) c) (t : Fin cfg4.N) : iblk4 c A 2 t = rowBlk 1000 t.val (rows4 t) (A 2) := read_blk4_2 t (A 2)
theorem iblk4_3 (c : Dev nD) (A : Arr2 (F := F) c) (t : Fin cfg4.N) : iblk4 c A 3 t = rowBlk 1000 t.val (rows4 t) (A 3) := read_blk4_3 t (A 3)
theorem iblk4_4 (c : Dev nD) (A : Arr2 (F := F) c) (t : Fin cfg4.N) : iblk4 c A 4 t = rowBlk 1000 t.val (rows4 t) (A 4) := read_blk4_4 t (A 4)
theorem iblk4_5 (c : Dev nD) (A : Arr2 (F := F) c) (t : Fin cfg4.N) : iblk4 c A 5 t = rowBlk 1000 t.val (rows4 t) (A 5) := read_blk4_5 t (A 5)
theorem iblk4_6 (c : Dev nD) (A : Arr2 (F := F) c) (t : Fin cfg4.N) : iblk4 c A 6 t = A 6 := read_blk4_6 t (A 6)
theorem iblk4_7 (c : Dev nD) (A : Arr2 (F := F) c) (t : Fin cfg4.N) : iblk4 c A 7 t = A 7 := read_blk4_7 t (A 7)
theorem iblk4_8 (c : Dev nD) (A : Arr2 (F := F) c) (t : Fin cfg4.N) : iblk4 c A 8 t = A 8 := read_blk4_8 t (A 8)
theorem iblk4_9 (c : Dev nD) (A : Arr2 (F := F) c) (t : Fin cfg4.N) : iblk4 c A 9 t = A 9 := read_blk4_9 t (A 9)
theorem iblk4_10 (c : Dev nD) (A : Arr2 (F := F) c) (t : Fin cfg4.N) : iblk4 c A 10 t = A 10 := read_blk4_10 t (A 10)
theorem iblk4_11 (c : Dev nD) (A : Arr2 (F := F) c) (t : Fin cfg4.N) : iblk4 c A 11 t = A 11 := read_blk4_11 t (A 11)
theorem iblk4_12 (c : Dev nD) (A : Arr2 (F := F) c) (t : Fin cfg4.N) : iblk4 c A 12 t = A 12 := read_blk4_12 t (A 12)
theorem iblk4_13 (c : Dev nD) (A : Arr2 (F := F) c) (t : Fin cfg4.N) : iblk4 c A 13 t = A 13 := read_blk4_13 t (A 13)

/-! ## What the body's stores leave, as the payloads of the blocks -/

section OutEq
variable (x1 : Vec F S1000x128 .f32) (x2 : Vec F S1000x64 .f32) (x3 : Vec F S1000x64 .f32) (x4 : Vec F S1000x128 .f32) (x5 : Vec F S1000x64 .f32) (x6 : Vec F S1000x1 .f32) (x7 : Vec F S128x256 .f32) (x8 : Vec F S128x256 .f32) (x9 : Vec F S64x256 .f32) (x10 : Vec F S64x256 .f32) (x11 : Vec F S1x256 .f32) (x12 : Vec F S3x64 .f32) (x13 : Vec F S64x10 .f32) (x14 : Vec F S1x10 .f32)

/-- The body's loads of the peephole rows are the rows. -/
theorem ld_row0 : (View.ld (Val := Elt F) x12 rG0 : Vec F S1x64 .f32) = wpRow0 x12 := rfl
theorem ld_row1 : (View.ld (Val := Elt F) x12 rG1 : Vec F S1x64 .f32) = wpRow1 x12 := rfl
theorem ld_row2 : (View.ld (Val := Elt F) x12 rG2 : Vec F S1x64 .f32) = wpRow2 x12 := rfl

theorem cell4_eq : cell4 x1 x2 x3 x4 x5 x6 x7 x8 x9 x10 x11 x12 = k4_pay13 x1 (k4_pay7 x2) (k4_pay8 x3) (k4_pay9 x6 x1 x4) (k4_pay10 x6 x2 x5) (k4_pay11 x7) (constant S1000x256 .f32 0x00000000#32) x8 x9 x10 x11 (wpRow0 x12) (wpRow1 x12) := by
  unfold cell4
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]
  rw [ld_row0, ld_row1]

theorem hid4_eq : hid4 x1 x2 x3 x4 x5 x6 x7 x8 x9 x10 x11 x12 = k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12) := by
  unfold hid4
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]
  rw [ld_row0, ld_row1, ld_row2]

theorem out4_16_eq : out4_16 x1 x2 x3 x4 x5 x6 x7 x8 x9 x10 x11 x12 = k4_pay13 x1 (k4_pay7 x2) (k4_pay8 x3) (k4_pay9 x6 x1 x4) (k4_pay10 x6 x2 x5) (k4_pay11 x7) (constant S1000x256 .f32 0x00000000#32) x8 x9 x10 x11 (wpRow0 x12) (wpRow1 x12) := by
  unfold out4_16
  rw [View.canon_unit_zero zeros2, cell4_eq]

theorem out4_15_eq : out4_15 x1 x2 x3 x4 x5 x6 x7 x8 x9 x10 x11 x12 = k4_pay1 (k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12)) (Scalar.ofBits .f32 0x00000000#32) := by
  unfold out4_15
  rw [View.canon_unit_zero zeros2, hid4_eq]

theorem out4_14_eq : out4_14 x1 x2 x3 x4 x5 x6 x7 x8 x9 x10 x11 x12 x13 x14 = k4_pay2 (k4_pay14 x1 (k4_pay7 x2) (k4_pay8 x3) (k4_pay9 x6 x1 x4) (k4_pay10 x6 x2 x5) (k4_pay11 x7) (constant S1000x256 .f32 0x00000000#32) x8 x9 x10 x11 (wpRow0 x12) (wpRow1 x12) (wpRow2 x12)) (Scalar.ofBits .f32 0x00000000#32) x13 x14 := by
  unfold out4_14
  rw [View.canon_unit_zero zeros2, hid4_eq]
  simp only [View.ld_unit_zero (S := S1000x128) zeros2, View.ld_unit_zero (S := S1000x64) zeros2, View.ld_unit_zero (S := S1000x1) zeros2,
    View.ld_unit_zero (S := S128x256) zeros2, View.ld_unit_zero (S := S64x256) zeros2, View.ld_unit_zero (S := S1x256) zeros2,
    View.ld_unit_zero (S := S64x10) zeros2, View.ld_unit_zero (S := S1x10) zeros2]

end OutEq

attribute [local irreducible] iblk4

section Values

variable (O : CellTallies nD τ sig (HIx 2)) (B : Set (SemLoc sig × HIx 2))

/-- The fourteen input arrays are not written. -/
theorem arrAt2_in (c : Dev nD) (A : Arr2 (F := F) c) (w : Fin cfg4.W) (hw : (cfg4.win w).isOut = false) :
    (dat2 O B c A).arrAt w cfg4.N = A w := (dat2 O B c A).arrAt_in w hw _

set_option maxHeartbeats 4000000 in
/-- What point `t` writes back of result 2 is block `t` of the whole-array function. -/
theorem flushed4_16 (c : Dev nD) (A : Arr2 (F := F) c) (t : Fin cfg4.N) :
    (dat2 O B c A).flushed 16 t = ((cfg4.win 16).blk t).view.read (Elt F) (dense2 (A 0) (A 1) (A 2) (A 3) (A 4) (A 5) (A 6) (A 7) (A 8) (A 9) (A 10) (A 11)) := by
  show (cfg4.win 16).cut (grid4.coords t) ((dat2 O B c A).after 16 t) = _
  rw [after4_16, read_blk4_16, out4_16_eq]
  unfold dense2
  rw [rowBlk_blockwise]
  unfold denseC
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t]
  rfl

/-- An index of the array is in point `t`'s block iff each coordinate is in the block's range on its axis. -/
theorem mem_blk4_16 (t : Fin cfg4.N) (i : S10000x64.Idx) :
    i ∈ ((cfg4.win 16).blk t).view.set ↔ ∀ a : Fin 2, win4_16.index t a * S1000x64.size a ≤ (i a).val ∧ (i a).val < win4_16.index t a * S1000x64.size a + S1000x64.size a := by
  show i ∈ ((View.whole main_v46_2).slice (win4_16.rect t)).set ↔ _
  rw [View.set_slice_whole, Rect.mem_set_unit]
  exact Iff.rfl

/-- Every row is in the block of the point `row / 1000`. -/
theorem cover4_16_arr (i : S10000x64.Idx) : ∃ t : Fin cfg4.N, (cfg4.win 16).flush t = true ∧ i ∈ ((cfg4.win 16).blk t).view.set := by
  have hi0 : (i 0).val < 10000 := (i 0).isLt
  have hi1 : (i 1).val < 64 := (i 1).isLt
  have hN : cfg4.N = 10 := N_4
  refine ⟨⟨(i 0).val / 1000, by rw [hN]; omega⟩, flush4_16 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_16]
  intro a
  match a with
  | ⟨0, _⟩ =>
    show win4_16.index _ (0 : Fin 2) * 1000 ≤ (i 0).val ∧ (i 0).val < win4_16.index _ (0 : Fin 2) * 1000 + 1000
    rw [e16a]; show (i 0).val / 1000 * 1000 ≤ (i 0).val ∧ (i 0).val < (i 0).val / 1000 * 1000 + 1000; omega
  | ⟨1, _⟩ =>
    show win4_16.index _ (1 : Fin 2) * 64 ≤ (i 1).val ∧ (i 1).val < win4_16.index _ (1 : Fin 2) * 64 + 64
    rw [e16b]; omega

/-- Result 2 after the region: the whole-array function of the input arrays as the region finds them. -/
theorem arrAt2_16 (c : Dev nD) (A : Arr2 (F := F) c) : (dat2 O B c A).arrAt 16 cfg4.N = dense2 (A 0) (A 1) (A 2) (A 3) (A 4) (A 5) (A 6) (A 7) (A 8) (A 9) (A 10) (A 11) :=
  (dat2 O B c A).arrAt_eq_of_cover 16 _ (fun t _ => flushed4_16 O B c A t) cover4_16_arr

set_option maxHeartbeats 4000000 in
/-- What point `t` writes back of result 1 is block `t` of the whole-array function. -/
theorem flushed4_15 (c : Dev nD) (A : Arr2 (F := F) c) (t : Fin cfg4.N) :
    (dat2 O B c A).flushed 15 t = ((cfg4.win 15).blk t).view.read (Elt F) (dense1 (A 0) (A 1) (A 2) (A 3) (A 4) (A 5) (A 6) (A 7) (A 8) (A 9) (A 10) (A 11)) := by
  show (cfg4.win 15).cut (grid4.coords t) ((dat2 O B c A).after 15 t) = _
  rw [after4_15, read_blk4_15, out4_15_eq]
  unfold dense1
  rw [rowBlk_blockwise]
  unfold denseH
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t]
  rfl

/-- An index of the array is in point `t`'s block iff each coordinate is in the block's range on its axis. -/
theorem mem_blk4_15 (t : Fin cfg4.N) (i : S10000x64.Idx) :
    i ∈ ((cfg4.win 15).blk t).view.set ↔ ∀ a : Fin 2, win4_15.index t a * S1000x64.size a ≤ (i a).val ∧ (i a).val < win4_15.index t a * S1000x64.size a + S1000x64.size a := by
  show i ∈ ((View.whole main_v46_1).slice (win4_15.rect t)).set ↔ _
  rw [View.set_slice_whole, Rect.mem_set_unit]
  exact Iff.rfl

/-- Every row is in the block of the point `row / 1000`. -/
theorem cover4_15_arr (i : S10000x64.Idx) : ∃ t : Fin cfg4.N, (cfg4.win 15).flush t = true ∧ i ∈ ((cfg4.win 15).blk t).view.set := by
  have hi0 : (i 0).val < 10000 := (i 0).isLt
  have hi1 : (i 1).val < 64 := (i 1).isLt
  have hN : cfg4.N = 10 := N_4
  refine ⟨⟨(i 0).val / 1000, by rw [hN]; omega⟩, flush4_15 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_15]
  intro a
  match a with
  | ⟨0, _⟩ =>
    show win4_15.index _ (0 : Fin 2) * 1000 ≤ (i 0).val ∧ (i 0).val < win4_15.index _ (0 : Fin 2) * 1000 + 1000
    rw [e15a]; show (i 0).val / 1000 * 1000 ≤ (i 0).val ∧ (i 0).val < (i 0).val / 1000 * 1000 + 1000; omega
  | ⟨1, _⟩ =>
    show win4_15.index _ (1 : Fin 2) * 64 ≤ (i 1).val ∧ (i 1).val < win4_15.index _ (1 : Fin 2) * 64 + 64
    rw [e15b]; omega

/-- Result 1 after the region: the whole-array function of the input arrays as the region finds them. -/
theorem arrAt2_15 (c : Dev nD) (A : Arr2 (F := F) c) : (dat2 O B c A).arrAt 15 cfg4.N = dense1 (A 0) (A 1) (A 2) (A 3) (A 4) (A 5) (A 6) (A 7) (A 8) (A 9) (A 10) (A 11) :=
  (dat2 O B c A).arrAt_eq_of_cover 15 _ (fun t _ => flushed4_15 O B c A t) cover4_15_arr

set_option maxHeartbeats 4000000 in
/-- What point `t` writes back of result 0 is block `t` of the whole-array function. -/
theorem flushed4_14 (c : Dev nD) (A : Arr2 (F := F) c) (t : Fin cfg4.N) :
    (dat2 O B c A).flushed 14 t = ((cfg4.win 14).blk t).view.read (Elt F) (dense0 (A 0) (A 1) (A 2) (A 3) (A 4) (A 5) (A 6) (A 7) (A 8) (A 9) (A 10) (A 11) (A 12) (A 13)) := by
  show (cfg4.win 14).cut (grid4.coords t) ((dat2 O B c A).after 14 t) = _
  rw [after4_14, read_blk4_14, out4_14_eq]
  unfold dense0
  rw [rowBlk_blockwise]
  unfold denseH
  rw [iblk4_0 c A t, iblk4_1 c A t, iblk4_2 c A t, iblk4_3 c A t, iblk4_4 c A t, iblk4_5 c A t, iblk4_6 c A t, iblk4_7 c A t, iblk4_8 c A t, iblk4_9 c A t, iblk4_10 c A t, iblk4_11 c A t, iblk4_12 c A t, iblk4_13 c A t]
  rfl

/-- An index of the array is in point `t`'s block iff each coordinate is in the block's range on its axis. -/
theorem mem_blk4_14 (t : Fin cfg4.N) (i : S10000x10.Idx) :
    i ∈ ((cfg4.win 14).blk t).view.set ↔ ∀ a : Fin 2, win4_14.index t a * S1000x10.size a ≤ (i a).val ∧ (i a).val < win4_14.index t a * S1000x10.size a + S1000x10.size a := by
  show i ∈ ((View.whole main_v46_0).slice (win4_14.rect t)).set ↔ _
  rw [View.set_slice_whole, Rect.mem_set_unit]
  exact Iff.rfl

/-- Every row is in the block of the point `row / 1000`. -/
theorem cover4_14_arr (i : S10000x10.Idx) : ∃ t : Fin cfg4.N, (cfg4.win 14).flush t = true ∧ i ∈ ((cfg4.win 14).blk t).view.set := by
  have hi0 : (i 0).val < 10000 := (i 0).isLt
  have hi1 : (i 1).val < 10 := (i 1).isLt
  have hN : cfg4.N = 10 := N_4
  refine ⟨⟨(i 0).val / 1000, by rw [hN]; omega⟩, flush4_14 _, ?_⟩
  obtain ⟨e0a, e0b, e1a, e1b, e2a, e2b, e3a, e3b, e4a, e4b, e5a, e5b, e14a, e14b, e15a, e15b, e16a, e16b⟩ := idx_row4 ⟨(i 0).val / 1000, by rw [hN]; omega⟩
  rw [mem_blk4_14]
  intro a
  match a with
  | ⟨0, _⟩ =>
    show win4_14.index _ (0 : Fin 2) * 1000 ≤ (i 0).val ∧ (i 0).val < win4_14.index _ (0 : Fin 2) * 1000 + 1000
    rw [e14a]; show (i 0).val / 1000 * 1000 ≤ (i 0).val ∧ (i 0).val < (i 0).val / 1000 * 1000 + 1000; omega
  | ⟨1, _⟩ =>
    show win4_14.index _ (1 : Fin 2) * 10 ≤ (i 1).val ∧ (i 1).val < win4_14.index _ (1 : Fin 2) * 10 + 10
    rw [e14b]; omega

/-- Result 0 after the region: the whole-array function of the input arrays as the region finds them. -/
theorem arrAt2_14 (c : Dev nD) (A : Arr2 (F := F) c) : (dat2 O B c A).arrAt 14 cfg4.N = dense0 (A 0) (A 1) (A 2) (A 3) (A 4) (A 5) (A 6) (A 7) (A 8) (A 9) (A 10) (A 11) (A 12) (A 13) :=
  (dat2 O B c A).arrAt_eq_of_cover 14 _ (fun t _ => flushed4_14 O B c A t) cover4_14_arr

end Values

end Cert.Proof.KB.Region

end
-- ==== Proof.KB.RegionAdapt2.lean ====
/-
  The three TensorCore regions as @main's proof takes them: over a region's own arrays held whole at any valuation,
  the region runs to the valuation with its results written; what the TensorCore owes and the boundary go in and come
  back, the pipeline's ghost state is consumed. Each is the region's own triple with the windows' arrays read off
  the valuation, window by window, and the arrays it leaves read back into the rewritten valuation.
-/
import proofs.«207992_g50208167690906_cont_8to1c4_731_36_alg».proof.Proof.KB.Main
import proofs.«207992_g50208167690906_cont_8to1c4_731_36_alg».proof.Proof.KB.RegionHeld
import proofs.«207992_g50208167690906_cont_8to1c4_731_36_alg».proof.Proof.KB.Region2
import proofs.«207992_g50208167690906_cont_8to1c4_731_36_alg».proof.Proof.KB.Region2Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (P : (K (F := F)).Pay (nD := nD) (Val := Elt F) (Name := ℕ) (U := UU))

/-! ## The dense region -/

/-- The dense region's seventeen arrays, read off a valuation window by window. -/
def arr2 (W : Valuation τ sig (Elt F)) (c : Dev nD) : Region.Arr2 (F := F) c := fun w => W (dr (Pipeline.arrRef spec4 w))

omit [FloatOps F] in
theorem heldArr2 (d : Dev nD) (W : Valuation τ sig (Elt F)) :
    (held (T d) R2 W : sProp 𝕄) = Region.arrs2 d (arr2 W d) := held_R2 d W

/-- The rewritten valuation away from the three results, and at each. -/
theorem denseOut_other (W : Valuation τ sig (Elt F)) (b : DevRef τ sig) (h0 : b ≠ dr main_v46_0) (h1 : b ≠ dr main_v46_1) (h2 : b ≠ dr main_v46_2) :
    denseOut W b = W b := by
  unfold denseOut
  rw [Function.update_of_ne h2, Function.update_of_ne h1, Function.update_of_ne h0]
theorem denseOut_at0 (W : Valuation τ sig (Elt F)) : denseOut W (dr main_v46_0) = denseOut0 W := by
  unfold denseOut
  rw [Function.update_of_ne (show dr main_v46_0 ≠ dr main_v46_2 by decide), Function.update_of_ne (show dr main_v46_0 ≠ dr main_v46_1 by decide), Function.update_self]
theorem denseOut_at1 (W : Valuation τ sig (Elt F)) : denseOut W (dr main_v46_1) = denseOut1 W := by
  unfold denseOut
  rw [Function.update_of_ne (show dr main_v46_1 ≠ dr main_v46_2 by decide), Function.update_self]
theorem denseOut_at2 (W : Valuation τ sig (Elt F)) : denseOut W (dr main_v46_2) = denseOut2 W := by
  unfold denseOut
  rw [Function.update_self]

/-- What the region leaves in its arrays is the rewritten valuation, window by window. -/
theorem arrAt2_denseOut (O : CellTallies nD τ sig (HIx 2)) (B : Set (SemLoc sig × HIx 2)) (d : Dev nD) (W : Valuation τ sig (Elt F)) :
    (fun w => (Region.dat2 O B d (arr2 W d)).arrAt w cfg4.N) = arr2 (denseOut W) d := by
  funext w
  match w with
  | ⟨0, h⟩ => exact ((Region.dat2 O B d (arr2 W d)).arrAt_in ⟨0, h⟩ rfl _).trans (denseOut_other W (dr main_arg0) (by decide) (by decide) (by decide)).symm
  | ⟨1, h⟩ => exact ((Region.dat2 O B d (arr2 W d)).arrAt_in ⟨1, h⟩ rfl _).trans (denseOut_other W (dr main_v5) (by decide) (by decide) (by decide)).symm
  | ⟨2, h⟩ => exact ((Region.dat2 O B d (arr2 W d)).arrAt_in ⟨2, h⟩ rfl _).trans (denseOut_other W (dr main_v7) (by decide) (by decide) (by decide)).symm
  | ⟨3, h⟩ => exact ((Region.dat2 O B d (arr2 W d)).arrAt_in ⟨3, h⟩ rfl _).trans (denseOut_other W (dr main_v24) (by decide) (by decide) (by decide)).symm
  | ⟨4, h⟩ => exact ((Region.dat2 O B d (arr2 W d)).arrAt_in ⟨4, h⟩ rfl _).trans (denseOut_other W (dr main_v25) (by decide) (by decide) (by decide)).symm
  | ⟨5, h⟩ => exact ((Region.dat2 O B d (arr2 W d)).arrAt_in ⟨5, h⟩ rfl _).trans (denseOut_other W (dr main_v12) (by decide) (by decide) (by decide)).symm
  | ⟨6, h⟩ => exact ((Region.dat2 O B d (arr2 W d)).arrAt_in ⟨6, h⟩ rfl _).trans (denseOut_other W (dr main_v29) (by decide) (by decide) (by decide)).symm
  | ⟨7, h⟩ => exact ((Region.dat2 O B d (arr2 W d)).arrAt_in ⟨7, h⟩ rfl _).trans (denseOut_other W (dr main_v33) (by decide) (by decide) (by decide)).symm
  | ⟨8, h⟩ => exact ((Region.dat2 O B d (arr2 W d)).arrAt_in ⟨8, h⟩ rfl _).trans (denseOut_other W (dr main_v37) (by decide) (by decide) (by decide)).symm
  | ⟨9, h⟩ => exact ((Region.dat2 O B d (arr2 W d)).arrAt_in ⟨9, h⟩ rfl _).trans (denseOut_other W (dr main_v41) (by decide) (by decide) (by decide)).symm
  | ⟨10, h⟩ => exact ((Region.dat2 O B d (arr2 W d)).arrAt_in ⟨10, h⟩ rfl _).trans (denseOut_other W (dr main_v44) (by decide) (by decide) (by decide)).symm
  | ⟨11, h⟩ => exact ((Region.dat2 O B d (arr2 W d)).arrAt_in ⟨11, h⟩ rfl _).trans (denseOut_other W (dr main_arg7) (by decide) (by decide) (by decide)).symm
  | ⟨12, h⟩ => exact ((Region.dat2 O B d (arr2 W d)).arrAt_in ⟨12, h⟩ rfl _).trans (denseOut_other W (dr main_arg9) (by decide) (by decide) (by decide)).symm
  | ⟨13, h⟩ => exact ((Region.dat2 O B d (arr2 W d)).arrAt_in ⟨13, h⟩ rfl _).trans (denseOut_other W (dr main_v45) (by decide) (by decide) (by decide)).symm
  | ⟨14, _⟩ => exact (Region.arrAt2_14 O B d (arr2 W d)).trans (denseOut_at0 W).symm
  | ⟨15, _⟩ => exact (Region.arrAt2_15 O B d (arr2 W d)).trans (denseOut_at1 W).symm
  | ⟨16, _⟩ => exact (Region.arrAt2_16 O B d (arr2 W d)).trans (denseOut_at2 W).symm
  | ⟨_ + 17, h⟩ => exact absurd h (Nat.not_lt.2 (Nat.le_add_left _ _))

/-- The dense region, as @main's proof takes it. -/
theorem regionSpec2 : RegionSpec P 2 R2 denseOut := by
  intro κ d n W Φ
  iintro ⟨#Hctx, Hb, Ho, Hg, Hheld, Hk⟩
  ihave Hl := (SparseCore.Cfg.ctx_levAts (K := K (F := F)) (EH := EH) (P := P) κ) $$ Hctx
  iapply (Region.region_2_tc (F := F) (K (F := F)).lev (SparseCore.Cfg.refines_self _) n (arr2 W) d Φ)
  isplitr; · iexact Hl
  isplitl [Hb]; · iexact Hb
  isplitl [Hg]; · iexact Hg
  isplitl [Ho]; · iexact Ho
  isplitl [Hheld]
  · rw [← heldArr2]; iexact Hheld
  iintro ⟨Hb, Ho, Ha⟩
  iapply Hk
  isplitl [Hb]; · iexact Hb
  isplitl [Ho]; · iexact Ho
  rw [heldArr2, ← arrAt2_denseOut]
  iexact Ha

end Cert.Proof.KB

end
-- ==== Proof.lean ====
/-
  The claim, assembled. Both programs end at one function of the argument arrays, the specification of the
  graph-convolution LSTM step (Spec.lean): the kernel's program by its run through the SparseCore launch, whose post
  names every array as the chain of its kernels' value functions, read back element by element — the two
  scatter-accumulating kernels as sums over the edge list, the three blockwise kernels row by row —; the reference by its
  run read back operation by operation, the rescaled Laplacian's algebra (its largest eigenvalue bound is 1 on every
  admitted input, and sums over the edges into a node distribute over finite real data) joining the two arrangements.
  The frames are the runs with the values dropped; the idealization rewrote nothing.
-/
import proofs.«207992_g50208167690906_cont_8to1c4_731_36_alg».proof.Defs
import proofs.«207992_g50208167690906_cont_8to1c4_731_36_alg».proof.Proof.Spec
import proofs.«207992_g50208167690906_cont_8to1c4_731_36_alg».proof.Proof.Gen.Kernel
import proofs.«207992_g50208167690906_cont_8to1c4_731_36_alg».proof.Proof.Gen.KernelIdeal
import proofs.«207992_g50208167690906_cont_8to1c4_731_36_alg».proof.Proof.Gen.ReferenceIdeal
import proofs.«207992_g50208167690906_cont_8to1c4_731_36_alg».proof.Proof.Gen.Pre_input_domain
import proofs.«207992_g50208167690906_cont_8to1c4_731_36_alg».proof.Proof.RefGateFrame
import proofs.«207992_g50208167690906_cont_8to1c4_731_36_alg».proof.Proof.RefGateOut
import proofs.«207992_g50208167690906_cont_8to1c4_731_36_alg».proof.Proof.KI.Claim
import proofs.«207992_g50208167690906_cont_8to1c4_731_36_alg».proof.Proof.KI.ClaimIdeal
import proofs.«207992_g50208167690906_cont_8to1c4_731_36_alg».proof.Proof.KB.Claim
import proofs.«207992_g50208167690906_cont_8to1c4_731_36_alg».proof.Proof.KI.RegionAdapt0
import proofs.«207992_g50208167690906_cont_8to1c4_731_36_alg».proof.Proof.KI.RegionAdapt1
import proofs.«207992_g50208167690906_cont_8to1c4_731_36_alg».proof.Proof.KI.RegionAdapt2
import proofs.«207992_g50208167690906_cont_8to1c4_731_36_alg».proof.Proof.KB.RegionAdapt0
import proofs.«207992_g50208167690906_cont_8to1c4_731_36_alg».proof.Proof.KB.RegionAdapt1
import proofs.«207992_g50208167690906_cont_8to1c4_731_36_alg».proof.Proof.KB.RegionAdapt2
import Idealize.ShloMosaic.Adequacy
import Idealize.ShloMosaic.Init

noncomputable section

namespace Cert.Proof

open Idealize.ShloMosaic Idealize.SL.Sem

/-- The word-level program runs and leaves its arguments as they were. -/
theorem frame_p : Cert.frame_Kernel := fun m ρ hpre => Cert.Proof.KB.frame_of_pre (F := Bits)
    (fun P => Cert.Proof.KB.regionSpec0 P) (fun P => Cert.Proof.KB.regionSpec1 P) (fun P => Cert.Proof.KB.regionSpec2 P) m ρ hpre

/-- So does the idealized one. -/
theorem frame_pi : Cert.frame_KernelIdeal := fun m ρ hpre => Cert.Proof.KI.frame_of_pre (F := Ideal)
    (fun P => Cert.Proof.KI.regionSpec0 P) (fun P => Cert.Proof.KI.regionSpec1 P) (fun P => Cert.Proof.KI.regionSpec2 P) m ρ hpre

/-- The precondition speaks of the argument arrays only, so memories that agree on them satisfy it together. -/
theorem pre_transfer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.Pre_ReferenceIdeal m' := by
  intro c
  obtain ⟨h0, h1, h2, h3, h4, h5, h6, h7, h8, h9, h10⟩ := hagree c
  have h := hpre c
  unfold Cert.Pre_ReferenceIdeal at *
  rw [h0, h1, h2, h3, h4, h5, h6, h7, h8, h9, h10]
  exact h

/-- Both idealized programs end at the specification of the arguments they agree on. -/
theorem algebraic : Cert.algebraic_KernelIdeal_ReferenceIdeal := by
  intro m ρ m' ρ' hpre hagree
  have hpre' : Cert.Pre_ReferenceIdeal m' := pre_transfer m m' hpre hagree
  have hargs : ∀ c, Cert.Proof.RefSide.argsR m' c = Cert.Proof.KI.Val.specArgs m c := by
    intro c
    obtain ⟨h0, h1, h2, h3, h4, h5, h6, h7, h8, h9, h10⟩ := hagree c
    show Spec.Args.ofArrays _ _ _ _ _ _ _ _ _ _ _ = Spec.Args.ofArrays _ _ _ _ _ _ _ _ _ _ _
    rw [h0, h1, h2, h3, h4, h5, h6, h7, h8, h9, h10]
  refine ⟨fun c => Spec.outArr (Cert.Proof.KI.Val.specArgs m c), fun c => Spec.stateArr (Cert.Proof.KI.Val.specArgs m c),
    Cert.Proof.KI.value_of_pre (fun P => Cert.Proof.KI.regionSpec0 P) (fun P => Cert.Proof.KI.regionSpec1 P)
      (fun P => Cert.Proof.KI.regionSpec2 P) m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.Proof.RefSide.ref_out0 m' hpre' c).trans (congrArg Spec.outArr (hargs c))
  · exact (Cert.Proof.RefSide.ref_out1 m' hpre' c).trans (congrArg Spec.stateArr (hargs c))

theorem claim : Cert.Claim :=
  ⟨Cert.Kernel.Gen.facts, Cert.KernelIdeal.Gen.facts, Cert.ReferenceIdeal.Gen.facts, Cert.Pre_input_domain.Gen.facts,
    frame_p, frame_pi, Cert.Proof.RefSide.frame_ri, trivial, algebraic⟩

end Cert.Proof

end
